-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S2x128x512 .f32 .bf16

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![512, 4096]⟩ 1 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  main_v23

def fn {F : FTy → Type} [FloatOps F] (main_arg0 : FVec F S2x128x512 .f32) (main_arg1 : FVec F S512x512 .f32) (main_arg2 : FVec F S512x512 .f32) (main_arg3 : FVec F S512x512 .f32) (main_arg4 : FVec F S512x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_v13 main_v16
-- ==== Pre_finite_inputs_ReferenceIdeal.lean ====
abbrev S2x1024x512 : Shape := ⟨3, ![2, 1024, 512]⟩
abbrev S512x4096 : Shape := ⟨2, ![512, 4096]⟩
abbrev S4096x512 : Shape := ⟨2, ![4096, 512]⟩
abbrev S_ : Shape := ⟨0, ![]⟩

class Facts : Prop where
  bcast_S_S2x1024x512 : S_.BroadcastsInDim S2x1024x512 (![] : Fin 0 → Fin S2x1024x512.rank)
  reducesTo_S2x1024x512_S_d0_1_2 : S2x1024x512.ReducesTo [0, 1, 2] S_
  h_S_ : 0 < S_.numel
  bcast_S_S512x4096 : S_.BroadcastsInDim S512x4096 (![] : Fin 0 → Fin S512x4096.rank)
  reducesTo_S512x4096_S_d0_1 : S512x4096.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn_part1 {F : FTy → Type} [FloatOps F] (main_arg4 : FVec F S512x4096 .f32) (main_v13 : IVec S_ 1) (main_v16 : IVec S512x4096 1) : IVec S_ 1 :=
  let main_c_5 : IVec S_ 1 := constantI S_ 1 1#1
  let main_v17 : IVec S_ 1 := (fun x v => Host.reduce IntOp.andi x v reducesTo_S512x4096_S_d0_1 h_S_) main_v16 main_c_5
  let main_v18 : IVec S_ 1 := andi main_v13 main_v17
  let main_v19 : FVec F S512x4096 .f32 := Host.absf main_arg4
  let main_cst_6 : FVec F S_ .f32 := constant S_ .f32 0x7F800000#32
  let main_v20 : FVec F S512x4096 .f32 := broadcastInDim S512x4096 ![] bcast_S_S512x4096 main_cst_6
  let main_v21 : IVec S512x4096 1 := cmpf .olt main_v19 main_v20
  let main_c_7 : IVec S_ 1 := constantI S_ 1 1#1
  let main_v22 : IVec S_ 1 := (fun x v => Host.reduce IntOp.andi x v reducesTo_S512x4096_S_d0_1 h_S_) main_v21 main_c_7
  let main_v23 : IVec S_ 1 := andi main_v18 main_v22
  main_v23

def fn {F : FTy → Type} [FloatOps F] (main_arg0 : FVec F S2x1024x512 .f32) (main_arg1 : FVec F S512x4096 .f32) (main_arg2 : FVec F S4096x512 .f32) (main_arg3 : FVec F S512x4096 .f32) (main_arg4 : FVec F S512x4096 .f32) : IVec S_ 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_c : IVec S_ 1 := constantI S_ 1 1#1
  let main_v3 : IVec S_ 1 := (fun x v => Host.reduce IntOp.andi x v reducesTo_S2x1024x512_S_d0_1_2 h_S_) main_v2 main_c
  let main_v4 : FVec F S512x4096 .f32 := Host.absf main_arg1
  let main_cst_0 : FVec F S_ .f32 := constant S_ .f32 0x7F800000#32
  let main_v5 : FVec F S512x4096 .f32 := broadcastInDim S512x4096 ![] bcast_S_S512x4096 main_cst_0
  let main_v6 : IVec S512x4096 1 := cmpf .olt main_v4 main_v5
  let main_c_1 : IVec S_ 1 := constantI S_ 1 1#1
  let main_v7 : IVec S_ 1 := (fun x v => Host.reduce IntOp.andi x v reducesTo_S512x4096_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512x4096 .f32 := Host.absf main_arg3
  let main_cst_4 : FVec F S_ .f32 := constant S_ .f32 0x7F800000#32
  let main_v15 : FVec F S512x4096 .f32 := broadcastInDim S512x4096 ![] bcast_S_S512x4096 main_cst_4
  let main_v16 : IVec S512x4096 1 := cmpf .olt main_v14 main_v15
  fn_part1 (F := F) main_arg4 main_v13 main_v16
-- ==== Kernel.lean ====
abbrev S2x128x512 : Shape := ⟨3, ![2, 128, 512]⟩
abbrev S512x512 : Shape := ⟨2, ![512, 512]⟩
abbrev S8x2x128x512 : Shape := ⟨4, ![8, 2, 128, 512]⟩
abbrev S2x1024x512 : Shape := ⟨3, ![2, 1024, 512]⟩
abbrev S7x2x128x512 : Shape := ⟨4, ![7, 2, 128, 512]⟩
abbrev S7 : Shape := ⟨1, ![7]⟩
abbrev S_ : Shape := ⟨0, ![]⟩
abbrev S1x2x128x512 : Shape := ⟨4, ![1, 2, 128, 512]⟩
abbrev S1 : Shape := ⟨1, ![1]⟩
abbrev S512x1536 : Shape := ⟨2, ![512, 1536]⟩
abbrev S256x512 : Shape := ⟨2, ![256, 512]⟩
abbrev S256x1536 : Shape := ⟨2, ![256, 1536]⟩
abbrev S1x512x512 : Shape := ⟨3, ![1, 512, 512]⟩
abbrev S512x64 : Shape := ⟨2, ![512, 64]⟩
abbrev S512 : Shape := ⟨1, ![512]⟩
abbrev S512x1 : Shape := ⟨2, ![512, 1]⟩
abbrev S2x512x512 : Shape := ⟨3, ![2, 512, 512]⟩
abbrev S1x384x512 : Shape := ⟨3, ![1, 384, 512]⟩
abbrev S384x512 : Shape := ⟨2, ![384, 512]⟩
abbrev S1x1024x512 : Shape := ⟨3, ![1, 1024, 512]⟩
abbrev S1024x512 : Shape := ⟨2, ![1024, 512]⟩
abbrev S384x64 : Shape := ⟨2, ![384, 64]⟩
abbrev S1024x64 : Shape := ⟨2, ![1024, 64]⟩
abbrev S384x1024 : Shape := ⟨2, ![384, 1024]⟩
abbrev S384 : Shape := ⟨1, ![384]⟩
abbrev S384x1 : Shape := ⟨2, ![384, 1]⟩
abbrev S2x384x512 : Shape := ⟨3, ![2, 384, 512]⟩
abbrev S1x128x512 : Shape := ⟨3, ![1, 128, 512]⟩
abbrev S128x512 : Shape := ⟨2, ![128, 512]⟩
abbrev S128x64 : Shape := ⟨2, ![128, 64]⟩
abbrev S128x1024 : Shape := ⟨2, ![128, 1024]⟩
abbrev S128 : Shape := ⟨1, ![128]⟩
abbrev S128x1 : Shape := ⟨2, ![128, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x128x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S2x128x512, .f32⟩
  | .local _ .vmem, ⟨0, _⟩ => ⟨S2x128x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S2x128x512, .f32⟩
  | .local _ .vmem, ⟨6, _⟩ => ⟨S8x2x128x512, .bf16⟩
  | .local _ .vmem, ⟨7, _⟩ => ⟨S2x1024x512, .bf16⟩
  | .local _ .vmem, ⟨8, _⟩ => ⟨S2x1024x512, .bf16⟩
  | .local _ .vmem, ⟨9, _⟩ => ⟨S2x1024x512, .bf16⟩
  | .local _ .vmem, ⟨10, _⟩ => ⟨S7x2x128x512, .bf16⟩
  | .local _ .vmem, ⟨11, _⟩ => ⟨S7x2x128x512, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 2 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : Index := Scalar.indexCast v2
  let c0_31 : Index := 0#32
  let c0_32 : Index := 0#32
  let c0_33 : Index := 0#32
  ![v36.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_40 : BitVec 32 := 0#32
  let c0_i32_41 : BitVec 32 := 0#32
  let c0_i32_42 : BitVec 32 := 0#32
  ![v2.toNat, 0, 0, 0]
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_34 : BitVec 32 := 1#32
  let v40 : BitVec 32 := Scalar.addi v2 c1_i32_34
  let c8_i32_35 : BitVec 32 := 8#32
  let v41 : BitVec 32 := Scalar.remsi v40 c8_i32_35
  let c1_i32_38 : BitVec 32 := 1#32
  let v42 : BitVec 32 := Scalar.muli v41 c1_i32_38
  let v43 : BitVec 32 := Scalar.addi c0_i32_39 v42
  v43.toNat
def k0_dev9 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_46 : BitVec 32 := 2#32
  let v52 : BitVec 32 := Scalar.addi v2 c2_i32_46
  let c8_i32_47 : BitVec 32 := 8#32
  let v53 : BitVec 32 := Scalar.remsi v52 c8_i32_47
  let c1_i32_50 : BitVec 32 := 1#32
  let v54 : BitVec 32 := Scalar.muli v53 c1_i32_50
  let v55 : BitVec 32 := Scalar.addi c0_i32_51 v54
  v55.toNat
def k0_dev10 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_58 : BitVec 32 := 3#32
  let v64 : BitVec 32 := Scalar.addi v2 c3_i32_58
  let c8_i32_59 : BitVec 32 := 8#32
  let v65 : BitVec 32 := Scalar.remsi v64 c8_i32_59
  let c1_i32_62 : BitVec 32 := 1#32
  let v66 : BitVec 32 := Scalar.muli v65 c1_i32_62
  let v67 : BitVec 32 := Scalar.addi c0_i32_63 v66
  v67.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_70 : BitVec 32 := 4#32
  let v76 : BitVec 32 := Scalar.addi v2 c4_i32_70
  let c8_i32_71 : BitVec 32 := 8#32
  let v77 : BitVec 32 := Scalar.remsi v76 c8_i32_71
  let c1_i32_74 : BitVec 32 := 1#32
  let v78 : BitVec 32 := Scalar.muli v77 c1_i32_74
  let v79 : BitVec 32 := Scalar.addi c0_i32_75 v78
  v79.toNat
def k0_dev12 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_82 : BitVec 32 := 5#32
  let v88 : BitVec 32 := Scalar.addi v2 c5_i32_82
  let c8_i32_83 : BitVec 32 := 8#32
  let v89 : BitVec 32 := Scalar.remsi v88 c8_i32_83
  let c1_i32_86 : BitVec 32 := 1#32
  let v90 : BitVec 32 := Scalar.muli v89 c1_i32_86
  let v91 : BitVec 32 := Scalar.addi c0_i32_87 v90
  v91.toNat
def k0_dev13 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v100 : BitVec 32 := Scalar.addi v2 c6_i32_94
  let c8_i32_95 : BitVec 32 := 8#32
  let v101 : BitVec 32 := Scalar.remsi v100 c8_i32_95
  let c1_i32_98 : BitVec 32 := 1#32
  let v102 : BitVec 32 := Scalar.muli v101 c1_i32_98
  let v103 : BitVec 32 := Scalar.addi c0_i32_99 v102
  v103.toNat
def k0_dev14 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_106 : BitVec 32 := 7#32
  let v112 : BitVec 32 := Scalar.addi v2 c7_i32_106
  let c8_i32_107 : BitVec 32 := 8#32
  let v113 : BitVec 32 := Scalar.remsi v112 c8_i32_107
  let c1_i32_110 : BitVec 32 := 1#32
  let v114 : BitVec 32 := Scalar.muli v113 c1_i32_110
  let v115 : BitVec 32 := Scalar.addi c0_i32_111 v114
  v115.toNat
def k0_off3 (d0 : Dev nD) : Fin 3 → Nat :=
  let c0_132 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v145 : BitVec 32 := Scalar.subi v2 v2
  let c8_i32_130 : BitVec 32 := 8#32
  let v146 : BitVec 32 := Scalar.addi v145 c8_i32_130
  let c8_i32_131 : BitVec 32 := 8#32
  let v147 : BitVec 32 := Scalar.remsi v146 c8_i32_131
  let c128_i32 : BitVec 32 := 128#32
  let v148 : BitVec 32 := Scalar.muli v147 c128_i32
  let v151 : Index := Scalar.indexCast v148
  let c0_133 : Index := 0#32
  ![0, v151.toNat, 0]
def k0_off4 (d0 : Dev nD) (c1_i32_148 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.subi v2 c1_i32_148
  let c8_i32_149 : BitVec 32 := 8#32
  let v176 : BitVec 32 := Scalar.addi v175 c8_i32_149
  let c8_i32_150 : BitVec 32 := 8#32
  let v177 : BitVec 32 := Scalar.remsi v176 c8_i32_150
  let v178 : Index := Scalar.indexCast v177
  let c0_151 : Index := 0#32
  let c0_152 : Index := 0#32
  let c0_153 : Index := 0#32
  ![v178.toNat, 0, 0, 0]
def k0_off5 (d0 : Dev nD) (c1_i32_148 : BitVec 32) : Fin 3 → Nat :=
  let c0_158 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v175 : BitVec 32 := Scalar.subi v2 c1_i32_148
  let c8_i32_149 : BitVec 32 := 8#32
  let v176 : BitVec 32 := Scalar.addi v175 c8_i32_149
  let c8_i32_150 : BitVec 32 := 8#32
  let v177 : BitVec 32 := Scalar.remsi v176 c8_i32_150
  let v184 : BitVec 32 := Scalar.subi v2 v177
  let c8_i32_155 : BitVec 32 := 8#32
  let v185 : BitVec 32 := Scalar.addi v184 c8_i32_155
  let c8_i32_156 : BitVec 32 := 8#32
  let v186 : BitVec 32 := Scalar.remsi v185 c8_i32_156
  let c128_i32_157 : BitVec 32 := 128#32
  let v187 : BitVec 32 := Scalar.muli v186 c128_i32_157
  let v190 : Index := Scalar.indexCast v187
  let c0_159 : Index := 0#32
  ![0, v190.toNat, 0]
def k0_dev15 (d0 : Dev nD) : Nat :=
  let c0_i32_463 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_451 : BitVec 32 := 1#32
  let v872 : BitVec 32 := Scalar.subi v2 c1_i32_451
  let c8_i32_452 : BitVec 32 := 8#32
  let v873 : BitVec 32 := Scalar.addi v872 c8_i32_452
  let c8_i32_453 : BitVec 32 := 8#32
  let v874 : BitVec 32 := Scalar.remsi v873 c8_i32_453
  let c1_i32_462 : BitVec 32 := 1#32
  let v879 : BitVec 32 := Scalar.muli v874 c1_i32_462
  let v880 : BitVec 32 := Scalar.addi c0_i32_463 v879
  v880.toNat
def k0_dev16 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_470 : BitVec 32 := 2#32
  let v889 : BitVec 32 := Scalar.subi v2 c2_i32_470
  let c8_i32_471 : BitVec 32 := 8#32
  let v890 : BitVec 32 := Scalar.addi v889 c8_i32_471
  let c8_i32_472 : BitVec 32 := 8#32
  let v891 : BitVec 32 := Scalar.remsi v890 c8_i32_472
  let c1_i32_481 : BitVec 32 := 1#32
  let v896 : BitVec 32 := Scalar.muli v891 c1_i32_481
  let v897 : BitVec 32 := Scalar.addi c0_i32_482 v896
  v897.toNat
def k0_dev17 (d0 : Dev nD) : Nat :=
  let c0_i32_500 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_489 : BitVec 32 := 3#32
  let v906 : BitVec 32 := Scalar.subi v2 c3_i32_489
  let c8_i32_490 : BitVec 32 := 8#32
  let v907 : BitVec 32 := Scalar.addi v906 c8_i32_490
  let c8_i32_491 : BitVec 32 := 8#32
  let v908 : BitVec 32 := Scalar.remsi v907 c8_i32_491
  let c1_i32_499 : BitVec 32 := 1#32
  let v913 : BitVec 32 := Scalar.muli v908 c1_i32_499
  let v914 : BitVec 32 := Scalar.addi c0_i32_500 v913
  v914.toNat
def k0_dev18 (d0 : Dev nD) : Nat :=
  let c0_i32_518 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_507 : BitVec 32 := 4#32
  let v923 : BitVec 32 := Scalar.subi v2 c4_i32_507
  let c8_i32_508 : BitVec 32 := 8#32
  let v924 : BitVec 32 := Scalar.addi v923 c8_i32_508
  let c8_i32_509 : BitVec 32 := 8#32
  let v925 : BitVec 32 := Scalar.remsi v924 c8_i32_509
  let c1_i32_517 : BitVec 32 := 1#32
  let v930 : BitVec 32 := Scalar.muli v925 c1_i32_517
  let v931 : BitVec 32 := Scalar.addi c0_i32_518 v930
  v931.toNat
def k0_dev19 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_592 : BitVec 32 := 5#32
  let v1168 : BitVec 32 := Scalar.subi v2 c5_i32_592
  let c8_i32_593 : BitVec 32 := 8#32
  let v1169 : BitVec 32 := Scalar.addi v1168 c8_i32_593
  let c8_i32_594 : BitVec 32 := 8#32
  let v1170 : BitVec 32 := Scalar.remsi v1169 c8_i32_594
  let c1_i32_602 : BitVec 32 := 1#32
  let v1175 : BitVec 32 := Scalar.muli v1170 c1_i32_602
  let v1176 : BitVec 32 := Scalar.addi c0_i32_603 v1175
  v1176.toNat
def k0_dev20 (d0 : Dev nD) : Nat :=
  let c0_i32_621 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_610 : BitVec 32 := 6#32
  let v1185 : BitVec 32 := Scalar.subi v2 c6_i32_610
  let c8_i32_611 : BitVec 32 := 8#32
  let v1186 : BitVec 32 := Scalar.addi v1185 c8_i32_611
  let c8_i32_612 : BitVec 32 := 8#32
  let v1187 : BitVec 32 := Scalar.remsi v1186 c8_i32_612
  let c1_i32_620 : BitVec 32 := 1#32
  let v1192 : BitVec 32 := Scalar.muli v1187 c1_i32_620
  let v1193 : BitVec 32 := Scalar.addi c0_i32_621 v1192
  v1193.toNat
def k0_dev21 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_628 : BitVec 32 := 7#32
  let v1202 : BitVec 32 := Scalar.subi v2 c7_i32_628
  let c8_i32_629 : BitVec 32 := 8#32
  let v1203 : BitVec 32 := Scalar.addi v1202 c8_i32_629
  let c8_i32_630 : BitVec 32 := 8#32
  let v1204 : BitVec 32 := Scalar.remsi v1203 c8_i32_630
  let c1_i32_638 : BitVec 32 := 1#32
  let v1209 : BitVec 32 := Scalar.muli v1204 c1_i32_638
  let v1210 : BitVec 32 := Scalar.addi c0_i32_639 v1209
  v1210.toNat
def k0_dev22 (d0 : Dev nD) : Nat :=
  let c0_i32_973_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_969_r0 : BitVec 32 := 1#32
  let v1618_r0 : BitVec 32 := Scalar.addi v2 c1_i32_969_r0
  let c8_i32_970_r0 : BitVec 32 := 8#32
  let v1619_r0 : BitVec 32 := Scalar.remsi v1618_r0 c8_i32_970_r0
  let c1_i32_972_r0 : BitVec 32 := 1#32
  let v1620_r0 : BitVec 32 := Scalar.muli v1619_r0 c1_i32_972_r0
  let v1621_r0 : BitVec 32 := Scalar.addi c0_i32_973_r0 v1620_r0
  v1621_r0.toNat
def k0_dev23 (d0 : Dev nD) : Nat :=
  let c0_i32_978_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_974_r0 : BitVec 32 := 2#32
  let v1622_r0 : BitVec 32 := Scalar.addi v2 c2_i32_974_r0
  let c8_i32_975_r0 : BitVec 32 := 8#32
  let v1623_r0 : BitVec 32 := Scalar.remsi v1622_r0 c8_i32_975_r0
  let c1_i32_977_r0 : BitVec 32 := 1#32
  let v1624_r0 : BitVec 32 := Scalar.muli v1623_r0 c1_i32_977_r0
  let v1625_r0 : BitVec 32 := Scalar.addi c0_i32_978_r0 v1624_r0
  v1625_r0.toNat
def k0_dev24 (d0 : Dev nD) : Nat :=
  let c0_i32_983_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_979_r0 : BitVec 32 := 3#32
  let v1626_r0 : BitVec 32 := Scalar.addi v2 c3_i32_979_r0
  let c8_i32_980_r0 : BitVec 32 := 8#32
  let v1627_r0 : BitVec 32 := Scalar.remsi v1626_r0 c8_i32_980_r0
  let c1_i32_982_r0 : BitVec 32 := 1#32
  let v1628_r0 : BitVec 32 := Scalar.muli v1627_r0 c1_i32_982_r0
  let v1629_r0 : BitVec 32 := Scalar.addi c0_i32_983_r0 v1628_r0
  v1629_r0.toNat
def k0_dev25 (d0 : Dev nD) : Nat :=
  let c0_i32_988_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_984_r0 : BitVec 32 := 4#32
  let v1630_r0 : BitVec 32 := Scalar.addi v2 c4_i32_984_r0
  let c8_i32_985_r0 : BitVec 32 := 8#32
  let v1631_r0 : BitVec 32 := Scalar.remsi v1630_r0 c8_i32_985_r0
  let c1_i32_987_r0 : BitVec 32 := 1#32
  let v1632_r0 : BitVec 32 := Scalar.muli v1631_r0 c1_i32_987_r0
  let v1633_r0 : BitVec 32 := Scalar.addi c0_i32_988_r0 v1632_r0
  v1633_r0.toNat
def k0_dev26 (d0 : Dev nD) : Nat :=
  let c0_i32_993_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_989_r0 : BitVec 32 := 5#32
  let v1634_r0 : BitVec 32 := Scalar.addi v2 c5_i32_989_r0
  let c8_i32_990_r0 : BitVec 32 := 8#32
  let v1635_r0 : BitVec 32 := Scalar.remsi v1634_r0 c8_i32_990_r0
  let c1_i32_992_r0 : BitVec 32 := 1#32
  let v1636_r0 : BitVec 32 := Scalar.muli v1635_r0 c1_i32_992_r0
  let v1637_r0 : BitVec 32 := Scalar.addi c0_i32_993_r0 v1636_r0
  v1637_r0.toNat
def k0_dev27 (d0 : Dev nD) : Nat :=
  let c0_i32_998_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_994_r0 : BitVec 32 := 6#32
  let v1638_r0 : BitVec 32 := Scalar.addi v2 c6_i32_994_r0
  let c8_i32_995_r0 : BitVec 32 := 8#32
  let v1639_r0 : BitVec 32 := Scalar.remsi v1638_r0 c8_i32_995_r0
  let c1_i32_997_r0 : BitVec 32 := 1#32
  let v1640_r0 : BitVec 32 := Scalar.muli v1639_r0 c1_i32_997_r0
  let v1641_r0 : BitVec 32 := Scalar.addi c0_i32_998_r0 v1640_r0
  v1641_r0.toNat
def k0_dev28 (d0 : Dev nD) : Nat :=
  let c0_i32_1003_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_999_r0 : BitVec 32 := 7#32
  let v1642_r0 : BitVec 32 := Scalar.addi v2 c7_i32_999_r0
  let c8_i32_1000_r0 : BitVec 32 := 8#32
  let v1643_r0 : BitVec 32 := Scalar.remsi v1642_r0 c8_i32_1000_r0
  let c1_i32_1002_r0 : BitVec 32 := 1#32
  let v1644_r0 : BitVec 32 := Scalar.muli v1643_r0 c1_i32_1002_r0
  let v1645_r0 : BitVec 32 := Scalar.addi c0_i32_1003_r0 v1644_r0
  v1645_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  hamt_1 : (1#32 : BitVec 32).msb = false
  hamt_7 : (7#32 : BitVec 32).msb = false
  inb_S2x128x512_S2x128x512_0_0_0 : ∀ a, (![0, 0, 0] : Fin 3 → Nat) a + S2x128x512.size a ≤ S2x128x512.size a
  h_S2x128x512 : 0 < S2x128x512.numel
  shapeCasts_S2x128x512_S2x128x512 : S2x128x512.ShapeCasts S2x128x512
  bitsLt_bf16_f32 : FTy.bits .bf16 < FTy.bits .f32
  shapeCasts_S2x128x512_S1x2x128x512 : S2x128x512.ShapeCasts S1x2x128x512
  h_S1x2x128x512 : 0 < S1x2x128x512.numel
  shapeCasts_S1x2x128x512_S1x2x128x512 : S1x2x128x512.ShapeCasts S1x2x128x512
  inb_S7_S1_0 : ∀ a, (![0] : Fin 1 → Nat) a + S1.size a ≤ S7.size a
  squeezes_S1_S_ : S1.Squeezes S_
  squeezes_S1x2x128x512_S2x128x512 : S1x2x128x512.Squeezes S2x128x512
  inb_S7_S1_1 : ∀ a, (![1] : Fin 1 → Nat) a + S1.size a ≤ S7.size a
  inb_S7_S1_2 : ∀ a, (![2] : Fin 1 → Nat) a + S1.size a ≤ S7.size a
  inb_S7_S1_3 : ∀ a, (![3] : Fin 1 → Nat) a + S1.size a ≤ S7.size a
  inb_S7_S1_4 : ∀ a, (![4] : Fin 1 → Nat) a + S1.size a ≤ S7.size a
  inb_S7_S1_5 : ∀ a, (![5] : Fin 1 → Nat) a + S1.size a ≤ S7.size a
  inb_S7_S1_6 : ∀ a, (![6] : Fin 1 → Nat) a + S1.size a ≤ S7.size a
  inb_S512x512_S512x512_0_0 : ∀ a, (![0, 0] : Fin 2 → Nat) a + S512x512.size a ≤ S512x512.size a
  h_S512x512 : 0 < S512x512.numel
  shapeCasts_S512x512_S512x512 : S512x512.ShapeCasts S512x512
  concatenates_S512x512_S512x512_S512x512_S512x1536_d1 : Shape.Concatenates [S512x512, S512x512, S512x512] S512x1536 1
  shapeCasts_S1x2x128x512_S2x128x512 : S1x2x128x512.ShapeCasts S2x128x512
  shapeCasts_S2x128x512_S256x512 : S2x128x512.ShapeCasts S256x512
  slices_S256x1536_o0_0_S256x512 : S256x1536.Slices ![0, 0] S256x512
  shapeCasts_S256x512_S2x128x512 : S256x512.ShapeCasts S2x128x512
  slices_S256x1536_o0_512_S256x512 : S256x1536.Slices ![0, 512] S256x512
  slices_S256x1536_o0_1024_S256x512 : S256x1536.Slices ![0, 1024] S256x512
  inb_S2x1024x512_S1x512x512_0_128_0 : ∀ a, (![0, 128, 0] : Fin 3 → Nat) a + S1x512x512.size a ≤ S2x1024x512.size a
  h_S1x512x512 : 0 < S1x512x512.numel
  shapeCasts_S1x512x512_S512x512 : S1x512x512.ShapeCasts S512x512
  inb_S2x1024x512_S1x512x512_0_0_0 : ∀ a, (![0, 0, 0] : Fin 3 → Nat) a + S1x512x512.size a ≤ S2x1024x512.size a
  slices_S512x512_o0_0_S512x64 : S512x512.Slices ![0, 0] S512x64
  reduces_S512x512_S512 : S512x512.Reduces [1] S512
  shapeCasts_S512_S512x1 : S512.ShapeCasts S512x1
  slices_S512x512_o0_64_S512x64 : S512x512.Slices ![0, 64] S512x64
  slices_S512x512_o0_128_S512x64 : S512x512.Slices ![0, 128] S512x64
  slices_S512x512_o0_192_S512x64 : S512x512.Slices ![0, 192] S512x64
  slices_S512x512_o0_256_S512x64 : S512x512.Slices ![0, 256] S512x64
  slices_S512x512_o0_320_S512x64 : S512x512.Slices ![0, 320] S512x64
  slices_S512x512_o0_384_S512x64 : S512x512.Slices ![0, 384] S512x64
  slices_S512x512_o0_448_S512x64 : S512x512.Slices ![0, 448] S512x64
  inb_S2x1024x512_S1x512x512_1_128_0 : ∀ a, (![1, 128, 0] : Fin 3 → Nat) a + S1x512x512.size a ≤ S2x1024x512.size a
  inb_S2x1024x512_S1x512x512_1_0_0 : ∀ a, (![1, 0, 0] : Fin 3 → Nat) a + S1x512x512.size a ≤ S2x1024x512.size a
  inb_S2x1024x512_S1x512x512_0_512_0 : ∀ a, (![0, 512, 0] : Fin 3 → Nat) a + S1x512x512.size a ≤ S2x1024x512.size a
  inb_S2x1024x512_S1x512x512_1_512_0 : ∀ a, (![1, 512, 0] : Fin 3 → Nat) a + S1x512x512.size a ≤ S2x1024x512.size a
  broadcasts_S512x1_S512x64 : S512x1.Broadcasts S512x64
  concatenates_S512x64_S512x64_S512x64_S512x64_S512x64_S512x64_S512x64_S512x64_S512x512_d1 : Shape.Concatenates [S512x64, S512x64, S512x64, S512x64, S512x64, S512x64, S512x64, S512x64] S512x512 1
  shapeCasts_S512x512_S1x512x512 : S512x512.ShapeCasts S1x512x512
  concatenates_S1x512x512_S1x512x512_S2x512x512_d0 : Shape.Concatenates [S1x512x512, S1x512x512] S2x512x512 0
  slices_S2x512x512_o0_0_0_S2x128x512 : S2x512x512.Slices ![0, 0, 0] S2x128x512
  inb_S7x2x128x512_S1x2x128x512_0_0_0_0 : ∀ a, (![0, 0, 0, 0] : Fin 4 → Nat) a + S1x2x128x512.size a ≤ S7x2x128x512.size a
  packedbf16_S7x2x128x512_S1x2x128x512_0_0_0_0 : (Rect.unit (s := S7x2x128x512) ![0, 0, 0, 0] S1x2x128x512.size inb_S7x2x128x512_S1x2x128x512_0_0_0_0).PackedRows (EltTy.packing .bf16)
  wordsbf16_S7x2x128x512_S1x2x128x512_0_0_0_0 : (Rect.unit (s := S7x2x128x512) ![0, 0, 0, 0] S1x2x128x512.size inb_S7x2x128x512_S1x2x128x512_0_0_0_0).WholeWords (EltTy.packing .bf16)
  slices_S2x512x512_o0_128_0_S2x128x512 : S2x512x512.Slices ![0, 128, 0] S2x128x512
  inb_S7x2x128x512_S1x2x128x512_1_0_0_0 : ∀ a, (![1, 0, 0, 0] : Fin 4 → Nat) a + S1x2x128x512.size a ≤ S7x2x128x512.size a
  packedbf16_S7x2x128x512_S1x2x128x512_1_0_0_0 : (Rect.unit (s := S7x2x128x512) ![1, 0, 0, 0] S1x2x128x512.size inb_S7x2x128x512_S1x2x128x512_1_0_0_0).PackedRows (EltTy.packing .bf16)
  wordsbf16_S7x2x128x512_S1x2x128x512_1_0_0_0 : (Rect.unit (s := S7x2x128x512) ![1, 0, 0, 0] S1x2x128x512.size inb_S7x2x128x512_S1x2x128x512_1_0_0_0).WholeWords (EltTy.packing .bf16)
  slices_S2x512x512_o0_256_0_S2x128x512 : S2x512x512.Slices ![0, 256, 0] S2x128x512
  inb_S7x2x128x512_S1x2x128x512_2_0_0_0 : ∀ a, (![2, 0, 0, 0] : Fin 4 → Nat) a + S1x2x128x512.size a ≤ S7x2x128x512.size a
  packedbf16_S7x2x128x512_S1x2x128x512_2_0_0_0 : (Rect.unit (s := S7x2x128x512) ![2, 0, 0, 0] S1x2x128x512.size inb_S7x2x128x512_S1x2x128x512_2_0_0_0).PackedRows (EltTy.packing .bf16)
  wordsbf16_S7x2x128x512_S1x2x128x512_2_0_0_0 : (Rect.unit (s := S7x2x128x512) ![2, 0, 0, 0] S1x2x128x512.size inb_S7x2x128x512_S1x2x128x512_2_0_0_0).WholeWords (EltTy.packing .bf16)
  slices_S2x512x512_o0_384_0_S2x128x512 : S2x512x512.Slices ![0, 384, 0] S2x128x512
  inb_S7x2x128x512_S1x2x128x512_3_0_0_0 : ∀ a, (![3, 0, 0, 0] : Fin 4 → Nat) a + S1x2x128x512.size a ≤ S7x2x128x512.size a
  packedbf16_S7x2x128x512_S1x2x128x512_3_0_0_0 : (Rect.unit (s := S7x2x128x512) ![3, 0, 0, 0] S1x2x128x512.size inb_S7x2x128x512_S1x2x128x512_3_0_0_0).PackedRows (EltTy.packing .bf16)
  wordsbf16_S7x2x128x512_S1x2x128x512_3_0_0_0 : (Rect.unit (s := S7x2x128x512) ![3, 0, 0, 0] S1x2x128x512.size inb_S7x2x128x512_S1x2x128x512_3_0_0_0).WholeWords (EltTy.packing .bf16)
  inb_S2x1024x512_S1x384x512_0_640_0 : ∀ a, (![0, 640, 0] : Fin 3 → Nat) a + S1x384x512.size a ≤ S2x1024x512.size a
  h_S1x384x512 : 0 < S1x384x512.numel
  shapeCasts_S1x384x512_S384x512 : S1x384x512.ShapeCasts S384x512
  inb_S2x1024x512_S1x1024x512_0_0_0 : ∀ a, (![0, 0, 0] : Fin 3 → Nat) a + S1x1024x512.size a ≤ S2x1024x512.size a
  h_S1x1024x512 : 0 < S1x1024x512.numel
  shapeCasts_S1x1024x512_S1024x512 : S1x1024x512.ShapeCasts S1024x512
  slices_S384x512_o0_0_S384x64 : S384x512.Slices ![0, 0] S384x64
  slices_S1024x512_o0_0_S1024x64 : S1024x512.Slices ![0, 0] S1024x64
  reduces_S384x1024_S384 : S384x1024.Reduces [1] S384
  shapeCasts_S384_S384x1 : S384.ShapeCasts S384x1
  slices_S384x512_o0_64_S384x64 : S384x512.Slices ![0, 64] S384x64
  slices_S1024x512_o0_64_S1024x64 : S1024x512.Slices ![0, 64] S1024x64
  slices_S384x512_o0_128_S384x64 : S384x512.Slices ![0, 128] S384x64
  slices_S1024x512_o0_128_S1024x64 : S1024x512.Slices ![0, 128] S1024x64
  slices_S384x512_o0_192_S384x64 : S384x512.Slices ![0, 192] S384x64
  slices_S1024x512_o0_192_S1024x64 : S1024x512.Slices ![0, 192] S1024x64
  slices_S384x512_o0_256_S384x64 : S384x512.Slices ![0, 256] S384x64
  slices_S1024x512_o0_256_S1024x64 : S1024x512.Slices ![0, 256] S1024x64
  slices_S384x512_o0_320_S384x64 : S384x512.Slices ![0, 320] S384x64
  slices_S1024x512_o0_320_S1024x64 : S1024x512.Slices ![0, 320] S1024x64
  slices_S384x512_o0_384_S384x64 : S384x512.Slices ![0, 384] S384x64
  slices_S1024x512_o0_384_S1024x64 : S1024x512.Slices ![0, 384] S1024x64
  slices_S384x512_o0_448_S384x64 : S384x512.Slices ![0, 448] S384x64
  slices_S1024x512_o0_448_S1024x64 : S1024x512.Slices ![0, 448] S1024x64
  inb_S2x1024x512_S1x384x512_1_640_0 : ∀ a, (![1, 640, 0] : Fin 3 → Nat) a + S1x384x512.size a ≤ S2x1024x512.size a
  inb_S2x1024x512_S1x1024x512_1_0_0 : ∀ a, (![1, 0, 0] : Fin 3 → Nat) a + S1x1024x512.size a ≤ S2x1024x512.size a
  broadcasts_S384x1_S384x64 : S384x1.Broadcasts S384x64
  concatenates_S384x64_S384x64_S384x64_S384x64_S384x64_S384x64_S384x64_S384x64_S384x512_d1 : Shape.Concatenates [S384x64, S384x64, S384x64, S384x64, S384x64, S384x64, S384x64, S384x64] S384x512 1
  shapeCasts_S384x512_S1x384x512 : S384x512.ShapeCasts S1x384x512
  concatenates_S1x384x512_S1x384x512_S2x384x512_d0 : Shape.Concatenates [S1x384x512, S1x384x512] S2x384x512 0
  slices_S2x384x512_o0_0_0_S2x128x512 : S2x384x512.Slices ![0, 0, 0] S2x128x512
  inb_S7x2x128x512_S1x2x128x512_4_0_0_0 : ∀ a, (![4, 0, 0, 0] : Fin 4 → Nat) a + S1x2x128x512.size a ≤ S7x2x128x512.size a
  packedbf16_S7x2x128x512_S1x2x128x512_4_0_0_0 : (Rect.unit (s := S7x2x128x512) ![4, 0, 0, 0] S1x2x128x512.size inb_S7x2x128x512_S1x2x128x512_4_0_0_0).PackedRows (EltTy.packing .bf16)
  wordsbf16_S7x2x128x512_S1x2x128x512_4_0_0_0 : (Rect.unit (s := S7x2x128x512) ![4, 0, 0, 0] S1x2x128x512.size inb_S7x2x128x512_S1x2x128x512_4_0_0_0).WholeWords (EltTy.packing .bf16)
  slices_S2x384x512_o0_128_0_S2x128x512 : S2x384x512.Slices ![0, 128, 0] S2x128x512
  inb_S7x2x128x512_S1x2x128x512_5_0_0_0 : ∀ a, (![5, 0, 0, 0] : Fin 4 → Nat) a + S1x2x128x512.size a ≤ S7x2x128x512.size a
  packedbf16_S7x2x128x512_S1x2x128x512_5_0_0_0 : (Rect.unit (s := S7x2x128x512) ![5, 0, 0, 0] S1x2x128x512.size inb_S7x2x128x512_S1x2x128x512_5_0_0_0).PackedRows (EltTy.packing .bf16)
  wordsbf16_S7x2x128x512_S1x2x128x512_5_0_0_0 : (Rect.unit (s := S7x2x128x512) ![5, 0, 0, 0] S1x2x128x512.size inb_S7x2x128x512_S1x2x128x512_5_0_0_0).WholeWords (EltTy.packing .bf16)
  slices_S2x384x512_o0_256_0_S2x128x512 : S2x384x512.Slices ![0, 256, 0] S2x128x512
  inb_S7x2x128x512_S1x2x128x512_6_0_0_0 : ∀ a, (![6, 0, 0, 0] : Fin 4 → Nat) a + S1x2x128x512.size a ≤ S7x2x128x512.size a
  packedbf16_S7x2x128x512_S1x2x128x512_6_0_0_0 : (Rect.unit (s := S7x2x128x512) ![6, 0, 0, 0] S1x2x128x512.size inb_S7x2x128x512_S1x2x128x512_6_0_0_0).PackedRows (EltTy.packing .bf16)
  wordsbf16_S7x2x128x512_S1x2x128x512_6_0_0_0 : (Rect.unit (s := S7x2x128x512) ![6, 0, 0, 0] S1x2x128x512.size inb_S7x2x128x512_S1x2x128x512_6_0_0_0).WholeWords (EltTy.packing .bf16)
  inb_S2x1024x512_S1x128x512_0_0_0 : ∀ a, (![0, 0, 0] : Fin 3 → Nat) a + S1x128x512.size a ≤ S2x1024x512.size a
  h_S1x128x512 : 0 < S1x128x512.numel
  shapeCasts_S1x128x512_S128x512 : S1x128x512.ShapeCasts S128x512
  slices_S128x512_o0_0_S128x64 : S128x512.Slices ![0, 0] S128x64
  reduces_S128x1024_S128 : S128x1024.Reduces [1] S128
  shapeCasts_S128_S128x1 : S128.ShapeCasts S128x1
  slices_S128x512_o0_64_S128x64 : S128x512.Slices ![0, 64] S128x64
  slices_S128x512_o0_128_S128x64 : S128x512.Slices ![0, 128] S128x64
  slices_S128x512_o0_192_S128x64 : S128x512.Slices ![0, 192] S128x64
  slices_S128x512_o0_256_S128x64 : S128x512.Slices ![0, 256] S128x64
  slices_S128x512_o0_320_S128x64 : S128x512.Slices ![0, 320] S128x64
  slices_S128x512_o0_384_S128x64 : S128x512.Slices ![0, 384] S128x64
  slices_S128x512_o0_448_S128x64 : S128x512.Slices ![0, 448] S128x64
  inb_S2x1024x512_S1x128x512_1_0_0 : ∀ a, (![1, 0, 0] : Fin 3 → Nat) a + S1x128x512.size a ≤ S2x1024x512.size a
  broadcasts_S128x1_S128x64 : S128x1.Broadcasts S128x64
  concatenates_S128x64_S128x64_S128x64_S128x64_S128x64_S128x64_S128x64_S128x64_S128x512_d1 : Shape.Concatenates [S128x64, S128x64, S128x64, S128x64, S128x64, S128x64, S128x64, S128x64] S128x512 1
  shapeCasts_S128x512_S1x128x512 : S128x512.ShapeCasts S1x128x512
  concatenates_S1x128x512_S1x128x512_S2x128x512_d0 : Shape.Concatenates [S1x128x512, S1x128x512] S2x128x512 0
  dot_S256x512_S512x1536_S256x1536_1_0_0_1_n_n_wf : DotDims.WF S256x512 S512x1536 S256x1536 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x512_S512x512_S512x512_1_0_0_1_n_n_wf : DotDims.WF S512x512 S512x512 S512x512 [1] [0] [0] [1] [] []
  dot_S384x64_S1024x64_S384x1024_1_1_0_0_n_n_wf : DotDims.WF S384x64 S1024x64 S384x1024 [1] [1] [0] [0] [] []
  dot_S384x1024_S1024x64_S384x64_1_0_0_1_n_n_wf : DotDims.WF S384x1024 S1024x64 S384x64 [1] [0] [0] [1] [] []
  dot_S384x512_S512x512_S384x512_1_0_0_1_n_n_wf : DotDims.WF S384x512 S512x512 S384x512 [1] [0] [0] [1] [] []
  dot_S128x64_S1024x64_S128x1024_1_1_0_0_n_n_wf : DotDims.WF S128x64 S1024x64 S128x1024 [1] [1] [0] [0] [] []
  dot_S128x1024_S1024x64_S128x64_1_0_0_1_n_n_wf : DotDims.WF S128x1024 S1024x64 S128x64 [1] [0] [0] [1] [] []
  dot_S128x512_S512x512_S128x512_1_0_0_1_n_n_wf : DotDims.WF S128x512 S512x512 S128x512 [1] [0] [0] [1] [] []
  hcc0_scoped0 : 1 + S_.numel ≤ 2
  hcc0_scratch6 : 6 + S7.numel ≤ 34
  hcc0_scratch7 : 13 + S7.numel ≤ 34
  hcc0_scratch8 : 20 + S7.numel ≤ 34
  hcc0_scratch9 : 27 + S7.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S1x2x128x512.size a ≤ S8x2x128x512.size a
  k0_off1_packedbf16 : ∀ d0 : Dev nD, (Rect.unit (s := S8x2x128x512) (k0_off1 d0) S1x2x128x512.size (k0_off1_inb d0)).PackedRows (EltTy.packing .bf16)
  k0_off2_inb : ∀ d0 : Dev nD, ∀ a, (k0_off2 d0) a + S1x2x128x512.size a ≤ S8x2x128x512.size a
  k0_off2_wordsbf16 : ∀ d0 : Dev nD, (Rect.unit (s := S8x2x128x512) (k0_off2 d0) S1x2x128x512.size (k0_off2_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off3_inb : ∀ d0 : Dev nD, ∀ a, (k0_off3 d0) a + S2x128x512.size a ≤ S2x1024x512.size a
  k0_off3_packedbf16 : ∀ d0 : Dev nD, (Rect.unit (s := S2x1024x512) (k0_off3 d0) S2x128x512.size (k0_off3_inb d0)).PackedRows (EltTy.packing .bf16)
  k0_off4_inb : ∀ d0 : Dev nD, ∀ (r : Fin 7), ∀ a, (k0_off4 d0 (BitVec.ofNat 32 (1 + r.val))) a + S1x2x128x512.size a ≤ S8x2x128x512.size a
  k0_off5_inb : ∀ d0 : Dev nD, ∀ (r : Fin 7), ∀ a, (k0_off5 d0 (BitVec.ofNat 32 (1 + r.val))) a + S2x128x512.size a ≤ S2x1024x512.size a
  k0_off5_packedbf16 : ∀ d0 : Dev nD, ∀ (r : Fin 7), (Rect.unit (s := S2x1024x512) (k0_off5 d0 (BitVec.ofNat 32 (1 + r.val))) S2x128x512.size (k0_off5_inb d0 r)).PackedRows (EltTy.packing .bf16)
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

abbrev cc0_scoped0 : Sems sig S_ := SemArray.consecutive 1 S_ hcc0_scoped0
abbrev cc0_scratch6 : DmaSems sig S7 := SemArray.consecutive 6 S7 hcc0_scratch6
abbrev cc0_scratch7 : DmaSems sig S7 := SemArray.consecutive 13 S7 hcc0_scratch7
abbrev cc0_scratch8 : DmaSems sig S7 := SemArray.consecutive 20 S7 hcc0_scratch8
abbrev cc0_scratch9 : DmaSems sig S7 := SemArray.consecutive 27 S7 hcc0_scratch9
def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S384x64_S1024x64_S384x1024_1_1_0_0_n_n : DotDims S384x64 S1024x64 S384x1024 where
  lhsContracting := [1]
  rhsContracting := [1]
  lhsNonContracting := [0]
  rhsNonContracting := [0]
  lhsBatch := []
  rhsBatch := []
  wf := dot_S384x64_S1024x64_S384x1024_1_1_0_0_n_n_wf
def dot_S384x1024_S1024x64_S384x64_1_0_0_1_n_n : DotDims S384x1024 S1024x64 S384x64 where
  lhsContracting := [1]
  rhsContracting := [0]
  lhsNonContracting := [0]
  rhsNonContracting := [1]
  lhsBatch := []
  rhsBatch := []
  wf := dot_S384x1024_S1024x64_S384x64_1_0_0_1_n_n_wf
def dot_S384x512_S512x512_S384x512_1_0_0_1_n_n : DotDims S384x512 S512x512 S384x512 where
  lhsContracting := [1]
  rhsContracting := [0]
  lhsNonContracting := [0]
  rhsNonContracting := [1]
  lhsBatch := []
  rhsBatch := []
  wf := dot_S384x512_S512x512_S384x512_1_0_0_1_n_n_wf
def dot_S128x64_S1024x64_S128x1024_1_1_0_0_n_n : DotDims S128x64 S1024x64 S128x1024 where
  lhsContracting := [1]
  rhsContracting := [1]
  lhsNonContracting := [0]
  rhsNonContracting := [0]
  lhsBatch := []
  rhsBatch := []
  wf := dot_S128x64_S1024x64_S128x1024_1_1_0_0_n_n_wf
def dot_S128x1024_S1024x64_S128x64_1_0_0_1_n_n : DotDims S128x1024 S1024x64 S128x64 where
  lhsContracting := [1]
  rhsContracting := [0]
  lhsNonContracting := [0]
  rhsNonContracting := [1]
  lhsBatch := []
  rhsBatch := []
  wf := dot_S128x1024_S1024x64_S128x64_1_0_0_1_n_n_wf
def dot_S128x512_S512x512_S128x512_1_0_0_1_n_n : DotDims S128x512 S512x512 S128x512 where
  lhsContracting := [1]
  rhsContracting := [0]
  lhsNonContracting := [0]
  rhsNonContracting := [1]
  lhsBatch := []
  rhsBatch := []
  wf := dot_S128x512_S512x512_S128x512_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x1024x512 : Shape := ⟨3, ![2, 1024, 512]⟩
abbrev S512x4096 : Shape := ⟨2, ![512, 4096]⟩
abbrev S4096x512 : Shape := ⟨2, ![4096, 512]⟩
abbrev S2x1024x4096 : Shape := ⟨3, ![2, 1024, 4096]⟩
abbrev S2x1024x64x64 : Shape := ⟨4, ![2, 1024, 64, 64]⟩
abbrev S_ : Shape := ⟨0, ![]⟩
abbrev S2x64x1024x1 : Shape := ⟨4, ![2, 64, 1024, 1]⟩
abbrev S2x64x1024x1024 : Shape := ⟨4, ![2, 64, 1024, 1024]⟩
abbrev S2x64x1024 : Shape := ⟨3, ![2, 64, 1024]⟩
abbrev S2x1024x64x1 : Shape := ⟨4, ![2, 1024, 64, 1]⟩
abbrev S2x64x64x1024 : Shape := ⟨4, ![2, 64, 64, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x4096, .f32⟩
  | .hbm, ⟨2, _⟩ => ⟨S4096x512, .f32⟩
  | .hbm, ⟨3, _⟩ => ⟨S512x4096, .f32⟩
  | .hbm, ⟨4, _⟩ => ⟨S512x4096, .f32⟩
  | .hbm, ⟨5, _⟩ => ⟨S2x1024x4096, .f32⟩
  | .hbm, ⟨6, _⟩ => ⟨S2x1024x64x64, .f32⟩
  | .hbm, ⟨7, _⟩ => ⟨S2x1024x4096, .f32⟩
  | .hbm, ⟨8, _⟩ => ⟨S2x1024x64x64, .f32⟩
  | .hbm, ⟨9, _⟩ => ⟨S2x1024x4096, .f32⟩
  | .hbm, ⟨10, _⟩ => ⟨S2x1024x64x64, .f32⟩
  | .hbm, ⟨11, _⟩ => ⟨S_, .f32⟩
  | .hbm, ⟨12, _⟩ => ⟨S2x1024x64x64, .f32⟩
  | .hbm, ⟨13, _⟩ => ⟨S_, .f32⟩
  | .hbm, ⟨14, _⟩ => ⟨S2x64x1024x1, .f32⟩
  | .hbm, ⟨15, _⟩ => ⟨S_, .f32⟩
  | .hbm, ⟨16, _⟩ => ⟨S2x64x1024x1, .f32⟩
  | .hbm, ⟨17, _⟩ => ⟨S2x64x1024x1024, .f32⟩
  | .hbm, ⟨18, _⟩ => ⟨S_, .f32⟩
  | .hbm, ⟨19, _⟩ => ⟨S2x64x1024x1024, .f32⟩
  | .hbm, ⟨20, _⟩ => ⟨S2x64x1024x1024, .f32⟩
  | .hbm, ⟨21, _⟩ => ⟨S_, .f32⟩
  | .hbm, ⟨22, _⟩ => ⟨S2x64x1024, .f32⟩
  | .hbm, ⟨23, _⟩ => ⟨S2x64x1024x1, .f32⟩
  | .hbm, ⟨24, _⟩ => ⟨S2x64x1024x1, .f32⟩
  | .hbm, ⟨25, _⟩ => ⟨S2x64x1024x1, .f32⟩
  | .hbm, ⟨26, _⟩ => ⟨S2x64x1024x1, .f32⟩
  | .hbm, ⟨27, _⟩ => ⟨S2x64x1024x1024, .f32⟩
  | .hbm, ⟨28, _⟩ => ⟨S2x64x1024x1024, .f32⟩
  | .hbm, ⟨29, _⟩ => ⟨S2x64x1024x1024, .f32⟩
  | .hbm, ⟨30, _⟩ => ⟨S2x64x1024x1, .f32⟩
  | .hbm, ⟨31, _⟩ => ⟨S_, .f32⟩
  | .hbm, ⟨32, _⟩ => ⟨S2x64x1024, .f32⟩
  | .hbm, ⟨33, _⟩ => ⟨S2x64x1024x1, .f32⟩
  | .hbm, ⟨34, _⟩ => ⟨S2x64x1024x1, .f32⟩
  | .hbm, ⟨35, _⟩ => ⟨S2x1024x64x1, .f32⟩
  | .hbm, ⟨36, _⟩ => ⟨S2x1024x64x64, .f32⟩
  | .hbm, ⟨37, _⟩ => ⟨S2x1024x64x64, .f32⟩
  | .hbm, ⟨38, _⟩ => ⟨S2x64x64x1024, .f32⟩
  | .hbm, ⟨39, _⟩ => ⟨S2x1024x64x64, .f32⟩
  | .hbm, ⟨40, _⟩ => ⟨S2x1024x64x64, .f32⟩
  | .hbm, ⟨41, _⟩ => ⟨S2x1024x64x1, .f32⟩
  | .hbm, ⟨42, _⟩ => ⟨S2x1024x64x64, .f32⟩
  | .hbm, ⟨43, _⟩ => ⟨S2x1024x64x64, .f32⟩
  | .hbm, ⟨44, _⟩ => ⟨S2x1024x4096, .f32⟩
  | .hbm, ⟨45, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]

class Facts₀ : Prop where
  shapeCasts_S2x1024x4096_S2x1024x64x64 : S2x1024x4096.ShapeCasts S2x1024x64x64
  bcast_S_S2x1024x64x64 : S_.BroadcastsInDim S2x1024x64x64 (![] : Fin 0 → Fin S2x1024x64x64.rank)
  bcast_S_S2x64x1024x1 : S_.BroadcastsInDim S2x64x1024x1 (![] : Fin 0 → Fin S2x64x1024x1.rank)
  bcast_S_S2x64x1024x1024 : S_.BroadcastsInDim S2x64x1024x1024 (![] : Fin 0 → Fin S2x64x1024x1024.rank)
  reducesTo_S2x64x1024x1024_S2x64x1024_d3 : S2x64x1024x1024.ReducesTo [3] S2x64x1024
  h_S_ : 0 < S_.numel
  bcast_S2x64x1024_S2x64x1024x1_0_1_2 : S2x64x1024.BroadcastsInDim S2x64x1024x1 (![0, 1, 2] : Fin 3 → Fin S2x64x1024x1.rank)
  bcast_S2x64x1024x1_S2x64x1024x1024_0_1_2_3 : S2x64x1024x1.BroadcastsInDim S2x64x1024x1024 (![0, 1, 2, 3] : Fin 4 → Fin S2x64x1024x1024.rank)
  transposes_S2x64x1024x1_S2x1024x64x1_0_2_1_3 : S2x64x1024x1.Transposes [0, 2, 1, 3] S2x1024x64x1
  bcast_S2x1024x64x1_S2x1024x64x64_0_1_2_3 : S2x1024x64x1.BroadcastsInDim S2x1024x64x64 (![0, 1, 2, 3] : Fin 4 → Fin S2x1024x64x64.rank)
  transposes_S2x64x64x1024_S2x1024x64x64_0_3_1_2 : S2x64x64x1024.Transposes [0, 3, 1, 2] S2x1024x64x64
  shapeCasts_S2x1024x64x64_S2x1024x4096 : S2x1024x64x64.ShapeCasts S2x1024x4096
  dot_S2x1024x512_S512x4096_S2x1024x4096_2_0_01_1_n_n_wf : DotDims.WF S2x1024x512 S512x4096 S2x1024x4096 [2] [0] [0, 1] [1] [] []
  dot_S2x1024x64x64_S2x1024x64x64_S2x64x1024x1024_3_3_1_1_02_02_wf : DotDims.WF S2x1024x64x64 S2x1024x64x64 S2x64x1024x1024 [3] [3] [1] [1] [0, 2] [0, 2]
  dot_S2x1024x64x64_S2x64x1024x1024_S2x64x64x1024_1_3_3_2_02_01_wf : DotDims.WF S2x1024x64x64 S2x64x1024x1024 S2x64x64x1024 [1] [3] [3] [2] [0, 2] [0, 1]
  dot_S2x1024x4096_S4096x512_S2x1024x512_2_0_01_1_n_n_wf : DotDims.WF S2x1024x4096 S4096x512 S2x1024x512 [2] [0] [0, 1] [1] [] []

variable [Facts₀]

def dot_S2x1024x512_S512x4096_S2x1024x4096_2_0_01_1_n_n : DotDims S2x1024x512 S512x4096 S2x1024x4096 where
  lhsContracting := [2]
  rhsContracting := [0]
  lhsNonContracting := [0, 1]
  rhsNonContracting := [1]
  lhsBatch := []
  rhsBatch := []
  wf := dot_S2x1024x512_S512x4096_S2x1024x4096_2_0_01_1_n_n_wf
def dot_S2x1024x64x64_S2x1024x64x64_S2x64x1024x1024_3_3_1_1_02_02 : DotDims S2x1024x64x64 S2x1024x64x64 S2x64x1024x1024 where
  lhsContracting := [3]
  rhsContracting := [3]
  lhsNonContracting := [1]
  rhsNonContracting := [1]
  lhsBatch := [0, 2]
  rhsBatch := [0, 2]
  wf := dot_S2x1024x64x64_S2x1024x64x64_S2x64x1024x1024_3_3_1_1_02_02_wf
def dot_S2x1024x64x64_S2x64x1024x1024_S2x64x64x1024_1_3_3_2_02_01 : DotDims S2x1024x64x64 S2x64x1024x1024 S2x64x64x1024 where
  lhsContracting := [1]
  rhsContracting := [3]
  lhsNonContracting := [3]
  rhsNonContracting := [2]
  lhsBatch := [0, 2]
  rhsBatch := [0, 1]
  wf := dot_S2x1024x64x64_S2x64x1024x1024_S2x64x64x1024_1_3_3_2_02_01_wf
def dot_S2x1024x4096_S4096x512_S2x1024x512_2_0_01_1_n_n : DotDims S2x1024x4096 S4096x512 S2x1024x512 where
  lhsContracting := [2]
  rhsContracting := [0]
  lhsNonContracting := [0, 1]
  rhsNonContracting := [1]
  lhsBatch := []
  rhsBatch := []
  wf := dot_S2x1024x4096_S4096x512_S2x1024x512_2_0_01_1_n_n_wf

class Facts : Prop extends Facts₀ where

variable [Facts]
-- ==== Proof.Proto.lean ====
/-
  The cross-device protocol of the eight-device attention kernel, as a schedule of rounds.

  Device `c` meets its seven peers at entry on the barrier semaphore, gathers every device's block of x into slot
  `s` of its buffer xg (slot `c` is its own; the device `j` places behind it writes slot `(c − j) mod 8`), later
  sends the partial output rows of the chunk of the device `j` places behind it to that device's slot `j − 1` of
  rs out of its own slot `j − 1` of ss, adds what it receives, and meets its peers again on a second semaphore.
  Every semaphore has ONE round. A barrier cell has seven duties of one unit, duty `j` paid by the device `j` places
  behind the owner; that signal hands the owner the slots of the signaller's xg and rs that the owner will write,
  and that the signaller's two receive cells for them stand at round 0. A receive cell's one duty hands its owner the
  slot with what landed; a send cell's one duty hands back what was lent of the source.
-/
import proofs.«900761_g7700000000000762_dist_attn_self_mha_htp_ss_b2_sq128_skv128_d512_hq8_dh64_v7x_i8_bf16_1_alg».proof.Proof.Gen.KernelIdeal
import proofs.«900761_g7700000000000762_dist_attn_self_mha_htp_ss_b2_sq128_skv128_d512_hq8_dh64_v7x_i8_bf16_1_alg».proof.Proof.Gen.KernelIdeal.Skeleton
import proofs.«900761_g7700000000000762_dist_attn_self_mha_htp_ss_b2_sq128_skv128_d512_hq8_dh64_v7x_i8_bf16_1_alg».proof.Proof.Gen.KernelIdeal.Launch
import proofs.«900761_g7700000000000762_dist_attn_self_mha_htp_ss_b2_sq128_skv128_d512_hq8_dh64_v7x_i8_bf16_1_alg».proof.Proof.Gen.KernelIdeal.Points
import proofs.«900761_g7700000000000762_dist_attn_self_mha_htp_ss_b2_sq128_skv128_d512_hq8_dh64_v7x_i8_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy beside the protocol's (duties `Fin 8`) -/

abbrev DD : Type := Fin 8
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The ring -/

/-- The device `j` places after `c`. -/
def fwd (c : Dev nD) (j : ℕ) : Dev nD := ⟨(c.val + j) % 8, Nat.mod_lt _ (by decide)⟩

theorem fwd_fwd (c : Dev nD) (j k : ℕ) : fwd (fwd c j) k = fwd c (j + k) := by
  apply Fin.ext; show ((c.val + j) % 8 + k) % 8 = (c.val + (j + k)) % 8; omega
theorem fwd_eight (c : Dev nD) : fwd c 8 = c := by
  apply Fin.ext; show (c.val + 8) % 8 = c.val; have h : c.val < 8 := c.isLt; omega
theorem fwd_zero (c : Dev nD) : fwd c 0 = c := by
  apply Fin.ext; show (c.val + 0) % 8 = c.val; have h : c.val < 8 := c.isLt; omega

@[sl_canon] theorem dev1_eq (c : Dev nD) : (⟨k0_dev1 c, k0_dev1_lt c⟩ : Dev nD) = fwd c 1 := Fin.ext (k0_dev1_eq c)
@[sl_canon] theorem dev2_eq (c : Dev nD) : (⟨k0_dev2 c, k0_dev2_lt c⟩ : Dev nD) = fwd c 2 := Fin.ext (k0_dev2_eq c)
@[sl_canon] theorem dev3_eq (c : Dev nD) : (⟨k0_dev3 c, k0_dev3_lt c⟩ : Dev nD) = fwd c 3 := Fin.ext (k0_dev3_eq c)
@[sl_canon] theorem dev4_eq (c : Dev nD) : (⟨k0_dev4 c, k0_dev4_lt c⟩ : Dev nD) = fwd c 4 := Fin.ext (k0_dev4_eq c)
@[sl_canon] theorem dev5_eq (c : Dev nD) : (⟨k0_dev5 c, k0_dev5_lt c⟩ : Dev nD) = fwd c 5 := Fin.ext (k0_dev5_eq c)
@[sl_canon] theorem dev6_eq (c : Dev nD) : (⟨k0_dev6 c, k0_dev6_lt c⟩ : Dev nD) = fwd c 6 := Fin.ext (k0_dev6_eq c)
@[sl_canon] theorem dev7_eq (c : Dev nD) : (⟨k0_dev7 c, k0_dev7_lt c⟩ : Dev nD) = fwd c 7 := Fin.ext (k0_dev7_eq c)
@[sl_canon] theorem dev8_eq (c : Dev nD) : (⟨k0_dev8 c, k0_dev8_lt c⟩ : Dev nD) = fwd c 1 := Fin.ext (k0_dev8_eq c)
@[sl_canon] theorem dev9_eq (c : Dev nD) : (⟨k0_dev9 c, k0_dev9_lt c⟩ : Dev nD) = fwd c 2 := Fin.ext (k0_dev9_eq c)
@[sl_canon] theorem dev10_eq (c : Dev nD) : (⟨k0_dev10 c, k0_dev10_lt c⟩ : Dev nD) = fwd c 3 := Fin.ext (k0_dev10_eq c)
@[sl_canon] theorem dev11_eq (c : Dev nD) : (⟨k0_dev11 c, k0_dev11_lt c⟩ : Dev nD) = fwd c 4 := Fin.ext (k0_dev11_eq c)
@[sl_canon] theorem dev12_eq (c : Dev nD) : (⟨k0_dev12 c, k0_dev12_lt c⟩ : Dev nD) = fwd c 5 := Fin.ext (k0_dev12_eq c)
@[sl_canon] theorem dev13_eq (c : Dev nD) : (⟨k0_dev13 c, k0_dev13_lt c⟩ : Dev nD) = fwd c 6 := Fin.ext (k0_dev13_eq c)
@[sl_canon] theorem dev14_eq (c : Dev nD) : (⟨k0_dev14 c, k0_dev14_lt c⟩ : Dev nD) = fwd c 7 := Fin.ext (k0_dev14_eq c)
@[sl_canon] theorem dev15_eq (c : Dev nD) : (⟨k0_dev15 c, k0_dev15_lt c⟩ : Dev nD) = fwd c 7 := Fin.ext (k0_dev15_eq c)
@[sl_canon] theorem dev16_eq (c : Dev nD) : (⟨k0_dev16 c, k0_dev16_lt c⟩ : Dev nD) = fwd c 6 := Fin.ext (k0_dev16_eq c)
@[sl_canon] theorem dev17_eq (c : Dev nD) : (⟨k0_dev17 c, k0_dev17_lt c⟩ : Dev nD) = fwd c 5 := Fin.ext (k0_dev17_eq c)
@[sl_canon] theorem dev18_eq (c : Dev nD) : (⟨k0_dev18 c, k0_dev18_lt c⟩ : Dev nD) = fwd c 4 := Fin.ext (k0_dev18_eq c)
@[sl_canon] theorem dev19_eq (c : Dev nD) : (⟨k0_dev19 c, k0_dev19_lt c⟩ : Dev nD) = fwd c 3 := Fin.ext (k0_dev19_eq c)
@[sl_canon] theorem dev20_eq (c : Dev nD) : (⟨k0_dev20 c, k0_dev20_lt c⟩ : Dev nD) = fwd c 2 := Fin.ext (k0_dev20_eq c)
@[sl_canon] theorem dev21_eq (c : Dev nD) : (⟨k0_dev21 c, k0_dev21_lt c⟩ : Dev nD) = fwd c 1 := Fin.ext (k0_dev21_eq c)
@[sl_canon] theorem dev22_eq (c : Dev nD) : (⟨k0_dev22 c, k0_dev22_lt c⟩ : Dev nD) = fwd c 1 := Fin.ext (k0_dev22_eq c)
@[sl_canon] theorem dev23_eq (c : Dev nD) : (⟨k0_dev23 c, k0_dev23_lt c⟩ : Dev nD) = fwd c 2 := Fin.ext (k0_dev23_eq c)
@[sl_canon] theorem dev24_eq (c : Dev nD) : (⟨k0_dev24 c, k0_dev24_lt c⟩ : Dev nD) = fwd c 3 := Fin.ext (k0_dev24_eq c)
@[sl_canon] theorem dev25_eq (c : Dev nD) : (⟨k0_dev25 c, k0_dev25_lt c⟩ : Dev nD) = fwd c 4 := Fin.ext (k0_dev25_eq c)
@[sl_canon] theorem dev26_eq (c : Dev nD) : (⟨k0_dev26 c, k0_dev26_lt c⟩ : Dev nD) = fwd c 5 := Fin.ext (k0_dev26_eq c)
@[sl_canon] theorem dev27_eq (c : Dev nD) : (⟨k0_dev27 c, k0_dev27_lt c⟩ : Dev nD) = fwd c 6 := Fin.ext (k0_dev27_eq c)
@[sl_canon] theorem dev28_eq (c : Dev nD) : (⟨k0_dev28 c, k0_dev28_lt c⟩ : Dev nD) = fwd c 7 := Fin.ext (k0_dev28_eq c)

/-! ## The semaphores and the cells -/

abbrev barS : Sem sig := (SemArray.scalar (sig.barrier 0 rfl) : Sems sig S_).sem
abbrev exitS : Sem sig := (cc0_scoped0 : Sems sig S_).sem
abbrev agS0 : DmaSem sig := ((cc0_scratch6.slice (Rect.unit (s := S7) ![0] S1.size inb_S7_S1_0)).squeeze S_ squeezes_S1_S_).sem
abbrev agS1 : DmaSem sig := ((cc0_scratch6.slice (Rect.unit (s := S7) ![1] S1.size inb_S7_S1_1)).squeeze S_ squeezes_S1_S_).sem
abbrev agS2 : DmaSem sig := ((cc0_scratch6.slice (Rect.unit (s := S7) ![2] S1.size inb_S7_S1_2)).squeeze S_ squeezes_S1_S_).sem
abbrev agS3 : DmaSem sig := ((cc0_scratch6.slice (Rect.unit (s := S7) ![3] S1.size inb_S7_S1_3)).squeeze S_ squeezes_S1_S_).sem
abbrev agS4 : DmaSem sig := ((cc0_scratch6.slice (Rect.unit (s := S7) ![4] S1.size inb_S7_S1_4)).squeeze S_ squeezes_S1_S_).sem
abbrev agS5 : DmaSem sig := ((cc0_scratch6.slice (Rect.unit (s := S7) ![5] S1.size inb_S7_S1_5)).squeeze S_ squeezes_S1_S_).sem
abbrev agS6 : DmaSem sig := ((cc0_scratch6.slice (Rect.unit (s := S7) ![6] S1.size inb_S7_S1_6)).squeeze S_ squeezes_S1_S_).sem
abbrev agR0 : DmaSem sig := ((cc0_scratch7.slice (Rect.unit (s := S7) ![0] S1.size inb_S7_S1_0)).squeeze S_ squeezes_S1_S_).sem
abbrev agR1 : DmaSem sig := ((cc0_scratch7.slice (Rect.unit (s := S7) ![1] S1.size inb_S7_S1_1)).squeeze S_ squeezes_S1_S_).sem
abbrev agR2 : DmaSem sig := ((cc0_scratch7.slice (Rect.unit (s := S7) ![2] S1.size inb_S7_S1_2)).squeeze S_ squeezes_S1_S_).sem
abbrev agR3 : DmaSem sig := ((cc0_scratch7.slice (Rect.unit (s := S7) ![3] S1.size inb_S7_S1_3)).squeeze S_ squeezes_S1_S_).sem
abbrev agR4 : DmaSem sig := ((cc0_scratch7.slice (Rect.unit (s := S7) ![4] S1.size inb_S7_S1_4)).squeeze S_ squeezes_S1_S_).sem
abbrev agR5 : DmaSem sig := ((cc0_scratch7.slice (Rect.unit (s := S7) ![5] S1.size inb_S7_S1_5)).squeeze S_ squeezes_S1_S_).sem
abbrev agR6 : DmaSem sig := ((cc0_scratch7.slice (Rect.unit (s := S7) ![6] S1.size inb_S7_S1_6)).squeeze S_ squeezes_S1_S_).sem
abbrev rsS0 : DmaSem sig := ((cc0_scratch8.slice (Rect.unit (s := S7) ![0] S1.size inb_S7_S1_0)).squeeze S_ squeezes_S1_S_).sem
abbrev rsS1 : DmaSem sig := ((cc0_scratch8.slice (Rect.unit (s := S7) ![1] S1.size inb_S7_S1_1)).squeeze S_ squeezes_S1_S_).sem
abbrev rsS2 : DmaSem sig := ((cc0_scratch8.slice (Rect.unit (s := S7) ![2] S1.size inb_S7_S1_2)).squeeze S_ squeezes_S1_S_).sem
abbrev rsS3 : DmaSem sig := ((cc0_scratch8.slice (Rect.unit (s := S7) ![3] S1.size inb_S7_S1_3)).squeeze S_ squeezes_S1_S_).sem
abbrev rsS4 : DmaSem sig := ((cc0_scratch8.slice (Rect.unit (s := S7) ![4] S1.size inb_S7_S1_4)).squeeze S_ squeezes_S1_S_).sem
abbrev rsS5 : DmaSem sig := ((cc0_scratch8.slice (Rect.unit (s := S7) ![5] S1.size inb_S7_S1_5)).squeeze S_ squeezes_S1_S_).sem
abbrev rsS6 : DmaSem sig := ((cc0_scratch8.slice (Rect.unit (s := S7) ![6] S1.size inb_S7_S1_6)).squeeze S_ squeezes_S1_S_).sem
abbrev rsR0 : DmaSem sig := ((cc0_scratch9.slice (Rect.unit (s := S7) ![0] S1.size inb_S7_S1_0)).squeeze S_ squeezes_S1_S_).sem
abbrev rsR1 : DmaSem sig := ((cc0_scratch9.slice (Rect.unit (s := S7) ![1] S1.size inb_S7_S1_1)).squeeze S_ squeezes_S1_S_).sem
abbrev rsR2 : DmaSem sig := ((cc0_scratch9.slice (Rect.unit (s := S7) ![2] S1.size inb_S7_S1_2)).squeeze S_ squeezes_S1_S_).sem
abbrev rsR3 : DmaSem sig := ((cc0_scratch9.slice (Rect.unit (s := S7) ![3] S1.size inb_S7_S1_3)).squeeze S_ squeezes_S1_S_).sem
abbrev rsR4 : DmaSem sig := ((cc0_scratch9.slice (Rect.unit (s := S7) ![4] S1.size inb_S7_S1_4)).squeeze S_ squeezes_S1_S_).sem
abbrev rsR5 : DmaSem sig := ((cc0_scratch9.slice (Rect.unit (s := S7) ![5] S1.size inb_S7_S1_5)).squeeze S_ squeezes_S1_S_).sem
abbrev rsR6 : DmaSem sig := ((cc0_scratch9.slice (Rect.unit (s := S7) ![6] S1.size inb_S7_S1_6)).squeeze S_ squeezes_S1_S_).sem

abbrev agS : Fin 7 → DmaSem sig := fun | 0 => agS0 | 1 => agS1 | 2 => agS2 | 3 => agS3 | 4 => agS4 | 5 => agS5 | 6 => agS6
abbrev agR : Fin 7 → DmaSem sig := fun | 0 => agR0 | 1 => agR1 | 2 => agR2 | 3 => agR3 | 4 => agR4 | 5 => agR5 | 6 => agR6
abbrev rsS : Fin 7 → DmaSem sig := fun | 0 => rsS0 | 1 => rsS1 | 2 => rsS2 | 3 => rsS3 | 4 => rsS4 | 5 => rsS5 | 6 => rsS6
abbrev rsR : Fin 7 → DmaSem sig := fun | 0 => rsR0 | 1 => rsR1 | 2 => rsR2 | 3 => rsR3 | 4 => rsR4 | 5 => rsR5 | 6 => rsR6

abbrev barCell (c : Dev nD) : GSem nD τ sig := ((c : Thread nD τ), .reg barS)
abbrev exitCell (c : Dev nD) : GSem nD τ sig := ((c : Thread nD τ), .reg exitS)
abbrev agSCell (c : Dev nD) (i : Fin 7) : GSem nD τ sig := ((c : Thread nD τ), .dma (agS i))
abbrev agRCell (c : Dev nD) (i : Fin 7) : GSem nD τ sig := ((c : Thread nD τ), .dma (agR i))
abbrev rsSCell (c : Dev nD) (i : Fin 7) : GSem nD τ sig := ((c : Thread nD τ), .dma (rsS i))
abbrev rsRCell (c : Dev nD) (i : Fin 7) : GSem nD τ sig := ((c : Thread nD τ), .dma (rsR i))

/-- What a semaphore is for. -/
inductive Kind where
  | bar | exit | agSend (i : Fin 7) | agRecv (i : Fin 7) | rsSend (i : Fin 7) | rsRecv (i : Fin 7) | other
  deriving DecidableEq

/-- The kernel's semaphores by number: the barrier is regular semaphore 0, the second barrier regular semaphore 1; the
    four arrays of seven DMA semaphores start at 6, 13, 20 and 27 (0 to 5 are the pipeline's own). -/
def kindOf : SemLoc sig → Kind
  | .reg s => if s.val = 0 then .bar else .exit
  | .dma q =>
    if h : 6 ≤ q.val ∧ q.val < 13 then .agSend ⟨q.val - 6, by omega⟩
    else if h : 13 ≤ q.val ∧ q.val < 20 then .agRecv ⟨q.val - 13, by omega⟩
    else if h : 20 ≤ q.val ∧ q.val < 27 then .rsSend ⟨q.val - 20, by omega⟩
    else if h : 27 ≤ q.val ∧ q.val < 34 then .rsRecv ⟨q.val - 27, by omega⟩
    else .other

theorem kindOf_bar : kindOf (.reg barS) = .bar := rfl
theorem kindOf_exit : kindOf (.reg exitS) = .exit := rfl
theorem kindOf_agS (i : Fin 7) : kindOf (.dma (agS i)) = .agSend i := by revert i; decide
theorem kindOf_agR (i : Fin 7) : kindOf (.dma (agR i)) = .agRecv i := by revert i; decide
theorem kindOf_rsS (i : Fin 7) : kindOf (.dma (rsS i)) = .rsSend i := by revert i; decide
theorem kindOf_rsR (i : Fin 7) : kindOf (.dma (rsR i)) = .rsRecv i := by revert i; decide

/-! ## The buffers' slots -/

section Slots

abbrev xgM : Memref sig .tc .vmem S8x2x128x512 .bf16 := Memref.whole cc0_scratch0
/-- The slot of xg that holds device `s`'s block, on whichever device: source and destination of `s`'s seven copies. -/
abbrev xgSlot (s : Dev nD) : Memref sig .tc .vmem S2x128x512 .bf16 :=
  ((xgM.slice (Rect.unit (s := S8x2x128x512) (k0_off2 s) S1x2x128x512.size (k0_off2_inb s)) (fun _ => rfl)).squeeze S2x128x512 squeezes_S1x2x128x512_S2x128x512)
abbrev ssSlot0 : Memref sig .tc .vmem S2x128x512 .bf16 := (((Memref.whole cc0_scratch4 : Memref sig .tc .vmem S7x2x128x512 .bf16).slice (Rect.unit (s := S7x2x128x512) ![0, 0, 0, 0] S1x2x128x512.size inb_S7x2x128x512_S1x2x128x512_0_0_0_0) (fun _ => rfl)).squeeze S2x128x512 squeezes_S1x2x128x512_S2x128x512)
abbrev ssSlot1 : Memref sig .tc .vmem S2x128x512 .bf16 := (((Memref.whole cc0_scratch4 : Memref sig .tc .vmem S7x2x128x512 .bf16).slice (Rect.unit (s := S7x2x128x512) ![1, 0, 0, 0] S1x2x128x512.size inb_S7x2x128x512_S1x2x128x512_1_0_0_0) (fun _ => rfl)).squeeze S2x128x512 squeezes_S1x2x128x512_S2x128x512)
abbrev ssSlot2 : Memref sig .tc .vmem S2x128x512 .bf16 := (((Memref.whole cc0_scratch4 : Memref sig .tc .vmem S7x2x128x512 .bf16).slice (Rect.unit (s := S7x2x128x512) ![2, 0, 0, 0] S1x2x128x512.size inb_S7x2x128x512_S1x2x128x512_2_0_0_0) (fun _ => rfl)).squeeze S2x128x512 squeezes_S1x2x128x512_S2x128x512)
abbrev ssSlot3 : Memref sig .tc .vmem S2x128x512 .bf16 := (((Memref.whole cc0_scratch4 : Memref sig .tc .vmem S7x2x128x512 .bf16).slice (Rect.unit (s := S7x2x128x512) ![3, 0, 0, 0] S1x2x128x512.size inb_S7x2x128x512_S1x2x128x512_3_0_0_0) (fun _ => rfl)).squeeze S2x128x512 squeezes_S1x2x128x512_S2x128x512)
abbrev ssSlot4 : Memref sig .tc .vmem S2x128x512 .bf16 := (((Memref.whole cc0_scratch4 : Memref sig .tc .vmem S7x2x128x512 .bf16).slice (Rect.unit (s := S7x2x128x512) ![4, 0, 0, 0] S1x2x128x512.size inb_S7x2x128x512_S1x2x128x512_4_0_0_0) (fun _ => rfl)).squeeze S2x128x512 squeezes_S1x2x128x512_S2x128x512)
abbrev ssSlot5 : Memref sig .tc .vmem S2x128x512 .bf16 := (((Memref.whole cc0_scratch4 : Memref sig .tc .vmem S7x2x128x512 .bf16).slice (Rect.unit (s := S7x2x128x512) ![5, 0, 0, 0] S1x2x128x512.size inb_S7x2x128x512_S1x2x128x512_5_0_0_0) (fun _ => rfl)).squeeze S2x128x512 squeezes_S1x2x128x512_S2x128x512)
abbrev ssSlot6 : Memref sig .tc .vmem S2x128x512 .bf16 := (((Memref.whole cc0_scratch4 : Memref sig .tc .vmem S7x2x128x512 .bf16).slice (Rect.unit (s := S7x2x128x512) ![6, 0, 0, 0] S1x2x128x512.size inb_S7x2x128x512_S1x2x128x512_6_0_0_0) (fun _ => rfl)).squeeze S2x128x512 squeezes_S1x2x128x512_S2x128x512)
abbrev ssSlot : Fin 7 → Memref sig .tc .vmem S2x128x512 .bf16 := fun | 0 => ssSlot0 | 1 => ssSlot1 | 2 => ssSlot2 | 3 => ssSlot3 | 4 => ssSlot4 | 5 => ssSlot5 | 6 => ssSlot6
abbrev rsSlot0 : Memref sig .tc .vmem S2x128x512 .bf16 := (((Memref.whole cc0_scratch5 : Memref sig .tc .vmem S7x2x128x512 .bf16).slice (Rect.unit (s := S7x2x128x512) ![0, 0, 0, 0] S1x2x128x512.size inb_S7x2x128x512_S1x2x128x512_0_0_0_0) (fun _ => rfl)).squeeze S2x128x512 squeezes_S1x2x128x512_S2x128x512)
abbrev rsSlot1 : Memref sig .tc .vmem S2x128x512 .bf16 := (((Memref.whole cc0_scratch5 : Memref sig .tc .vmem S7x2x128x512 .bf16).slice (Rect.unit (s := S7x2x128x512) ![1, 0, 0, 0] S1x2x128x512.size inb_S7x2x128x512_S1x2x128x512_1_0_0_0) (fun _ => rfl)).squeeze S2x128x512 squeezes_S1x2x128x512_S2x128x512)
abbrev rsSlot2 : Memref sig .tc .vmem S2x128x512 .bf16 := (((Memref.whole cc0_scratch5 : Memref sig .tc .vmem S7x2x128x512 .bf16).slice (Rect.unit (s := S7x2x128x512) ![2, 0, 0, 0] S1x2x128x512.size inb_S7x2x128x512_S1x2x128x512_2_0_0_0) (fun _ => rfl)).squeeze S2x128x512 squeezes_S1x2x128x512_S2x128x512)
abbrev rsSlot3 : Memref sig .tc .vmem S2x128x512 .bf16 := (((Memref.whole cc0_scratch5 : Memref sig .tc .vmem S7x2x128x512 .bf16).slice (Rect.unit (s := S7x2x128x512) ![3, 0, 0, 0] S1x2x128x512.size inb_S7x2x128x512_S1x2x128x512_3_0_0_0) (fun _ => rfl)).squeeze S2x128x512 squeezes_S1x2x128x512_S2x128x512)
abbrev rsSlot4 : Memref sig .tc .vmem S2x128x512 .bf16 := (((Memref.whole cc0_scratch5 : Memref sig .tc .vmem S7x2x128x512 .bf16).slice (Rect.unit (s := S7x2x128x512) ![4, 0, 0, 0] S1x2x128x512.size inb_S7x2x128x512_S1x2x128x512_4_0_0_0) (fun _ => rfl)).squeeze S2x128x512 squeezes_S1x2x128x512_S2x128x512)
abbrev rsSlot5 : Memref sig .tc .vmem S2x128x512 .bf16 := (((Memref.whole cc0_scratch5 : Memref sig .tc .vmem S7x2x128x512 .bf16).slice (Rect.unit (s := S7x2x128x512) ![5, 0, 0, 0] S1x2x128x512.size inb_S7x2x128x512_S1x2x128x512_5_0_0_0) (fun _ => rfl)).squeeze S2x128x512 squeezes_S1x2x128x512_S2x128x512)
abbrev rsSlot6 : Memref sig .tc .vmem S2x128x512 .bf16 := (((Memref.whole cc0_scratch5 : Memref sig .tc .vmem S7x2x128x512 .bf16).slice (Rect.unit (s := S7x2x128x512) ![6, 0, 0, 0] S1x2x128x512.size inb_S7x2x128x512_S1x2x128x512_6_0_0_0) (fun _ => rfl)).squeeze S2x128x512 squeezes_S1x2x128x512_S2x128x512)
abbrev rsSlot : Fin 7 → Memref sig .tc .vmem S2x128x512 .bf16 := fun | 0 => rsSlot0 | 1 => rsSlot1 | 2 => rsSlot2 | 3 => rsSlot3 | 4 => rsSlot4 | 5 => rsSlot5 | 6 => rsSlot6

/-- The credit of one slot's transfer. -/
abbrev Nag : ℕ := (xgSlot (0 : Dev nD)).view.dmaCredit
abbrev Nrs : ℕ := (rsSlot0).view.dmaCredit
theorem Nag_pos : 0 < Nag := View.dmaCredit_pos _ (by decide)
theorem Nrs_pos : 0 < Nrs := View.dmaCredit_pos _ (by decide)

/-- The share of its own slot of xg that device `c` lends its `i`-th copy; the eighth part stays for its own loads. -/
def lend : Fin 7 → PosShare TreeShare := fun
  | 0 => fullShare.left | 1 => fullShare.right.left | 2 => fullShare.right.right.left | 3 => fullShare.right.right.right.left
  | 4 => fullShare.right.right.right.right.left | 5 => fullShare.right.right.right.right.right.left
  | 6 => fullShare.right.right.right.right.right.right.left
def kept : PosShare TreeShare := fullShare.right.right.right.right.right.right.right

end Slots

/-! ## The schedule -/

section Sched

/-- Elements of a slot on device `d`, at SOME contents / at contents `f` with share `q`. -/
def slotAny (d : Dev nD) (M : Memref sig .tc .vmem S2x128x512 .bf16) : sProp 𝕄 :=
  iprop(∃ f, M.view.loc (d : Thread nD τ) ↦[M.view.set]{fullShare} f)
def slotAt (d : Dev nD) (M : Memref sig .tc .vmem S2x128x512 .bf16) (q : PosShare TreeShare) (f : Buf (Elt F) (M.view.loc (d : Thread nD τ))) : sProp 𝕄 :=
  M.view.loc (d : Thread nD τ) ↦[M.view.set]{q} f

omit [FloatOps F] in
instance slotAny_storable (d : Dev nD) (M : Memref sig .tc .vmem S2x128x512 .bf16) : BI.Storable (upEmb : UEmb _ 𝕄) (slotAny (F := F) d M) := by unfold slotAny; infer_instance
omit [FloatOps F] in
instance slotAt_storable (d : Dev nD) (M : Memref sig .tc .vmem S2x128x512 .bf16) (q : PosShare TreeShare) (f : Buf (Elt F) (M.view.loc (d : Thread nD τ))) :
    BI.Storable (upEmb : UEmb _ 𝕄) (slotAt d M q f) := by unfold slotAt; infer_instance

/- What every device's xg ends holding; what device `c`'s ss and rs end holding. -/
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))

/-- Duty `j` of device `c`'s barrier cell is paid by the device `d` with `c` `j` places after it. `c` will copy its
    block into `d`'s slot of xg for it through its loop index `8 − j` (receive semaphore `7 − j` of `d`), and the
    partial rows for `d`'s chunk into `d`'s slot `j − 1` of rs: the signal hands `c` both slots, with `d`'s two receive
    cells at round 0. -/
def barPay (c : Dev nD) : DD → sProp 𝕄 := fun
  | 0 => iprop(emp)
  | 1 => iprop(slotAny (F := F) (fwd c 7) (xgSlot c) ∗ reached ER (agRCell (fwd c 7) 6) 0 ∗ slotAny (F := F) (fwd c 7) rsSlot0 ∗ reached ER (rsRCell (fwd c 7) 0) 0)
  | 2 => iprop(slotAny (F := F) (fwd c 6) (xgSlot c) ∗ reached ER (agRCell (fwd c 6) 5) 0 ∗ slotAny (F := F) (fwd c 6) rsSlot1 ∗ reached ER (rsRCell (fwd c 6) 1) 0)
  | 3 => iprop(slotAny (F := F) (fwd c 5) (xgSlot c) ∗ reached ER (agRCell (fwd c 5) 4) 0 ∗ slotAny (F := F) (fwd c 5) rsSlot2 ∗ reached ER (rsRCell (fwd c 5) 2) 0)
  | 4 => iprop(slotAny (F := F) (fwd c 4) (xgSlot c) ∗ reached ER (agRCell (fwd c 4) 3) 0 ∗ slotAny (F := F) (fwd c 4) rsSlot3 ∗ reached ER (rsRCell (fwd c 4) 3) 0)
  | 5 => iprop(slotAny (F := F) (fwd c 3) (xgSlot c) ∗ reached ER (agRCell (fwd c 3) 2) 0 ∗ slotAny (F := F) (fwd c 3) rsSlot4 ∗ reached ER (rsRCell (fwd c 3) 4) 0)
  | 6 => iprop(slotAny (F := F) (fwd c 2) (xgSlot c) ∗ reached ER (agRCell (fwd c 2) 1) 0 ∗ slotAny (F := F) (fwd c 2) rsSlot5 ∗ reached ER (rsRCell (fwd c 2) 5) 0)
  | 7 => iprop(slotAny (F := F) (fwd c 1) (xgSlot c) ∗ reached ER (agRCell (fwd c 1) 0) 0 ∗ slotAny (F := F) (fwd c 1) rsSlot6 ∗ reached ER (rsRCell (fwd c 1) 6) 0)

omit [FloatOps F] in
instance barPay_storable (c : Dev nD) (j : DD) : BI.Storable (upEmb : UEmb _ 𝕄) (barPay (F := F) c j) := by
  unfold barPay; split <;> infer_instance

/-- The lent part of the source slot, handed back when copy `i` has been read out. -/
def agSPay (c : Dev nD) (i : Fin 7) : sProp 𝕄 := slotAt c (xgSlot c) (lend i) XG
/-- Receive semaphore `i` of device `c` is credited by the device `i + 1` places behind it, whose block then stands in its slot. -/
def agRPay (c : Dev nD) (i : Fin 7) : sProp 𝕄 := slotAt c (xgSlot (fwd c (7 - i.val))) fullShare XG
def rsSPay (c : Dev nD) : Fin 7 → sProp 𝕄 := fun
  | 0 => slotAt c ssSlot0 fullShare (SS c)
  | 1 => slotAt c ssSlot1 fullShare (SS c)
  | 2 => slotAt c ssSlot2 fullShare (SS c)
  | 3 => slotAt c ssSlot3 fullShare (SS c)
  | 4 => slotAt c ssSlot4 fullShare (SS c)
  | 5 => slotAt c ssSlot5 fullShare (SS c)
  | 6 => slotAt c ssSlot6 fullShare (SS c)

instance rsSPay_storable (c : Dev nD) (i : Fin 7) : BI.Storable (upEmb : UEmb _ 𝕄) (rsSPay SS c i) := by
  unfold rsSPay; split <;> infer_instance

def rsRPay (c : Dev nD) : Fin 7 → sProp 𝕄 := fun
  | 0 => slotAt c rsSlot0 fullShare (RS c)
  | 1 => slotAt c rsSlot1 fullShare (RS c)
  | 2 => slotAt c rsSlot2 fullShare (RS c)
  | 3 => slotAt c rsSlot3 fullShare (RS c)
  | 4 => slotAt c rsSlot4 fullShare (RS c)
  | 5 => slotAt c rsSlot5 fullShare (RS c)
  | 6 => slotAt c rsSlot6 fullShare (RS c)

instance rsRPay_storable (c : Dev nD) (i : Fin 7) : BI.Storable (upEmb : UEmb _ 𝕄) (rsRPay RS c i) := by
  unfold rsRPay; split <;> infer_instance

/-- One round. A barrier cell (the entry's or the exit's) has the seven duties 1..7 of one unit each; a send or receive cell
    the duty 0 of its slot's credit. -/
def sched : Rounds.Schedule (GSem nD τ sig) DD 𝕄 where
  duties g r := if r = 0 ∧ g.1.2 = .tc then
      (match kindOf g.2 with | .bar => Finset.univ.erase 0 | .exit => Finset.univ.erase 0 | .other => ∅ | _ => {0})
    else ∅
  unitless _ := False
  amount g _ _ := match kindOf g.2 with
    | .agSend _ => Nag | .agRecv _ => Nag | .rsSend _ => Nrs | .rsRecv _ => Nrs | _ => 1
  payload g _ d := match kindOf g.2 with
    | .bar => barPay g.1.1 d
    | .agSend i => agSPay XG g.1.1 i
    | .agRecv i => agRPay XG g.1.1 i
    | .rsSend i => rsSPay SS g.1.1 i
    | .rsRecv i => rsRPay RS g.1.1 i
    | _ => iprop(emp)
  amount_pos g _ _ _ := by
    cases kindOf g.2 <;> first | exact Nat.one_pos | exact Nag_pos | exact Nrs_pos

instance sched_payload_storable (g : GSem nD τ sig) (r : ℕ) (d : DD) :
    BI.Storable (upEmb : UEmb _ 𝕄) ((sched (F := F) XG SS RS).payload g r d) := by
  show BI.Storable upEmb (match kindOf g.2 with
    | .bar => barPay g.1.1 d
    | .agSend i => agSPay XG g.1.1 i
    | .agRecv i => agRPay XG g.1.1 i
    | .rsSend i => rsSPay SS g.1.1 i
    | .rsRecv i => rsRPay RS g.1.1 i
    | _ => iprop(emp))
  unfold agSPay agRPay
  split <;> infer_instance

end Sched

/-! ## What each device owes at launch; the levels -/

/-- What device `c` still owes once its first `k` payments (in program order: seven barrier signals, seven copies of its
    block, seven copies of partial rows, seven exit signals) are made. `owedFrom c 0` is what it owes at launch. -/
def O₀ (c : Dev nD) : CellTallies nD τ sig Unit :=
    tallyAt (exitCell (fwd c 7)) () 1
    + tallyAt (exitCell (fwd c 6)) () 1
    + tallyAt (exitCell (fwd c 5)) () 1
    + tallyAt (exitCell (fwd c 4)) () 1
    + tallyAt (exitCell (fwd c 3)) () 1
    + tallyAt (exitCell (fwd c 2)) () 1
    + tallyAt (exitCell (fwd c 1)) () 1
    + tallyAt (rsRCell (fwd c 1) 6) () Nrs
    + tallyAt (rsRCell (fwd c 2) 5) () Nrs
    + tallyAt (rsRCell (fwd c 3) 4) () Nrs
    + tallyAt (rsRCell (fwd c 4) 3) () Nrs
    + tallyAt (rsRCell (fwd c 5) 2) () Nrs
    + tallyAt (rsRCell (fwd c 6) 1) () Nrs
    + tallyAt (rsRCell (fwd c 7) 0) () Nrs
    + tallyAt (agRCell (fwd c 7) 6) () Nag
    + tallyAt (agRCell (fwd c 6) 5) () Nag
    + tallyAt (agRCell (fwd c 5) 4) () Nag
    + tallyAt (agRCell (fwd c 4) 3) () Nag
    + tallyAt (agRCell (fwd c 3) 2) () Nag
    + tallyAt (agRCell (fwd c 2) 1) () Nag
    + tallyAt (agRCell (fwd c 1) 0) () Nag
    + tallyAt (barCell (fwd c 7)) () 1
    + tallyAt (barCell (fwd c 6)) () 1
    + tallyAt (barCell (fwd c 5)) () 1
    + tallyAt (barCell (fwd c 4)) () 1
    + tallyAt (barCell (fwd c 3)) () 1
    + tallyAt (barCell (fwd c 2)) () 1
    + tallyAt (barCell (fwd c 1)) () 1

def L (g : GSem nD τ sig) : Finset Unit := if g.1.2 = .tc then {()} else ∅
/-- A wait is below everything the waiter still owes: the entry barrier below the receive cells of the gathered blocks,
    those below the receive cells of the partial rows, those below the exit barrier; send cells and the pipeline's own at 0. -/
def lv (g : GSem nD τ sig) (_ : Unit) : ℕ := match kindOf g.2 with
  | .bar => 1 | .agRecv _ => 2 | .rsRecv _ => 3 | .exit => 4 | _ => 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdealProof

end
-- ==== Proof.Data.lean ====
/-
  The ghost state and the proof data of the kernel's one region.

  Device `c` opens the invariants of its own thirty cells and of the twenty-eight cells of its peers that it pays (their
  barrier cells, the receive cells of its fourteen copies, their exit cells). It starts at round 0 of its own cells, knows
  round 0 of all fifty-eight reached, holds the forty-two tokens of the duties it pays (twenty-eight at its peers, the
  fourteen departures at its own send cells) and the credit for the units its peers owe its cells.
-/
import proofs.«900761_g7700000000000762_dist_attn_self_mha_htp_ss_b2_sq128_skv128_d512_hq8_dh64_v7x_i8_bf16_1_alg».proof.Proof.Proto

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (OUT : Dev nD → (cc0_stg5_0 : Ref sig .tc).ty.Contents (Elt F))

def s₀ : MemSt nD τ sig (Elt F) := ⟨m, fun _ => 0, ρ⟩

/-! ## The cells by number -/

/-- A device's thirty semaphores: the barrier, the exit barrier, then the four arrays of seven. -/
abbrev csem : Fin 30 → SemLoc sig := fun
  | 0 => .reg barS
  | 1 => .reg exitS
  | 2 => .dma agS0
  | 3 => .dma agS1
  | 4 => .dma agS2
  | 5 => .dma agS3
  | 6 => .dma agS4
  | 7 => .dma agS5
  | 8 => .dma agS6
  | 9 => .dma agR0
  | 10 => .dma agR1
  | 11 => .dma agR2
  | 12 => .dma agR3
  | 13 => .dma agR4
  | 14 => .dma agR5
  | 15 => .dma agR6
  | 16 => .dma rsS0
  | 17 => .dma rsS1
  | 18 => .dma rsS2
  | 19 => .dma rsS3
  | 20 => .dma rsS4
  | 21 => .dma rsS5
  | 22 => .dma rsS6
  | 23 => .dma rsR0
  | 24 => .dma rsR1
  | 25 => .dma rsR2
  | 26 => .dma rsR3
  | 27 => .dma rsR4
  | 28 => .dma rsR5
  | 29 => .dma rsR6
  | ⟨_ + 30, h⟩ => absurd h (Nat.not_lt.2 (Nat.le_add_left _ _))
abbrev kcell (ck : Dev nD × Fin 30) : GSem nD τ sig := ((ck.1 : Thread nD τ), csem ck.2)
/-- The kernel's own (scoped) semaphores: all but the runtime's barrier. -/
abbrev osem : Fin 29 → SemLoc sig := fun k => csem ⟨k.val + 1, by have := k.isLt; omega⟩

/-! ## The ghost state of a device -/

/-- The invariants device `c` opens, under the names `K` the launch allocated them at. -/
def invs (K : Dev nD × Fin 30 → ℕ) (c : Dev nD) : sProp 𝕄 :=
  iprop(cellInv ER (sched XG SS RS) (K (c, 0)) (barCell c)
    ∗ cellInv ER (sched XG SS RS) (K (c, 1)) (exitCell c)
    ∗ cellInv ER (sched XG SS RS) (K (c, 2)) (agSCell c 0)
    ∗ cellInv ER (sched XG SS RS) (K (c, 3)) (agSCell c 1)
    ∗ cellInv ER (sched XG SS RS) (K (c, 4)) (agSCell c 2)
    ∗ cellInv ER (sched XG SS RS) (K (c, 5)) (agSCell c 3)
    ∗ cellInv ER (sched XG SS RS) (K (c, 6)) (agSCell c 4)
    ∗ cellInv ER (sched XG SS RS) (K (c, 7)) (agSCell c 5)
    ∗ cellInv ER (sched XG SS RS) (K (c, 8)) (agSCell c 6)
    ∗ cellInv ER (sched XG SS RS) (K (c, 9)) (agRCell c 0)
    ∗ cellInv ER (sched XG SS RS) (K (c, 10)) (agRCell c 1)
    ∗ cellInv ER (sched XG SS RS) (K (c, 11)) (agRCell c 2)
    ∗ cellInv ER (sched XG SS RS) (K (c, 12)) (agRCell c 3)
    ∗ cellInv ER (sched XG SS RS) (K (c, 13)) (agRCell c 4)
    ∗ cellInv ER (sched XG SS RS) (K (c, 14)) (agRCell c 5)
    ∗ cellInv ER (sched XG SS RS) (K (c, 15)) (agRCell c 6)
    ∗ cellInv ER (sched XG SS RS) (K (c, 16)) (rsSCell c 0)
    ∗ cellInv ER (sched XG SS RS) (K (c, 17)) (rsSCell c 1)
    ∗ cellInv ER (sched XG SS RS) (K (c, 18)) (rsSCell c 2)
    ∗ cellInv ER (sched XG SS RS) (K (c, 19)) (rsSCell c 3)
    ∗ cellInv ER (sched XG SS RS) (K (c, 20)) (rsSCell c 4)
    ∗ cellInv ER (sched XG SS RS) (K (c, 21)) (rsSCell c 5)
    ∗ cellInv ER (sched XG SS RS) (K (c, 22)) (rsSCell c 6)
    ∗ cellInv ER (sched XG SS RS) (K (c, 23)) (rsRCell c 0)
    ∗ cellInv ER (sched XG SS RS) (K (c, 24)) (rsRCell c 1)
    ∗ cellInv ER (sched XG SS RS) (K (c, 25)) (rsRCell c 2)
    ∗ cellInv ER (sched XG SS RS) (K (c, 26)) (rsRCell c 3)
    ∗ cellInv ER (sched XG SS RS) (K (c, 27)) (rsRCell c 4)
    ∗ cellInv ER (sched XG SS RS) (K (c, 28)) (rsRCell c 5)
    ∗ cellInv ER (sched XG SS RS) (K (c, 29)) (rsRCell c 6)
    ∗ cellInv ER (sched XG SS RS) (K (fwd c 1, 0)) (barCell (fwd c 1))
    ∗ cellInv ER (sched XG SS RS) (K (fwd c 2, 0)) (barCell (fwd c 2))
    ∗ cellInv ER (sched XG SS RS) (K (fwd c 3, 0)) (barCell (fwd c 3))
    ∗ cellInv ER (sched XG SS RS) (K (fwd c 4, 0)) (barCell (fwd c 4))
    ∗ cellInv ER (sched XG SS RS) (K (fwd c 5, 0)) (barCell (fwd c 5))
    ∗ cellInv ER (sched XG SS RS) (K (fwd c 6, 0)) (barCell (fwd c 6))
    ∗ cellInv ER (sched XG SS RS) (K (fwd c 7, 0)) (barCell (fwd c 7))
    ∗ cellInv ER (sched XG SS RS) (K (fwd c 1, 9)) (agRCell (fwd c 1) 0)
    ∗ cellInv ER (sched XG SS RS) (K (fwd c 2, 10)) (agRCell (fwd c 2) 1)
    ∗ cellInv ER (sched XG SS RS) (K (fwd c 3, 11)) (agRCell (fwd c 3) 2)
    ∗ cellInv ER (sched XG SS RS) (K (fwd c 4, 12)) (agRCell (fwd c 4) 3)
    ∗ cellInv ER (sched XG SS RS) (K (fwd c 5, 13)) (agRCell (fwd c 5) 4)
    ∗ cellInv ER (sched XG SS RS) (K (fwd c 6, 14)) (agRCell (fwd c 6) 5)
    ∗ cellInv ER (sched XG SS RS) (K (fwd c 7, 15)) (agRCell (fwd c 7) 6)
    ∗ cellInv ER (sched XG SS RS) (K (fwd c 7, 23)) (rsRCell (fwd c 7) 0)
    ∗ cellInv ER (sched XG SS RS) (K (fwd c 6, 24)) (rsRCell (fwd c 6) 1)
    ∗ cellInv ER (sched XG SS RS) (K (fwd c 5, 25)) (rsRCell (fwd c 5) 2)
    ∗ cellInv ER (sched XG SS RS) (K (fwd c 4, 26)) (rsRCell (fwd c 4) 3)
    ∗ cellInv ER (sched XG SS RS) (K (fwd c 3, 27)) (rsRCell (fwd c 3) 4)
    ∗ cellInv ER (sched XG SS RS) (K (fwd c 2, 28)) (rsRCell (fwd c 2) 5)
    ∗ cellInv ER (sched XG SS RS) (K (fwd c 1, 29)) (rsRCell (fwd c 1) 6)
    ∗ cellInv ER (sched XG SS RS) (K (fwd c 1, 1)) (exitCell (fwd c 1))
    ∗ cellInv ER (sched XG SS RS) (K (fwd c 2, 1)) (exitCell (fwd c 2))
    ∗ cellInv ER (sched XG SS RS) (K (fwd c 3, 1)) (exitCell (fwd c 3))
    ∗ cellInv ER (sched XG SS RS) (K (fwd c 4, 1)) (exitCell (fwd c 4))
    ∗ cellInv ER (sched XG SS RS) (K (fwd c 5, 1)) (exitCell (fwd c 5))
    ∗ cellInv ER (sched XG SS RS) (K (fwd c 6, 1)) (exitCell (fwd c 6))
    ∗ cellInv ER (sched XG SS RS) (K (fwd c 7, 1)) (exitCell (fwd c 7)))

instance invs_persistent (K : Dev nD × Fin 30 → ℕ) (c : Dev nD) : BI.Persistent (invs XG SS RS K c) := by unfold invs; infer_instance

/-- Round 0 of every cell it touches is reached. -/
def reacheds (c : Dev nD) : sProp 𝕄 :=
  iprop(reached ER (barCell c) 0
    ∗ reached ER (exitCell c) 0
    ∗ reached ER (agSCell c 0) 0
    ∗ reached ER (agSCell c 1) 0
    ∗ reached ER (agSCell c 2) 0
    ∗ reached ER (agSCell c 3) 0
    ∗ reached ER (agSCell c 4) 0
    ∗ reached ER (agSCell c 5) 0
    ∗ reached ER (agSCell c 6) 0
    ∗ reached ER (agRCell c 0) 0
    ∗ reached ER (agRCell c 1) 0
    ∗ reached ER (agRCell c 2) 0
    ∗ reached ER (agRCell c 3) 0
    ∗ reached ER (agRCell c 4) 0
    ∗ reached ER (agRCell c 5) 0
    ∗ reached ER (agRCell c 6) 0
    ∗ reached ER (rsSCell c 0) 0
    ∗ reached ER (rsSCell c 1) 0
    ∗ reached ER (rsSCell c 2) 0
    ∗ reached ER (rsSCell c 3) 0
    ∗ reached ER (rsSCell c 4) 0
    ∗ reached ER (rsSCell c 5) 0
    ∗ reached ER (rsSCell c 6) 0
    ∗ reached ER (rsRCell c 0) 0
    ∗ reached ER (rsRCell c 1) 0
    ∗ reached ER (rsRCell c 2) 0
    ∗ reached ER (rsRCell c 3) 0
    ∗ reached ER (rsRCell c 4) 0
    ∗ reached ER (rsRCell c 5) 0
    ∗ reached ER (rsRCell c 6) 0
    ∗ reached ER (barCell (fwd c 1)) 0
    ∗ reached ER (barCell (fwd c 2)) 0
    ∗ reached ER (barCell (fwd c 3)) 0
    ∗ reached ER (barCell (fwd c 4)) 0
    ∗ reached ER (barCell (fwd c 5)) 0
    ∗ reached ER (barCell (fwd c 6)) 0
    ∗ reached ER (barCell (fwd c 7)) 0
    ∗ reached ER (agRCell (fwd c 1) 0) 0
    ∗ reached ER (agRCell (fwd c 2) 1) 0
    ∗ reached ER (agRCell (fwd c 3) 2) 0
    ∗ reached ER (agRCell (fwd c 4) 3) 0
    ∗ reached ER (agRCell (fwd c 5) 4) 0
    ∗ reached ER (agRCell (fwd c 6) 5) 0
    ∗ reached ER (agRCell (fwd c 7) 6) 0
    ∗ reached ER (rsRCell (fwd c 7) 0) 0
    ∗ reached ER (rsRCell (fwd c 6) 1) 0
    ∗ reached ER (rsRCell (fwd c 5) 2) 0
    ∗ reached ER (rsRCell (fwd c 4) 3) 0
    ∗ reached ER (rsRCell (fwd c 3) 4) 0
    ∗ reached ER (rsRCell (fwd c 2) 5) 0
    ∗ reached ER (rsRCell (fwd c 1) 6) 0
    ∗ reached ER (exitCell (fwd c 1)) 0
    ∗ reached ER (exitCell (fwd c 2)) 0
    ∗ reached ER (exitCell (fwd c 3)) 0
    ∗ reached ER (exitCell (fwd c 4)) 0
    ∗ reached ER (exitCell (fwd c 5)) 0
    ∗ reached ER (exitCell (fwd c 6)) 0
    ∗ reached ER (exitCell (fwd c 7)) 0)

omit [FloatOps F] in
instance reacheds_persistent (c : Dev nD) : BI.Persistent (reacheds (F := F) c) := by unfold reacheds; infer_instance

/-- Its positions at round 0 of its own cells. -/
def positions (c : Dev nD) : sProp 𝕄 :=
  iprop(atPos ER (barCell c) 0 ∅ 0
    ∗ atPos ER (exitCell c) 0 ∅ 0
    ∗ atPos ER (agSCell c 0) 0 ∅ 0
    ∗ atPos ER (agSCell c 1) 0 ∅ 0
    ∗ atPos ER (agSCell c 2) 0 ∅ 0
    ∗ atPos ER (agSCell c 3) 0 ∅ 0
    ∗ atPos ER (agSCell c 4) 0 ∅ 0
    ∗ atPos ER (agSCell c 5) 0 ∅ 0
    ∗ atPos ER (agSCell c 6) 0 ∅ 0
    ∗ atPos ER (agRCell c 0) 0 ∅ 0
    ∗ atPos ER (agRCell c 1) 0 ∅ 0
    ∗ atPos ER (agRCell c 2) 0 ∅ 0
    ∗ atPos ER (agRCell c 3) 0 ∅ 0
    ∗ atPos ER (agRCell c 4) 0 ∅ 0
    ∗ atPos ER (agRCell c 5) 0 ∅ 0
    ∗ atPos ER (agRCell c 6) 0 ∅ 0
    ∗ atPos ER (rsSCell c 0) 0 ∅ 0
    ∗ atPos ER (rsSCell c 1) 0 ∅ 0
    ∗ atPos ER (rsSCell c 2) 0 ∅ 0
    ∗ atPos ER (rsSCell c 3) 0 ∅ 0
    ∗ atPos ER (rsSCell c 4) 0 ∅ 0
    ∗ atPos ER (rsSCell c 5) 0 ∅ 0
    ∗ atPos ER (rsSCell c 6) 0 ∅ 0
    ∗ atPos ER (rsRCell c 0) 0 ∅ 0
    ∗ atPos ER (rsRCell c 1) 0 ∅ 0
    ∗ atPos ER (rsRCell c 2) 0 ∅ 0
    ∗ atPos ER (rsRCell c 3) 0 ∅ 0
    ∗ atPos ER (rsRCell c 4) 0 ∅ 0
    ∗ atPos ER (rsRCell c 5) 0 ∅ 0
    ∗ atPos ER (rsRCell c 6) 0 ∅ 0)

/-- The tokens of the duties it pays. -/
def payToks (c : Dev nD) : sProp 𝕄 :=
  iprop(dutyTok ER (barCell (fwd c 1)) 0 1
    ∗ dutyTok ER (barCell (fwd c 2)) 0 2
    ∗ dutyTok ER (barCell (fwd c 3)) 0 3
    ∗ dutyTok ER (barCell (fwd c 4)) 0 4
    ∗ dutyTok ER (barCell (fwd c 5)) 0 5
    ∗ dutyTok ER (barCell (fwd c 6)) 0 6
    ∗ dutyTok ER (barCell (fwd c 7)) 0 7
    ∗ dutyTok ER (agRCell (fwd c 1) 0) 0 0
    ∗ dutyTok ER (agRCell (fwd c 2) 1) 0 0
    ∗ dutyTok ER (agRCell (fwd c 3) 2) 0 0
    ∗ dutyTok ER (agRCell (fwd c 4) 3) 0 0
    ∗ dutyTok ER (agRCell (fwd c 5) 4) 0 0
    ∗ dutyTok ER (agRCell (fwd c 6) 5) 0 0
    ∗ dutyTok ER (agRCell (fwd c 7) 6) 0 0
    ∗ dutyTok ER (rsRCell (fwd c 7) 0) 0 0
    ∗ dutyTok ER (rsRCell (fwd c 6) 1) 0 0
    ∗ dutyTok ER (rsRCell (fwd c 5) 2) 0 0
    ∗ dutyTok ER (rsRCell (fwd c 4) 3) 0 0
    ∗ dutyTok ER (rsRCell (fwd c 3) 4) 0 0
    ∗ dutyTok ER (rsRCell (fwd c 2) 5) 0 0
    ∗ dutyTok ER (rsRCell (fwd c 1) 6) 0 0
    ∗ dutyTok ER (exitCell (fwd c 1)) 0 1
    ∗ dutyTok ER (exitCell (fwd c 2)) 0 2
    ∗ dutyTok ER (exitCell (fwd c 3)) 0 3
    ∗ dutyTok ER (exitCell (fwd c 4)) 0 4
    ∗ dutyTok ER (exitCell (fwd c 5)) 0 5
    ∗ dutyTok ER (exitCell (fwd c 6)) 0 6
    ∗ dutyTok ER (exitCell (fwd c 7)) 0 7
    ∗ dutyTok ER (agSCell c 0) 0 0
    ∗ dutyTok ER (agSCell c 1) 0 0
    ∗ dutyTok ER (agSCell c 2) 0 0
    ∗ dutyTok ER (agSCell c 3) 0 0
    ∗ dutyTok ER (agSCell c 4) 0 0
    ∗ dutyTok ER (agSCell c 5) 0 0
    ∗ dutyTok ER (agSCell c 6) 0 0
    ∗ dutyTok ER (rsSCell c 0) 0 0
    ∗ dutyTok ER (rsSCell c 1) 0 0
    ∗ dutyTok ER (rsSCell c 2) 0 0
    ∗ dutyTok ER (rsSCell c 3) 0 0
    ∗ dutyTok ER (rsSCell c 4) 0 0
    ∗ dutyTok ER (rsSCell c 5) 0 0
    ∗ dutyTok ER (rsSCell c 6) 0 0)

def ghost (K : Dev nD × Fin 30 → ℕ) (c : Dev nD) : sProp 𝕄 :=
  iprop(invs XG SS RS K c ∗ reacheds c ∗ positions c ∗ payToks c)

/-- The credit for the units its peers owe its cells. -/
def creds (c : Dev nD) : sProp 𝕄 :=
  iprop(cred (tallyAt (barCell c) () 7)
    ∗ cred (tallyAt (agRCell c 0) () Nag)
    ∗ cred (tallyAt (agRCell c 1) () Nag)
    ∗ cred (tallyAt (agRCell c 2) () Nag)
    ∗ cred (tallyAt (agRCell c 3) () Nag)
    ∗ cred (tallyAt (agRCell c 4) () Nag)
    ∗ cred (tallyAt (agRCell c 5) () Nag)
    ∗ cred (tallyAt (agRCell c 6) () Nag)
    ∗ cred (tallyAt (rsRCell c 0) () Nrs)
    ∗ cred (tallyAt (rsRCell c 1) () Nrs)
    ∗ cred (tallyAt (rsRCell c 2) () Nrs)
    ∗ cred (tallyAt (rsRCell c 3) () Nrs)
    ∗ cred (tallyAt (rsRCell c 4) () Nrs)
    ∗ cred (tallyAt (rsRCell c 5) () Nrs)
    ∗ cred (tallyAt (rsRCell c 6) () Nrs)
    ∗ cred (tallyAt (exitCell c) () 7))

/-- What device `c`'s body starts from, besides its buffers. -/
def start (c : Dev nD) : sProp 𝕄 :=
  iprop((∃ K, ghost XG SS RS K c) ∗ creds c ∗ levAts L lv)

/-- The six scratch buffers at some contents. -/
def scratch (c : Dev nD) : sProp 𝕄 :=
  iprop((∃ f, ((c : Thread nD τ).loc cc0_scratch0) ↦{fullShare} f)
    ∗ (∃ f, ((c : Thread nD τ).loc cc0_scratch1) ↦{fullShare} f)
    ∗ (∃ f, ((c : Thread nD τ).loc cc0_scratch2) ↦{fullShare} f)
    ∗ (∃ f, ((c : Thread nD τ).loc cc0_scratch3) ↦{fullShare} f)
    ∗ (∃ f, ((c : Thread nD τ).loc cc0_scratch4) ↦{fullShare} f)
    ∗ (∃ f, ((c : Thread nD τ).loc cc0_scratch5) ↦{fullShare} f))

/-- The kernel's own twenty-nine semaphores at zero. -/
def ownZero (c : Dev nD) : sProp 𝕄 :=
  iprop(semVal (exitCell c) 0
    ∗ semVal (agSCell c 0) 0
    ∗ semVal (agSCell c 1) 0
    ∗ semVal (agSCell c 2) 0
    ∗ semVal (agSCell c 3) 0
    ∗ semVal (agSCell c 4) 0
    ∗ semVal (agSCell c 5) 0
    ∗ semVal (agSCell c 6) 0
    ∗ semVal (agRCell c 0) 0
    ∗ semVal (agRCell c 1) 0
    ∗ semVal (agRCell c 2) 0
    ∗ semVal (agRCell c 3) 0
    ∗ semVal (agRCell c 4) 0
    ∗ semVal (agRCell c 5) 0
    ∗ semVal (agRCell c 6) 0
    ∗ semVal (rsSCell c 0) 0
    ∗ semVal (rsSCell c 1) 0
    ∗ semVal (rsSCell c 2) 0
    ∗ semVal (rsSCell c 3) 0
    ∗ semVal (rsSCell c 4) 0
    ∗ semVal (rsSCell c 5) 0
    ∗ semVal (rsSCell c 6) 0
    ∗ semVal (rsRCell c 0) 0
    ∗ semVal (rsRCell c 1) 0
    ∗ semVal (rsRCell c 2) 0
    ∗ semVal (rsRCell c 3) 0
    ∗ semVal (rsRCell c 4) 0
    ∗ semVal (rsRCell c 5) 0
    ∗ semVal (rsRCell c 6) 0)

def Φ₀ (c : Dev nD) : sProp 𝕄 := iprop(start XG SS RS c ∗ scratch c)
def Φ₁ (c : Dev nD) : sProp 𝕄 := iprop(scratch (F := F) c ∗ ownZero c)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Each input window's staging buffer holds its block (the device's whole array); the result window's what the body stores. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => OUT c
  Φ t := match t with
    | ⟨0, _⟩ => Φ₀ XG SS RS c
    | ⟨_ + 1, _⟩ => Φ₁ c
  q _ := fullShare
  owed t := match t with
    | ⟨0, _⟩ => O₀ c
    | ⟨_ + 1, _⟩ => 0

abbrev 𝒱₀ : Variants := Variants.none

end Cert.KernelIdealProof

end
-- ==== Proof.Spec.lean ====
/-
  The mathematics of the certificate, free of any program: what the one-device reference computes
  (`refOut`) and what device `c` of the eight computes (`kOut`), both index by index over the extended reals.

  Reference: Q, K, V are x·Wq, x·Wk, x·Wv (64 heads of width 64); the score of query `i` and key `j` in head `h` is
  κ · Σ_e Q[i,h,e]·K[j,h,e]; the weights are exp (score − the row's maximum); the attention row is
  Σ_j weight·V[j] / Σ_j weight; the result is that row times Wo.

  Kernel, device `d`: it owns heads 8d … 8d+7 (columns 512d … 512d+511 of Wq, Wk, Wv; rows of Wo) and, after the
  all-gather, every device's block of x. Its q, k, v scratch holds the sequence in ROTATED order: rotated block ρ holds
  the chunk of device (d − ρ) mod 8. The scale κ is folded into Wq; the weights are exp (score) with no maximum
  subtracted; queries of rotated blocks 1..4 see the keys in two halves whose sums are added; each device's partial
  product with its rows of Wo for the chunk of device (d − j) mod 8 is sent there, and device `c` adds its own partial
  for its chunk and the seven it receives.
-/
import Idealize.ShloMosaic.PureOps.Ideal

noncomputable section

namespace Cert.Spec

open Idealize.ShloMosaic

/-- Column `64·h + e` of a row of 64 heads of width 64. -/
def hd64 (h e : Fin 64) : Fin 4096 := ⟨h.val * 64 + e.val, by have := h.isLt; have := e.isLt; omega⟩
/-- Column `64·h + e` of a row of 8 heads of width 64. -/
def hd8 (h : Fin 8) (e : Fin 64) : Fin 512 := ⟨h.val * 64 + e.val, by have := h.isLt; have := e.isLt; omega⟩
/-- The head of a column of a 4096-wide row, and the place inside the head. -/
def headOf64 (c : Fin 4096) : Fin 64 := ⟨c.val / 64, by have := c.isLt; omega⟩
def inHead64 (c : Fin 4096) : Fin 64 := ⟨c.val % 64, Nat.mod_lt _ (by decide)⟩
def headOf8 (c : Fin 512) : Fin 8 := ⟨c.val / 64, by have := c.isLt; omega⟩
def inHead8 (c : Fin 512) : Fin 64 := ⟨c.val % 64, Nat.mod_lt _ (by decide)⟩

/-! ## The reference -/

section Ref

variable (κ : EReal)
variable (x : Fin 2 → Fin 1024 → Fin 512 → EReal) (wq wk wv : Fin 512 → Fin 4096 → EReal) (wo : Fin 4096 → Fin 512 → EReal)

/-- A projection of x: row `i` of batch `b` times column `c` of `w`. -/
def proj (w : Fin 512 → Fin 4096 → EReal) (b : Fin 2) (i : Fin 1024) (c : Fin 4096) : EReal := ∑ k : Fin 512, x b i k * w k c

/-- The scaled score of query `i` against key `j` in head `h`. -/
def refScore (b : Fin 2) (h : Fin 64) (i j : Fin 1024) : EReal :=
  (∑ e : Fin 64, proj x wq b i (hd64 h e) * proj x wk b j (hd64 h e)) * κ

/-- The largest score of query `i`'s row. -/
def refMax (b : Fin 2) (h : Fin 64) (i : Fin 1024) : EReal := Finset.univ.sup fun j : Fin 1024 => refScore κ x wq wk b h i j

/-- The weight of key `j`: the exponential of its score less the row's maximum. -/
def refP (b : Fin 2) (h : Fin 64) (i j : Fin 1024) : EReal := Ideal.exp (refScore κ x wq wk b h i j - refMax κ x wq wk b h i)

def refDen (b : Fin 2) (h : Fin 64) (i : Fin 1024) : EReal := ∑ j : Fin 1024, refP κ x wq wk b h i j

def refNum (b : Fin 2) (h : Fin 64) (i : Fin 1024) (e : Fin 64) : EReal :=
  ∑ j : Fin 1024, refP κ x wq wk b h i j * proj x wv b j (hd64 h e)

/-- The attention row of query `i`, column `c` (head `c / 64`, place `c % 64`). -/
def refAtt (b : Fin 2) (i : Fin 1024) (c : Fin 4096) : EReal :=
  Ideal.div (refNum κ x wq wk wv b (headOf64 c) i (inHead64 c)) (refDen κ x wq wk b (headOf64 c) i)

/-- The reference's result. -/
def refOut (b : Fin 2) (i : Fin 1024) (n : Fin 512) : EReal := ∑ c : Fin 4096, refAtt κ x wq wk wv b i c * wo c n

end Ref

/-! ## The kernel on device `d` -/

section Ker

variable (κ : EReal)
-- `xB s`: device `s`'s block of x; `wqB d` …: device `d`'s blocks of the weights.
variable (xB : Fin 8 → Fin 2 → Fin 128 → Fin 512 → EReal) (wqB wkB wvB woB : Fin 8 → Fin 512 → Fin 512 → EReal)

/-- The device whose chunk sits in rotated block `ρ` of device `d`'s q, k, v scratch. -/
def src (d ρ : Fin 8) : Fin 8 := ⟨(d.val + 8 - ρ.val) % 8, Nat.mod_lt _ (by decide)⟩
/-- The rotated block of a scratch row, and the row inside the block. -/
def blkOf (p : Fin 1024) : Fin 8 := ⟨p.val / 128, by have := p.isLt; omega⟩
def inBlk (p : Fin 1024) : Fin 128 := ⟨p.val % 128, Nat.mod_lt _ (by decide)⟩
/-- The row of x that scratch row `p` of device `d` was computed from. -/
def xRow (d : Fin 8) (b : Fin 2) (p : Fin 1024) (k : Fin 512) : EReal := xB (src d (blkOf p)) b (inBlk p) k

def kq (d : Fin 8) (b : Fin 2) (p : Fin 1024) (c : Fin 512) : EReal := ∑ k : Fin 512, xRow xB d b p k * (wqB d k c * κ)
def kk (d : Fin 8) (b : Fin 2) (p : Fin 1024) (c : Fin 512) : EReal := ∑ k : Fin 512, xRow xB d b p k * wkB d k c
def kv (d : Fin 8) (b : Fin 2) (p : Fin 1024) (c : Fin 512) : EReal := ∑ k : Fin 512, xRow xB d b p k * wvB d k c

def kScore (d : Fin 8) (b : Fin 2) (h : Fin 8) (p j : Fin 1024) : EReal :=
  ∑ e : Fin 64, kq κ xB wqB d b p (hd8 h e) * kk xB wkB d b j (hd8 h e)

def kNum (d : Fin 8) (b : Fin 2) (h : Fin 8) (p : Fin 1024) (e : Fin 64) (S : Finset (Fin 1024)) : EReal :=
  ∑ j ∈ S, Ideal.exp (kScore κ xB wqB wkB d b h p j) * kv xB wvB d b j (hd8 h e)

def kDen (d : Fin 8) (b : Fin 2) (h : Fin 8) (p : Fin 1024) (S : Finset (Fin 1024)) : EReal :=
  ∑ j ∈ S, Ideal.exp (kScore κ xB wqB wkB d b h p j)

/-- The keys of rotated blocks 0..3, and of 4..7. -/
def loKeys : Finset (Fin 1024) := Finset.univ.filter fun j => j.val < 512
def hiKeys : Finset (Fin 1024) := Finset.univ.filter fun j => 512 ≤ j.val

/-- The attention row of scratch row `p` with the keys seen in two halves. -/
def kAttSplit (d : Fin 8) (b : Fin 2) (p : Fin 1024) (c : Fin 512) : EReal :=
  Ideal.div (kNum κ xB wqB wkB wvB d b (headOf8 c) p (inHead8 c) loKeys + kNum κ xB wqB wkB wvB d b (headOf8 c) p (inHead8 c) hiKeys)
    (kDen κ xB wqB wkB d b (headOf8 c) p loKeys + kDen κ xB wqB wkB d b (headOf8 c) p hiKeys)

/-- The attention row of scratch row `p` with all keys at once. -/
def kAttWhole (d : Fin 8) (b : Fin 2) (p : Fin 1024) (c : Fin 512) : EReal :=
  Ideal.div (kNum κ xB wqB wkB wvB d b (headOf8 c) p (inHead8 c) Finset.univ) (kDen κ xB wqB wkB d b (headOf8 c) p Finset.univ)

/-- Device `d`'s partial products with its rows of Wo: for scratch rows 128..639, 640..1023 and 0..127. -/
def kY0 (d : Fin 8) (b : Fin 2) (q : Fin 512) (n : Fin 512) : EReal :=
  ∑ c : Fin 512, kAttSplit κ xB wqB wkB wvB d b ⟨128 + q.val, by have := q.isLt; omega⟩ c * woB d c n
def kY1 (d : Fin 8) (b : Fin 2) (q : Fin 384) (n : Fin 512) : EReal :=
  ∑ c : Fin 512, kAttWhole κ xB wqB wkB wvB d b ⟨640 + q.val, by have := q.isLt; omega⟩ c * woB d c n
def kY2 (d : Fin 8) (b : Fin 2) (q : Fin 128) (n : Fin 512) : EReal :=
  ∑ c : Fin 512, kAttWhole κ xB wqB wkB wvB d b ⟨q.val, by have := q.isLt; omega⟩ c * woB d c n

/-- The device `j` places after `c` on the ring. -/
def peer (c : Fin 8) (j : ℕ) : Fin 8 := ⟨(c.val + j) % 8, Nat.mod_lt _ (by decide)⟩

/-- Device `c`'s result: its own partial for its chunk, then the seven received, in the order they are added. -/
def kOut (c : Fin 8) (b : Fin 2) (r : Fin 128) (n : Fin 512) : EReal :=
  kY2 κ xB wqB wkB wvB woB c b r n
    + kY0 κ xB wqB wkB wvB woB (peer c 1) b ⟨r.val, by have := r.isLt; omega⟩ n
    + kY0 κ xB wqB wkB wvB woB (peer c 2) b ⟨128 + r.val, by have := r.isLt; omega⟩ n
    + kY0 κ xB wqB wkB wvB woB (peer c 3) b ⟨256 + r.val, by have := r.isLt; omega⟩ n
    + kY0 κ xB wqB wkB wvB woB (peer c 4) b ⟨384 + r.val, by have := r.isLt; omega⟩ n
    + kY1 κ xB wqB wkB wvB woB (peer c 5) b ⟨r.val, by have := r.isLt; omega⟩ n
    + kY1 κ xB wqB wkB wvB woB (peer c 6) b ⟨128 + r.val, by have := r.isLt; omega⟩ n
    + kY1 κ xB wqB wkB wvB woB (peer c 7) b ⟨256 + r.val, by have := r.isLt; omega⟩ n

end Ker

/-! ## The blocks of the whole arrays -/

section Blocks

variable (x : Fin 2 → Fin 1024 → Fin 512 → EReal) (w : Fin 512 → Fin 4096 → EReal) (wo : Fin 4096 → Fin 512 → EReal)

/-- Device `s`'s block of x: rows 128·s … 128·s + 127. -/
def xBlk (s : Fin 8) (b : Fin 2) (r : Fin 128) (k : Fin 512) : EReal := x b ⟨128 * s.val + r.val, by have := s.isLt; have := r.isLt; omega⟩ k
/-- Device `d`'s block of a projection weight: columns 512·d … 512·d + 511. -/
def colBlk (d : Fin 8) (k : Fin 512) (c : Fin 512) : EReal := w k ⟨512 * d.val + c.val, by have := d.isLt; have := c.isLt; omega⟩
/-- Device `d`'s block of Wo: rows 512·d … 512·d + 511. -/
def rowBlk (d : Fin 8) (c : Fin 512) (n : Fin 512) : EReal := wo ⟨512 * d.val + c.val, by have := d.isLt; have := c.isLt; omega⟩ n

end Blocks

end Cert.Spec

end
-- ==== Proof.ValPass1Defs.lean ====
/-
  The first attention pass and its finalize as compositions of the body's pure payloads, for any float instance.
  The arguments are the vectors the pass loads: the block of the output projection (v137); for batch 0 the queries
  (v323), the first 512 keys and values (v325, v327), the queries again (v612) and the last 512 keys and values
  (v614, v616); for batch 1 likewise v409, v411, v413, v714, v716, v718. Each `xN` is the value the body names vN:
  per head the weights' row sums and their products with the values after the first group of keys, the same after the
  second group added, the quotient blocks; `Y0` is the stack of the two batches' rows times the output projection,
  and `slot0` … `slot3` are its four slabs of 128 rows as they are stored into the send slots.
-/
import proofs.«900761_g7700000000000762_dist_attn_self_mha_htp_ss_b2_sq128_skv128_d512_hq8_dh64_v7x_i8_bf16_1_alg».proof.Proof.Gen.KernelIdeal.Skeleton

noncomputable section

namespace Cert.ValPass1

open Cert.KernelIdeal Cert.KernelIdeal.Gen Idealize.ShloMosaic

variable {F : FTy → Type} [FloatOps F]

def x338 (v323 : Vec F S1x512x512 .bf16) (v325 : Vec F S1x512x512 .bf16) (v327 : Vec F S1x512x512 .bf16) : FVec F S512x64 .f32 :=
  k0_pay32 v323 v325 v327
def x617 (v616 : Vec F S1x512x512 .bf16) : FVec F S512x512 .bf16 :=
  k0_pay98 v616
def x622 (v612 : Vec F S1x512x512 .bf16) (v614 : Vec F S1x512x512 .bf16) : FVec F S512x512 .bf16 :=
  k0_pay99 v612 v614
def x628 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay100 (x338 v323 v325 v327) (x617 v616) (x622 v612 v614)
def x336 (v323 : Vec F S1x512x512 .bf16) (v325 : Vec F S1x512x512 .bf16) : FVec F S512x1 .f32 :=
  k0_pay31 v323 v325
def x629 (v323 : Vec F S1x512x512 .bf16) (v325 : Vec F S1x512x512 .bf16) (v612 : Vec F S1x512x512 .bf16) (v614 : Vec F S1x512x512 .bf16) : FVec F S512x1 .f32 :=
  k0_pay101 (x336 v323 v325) (x622 v612 v614)
def x348 (v323 : Vec F S1x512x512 .bf16) (v325 : Vec F S1x512x512 .bf16) (v327 : Vec F S1x512x512 .bf16) : FVec F S512x64 .f32 :=
  k0_pay35 v323 v325 v327
def x613 (v612 : Vec F S1x512x512 .bf16) : FVec F S512x512 .bf16 :=
  k0_pay96 v612
def x615 (v614 : Vec F S1x512x512 .bf16) : FVec F S512x512 .bf16 :=
  k0_pay97 v614
def x640 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay103 (x348 v323 v325 v327) (x613 v612) (x615 v614) (x617 v616)
def x346 (v323 : Vec F S1x512x512 .bf16) (v325 : Vec F S1x512x512 .bf16) : FVec F S512x1 .f32 :=
  k0_pay34 v323 v325
def x641 (v323 : Vec F S1x512x512 .bf16) (v325 : Vec F S1x512x512 .bf16) (v612 : Vec F S1x512x512 .bf16) (v614 : Vec F S1x512x512 .bf16) : FVec F S512x1 .f32 :=
  k0_pay104 (x346 v323 v325) (x613 v612) (x615 v614)
def x328 (v327 : Vec F S1x512x512 .bf16) : FVec F S512x512 .bf16 :=
  k0_pay29 v327
def x352 (v323 : Vec F S1x512x512 .bf16) (v325 : Vec F S1x512x512 .bf16) : FVec F S512x512 .bf16 :=
  k0_pay36 v323 v325
def x358 (v323 : Vec F S1x512x512 .bf16) (v325 : Vec F S1x512x512 .bf16) (v327 : Vec F S1x512x512 .bf16) : FVec F S512x64 .f32 :=
  k0_pay39 (x328 v327) (x352 v323 v325)
def x652 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay106 (x358 v323 v325 v327) (x613 v612) (x615 v614) (x617 v616)
def x356 (v323 : Vec F S1x512x512 .bf16) (v325 : Vec F S1x512x512 .bf16) : FVec F S512x1 .f32 :=
  k0_pay38 (x352 v323 v325)
def x653 (v323 : Vec F S1x512x512 .bf16) (v325 : Vec F S1x512x512 .bf16) (v612 : Vec F S1x512x512 .bf16) (v614 : Vec F S1x512x512 .bf16) : FVec F S512x1 .f32 :=
  k0_pay107 (x356 v323 v325) (x613 v612) (x615 v614)
def x324 (v323 : Vec F S1x512x512 .bf16) : FVec F S512x512 .bf16 :=
  k0_pay27 v323
def x326 (v325 : Vec F S1x512x512 .bf16) : FVec F S512x512 .bf16 :=
  k0_pay28 v325
def x368 (v323 : Vec F S1x512x512 .bf16) (v325 : Vec F S1x512x512 .bf16) (v327 : Vec F S1x512x512 .bf16) : FVec F S512x64 .f32 :=
  k0_pay42 (x324 v323) (x326 v325) (x328 v327)
def x664 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay109 (x368 v323 v325 v327) (x613 v612) (x615 v614) (x617 v616)
def x366 (v323 : Vec F S1x512x512 .bf16) (v325 : Vec F S1x512x512 .bf16) : FVec F S512x1 .f32 :=
  k0_pay41 (x324 v323) (x326 v325)
def x665 (v323 : Vec F S1x512x512 .bf16) (v325 : Vec F S1x512x512 .bf16) (v612 : Vec F S1x512x512 .bf16) (v614 : Vec F S1x512x512 .bf16) : FVec F S512x1 .f32 :=
  k0_pay110 (x366 v323 v325) (x613 v612) (x615 v614)
def x378 (v323 : Vec F S1x512x512 .bf16) (v325 : Vec F S1x512x512 .bf16) (v327 : Vec F S1x512x512 .bf16) : FVec F S512x64 .f32 :=
  k0_pay45 (x324 v323) (x326 v325) (x328 v327)
def x670 (v612 : Vec F S1x512x512 .bf16) (v614 : Vec F S1x512x512 .bf16) : FVec F S512x512 .bf16 :=
  k0_pay111 (x613 v612) (x615 v614)
def x676 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay112 (x378 v323 v325 v327) (x617 v616) (x670 v612 v614)
def x376 (v323 : Vec F S1x512x512 .bf16) (v325 : Vec F S1x512x512 .bf16) : FVec F S512x1 .f32 :=
  k0_pay44 (x324 v323) (x326 v325)
def x677 (v323 : Vec F S1x512x512 .bf16) (v325 : Vec F S1x512x512 .bf16) (v612 : Vec F S1x512x512 .bf16) (v614 : Vec F S1x512x512 .bf16) : FVec F S512x1 .f32 :=
  k0_pay113 (x376 v323 v325) (x670 v612 v614)
def x388 (v323 : Vec F S1x512x512 .bf16) (v325 : Vec F S1x512x512 .bf16) (v327 : Vec F S1x512x512 .bf16) : FVec F S512x64 .f32 :=
  k0_pay48 (x324 v323) (x326 v325) (x328 v327)
def x688 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay115 (x388 v323 v325 v327) (x613 v612) (x615 v614) (x617 v616)
def x386 (v323 : Vec F S1x512x512 .bf16) (v325 : Vec F S1x512x512 .bf16) : FVec F S512x1 .f32 :=
  k0_pay47 (x324 v323) (x326 v325)
def x689 (v323 : Vec F S1x512x512 .bf16) (v325 : Vec F S1x512x512 .bf16) (v612 : Vec F S1x512x512 .bf16) (v614 : Vec F S1x512x512 .bf16) : FVec F S512x1 .f32 :=
  k0_pay116 (x386 v323 v325) (x613 v612) (x615 v614)
def x398 (v323 : Vec F S1x512x512 .bf16) (v325 : Vec F S1x512x512 .bf16) (v327 : Vec F S1x512x512 .bf16) : FVec F S512x64 .f32 :=
  k0_pay51 (x324 v323) (x326 v325) (x328 v327)
def x700 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay118 (x398 v323 v325 v327) (x613 v612) (x615 v614) (x617 v616)
def x396 (v323 : Vec F S1x512x512 .bf16) (v325 : Vec F S1x512x512 .bf16) : FVec F S512x1 .f32 :=
  k0_pay50 (x324 v323) (x326 v325)
def x701 (v323 : Vec F S1x512x512 .bf16) (v325 : Vec F S1x512x512 .bf16) (v612 : Vec F S1x512x512 .bf16) (v614 : Vec F S1x512x512 .bf16) : FVec F S512x1 .f32 :=
  k0_pay119 (x396 v323 v325) (x613 v612) (x615 v614)
def x408 (v323 : Vec F S1x512x512 .bf16) (v325 : Vec F S1x512x512 .bf16) (v327 : Vec F S1x512x512 .bf16) : FVec F S512x64 .f32 :=
  k0_pay54 (x324 v323) (x326 v325) (x328 v327)
def x712 (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x64 .f32 :=
  k0_pay121 (x408 v323 v325 v327) (x613 v612) (x615 v614) (x617 v616)
def x406 (v323 : Vec F S1x512x512 .bf16) (v325 : Vec F S1x512x512 .bf16) : FVec F S512x1 .f32 :=
  k0_pay53 (x324 v323) (x326 v325)
def x713 (v323 : Vec F S1x512x512 .bf16) (v325 : Vec F S1x512x512 .bf16) (v612 : Vec F S1x512x512 .bf16) (v614 : Vec F S1x512x512 .bf16) : FVec F S512x1 .f32 :=
  k0_pay122 (x406 v323 v325) (x613 v612) (x615 v614)
def x841 (v137 : FVec F S512x512 .bf16) (v323 : Vec F S1x512x512 .bf16) (v325 : Vec F S1x512x512 .bf16) (v327 : Vec F S1x512x512 .bf16) (v612 : Vec F S1x512x512 .bf16) (v614 : Vec F S1x512x512 .bf16) (v616 : Vec F S1x512x512 .bf16) : FVec F S512x512 .f32 :=
  k0_pay148 v137 (x628 v323 v325 v327 v612 v614 v616) (x629 v323 v325 v612 v614) (x640 v323 v325 v327 v612 v614 v616) (x641 v323 v325 v612 v614) (x652 v323 v325 v327 v612 v614 v616) (x653 v323 v325 v612 v614) (x664 v323 v325 v327 v612 v614 v616) (x665 v323 v325 v612 v614) (x676 v323 v325 v327 v612 v614 v616) (x677 v323 v325 v612 v614) (x688 v323 v325 v327 v612 v614 v616) (x689 v323 v325 v612 v614) (x700 v323 v325 v327 v612 v614 v616) (x701 v323 v325 v612 v614) (x712 v323 v325 v327 v612 v614 v616) (x713 v323 v325 v612 v614)
def x424 (v409 : Vec F S1x512x512 .bf16) (v411 : Vec F S1x512x512 .bf16) (v413 : Vec F S1x512x512 .bf16) : FVec F S512x64 .f32 :=
  k0_pay60 v409 v411 v413
def x715 (v714 : Vec F S1x512x512 .bf16) : FVec F S512x512 .bf16 :=
  k0_pay123 v714
def x730 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay127 (x424 v409 v411 v413) (x715 v714) v716 v718
def x422 (v409 : Vec F S1x512x512 .bf16) (v411 : Vec F S1x512x512 .bf16) : FVec F S512x1 .f32 :=
  k0_pay59 v409 v411
def x731 (v409 : Vec F S1x512x512 .bf16) (v411 : Vec F S1x512x512 .bf16) (v714 : Vec F S1x512x512 .bf16) (v716 : Vec F S1x512x512 .bf16) : FVec F S512x1 .f32 :=
  k0_pay128 (x422 v409 v411) (x715 v714) v716
def x844 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay149 (x730 v409 v411 v413 v714 v716 v718) (x731 v409 v411 v714 v716)
def x434 (v409 : Vec F S1x512x512 .bf16) (v411 : Vec F S1x512x512 .bf16) (v413 : Vec F S1x512x512 .bf16) : FVec F S512x64 .f32 :=
  k0_pay63 v409 v411 v413
def x742 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay130 (x434 v409 v411 v413) (x715 v714) v716 v718
def x432 (v409 : Vec F S1x512x512 .bf16) (v411 : Vec F S1x512x512 .bf16) : FVec F S512x1 .f32 :=
  k0_pay62 v409 v411
def x743 (v409 : Vec F S1x512x512 .bf16) (v411 : Vec F S1x512x512 .bf16) (v714 : Vec F S1x512x512 .bf16) (v716 : Vec F S1x512x512 .bf16) : FVec F S512x1 .f32 :=
  k0_pay131 (x432 v409 v411) (x715 v714) v716
def x847 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay150 (x742 v409 v411 v413 v714 v716 v718) (x743 v409 v411 v714 v716)
def x414 (v413 : Vec F S1x512x512 .bf16) : FVec F S512x512 .bf16 :=
  k0_pay57 v413
def x439 (v409 : Vec F S1x512x512 .bf16) (v411 : Vec F S1x512x512 .bf16) : FVec F S512x512 .bf16 :=
  k0_pay64 v409 v411
def x444 (v409 : Vec F S1x512x512 .bf16) (v411 : Vec F S1x512x512 .bf16) (v413 : Vec F S1x512x512 .bf16) : FVec F S512x64 .f32 :=
  k0_pay66 (x414 v413) (x439 v409 v411)
def x754 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay133 (x444 v409 v411 v413) (x715 v714) v716 v718
def x442 (v409 : Vec F S1x512x512 .bf16) (v411 : Vec F S1x512x512 .bf16) : FVec F S512x1 .f32 :=
  k0_pay65 (x439 v409 v411)
def x755 (v409 : Vec F S1x512x512 .bf16) (v411 : Vec F S1x512x512 .bf16) (v714 : Vec F S1x512x512 .bf16) (v716 : Vec F S1x512x512 .bf16) : FVec F S512x1 .f32 :=
  k0_pay134 (x442 v409 v411) (x715 v714) v716
def x850 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay151 (x754 v409 v411 v413 v714 v716 v718) (x755 v409 v411 v714 v716)
def x410 (v409 : Vec F S1x512x512 .bf16) : FVec F S512x512 .bf16 :=
  k0_pay55 v409
def x412 (v411 : Vec F S1x512x512 .bf16) : FVec F S512x512 .bf16 :=
  k0_pay56 v411
def x454 (v409 : Vec F S1x512x512 .bf16) (v411 : Vec F S1x512x512 .bf16) (v413 : Vec F S1x512x512 .bf16) : FVec F S512x64 .f32 :=
  k0_pay69 (x410 v409) (x412 v411) (x414 v413)
def x719 (v718 : Vec F S1x512x512 .bf16) : FVec F S512x512 .bf16 :=
  k0_pay125 v718
def x760 (v714 : Vec F S1x512x512 .bf16) (v716 : Vec F S1x512x512 .bf16) : FVec F S512x512 .bf16 :=
  k0_pay135 (x715 v714) v716
def x766 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay136 (x454 v409 v411 v413) (x719 v718) (x760 v714 v716)
def x452 (v409 : Vec F S1x512x512 .bf16) (v411 : Vec F S1x512x512 .bf16) : FVec F S512x1 .f32 :=
  k0_pay68 (x410 v409) (x412 v411)
def x767 (v409 : Vec F S1x512x512 .bf16) (v411 : Vec F S1x512x512 .bf16) (v714 : Vec F S1x512x512 .bf16) (v716 : Vec F S1x512x512 .bf16) : FVec F S512x1 .f32 :=
  k0_pay137 (x452 v409 v411) (x760 v714 v716)
def x853 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay152 (x766 v409 v411 v413 v714 v716 v718) (x767 v409 v411 v714 v716)
def x464 (v409 : Vec F S1x512x512 .bf16) (v411 : Vec F S1x512x512 .bf16) (v413 : Vec F S1x512x512 .bf16) : FVec F S512x64 .f32 :=
  k0_pay72 (x410 v409) (x412 v411) (x414 v413)
def x717 (v716 : Vec F S1x512x512 .bf16) : FVec F S512x512 .bf16 :=
  k0_pay124 v716
def x778 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay139 (x464 v409 v411 v413) (x715 v714) (x717 v716) (x719 v718)
def x462 (v409 : Vec F S1x512x512 .bf16) (v411 : Vec F S1x512x512 .bf16) : FVec F S512x1 .f32 :=
  k0_pay71 (x410 v409) (x412 v411)
def x779 (v409 : Vec F S1x512x512 .bf16) (v411 : Vec F S1x512x512 .bf16) (v714 : Vec F S1x512x512 .bf16) (v716 : Vec F S1x512x512 .bf16) : FVec F S512x1 .f32 :=
  k0_pay140 (x462 v409 v411) (x715 v714) (x717 v716)
def x856 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay153 (x778 v409 v411 v413 v714 v716 v718) (x779 v409 v411 v714 v716)
def x474 (v409 : Vec F S1x512x512 .bf16) (v411 : Vec F S1x512x512 .bf16) (v413 : Vec F S1x512x512 .bf16) : FVec F S512x64 .f32 :=
  k0_pay75 (x410 v409) (x412 v411) (x414 v413)
def x790 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay142 (x474 v409 v411 v413) (x715 v714) (x717 v716) (x719 v718)
def x472 (v409 : Vec F S1x512x512 .bf16) (v411 : Vec F S1x512x512 .bf16) : FVec F S512x1 .f32 :=
  k0_pay74 (x410 v409) (x412 v411)
def x791 (v409 : Vec F S1x512x512 .bf16) (v411 : Vec F S1x512x512 .bf16) (v714 : Vec F S1x512x512 .bf16) (v716 : Vec F S1x512x512 .bf16) : FVec F S512x1 .f32 :=
  k0_pay143 (x472 v409 v411) (x715 v714) (x717 v716)
def x859 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay154 (x790 v409 v411 v413 v714 v716 v718) (x791 v409 v411 v714 v716)
def x484 (v409 : Vec F S1x512x512 .bf16) (v411 : Vec F S1x512x512 .bf16) (v413 : Vec F S1x512x512 .bf16) : FVec F S512x64 .f32 :=
  k0_pay78 (x410 v409) (x412 v411) (x414 v413)
def x802 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .f32 :=
  k0_pay145 (x484 v409 v411 v413) (x715 v714) (x717 v716) (x719 v718)
def x482 (v409 : Vec F S1x512x512 .bf16) (v411 : Vec F S1x512x512 .bf16) : FVec F S512x1 .f32 :=
  k0_pay77 (x410 v409) (x412 v411)
def x803 (v409 : Vec F S1x512x512 .bf16) (v411 : Vec F S1x512x512 .bf16) (v714 : Vec F S1x512x512 .bf16) (v716 : Vec F S1x512x512 .bf16) : FVec F S512x1 .f32 :=
  k0_pay146 (x482 v409 v411) (x715 v714) (x717 v716)
def x862 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay155 (x802 v409 v411 v413 v714 v716 v718) (x803 v409 v411 v714 v716)
def x485 (v409 : Vec F S1x512x512 .bf16) : FVec F S512x64 .bf16 :=
  k0_pay79 (x410 v409)
def x492 (v409 : Vec F S1x512x512 .bf16) (v411 : Vec F S1x512x512 .bf16) : FVec F S512x1 .f32 :=
  k0_pay81 (x412 v411) (x485 v409)
def x494 (v409 : Vec F S1x512x512 .bf16) (v411 : Vec F S1x512x512 .bf16) (v413 : Vec F S1x512x512 .bf16) : FVec F S512x64 .f32 :=
  k0_pay82 (x412 v411) (x414 v413) (x485 v409)
def x808 (v714 : Vec F S1x512x512 .bf16) (v716 : Vec F S1x512x512 .bf16) : FVec F S512x512 .bf16 :=
  k0_pay147 (x715 v714) (x717 v716)
def x865 (v409 : Vec F S1x512x512 .bf16) (v411 : Vec F S1x512x512 .bf16) (v413 : Vec F S1x512x512 .bf16) (v714 : Vec F S1x512x512 .bf16) (v716 : Vec F S1x512x512 .bf16) (v718 : Vec F S1x512x512 .bf16) : FVec F S512x64 .bf16 :=
  k0_pay156 (x492 v409 v411) (x494 v409 v411 v413) (x719 v718) (x808 v714 v716)

/-- The stacked result of the pass: both batches' attention rows times the block of the output projection. -/
def Y0 (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) : FVec F S2x512x512 .bf16 :=
  k0_pay157 v137 (x841 v137 v323 v325 v327 v612 v614 v616) (x844 v409 v411 v413 v714 v716 v718) (x847 v409 v411 v413 v714 v716 v718) (x850 v409 v411 v413 v714 v716 v718) (x853 v409 v411 v413 v714 v716 v718) (x856 v409 v411 v413 v714 v716 v718) (x859 v409 v411 v413 v714 v716 v718) (x862 v409 v411 v413 v714 v716 v718) (x865 v409 v411 v413 v714 v716 v718)

/-- Rows 0..127 of each batch of the stack, as stored into send slot 0. -/
def slot0 (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) : FVec F S1x2x128x512 .bf16 :=
  k0_pay158 v137 (x841 v137 v323 v325 v327 v612 v614 v616) (x844 v409 v411 v413 v714 v716 v718) (x847 v409 v411 v413 v714 v716 v718) (x850 v409 v411 v413 v714 v716 v718) (x853 v409 v411 v413 v714 v716 v718) (x856 v409 v411 v413 v714 v716 v718) (x859 v409 v411 v413 v714 v716 v718) (x862 v409 v411 v413 v714 v716 v718) (x865 v409 v411 v413 v714 v716 v718)
/-- Rows 128..255, as stored into send slot 1. -/
def slot1 (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) : FVec F S1x2x128x512 .bf16 :=
  k0_pay159 v137 (x841 v137 v323 v325 v327 v612 v614 v616) (x844 v409 v411 v413 v714 v716 v718) (x847 v409 v411 v413 v714 v716 v718) (x850 v409 v411 v413 v714 v716 v718) (x853 v409 v411 v413 v714 v716 v718) (x856 v409 v411 v413 v714 v716 v718) (x859 v409 v411 v413 v714 v716 v718) (x862 v409 v411 v413 v714 v716 v718) (x865 v409 v411 v413 v714 v716 v718)
/-- Rows 256..383, as stored into send slot 2. -/
def slot2 (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) : FVec F S1x2x128x512 .bf16 :=
  k0_pay160 (Y0 v137 v323 v325 v327 v409 v411 v413 v612 v614 v616 v714 v716 v718)
/-- Rows 384..511, as stored into send slot 3. -/
def slot3 (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) : FVec F S1x2x128x512 .bf16 :=
  k0_pay161 (Y0 v137 v323 v325 v327 v409 v411 v413 v612 v614 v616 v714 v716 v718)

end Cert.ValPass1

end
-- ==== Proof.ValPass2Defs.lean ====
/-
  The second attention pass of the kernel — query rows 640..1023 of the q scratch against all 1024 rows of the k and v
  scratch, for the two batches — and its finalize, as compositions of the kernel's payloads from the loaded vectors:
  per batch and head the 384 × 1 column of row sums of the exponentials and the 384 × 64 block of sums of exponential
  times value; the quotients of batch 0's heads; the stacked 2 × 384 × 512 product with the block of the output
  projection; and its three 2 × 128 × 512 row blocks, the values stored into send slots 4, 5 and 6. Generic in the
  float instance. The arguments are named after the values of the program they stand for: v940, v942, v944 the blocks of
  queries, keys and values loaded for batch 0, v1026, v1028, v1030 those for batch 1, v137 the block of the output projection.
-/
import proofs.«900761_g7700000000000762_dist_attn_self_mha_htp_ss_b2_sq128_skv128_d512_hq8_dh64_v7x_i8_bf16_1_alg».proof.Proof.Gen.KernelIdeal.Skeleton

noncomputable section

namespace Cert.ValPass2

open Idealize.ShloMosaic Cert.KernelIdeal Cert.KernelIdeal.Gen

variable {F : FTy → Type} [FloatOps F]
variable (v137 : FVec F S512x512 .bf16)
variable (v940 : Vec F S1x384x512 .bf16) (v942 v944 : Vec F S1x1024x512 .bf16)
variable (v1026 : Vec F S1x384x512 .bf16) (v1028 v1030 : Vec F S1x1024x512 .bf16)

/-! ## Batch 0: per head, the column of row sums and the block of sums of exponential times value -/

def L0_0 : FVec F S384x1 .f32 := k0_pay166 (k0_pay165 v940 v942)
def O0_0 : FVec F S384x64 .f32 := k0_pay167 (k0_pay164 v944) (k0_pay165 v940 v942)
def L0_1 : FVec F S384x1 .f32 := k0_pay169 (k0_pay162 v940) (k0_pay163 v942)
def O0_1 : FVec F S384x64 .f32 := k0_pay170 (k0_pay162 v940) (k0_pay163 v942) (k0_pay164 v944)
def L0_2 : FVec F S384x1 .f32 := k0_pay172 (k0_pay162 v940) (k0_pay163 v942)
def O0_2 : FVec F S384x64 .f32 := k0_pay173 (k0_pay162 v940) (k0_pay163 v942) (k0_pay164 v944)
def L0_3 : FVec F S384x1 .f32 := k0_pay175 (k0_pay162 v940) (k0_pay163 v942)
def O0_3 : FVec F S384x64 .f32 := k0_pay176 (k0_pay162 v940) (k0_pay163 v942) (k0_pay164 v944)
def L0_4 : FVec F S384x1 .f32 := k0_pay178 (k0_pay162 v940) (k0_pay163 v942)
def O0_4 : FVec F S384x64 .f32 := k0_pay179 (k0_pay162 v940) (k0_pay163 v942) (k0_pay164 v944)
def L0_5 : FVec F S384x1 .f32 := k0_pay182 (k0_pay163 v942) (k0_pay180 (k0_pay162 v940))
def O0_5 : FVec F S384x64 .f32 := k0_pay183 (k0_pay163 v942) (k0_pay164 v944) (k0_pay180 (k0_pay162 v940))
def L0_6 : FVec F S384x1 .f32 := k0_pay185 (k0_pay162 v940) (k0_pay163 v942)
def O0_6 : FVec F S384x64 .f32 := k0_pay186 (k0_pay162 v940) (k0_pay163 v942) (k0_pay164 v944)
def L0_7 : FVec F S384x1 .f32 := k0_pay188 (k0_pay162 v940) (k0_pay163 v942)
def O0_7 : FVec F S384x64 .f32 := k0_pay189 (k0_pay162 v940) (k0_pay163 v942) (k0_pay164 v944)

/-! ## Batch 1: per head, the column of row sums and the block of sums of exponential times value -/

def L1_0 : FVec F S384x1 .f32 := k0_pay195 (k0_pay194 v1026 v1028)
def O1_0 : FVec F S384x64 .f32 := k0_pay196 (k0_pay192 v1030) (k0_pay193 v1026 v1028)
def L1_1 : FVec F S384x1 .f32 := k0_pay198 (k0_pay190 v1026) (k0_pay191 v1028)
def O1_1 : FVec F S384x64 .f32 := k0_pay199 (k0_pay190 v1026) (k0_pay191 v1028) (k0_pay192 v1030)
def L1_2 : FVec F S384x1 .f32 := k0_pay201 (k0_pay190 v1026) (k0_pay191 v1028)
def O1_2 : FVec F S384x64 .f32 := k0_pay202 (k0_pay190 v1026) (k0_pay191 v1028) (k0_pay192 v1030)
def L1_3 : FVec F S384x1 .f32 := k0_pay204 (k0_pay190 v1026) (k0_pay191 v1028)
def O1_3 : FVec F S384x64 .f32 := k0_pay205 (k0_pay190 v1026) (k0_pay191 v1028) (k0_pay192 v1030)
def L1_4 : FVec F S384x1 .f32 := k0_pay207 (k0_pay190 v1026) (k0_pay191 v1028)
def O1_4 : FVec F S384x64 .f32 := k0_pay208 (k0_pay190 v1026) (k0_pay191 v1028) (k0_pay192 v1030)
def L1_5 : FVec F S384x1 .f32 := k0_pay212 (k0_pay209 (k0_pay190 v1026)) (k0_pay210 (k0_pay191 v1028))
def O1_5 : FVec F S384x64 .f32 := k0_pay213 (k0_pay192 v1030) (k0_pay209 (k0_pay190 v1026)) (k0_pay210 (k0_pay191 v1028))
def L1_6 : FVec F S384x1 .f32 := k0_pay215 (k0_pay190 v1026) (k0_pay191 v1028)
def O1_6 : FVec F S384x64 .f32 := k0_pay216 (k0_pay190 v1026) (k0_pay191 v1028) (k0_pay192 v1030)
def L1_7 : FVec F S384x1 .f32 := k0_pay218 (k0_pay190 v1026) (k0_pay191 v1028)
def O1_7 : FVec F S384x64 .f32 := k0_pay219 (k0_pay190 v1026) (k0_pay191 v1028) (k0_pay192 v1030)

/-! ## The quotients of batch 0's heads (the last one still in f32) -/

def A0_0 : FVec F S384x64 .bf16 := k0_pay220 (L0_0 v940 v942) (O0_0 v940 v942 v944)
def A0_1 : FVec F S384x64 .bf16 := k0_pay221 (L0_1 v940 v942) (O0_1 v940 v942 v944)
def A0_2 : FVec F S384x64 .bf16 := k0_pay222 (L0_2 v940 v942) (O0_2 v940 v942 v944)
def A0_3 : FVec F S384x64 .bf16 := k0_pay223 (L0_3 v940 v942) (O0_3 v940 v942 v944)
def A0_4 : FVec F S384x64 .bf16 := k0_pay224 (L0_4 v940 v942) (O0_4 v940 v942 v944)
def A0_5 : FVec F S384x64 .bf16 := k0_pay225 (L0_5 v940 v942) (O0_5 v940 v942 v944)
def A0_6 : FVec F S384x64 .bf16 := k0_pay226 (L0_6 v940 v942) (O0_6 v940 v942 v944)
def A0_7 : FVec F S384x64 .f32 := k0_pay227 (L0_7 v940 v942) (O0_7 v940 v942 v944)

/-! ## The stacked result and the three blocks sent -/

/-- The 2 × 384 × 512 result of the pass: per batch the attention rows times the block of the output projection. -/
def Y1 : FVec F S2x384x512 .bf16 :=
  k0_pay228 v137 (L1_0 v1026 v1028) (O1_0 v1026 v1028 v1030) (L1_1 v1026 v1028) (O1_1 v1026 v1028 v1030) (L1_2 v1026 v1028) (O1_2 v1026 v1028 v1030) (L1_3 v1026 v1028) (O1_3 v1026 v1028 v1030) (L1_4 v1026 v1028) (O1_4 v1026 v1028 v1030) (L1_5 v1026 v1028) (O1_5 v1026 v1028 v1030) (L1_6 v1026 v1028) (O1_6 v1026 v1028 v1030) (L1_7 v1026 v1028) (O1_7 v1026 v1028 v1030)
    (A0_0 v940 v942 v944) (A0_1 v940 v942 v944) (A0_2 v940 v942 v944) (A0_3 v940 v942 v944) (A0_4 v940 v942 v944) (A0_5 v940 v942 v944) (A0_6 v940 v942 v944) (A0_7 v940 v942 v944)

/-- The value stored into send slot 4: rows 0..127 of the result. -/
def Slot4 : FVec F S1x2x128x512 .bf16 :=
  k0_pay229 v137 (L1_0 v1026 v1028) (O1_0 v1026 v1028 v1030) (L1_1 v1026 v1028) (O1_1 v1026 v1028 v1030) (L1_2 v1026 v1028) (O1_2 v1026 v1028 v1030) (L1_3 v1026 v1028) (O1_3 v1026 v1028 v1030) (L1_4 v1026 v1028) (O1_4 v1026 v1028 v1030) (L1_5 v1026 v1028) (O1_5 v1026 v1028 v1030) (L1_6 v1026 v1028) (O1_6 v1026 v1028 v1030) (L1_7 v1026 v1028) (O1_7 v1026 v1028 v1030)
    (A0_0 v940 v942 v944) (A0_1 v940 v942 v944) (A0_2 v940 v942 v944) (A0_3 v940 v942 v944) (A0_4 v940 v942 v944) (A0_5 v940 v942 v944) (A0_6 v940 v942 v944) (A0_7 v940 v942 v944)

/-- The value stored into send slot 5: rows 128..255 of the result. -/
def Slot5 : FVec F S1x2x128x512 .bf16 := k0_pay230 (Y1 v137 v940 v942 v944 v1026 v1028 v1030)

/-- The value stored into send slot 6: rows 256..383 of the result. -/
def Slot6 : FVec F S1x2x128x512 .bf16 := k0_pay232 (k0_pay231 (Y1 v137 v940 v942 v944 v1026 v1028 v1030))

end Cert.ValPass2

end
-- ==== Proof.ValPass3Defs.lean ====
/-
  The values the third attention pass, its finalize and the final accumulation hand on, as compositions of the generated
  payload functions of the loaded vectors, for any float instance: the first batch's 128 query rows attended over all
  1024 keys and multiplied by the output projection's block; both batches stacked with the first received partial
  result added; and that accumulator after each further pair of received partial results, the last being what is stored.
  The arguments are the loaded vectors: the projection block, and per batch the query rows, key rows and value rows.
-/
import proofs.«900761_g7700000000000762_dist_attn_self_mha_htp_ss_b2_sq128_skv128_d512_hq8_dh64_v7x_i8_bf16_1_alg».proof.Proof.Gen.KernelIdeal.Skeleton

noncomputable section

namespace Cert.Val3

open Idealize.ShloMosaic Cert.KernelIdeal Cert.KernelIdeal.Gen

variable {F : FTy → Type} [FloatOps F]

/-- The first batch: per head the rows' sums and the weighted values, divided, laid side by side, times the block. -/
def y0 (v137 : FVec F S512x512 .bf16) (v1219 : Vec F S1x128x512 .bf16) (v1221 v1223 : Vec F S1x1024x512 .bf16) :
    FVec F S128x512 .f32 :=
  k0_pay292 v137
    (k0_pay237 v1219 v1221)
    (k0_pay238 v1219 v1221 v1223)
    (k0_pay242 (k0_pay239 v1219) (k0_pay240 v1221) (constant S128x1024 .f32 0x00000000#32))
    (k0_pay243 (k0_pay235 v1223) (k0_pay239 v1219) (k0_pay240 v1221) (constant S128x1024 .f32 0x00000000#32))
    (k0_pay245 (k0_pay233 v1219) (k0_pay234 v1221))
    (k0_pay246 (k0_pay233 v1219) (k0_pay234 v1221) (k0_pay235 v1223))
    (k0_pay248 (k0_pay233 v1219) (k0_pay234 v1221))
    (k0_pay249 (k0_pay233 v1219) (k0_pay234 v1221) (k0_pay235 v1223))
    (k0_pay251 (k0_pay233 v1219) (k0_pay234 v1221))
    (k0_pay252 (k0_pay233 v1219) (k0_pay234 v1221) (k0_pay235 v1223))
    (k0_pay254 (k0_pay233 v1219) (k0_pay234 v1221))
    (k0_pay256 (k0_pay253 (k0_pay233 v1219) (k0_pay234 v1221)) (k0_pay255 (k0_pay235 v1223)))
    (k0_pay258 (k0_pay233 v1219) (k0_pay234 v1221))
    (k0_pay259 (k0_pay233 v1219) (k0_pay234 v1221) (k0_pay235 v1223))
    (k0_pay261 (k0_pay233 v1219) (k0_pay234 v1221))
    (k0_pay262 (k0_pay233 v1219) (k0_pay234 v1221) (k0_pay235 v1223))

/-- Both batches stacked (the second batch's heads divided and multiplied here), plus the first received partial result. -/
def acc38 (v137 : FVec F S512x512 .bf16) (v1219 : Vec F S1x128x512 .bf16) (v1221 v1223 : Vec F S1x1024x512 .bf16)
    (v1305 : Vec F S1x128x512 .bf16) (v1307 v1309 : Vec F S1x1024x512 .bf16) (r0 : Vec F S1x2x128x512 .bf16) :
    FVec F S2x128x512 .f32 :=
  k0_pay295 v137
    (k0_pay274 (k0_pay263 v1305) (k0_pay264 v1307))
    (k0_pay275 (k0_pay263 v1305) (k0_pay264 v1307) (k0_pay265 v1309))
    (k0_pay277 (k0_pay263 v1305) (k0_pay264 v1307))
    (k0_pay278 (k0_pay263 v1305) (k0_pay264 v1307) (k0_pay265 v1309))
    (k0_pay280 (k0_pay263 v1305) (k0_pay264 v1307))
    (k0_pay281 (k0_pay263 v1305) (k0_pay264 v1307) (k0_pay265 v1309))
    (k0_pay283 (k0_pay263 v1305) (k0_pay264 v1307))
    (k0_pay285 (k0_pay282 (k0_pay263 v1305) (k0_pay264 v1307)) (k0_pay284 (k0_pay265 v1309)) (constant S128x64 .f32 0x00000000#32))
    (k0_pay287 (k0_pay263 v1305) (k0_pay264 v1307))
    (k0_pay288 (k0_pay263 v1305) (k0_pay264 v1307) (k0_pay265 v1309))
    (k0_pay290 (k0_pay263 v1305) (k0_pay264 v1307))
    (k0_pay291 (k0_pay263 v1305) (k0_pay264 v1307) (k0_pay265 v1309))
    (y0 v137 v1219 v1221 v1223)
    (k0_pay293 (k0_pay267 v1305 v1307) (k0_pay268 v1305 v1307 v1309))
    (k0_pay294 (k0_pay271 (k0_pay269 v1305 v1307)) (k0_pay272 (k0_pay265 v1309) (k0_pay269 v1305 v1307)))
    r0

/-- … plus the second and third received partial results. -/
def acc39 (v137 : FVec F S512x512 .bf16) (v1219 : Vec F S1x128x512 .bf16) (v1221 v1223 : Vec F S1x1024x512 .bf16)
    (v1305 : Vec F S1x128x512 .bf16) (v1307 v1309 : Vec F S1x1024x512 .bf16) (r0 r1 r2 : Vec F S1x2x128x512 .bf16) :
    FVec F S2x128x512 .f32 :=
  k0_pay296 (acc38 v137 v1219 v1221 v1223 v1305 v1307 v1309 r0) r1 r2

/-- … plus the fourth and fifth. -/
def acc40 (v137 : FVec F S512x512 .bf16) (v1219 : Vec F S1x128x512 .bf16) (v1221 v1223 : Vec F S1x1024x512 .bf16)
    (v1305 : Vec F S1x128x512 .bf16) (v1307 v1309 : Vec F S1x1024x512 .bf16) (r0 r1 r2 r3 r4 : Vec F S1x2x128x512 .bf16) :
    FVec F S2x128x512 .f32 :=
  k0_pay297 (acc39 v137 v1219 v1221 v1223 v1305 v1307 v1309 r0 r1 r2) r3 r4

/-- … plus the sixth and seventh: the stored result. -/
def out41 (v137 : FVec F S512x512 .bf16) (v1219 : Vec F S1x128x512 .bf16) (v1221 v1223 : Vec F S1x1024x512 .bf16)
    (v1305 : Vec F S1x128x512 .bf16) (v1307 v1309 : Vec F S1x1024x512 .bf16) (r0 r1 r2 r3 r4 r5 r6 : Vec F S1x2x128x512 .bf16) :
    FVec F S2x128x512 .f32 :=
  k0_pay298 (acc40 v137 v1219 v1221 v1223 v1305 v1307 v1309 r0 r1 r2 r3 r4) r5 r6

end Cert.Val3

end
-- ==== Proof.Contents.lean ====
/-
  What every buffer of the kernel holds and what every load returns, named as pure terms over the body's payloads, for
  any float instance: a shadow of the body's run.

  Device c stages its blocks of x and of the four weights. After the gather, slot s of every device's gather buffer
  holds device s's block of x, cast. Rotated block ρ of device c's q, k and v scratch holds the projections of the slot of
  device (c − ρ) mod 8. The attention passes load rows of the three scratch buffers; their stacked results go, 128 rows
  at a time, into the seven slots of the send buffer; slot i of device c's receive buffer takes slot i of the send
  buffer of the device i + 1 places after it; the stored result adds the seven received slots to the device's own.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Spec
import proofs.«900761_g7700000000000762_dist_attn_self_mha_htp_ss_b2_sq128_skv128_d512_hq8_dh64_v7x_i8_bf16_1_alg».proof.Proof.ValPass1Defs
import proofs.«900761_g7700000000000762_dist_attn_self_mha_htp_ss_b2_sq128_skv128_d512_hq8_dh64_v7x_i8_bf16_1_alg».proof.Proof.ValPass2Defs
import proofs.«900761_g7700000000000762_dist_attn_self_mha_htp_ss_b2_sq128_skv128_d512_hq8_dh64_v7x_i8_bf16_1_alg».proof.Proof.ValPass3Defs
import Idealize.ShloMosaic.Lib.Pipeline.FrameBody
import Idealize.ShloMosaic.Lib.ValueIdx

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## The staged arguments -/

/-- Device c's block of x, as staged. -/
def xv (c : Dev nD) : Vec F S2x128x512 .f32 := Gen.iblk m c 0 t₀
/-- Device c's block of the query weight. -/
def wqv (c : Dev nD) : Vec F S512x512 .f32 := Gen.iblk m c 1 t₀
/-- Device c's block of the output projection. -/
def wov (c : Dev nD) : Vec F S512x512 .f32 := Gen.iblk m c 2 t₀
/-- Device c's block of the key weight. -/
def wkv (c : Dev nD) : Vec F S512x512 .f32 := Gen.iblk m c 3 t₀
/-- Device c's block of the value weight. -/
def wvv (c : Dev nD) : Vec F S512x512 .f32 := Gen.iblk m c 4 t₀

/-! ## The gather buffer -/

/-- What slot s of the gather buffer holds, on every device, after the gather: device s's block of x, cast. -/
def slotv (s : Dev nD) : FVec F S1x2x128x512 .bf16 := k0_pay1 (xv m s)

/-- The whole gather buffer: (s, b, r, k) is slot s at (0, b, r, k). -/
def XGdef : (cc0_scratch0 : Ref sig .tc).ty.Contents (Elt F) :=
  fun i => slotv m ⟨(i 0).val, (i 0).isLt⟩ (ix4 0 (i 1) (i 2) (i 3))

/-- What a device loads from slot s of the gather buffer. -/
def ldSlot (off : Fin 4 → Nat) (inb : ∀ a, off a + S1x2x128x512.size a ≤ S8x2x128x512.size a) : Vec F S1x2x128x512 .bf16 :=
  View.ld (XGdef m : S8x2x128x512.Idx → Elt F .bf16) (Rect.unit (s := S8x2x128x512) off S1x2x128x512.size inb)

/-- The gather buffer at an index whose coordinates are (s, b, r, k). -/
theorem XGdef_apply (i : S8x2x128x512.Idx) (s : Dev nD) (b : Fin 2) (r : Fin 128) (k : Fin 512)
    (h0 : (i 0).val = s.val) (h1 : (i 1).val = b.val) (h2 : (i 2).val = r.val) (h3 : (i 3).val = k.val) :
    XGdef m i = slotv m s (ix4 0 b r k) := by
  have e0 : (⟨(i 0).val, (i 0).isLt⟩ : Dev nD) = s := Fin.ext h0
  have e1 : i 1 = b := Fin.ext h1
  have e2 : i 2 = r := Fin.ext h2
  have e3 : i 3 = k := Fin.ext h3
  show slotv m ⟨(i 0).val, (i 0).isLt⟩ (ix4 0 (i 1) (i 2) (i 3)) = _
  rw [e0, e1, e2, e3]

/-- A load of one slot of the gather buffer returns that slot. -/
theorem ldSlot_eq (off : Fin 4 → Nat) (inb : ∀ a, off a + S1x2x128x512.size a ≤ S8x2x128x512.size a) (s : Dev nD)
    (h0 : off 0 = s.val) (h1 : off 1 = 0) (h2 : off 2 = 0) (h3 : off 3 = 0) : ldSlot m off inb = slotv m s := by
  funext x
  have hx0 : (x 0).val = 0 := by have : (x 0).val < 1 := (x 0).isLt; omega
  have hx : x = ix4 0 (x 1) (x 2) (x 3) := by
    funext a
    match a with
    | ⟨0, _⟩ => exact Fin.ext hx0
    | ⟨1, _⟩ => rfl
    | ⟨2, _⟩ => rfl
    | ⟨3, _⟩ => rfl
  refine (XGdef_apply m _ s (x 1) (x 2) (x 3) ?_ ?_ ?_ ?_).trans (congrArg (slotv m s) hx.symm)
  · show off 0 + 1 * (x 0).val = s.val; omega
  · show off 1 + 1 * (x 1).val = (x 1).val; omega
  · show off 2 + 1 * (x 2).val = (x 2).val; omega
  · show off 3 + 1 * (x 3).val = (x 3).val; omega

/-! ## The weights -/

/-- The concatenated weights [Wq · scale | Wk | Wv] of device c. -/
def Wv (c : Dev nD) : FVec F S512x1536 .bf16 := k0_pay3 (wqv m c) (wkv m c) (wvv m c)
/-- The block of the output projection of device c, cast. -/
def WOv (c : Dev nD) : FVec F S512x512 .bf16 := k0_pay2 (wov m c)

/-! ## The eight chunks of the q, k and v scratch -/

/-- The value stored into rotated block ρ of the q scratch, from the concatenated weights and the slot loaded. -/
def chunkQ (W : FVec F S512x1536 .bf16) (slot : FVec F S1x2x128x512 .bf16) : Fin 8 → FVec F S2x128x512 .bf16
  | 0 => k0_pay6 W (k0_pay4 slot)
  | 1 => k0_pay10 W slot
  | 2 => k0_pay14 W slot
  | 3 => k0_pay18 W slot
  | 4 => k0_pay23 W slot
  | 5 => k0_pay85 (k0_pay84 W slot)
  | 6 => k0_pay89 (k0_pay88 W slot)
  | 7 => k0_pay93 W slot
/-- The value stored into rotated block ρ of the k scratch. -/
def chunkK (W : FVec F S512x1536 .bf16) (slot : FVec F S1x2x128x512 .bf16) : Fin 8 → FVec F S2x128x512 .bf16
  | 0 => k0_pay7 W (k0_pay4 slot)
  | 1 => k0_pay11 W slot
  | 2 => k0_pay15 W slot
  | 3 => k0_pay19 W slot
  | 4 => k0_pay25 (k0_pay24 W slot)
  | 5 => k0_pay86 (k0_pay83 W slot)
  | 6 => k0_pay90 (k0_pay88 W slot)
  | 7 => k0_pay94 W slot
/-- The value stored into rotated block ρ of the v scratch. -/
def chunkV (W : FVec F S512x1536 .bf16) (slot : FVec F S1x2x128x512 .bf16) : Fin 8 → FVec F S2x128x512 .bf16
  | 0 => k0_pay8 W (k0_pay4 slot)
  | 1 => k0_pay12 W slot
  | 2 => k0_pay16 W slot
  | 3 => k0_pay21 (k0_pay20 W slot)
  | 4 => k0_pay26 (k0_pay22 W slot)
  | 5 => k0_pay87 (k0_pay83 W slot)
  | 6 => k0_pay91 (k0_pay88 W slot)
  | 7 => k0_pay95 W slot

/-- The device whose block of x rotated block ρ of device c's scratch is computed from: (c − ρ) mod 8. -/
def srcDev (c : Dev nD) (ρ : Fin 8) : Dev nD := Cert.Spec.src c ρ

/-- Rotated block ρ of device c's q scratch. -/
def Qchunk (c : Dev nD) (ρ : Fin 8) : FVec F S2x128x512 .bf16 := chunkQ (Wv m c) (slotv m (srcDev c ρ)) ρ
/-- Rotated block ρ of device c's k scratch. -/
def Kchunk (c : Dev nD) (ρ : Fin 8) : FVec F S2x128x512 .bf16 := chunkK (Wv m c) (slotv m (srcDev c ρ)) ρ
/-- Rotated block ρ of device c's v scratch. -/
def Vchunk (c : Dev nD) (ρ : Fin 8) : FVec F S2x128x512 .bf16 := chunkV (Wv m c) (slotv m (srcDev c ρ)) ρ

/-- The q scratch after the eight stores: row p of batch b is row p mod 128 of rotated block p / 128. -/
def Qbuf (c : Dev nD) : (cc0_scratch1 : Ref sig .tc).ty.Contents (Elt F) :=
  fun i => Qchunk m c (Cert.Spec.blkOf (i 1)) (ix3 (i 0) (Cert.Spec.inBlk (i 1)) (i 2))
/-- The k scratch after the eight stores. -/
def Kbuf (c : Dev nD) : (cc0_scratch2 : Ref sig .tc).ty.Contents (Elt F) :=
  fun i => Kchunk m c (Cert.Spec.blkOf (i 1)) (ix3 (i 0) (Cert.Spec.inBlk (i 1)) (i 2))
/-- The v scratch after the eight stores. -/
def Vbuf (c : Dev nD) : (cc0_scratch3 : Ref sig .tc).ty.Contents (Elt F) :=
  fun i => Vchunk m c (Cert.Spec.blkOf (i 1)) (ix3 (i 0) (Cert.Spec.inBlk (i 1)) (i 2))

/-! ## What the attention passes load -/

/-- Pass 1, batch 0: the query rows 128 … 639. -/
def ld_v323 (c : Dev nD) : Vec F S1x512x512 .bf16 :=
  View.ld (Qbuf m c : S2x1024x512.Idx → Elt F .bf16) (Rect.unit (s := S2x1024x512) ![0, 128, 0] S1x512x512.size inb_S2x1024x512_S1x512x512_0_128_0)

/-- Pass 1, batch 0: the key rows 0 … 511. -/
def ld_v325 (c : Dev nD) : Vec F S1x512x512 .bf16 :=
  View.ld (Kbuf m c : S2x1024x512.Idx → Elt F .bf16) (Rect.unit (s := S2x1024x512) ![0, 0, 0] S1x512x512.size inb_S2x1024x512_S1x512x512_0_0_0)

/-- Pass 1, batch 0: the value rows 0 … 511. -/
def ld_v327 (c : Dev nD) : Vec F S1x512x512 .bf16 :=
  View.ld (Vbuf m c : S2x1024x512.Idx → Elt F .bf16) (Rect.unit (s := S2x1024x512) ![0, 0, 0] S1x512x512.size inb_S2x1024x512_S1x512x512_0_0_0)

/-- Pass 1, batch 1: the query rows 128 … 639. -/
def ld_v409 (c : Dev nD) : Vec F S1x512x512 .bf16 :=
  View.ld (Qbuf m c : S2x1024x512.Idx → Elt F .bf16) (Rect.unit (s := S2x1024x512) ![1, 128, 0] S1x512x512.size inb_S2x1024x512_S1x512x512_1_128_0)

/-- Pass 1, batch 1: the key rows 0 … 511. -/
def ld_v411 (c : Dev nD) : Vec F S1x512x512 .bf16 :=
  View.ld (Kbuf m c : S2x1024x512.Idx → Elt F .bf16) (Rect.unit (s := S2x1024x512) ![1, 0, 0] S1x512x512.size inb_S2x1024x512_S1x512x512_1_0_0)

/-- Pass 1, batch 1: the value rows 0 … 511. -/
def ld_v413 (c : Dev nD) : Vec F S1x512x512 .bf16 :=
  View.ld (Vbuf m c : S2x1024x512.Idx → Elt F .bf16) (Rect.unit (s := S2x1024x512) ![1, 0, 0] S1x512x512.size inb_S2x1024x512_S1x512x512_1_0_0)

/-- Pass 1, second group of keys, batch 0: the query rows 128 … 639 again. -/
def ld_v612 (c : Dev nD) : Vec F S1x512x512 .bf16 :=
  View.ld (Qbuf m c : S2x1024x512.Idx → Elt F .bf16) (Rect.unit (s := S2x1024x512) ![0, 128, 0] S1x512x512.size inb_S2x1024x512_S1x512x512_0_128_0)

/-- Pass 1, second group, batch 0: the key rows 512 … 1023. -/
def ld_v614 (c : Dev nD) : Vec F S1x512x512 .bf16 :=
  View.ld (Kbuf m c : S2x1024x512.Idx → Elt F .bf16) (Rect.unit (s := S2x1024x512) ![0, 512, 0] S1x512x512.size inb_S2x1024x512_S1x512x512_0_512_0)

/-- Pass 1, second group, batch 0: the value rows 512 … 1023. -/
def ld_v616 (c : Dev nD) : Vec F S1x512x512 .bf16 :=
  View.ld (Vbuf m c : S2x1024x512.Idx → Elt F .bf16) (Rect.unit (s := S2x1024x512) ![0, 512, 0] S1x512x512.size inb_S2x1024x512_S1x512x512_0_512_0)

/-- Pass 1, second group, batch 1: the query rows 128 … 639 again. -/
def ld_v714 (c : Dev nD) : Vec F S1x512x512 .bf16 :=
  View.ld (Qbuf m c : S2x1024x512.Idx → Elt F .bf16) (Rect.unit (s := S2x1024x512) ![1, 128, 0] S1x512x512.size inb_S2x1024x512_S1x512x512_1_128_0)

/-- Pass 1, second group, batch 1: the key rows 512 … 1023. -/
def ld_v716 (c : Dev nD) : Vec F S1x512x512 .bf16 :=
  View.ld (Kbuf m c : S2x1024x512.Idx → Elt F .bf16) (Rect.unit (s := S2x1024x512) ![1, 512, 0] S1x512x512.size inb_S2x1024x512_S1x512x512_1_512_0)

/-- Pass 1, second group, batch 1: the value rows 512 … 1023. -/
def ld_v718 (c : Dev nD) : Vec F S1x512x512 .bf16 :=
  View.ld (Vbuf m c : S2x1024x512.Idx → Elt F .bf16) (Rect.unit (s := S2x1024x512) ![1, 512, 0] S1x512x512.size inb_S2x1024x512_S1x512x512_1_512_0)

/-- Pass 2, batch 0: the query rows 640 … 1023. -/
def ld_v940 (c : Dev nD) : Vec F S1x384x512 .bf16 :=
  View.ld (Qbuf m c : S2x1024x512.Idx → Elt F .bf16) (Rect.unit (s := S2x1024x512) ![0, 640, 0] S1x384x512.size inb_S2x1024x512_S1x384x512_0_640_0)

/-- Pass 2, batch 0: all key rows. -/
def ld_v942 (c : Dev nD) : Vec F S1x1024x512 .bf16 :=
  View.ld (Kbuf m c : S2x1024x512.Idx → Elt F .bf16) (Rect.unit (s := S2x1024x512) ![0, 0, 0] S1x1024x512.size inb_S2x1024x512_S1x1024x512_0_0_0)

/-- Pass 2, batch 0: all value rows. -/
def ld_v944 (c : Dev nD) : Vec F S1x1024x512 .bf16 :=
  View.ld (Vbuf m c : S2x1024x512.Idx → Elt F .bf16) (Rect.unit (s := S2x1024x512) ![0, 0, 0] S1x1024x512.size inb_S2x1024x512_S1x1024x512_0_0_0)

/-- Pass 2, batch 1: the query rows 640 … 1023. -/
def ld_v1026 (c : Dev nD) : Vec F S1x384x512 .bf16 :=
  View.ld (Qbuf m c : S2x1024x512.Idx → Elt F .bf16) (Rect.unit (s := S2x1024x512) ![1, 640, 0] S1x384x512.size inb_S2x1024x512_S1x384x512_1_640_0)

/-- Pass 2, batch 1: all key rows. -/
def ld_v1028 (c : Dev nD) : Vec F S1x1024x512 .bf16 :=
  View.ld (Kbuf m c : S2x1024x512.Idx → Elt F .bf16) (Rect.unit (s := S2x1024x512) ![1, 0, 0] S1x1024x512.size inb_S2x1024x512_S1x1024x512_1_0_0)

/-- Pass 2, batch 1: all value rows. -/
def ld_v1030 (c : Dev nD) : Vec F S1x1024x512 .bf16 :=
  View.ld (Vbuf m c : S2x1024x512.Idx → Elt F .bf16) (Rect.unit (s := S2x1024x512) ![1, 0, 0] S1x1024x512.size inb_S2x1024x512_S1x1024x512_1_0_0)

/-- Pass 3, batch 0: the query rows 0 … 127. -/
def ld_v1219 (c : Dev nD) : Vec F S1x128x512 .bf16 :=
  View.ld (Qbuf m c : S2x1024x512.Idx → Elt F .bf16) (Rect.unit (s := S2x1024x512) ![0, 0, 0] S1x128x512.size inb_S2x1024x512_S1x128x512_0_0_0)

/-- Pass 3, batch 0: all key rows. -/
def ld_v1221 (c : Dev nD) : Vec F S1x1024x512 .bf16 :=
  View.ld (Kbuf m c : S2x1024x512.Idx → Elt F .bf16) (Rect.unit (s := S2x1024x512) ![0, 0, 0] S1x1024x512.size inb_S2x1024x512_S1x1024x512_0_0_0)

/-- Pass 3, batch 0: all value rows. -/
def ld_v1223 (c : Dev nD) : Vec F S1x1024x512 .bf16 :=
  View.ld (Vbuf m c : S2x1024x512.Idx → Elt F .bf16) (Rect.unit (s := S2x1024x512) ![0, 0, 0] S1x1024x512.size inb_S2x1024x512_S1x1024x512_0_0_0)

/-- Pass 3, batch 1: the query rows 0 … 127. -/
def ld_v1305 (c : Dev nD) : Vec F S1x128x512 .bf16 :=
  View.ld (Qbuf m c : S2x1024x512.Idx → Elt F .bf16) (Rect.unit (s := S2x1024x512) ![1, 0, 0] S1x128x512.size inb_S2x1024x512_S1x128x512_1_0_0)

/-- Pass 3, batch 1: all key rows. -/
def ld_v1307 (c : Dev nD) : Vec F S1x1024x512 .bf16 :=
  View.ld (Kbuf m c : S2x1024x512.Idx → Elt F .bf16) (Rect.unit (s := S2x1024x512) ![1, 0, 0] S1x1024x512.size inb_S2x1024x512_S1x1024x512_1_0_0)

/-- Pass 3, batch 1: all value rows. -/
def ld_v1309 (c : Dev nD) : Vec F S1x1024x512 .bf16 :=
  View.ld (Vbuf m c : S2x1024x512.Idx → Elt F .bf16) (Rect.unit (s := S2x1024x512) ![1, 0, 0] S1x1024x512.size inb_S2x1024x512_S1x1024x512_1_0_0)

/-! ## The passes' results, the send buffer, the receive buffer and the stored value -/

/-- The first pass's stacked result on device c: query rows 128 … 639 of both batches, times the output projection. -/
def Y0def (c : Dev nD) : FVec F S2x512x512 .bf16 := Cert.ValPass1.Y0 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)
/-- The second pass's stacked result: query rows 640 … 1023. -/
def Y1def (c : Dev nD) : FVec F S2x384x512 .bf16 := Cert.ValPass2.Y1 (WOv m c) (ld_v940 m c) (ld_v942 m c) (ld_v944 m c) (ld_v1026 m c) (ld_v1028 m c) (ld_v1030 m c)

/-- The send buffer of device c: slots 0 … 3 hold the four blocks of 128 rows of the first pass's result, slots 4 … 6
    the three of the second pass's. -/
def SSdef (c : Dev nD) : (cc0_scratch4 : Ref sig .tc).ty.Contents (Elt F) :=
  fun i => (match (⟨(i 0).val, (i 0).isLt⟩ : Fin 7) with
    | 0 => Cert.ValPass1.slot0 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)
    | 1 => Cert.ValPass1.slot1 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)
    | 2 => Cert.ValPass1.slot2 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)
    | 3 => Cert.ValPass1.slot3 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)
    | 4 => Cert.ValPass2.Slot4 (WOv m c) (ld_v940 m c) (ld_v942 m c) (ld_v944 m c) (ld_v1026 m c) (ld_v1028 m c) (ld_v1030 m c)
    | 5 => Cert.ValPass2.Slot5 (WOv m c) (ld_v940 m c) (ld_v942 m c) (ld_v944 m c) (ld_v1026 m c) (ld_v1028 m c) (ld_v1030 m c)
    | 6 => Cert.ValPass2.Slot6 (WOv m c) (ld_v940 m c) (ld_v942 m c) (ld_v944 m c) (ld_v1026 m c) (ld_v1028 m c) (ld_v1030 m c)) (ix4 0 (i 1) (i 2) (i 3))

/-- The receive buffer of device c: slot i is slot i of the send buffer of the device i + 1 places after c. -/
def RSdef (c : Dev nD) : (cc0_scratch5 : Ref sig .tc).ty.Contents (Elt F) :=
  fun i => SSdef m (fwd c ((i 0).val + 1)) i

/-- What device c loads from slot 0 of its receive buffer. -/
def ld_r0 (c : Dev nD) : Vec F S1x2x128x512 .bf16 :=
  View.ld (RSdef m c : S7x2x128x512.Idx → Elt F .bf16) (Rect.unit (s := S7x2x128x512) ![0, 0, 0, 0] S1x2x128x512.size inb_S7x2x128x512_S1x2x128x512_0_0_0_0)
/-- What device c loads from slot 1 of its receive buffer. -/
def ld_r1 (c : Dev nD) : Vec F S1x2x128x512 .bf16 :=
  View.ld (RSdef m c : S7x2x128x512.Idx → Elt F .bf16) (Rect.unit (s := S7x2x128x512) ![1, 0, 0, 0] S1x2x128x512.size inb_S7x2x128x512_S1x2x128x512_1_0_0_0)
/-- What device c loads from slot 2 of its receive buffer. -/
def ld_r2 (c : Dev nD) : Vec F S1x2x128x512 .bf16 :=
  View.ld (RSdef m c : S7x2x128x512.Idx → Elt F .bf16) (Rect.unit (s := S7x2x128x512) ![2, 0, 0, 0] S1x2x128x512.size inb_S7x2x128x512_S1x2x128x512_2_0_0_0)
/-- What device c loads from slot 3 of its receive buffer. -/
def ld_r3 (c : Dev nD) : Vec F S1x2x128x512 .bf16 :=
  View.ld (RSdef m c : S7x2x128x512.Idx → Elt F .bf16) (Rect.unit (s := S7x2x128x512) ![3, 0, 0, 0] S1x2x128x512.size inb_S7x2x128x512_S1x2x128x512_3_0_0_0)
/-- What device c loads from slot 4 of its receive buffer. -/
def ld_r4 (c : Dev nD) : Vec F S1x2x128x512 .bf16 :=
  View.ld (RSdef m c : S7x2x128x512.Idx → Elt F .bf16) (Rect.unit (s := S7x2x128x512) ![4, 0, 0, 0] S1x2x128x512.size inb_S7x2x128x512_S1x2x128x512_4_0_0_0)
/-- What device c loads from slot 5 of its receive buffer. -/
def ld_r5 (c : Dev nD) : Vec F S1x2x128x512 .bf16 :=
  View.ld (RSdef m c : S7x2x128x512.Idx → Elt F .bf16) (Rect.unit (s := S7x2x128x512) ![5, 0, 0, 0] S1x2x128x512.size inb_S7x2x128x512_S1x2x128x512_5_0_0_0)
/-- What device c loads from slot 6 of its receive buffer. -/
def ld_r6 (c : Dev nD) : Vec F S1x2x128x512 .bf16 :=
  View.ld (RSdef m c : S7x2x128x512.Idx → Elt F .bf16) (Rect.unit (s := S7x2x128x512) ![6, 0, 0, 0] S1x2x128x512.size inb_S7x2x128x512_S1x2x128x512_6_0_0_0)

/-- The third pass's result for device c's own chunk plus the seven received partial results: the stored value. -/
def OUTdef (c : Dev nD) : (cc0_stg5_0 : Ref sig .tc).ty.Contents (Elt F) :=
  Cert.Val3.out41 (WOv m c) (ld_v1219 m c) (ld_v1221 m c) (ld_v1223 m c) (ld_v1305 m c) (ld_v1307 m c) (ld_v1309 m c) (ld_r0 m c) (ld_r1 m c) (ld_r2 m c) (ld_r3 m c) (ld_r4 m c) (ld_r5 m c) (ld_r6 m c)

end Cert.KernelIdealProof

end
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.ValProj.lean ====
/-
  The values of the gather and projection phase of the kernel, read at an index over the extended reals: the
  device's own block of x put into its slot of the gather buffer, the casts of the weights, the three weights
  concatenated along the columns (the first scaled by 1/8), and for each of the eight chunks the product of one slot of
  the gather buffer with the concatenated weights, cut into its query, key and value parts.

  Every chunk is textually the same computation. It is read once: the [256, 1536] product at (128 b + r, q) is the sum
  over k of slot (0, b, r, k) · W (k, q); the three parts are its columns c, 512 + c and 1024 + c, at row 128 b + r,
  reshaped to (b, r, c). With W the concatenated weights this is the projection of row (b, r) by the scaled query
  weight, the key weight and the value weight.
-/
import proofs.«900761_g7700000000000762_dist_attn_self_mha_htp_ss_b2_sq128_skv128_d512_hq8_dh64_v7x_i8_bf16_1_alg».proof.Proof.Gen.KernelIdeal.Skeleton
import proofs.«900761_g7700000000000762_dist_attn_self_mha_htp_ss_b2_sq128_skv128_d512_hq8_dh64_v7x_i8_bf16_1_alg».proof.Proof.LibPlainDot
import Idealize.ShloMosaic.Lib.ValueIdx
import Idealize.ShloMosaic.Lib.ValueLayout
import Idealize.ShloMosaic.Lib.Pipeline.Value

noncomputable section

namespace Cert.ValProj

open Idealize.ShloMosaic Idealize.ShloMosaic.ValueIdx Cert.KernelIdeal Cert.KernelIdeal.Gen

/-- The scale 1/8, as the extended real its single-precision word denotes. -/
abbrev kappa : EReal := Ideal.ofBits .f32 0x3E000000#32

/-- Row 128 b + r of the [256, 512] reading of a [2, 128, 512] block. -/
def row256 (b : Fin 2) (r : Fin 128) : Fin 256 := ⟨128 * b.val + r.val, by have := b.isLt; have := r.isLt; omega⟩

/-! ## Layout operations at an index -/

section Layout
variable {α : Type}

/-- A [2, 128, 512] block read as [256, 512]: row 128 b + r is (b, r). -/
theorem cast_3_to_2 (x : S2x128x512.Idx → α) (h : S2x128x512.ShapeCasts S256x512) (b : Fin 2) (r : Fin 128) (k : Fin 512) :
    shapeCast S256x512 x h (ix2 (row256 b r) k) = x (ix3 b r k) :=
  shapeCast_apply x h _ _ (by
    rw [Shape.rowMajor_val_three, Shape.rowMajor_val_two]
    show (b.val * 128 + r.val) * 512 + k.val = (128 * b.val + r.val) * 512 + k.val
    omega)

/-- A [256, 512] matrix read as [2, 128, 512]: (b, r) is row 128 b + r. -/
theorem cast_2_to_3 (y : S256x512.Idx → α) (h : S256x512.ShapeCasts S2x128x512) (b : Fin 2) (r : Fin 128) (c : Fin 512) :
    shapeCast S2x128x512 y h (ix3 b r c) = y (ix2 (row256 b r) c) :=
  shapeCast_apply y h _ _ (by
    rw [Shape.rowMajor_val_three, Shape.rowMajor_val_two]
    show (128 * b.val + r.val) * 512 + c.val = (b.val * 128 + r.val) * 512 + c.val
    omega)

/-- Columns o … o + 511 of a [256, 1536] matrix, reshaped to [2, 128, 512]: (b, r, c) is row 128 b + r, column o + c. -/
theorem part_apply (o : Nat) (P : S256x1536.Idx → α) (h1 : S256x1536.Slices ![0, o] S256x512)
    (h2 : S256x512.ShapeCasts S2x128x512) (b : Fin 2) (r : Fin 128) (c : Fin 512) (q : Fin 1536) (hq : q.val = o + c.val) :
    shapeCast S2x128x512 (extractStridedSlice S256x512 ![0, o] P h1) h2 (ix3 b r c) = P (ix2 (row256 b r) q) := by
  rw [cast_2_to_3 _ h2 b r c, slice2_axis1_apply o P h1 (row256 b r) c q hq]

end Layout

/-! ## The block of x, and the weights -/

/-- The device's own block of x, cast and given a leading unit axis: the slot's (0, b, r, k) is the block's (b, r, k). -/
theorem pay1_apply (v : Vec Ideal S2x128x512 .f32) (u : Fin 1) (b : Fin 2) (r : Fin 128) (k : Fin 512) :
    k0_pay1 (F := Ideal) v (ix4 u b r k) = v (ix3 b r k) := by
  unfold k0_pay1
  rw [shapeCast_self, shapeCast_abc_1abc_apply, truncf_apply, shapeCast_self]

/-- The block of the output projection, cast: itself. -/
theorem pay2_apply (w : Vec Ideal S512x512 .f32) (j : S512x512.Idx) : k0_pay2 (F := Ideal) w j = w j := by
  unfold k0_pay2
  rw [truncf_apply, shapeCast_self]

/-- The concatenated weights, columns 0 … 511: the query weight times the scale. -/
theorem pay3_q (wq wk wv : Vec Ideal S512x512 .f32) (k c : Fin 512) (q : Fin 1536) (hq : q.val = c.val) :
    k0_pay3 (F := Ideal) wq wk wv (ix2 k q) = wq (ix2 k c) * kappa := by
  unfold k0_pay3
  refine (concatenate_apply_piece (t := S512x1536) 1 _ _ (ix2 k q) 0 (by show 0 < 3; omega) S512x512 _ rfl rfl 0 rfl (ix2 k c)
    (fun b => by match b with | ⟨0, _⟩ => exact fun _ => rfl | ⟨1, _⟩ => exact fun h => absurd rfl h)
    (by show 0 + c.val = q.val; omega)).trans ?_
  rw [truncf_apply, mulf_apply, broadcast_apply, shapeCast_self]
  rfl

/-- The concatenated weights, columns 512 … 1023: the key weight. -/
theorem pay3_k (wq wk wv : Vec Ideal S512x512 .f32) (k c : Fin 512) (q : Fin 1536) (hq : q.val = 512 + c.val) :
    k0_pay3 (F := Ideal) wq wk wv (ix2 k q) = wk (ix2 k c) := by
  unfold k0_pay3
  refine (concatenate_apply_piece (t := S512x1536) 1 _ _ (ix2 k q) 1 (by show 1 < 3; omega) S512x512 _ rfl rfl 512 rfl (ix2 k c)
    (fun b => by match b with | ⟨0, _⟩ => exact fun _ => rfl | ⟨1, _⟩ => exact fun h => absurd rfl h)
    (by show 512 + c.val = q.val; omega)).trans ?_
  rw [truncf_apply, shapeCast_self]

/-- The concatenated weights, columns 1024 … 1535: the value weight. -/
theorem pay3_v (wq wk wv : Vec Ideal S512x512 .f32) (k c : Fin 512) (q : Fin 1536) (hq : q.val = 1024 + c.val) :
    k0_pay3 (F := Ideal) wq wk wv (ix2 k q) = wv (ix2 k c) := by
  unfold k0_pay3
  refine (concatenate_apply_piece (t := S512x1536) 1 _ _ (ix2 k q) 2 (by show 2 < 3; omega) S512x512 _ rfl rfl 1024 rfl (ix2 k c)
    (fun b => by match b with | ⟨0, _⟩ => exact fun _ => rfl | ⟨1, _⟩ => exact fun h => absurd rfl h)
    (by show 1024 + c.val = q.val; omega)).trans ?_
  rw [truncf_apply, shapeCast_self]

/-! ## One chunk: a slot of the gather buffer times the concatenated weights -/

/-- The kernel's dimension numbers for the [256, 512] by [512, 1536] product are the plain ones. -/
theorem dot_eq_plain : dot_S256x512_S512x1536_S256x1536_1_0_0_1_n_n = DotDims.plain 256 512 1536 := rfl

/-- The product into the zero accumulator, cast: at (p, q) the sum over k of x (p, k) · W (k, q). -/
theorem prod_apply (W : FVec Ideal S512x1536 .bf16) (x : FVec Ideal S256x512 .bf16) (p : Fin 256) (q : Fin 1536) :
    (truncf .bf16 (matmul dot_S256x512_S512x1536_S256x1536_1_0_0_1_n_n none x W
        (constant (F := Ideal) S256x1536 .f32 0x00000000#32)) bitsLt_bf16_f32 : FVec Ideal S256x1536 .bf16) (ix2 p q)
      = ∑ k : Fin 512, x (ix2 p k) * W (ix2 k q) := by
  rw [truncf_apply, dot_eq_plain]
  exact PlainDot.matmul_zero_apply 256 512 1536 none x W p q

/-- A slot of the gather buffer, read as [256, 512], times W: at row 128 b + r the sum over k of
    slot (0, b, r, k) · W (k, q). -/
theorem slotProd_apply (W : FVec Ideal S512x1536 .bf16) (slot : Vec Ideal S1x2x128x512 .bf16) (b : Fin 2) (r : Fin 128)
    (q : Fin 1536) :
    k0_pay88 (F := Ideal) W slot (ix2 (row256 b r) q) = ∑ k : Fin 512, slot (ix4 0 b r k) * W (ix2 k q) := by
  unfold k0_pay88
  rw [prod_apply]
  exact Finset.sum_congr rfl fun k _ => by rw [cast_3_to_2, shapeCast_1abc_abc_apply]

/-- The query part of a product: columns 0 … 511. -/
theorem partQ_apply (P : FVec Ideal S256x1536 .bf16) (b : Fin 2) (r : Fin 128) (c : Fin 512) :
    k0_pay89 (F := Ideal) P (ix3 b r c) = P (ix2 (row256 b r) ⟨c.val, by have := c.isLt; omega⟩) := by
  unfold k0_pay89
  rw [shapeCast_self, part_apply 0 P _ _ b r c ⟨c.val, by have := c.isLt; omega⟩ (Nat.zero_add _).symm]

/-- The key part of a product: columns 512 … 1023. -/
theorem partK_apply (P : FVec Ideal S256x1536 .bf16) (b : Fin 2) (r : Fin 128) (c : Fin 512) :
    k0_pay90 (F := Ideal) P (ix3 b r c) = P (ix2 (row256 b r) ⟨512 + c.val, by have := c.isLt; omega⟩) := by
  unfold k0_pay90
  rw [shapeCast_self, part_apply 512 P _ _ b r c ⟨512 + c.val, by have := c.isLt; omega⟩ rfl]

/-- The value part of a product: columns 1024 … 1535. -/
theorem partV_apply (P : FVec Ideal S256x1536 .bf16) (b : Fin 2) (r : Fin 128) (c : Fin 512) :
    k0_pay91 (F := Ideal) P (ix3 b r c) = P (ix2 (row256 b r) ⟨1024 + c.val, by have := c.isLt; omega⟩) := by
  unfold k0_pay91
  rw [shapeCast_self, part_apply 1024 P _ _ b r c ⟨1024 + c.val, by have := c.isLt; omega⟩ rfl]

/-- The query projection of a slot: row (b, r) of the slot times column c of the scaled query weight. -/
theorem proj_q (wq wk wv : Vec Ideal S512x512 .f32) (slot : Vec Ideal S1x2x128x512 .bf16) (b : Fin 2) (r : Fin 128)
    (c : Fin 512) :
    k0_pay89 (F := Ideal) (k0_pay88 (k0_pay3 wq wk wv) slot) (ix3 b r c)
      = ∑ k : Fin 512, slot (ix4 0 b r k) * (wq (ix2 k c) * kappa) := by
  rw [partQ_apply, slotProd_apply]
  exact Finset.sum_congr rfl fun k _ => by rw [pay3_q wq wk wv k c _ rfl]

/-- The key projection of a slot. -/
theorem proj_k (wq wk wv : Vec Ideal S512x512 .f32) (slot : Vec Ideal S1x2x128x512 .bf16) (b : Fin 2) (r : Fin 128)
    (c : Fin 512) :
    k0_pay90 (F := Ideal) (k0_pay88 (k0_pay3 wq wk wv) slot) (ix3 b r c)
      = ∑ k : Fin 512, slot (ix4 0 b r k) * wk (ix2 k c) := by
  rw [partK_apply, slotProd_apply]
  exact Finset.sum_congr rfl fun k _ => by rw [pay3_k wq wk wv k c _ rfl]

/-- The value projection of a slot. -/
theorem proj_v (wq wk wv : Vec Ideal S512x512 .f32) (slot : Vec Ideal S1x2x128x512 .bf16) (b : Fin 2) (r : Fin 128)
    (c : Fin 512) :
    k0_pay91 (F := Ideal) (k0_pay88 (k0_pay3 wq wk wv) slot) (ix3 b r c)
      = ∑ k : Fin 512, slot (ix4 0 b r k) * wv (ix2 k c) := by
  rw [partV_apply, slotProd_apply]
  exact Finset.sum_congr rfl fun k _ => by rw [pay3_v wq wk wv k c _ rfl]

/-! ## The eight chunks

Each chunk's three stored values, as the kernel threads them from the concatenated weights W and the loaded slot (for
the own block: from the slot already reshaped to [2, 128, 512]), and each read at (b, r, c) as the projection of the
slot's row (b, r). -/

/-- Chunk 0 (the own block): the values stored into the query, key and value scratch. -/
def chunk0_q (W : FVec Ideal S512x1536 .bf16) (x : FVec Ideal S2x128x512 .bf16) : FVec Ideal S2x128x512 .bf16 := k0_pay6 W x
def chunk0_k (W : FVec Ideal S512x1536 .bf16) (x : FVec Ideal S2x128x512 .bf16) : FVec Ideal S2x128x512 .bf16 := k0_pay7 W x
def chunk0_v (W : FVec Ideal S512x1536 .bf16) (x : FVec Ideal S2x128x512 .bf16) : FVec Ideal S2x128x512 .bf16 := k0_pay8 W x

theorem chunk0_q_apply (wq wk wv : Vec Ideal S512x512 .f32) (slot : Vec Ideal S1x2x128x512 .bf16) (b : Fin 2) (r : Fin 128)
    (c : Fin 512) :
    chunk0_q (k0_pay3 wq wk wv) (k0_pay4 slot) (ix3 b r c) = ∑ k : Fin 512, slot (ix4 0 b r k) * (wq (ix2 k c) * kappa) :=
  proj_q wq wk wv slot b r c
theorem chunk0_k_apply (wq wk wv : Vec Ideal S512x512 .f32) (slot : Vec Ideal S1x2x128x512 .bf16) (b : Fin 2) (r : Fin 128)
    (c : Fin 512) :
    chunk0_k (k0_pay3 wq wk wv) (k0_pay4 slot) (ix3 b r c) = ∑ k : Fin 512, slot (ix4 0 b r k) * wk (ix2 k c) :=
  proj_k wq wk wv slot b r c
theorem chunk0_v_apply (wq wk wv : Vec Ideal S512x512 .f32) (slot : Vec Ideal S1x2x128x512 .bf16) (b : Fin 2) (r : Fin 128)
    (c : Fin 512) :
    chunk0_v (k0_pay3 wq wk wv) (k0_pay4 slot) (ix3 b r c) = ∑ k : Fin 512, slot (ix4 0 b r k) * wv (ix2 k c) :=
  proj_v wq wk wv slot b r c

/-- Chunk 1 (the first received block): the values stored into the query, key and value scratch. -/
def chunk1_q (W : FVec Ideal S512x1536 .bf16) (slot : Vec Ideal S1x2x128x512 .bf16) : FVec Ideal S2x128x512 .bf16 := k0_pay10 W slot
def chunk1_k (W : FVec Ideal S512x1536 .bf16) (slot : Vec Ideal S1x2x128x512 .bf16) : FVec Ideal S2x128x512 .bf16 := k0_pay11 W slot
def chunk1_v (W : FVec Ideal S512x1536 .bf16) (slot : Vec Ideal S1x2x128x512 .bf16) : FVec Ideal S2x128x512 .bf16 := k0_pay12 W slot

theorem chunk1_q_apply (wq wk wv : Vec Ideal S512x512 .f32) (slot : Vec Ideal S1x2x128x512 .bf16) (b : Fin 2) (r : Fin 128)
    (c : Fin 512) :
    chunk1_q (k0_pay3 wq wk wv) slot (ix3 b r c) = ∑ k : Fin 512, slot (ix4 0 b r k) * (wq (ix2 k c) * kappa) :=
  proj_q wq wk wv slot b r c
theorem chunk1_k_apply (wq wk wv : Vec Ideal S512x512 .f32) (slot : Vec Ideal S1x2x128x512 .bf16) (b : Fin 2) (r : Fin 128)
    (c : Fin 512) :
    chunk1_k (k0_pay3 wq wk wv) slot (ix3 b r c) = ∑ k : Fin 512, slot (ix4 0 b r k) * wk (ix2 k c) :=
  proj_k wq wk wv slot b r c
theorem chunk1_v_apply (wq wk wv : Vec Ideal S512x512 .f32) (slot : Vec Ideal S1x2x128x512 .bf16) (b : Fin 2) (r : Fin 128)
    (c : Fin 512) :
    chunk1_v (k0_pay3 wq wk wv) slot (ix3 b r c) = ∑ k : Fin 512, slot (ix4 0 b r k) * wv (ix2 k c) :=
  proj_v wq wk wv slot b r c

/-- Chunk 2 (the second received block): the values stored into the query, key and value scratch. -/
def chunk2_q (W : FVec Ideal S512x1536 .bf16) (slot : Vec Ideal S1x2x128x512 .bf16) : FVec Ideal S2x128x512 .bf16 := k0_pay14 W slot
def chunk2_k (W : FVec Ideal S512x1536 .bf16) (slot : Vec Ideal S1x2x128x512 .bf16) : FVec Ideal S2x128x512 .bf16 := k0_pay15 W slot
def chunk2_v (W : FVec Ideal S512x1536 .bf16) (slot : Vec Ideal S1x2x128x512 .bf16) : FVec Ideal S2x128x512 .bf16 := k0_pay16 W slot

theorem chunk2_q_apply (wq wk wv : Vec Ideal S512x512 .f32) (slot : Vec Ideal S1x2x128x512 .bf16) (b : Fin 2) (r : Fin 128)
    (c : Fin 512) :
    chunk2_q (k0_pay3 wq wk wv) slot (ix3 b r c) = ∑ k : Fin 512, slot (ix4 0 b r k) * (wq (ix2 k c) * kappa) :=
  proj_q wq wk wv slot b r c
theorem chunk2_k_apply (wq wk wv : Vec Ideal S512x512 .f32) (slot : Vec Ideal S1x2x128x512 .bf16) (b : Fin 2) (r : Fin 128)
    (c : Fin 512) :
    chunk2_k (k0_pay3 wq wk wv) slot (ix3 b r c) = ∑ k : Fin 512, slot (ix4 0 b r k) * wk (ix2 k c) :=
  proj_k wq wk wv slot b r c
theorem chunk2_v_apply (wq wk wv : Vec Ideal S512x512 .f32) (slot : Vec Ideal S1x2x128x512 .bf16) (b : Fin 2) (r : Fin 128)
    (c : Fin 512) :
    chunk2_v (k0_pay3 wq wk wv) slot (ix3 b r c) = ∑ k : Fin 512, slot (ix4 0 b r k) * wv (ix2 k c) :=
  proj_v wq wk wv slot b r c

/-- Chunk 3 (the third received block): the values stored into the query, key and value scratch. -/
def chunk3_q (W : FVec Ideal S512x1536 .bf16) (slot : Vec Ideal S1x2x128x512 .bf16) : FVec Ideal S2x128x512 .bf16 := k0_pay18 W slot
def chunk3_k (W : FVec Ideal S512x1536 .bf16) (slot : Vec Ideal S1x2x128x512 .bf16) : FVec Ideal S2x128x512 .bf16 := k0_pay19 W slot
def chunk3_v (W : FVec Ideal S512x1536 .bf16) (slot : Vec Ideal S1x2x128x512 .bf16) : FVec Ideal S2x128x512 .bf16 := k0_pay21 (k0_pay20 W slot)

theorem chunk3_q_apply (wq wk wv : Vec Ideal S512x512 .f32) (slot : Vec Ideal S1x2x128x512 .bf16) (b : Fin 2) (r : Fin 128)
    (c : Fin 512) :
    chunk3_q (k0_pay3 wq wk wv) slot (ix3 b r c) = ∑ k : Fin 512, slot (ix4 0 b r k) * (wq (ix2 k c) * kappa) :=
  proj_q wq wk wv slot b r c
theorem chunk3_k_apply (wq wk wv : Vec Ideal S512x512 .f32) (slot : Vec Ideal S1x2x128x512 .bf16) (b : Fin 2) (r : Fin 128)
    (c : Fin 512) :
    chunk3_k (k0_pay3 wq wk wv) slot (ix3 b r c) = ∑ k : Fin 512, slot (ix4 0 b r k) * wk (ix2 k c) :=
  proj_k wq wk wv slot b r c
theorem chunk3_v_apply (wq wk wv : Vec Ideal S512x512 .f32) (slot : Vec Ideal S1x2x128x512 .bf16) (b : Fin 2) (r : Fin 128)
    (c : Fin 512) :
    chunk3_v (k0_pay3 wq wk wv) slot (ix3 b r c) = ∑ k : Fin 512, slot (ix4 0 b r k) * wv (ix2 k c) :=
  proj_v wq wk wv slot b r c

/-- Chunk 4 (the fourth received block): the values stored into the query, key and value scratch. -/
def chunk4_q (W : FVec Ideal S512x1536 .bf16) (slot : Vec Ideal S1x2x128x512 .bf16) : FVec Ideal S2x128x512 .bf16 := k0_pay23 W slot
def chunk4_k (W : FVec Ideal S512x1536 .bf16) (slot : Vec Ideal S1x2x128x512 .bf16) : FVec Ideal S2x128x512 .bf16 := k0_pay25 (k0_pay24 W slot)
def chunk4_v (W : FVec Ideal S512x1536 .bf16) (slot : Vec Ideal S1x2x128x512 .bf16) : FVec Ideal S2x128x512 .bf16 := k0_pay26 (k0_pay22 W slot)

theorem chunk4_q_apply (wq wk wv : Vec Ideal S512x512 .f32) (slot : Vec Ideal S1x2x128x512 .bf16) (b : Fin 2) (r : Fin 128)
    (c : Fin 512) :
    chunk4_q (k0_pay3 wq wk wv) slot (ix3 b r c) = ∑ k : Fin 512, slot (ix4 0 b r k) * (wq (ix2 k c) * kappa) :=
  proj_q wq wk wv slot b r c
theorem chunk4_k_apply (wq wk wv : Vec Ideal S512x512 .f32) (slot : Vec Ideal S1x2x128x512 .bf16) (b : Fin 2) (r : Fin 128)
    (c : Fin 512) :
    chunk4_k (k0_pay3 wq wk wv) slot (ix3 b r c) = ∑ k : Fin 512, slot (ix4 0 b r k) * wk (ix2 k c) :=
  proj_k wq wk wv slot b r c
theorem chunk4_v_apply (wq wk wv : Vec Ideal S512x512 .f32) (slot : Vec Ideal S1x2x128x512 .bf16) (b : Fin 2) (r : Fin 128)
    (c : Fin 512) :
    chunk4_v (k0_pay3 wq wk wv) slot (ix3 b r c) = ∑ k : Fin 512, slot (ix4 0 b r k) * wv (ix2 k c) :=
  proj_v wq wk wv slot b r c

/-- Chunk 5 (the fifth received block): the values stored into the query, key and value scratch. -/
def chunk5_q (W : FVec Ideal S512x1536 .bf16) (slot : Vec Ideal S1x2x128x512 .bf16) : FVec Ideal S2x128x512 .bf16 := k0_pay85 (k0_pay84 W slot)
def chunk5_k (W : FVec Ideal S512x1536 .bf16) (slot : Vec Ideal S1x2x128x512 .bf16) : FVec Ideal S2x128x512 .bf16 := k0_pay86 (k0_pay83 W slot)
def chunk5_v (W : FVec Ideal S512x1536 .bf16) (slot : Vec Ideal S1x2x128x512 .bf16) : FVec Ideal S2x128x512 .bf16 := k0_pay87 (k0_pay83 W slot)

theorem chunk5_q_apply (wq wk wv : Vec Ideal S512x512 .f32) (slot : Vec Ideal S1x2x128x512 .bf16) (b : Fin 2) (r : Fin 128)
    (c : Fin 512) :
    chunk5_q (k0_pay3 wq wk wv) slot (ix3 b r c) = ∑ k : Fin 512, slot (ix4 0 b r k) * (wq (ix2 k c) * kappa) :=
  proj_q wq wk wv slot b r c
theorem chunk5_k_apply (wq wk wv : Vec Ideal S512x512 .f32) (slot : Vec Ideal S1x2x128x512 .bf16) (b : Fin 2) (r : Fin 128)
    (c : Fin 512) :
    chunk5_k (k0_pay3 wq wk wv) slot (ix3 b r c) = ∑ k : Fin 512, slot (ix4 0 b r k) * wk (ix2 k c) :=
  proj_k wq wk wv slot b r c
theorem chunk5_v_apply (wq wk wv : Vec Ideal S512x512 .f32) (slot : Vec Ideal S1x2x128x512 .bf16) (b : Fin 2) (r : Fin 128)
    (c : Fin 512) :
    chunk5_v (k0_pay3 wq wk wv) slot (ix3 b r c) = ∑ k : Fin 512, slot (ix4 0 b r k) * wv (ix2 k c) :=
  proj_v wq wk wv slot b r c

/-- Chunk 6 (the sixth received block): the values stored into the query, key and value scratch. -/
def chunk6_q (W : FVec Ideal S512x1536 .bf16) (slot : Vec Ideal S1x2x128x512 .bf16) : FVec Ideal S2x128x512 .bf16 := k0_pay89 (k0_pay88 W slot)
def chunk6_k (W : FVec Ideal S512x1536 .bf16) (slot : Vec Ideal S1x2x128x512 .bf16) : FVec Ideal S2x128x512 .bf16 := k0_pay90 (k0_pay88 W slot)
def chunk6_v (W : FVec Ideal S512x1536 .bf16) (slot : Vec Ideal S1x2x128x512 .bf16) : FVec Ideal S2x128x512 .bf16 := k0_pay91 (k0_pay88 W slot)

theorem chunk6_q_apply (wq wk wv : Vec Ideal S512x512 .f32) (slot : Vec Ideal S1x2x128x512 .bf16) (b : Fin 2) (r : Fin 128)
    (c : Fin 512) :
    chunk6_q (k0_pay3 wq wk wv) slot (ix3 b r c) = ∑ k : Fin 512, slot (ix4 0 b r k) * (wq (ix2 k c) * kappa) :=
  proj_q wq wk wv slot b r c
theorem chunk6_k_apply (wq wk wv : Vec Ideal S512x512 .f32) (slot : Vec Ideal S1x2x128x512 .bf16) (b : Fin 2) (r : Fin 128)
    (c : Fin 512) :
    chunk6_k (k0_pay3 wq wk wv) slot (ix3 b r c) = ∑ k : Fin 512, slot (ix4 0 b r k) * wk (ix2 k c) :=
  proj_k wq wk wv slot b r c
theorem chunk6_v_apply (wq wk wv : Vec Ideal S512x512 .f32) (slot : Vec Ideal S1x2x128x512 .bf16) (b : Fin 2) (r : Fin 128)
    (c : Fin 512) :
    chunk6_v (k0_pay3 wq wk wv) slot (ix3 b r c) = ∑ k : Fin 512, slot (ix4 0 b r k) * wv (ix2 k c) :=
  proj_v wq wk wv slot b r c

/-- Chunk 7 (the seventh received block): the values stored into the query, key and value scratch. -/
def chunk7_q (W : FVec Ideal S512x1536 .bf16) (slot : Vec Ideal S1x2x128x512 .bf16) : FVec Ideal S2x128x512 .bf16 := k0_pay93 W slot
def chunk7_k (W : FVec Ideal S512x1536 .bf16) (slot : Vec Ideal S1x2x128x512 .bf16) : FVec Ideal S2x128x512 .bf16 := k0_pay94 W slot
def chunk7_v (W : FVec Ideal S512x1536 .bf16) (slot : Vec Ideal S1x2x128x512 .bf16) : FVec Ideal S2x128x512 .bf16 := k0_pay95 W slot

theorem chunk7_q_apply (wq wk wv : Vec Ideal S512x512 .f32) (slot : Vec Ideal S1x2x128x512 .bf16) (b : Fin 2) (r : Fin 128)
    (c : Fin 512) :
    chunk7_q (k0_pay3 wq wk wv) slot (ix3 b r c) = ∑ k : Fin 512, slot (ix4 0 b r k) * (wq (ix2 k c) * kappa) :=
  proj_q wq wk wv slot b r c
theorem chunk7_k_apply (wq wk wv : Vec Ideal S512x512 .f32) (slot : Vec Ideal S1x2x128x512 .bf16) (b : Fin 2) (r : Fin 128)
    (c : Fin 512) :
    chunk7_k (k0_pay3 wq wk wv) slot (ix3 b r c) = ∑ k : Fin 512, slot (ix4 0 b r k) * wk (ix2 k c) :=
  proj_k wq wk wv slot b r c
theorem chunk7_v_apply (wq wk wv : Vec Ideal S512x512 .f32) (slot : Vec Ideal S1x2x128x512 .bf16) (b : Fin 2) (r : Fin 128)
    (c : Fin 512) :
    chunk7_v (k0_pay3 wq wk wv) slot (ix3 b r c) = ∑ k : Fin 512, slot (ix4 0 b r k) * wv (ix2 k c) :=
  proj_v wq wk wv slot b r c

end Cert.ValProj

end
-- ==== Proof.SpecAttn.lean ====
/-
  Attention over plain row-indexed functions, the common form the kernel's passes are read in: `R` query rows against `J`
  key rows of 8 heads of width 64 (512 columns), no scale and no maximum (the kernel folds the scale into the queries and
  subtracts nothing), then the product with a 512 × 512 block of the output projection. The split form adds the sums over
  two groups of keys before dividing.
-/
import proofs.«900761_g7700000000000762_dist_attn_self_mha_htp_ss_b2_sq128_skv128_d512_hq8_dh64_v7x_i8_bf16_1_alg».proof.Proof.Spec

noncomputable section

namespace Cert.Spec

open Idealize.ShloMosaic

variable {R J J' : ℕ}

/-- The score of query row `p` against key row `j` in head `h`. -/
def aScore (Q : Fin R → Fin 512 → EReal) (K : Fin J → Fin 512 → EReal) (h : Fin 8) (p : Fin R) (j : Fin J) : EReal :=
  ∑ e : Fin 64, Q p (hd8 h e) * K j (hd8 h e)

/-- Σ_j exp(score)·v and Σ_j exp(score) over all `J` key rows. -/
def aNum (Q : Fin R → Fin 512 → EReal) (K V : Fin J → Fin 512 → EReal) (h : Fin 8) (p : Fin R) (e : Fin 64) : EReal :=
  ∑ j : Fin J, Ideal.exp (aScore Q K h p j) * V j (hd8 h e)
def aDen (Q : Fin R → Fin 512 → EReal) (K : Fin J → Fin 512 → EReal) (h : Fin 8) (p : Fin R) : EReal :=
  ∑ j : Fin J, Ideal.exp (aScore Q K h p j)

/-- The attention row, all keys at once; and with the keys in two groups whose sums are added. -/
def aAttWhole (Q : Fin R → Fin 512 → EReal) (K V : Fin J → Fin 512 → EReal) (p : Fin R) (c : Fin 512) : EReal :=
  Ideal.div (aNum Q K V (headOf8 c) p (inHead8 c)) (aDen Q K (headOf8 c) p)
def aAttSplit (Q : Fin R → Fin 512 → EReal) (K₁ V₁ : Fin J → Fin 512 → EReal) (K₂ V₂ : Fin J' → Fin 512 → EReal) (p : Fin R) (c : Fin 512) : EReal :=
  Ideal.div (aNum Q K₁ V₁ (headOf8 c) p (inHead8 c) + aNum Q K₂ V₂ (headOf8 c) p (inHead8 c))
    (aDen Q K₁ (headOf8 c) p + aDen Q K₂ (headOf8 c) p)

/-- The attention rows times a block of the output projection. -/
def aOutWhole (Q : Fin R → Fin 512 → EReal) (K V : Fin J → Fin 512 → EReal) (wo : Fin 512 → Fin 512 → EReal) (p : Fin R) (n : Fin 512) : EReal :=
  ∑ c : Fin 512, aAttWhole Q K V p c * wo c n
def aOutSplit (Q : Fin R → Fin 512 → EReal) (K₁ V₁ : Fin J → Fin 512 → EReal) (K₂ V₂ : Fin J' → Fin 512 → EReal) (wo : Fin 512 → Fin 512 → EReal)
    (p : Fin R) (n : Fin 512) : EReal :=
  ∑ c : Fin 512, aAttSplit Q K₁ V₁ K₂ V₂ p c * wo c n

end Cert.Spec

end
-- ==== Proof.ValPass1Ops.lean ====
/-
  The vector operations of the attention passes read at an index, over the extended reals: a block of 64 columns cut out
  of a 512-wide row, the three matrix products (queries against keys, weights against values, attention rows against the
  output projection) as sums over the contracted index, a row sum kept as a column, a column spread over a block's 64
  columns, eight blocks of 64 columns laid side by side, two batches stacked, and a slab of 128 rows cut out of the stack.
-/
import proofs.«900761_g7700000000000762_dist_attn_self_mha_htp_ss_b2_sq128_skv128_d512_hq8_dh64_v7x_i8_bf16_1_alg».proof.Proof.Gen.KernelIdeal.Skeleton
import proofs.«900761_g7700000000000762_dist_attn_self_mha_htp_ss_b2_sq128_skv128_d512_hq8_dh64_v7x_i8_bf16_1_alg».proof.Proof.SpecAttn
import Idealize.ShloMosaic.Lib.ValueIdx
import Idealize.ShloMosaic.Lib.Pipeline.Value
import Idealize.ShloMosaic.Lib.ValueLayout
import Idealize.ShloMosaic.PureOps.Ideal.Laws

noncomputable section

namespace Cert.ValPass1

open Cert.KernelIdeal Cert.KernelIdeal.Gen Idealize.ShloMosaic Idealize.ShloMosaic.ValueIdx Cert.Spec

/-! ## Layout operations -/

/-- A loaded [1, 512, 512] block read as a [512, 512] matrix. -/
theorem cast_apply (v : Vec Ideal S1x512x512 .bf16) (p c : Fin 512) :
    shapeCast S512x512 v shapeCasts_S1x512x512_S512x512 (ix2 p c) = v (ix3 (0 : Fin 1) p c) :=
  shapeCast_1ab_ab_apply v shapeCasts_S1x512x512_S512x512 p c

/-- The 64 columns from column `off` on: entry (p, e) is entry (p, off + e) of the matrix. -/
theorem slice_apply (off : ℕ) (hs : S512x512.Slices ![0, off] S512x64) (x : FVec Ideal S512x512 .bf16)
    (p : Fin 512) (e : Fin 64) (c : Fin 512) (hc : c.val = off + e.val) :
    extractStridedSlice S512x64 ![0, off] x hs (ix2 p e) = x (ix2 p c) :=
  extractStridedSlice_apply _ x hs (ix2 p e) (ix2 p c) (fun a => by
    match a with
    | ⟨0, _⟩ => show p.val = 0 + p.val; omega
    | ⟨1, _⟩ => exact hc)

/-! ## The matrix products -/

theorem nt_lhs_0 (i : S512x512.Idx) (q : dot_S512x64_S512x64_S512x512_1_1_0_0_n_n.contr.Idx) :
    (dot_S512x64_S512x64_S512x512_1_1_0_0_n_n.lhsIdx i q 0).val = (i 0).val := by
  unfold DotDims.lhsIdx
  rw [dif_neg (show ¬(0 : Fin S512x64.rank) ∈ dot_S512x64_S512x64_S512x512_1_1_0_0_n_n.lhsBatch by decide), dif_pos (show (0 : Fin S512x64.rank) ∈ dot_S512x64_S512x64_S512x512_1_1_0_0_n_n.lhsNonContracting by decide)]
  rfl
theorem nt_lhs_1 (i : S512x512.Idx) (q : dot_S512x64_S512x64_S512x512_1_1_0_0_n_n.contr.Idx) :
    (dot_S512x64_S512x64_S512x512_1_1_0_0_n_n.lhsIdx i q 1).val = (q ⟨0, by decide⟩).val :=
  dot_S512x64_S512x64_S512x512_1_1_0_0_n_n.lhsIdx_val_of_single rfl i q
theorem nt_rhs_0 (i : S512x512.Idx) (q : dot_S512x64_S512x64_S512x512_1_1_0_0_n_n.contr.Idx) :
    (dot_S512x64_S512x64_S512x512_1_1_0_0_n_n.rhsIdx i q 0).val = (i 1).val := by
  unfold DotDims.rhsIdx
  rw [dif_neg (show ¬(0 : Fin S512x64.rank) ∈ dot_S512x64_S512x64_S512x512_1_1_0_0_n_n.rhsBatch by decide), dif_pos (show (0 : Fin S512x64.rank) ∈ dot_S512x64_S512x64_S512x512_1_1_0_0_n_n.rhsNonContracting by decide)]
  rfl
theorem nt_rhs_1 (i : S512x512.Idx) (q : dot_S512x64_S512x64_S512x512_1_1_0_0_n_n.contr.Idx) :
    (dot_S512x64_S512x64_S512x512_1_1_0_0_n_n.rhsIdx i q 1).val = (q ⟨0, by decide⟩).val :=
  dot_S512x64_S512x64_S512x512_1_1_0_0_n_n.rhsIdx_val_of_single rfl i q

/-- Queries against keys: row p of the left block against row n of the right block. -/
theorem nt_apply (l : FVec Ideal S512x64 .bf16) (r : FVec Ideal S512x64 .bf16) (p : Fin 512) (n : Fin 512) :
    matmul dot_S512x64_S512x64_S512x512_1_1_0_0_n_n none l r (constant (F := Ideal) S512x512 .f32 0x00000000#32) (ix2 p n)
      = ∑ k : Fin 64, l (ix2 p k) * r (ix2 n k) := by
  refine (Ideal.matmul_constant_zero_apply dot_S512x64_S512x64_S512x512_1_1_0_0_n_n none l r (ix2 p n)).trans ?_
  rw [← Equiv.sum_comp (contrEquiv1 dot_S512x64_S512x64_S512x512_1_1_0_0_n_n 64 rfl rfl).symm]
  refine Finset.sum_congr rfl fun k _ => ?_
  have hk := contrEquiv1_symm_val dot_S512x64_S512x64_S512x512_1_1_0_0_n_n 64 rfl rfl k
  have el : dot_S512x64_S512x64_S512x512_1_1_0_0_n_n.lhsIdx (ix2 p n) ((contrEquiv1 dot_S512x64_S512x64_S512x512_1_1_0_0_n_n 64 rfl rfl).symm k) = ix2 p k := funext fun a => Fin.ext (by
    match a with
    | ⟨0, _⟩ => exact nt_lhs_0 _ _
    | ⟨1, _⟩ => exact (nt_lhs_1 _ _).trans hk)
  have er : dot_S512x64_S512x64_S512x512_1_1_0_0_n_n.rhsIdx (ix2 p n) ((contrEquiv1 dot_S512x64_S512x64_S512x512_1_1_0_0_n_n 64 rfl rfl).symm k) = ix2 n k := funext fun a => Fin.ext (by
    match a with
    | ⟨0, _⟩ => exact nt_rhs_0 _ _
    | ⟨1, _⟩ => exact (nt_rhs_1 _ _).trans hk)
  rw [el, er]

theorem pv_lhs_0 (i : S512x64.Idx) (q : dot_S512x512_S512x64_S512x64_1_0_0_1_n_n.contr.Idx) :
    (dot_S512x512_S512x64_S512x64_1_0_0_1_n_n.lhsIdx i q 0).val = (i 0).val := by
  unfold DotDims.lhsIdx
  rw [dif_neg (show ¬(0 : Fin S512x512.rank) ∈ dot_S512x512_S512x64_S512x64_1_0_0_1_n_n.lhsBatch by decide), dif_pos (show (0 : Fin S512x512.rank) ∈ dot_S512x512_S512x64_S512x64_1_0_0_1_n_n.lhsNonContracting by decide)]
  rfl
theorem pv_lhs_1 (i : S512x64.Idx) (q : dot_S512x512_S512x64_S512x64_1_0_0_1_n_n.contr.Idx) :
    (dot_S512x512_S512x64_S512x64_1_0_0_1_n_n.lhsIdx i q 1).val = (q ⟨0, by decide⟩).val :=
  dot_S512x512_S512x64_S512x64_1_0_0_1_n_n.lhsIdx_val_of_single rfl i q
theorem pv_rhs_1 (i : S512x64.Idx) (q : dot_S512x512_S512x64_S512x64_1_0_0_1_n_n.contr.Idx) :
    (dot_S512x512_S512x64_S512x64_1_0_0_1_n_n.rhsIdx i q 1).val = (i 1).val := by
  unfold DotDims.rhsIdx
  rw [dif_neg (show ¬(1 : Fin S512x64.rank) ∈ dot_S512x512_S512x64_S512x64_1_0_0_1_n_n.rhsBatch by decide), dif_pos (show (1 : Fin S512x64.rank) ∈ dot_S512x512_S512x64_S512x64_1_0_0_1_n_n.rhsNonContracting by decide)]
  rfl
theorem pv_rhs_0 (i : S512x64.Idx) (q : dot_S512x512_S512x64_S512x64_1_0_0_1_n_n.contr.Idx) :
    (dot_S512x512_S512x64_S512x64_1_0_0_1_n_n.rhsIdx i q 0).val = (q ⟨0, by decide⟩).val :=
  dot_S512x512_S512x64_S512x64_1_0_0_1_n_n.rhsIdx_val_of_single rfl i q

/-- Weights against values: row p of the weights against column n of the values. -/
theorem pv_apply (l : FVec Ideal S512x512 .bf16) (r : FVec Ideal S512x64 .bf16) (p : Fin 512) (n : Fin 64) :
    matmul dot_S512x512_S512x64_S512x64_1_0_0_1_n_n none l r (constant (F := Ideal) S512x64 .f32 0x00000000#32) (ix2 p n)
      = ∑ k : Fin 512, l (ix2 p k) * r (ix2 k n) := by
  refine (Ideal.matmul_constant_zero_apply dot_S512x512_S512x64_S512x64_1_0_0_1_n_n none l r (ix2 p n)).trans ?_
  rw [← Equiv.sum_comp (contrEquiv1 dot_S512x512_S512x64_S512x64_1_0_0_1_n_n 512 rfl rfl).symm]
  refine Finset.sum_congr rfl fun k _ => ?_
  have hk := contrEquiv1_symm_val dot_S512x512_S512x64_S512x64_1_0_0_1_n_n 512 rfl rfl k
  have el : dot_S512x512_S512x64_S512x64_1_0_0_1_n_n.lhsIdx (ix2 p n) ((contrEquiv1 dot_S512x512_S512x64_S512x64_1_0_0_1_n_n 512 rfl rfl).symm k) = ix2 p k := funext fun a => Fin.ext (by
    match a with
    | ⟨0, _⟩ => exact pv_lhs_0 _ _
    | ⟨1, _⟩ => exact (pv_lhs_1 _ _).trans hk)
  have er : dot_S512x512_S512x64_S512x64_1_0_0_1_n_n.rhsIdx (ix2 p n) ((contrEquiv1 dot_S512x512_S512x64_S512x64_1_0_0_1_n_n 512 rfl rfl).symm k) = ix2 k n := funext fun a => Fin.ext (by
    match a with
    | ⟨0, _⟩ => exact (pv_rhs_0 _ _).trans hk
    | ⟨1, _⟩ => exact pv_rhs_1 _ _)
  rw [el, er]

theorem wo_lhs_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem wo_lhs_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
theorem wo_rhs_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
theorem wo_rhs_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q

/-- Attention rows against the block of the output projection. -/
theorem wo_apply (l : FVec Ideal S512x512 .bf16) (r : FVec Ideal S512x512 .bf16) (p : Fin 512) (n : Fin 512) :
    matmul dot_S512x512_S512x512_S512x512_1_0_0_1_n_n none l r (constant (F := Ideal) S512x512 .f32 0x00000000#32) (ix2 p n)
      = ∑ k : Fin 512, l (ix2 p k) * r (ix2 k n) := by
  refine (Ideal.matmul_constant_zero_apply dot_S512x512_S512x512_S512x512_1_0_0_1_n_n none l r (ix2 p n)).trans ?_
  rw [← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p n) ((contrEquiv1 dot_S512x512_S512x512_S512x512_1_0_0_1_n_n 512 rfl rfl).symm k) = ix2 p k := funext fun a => Fin.ext (by
    match a with
    | ⟨0, _⟩ => exact wo_lhs_0 _ _
    | ⟨1, _⟩ => exact (wo_lhs_1 _ _).trans hk)
  have er : dot_S512x512_S512x512_S512x512_1_0_0_1_n_n.rhsIdx (ix2 p n) ((contrEquiv1 dot_S512x512_S512x512_S512x512_1_0_0_1_n_n 512 rfl rfl).symm k) = ix2 k n := funext fun a => Fin.ext (by
    match a with
    | ⟨0, _⟩ => exact (wo_rhs_0 _ _).trans hk
    | ⟨1, _⟩ => exact wo_rhs_1 _ _)
  rw [el, er]

/-! ## A row sum kept as a column, and a column spread over 64 columns -/

/-- The key index put back on the reduced axis. -/
theorem lift_row (p : Fin 512) (k : Fin (S512x512.size 1)) :
    reduces_S512x512_S512.lift (ix1 p) k = ix2 p (⟨k.val, k.isLt⟩ : Fin 512) := by
  funext c; apply Fin.ext
  fin_cases c <;> rfl

/-- The sum of a row, kept as a one-column matrix. -/
theorem rowsum_apply (x : FVec Ideal S512x512 .f32) (p : Fin 512) (z : Fin 1) :
    shapeCast S512x1 (multiReduction (F := Ideal) .add [1] S512 x 0x00000000#32 reduces_S512x512_S512 (.inl rfl) rfl)
      shapeCasts_S512_S512x1 (ix2 p z) = ∑ j : Fin 512, x (ix2 p j) := by
  refine (shapeCast_apply _ shapeCasts_S512_S512x1 (ix2 p z) (ix1 p) ?_).trans ?_
  · rw [Shape.rowMajor_val_one, Shape.rowMajor_val_two]
    have hz : z.val = 0 := by omega
    show p.val = p.val * 1 + z.val
    omega
  · refine (Ideal.multiReduction_add_single x _ reduces_S512x512_S512 (.inl rfl) rfl (ix1 p)).trans ?_
    refine Finset.sum_congr rfl fun k _ => ?_
    exact congrArg x (lift_row p k)

/-- A one-column matrix spread over 64 columns. -/
theorem bcol_apply (l : FVec Ideal S512x1 .f32) (p : Fin 512) (e : Fin 64) :
    broadcastTo S512x64 l broadcasts_S512x1_S512x64 (ix2 p e) = l (ix2 p (0 : Fin 1)) :=
  broadcastTo_apply l broadcasts_S512x1_S512x64 (ix2 p e) (ix2 p (0 : Fin 1)) (fun a => by
    match a with
    | ⟨0, _⟩ => show p.val = if (512 : ℕ) = 1 then 0 else p.val; rw [if_neg (by decide)]
    | ⟨1, _⟩ => show 0 = if (1 : ℕ) = 1 then 0 else e.val; rw [if_pos rfl])

/-! ## Blocks side by side, batches stacked, slabs cut out -/

/-- Eight blocks of 64 columns side by side: column c is place c % 64 of block c / 64. -/
theorem concat8_apply (x0 x1 x2 x3 x4 x5 x6 x7 : FVec Ideal S512x64 .bf16) (f : Fin 8 → Fin 512 → Fin 64 → EReal)
    (h0 : ∀ p e, x0 (ix2 p e) = f 0 p e) (h1 : ∀ p e, x1 (ix2 p e) = f 1 p e) (h2 : ∀ p e, x2 (ix2 p e) = f 2 p e)
    (h3 : ∀ p e, x3 (ix2 p e) = f 3 p e) (h4 : ∀ p e, x4 (ix2 p e) = f 4 p e) (h5 : ∀ p e, x5 (ix2 p e) = f 5 p e)
    (h6 : ∀ p e, x6 (ix2 p e) = f 6 p e) (h7 : ∀ p e, x7 (ix2 p e) = f 7 p e) (p : Fin 512) (c : Fin 512) :
    concatenate S512x512 1 [⟨S512x64, x0⟩, ⟨S512x64, x1⟩, ⟨S512x64, x2⟩, ⟨S512x64, x3⟩, ⟨S512x64, x4⟩, ⟨S512x64, x5⟩,
        ⟨S512x64, x6⟩, ⟨S512x64, x7⟩] concatenates_S512x64_S512x64_S512x64_S512x64_S512x64_S512x64_S512x64_S512x64_S512x512_d1 (ix2 p c)
      = f (headOf8 c) p (inHead8 c) := by
  have hc := c.isLt
  generalize hH : headOf8 c = H
  fin_cases H
  · have hk : c.val / 64 = 0 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 0 (by simp) S512x64 x0 rfl rfl 0 rfl
      (ix2 p (inHead8 c)) (fun b hb => ?_) ?_).trans (h0 p (inHead8 c))
    · match b with
      | ⟨0, _⟩ => rfl
      | ⟨1, _⟩ => exact absurd rfl hb
    · show 0 + c.val % 64 = c.val
      omega
  · have hk : c.val / 64 = 1 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 1 (by simp) S512x64 x1 rfl rfl 64 rfl
      (ix2 p (inHead8 c)) (fun b hb => ?_) ?_).trans (h1 p (inHead8 c))
    · match b with
      | ⟨0, _⟩ => rfl
      | ⟨1, _⟩ => exact absurd rfl hb
    · show 64 + c.val % 64 = c.val
      omega
  · have hk : c.val / 64 = 2 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 2 (by simp) S512x64 x2 rfl rfl 128 rfl
      (ix2 p (inHead8 c)) (fun b hb => ?_) ?_).trans (h2 p (inHead8 c))
    · match b with
      | ⟨0, _⟩ => rfl
      | ⟨1, _⟩ => exact absurd rfl hb
    · show 128 + c.val % 64 = c.val
      omega
  · have hk : c.val / 64 = 3 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 3 (by simp) S512x64 x3 rfl rfl 192 rfl
      (ix2 p (inHead8 c)) (fun b hb => ?_) ?_).trans (h3 p (inHead8 c))
    · match b with
      | ⟨0, _⟩ => rfl
      | ⟨1, _⟩ => exact absurd rfl hb
    · show 192 + c.val % 64 = c.val
      omega
  · have hk : c.val / 64 = 4 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 4 (by simp) S512x64 x4 rfl rfl 256 rfl
      (ix2 p (inHead8 c)) (fun b hb => ?_) ?_).trans (h4 p (inHead8 c))
    · match b with
      | ⟨0, _⟩ => rfl
      | ⟨1, _⟩ => exact absurd rfl hb
    · show 256 + c.val % 64 = c.val
      omega
  · have hk : c.val / 64 = 5 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 5 (by simp) S512x64 x5 rfl rfl 320 rfl
      (ix2 p (inHead8 c)) (fun b hb => ?_) ?_).trans (h5 p (inHead8 c))
    · match b with
      | ⟨0, _⟩ => rfl
      | ⟨1, _⟩ => exact absurd rfl hb
    · show 320 + c.val % 64 = c.val
      omega
  · have hk : c.val / 64 = 6 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 6 (by simp) S512x64 x6 rfl rfl 384 rfl
      (ix2 p (inHead8 c)) (fun b hb => ?_) ?_).trans (h6 p (inHead8 c))
    · match b with
      | ⟨0, _⟩ => rfl
      | ⟨1, _⟩ => exact absurd rfl hb
    · show 384 + c.val % 64 = c.val
      omega
  · have hk : c.val / 64 = 7 := congrArg Fin.val hH
    refine (concatenate_apply_piece (t := S512x512) (1 : Fin 2) [⟨S512x64, x0⟩, ⟨S512x64, x1⟩, ⟨S512x64, x2⟩, ⟨S512x64, x3⟩, ⟨S512x64, x4⟩, ⟨S512x64, x5⟩, ⟨S512x64, x6⟩, ⟨S512x64, x7⟩] concatenates_S512x64_S512x64_S512x64_S512x64_S512x64_S512x64_S512x64_S512x64_S512x512_d1 (ix2 p c) 7 (by simp) S512x64 x7 rfl rfl 448 rfl
      (ix2 p (inHead8 c)) (fun b hb => ?_) ?_).trans (h7 p (inHead8 c))
    · match b with
      | ⟨0, _⟩ => rfl
      | ⟨1, _⟩ => exact absurd rfl hb
    · show 448 + c.val % 64 = c.val
      omega

/-- A [512, 512] matrix as a [1, 512, 512] block. -/
theorem up_apply (x : FVec Ideal S512x512 .f32) (u : Fin 1) (q n : Fin 512) :
    shapeCast S1x512x512 x shapeCasts_S512x512_S1x512x512 (ix3 u q n) = x (ix2 q n) :=
  shapeCast_ab_1ab_apply x shapeCasts_S512x512_S1x512x512 u q n

/-- Two batches stacked: batch 0 is the first block, batch 1 the second. -/
theorem stack_apply_0 (y0 y1 : FVec Ideal S1x512x512 .f32) (q n : Fin 512) :
    concatenate S2x512x512 0 [⟨S1x512x512, y0⟩, ⟨S1x512x512, y1⟩] concatenates_S1x512x512_S1x512x512_S2x512x512_d0 (ix3 (0 : Fin 2) q n) = y0 (ix3 (0 : Fin 1) q n) := by
  refine concatenate_apply_piece (t := S2x512x512) (0 : Fin 3) [⟨S1x512x512, y0⟩, ⟨S1x512x512, y1⟩] concatenates_S1x512x512_S1x512x512_S2x512x512_d0 (ix3 (0 : Fin 2) q n) 0 (by simp) S1x512x512 y0 rfl rfl 0 rfl
    (ix3 (0 : Fin 1) q n) (fun b hb => ?_) rfl
  match b with
  | ⟨0, _⟩ => exact absurd rfl hb
  | ⟨1, _⟩ => rfl
  | ⟨2, _⟩ => rfl
theorem stack_apply_1 (y0 y1 : FVec Ideal S1x512x512 .f32) (q n : Fin 512) :
    concatenate S2x512x512 0 [⟨S1x512x512, y0⟩, ⟨S1x512x512, y1⟩] concatenates_S1x512x512_S1x512x512_S2x512x512_d0 (ix3 (1 : Fin 2) q n) = y1 (ix3 (0 : Fin 1) q n) := by
  refine concatenate_apply_piece (t := S2x512x512) (0 : Fin 3) [⟨S1x512x512, y0⟩, ⟨S1x512x512, y1⟩] concatenates_S1x512x512_S1x512x512_S2x512x512_d0 (ix3 (1 : Fin 2) q n) 1 (by simp) S1x512x512 y1 rfl rfl 1 rfl
    (ix3 (0 : Fin 1) q n) (fun b hb => ?_) rfl
  match b with
  | ⟨0, _⟩ => exact absurd rfl hb
  | ⟨1, _⟩ => rfl
  | ⟨2, _⟩ => rfl

/-- The slab of 128 rows from row `off` on, as a [1, 2, 128, 512] block: entry (b, r, n) is entry (b, off + r, n). -/
theorem slab_apply (off : ℕ) (hs : S2x512x512.Slices ![0, off, 0] S2x128x512) (Y : FVec Ideal S2x512x512 .bf16)
    (u : Fin 1) (b : Fin 2) (r : Fin 128) (n : Fin 512) (q : Fin 512) (hq : q.val = off + r.val) :
    shapeCast S1x2x128x512 (extractStridedSlice S2x128x512 ![0, off, 0] Y hs) shapeCasts_S2x128x512_S1x2x128x512 (ix4 u b r n)
      = Y (ix3 b q n) := by
  refine (shapeCast_abc_1abc_apply _ shapeCasts_S2x128x512_S1x2x128x512 u b r n).trans ?_
  exact extractStridedSlice_apply _ Y hs (ix3 b r n) (ix3 b q n) (fun a => by
    match a with
    | ⟨0, _⟩ => show b.val = 0 + b.val; omega
    | ⟨1, _⟩ => exact hq
    | ⟨2, _⟩ => show n.val = 0 + n.val; omega)

/-! ## The passes as compositions of vector operations

One head of one pass: the weights are the exponentials of the products of the head's 64 columns of the queries with
those of the keys; their row sums are the pass's denominators and their products with the head's 64 columns of the values
its numerators. The second pass adds its sums to the first's; the quotient of the added sums is the head's attention block;
the eight blocks side by side, times the block of the output projection, are the batch's rows; the two batches are stacked. -/

section Forms

variable {F : FTy → Type} [FloatOps F]

/-- The weights of the head whose columns start at `off`. -/
def expS (off : ℕ) (hs : S512x512.Slices ![0, off] S512x64) (q k : FVec F S512x512 .bf16) : FVec F S512x512 .bf16 :=
  exp (truncf .bf16 (matmul dot_S512x64_S512x64_S512x512_1_1_0_0_n_n none (extractStridedSlice S512x64 ![0, off] q hs)
    (extractStridedSlice S512x64 ![0, off] k hs) (constant S512x512 .f32 0x00000000#32)) bitsLt_bf16_f32)

/-- The row sums of a matrix of weights, as a column. -/
def rowSum (E : FVec F S512x512 .bf16) : FVec F S512x1 .f32 :=
  shapeCast S512x1 (multiReduction .add [1] S512 (extf .f32 E bitsLt_bf16_f32) 0x00000000#32 reduces_S512x512_S512 (.inl rfl) rfl)
    shapeCasts_S512_S512x1

/-- The weights against the head's 64 columns of the values. -/
def wSum (off : ℕ) (hs : S512x512.Slices ![0, off] S512x64) (E v : FVec F S512x512 .bf16) : FVec F S512x64 .f32 :=
  matmul dot_S512x512_S512x64_S512x64_1_0_0_1_n_n none E (extractStridedSlice S512x64 ![0, off] v hs) (constant S512x64 .f32 0x00000000#32)

/-- A head's numerators over its denominators. -/
def quot (o : FVec F S512x64 .f32) (l : FVec F S512x1 .f32) : FVec F S512x64 .bf16 :=
  truncf .bf16 (divf o (broadcastTo S512x64 l broadcasts_S512x1_S512x64)) bitsLt_bf16_f32

/-- One head over two groups of keys: the first group's sums plus the second's, then the quotient. -/
def piece (off : ℕ) (hs : S512x512.Slices ![0, off] S512x64) (qa ka va qb kb vb : FVec F S512x512 .bf16) : FVec F S512x64 .bf16 :=
  quot (addf (wSum off hs (expS off hs qa ka) va) (wSum off hs (expS off hs qb kb) vb))
    (addf (rowSum (expS off hs qa ka)) (rowSum (expS off hs qb kb)))

/-- Eight head blocks side by side, times the block of the output projection. -/
def rowsOut (wo : FVec F S512x512 .bf16) (x0 x1 x2 x3 x4 x5 x6 x7 : FVec F S512x64 .bf16) : FVec F S512x512 .f32 :=
  matmul dot_S512x512_S512x512_S512x512_1_0_0_1_n_n none (concatenate S512x512 1 [⟨S512x64, x0⟩, ⟨S512x64, x1⟩, ⟨S512x64, x2⟩, ⟨S512x64, x3⟩,
    ⟨S512x64, x4⟩, ⟨S512x64, x5⟩, ⟨S512x64, x6⟩, ⟨S512x64, x7⟩] concatenates_S512x64_S512x64_S512x64_S512x64_S512x64_S512x64_S512x64_S512x64_S512x512_d1) wo (constant S512x512 .f32 0x00000000#32)

/-- One batch: the eight heads over two groups of keys, then the output projection. -/
def batchRows (wo qa ka va qb kb vb : FVec F S512x512 .bf16) : FVec F S512x512 .f32 :=
  rowsOut wo (piece 0 slices_S512x512_o0_0_S512x64 qa ka va qb kb vb)
    (piece 64 slices_S512x512_o0_64_S512x64 qa ka va qb kb vb)
    (piece 128 slices_S512x512_o0_128_S512x64 qa ka va qb kb vb)
    (piece 192 slices_S512x512_o0_192_S512x64 qa ka va qb kb vb)
    (piece 256 slices_S512x512_o0_256_S512x64 qa ka va qb kb vb)
    (piece 320 slices_S512x512_o0_320_S512x64 qa ka va qb kb vb)
    (piece 384 slices_S512x512_o0_384_S512x64 qa ka va qb kb vb)
    (piece 448 slices_S512x512_o0_448_S512x64 qa ka va qb kb vb)

/-- The two batches stacked. -/
def stack (y0 y1 : FVec F S512x512 .f32) : FVec F S2x512x512 .bf16 :=
  truncf .bf16 (concatenate S2x512x512 0 [⟨S1x512x512, shapeCast S1x512x512 y0 shapeCasts_S512x512_S1x512x512⟩,
    ⟨S1x512x512, shapeCast S1x512x512 y1 shapeCasts_S512x512_S1x512x512⟩] concatenates_S1x512x512_S1x512x512_S2x512x512_d0) bitsLt_bf16_f32

/-- The slab of 128 rows from row `off` on, as one send slot. -/
def slab (off : ℕ) (hs : S2x512x512.Slices ![0, off, 0] S2x128x512) (Y : FVec F S2x512x512 .bf16) : FVec F S1x2x128x512 .bf16 :=
  shapeCast S1x2x128x512 (extractStridedSlice S2x128x512 ![0, off, 0] Y hs) shapeCasts_S2x128x512_S1x2x128x512

end Forms

/-! ## The compositions at an index -/

/-- A [512, 512] matrix by row and column. -/
abbrev m2 (x : FVec Ideal S512x512 .bf16) : Fin 512 → Fin 512 → EReal := fun p c => x (ix2 p c)
/-- A loaded [1, 512, 512] block by row and column. -/
abbrev m3 (v : Vec Ideal S1x512x512 .bf16) : Fin 512 → Fin 512 → EReal := fun p c => v (ix3 (0 : Fin 1) p c)

theorem m2_cast (v : Vec Ideal S1x512x512 .bf16) : m2 (shapeCast S512x512 v shapeCasts_S1x512x512_S512x512) = m3 v :=
  funext fun p => funext fun c => cast_apply v p c

/-- The weight of key j for query p in head h is the exponential of their score. -/
theorem expS_apply (off : ℕ) (hs : S512x512.Slices ![0, off] S512x64) (h : Fin 8) (hoff : off = h.val * 64)
    (q k : FVec Ideal S512x512 .bf16) (p j : Fin 512) :
    expS off hs q k (ix2 p j) = Ideal.exp (aScore (m2 q) (m2 k) h p j) := by
  unfold expS
  show Ideal.exp (matmul dot_S512x64_S512x64_S512x512_1_1_0_0_n_n none _ _ (constant (F := Ideal) S512x512 .f32 0x00000000#32) (ix2 p j)) = _
  refine congrArg Ideal.exp ((nt_apply _ _ p j).trans ?_)
  unfold aScore
  refine Finset.sum_congr rfl fun e _ => ?_
  have hc : (hd8 h e).val = off + e.val := by show h.val * 64 + e.val = off + e.val; omega
  rw [slice_apply off hs q p e (hd8 h e) hc, slice_apply off hs k j e (hd8 h e) hc]

/-- The row sums of a matrix of weights. -/
theorem rowSum_apply (E : FVec Ideal S512x512 .bf16) (g : Fin 512 → Fin 512 → EReal) (hE : ∀ p j, E (ix2 p j) = g p j)
    (p : Fin 512) (z : Fin 1) : rowSum E (ix2 p z) = ∑ j : Fin 512, g p j := by
  unfold rowSum
  refine (rowsum_apply _ p z).trans (Finset.sum_congr rfl fun j _ => ?_)
  exact hE p j

/-- The weights against column e of head h of the values. -/
theorem wSum_apply (off : ℕ) (hs : S512x512.Slices ![0, off] S512x64) (h : Fin 8) (hoff : off = h.val * 64)
    (E : FVec Ideal S512x512 .bf16) (g : Fin 512 → Fin 512 → EReal) (hE : ∀ p j, E (ix2 p j) = g p j)
    (v : FVec Ideal S512x512 .bf16) (p : Fin 512) (e : Fin 64) :
    wSum off hs E v (ix2 p e) = ∑ j : Fin 512, g p j * m2 v j (hd8 h e) := by
  unfold wSum
  refine (pv_apply _ _ p e).trans (Finset.sum_congr rfl fun j _ => ?_)
  have hc : (hd8 h e).val = off + e.val := by show h.val * 64 + e.val = off + e.val; omega
  rw [hE p j, slice_apply off hs v j e (hd8 h e) hc]

/-- The quotient at (p, e): numerator (p, e) over the row's denominator. -/
theorem quot_apply (o : FVec Ideal S512x64 .f32) (l : FVec Ideal S512x1 .f32) (p : Fin 512) (e : Fin 64) :
    quot o l (ix2 p e) = Ideal.div (o (ix2 p e)) (l (ix2 p (0 : Fin 1))) := by
  unfold quot
  show Ideal.div (o (ix2 p e)) (broadcastTo S512x64 l broadcasts_S512x1_S512x64 (ix2 p e)) = _
  rw [bcol_apply]

/-- One head over two groups of keys, at (p, e). -/
theorem piece_apply (off : ℕ) (hs : S512x512.Slices ![0, off] S512x64) (h : Fin 8) (hoff : off = h.val * 64)
    (qa ka va qb kb vb : FVec Ideal S512x512 .bf16) (p : Fin 512) (e : Fin 64) :
    piece off hs qa ka va qb kb vb (ix2 p e)
      = Ideal.div (aNum (m2 qa) (m2 ka) (m2 va) h p e + aNum (m2 qb) (m2 kb) (m2 vb) h p e)
          (aDen (m2 qa) (m2 ka) h p + aDen (m2 qb) (m2 kb) h p) := by
  unfold piece
  rw [quot_apply]
  show Ideal.div (wSum off hs (expS off hs qa ka) va (ix2 p e) + wSum off hs (expS off hs qb kb) vb (ix2 p e))
    (rowSum (expS off hs qa ka) (ix2 p (0 : Fin 1)) + rowSum (expS off hs qb kb) (ix2 p (0 : Fin 1))) = _
  rw [wSum_apply off hs h hoff _ _ (expS_apply off hs h hoff qa ka) va p e,
    wSum_apply off hs h hoff _ _ (expS_apply off hs h hoff qb kb) vb p e,
    rowSum_apply _ _ (expS_apply off hs h hoff qa ka) p 0, rowSum_apply _ _ (expS_apply off hs h hoff qb kb) p 0]
  rfl

/-- Eight head blocks side by side, times the output projection, at (p, n). -/
theorem rowsOut_apply (wo : FVec Ideal S512x512 .bf16) (x0 x1 x2 x3 x4 x5 x6 x7 : FVec Ideal S512x64 .bf16)
    (f : Fin 8 → Fin 512 → Fin 64 → EReal)
    (h0 : ∀ p e, x0 (ix2 p e) = f 0 p e) (h1 : ∀ p e, x1 (ix2 p e) = f 1 p e) (h2 : ∀ p e, x2 (ix2 p e) = f 2 p e)
    (h3 : ∀ p e, x3 (ix2 p e) = f 3 p e) (h4 : ∀ p e, x4 (ix2 p e) = f 4 p e) (h5 : ∀ p e, x5 (ix2 p e) = f 5 p e)
    (h6 : ∀ p e, x6 (ix2 p e) = f 6 p e) (h7 : ∀ p e, x7 (ix2 p e) = f 7 p e) (p n : Fin 512) :
    rowsOut wo x0 x1 x2 x3 x4 x5 x6 x7 (ix2 p n) = ∑ c : Fin 512, f (headOf8 c) p (inHead8 c) * m2 wo c n := by
  unfold rowsOut
  refine (wo_apply _ _ p n).trans (Finset.sum_congr rfl fun c _ => ?_)
  rw [concat8_apply x0 x1 x2 x3 x4 x5 x6 x7 f h0 h1 h2 h3 h4 h5 h6 h7 p c]

/-- One batch at (p, n): the attention rows over two groups of keys, times the output projection. -/
theorem batchRows_apply (wo qa ka va qb kb vb : FVec Ideal S512x512 .bf16) (p n : Fin 512) :
    batchRows wo qa ka va qb kb vb (ix2 p n)
      = ∑ c : Fin 512, Ideal.div (aNum (m2 qa) (m2 ka) (m2 va) (headOf8 c) p (inHead8 c) + aNum (m2 qb) (m2 kb) (m2 vb) (headOf8 c) p (inHead8 c))
          (aDen (m2 qa) (m2 ka) (headOf8 c) p + aDen (m2 qb) (m2 kb) (headOf8 c) p) * m2 wo c n := by
  unfold batchRows
  exact rowsOut_apply wo _ _ _ _ _ _ _ _
    (fun h p e => Ideal.div (aNum (m2 qa) (m2 ka) (m2 va) h p e + aNum (m2 qb) (m2 kb) (m2 vb) h p e)
      (aDen (m2 qa) (m2 ka) h p + aDen (m2 qb) (m2 kb) h p))
    (piece_apply 0 slices_S512x512_o0_0_S512x64 0 rfl qa ka va qb kb vb)
    (piece_apply 64 slices_S512x512_o0_64_S512x64 1 rfl qa ka va qb kb vb)
    (piece_apply 128 slices_S512x512_o0_128_S512x64 2 rfl qa ka va qb kb vb)
    (piece_apply 192 slices_S512x512_o0_192_S512x64 3 rfl qa ka va qb kb vb)
    (piece_apply 256 slices_S512x512_o0_256_S512x64 4 rfl qa ka va qb kb vb)
    (piece_apply 320 slices_S512x512_o0_320_S512x64 5 rfl qa ka va qb kb vb)
    (piece_apply 384 slices_S512x512_o0_384_S512x64 6 rfl qa ka va qb kb vb)
    (piece_apply 448 slices_S512x512_o0_448_S512x64 7 rfl qa ka va qb kb vb) p n

/-- With the same queries in both passes a batch is the split attention of the specification. -/
theorem batchRows_split (wo q ka va kb vb : FVec Ideal S512x512 .bf16) (p n : Fin 512) :
    batchRows wo q ka va q kb vb (ix2 p n) = aOutSplit (m2 q) (m2 ka) (m2 va) (m2 kb) (m2 vb) (m2 wo) p n :=
  batchRows_apply wo q ka va q kb vb p n

/-- The stack at batch 0 and at batch 1. -/
theorem stack_0 (y0 y1 : FVec Ideal S512x512 .f32) (q n : Fin 512) : stack y0 y1 (ix3 (0 : Fin 2) q n) = y0 (ix2 q n) := by
  unfold stack
  exact (stack_apply_0 (shapeCast S1x512x512 y0 shapeCasts_S512x512_S1x512x512) (shapeCast S1x512x512 y1 shapeCasts_S512x512_S1x512x512) q n).trans (up_apply y0 (0 : Fin 1) q n)
theorem stack_1 (y0 y1 : FVec Ideal S512x512 .f32) (q n : Fin 512) : stack y0 y1 (ix3 (1 : Fin 2) q n) = y1 (ix2 q n) := by
  unfold stack
  exact (stack_apply_1 (shapeCast S1x512x512 y0 shapeCasts_S512x512_S1x512x512) (shapeCast S1x512x512 y1 shapeCasts_S512x512_S1x512x512) q n).trans (up_apply y1 (0 : Fin 1) q n)

/-- A send slot at (b, r, n) is the stack at (b, off + r, n). -/
theorem slab_eq (off : ℕ) (hs : S2x512x512.Slices ![0, off, 0] S2x128x512) (Y : FVec Ideal S2x512x512 .bf16)
    (u : Fin 1) (b : Fin 2) (r : Fin 128) (n : Fin 512) (q : Fin 512) (hq : q.val = off + r.val) :
    slab off hs Y (ix4 u b r n) = Y (ix3 b q n) := slab_apply off hs Y u b r n q hq

end Cert.ValPass1

end
-- ==== Proof.ValPass1.lean ====
/-
  The first attention pass and its finalize, read at an index. The pass's stack `Y0` (the composition of the body's
  payloads) is, by unfolding, the generic composition: per batch and head the weights exp(q·k) of the first 512 keys
  and of the last 512, their row sums and their products with the values added, the quotient, the eight heads side by
  side times the block of the output projection, the two batches stacked. The queries are loaded twice, once for each
  group of keys; when both loads return the same block, batch b of the stack is the split attention of the
  specification over that batch's loaded blocks. The four send slots are the stack's slabs of 128 rows.
-/
import proofs.«900761_g7700000000000762_dist_attn_self_mha_htp_ss_b2_sq128_skv128_d512_hq8_dh64_v7x_i8_bf16_1_alg».proof.Proof.ValPass1Defs
import proofs.«900761_g7700000000000762_dist_attn_self_mha_htp_ss_b2_sq128_skv128_d512_hq8_dh64_v7x_i8_bf16_1_alg».proof.Proof.ValPass1Ops

noncomputable section

namespace Cert.ValPass1

open Cert.KernelIdeal Cert.KernelIdeal.Gen Idealize.ShloMosaic Idealize.ShloMosaic.ValueIdx Cert.Spec

/-! ## The payloads' composition is the generic one -/

set_option maxRecDepth 65536 in
/-- The stack as the generic composition over the loaded blocks read as matrices. -/
theorem Y0_eq_form {F : FTy → Type} [FloatOps F] (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) :
    Y0 v137 v323 v325 v327 v409 v411 v413 v612 v614 v616 v714 v716 v718
      = stack (batchRows v137 (k0_pay27 v323) (k0_pay28 v325) (k0_pay29 v327) (k0_pay96 v612) (k0_pay97 v614) (k0_pay98 v616))
      (batchRows v137 (k0_pay55 v409) (k0_pay56 v411) (k0_pay57 v413) (k0_pay123 v714) (k0_pay124 v716) (k0_pay125 v718)) := rfl

/-- A loaded block read as a matrix, by row and column. -/
theorem m2_pay27 (v : Vec Ideal S1x512x512 .bf16) : m2 (k0_pay27 v) = m3 v := m2_cast v
theorem m2_pay28 (v : Vec Ideal S1x512x512 .bf16) : m2 (k0_pay28 v) = m3 v := m2_cast v
theorem m2_pay29 (v : Vec Ideal S1x512x512 .bf16) : m2 (k0_pay29 v) = m3 v := m2_cast v
theorem m2_pay55 (v : Vec Ideal S1x512x512 .bf16) : m2 (k0_pay55 v) = m3 v := m2_cast v
theorem m2_pay56 (v : Vec Ideal S1x512x512 .bf16) : m2 (k0_pay56 v) = m3 v := m2_cast v
theorem m2_pay57 (v : Vec Ideal S1x512x512 .bf16) : m2 (k0_pay57 v) = m3 v := m2_cast v
theorem m2_pay97 (v : Vec Ideal S1x512x512 .bf16) : m2 (k0_pay97 v) = m3 v := m2_cast v
theorem m2_pay98 (v : Vec Ideal S1x512x512 .bf16) : m2 (k0_pay98 v) = m3 v := m2_cast v
theorem m2_pay124 (v : Vec Ideal S1x512x512 .bf16) : m2 (k0_pay124 v) = m3 v := m2_cast v
theorem m2_pay125 (v : Vec Ideal S1x512x512 .bf16) : m2 (k0_pay125 v) = m3 v := m2_cast v

/-! ## The stack at an index -/

/-- Batch 0 of the stack: the split attention of the queries v323 over the keys and values v325, v327 and v614, v616,
    times the block v137 of the output projection (the second load of the queries returning the first's block). -/
theorem Y0_apply_0 (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (hq : v612 = v323) (q n : Fin 512) :
    Y0 (F := Ideal) v137 v323 v325 v327 v409 v411 v413 v612 v614 v616 v714 v716 v718 (ix3 (0 : Fin 2) q n)
      = aOutSplit (fun p c => v323 (ix3 (0 : Fin 1) p c)) (fun p c => v325 (ix3 (0 : Fin 1) p c)) (fun p c => v327 (ix3 (0 : Fin 1) p c))
          (fun p c => v614 (ix3 (0 : Fin 1) p c)) (fun p c => v616 (ix3 (0 : Fin 1) p c)) (fun c n => v137 (ix2 c n)) q n := by
  subst hq
  rw [Y0_eq_form, stack_0]
  refine (batchRows_split v137 (k0_pay27 v612) (k0_pay28 v325) (k0_pay29 v327) (k0_pay97 v614) (k0_pay98 v616) q n).trans ?_
  rw [m2_pay27, m2_pay28, m2_pay29, m2_pay97, m2_pay98]

/-- Batch 1 of the stack, likewise over v409, v411, v413 and v716, v718. -/
theorem Y0_apply_1 (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (hq : v714 = v409) (q n : Fin 512) :
    Y0 (F := Ideal) v137 v323 v325 v327 v409 v411 v413 v612 v614 v616 v714 v716 v718 (ix3 (1 : Fin 2) q n)
      = aOutSplit (fun p c => v409 (ix3 (0 : Fin 1) p c)) (fun p c => v411 (ix3 (0 : Fin 1) p c)) (fun p c => v413 (ix3 (0 : Fin 1) p c))
          (fun p c => v716 (ix3 (0 : Fin 1) p c)) (fun p c => v718 (ix3 (0 : Fin 1) p c)) (fun c n => v137 (ix2 c n)) q n := by
  subst hq
  rw [Y0_eq_form, stack_1]
  refine (batchRows_split v137 (k0_pay55 v714) (k0_pay56 v411) (k0_pay57 v413) (k0_pay124 v716) (k0_pay125 v718) q n).trans ?_
  rw [m2_pay55, m2_pay56, m2_pay57, m2_pay124, m2_pay125]

/-! ## The send slots -/

/-- Send slot 0 is the slab of rows 0..127 of the stack. -/
theorem slot0_eq_slab {F : FTy → Type} [FloatOps F] (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) :
    slot0 v137 v323 v325 v327 v409 v411 v413 v612 v614 v616 v714 v716 v718 = slab 0 slices_S2x512x512_o0_0_0_S2x128x512 (Y0 v137 v323 v325 v327 v409 v411 v413 v612 v614 v616 v714 v716 v718) := rfl

/-- Send slot 0 at (b, r, n) is the stack at (b, 0 + r, n). -/
theorem slot0_apply (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (u : Fin 1) (b : Fin 2) (r : Fin 128) (n : Fin 512) :
    slot0 (F := Ideal) v137 v323 v325 v327 v409 v411 v413 v612 v614 v616 v714 v716 v718 (ix4 u b r n)
      = Y0 (F := Ideal) v137 v323 v325 v327 v409 v411 v413 v612 v614 v616 v714 v716 v718 (ix3 b (⟨0 + r.val, by have := r.isLt; omega⟩ : Fin 512) n) := by
  rw [slot0_eq_slab]
  exact slab_eq 0 slices_S2x512x512_o0_0_0_S2x128x512 _ u b r n _ rfl

/-- Send slot 1 is the slab of rows 128..255 of the stack. -/
theorem slot1_eq_slab {F : FTy → Type} [FloatOps F] (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) :
    slot1 v137 v323 v325 v327 v409 v411 v413 v612 v614 v616 v714 v716 v718 = slab 128 slices_S2x512x512_o0_128_0_S2x128x512 (Y0 v137 v323 v325 v327 v409 v411 v413 v612 v614 v616 v714 v716 v718) := rfl

/-- Send slot 1 at (b, r, n) is the stack at (b, 128 + r, n). -/
theorem slot1_apply (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (u : Fin 1) (b : Fin 2) (r : Fin 128) (n : Fin 512) :
    slot1 (F := Ideal) v137 v323 v325 v327 v409 v411 v413 v612 v614 v616 v714 v716 v718 (ix4 u b r n)
      = Y0 (F := Ideal) v137 v323 v325 v327 v409 v411 v413 v612 v614 v616 v714 v716 v718 (ix3 b (⟨128 + r.val, by have := r.isLt; omega⟩ : Fin 512) n) := by
  rw [slot1_eq_slab]
  exact slab_eq 128 slices_S2x512x512_o0_128_0_S2x128x512 _ u b r n _ rfl

/-- Send slot 2 is the slab of rows 256..383 of the stack. -/
theorem slot2_eq_slab {F : FTy → Type} [FloatOps F] (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) :
    slot2 v137 v323 v325 v327 v409 v411 v413 v612 v614 v616 v714 v716 v718 = slab 256 slices_S2x512x512_o0_256_0_S2x128x512 (Y0 v137 v323 v325 v327 v409 v411 v413 v612 v614 v616 v714 v716 v718) := rfl

/-- Send slot 2 at (b, r, n) is the stack at (b, 256 + r, n). -/
theorem slot2_apply (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (u : Fin 1) (b : Fin 2) (r : Fin 128) (n : Fin 512) :
    slot2 (F := Ideal) v137 v323 v325 v327 v409 v411 v413 v612 v614 v616 v714 v716 v718 (ix4 u b r n)
      = Y0 (F := Ideal) v137 v323 v325 v327 v409 v411 v413 v612 v614 v616 v714 v716 v718 (ix3 b (⟨256 + r.val, by have := r.isLt; omega⟩ : Fin 512) n) := by
  rw [slot2_eq_slab]
  exact slab_eq 256 slices_S2x512x512_o0_256_0_S2x128x512 _ u b r n _ rfl

/-- Send slot 3 is the slab of rows 384..511 of the stack. -/
theorem slot3_eq_slab {F : FTy → Type} [FloatOps F] (v137 : FVec F S512x512 .bf16) (v323 : Vec F S1x512x512 .bf16) (v325 : Vec F S1x512x512 .bf16) (v327 : Vec F S1x512x512 .bf16) (v409 : Vec F S1x512x512 .bf16) (v411 : Vec F S1x512x512 .bf16) (v413 : Vec F S1x512x512 .bf16) (v612 : Vec F S1x512x512 .bf16) (v614 : Vec F S1x512x512 .bf16) (v616 : Vec F S1x512x512 .bf16) (v714 : Vec F S1x512x512 .bf16) (v716 : Vec F S1x512x512 .bf16) (v718 : Vec F S1x512x512 .bf16) :
    slot3 v137 v323 v325 v327 v409 v411 v413 v612 v614 v616 v714 v716 v718 = slab 384 slices_S2x512x512_o0_384_0_S2x128x512 (Y0 v137 v323 v325 v327 v409 v411 v413 v612 v614 v616 v714 v716 v718) := rfl

/-- Send slot 3 at (b, r, n) is the stack at (b, 384 + r, n). -/
theorem slot3_apply (v137 : FVec Ideal S512x512 .bf16) (v323 : Vec Ideal S1x512x512 .bf16) (v325 : Vec Ideal S1x512x512 .bf16) (v327 : Vec Ideal S1x512x512 .bf16) (v409 : Vec Ideal S1x512x512 .bf16) (v411 : Vec Ideal S1x512x512 .bf16) (v413 : Vec Ideal S1x512x512 .bf16) (v612 : Vec Ideal S1x512x512 .bf16) (v614 : Vec Ideal S1x512x512 .bf16) (v616 : Vec Ideal S1x512x512 .bf16) (v714 : Vec Ideal S1x512x512 .bf16) (v716 : Vec Ideal S1x512x512 .bf16) (v718 : Vec Ideal S1x512x512 .bf16)
    (u : Fin 1) (b : Fin 2) (r : Fin 128) (n : Fin 512) :
    slot3 (F := Ideal) v137 v323 v325 v327 v409 v411 v413 v612 v614 v616 v714 v716 v718 (ix4 u b r n)
      = Y0 (F := Ideal) v137 v323 v325 v327 v409 v411 v413 v612 v614 v616 v714 v716 v718 (ix3 b (⟨384 + r.val, by have := r.isLt; omega⟩ : Fin 512) n) := by
  rw [slot3_eq_slab]
  exact slab_eq 384 slices_S2x512x512_o0_384_0_S2x128x512 _ u b r n _ rfl

end Cert.ValPass1

end
-- ==== Proof.ValPass2Lib.lean ====
/-
  The operations of one attention pass over 384 query rows and 1024 key rows, each read at an index over the extended reals.

  A product of a 384 × 64 block with the transpose of a 1024 × 64 block is the sum over the 64 shared columns; the
  exponential is taken entry by entry; the row sums form a 384 × 1 column; the product with a 1024 × 64 block of values
  is the sum over the 1024 keys; a head's quotient divides each entry of its 384 × 64 block by its row's sum; eight
  such blocks side by side form the 384 × 512 attention rows (column c lies in block c / 64 at place c % 64), whose
  product with the 512 × 512 block of the output projection is the sum over the 512 columns; two such results stacked
  form the 2 × 384 × 512 array, which is cut along its rows into three 2 × 128 × 512 blocks.
-/
import proofs.«900761_g7700000000000762_dist_attn_self_mha_htp_ss_b2_sq128_skv128_d512_hq8_dh64_v7x_i8_bf16_1_alg».proof.Proof.Gen.KernelIdeal.Skeleton
import proofs.«900761_g7700000000000762_dist_attn_self_mha_htp_ss_b2_sq128_skv128_d512_hq8_dh64_v7x_i8_bf16_1_alg».proof.Proof.SpecAttn
import proofs.«900761_g7700000000000762_dist_attn_self_mha_htp_ss_b2_sq128_skv128_d512_hq8_dh64_v7x_i8_bf16_1_alg».proof.Proof.LibPlainDot
import Idealize.ShloMosaic.Lib.ValueIdx
import Idealize.ShloMosaic.Lib.ValueLayout
import Idealize.ShloMosaic.PureOps.Ideal.Laws

noncomputable section

namespace Cert.ValPass2

open Idealize.ShloMosaic Idealize.ShloMosaic.ValueIdx Cert.KernelIdeal Cert.KernelIdeal.Gen Cert.Spec

/-! ## A product with the right operand transposed -/

section TransposedDot

variable (M K N : Nat)

theorem tcontr_rank : (DotDims.transposedRhs M K N).contr.rank = 1 := rfl
theorem tcontr_size : (DotDims.transposedRhs M K N).contr.size ⟨0, by rw [tcontr_rank]; exact Nat.one_pos⟩ = K := rfl

/-- The contraction index of an M × K by (N × K)ᵀ product is its one coordinate, the shared column. -/
abbrev tkEquiv : (DotDims.transposedRhs M K N).contr.Idx ≃ Fin K :=
  contrEquiv1 (DotDims.transposedRhs M K N) K (tcontr_rank M K N) (tcontr_size M K N)

/-- The left operand is read at (row of the result, k). -/
theorem tlhsIdx_eq (j : (⟨2, ![M, N]⟩ : Shape).Idx) (k : Fin K) :
    (DotDims.transposedRhs M K N).lhsIdx j ((tkEquiv M K N).symm k) = ix2 (j 0) k := by
  funext a
  apply Fin.ext
  match a with
  | ⟨0, _⟩ => rfl
  | ⟨1, _⟩ =>
    exact ((DotDims.transposedRhs M K N).lhsIdx_val_of_single (cl := 1) rfl j _).trans
      (contrEquiv1_symm_val (DotDims.transposedRhs M K N) K (tcontr_rank M K N) (tcontr_size M K N) k)

/-- The right operand is read at (column of the result, k). -/
theorem trhsIdx_eq (j : (⟨2, ![M, N]⟩ : Shape).Idx) (k : Fin K) :
    (DotDims.transposedRhs M K N).rhsIdx j ((tkEquiv M K N).symm k) = ix2 (j 1) k := by
  funext a
  apply Fin.ext
  match a with
  | ⟨0, _⟩ => rfl
  | ⟨1, _⟩ =>
    exact ((DotDims.transposedRhs M K N).rhsIdx_val_of_single (cr := 1) rfl j _).trans
      (contrEquiv1_symm_val (DotDims.transposedRhs M K N) K (tcontr_rank M K N) (tcontr_size M K N) k)

variable {φ₁ φ₂ : FTy}

/-- The product into the zero accumulator, at (p, q): the sum over k of l (p, k) · r (q, k). -/
theorem matmulT_zero_apply (prec : Option ContractPrecision) (l : FVec Ideal ⟨2, ![M, K]⟩ φ₁) (r : FVec Ideal ⟨2, ![N, K]⟩ φ₂)
    (p : Fin M) (q : Fin N) :
    matmul (DotDims.transposedRhs M K N) prec l r (constant ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (tkEquiv M K N).symm]
  exact Finset.sum_congr rfl fun k _ =>
    congrArg₂ (· * ·) (congrArg l (tlhsIdx_eq M K N (ix2 p q) k)) (congrArg r (trhsIdx_eq M K N (ix2 p q) k))

end TransposedDot

/-! ## The pass's own dimension numbers are the general ones -/

theorem dotT_eq : dot_S384x64_S1024x64_S384x1024_1_1_0_0_n_n = DotDims.transposedRhs 384 64 1024 := rfl
theorem dotPV_eq : dot_S384x1024_S1024x64_S384x64_1_0_0_1_n_n = DotDims.plain 384 1024 64 := rfl
theorem dotWo_eq : dot_S384x512_S512x512_S384x512_1_0_0_1_n_n = DotDims.plain 384 512 512 := rfl

/-! ## The operations of one head -/

/-- The 64 columns of head h of a row of 512: a block cut along the columns from 64·h reads column 64·h + e. -/
theorem colSlice_apply {R : Nat} (o : Nat) (v : FVec Ideal ⟨2, ![R, 512]⟩ .bf16)
    (hs : (⟨2, ![R, 512]⟩ : Shape).Slices ![0, o] ⟨2, ![R, 64]⟩) (h : Fin 8) (ho : o = h.val * 64) (p : Fin R) (e : Fin 64) :
    extractStridedSlice ⟨2, ![R, 64]⟩ ![0, o] v hs (ix2 p e) = v (ix2 p (hd8 h e)) :=
  slice2_axis1_apply o v hs p e (hd8 h e) (by rw [ho]; rfl)

/-- The exponentials of the scores of a head: entry (p, j) is exp of the sum over the head's 64 columns. -/
def expScores (qh : FVec Ideal S384x64 .bf16) (kh : FVec Ideal S1024x64 .bf16) : FVec Ideal S384x1024 .bf16 :=
  exp (truncf .bf16 (matmul dot_S384x64_S1024x64_S384x1024_1_1_0_0_n_n none qh kh (constant S384x1024 .f32 0x00000000#32)) bitsLt_bf16_f32)

theorem expScores_apply (qh : FVec Ideal S384x64 .bf16) (kh : FVec Ideal S1024x64 .bf16) (p : Fin 384) (j : Fin 1024) :
    expScores qh kh (ix2 p j) = Ideal.exp (∑ e : Fin 64, qh (ix2 p e) * kh (ix2 j e)) :=
  congrArg Ideal.exp (matmulT_zero_apply 384 64 1024 none qh kh p j)

/-- The row sums of a 384 × 1024 block, as a 384 × 1 column. -/
def rowSums (P : FVec Ideal S384x1024 .bf16) : FVec Ideal S384x1 .f32 :=
  shapeCast S384x1 (multiReduction (F := Ideal) .add [1] S384 (extf .f32 P bitsLt_bf16_f32) 0x00000000#32 reduces_S384x1024_S384 (.inl rfl) rfl)
    shapeCasts_S384_S384x1

theorem rowSums_apply (P : FVec Ideal S384x1024 .bf16) (p : Fin 384) (u : Fin 1) :
    rowSums P (ix2 p u) = ∑ j : Fin 1024, P (ix2 p j) := by
  have hu : u.val = 0 := by omega
  refine (shapeCast_apply _ shapeCasts_S384_S384x1 (ix2 p u) (ix1 p) (by
    rw [Shape.rowMajor_val_two, Shape.rowMajor_val_one]
    show p.val = p.val * 1 + u.val
    rw [hu, Nat.mul_one, Nat.add_zero])).trans ?_
  refine (Ideal.multiReduction_add_single (extf .f32 P bitsLt_bf16_f32) 0x00000000#32 reduces_S384x1024_S384 (.inl rfl) rfl (ix1 p)).trans ?_
  refine Finset.sum_congr rfl fun j _ => ?_
  show P _ = P _
  refine congrArg P (funext fun a => Fin.ext ?_)
  match a with
  | ⟨0, _⟩ => rfl
  | ⟨1, _⟩ => rfl

/-- The product of the exponentials with a 1024 × 64 block of values. -/
def timesV (P : FVec Ideal S384x1024 .bf16) (vh : FVec Ideal S1024x64 .bf16) : FVec Ideal S384x64 .f32 :=
  matmul dot_S384x1024_S1024x64_S384x64_1_0_0_1_n_n none P vh (constant S384x64 .f32 0x00000000#32)

theorem timesV_apply (P : FVec Ideal S384x1024 .bf16) (vh : FVec Ideal S1024x64 .bf16) (p : Fin 384) (e : Fin 64) :
    timesV P vh (ix2 p e) = ∑ j : Fin 1024, P (ix2 p j) * vh (ix2 j e) :=
  PlainDot.matmul_zero_apply 384 1024 64 none P vh p e

/-- A head's block divided, row by row, by its column of row sums. -/
def headQuot (l : FVec Ideal S384x1 .f32) (o : FVec Ideal S384x64 .f32) : FVec Ideal S384x64 .bf16 :=
  truncf .bf16 (divf o (broadcastTo S384x64 l broadcasts_S384x1_S384x64)) bitsLt_bf16_f32

theorem headQuot_apply (l : FVec Ideal S384x1 .f32) (o : FVec Ideal S384x64 .f32) (p : Fin 384) (e : Fin 64) :
    headQuot l o (ix2 p e) = Ideal.div (o (ix2 p e)) (l (ix2 p (0 : Fin 1))) := by
  show Ideal.div (o (ix2 p e)) (broadcastTo S384x64 l broadcasts_S384x1_S384x64 (ix2 p e)) = _
  refine congrArg (Ideal.div (o (ix2 p e))) (broadcastTo_apply l broadcasts_S384x1_S384x64 (ix2 p e) (ix2 p (0 : Fin 1)) fun a => ?_)
  match a with
  | ⟨0, _⟩ =>
    show p.val = if (384 : ℕ) = 1 then 0 else p.val
    rw [if_neg (by decide)]
  | ⟨1, _⟩ =>
    show (0 : ℕ) = if (1 : ℕ) = 1 then 0 else e.val
    rw [if_pos rfl]

/-! ## A head from the 512-column blocks of queries, keys and values -/

section Head

variable (o : Nat) (hsq : S384x512.Slices ![0, o] S384x64) (hsk : S1024x512.Slices ![0, o] S1024x64) (h : Fin 8) (ho : o = h.val * 64)
variable (q2 : FVec Ideal S384x512 .bf16) (k2 v2 : FVec Ideal S1024x512 .bf16)
variable (Q : Fin 384 → Fin 512 → EReal) (K V : Fin 1024 → Fin 512 → EReal)
variable (hQ : ∀ p c, q2 (ix2 p c) = Q p c) (hK : ∀ j c, k2 (ix2 j c) = K j c) (hV : ∀ j c, v2 (ix2 j c) = V j c)

include ho hQ hK in
/-- The exponential of the score of query row p against key row j in head h. -/
theorem headP_apply (p : Fin 384) (j : Fin 1024) :
    expScores (extractStridedSlice S384x64 ![0, o] q2 hsq) (extractStridedSlice S1024x64 ![0, o] k2 hsk) (ix2 p j)
      = Ideal.exp (aScore Q K h p j) := by
  rw [expScores_apply]
  refine congrArg Ideal.exp (Finset.sum_congr rfl fun e _ => ?_)
  rw [colSlice_apply o q2 hsq h ho, colSlice_apply o k2 hsk h ho, hQ, hK]

include ho hQ hK in
/-- The head's column of row sums is the sum of the exponentials over all keys. -/
theorem headL_apply (p : Fin 384) (u : Fin 1) :
    rowSums (expScores (extractStridedSlice S384x64 ![0, o] q2 hsq) (extractStridedSlice S1024x64 ![0, o] k2 hsk)) (ix2 p u)
      = aDen Q K h p := by
  rw [rowSums_apply]
  exact Finset.sum_congr rfl fun j _ => headP_apply o hsq hsk h ho q2 k2 Q K hQ hK p j

include ho hQ hK hV in
/-- The head's block is the sum over all keys of the exponential times the value. -/
theorem headO_apply (p : Fin 384) (e : Fin 64) :
    timesV (expScores (extractStridedSlice S384x64 ![0, o] q2 hsq) (extractStridedSlice S1024x64 ![0, o] k2 hsk))
        (extractStridedSlice S1024x64 ![0, o] v2 hsk) (ix2 p e)
      = aNum Q K V h p e := by
  rw [timesV_apply]
  refine Finset.sum_congr rfl fun j _ => ?_
  rw [headP_apply o hsq hsk h ho q2 k2 Q K hQ hK p j, colSlice_apply o v2 hsk h ho, hV]

end Head

end Cert.ValPass2

end
-- ==== Proof.ValPass2.lean ====
/-
  The second attention pass and its finalize, read at an index over the extended reals.

  Query rows 640..1023 of a batch (a 384 × 512 block Q) meet all 1024 key rows (K) and value rows (V). For head h the
  pass forms the 384 × 1 column of sums over the keys of exp (score) and the 384 × 64 block of sums of exp (score) ·
  value; the finalize divides each block by its column, sets the eight quotients side by side into the 384 × 512
  attention rows, multiplies by the 512 × 512 block of the output projection, and stacks the two batches. At batch b,
  row q and column n the stacked result is Σ_c att_b (q, c) · wo (c, n), the attention row being the quotient of the
  sums over all keys; the three blocks sent are its rows 0..127, 128..255 and 256..383.
-/
import proofs.«900761_g7700000000000762_dist_attn_self_mha_htp_ss_b2_sq128_skv128_d512_hq8_dh64_v7x_i8_bf16_1_alg».proof.Proof.ValPass2Lib
import proofs.«900761_g7700000000000762_dist_attn_self_mha_htp_ss_b2_sq128_skv128_d512_hq8_dh64_v7x_i8_bf16_1_alg».proof.Proof.ValPass2Defs

noncomputable section

namespace Cert.ValPass2

open Idealize.ShloMosaic Idealize.ShloMosaic.ValueIdx Cert.KernelIdeal Cert.KernelIdeal.Gen Cert.Spec

/-- A loaded 1 × R × 512 block as a function of its row and column. -/
def rows3 {R : Nat} (v : Vec Ideal ⟨3, ![1, R, 512]⟩ .bf16) : Fin R → Fin 512 → EReal := fun p c => v (ix3 (0 : Fin 1) p c)

/-- A 512 × 512 block as a function of its row and column. -/
def mat2 (w : FVec Ideal S512x512 .bf16) : Fin 512 → Fin 512 → EReal := fun c n => w (ix2 c n)

/-- Dropping the leading unit axis of a loaded block keeps its rows and columns. -/
theorem cast2_apply {R : Nat} (v : Vec Ideal ⟨3, ![1, R, 512]⟩ .bf16) (hc : (⟨3, ![1, R, 512]⟩ : Shape).ShapeCasts ⟨2, ![R, 512]⟩)
    (p : Fin R) (c : Fin 512) : shapeCast ⟨2, ![R, 512]⟩ v hc (ix2 p c) = rows3 v p c :=
  shapeCast_1ab_ab_apply v hc p c

/-! ## Eight 384 × 64 blocks side by side -/

/-- Column c of eight 384 × 64 blocks set side by side lies in block c / 64 at place c % 64. -/
theorem concat8_apply (a0 a1 a2 a3 a4 a5 a6 a7 : FVec Ideal S384x64 .bf16) (g : Fin 8 → Fin 384 → Fin 64 → EReal)
    (h0 : ∀ p e, a0 (ix2 p e) = g 0 p e) (h1 : ∀ p e, a1 (ix2 p e) = g 1 p e) (h2 : ∀ p e, a2 (ix2 p e) = g 2 p e)
    (h3 : ∀ p e, a3 (ix2 p e) = g 3 p e) (h4 : ∀ p e, a4 (ix2 p e) = g 4 p e) (h5 : ∀ p e, a5 (ix2 p e) = g 5 p e)
    (h6 : ∀ p e, a6 (ix2 p e) = g 6 p e) (h7 : ∀ p e, a7 (ix2 p e) = g 7 p e) (p : Fin 384) (c : Fin 512) :
    concatenate S384x512 1 [⟨S384x64, a0⟩, ⟨S384x64, a1⟩, ⟨S384x64, a2⟩, ⟨S384x64, a3⟩, ⟨S384x64, a4⟩, ⟨S384x64, a5⟩, ⟨S384x64, a6⟩, ⟨S384x64, a7⟩]
        concatenates_S384x64_S384x64_S384x64_S384x64_S384x64_S384x64_S384x64_S384x64_S384x512_d1 (ix2 p c)
      = g (headOf8 c) p (inHead8 c) := by
  have hi : ∀ b : Fin S384x64.rank, b.cast (rfl : S384x64.rank = S384x512.rank) ≠ (1 : Fin S384x512.rank) →
      ((ix2 p (inHead8 c) : S384x64.Idx) b).val = ((ix2 p c : S384x512.Idx) (b.cast rfl)).val := by
    intro b hb
    match b with
    | ⟨0, _⟩ => rfl
    | ⟨1, _⟩ => exact absurd rfl hb
  obtain ⟨k, hk⟩ : ∃ k : Fin 8, headOf8 c = k := ⟨_, rfl⟩
  have hkv : c.val / 64 = k.val := congrArg Fin.val hk
  rw [hk]
  fin_cases k
  · have hc : c.val / 64 = 0 := hkv
    exact (concatenate_apply_piece 1 _ _ (ix2 p c) 0 (by show (0 : ℕ) < 8; decide) S384x64 a0 rfl rfl 0 rfl (ix2 p (inHead8 c)) hi
      (by show 0 + c.val % 64 = c.val; omega)).trans (h0 p (inHead8 c))
  · have hc : c.val / 64 = 1 := hkv
    exact (concatenate_apply_piece 1 _ _ (ix2 p c) 1 (by show (1 : ℕ) < 8; decide) S384x64 a1 rfl rfl 64 rfl (ix2 p (inHead8 c)) hi
      (by show 64 + c.val % 64 = c.val; omega)).trans (h1 p (inHead8 c))
  · have hc : c.val / 64 = 2 := hkv
    exact (concatenate_apply_piece 1 _ _ (ix2 p c) 2 (by show (2 : ℕ) < 8; decide) S384x64 a2 rfl rfl 128 rfl (ix2 p (inHead8 c)) hi
      (by show 128 + c.val % 64 = c.val; omega)).trans (h2 p (inHead8 c))
  · have hc : c.val / 64 = 3 := hkv
    exact (concatenate_apply_piece 1 _ _ (ix2 p c) 3 (by show (3 : ℕ) < 8; decide) S384x64 a3 rfl rfl 192 rfl (ix2 p (inHead8 c)) hi
      (by show 192 + c.val % 64 = c.val; omega)).trans (h3 p (inHead8 c))
  · have hc : c.val / 64 = 4 := hkv
    exact (concatenate_apply_piece 1 _ _ (ix2 p c) 4 (by show (4 : ℕ) < 8; decide) S384x64 a4 rfl rfl 256 rfl (ix2 p (inHead8 c)) hi
      (by show 256 + c.val % 64 = c.val; omega)).trans (h4 p (inHead8 c))
  · have hc : c.val / 64 = 5 := hkv
    exact (concatenate_apply_piece 1 _ _ (ix2 p c) 5 (by show (5 : ℕ) < 8; decide) S384x64 a5 rfl rfl 320 rfl (ix2 p (inHead8 c)) hi
      (by show 320 + c.val % 64 = c.val; omega)).trans (h5 p (inHead8 c))
  · have hc : c.val / 64 = 6 := hkv
    exact (concatenate_apply_piece 1 _ _ (ix2 p c) 6 (by show (6 : ℕ) < 8; decide) S384x64 a6 rfl rfl 384 rfl (ix2 p (inHead8 c)) hi
      (by show 384 + c.val % 64 = c.val; omega)).trans (h6 p (inHead8 c))
  · have hc : c.val / 64 = 7 := hkv
    exact (concatenate_apply_piece 1 _ _ (ix2 p c) 7 (by show (7 : ℕ) < 8; decide) S384x64 a7 rfl rfl 448 rfl (ix2 p (inHead8 c)) hi
      (by show 448 + c.val % 64 = c.val; omega)).trans (h7 p (inHead8 c))

/-! ## The attention rows and their product with the output projection -/

section Finalize

variable (l0 l1 l2 l3 l4 l5 l6 l7 : FVec Ideal S384x1 .f32) (o0 o1 o2 o3 o4 o5 o6 o7 : FVec Ideal S384x64 .f32)
variable (Q : Fin 384 → Fin 512 → EReal) (K V : Fin 1024 → Fin 512 → EReal)
variable (hl0 : ∀ p u, l0 (ix2 p u) = aDen Q K 0 p) (ho0 : ∀ p e, o0 (ix2 p e) = aNum Q K V 0 p e)
variable (hl1 : ∀ p u, l1 (ix2 p u) = aDen Q K 1 p) (ho1 : ∀ p e, o1 (ix2 p e) = aNum Q K V 1 p e)
variable (hl2 : ∀ p u, l2 (ix2 p u) = aDen Q K 2 p) (ho2 : ∀ p e, o2 (ix2 p e) = aNum Q K V 2 p e)
variable (hl3 : ∀ p u, l3 (ix2 p u) = aDen Q K 3 p) (ho3 : ∀ p e, o3 (ix2 p e) = aNum Q K V 3 p e)
variable (hl4 : ∀ p u, l4 (ix2 p u) = aDen Q K 4 p) (ho4 : ∀ p e, o4 (ix2 p e) = aNum Q K V 4 p e)
variable (hl5 : ∀ p u, l5 (ix2 p u) = aDen Q K 5 p) (ho5 : ∀ p e, o5 (ix2 p e) = aNum Q K V 5 p e)
variable (hl6 : ∀ p u, l6 (ix2 p u) = aDen Q K 6 p) (ho6 : ∀ p e, o6 (ix2 p e) = aNum Q K V 6 p e)
variable (hl7 : ∀ p u, l7 (ix2 p u) = aDen Q K 7 p) (ho7 : ∀ p e, o7 (ix2 p e) = aNum Q K V 7 p e)

/-- The eight quotients side by side. -/
def attRows : FVec Ideal S384x512 .bf16 :=
  concatenate S384x512 1 [⟨S384x64, headQuot l0 o0⟩, ⟨S384x64, headQuot l1 o1⟩, ⟨S384x64, headQuot l2 o2⟩, ⟨S384x64, headQuot l3 o3⟩, ⟨S384x64, headQuot l4 o4⟩, ⟨S384x64, headQuot l5 o5⟩, ⟨S384x64, headQuot l6 o6⟩, ⟨S384x64, headQuot l7 o7⟩]
    concatenates_S384x64_S384x64_S384x64_S384x64_S384x64_S384x64_S384x64_S384x64_S384x512_d1

include hl0 ho0 hl1 ho1 hl2 ho2 hl3 ho3 hl4 ho4 hl5 ho5 hl6 ho6 hl7 ho7 in
/-- They are the attention rows over all keys. -/
theorem attRows_apply (p : Fin 384) (c : Fin 512) :
    attRows l0 l1 l2 l3 l4 l5 l6 l7 o0 o1 o2 o3 o4 o5 o6 o7 (ix2 p c) = aAttWhole Q K V p c :=
  concat8_apply _ _ _ _ _ _ _ _ (fun h p e => Ideal.div (aNum Q K V h p e) (aDen Q K h p))
    (fun p e => by rw [headQuot_apply, ho0, hl0])
    (fun p e => by rw [headQuot_apply, ho1, hl1])
    (fun p e => by rw [headQuot_apply, ho2, hl2])
    (fun p e => by rw [headQuot_apply, ho3, hl3])
    (fun p e => by rw [headQuot_apply, ho4, hl4])
    (fun p e => by rw [headQuot_apply, ho5, hl5])
    (fun p e => by rw [headQuot_apply, ho6, hl6])
    (fun p e => by rw [headQuot_apply, ho7, hl7])
    p c

/-- The product of 384 × 512 attention rows with the 512 × 512 block of the output projection. -/
def outProj (att : FVec Ideal S384x512 .bf16) (wo : FVec Ideal S512x512 .bf16) : FVec Ideal S384x512 .f32 :=
  matmul dot_S384x512_S512x512_S384x512_1_0_0_1_n_n none att wo (constant S384x512 .f32 0x00000000#32)

theorem outProj_apply (att : FVec Ideal S384x512 .bf16) (wo : FVec Ideal S512x512 .bf16) (q : Fin 384) (n : Fin 512) :
    outProj att wo (ix2 q n) = ∑ c : Fin 512, att (ix2 q c) * wo (ix2 c n) :=
  PlainDot.matmul_zero_apply 384 512 512 none att wo q n

include hl0 ho0 hl1 ho1 hl2 ho2 hl3 ho3 hl4 ho4 hl5 ho5 hl6 ho6 hl7 ho7 in
/-- One batch's result: the attention rows over all keys times the block of the output projection. -/
theorem outProj_attRows_apply (wo : FVec Ideal S512x512 .bf16) (q : Fin 384) (n : Fin 512) :
    outProj (attRows l0 l1 l2 l3 l4 l5 l6 l7 o0 o1 o2 o3 o4 o5 o6 o7) wo (ix2 q n) = aOutWhole Q K V (mat2 wo) q n := by
  rw [outProj_apply]
  refine Finset.sum_congr rfl fun c _ => ?_
  rw [attRows_apply l0 l1 l2 l3 l4 l5 l6 l7 o0 o1 o2 o3 o4 o5 o6 o7 Q K V hl0 ho0 hl1 ho1 hl2 ho2 hl3 ho3 hl4 ho4 hl5 ho5 hl6 ho6 hl7 ho7 q c]
  rfl

end Finalize

/-! ## Two results stacked, and the row blocks of the stack -/

/-- Two 384 × 512 results stacked along a new leading axis. -/
def stack2 (y0 y1 : FVec Ideal S384x512 .f32) : FVec Ideal S2x384x512 .bf16 :=
  truncf .bf16 (concatenate S2x384x512 0 [⟨S1x384x512, shapeCast S1x384x512 y0 shapeCasts_S384x512_S1x384x512⟩,
      ⟨S1x384x512, shapeCast S1x384x512 y1 shapeCasts_S384x512_S1x384x512⟩] concatenates_S1x384x512_S1x384x512_S2x384x512_d0)
    bitsLt_bf16_f32

private theorem stack_hi (b : Fin 2) (q : Fin 384) (n : Fin 512) :
    ∀ a : Fin S1x384x512.rank, a.cast (rfl : S1x384x512.rank = S2x384x512.rank) ≠ (0 : Fin S2x384x512.rank) →
      ((ix3 (0 : Fin 1) q n : S1x384x512.Idx) a).val = ((ix3 b q n : S2x384x512.Idx) (a.cast rfl)).val := by
  intro a ha
  match a with
  | ⟨0, _⟩ => exact absurd rfl ha
  | ⟨1, _⟩ => rfl
  | ⟨2, _⟩ => rfl

theorem stack2_apply0 (y0 y1 : FVec Ideal S384x512 .f32) (q : Fin 384) (n : Fin 512) :
    stack2 y0 y1 (ix3 (0 : Fin 2) q n) = y0 (ix2 q n) := by
  show concatenate S2x384x512 0 [⟨S1x384x512, shapeCast S1x384x512 y0 shapeCasts_S384x512_S1x384x512⟩,
      ⟨S1x384x512, shapeCast S1x384x512 y1 shapeCasts_S384x512_S1x384x512⟩] concatenates_S1x384x512_S1x384x512_S2x384x512_d0 (ix3 (0 : Fin 2) q n) = _
  exact (concatenate_apply_piece 0 [⟨S1x384x512, shapeCast S1x384x512 y0 shapeCasts_S384x512_S1x384x512⟩,
      ⟨S1x384x512, shapeCast S1x384x512 y1 shapeCasts_S384x512_S1x384x512⟩] concatenates_S1x384x512_S1x384x512_S2x384x512_d0 (ix3 (0 : Fin 2) q n) 0 (by show (0 : ℕ) < 2; decide) S1x384x512
    (shapeCast S1x384x512 y0 shapeCasts_S384x512_S1x384x512) rfl rfl 0 rfl (ix3 (0 : Fin 1) q n)
    (stack_hi 0 q n) rfl).trans (shapeCast_ab_1ab_apply y0 shapeCasts_S384x512_S1x384x512 0 q n)

theorem stack2_apply1 (y0 y1 : FVec Ideal S384x512 .f32) (q : Fin 384) (n : Fin 512) :
    stack2 y0 y1 (ix3 (1 : Fin 2) q n) = y1 (ix2 q n) := by
  show concatenate S2x384x512 0 [⟨S1x384x512, shapeCast S1x384x512 y0 shapeCasts_S384x512_S1x384x512⟩,
      ⟨S1x384x512, shapeCast S1x384x512 y1 shapeCasts_S384x512_S1x384x512⟩] concatenates_S1x384x512_S1x384x512_S2x384x512_d0 (ix3 (1 : Fin 2) q n) = _
  exact (concatenate_apply_piece 0 [⟨S1x384x512, shapeCast S1x384x512 y0 shapeCasts_S384x512_S1x384x512⟩,
      ⟨S1x384x512, shapeCast S1x384x512 y1 shapeCasts_S384x512_S1x384x512⟩] concatenates_S1x384x512_S1x384x512_S2x384x512_d0 (ix3 (1 : Fin 2) q n) 1 (by show (1 : ℕ) < 2; decide) S1x384x512
    (shapeCast S1x384x512 y1 shapeCasts_S384x512_S1x384x512) rfl rfl 1 rfl (ix3 (0 : Fin 1) q n)
    (stack_hi 1 q n) rfl).trans (shapeCast_ab_1ab_apply y1 shapeCasts_S384x512_S1x384x512 0 q n)

/-- A block of 128 rows of the stack, from row o, with a leading unit axis: it reads row o + r. -/
theorem rowBlock_apply (o : Nat) (Y : FVec Ideal S2x384x512 .bf16) (hs : S2x384x512.Slices ![0, o, 0] S2x128x512)
    (u : Fin 1) (b : Fin 2) (r : Fin 128) (n : Fin 512) (k : Fin 384) (hk : k.val = o + r.val) :
    shapeCast S1x2x128x512 (extractStridedSlice S2x128x512 ![0, o, 0] Y hs) shapeCasts_S2x128x512_S1x2x128x512 (ix4 u b r n)
      = Y (ix3 b k n) :=
  (shapeCast_abc_1abc_apply _ shapeCasts_S2x128x512_S1x2x128x512 u b r n).trans (slice3_axis1_apply o Y hs b r n k hk)

/-! ## The pass on the loaded vectors -/

section Pass

variable (v137 : FVec Ideal S512x512 .bf16)
variable (v940 : Vec Ideal S1x384x512 .bf16) (v942 v944 : Vec Ideal S1x1024x512 .bf16)
variable (v1026 : Vec Ideal S1x384x512 .bf16) (v1028 v1030 : Vec Ideal S1x1024x512 .bf16)

/-! ## Batch 0: each head's column of row sums and block, at an index -/

theorem L0_0_apply (p : Fin 384) (u : Fin 1) :
    L0_0 v940 v942 (ix2 p u) = aDen (rows3 v940) (rows3 v942) 0 p :=
  headL_apply 0 slices_S384x512_o0_0_S384x64 slices_S1024x512_o0_0_S1024x64 0 rfl (k0_pay162 v940) (k0_pay163 v942) (rows3 v940) (rows3 v942)
    (cast2_apply v940 _) (cast2_apply v942 _) p u

theorem O0_0_apply (p : Fin 384) (e : Fin 64) :
    O0_0 v940 v942 v944 (ix2 p e) = aNum (rows3 v940) (rows3 v942) (rows3 v944) 0 p e :=
  headO_apply 0 slices_S384x512_o0_0_S384x64 slices_S1024x512_o0_0_S1024x64 0 rfl (k0_pay162 v940) (k0_pay163 v942) (k0_pay164 v944) (rows3 v940) (rows3 v942) (rows3 v944)
    (cast2_apply v940 _) (cast2_apply v942 _) (cast2_apply v944 _) p e

theorem L0_1_apply (p : Fin 384) (u : Fin 1) :
    L0_1 v940 v942 (ix2 p u) = aDen (rows3 v940) (rows3 v942) 1 p :=
  headL_apply 64 slices_S384x512_o0_64_S384x64 slices_S1024x512_o0_64_S1024x64 1 rfl (k0_pay162 v940) (k0_pay163 v942) (rows3 v940) (rows3 v942)
    (cast2_apply v940 _) (cast2_apply v942 _) p u

theorem O0_1_apply (p : Fin 384) (e : Fin 64) :
    O0_1 v940 v942 v944 (ix2 p e) = aNum (rows3 v940) (rows3 v942) (rows3 v944) 1 p e :=
  headO_apply 64 slices_S384x512_o0_64_S384x64 slices_S1024x512_o0_64_S1024x64 1 rfl (k0_pay162 v940) (k0_pay163 v942) (k0_pay164 v944) (rows3 v940) (rows3 v942) (rows3 v944)
    (cast2_apply v940 _) (cast2_apply v942 _) (cast2_apply v944 _) p e

theorem L0_2_apply (p : Fin 384) (u : Fin 1) :
    L0_2 v940 v942 (ix2 p u) = aDen (rows3 v940) (rows3 v942) 2 p :=
  headL_apply 128 slices_S384x512_o0_128_S384x64 slices_S1024x512_o0_128_S1024x64 2 rfl (k0_pay162 v940) (k0_pay163 v942) (rows3 v940) (rows3 v942)
    (cast2_apply v940 _) (cast2_apply v942 _) p u

theorem O0_2_apply (p : Fin 384) (e : Fin 64) :
    O0_2 v940 v942 v944 (ix2 p e) = aNum (rows3 v940) (rows3 v942) (rows3 v944) 2 p e :=
  headO_apply 128 slices_S384x512_o0_128_S384x64 slices_S1024x512_o0_128_S1024x64 2 rfl (k0_pay162 v940) (k0_pay163 v942) (k0_pay164 v944) (rows3 v940) (rows3 v942) (rows3 v944)
    (cast2_apply v940 _) (cast2_apply v942 _) (cast2_apply v944 _) p e

theorem L0_3_apply (p : Fin 384) (u : Fin 1) :
    L0_3 v940 v942 (ix2 p u) = aDen (rows3 v940) (rows3 v942) 3 p :=
  headL_apply 192 slices_S384x512_o0_192_S384x64 slices_S1024x512_o0_192_S1024x64 3 rfl (k0_pay162 v940) (k0_pay163 v942) (rows3 v940) (rows3 v942)
    (cast2_apply v940 _) (cast2_apply v942 _) p u

theorem O0_3_apply (p : Fin 384) (e : Fin 64) :
    O0_3 v940 v942 v944 (ix2 p e) = aNum (rows3 v940) (rows3 v942) (rows3 v944) 3 p e :=
  headO_apply 192 slices_S384x512_o0_192_S384x64 slices_S1024x512_o0_192_S1024x64 3 rfl (k0_pay162 v940) (k0_pay163 v942) (k0_pay164 v944) (rows3 v940) (rows3 v942) (rows3 v944)
    (cast2_apply v940 _) (cast2_apply v942 _) (cast2_apply v944 _) p e

theorem L0_4_apply (p : Fin 384) (u : Fin 1) :
    L0_4 v940 v942 (ix2 p u) = aDen (rows3 v940) (rows3 v942) 4 p :=
  headL_apply 256 slices_S384x512_o0_256_S384x64 slices_S1024x512_o0_256_S1024x64 4 rfl (k0_pay162 v940) (k0_pay163 v942) (rows3 v940) (rows3 v942)
    (cast2_apply v940 _) (cast2_apply v942 _) p u

theorem O0_4_apply (p : Fin 384) (e : Fin 64) :
    O0_4 v940 v942 v944 (ix2 p e) = aNum (rows3 v940) (rows3 v942) (rows3 v944) 4 p e :=
  headO_apply 256 slices_S384x512_o0_256_S384x64 slices_S1024x512_o0_256_S1024x64 4 rfl (k0_pay162 v940) (k0_pay163 v942) (k0_pay164 v944) (rows3 v940) (rows3 v942) (rows3 v944)
    (cast2_apply v940 _) (cast2_apply v942 _) (cast2_apply v944 _) p e

theorem L0_5_apply (p : Fin 384) (u : Fin 1) :
    L0_5 v940 v942 (ix2 p u) = aDen (rows3 v940) (rows3 v942) 5 p :=
  headL_apply 320 slices_S384x512_o0_320_S384x64 slices_S1024x512_o0_320_S1024x64 5 rfl (k0_pay162 v940) (k0_pay163 v942) (rows3 v940) (rows3 v942)
    (cast2_apply v940 _) (cast2_apply v942 _) p u

theorem O0_5_apply (p : Fin 384) (e : Fin 64) :
    O0_5 v940 v942 v944 (ix2 p e) = aNum (rows3 v940) (rows3 v942) (rows3 v944) 5 p e :=
  headO_apply 320 slices_S384x512_o0_320_S384x64 slices_S1024x512_o0_320_S1024x64 5 rfl (k0_pay162 v940) (k0_pay163 v942) (k0_pay164 v944) (rows3 v940) (rows3 v942) (rows3 v944)
    (cast2_apply v940 _) (cast2_apply v942 _) (cast2_apply v944 _) p e

theorem L0_6_apply (p : Fin 384) (u : Fin 1) :
    L0_6 v940 v942 (ix2 p u) = aDen (rows3 v940) (rows3 v942) 6 p :=
  headL_apply 384 slices_S384x512_o0_384_S384x64 slices_S1024x512_o0_384_S1024x64 6 rfl (k0_pay162 v940) (k0_pay163 v942) (rows3 v940) (rows3 v942)
    (cast2_apply v940 _) (cast2_apply v942 _) p u

theorem O0_6_apply (p : Fin 384) (e : Fin 64) :
    O0_6 v940 v942 v944 (ix2 p e) = aNum (rows3 v940) (rows3 v942) (rows3 v944) 6 p e :=
  headO_apply 384 slices_S384x512_o0_384_S384x64 slices_S1024x512_o0_384_S1024x64 6 rfl (k0_pay162 v940) (k0_pay163 v942) (k0_pay164 v944) (rows3 v940) (rows3 v942) (rows3 v944)
    (cast2_apply v940 _) (cast2_apply v942 _) (cast2_apply v944 _) p e

theorem L0_7_apply (p : Fin 384) (u : Fin 1) :
    L0_7 v940 v942 (ix2 p u) = aDen (rows3 v940) (rows3 v942) 7 p :=
  headL_apply 448 slices_S384x512_o0_448_S384x64 slices_S1024x512_o0_448_S1024x64 7 rfl (k0_pay162 v940) (k0_pay163 v942) (rows3 v940) (rows3 v942)
    (cast2_apply v940 _) (cast2_apply v942 _) p u

theorem O0_7_apply (p : Fin 384) (e : Fin 64) :
    O0_7 v940 v942 v944 (ix2 p e) = aNum (rows3 v940) (rows3 v942) (rows3 v944) 7 p e :=
  headO_apply 448 slices_S384x512_o0_448_S384x64 slices_S1024x512_o0_448_S1024x64 7 rfl (k0_pay162 v940) (k0_pay163 v942) (k0_pay164 v944) (rows3 v940) (rows3 v942) (rows3 v944)
    (cast2_apply v940 _) (cast2_apply v942 _) (cast2_apply v944 _) p e

/-! ## Batch 1: each head's column of row sums and block, at an index -/

theorem L1_0_apply (p : Fin 384) (u : Fin 1) :
    L1_0 v1026 v1028 (ix2 p u) = aDen (rows3 v1026) (rows3 v1028) 0 p :=
  headL_apply 0 slices_S384x512_o0_0_S384x64 slices_S1024x512_o0_0_S1024x64 0 rfl (k0_pay190 v1026) (k0_pay191 v1028) (rows3 v1026) (rows3 v1028)
    (cast2_apply v1026 _) (cast2_apply v1028 _) p u

theorem O1_0_apply (p : Fin 384) (e : Fin 64) :
    O1_0 v1026 v1028 v1030 (ix2 p e) = aNum (rows3 v1026) (rows3 v1028) (rows3 v1030) 0 p e :=
  headO_apply 0 slices_S384x512_o0_0_S384x64 slices_S1024x512_o0_0_S1024x64 0 rfl (k0_pay190 v1026) (k0_pay191 v1028) (k0_pay192 v1030) (rows3 v1026) (rows3 v1028) (rows3 v1030)
    (cast2_apply v1026 _) (cast2_apply v1028 _) (cast2_apply v1030 _) p e

theorem L1_1_apply (p : Fin 384) (u : Fin 1) :
    L1_1 v1026 v1028 (ix2 p u) = aDen (rows3 v1026) (rows3 v1028) 1 p :=
  headL_apply 64 slices_S384x512_o0_64_S384x64 slices_S1024x512_o0_64_S1024x64 1 rfl (k0_pay190 v1026) (k0_pay191 v1028) (rows3 v1026) (rows3 v1028)
    (cast2_apply v1026 _) (cast2_apply v1028 _) p u

theorem O1_1_apply (p : Fin 384) (e : Fin 64) :
    O1_1 v1026 v1028 v1030 (ix2 p e) = aNum (rows3 v1026) (rows3 v1028) (rows3 v1030) 1 p e :=
  headO_apply 64 slices_S384x512_o0_64_S384x64 slices_S1024x512_o0_64_S1024x64 1 rfl (k0_pay190 v1026) (k0_pay191 v1028) (k0_pay192 v1030) (rows3 v1026) (rows3 v1028) (rows3 v1030)
    (cast2_apply v1026 _) (cast2_apply v1028 _) (cast2_apply v1030 _) p e

theorem L1_2_apply (p : Fin 384) (u : Fin 1) :
    L1_2 v1026 v1028 (ix2 p u) = aDen (rows3 v1026) (rows3 v1028) 2 p :=
  headL_apply 128 slices_S384x512_o0_128_S384x64 slices_S1024x512_o0_128_S1024x64 2 rfl (k0_pay190 v1026) (k0_pay191 v1028) (rows3 v1026) (rows3 v1028)
    (cast2_apply v1026 _) (cast2_apply v1028 _) p u

theorem O1_2_apply (p : Fin 384) (e : Fin 64) :
    O1_2 v1026 v1028 v1030 (ix2 p e) = aNum (rows3 v1026) (rows3 v1028) (rows3 v1030) 2 p e :=
  headO_apply 128 slices_S384x512_o0_128_S384x64 slices_S1024x512_o0_128_S1024x64 2 rfl (k0_pay190 v1026) (k0_pay191 v1028) (k0_pay192 v1030) (rows3 v1026) (rows3 v1028) (rows3 v1030)
    (cast2_apply v1026 _) (cast2_apply v1028 _) (cast2_apply v1030 _) p e

theorem L1_3_apply (p : Fin 384) (u : Fin 1) :
    L1_3 v1026 v1028 (ix2 p u) = aDen (rows3 v1026) (rows3 v1028) 3 p :=
  headL_apply 192 slices_S384x512_o0_192_S384x64 slices_S1024x512_o0_192_S1024x64 3 rfl (k0_pay190 v1026) (k0_pay191 v1028) (rows3 v1026) (rows3 v1028)
    (cast2_apply v1026 _) (cast2_apply v1028 _) p u

theorem O1_3_apply (p : Fin 384) (e : Fin 64) :
    O1_3 v1026 v1028 v1030 (ix2 p e) = aNum (rows3 v1026) (rows3 v1028) (rows3 v1030) 3 p e :=
  headO_apply 192 slices_S384x512_o0_192_S384x64 slices_S1024x512_o0_192_S1024x64 3 rfl (k0_pay190 v1026) (k0_pay191 v1028) (k0_pay192 v1030) (rows3 v1026) (rows3 v1028) (rows3 v1030)
    (cast2_apply v1026 _) (cast2_apply v1028 _) (cast2_apply v1030 _) p e

theorem L1_4_apply (p : Fin 384) (u : Fin 1) :
    L1_4 v1026 v1028 (ix2 p u) = aDen (rows3 v1026) (rows3 v1028) 4 p :=
  headL_apply 256 slices_S384x512_o0_256_S384x64 slices_S1024x512_o0_256_S1024x64 4 rfl (k0_pay190 v1026) (k0_pay191 v1028) (rows3 v1026) (rows3 v1028)
    (cast2_apply v1026 _) (cast2_apply v1028 _) p u

theorem O1_4_apply (p : Fin 384) (e : Fin 64) :
    O1_4 v1026 v1028 v1030 (ix2 p e) = aNum (rows3 v1026) (rows3 v1028) (rows3 v1030) 4 p e :=
  headO_apply 256 slices_S384x512_o0_256_S384x64 slices_S1024x512_o0_256_S1024x64 4 rfl (k0_pay190 v1026) (k0_pay191 v1028) (k0_pay192 v1030) (rows3 v1026) (rows3 v1028) (rows3 v1030)
    (cast2_apply v1026 _) (cast2_apply v1028 _) (cast2_apply v1030 _) p e

theorem L1_5_apply (p : Fin 384) (u : Fin 1) :
    L1_5 v1026 v1028 (ix2 p u) = aDen (rows3 v1026) (rows3 v1028) 5 p :=
  headL_apply 320 slices_S384x512_o0_320_S384x64 slices_S1024x512_o0_320_S1024x64 5 rfl (k0_pay190 v1026) (k0_pay191 v1028) (rows3 v1026) (rows3 v1028)
    (cast2_apply v1026 _) (cast2_apply v1028 _) p u

theorem O1_5_apply (p : Fin 384) (e : Fin 64) :
    O1_5 v1026 v1028 v1030 (ix2 p e) = aNum (rows3 v1026) (rows3 v1028) (rows3 v1030) 5 p e :=
  headO_apply 320 slices_S384x512_o0_320_S384x64 slices_S1024x512_o0_320_S1024x64 5 rfl (k0_pay190 v1026) (k0_pay191 v1028) (k0_pay192 v1030) (rows3 v1026) (rows3 v1028) (rows3 v1030)
    (cast2_apply v1026 _) (cast2_apply v1028 _) (cast2_apply v1030 _) p e

theorem L1_6_apply (p : Fin 384) (u : Fin 1) :
    L1_6 v1026 v1028 (ix2 p u) = aDen (rows3 v1026) (rows3 v1028) 6 p :=
  headL_apply 384 slices_S384x512_o0_384_S384x64 slices_S1024x512_o0_384_S1024x64 6 rfl (k0_pay190 v1026) (k0_pay191 v1028) (rows3 v1026) (rows3 v1028)
    (cast2_apply v1026 _) (cast2_apply v1028 _) p u

theorem O1_6_apply (p : Fin 384) (e : Fin 64) :
    O1_6 v1026 v1028 v1030 (ix2 p e) = aNum (rows3 v1026) (rows3 v1028) (rows3 v1030) 6 p e :=
  headO_apply 384 slices_S384x512_o0_384_S384x64 slices_S1024x512_o0_384_S1024x64 6 rfl (k0_pay190 v1026) (k0_pay191 v1028) (k0_pay192 v1030) (rows3 v1026) (rows3 v1028) (rows3 v1030)
    (cast2_apply v1026 _) (cast2_apply v1028 _) (cast2_apply v1030 _) p e

theorem L1_7_apply (p : Fin 384) (u : Fin 1) :
    L1_7 v1026 v1028 (ix2 p u) = aDen (rows3 v1026) (rows3 v1028) 7 p :=
  headL_apply 448 slices_S384x512_o0_448_S384x64 slices_S1024x512_o0_448_S1024x64 7 rfl (k0_pay190 v1026) (k0_pay191 v1028) (rows3 v1026) (rows3 v1028)
    (cast2_apply v1026 _) (cast2_apply v1028 _) p u

theorem O1_7_apply (p : Fin 384) (e : Fin 64) :
    O1_7 v1026 v1028 v1030 (ix2 p e) = aNum (rows3 v1026) (rows3 v1028) (rows3 v1030) 7 p e :=
  headO_apply 448 slices_S384x512_o0_448_S384x64 slices_S1024x512_o0_448_S1024x64 7 rfl (k0_pay190 v1026) (k0_pay191 v1028) (k0_pay192 v1030) (rows3 v1026) (rows3 v1028) (rows3 v1030)
    (cast2_apply v1026 _) (cast2_apply v1028 _) (cast2_apply v1030 _) p e

/-! ## The stacked result and the blocks sent -/

/-- The result of the pass is the stack of the two batches' attention rows times the block of the output projection. -/
theorem Y1_eq_stack :
    Y1 v137 v940 v942 v944 v1026 v1028 v1030
      = stack2 (outProj (attRows (L0_0 v940 v942) (L0_1 v940 v942) (L0_2 v940 v942) (L0_3 v940 v942) (L0_4 v940 v942) (L0_5 v940 v942) (L0_6 v940 v942) (L0_7 v940 v942)
        (O0_0 v940 v942 v944) (O0_1 v940 v942 v944) (O0_2 v940 v942 v944) (O0_3 v940 v942 v944) (O0_4 v940 v942 v944) (O0_5 v940 v942 v944) (O0_6 v940 v942 v944) (O0_7 v940 v942 v944)) v137)
          (outProj (attRows (L1_0 v1026 v1028) (L1_1 v1026 v1028) (L1_2 v1026 v1028) (L1_3 v1026 v1028) (L1_4 v1026 v1028) (L1_5 v1026 v1028) (L1_6 v1026 v1028) (L1_7 v1026 v1028)
        (O1_0 v1026 v1028 v1030) (O1_1 v1026 v1028 v1030) (O1_2 v1026 v1028 v1030) (O1_3 v1026 v1028 v1030) (O1_4 v1026 v1028 v1030) (O1_5 v1026 v1028 v1030) (O1_6 v1026 v1028 v1030) (O1_7 v1026 v1028 v1030)) v137) := rfl

/-- Batch 0 of the result: the attention of query rows 640..1023 over all keys, times the output projection's block. -/
theorem Y1_apply0 (q : Fin 384) (n : Fin 512) :
    Y1 v137 v940 v942 v944 v1026 v1028 v1030 (ix3 (0 : Fin 2) q n)
      = aOutWhole (rows3 v940) (rows3 v942) (rows3 v944) (mat2 v137) q n := by
  rw [Y1_eq_stack, stack2_apply0]
  exact outProj_attRows_apply _ _ _ _ _ _ _ _ _ _ _ _ _ _ _ _ (rows3 v940) (rows3 v942) (rows3 v944)
    (L0_0_apply v940 v942) (O0_0_apply v940 v942 v944)
    (L0_1_apply v940 v942) (O0_1_apply v940 v942 v944)
    (L0_2_apply v940 v942) (O0_2_apply v940 v942 v944)
    (L0_3_apply v940 v942) (O0_3_apply v940 v942 v944)
    (L0_4_apply v940 v942) (O0_4_apply v940 v942 v944)
    (L0_5_apply v940 v942) (O0_5_apply v940 v942 v944)
    (L0_6_apply v940 v942) (O0_6_apply v940 v942 v944)
    (L0_7_apply v940 v942) (O0_7_apply v940 v942 v944)
    v137 q n

/-- Batch 1 of the result. -/
theorem Y1_apply1 (q : Fin 384) (n : Fin 512) :
    Y1 v137 v940 v942 v944 v1026 v1028 v1030 (ix3 (1 : Fin 2) q n)
      = aOutWhole (rows3 v1026) (rows3 v1028) (rows3 v1030) (mat2 v137) q n := by
  rw [Y1_eq_stack, stack2_apply1]
  exact outProj_attRows_apply _ _ _ _ _ _ _ _ _ _ _ _ _ _ _ _ (rows3 v1026) (rows3 v1028) (rows3 v1030)
    (L1_0_apply v1026 v1028) (O1_0_apply v1026 v1028 v1030)
    (L1_1_apply v1026 v1028) (O1_1_apply v1026 v1028 v1030)
    (L1_2_apply v1026 v1028) (O1_2_apply v1026 v1028 v1030)
    (L1_3_apply v1026 v1028) (O1_3_apply v1026 v1028 v1030)
    (L1_4_apply v1026 v1028) (O1_4_apply v1026 v1028 v1030)
    (L1_5_apply v1026 v1028) (O1_5_apply v1026 v1028 v1030)
    (L1_6_apply v1026 v1028) (O1_6_apply v1026 v1028 v1030)
    (L1_7_apply v1026 v1028) (O1_7_apply v1026 v1028 v1030)
    v137 q n

/-- The one of two things that belongs to batch b. -/
def sel {α : Type} (b : Fin 2) (x y : α) : α := if b.val = 0 then x else y

/-- The result at batch b, row q, column n. -/
theorem Y1_apply (b : Fin 2) (q : Fin 384) (n : Fin 512) :
    Y1 v137 v940 v942 v944 v1026 v1028 v1030 (ix3 b q n)
      = aOutWhole (rows3 (sel b v940 v1026)) (rows3 (sel b v942 v1028)) (rows3 (sel b v944 v1030)) (mat2 v137) q n := by
  fin_cases b
  · exact Y1_apply0 v137 v940 v942 v944 v1026 v1028 v1030 q n
  · exact Y1_apply1 v137 v940 v942 v944 v1026 v1028 v1030 q n

/-- Send slot 4 holds rows 0..127 of the result. -/
theorem Slot4_apply (u : Fin 1) (b : Fin 2) (r : Fin 128) (n : Fin 512) :
    Slot4 v137 v940 v942 v944 v1026 v1028 v1030 (ix4 u b r n)
      = Y1 v137 v940 v942 v944 v1026 v1028 v1030 (ix3 b ⟨r.val, by have := r.isLt; omega⟩ n) :=
  rowBlock_apply 0 (Y1 v137 v940 v942 v944 v1026 v1028 v1030) slices_S2x384x512_o0_0_0_S2x128x512 u b r n _ (Nat.zero_add _).symm

/-- Send slot 5 holds rows 128..255 of the result. -/
theorem Slot5_apply (u : Fin 1) (b : Fin 2) (r : Fin 128) (n : Fin 512) :
    Slot5 v137 v940 v942 v944 v1026 v1028 v1030 (ix4 u b r n)
      = Y1 v137 v940 v942 v944 v1026 v1028 v1030 (ix3 b ⟨128 + r.val, by have := r.isLt; omega⟩ n) :=
  rowBlock_apply 128 (Y1 v137 v940 v942 v944 v1026 v1028 v1030) slices_S2x384x512_o0_128_0_S2x128x512 u b r n _ rfl

/-- Send slot 6 holds rows 256..383 of the result. -/
theorem Slot6_apply (u : Fin 1) (b : Fin 2) (r : Fin 128) (n : Fin 512) :
    Slot6 v137 v940 v942 v944 v1026 v1028 v1030 (ix4 u b r n)
      = Y1 v137 v940 v942 v944 v1026 v1028 v1030 (ix3 b ⟨256 + r.val, by have := r.isLt; omega⟩ n) :=
  rowBlock_apply 256 (Y1 v137 v940 v942 v944 v1026 v1028 v1030) slices_S2x384x512_o0_256_0_S2x128x512 u b r n _ rfl

end Pass

end Cert.ValPass2

end
-- ==== Proof.ValPass3Lib.lean ====
/-
  Vector operations of one attention pass read at an index, at the exact values (every float an extended real, a cast
  the identity): a product whose right operand is contracted along its rows' entries (scores: rows of q against rows of
  k), the sum of a row kept as a one-column matrix, that column spread back over a row, a slice of columns, and a
  concatenation of eight 64-column pieces.
-/
import Idealize.ShloMosaic.PureOps.Ideal
import Idealize.ShloMosaic.PureOps.Ideal.Laws
import Idealize.ShloMosaic.Lib.ValueIdx
import Idealize.ShloMosaic.Lib.ValueLayout
import proofs.«900761_g7700000000000762_dist_attn_self_mha_htp_ss_b2_sq128_skv128_d512_hq8_dh64_v7x_i8_bf16_1_alg».proof.Proof.LibPlainDot
import proofs.«900761_g7700000000000762_dist_attn_self_mha_htp_ss_b2_sq128_skv128_d512_hq8_dh64_v7x_i8_bf16_1_alg».proof.Proof.Spec

noncomputable section

namespace Cert.Val3

open Idealize.ShloMosaic Idealize.ShloMosaic.ValueIdx

/-! ## A product with the right operand transposed: M × K by N × K -/

section TransDot
variable (M K N : Nat)

theorem tcontr_rank : (DotDims.transposedRhs M K N).contr.rank = 1 := rfl
theorem tcontr_size : (DotDims.transposedRhs M K N).contr.size ⟨0, by rw [tcontr_rank]; exact Nat.one_pos⟩ = K := rfl

/-- The contraction index is its one coordinate, an entry of a row of either operand. -/
abbrev tEquiv : (DotDims.transposedRhs M K N).contr.Idx ≃ Fin K :=
  contrEquiv1 (DotDims.transposedRhs M K N) K (tcontr_rank M K N) (tcontr_size M K N)

/-- The left operand is read at (row of the result, k). -/
theorem tlhsIdx_eq (j : (⟨2, ![M, N]⟩ : Shape).Idx) (k : Fin K) :
    (DotDims.transposedRhs M K N).lhsIdx j ((tEquiv M K N).symm k) = ix2 (j 0) k := by
  funext a
  apply Fin.ext
  match a with
  | ⟨0, _⟩ => rfl
  | ⟨1, _⟩ =>
    exact ((DotDims.transposedRhs M K N).lhsIdx_val_of_single (cl := 1) rfl j _).trans
      (contrEquiv1_symm_val (DotDims.transposedRhs M K N) K (tcontr_rank M K N) (tcontr_size M K N) k)

/-- The right operand is read at (column of the result, k). -/
theorem trhsIdx_eq (j : (⟨2, ![M, N]⟩ : Shape).Idx) (k : Fin K) :
    (DotDims.transposedRhs M K N).rhsIdx j ((tEquiv M K N).symm k) = ix2 (j 1) k := by
  funext a
  apply Fin.ext
  match a with
  | ⟨0, _⟩ => rfl
  | ⟨1, _⟩ =>
    exact ((DotDims.transposedRhs M K N).rhsIdx_val_of_single (cr := 1) rfl j _).trans
      (contrEquiv1_symm_val (DotDims.transposedRhs M K N) K (tcontr_rank M K N) (tcontr_size M K N) k)

variable {φ₁ φ₂ : FTy}

/-- The product into the zero accumulator at (p, q): the sum over k of l (p, k) · r (q, k). -/
theorem transDot_zero_apply (prec : Option ContractPrecision) (l : FVec Ideal ⟨2, ![M, K]⟩ φ₁) (r : FVec Ideal ⟨2, ![N, K]⟩ φ₂)
    (p : Fin M) (q : Fin N) :
    matmul (DotDims.transposedRhs M K N) prec l r (constant ⟨2, ![M, N]⟩ .f32 0x00000000#32) (ix2 p q)
      = ∑ k : Fin K, l (ix2 p k) * r (ix2 q k) := by
  refine (Ideal.matmul_constant_zero_apply (DotDims.transposedRhs M K N) prec l r (ix2 p q)).trans ?_
  rw [← Equiv.sum_comp (tEquiv M K N).symm]
  exact Finset.sum_congr rfl fun k _ =>
    congrArg₂ (· * ·) (congrArg l (tlhsIdx_eq M K N (ix2 p q) k)) (congrArg r (trhsIdx_eq M K N (ix2 p q) k))

end TransDot

/-! ## A row's sum kept as a column, and the column spread over a row -/

section Column
variable {α : Type} {a b : Nat}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, b]` array of extended reals, at row `p`. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src ?_
  funext c
  apply Fin.ext
  rw [Shape.Reduces.lift_val]
  match c with
  | ⟨0, _⟩ => rfl
  | ⟨1, _⟩ => rfl

end Column

end Cert.Val3

end
-- ==== Proof.ValPass3.lean ====
/-
  The third attention pass, its finalize and the final accumulation, as values: the vectors the kernel threads from the
  loaded query rows (128 rows of a batch), all 1024 key and value rows of the batch and the output projection's block to
  the stored result, and what each is at an index, in the common attention forms over plain row-indexed functions.

  Per head h (columns 64h … 64h+63): p = exp (q_h · k_hᵀ), l = the rows' sums of p kept as a column, o = p · v_h; the
  finalize divides o by l head by head, lays the eight heads side by side, multiplies by the projection block and stacks
  the two batches; the accumulation adds the seven received partial results in order.
-/
import Mathlib.Tactic.FinCases
import proofs.«900761_g7700000000000762_dist_attn_self_mha_htp_ss_b2_sq128_skv128_d512_hq8_dh64_v7x_i8_bf16_1_alg».proof.Proof.ValPass3Lib
import proofs.«900761_g7700000000000762_dist_attn_self_mha_htp_ss_b2_sq128_skv128_d512_hq8_dh64_v7x_i8_bf16_1_alg».proof.Proof.ValPass3Defs
import proofs.«900761_g7700000000000762_dist_attn_self_mha_htp_ss_b2_sq128_skv128_d512_hq8_dh64_v7x_i8_bf16_1_alg».proof.Proof.Gen.KernelIdeal.Skeleton
import proofs.«900761_g7700000000000762_dist_attn_self_mha_htp_ss_b2_sq128_skv128_d512_hq8_dh64_v7x_i8_bf16_1_alg».proof.Proof.SpecAttn

noncomputable section

namespace Cert.Val3

open Idealize.ShloMosaic Idealize.ShloMosaic.ValueIdx Cert.KernelIdeal Cert.KernelIdeal.Gen Cert.Spec

/-! ## One head -/

/-- The 64 columns of head `h8` of a 512-column array, at (p, e): column 64·h8 + e of the array. -/
theorem sliceHead_apply {n : Nat} (o : Nat) (h8 : Fin 8) (ho : o = h8.val * 64) (X : FVec Ideal ⟨2, ![n, 512]⟩ .bf16)
    (hs : (⟨2, ![n, 512]⟩ : Shape).Slices ![0, o] ⟨2, ![n, 64]⟩) (p : Fin n) (e : Fin 64) :
    extractStridedSlice ⟨2, ![n, 64]⟩ ![0, o] X hs (ix2 p e) = X (ix2 p (hd8 h8 e)) :=
  slice2_axis1_apply o X hs p e (hd8 h8 e) (by subst ho; rfl)

/-- exp of the scores of the head at column offset `o`: the rows of q against the rows of k. -/
def headP (o : Nat) (hq : S128x512.Slices ![0, o] S128x64) (hk : S1024x512.Slices ![0, o] S1024x64)
    (Q : FVec Ideal S128x512 .bf16) (K : FVec Ideal S1024x512 .bf16) : FVec Ideal S128x1024 .bf16 :=
  exp (truncf .bf16 (matmul dot_S128x64_S1024x64_S128x1024_1_1_0_0_n_n none (extractStridedSlice S128x64 ![0, o] Q hq)
    (extractStridedSlice S1024x64 ![0, o] K hk) (constant S128x1024 .f32 0x00000000#32)) bitsLt_bf16_f32)

/-- The rows' sums of p, kept as a column. -/
def rowL (P : FVec Ideal S128x1024 .bf16) : FVec Ideal S128x1 .f32 :=
  shapeCast S128x1 (multiReduction .add [1] S128 (extf .f32 P bitsLt_bf16_f32) 0x00000000#32 reduces_S128x1024_S128 (.inl rfl) rfl)
    shapeCasts_S128_S128x1

/-- p times the head's 64 columns of v. -/
def headO (o : Nat) (hv : S1024x512.Slices ![0, o] S1024x64) (P : FVec Ideal S128x1024 .bf16) (V : FVec Ideal S1024x512 .bf16) :
    FVec Ideal S128x64 .f32 :=
  matmul dot_S128x1024_S1024x64_S128x64_1_0_0_1_n_n none P (extractStridedSlice S1024x64 ![0, o] V hv) (constant S128x64 .f32 0x00000000#32)

/-- o divided by l, row by row. -/
def attH (L : FVec Ideal S128x1 .f32) (O : FVec Ideal S128x64 .f32) : FVec Ideal S128x64 .bf16 :=
  truncf .bf16 (divf O (broadcastTo S128x64 L broadcasts_S128x1_S128x64)) bitsLt_bf16_f32

section Head
variable (o : Nat) (h8 : Fin 8) (ho : o = h8.val * 64)
  (hq : S128x512.Slices ![0, o] S128x64) (hk : S1024x512.Slices ![0, o] S1024x64) (hv : S1024x512.Slices ![0, o] S1024x64)
  (Q : FVec Ideal S128x512 .bf16) (K V : FVec Ideal S1024x512 .bf16)
  (Qf : Fin 128 → Fin 512 → EReal) (Kf Vf : Fin 1024 → Fin 512 → EReal)
  (hQ : ∀ p c, Q (ix2 p c) = Qf p c) (hK : ∀ j c, K (ix2 j c) = Kf j c) (hV : ∀ j c, V (ix2 j c) = Vf j c)

include ho hQ hK in
theorem headP_apply (p : Fin 128) (j : Fin 1024) : headP o hq hk Q K (ix2 p j) = Ideal.exp (aScore Qf Kf h8 p j) := by
  show Ideal.exp (matmul dot_S128x64_S1024x64_S128x1024_1_1_0_0_n_n none (extractStridedSlice S128x64 ![0, o] Q hq)
    (extractStridedSlice S1024x64 ![0, o] K hk) (constant S128x1024 .f32 0x00000000#32) (ix2 p j)) = _
  refine congrArg Ideal.exp ?_
  refine (transDot_zero_apply 128 64 1024 none _ _ p j).trans ?_
  unfold aScore
  refine Finset.sum_congr rfl fun e _ => ?_
  rw [sliceHead_apply o h8 ho Q hq p e, sliceHead_apply o h8 ho K hk j e, hQ, hK]

include ho hQ hK in
theorem rowL_apply (p : Fin 128) (u : Fin 1) : rowL (headP o hq hk Q K) (ix2 p u) = aDen Qf Kf h8 p := by
  unfold rowL
  refine (shapeCast_a_a1_apply _ _ p u).trans ?_
  refine (rowSum_apply (a := 128) (b := 1024) (extf .f32 (headP o hq hk Q K) bitsLt_bf16_f32) _ reduces_S128x1024_S128 _ _ p).trans ?_
  unfold aDen
  exact Finset.sum_congr rfl fun j _ => headP_apply o h8 ho hq hk Q K Qf Kf hQ hK p j

include ho hQ hK hV in
theorem headO_apply (p : Fin 128) (e : Fin 64) : headO o hv (headP o hq hk Q K) V (ix2 p e) = aNum Qf Kf Vf h8 p e := by
  unfold headO
  refine (PlainDot.matmul_zero_apply 128 1024 64 none _ _ p e).trans ?_
  unfold aNum
  refine Finset.sum_congr rfl fun j _ => ?_
  rw [headP_apply o h8 ho hq hk Q K Qf Kf hQ hK p j, sliceHead_apply o h8 ho V hv j e, hV]

theorem attH_apply (L : FVec Ideal S128x1 .f32) (O : FVec Ideal S128x64 .f32) (p : Fin 128) (e : Fin 64) :
    attH L O (ix2 p e) = Ideal.div (O (ix2 p e)) (L (ix2 p (0 : Fin 1))) := by
  show Ideal.div (O (ix2 p e)) (broadcastTo S128x64 L broadcasts_S128x1_S128x64 (ix2 p e)) = _
  rw [broadcastTo_a1_ab_apply]

include ho hQ hK hV in
/-- One head of the attention row: the head's numerator over its denominator. -/
theorem head_apply (p : Fin 128) (e : Fin 64) :
    attH (rowL (headP o hq hk Q K)) (headO o hv (headP o hq hk Q K) V) (ix2 p e)
      = Ideal.div (aNum Qf Kf Vf h8 p e) (aDen Qf Kf h8 p) := by
  rw [attH_apply, headO_apply o h8 ho hq hk hv Q K V Qf Kf Vf hQ hK hV p e, rowL_apply o h8 ho hq hk Q K Qf Kf hQ hK p 0]

end Head

/-! ## The eight heads side by side, times the projection block -/

/-- Eight 64-column pieces, in order. -/
def pieces8 (A : Fin 8 → FVec Ideal S128x64 .bf16) : List ((s : Shape) × (s.Idx → Ideal .bf16)) :=
  [⟨S128x64, A 0⟩, ⟨S128x64, A 1⟩, ⟨S128x64, A 2⟩, ⟨S128x64, A 3⟩, ⟨S128x64, A 4⟩, ⟨S128x64, A 5⟩, ⟨S128x64, A 6⟩, ⟨S128x64, A 7⟩]

/-- Eight 64-column pieces laid side by side. -/
def cat8 (A : Fin 8 → FVec Ideal S128x64 .bf16) : FVec Ideal S128x512 .bf16 :=
  concatenate S128x512 1 (pieces8 A) concatenates_S128x64_S128x64_S128x64_S128x64_S128x64_S128x64_S128x64_S128x64_S128x512_d1

/-- Column 64·h + e of the eight pieces side by side is column e of piece h. -/
theorem cat8_apply (A : Fin 8 → FVec Ideal S128x64 .bf16) (p : Fin 128) (h8 : Fin 8) (e : Fin 64) :
    cat8 A (ix2 p (hd8 h8 e)) = A h8 (ix2 p e) := by
  unfold cat8
  match h8 with
  | ⟨0, _⟩ =>
    exact concatenate_apply_piece (t := S128x512) 1 (pieces8 A) concatenates_S128x64_S128x64_S128x64_S128x64_S128x64_S128x64_S128x64_S128x64_S128x512_d1
      (ix2 p (hd8 0 e)) 0 (by omega : 0 < 8) S128x64 (A 0) rfl rfl 0 rfl (ix2 p e)
      (fun b hb => by match b with | ⟨0, _⟩ => rfl | ⟨1, _⟩ => exact absurd rfl hb)
      (by show 0 + e.val = 0 * 64 + e.val; rfl)
  | ⟨1, _⟩ =>
    exact concatenate_apply_piece (t := S128x512) 1 (pieces8 A) concatenates_S128x64_S128x64_S128x64_S128x64_S128x64_S128x64_S128x64_S128x64_S128x512_d1
      (ix2 p (hd8 1 e)) 1 (by omega : 1 < 8) S128x64 (A 1) rfl rfl 64 rfl (ix2 p e)
      (fun b hb => by match b with | ⟨0, _⟩ => rfl | ⟨1, _⟩ => exact absurd rfl hb)
      (by show 64 + e.val = 1 * 64 + e.val; rfl)
  | ⟨2, _⟩ =>
    exact concatenate_apply_piece (t := S128x512) 1 (pieces8 A) concatenates_S128x64_S128x64_S128x64_S128x64_S128x64_S128x64_S128x64_S128x64_S128x512_d1
      (ix2 p (hd8 2 e)) 2 (by omega : 2 < 8) S128x64 (A 2) rfl rfl 128 rfl (ix2 p e)
      (fun b hb => by match b with | ⟨0, _⟩ => rfl | ⟨1, _⟩ => exact absurd rfl hb)
      (by show 128 + e.val = 2 * 64 + e.val; rfl)
  | ⟨3, _⟩ =>
    exact concatenate_apply_piece (t := S128x512) 1 (pieces8 A) concatenates_S128x64_S128x64_S128x64_S128x64_S128x64_S128x64_S128x64_S128x64_S128x512_d1
      (ix2 p (hd8 3 e)) 3 (by omega : 3 < 8) S128x64 (A 3) rfl rfl 192 rfl (ix2 p e)
      (fun b hb => by match b with | ⟨0, _⟩ => rfl | ⟨1, _⟩ => exact absurd rfl hb)
      (by show 192 + e.val = 3 * 64 + e.val; rfl)
  | ⟨4, _⟩ =>
    exact concatenate_apply_piece (t := S128x512) 1 (pieces8 A) concatenates_S128x64_S128x64_S128x64_S128x64_S128x64_S128x64_S128x64_S128x64_S128x512_d1
      (ix2 p (hd8 4 e)) 4 (by omega : 4 < 8) S128x64 (A 4) rfl rfl 256 rfl (ix2 p e)
      (fun b hb => by match b with | ⟨0, _⟩ => rfl | ⟨1, _⟩ => exact absurd rfl hb)
      (by show 256 + e.val = 4 * 64 + e.val; rfl)
  | ⟨5, _⟩ =>
    exact concatenate_apply_piece (t := S128x512) 1 (pieces8 A) concatenates_S128x64_S128x64_S128x64_S128x64_S128x64_S128x64_S128x64_S128x64_S128x512_d1
      (ix2 p (hd8 5 e)) 5 (by omega : 5 < 8) S128x64 (A 5) rfl rfl 320 rfl (ix2 p e)
      (fun b hb => by match b with | ⟨0, _⟩ => rfl | ⟨1, _⟩ => exact absurd rfl hb)
      (by show 320 + e.val = 5 * 64 + e.val; rfl)
  | ⟨6, _⟩ =>
    exact concatenate_apply_piece (t := S128x512) 1 (pieces8 A) concatenates_S128x64_S128x64_S128x64_S128x64_S128x64_S128x64_S128x64_S128x64_S128x512_d1
      (ix2 p (hd8 6 e)) 6 (by omega : 6 < 8) S128x64 (A 6) rfl rfl 384 rfl (ix2 p e)
      (fun b hb => by match b with | ⟨0, _⟩ => rfl | ⟨1, _⟩ => exact absurd rfl hb)
      (by show 384 + e.val = 6 * 64 + e.val; rfl)
  | ⟨7, _⟩ =>
    exact concatenate_apply_piece (t := S128x512) 1 (pieces8 A) concatenates_S128x64_S128x64_S128x64_S128x64_S128x64_S128x64_S128x64_S128x64_S128x512_d1
      (ix2 p (hd8 7 e)) 7 (by omega : 7 < 8) S128x64 (A 7) rfl rfl 448 rfl (ix2 p e)
      (fun b hb => by match b with | ⟨0, _⟩ => rfl | ⟨1, _⟩ => exact absurd rfl hb)
      (by show 448 + e.val = 7 * 64 + e.val; rfl)
  | ⟨n + 8, hn⟩ => exact absurd hn (by omega)

/-- The attention rows (eight pieces side by side) times the projection block. -/
def yOf (wo : FVec Ideal S512x512 .bf16) (A : Fin 8 → FVec Ideal S128x64 .bf16) : FVec Ideal S128x512 .f32 :=
  matmul dot_S128x512_S512x512_S128x512_1_0_0_1_n_n none (cat8 A) wo (constant S128x512 .f32 0x00000000#32)

theorem yOf_apply (wo : FVec Ideal S512x512 .bf16) (A : Fin 8 → FVec Ideal S128x64 .bf16) (G : Fin 8 → Fin 128 → Fin 64 → EReal)
    (hA : ∀ h p e, A h (ix2 p e) = G h p e) (p : Fin 128) (n : Fin 512) :
    yOf wo A (ix2 p n) = ∑ c : Fin 512, G (headOf8 c) p (inHead8 c) * wo (ix2 c n) := by
  unfold yOf
  refine (PlainDot.matmul_zero_apply 128 512 512 none _ _ p n).trans ?_
  refine Finset.sum_congr rfl fun c _ => congrArg (· * wo (ix2 c n)) ?_
  have hc : c = hd8 (headOf8 c) (inHead8 c) := Fin.ext (by show c.val = c.val / 64 * 64 + c.val % 64; omega)
  exact (congrArg (fun c' => cat8 A (ix2 p c')) hc).trans ((cat8_apply A p _ _).trans (hA _ _ _))

/-- With each piece a head's numerator over its denominator, the product is the attention output. -/
theorem yOf_eq_aOutWhole (wo : FVec Ideal S512x512 .bf16) (A : Fin 8 → FVec Ideal S128x64 .bf16)
    (Qf : Fin 128 → Fin 512 → EReal) (Kf Vf : Fin 1024 → Fin 512 → EReal) (wof : Fin 512 → Fin 512 → EReal)
    (hwo : ∀ c n, wo (ix2 c n) = wof c n)
    (hA : ∀ h p e, A h (ix2 p e) = Ideal.div (aNum Qf Kf Vf h p e) (aDen Qf Kf h p)) (p : Fin 128) (n : Fin 512) :
    yOf wo A (ix2 p n) = aOutWhole Qf Kf Vf wof p n := by
  rw [yOf_apply wo A (fun h p e => Ideal.div (aNum Qf Kf Vf h p e) (aDen Qf Kf h p)) hA p n]
  unfold aOutWhole aAttWhole
  exact Finset.sum_congr rfl fun c _ => by rw [hwo]

/-! ## The two batches stacked, and a received partial result added -/

/-- Two 128 × 512 results, each as a one-batch block, in order. -/
def pieces2 (Y0 Y1 : FVec Ideal S128x512 .f32) : List ((s : Shape) × (s.Idx → Ideal .f32)) :=
  [⟨S1x128x512, shapeCast S1x128x512 Y0 shapeCasts_S128x512_S1x128x512⟩, ⟨S1x128x512, shapeCast S1x128x512 Y1 shapeCasts_S128x512_S1x128x512⟩]

/-- Two 128 × 512 results stacked as the two batches. -/
def stack2 (Y0 Y1 : FVec Ideal S128x512 .f32) : FVec Ideal S2x128x512 .f32 :=
  concatenate S2x128x512 0 (pieces2 Y0 Y1) concatenates_S1x128x512_S1x128x512_S2x128x512_d0

theorem stack2_apply0 (Y0 Y1 : FVec Ideal S128x512 .f32) (q : Fin 128) (n : Fin 512) :
    stack2 Y0 Y1 (ix3 (0 : Fin 2) q n) = Y0 (ix2 q n) := by
  unfold stack2
  refine (concatenate_apply_piece (t := S2x128x512) 0 (pieces2 Y0 Y1) concatenates_S1x128x512_S1x128x512_S2x128x512_d0
    (ix3 (0 : Fin 2) q n) 0 (by omega : 0 < 2) S1x128x512 (shapeCast S1x128x512 Y0 shapeCasts_S128x512_S1x128x512) rfl rfl 0 rfl
    (ix3 (0 : Fin 1) q n)
    (fun b hb => by match b with | ⟨0, _⟩ => exact absurd rfl hb | ⟨1, _⟩ => rfl | ⟨2, _⟩ => rfl) rfl).trans ?_
  exact shapeCast_ab_1ab_apply Y0 _ 0 q n

theorem stack2_apply1 (Y0 Y1 : FVec Ideal S128x512 .f32) (q : Fin 128) (n : Fin 512) :
    stack2 Y0 Y1 (ix3 (1 : Fin 2) q n) = Y1 (ix2 q n) := by
  unfold stack2
  refine (concatenate_apply_piece (t := S2x128x512) 0 (pieces2 Y0 Y1) concatenates_S1x128x512_S1x128x512_S2x128x512_d0
    (ix3 (1 : Fin 2) q n) 1 (by omega : 1 < 2) S1x128x512 (shapeCast S1x128x512 Y1 shapeCasts_S128x512_S1x128x512) rfl rfl 1 rfl
    (ix3 (0 : Fin 1) q n)
    (fun b hb => by match b with | ⟨0, _⟩ => exact absurd rfl hb | ⟨1, _⟩ => rfl | ⟨2, _⟩ => rfl) rfl).trans ?_
  exact shapeCast_ab_1ab_apply Y1 _ 0 q n

/-- A received partial result (one slot of the receive buffer, both batches) added to an accumulator. -/
def addR (X : FVec Ideal S2x128x512 .f32) (r : Vec Ideal S1x2x128x512 .bf16) : FVec Ideal S2x128x512 .f32 :=
  addf X (extf .f32 (shapeCast S2x128x512 r shapeCasts_S1x2x128x512_S2x128x512 : FVec Ideal S2x128x512 .bf16) bitsLt_bf16_f32)

theorem addR_apply (X : FVec Ideal S2x128x512 .f32) (r : Vec Ideal S1x2x128x512 .bf16) (b : Fin 2) (q : Fin 128) (n : Fin 512) :
    addR X r (ix3 b q n) = X (ix3 b q n) + r (ix4 (0 : Fin 1) b q n) := by
  show X (ix3 b q n) + shapeCast S2x128x512 r shapeCasts_S1x2x128x512_S2x128x512 (ix3 b q n) = _
  rw [shapeCast_1abc_abc_apply]

/-! ## The payloads of the pass in these forms -/

/-- A loaded [1, n, 512] block viewed [n, 512] reads the block at (0, p, c). -/
theorem dropUnit_apply {n : Nat} (v : FVec Ideal ⟨3, ![1, n, 512]⟩ .bf16) (h : (⟨3, ![1, n, 512]⟩ : Shape).ShapeCasts ⟨2, ![n, 512]⟩)
    (p : Fin n) (c : Fin 512) : shapeCast ⟨2, ![n, 512]⟩ v h (ix2 p c) = v (ix3 (0 : Fin 1) p c) :=
  shapeCast_1ab_ab_apply v h p c

section Pass
variable (v137 : FVec Ideal S512x512 .bf16)
  (v1219 : Vec Ideal S1x128x512 .bf16) (v1221 v1223 : Vec Ideal S1x1024x512 .bf16)
  (v1305 : Vec Ideal S1x128x512 .bf16) (v1307 v1309 : Vec Ideal S1x1024x512 .bf16)
  (r0 r1 r2 r3 r4 r5 r6 : Vec Ideal S1x2x128x512 .bf16)

/-- The first batch's eight heads, each divided by its rows' sums. -/
def heads0 : Fin 8 → FVec Ideal S128x64 .bf16 :=
  ![attH (k0_pay237 v1219 v1221) (k0_pay238 v1219 v1221 v1223),
    attH (k0_pay242 (k0_pay239 v1219) (k0_pay240 v1221) (constant S128x1024 .f32 0x00000000#32)) (k0_pay243 (k0_pay235 v1223) (k0_pay239 v1219) (k0_pay240 v1221) (constant S128x1024 .f32 0x00000000#32)),
    attH (k0_pay245 (k0_pay233 v1219) (k0_pay234 v1221)) (k0_pay246 (k0_pay233 v1219) (k0_pay234 v1221) (k0_pay235 v1223)),
    attH (k0_pay248 (k0_pay233 v1219) (k0_pay234 v1221)) (k0_pay249 (k0_pay233 v1219) (k0_pay234 v1221) (k0_pay235 v1223)),
    attH (k0_pay251 (k0_pay233 v1219) (k0_pay234 v1221)) (k0_pay252 (k0_pay233 v1219) (k0_pay234 v1221) (k0_pay235 v1223)),
    attH (k0_pay254 (k0_pay233 v1219) (k0_pay234 v1221)) (k0_pay256 (k0_pay253 (k0_pay233 v1219) (k0_pay234 v1221)) (k0_pay255 (k0_pay235 v1223))),
    attH (k0_pay258 (k0_pay233 v1219) (k0_pay234 v1221)) (k0_pay259 (k0_pay233 v1219) (k0_pay234 v1221) (k0_pay235 v1223)),
    attH (k0_pay261 (k0_pay233 v1219) (k0_pay234 v1221)) (k0_pay262 (k0_pay233 v1219) (k0_pay234 v1221) (k0_pay235 v1223))]

/-- The second batch's eight heads, each divided by its rows' sums. -/
def heads1 : Fin 8 → FVec Ideal S128x64 .bf16 :=
  ![k0_pay293 (k0_pay267 v1305 v1307) (k0_pay268 v1305 v1307 v1309),
    k0_pay294 (k0_pay271 (k0_pay269 v1305 v1307)) (k0_pay272 (k0_pay265 v1309) (k0_pay269 v1305 v1307)),
    attH (k0_pay274 (k0_pay263 v1305) (k0_pay264 v1307)) (k0_pay275 (k0_pay263 v1305) (k0_pay264 v1307) (k0_pay265 v1309)),
    attH (k0_pay277 (k0_pay263 v1305) (k0_pay264 v1307)) (k0_pay278 (k0_pay263 v1305) (k0_pay264 v1307) (k0_pay265 v1309)),
    attH (k0_pay280 (k0_pay263 v1305) (k0_pay264 v1307)) (k0_pay281 (k0_pay263 v1305) (k0_pay264 v1307) (k0_pay265 v1309)),
    attH (k0_pay283 (k0_pay263 v1305) (k0_pay264 v1307)) (k0_pay285 (k0_pay282 (k0_pay263 v1305) (k0_pay264 v1307)) (k0_pay284 (k0_pay265 v1309)) (constant S128x64 .f32 0x00000000#32)),
    attH (k0_pay287 (k0_pay263 v1305) (k0_pay264 v1307)) (k0_pay288 (k0_pay263 v1305) (k0_pay264 v1307) (k0_pay265 v1309)),
    attH (k0_pay290 (k0_pay263 v1305) (k0_pay264 v1307)) (k0_pay291 (k0_pay263 v1305) (k0_pay264 v1307) (k0_pay265 v1309))]

theorem y0_eq : y0 v137 v1219 v1221 v1223 = yOf v137 (heads0 v1219 v1221 v1223) := rfl

theorem acc38_eq : acc38 v137 v1219 v1221 v1223 v1305 v1307 v1309 r0
    = addR (stack2 (y0 v137 v1219 v1221 v1223) (yOf v137 (heads1 v1305 v1307 v1309))) r0 := rfl

theorem out41_eq : out41 v137 v1219 v1221 v1223 v1305 v1307 v1309 r0 r1 r2 r3 r4 r5 r6
    = addR (addR (addR (addR (addR (addR (acc38 v137 v1219 v1221 v1223 v1305 v1307 v1309 r0) r1) r2) r3) r4) r5) r6 := rfl

section Values
variable (Qf : Fin 128 → Fin 512 → EReal) (Kf Vf : Fin 1024 → Fin 512 → EReal)

/-- Each head of the first batch is its numerator over its denominator. -/
theorem heads0_apply (hQ : ∀ p c, v1219 (ix3 (0 : Fin 1) p c) = Qf p c) (hK : ∀ j c, v1221 (ix3 (0 : Fin 1) j c) = Kf j c)
    (hV : ∀ j c, v1223 (ix3 (0 : Fin 1) j c) = Vf j c) (h : Fin 8) (p : Fin 128) (e : Fin 64) :
    heads0 v1219 v1221 v1223 h (ix2 p e) = Ideal.div (aNum Qf Kf Vf h p e) (aDen Qf Kf h p) := by
  have hQ' : ∀ p c, k0_pay233 v1219 (ix2 p c) = Qf p c := fun p c => (dropUnit_apply v1219 _ p c).trans (hQ p c)
  have hK' : ∀ j c, k0_pay234 v1221 (ix2 j c) = Kf j c := fun j c => (dropUnit_apply v1221 _ j c).trans (hK j c)
  have hV' : ∀ j c, k0_pay235 v1223 (ix2 j c) = Vf j c := fun j c => (dropUnit_apply v1223 _ j c).trans (hV j c)
  match h with
  | ⟨0, _⟩ =>
    exact head_apply 0 0 rfl slices_S128x512_o0_0_S128x64 slices_S1024x512_o0_0_S1024x64 slices_S1024x512_o0_0_S1024x64
      (k0_pay233 v1219) (k0_pay234 v1221) (k0_pay235 v1223) Qf Kf Vf hQ' hK' hV' p e
  | ⟨1, _⟩ =>
    exact head_apply 64 1 rfl slices_S128x512_o0_64_S128x64 slices_S1024x512_o0_64_S1024x64 slices_S1024x512_o0_64_S1024x64
      (k0_pay233 v1219) (k0_pay234 v1221) (k0_pay235 v1223) Qf Kf Vf hQ' hK' hV' p e
  | ⟨2, _⟩ =>
    exact head_apply 128 2 rfl slices_S128x512_o0_128_S128x64 slices_S1024x512_o0_128_S1024x64 slices_S1024x512_o0_128_S1024x64
      (k0_pay233 v1219) (k0_pay234 v1221) (k0_pay235 v1223) Qf Kf Vf hQ' hK' hV' p e
  | ⟨3, _⟩ =>
    exact head_apply 192 3 rfl slices_S128x512_o0_192_S128x64 slices_S1024x512_o0_192_S1024x64 slices_S1024x512_o0_192_S1024x64
      (k0_pay233 v1219) (k0_pay234 v1221) (k0_pay235 v1223) Qf Kf Vf hQ' hK' hV' p e
  | ⟨4, _⟩ =>
    exact head_apply 256 4 rfl slices_S128x512_o0_256_S128x64 slices_S1024x512_o0_256_S1024x64 slices_S1024x512_o0_256_S1024x64
      (k0_pay233 v1219) (k0_pay234 v1221) (k0_pay235 v1223) Qf Kf Vf hQ' hK' hV' p e
  | ⟨5, _⟩ =>
    exact head_apply 320 5 rfl slices_S128x512_o0_320_S128x64 slices_S1024x512_o0_320_S1024x64 slices_S1024x512_o0_320_S1024x64
      (k0_pay233 v1219) (k0_pay234 v1221) (k0_pay235 v1223) Qf Kf Vf hQ' hK' hV' p e
  | ⟨6, _⟩ =>
    exact head_apply 384 6 rfl slices_S128x512_o0_384_S128x64 slices_S1024x512_o0_384_S1024x64 slices_S1024x512_o0_384_S1024x64
      (k0_pay233 v1219) (k0_pay234 v1221) (k0_pay235 v1223) Qf Kf Vf hQ' hK' hV' p e
  | ⟨7, _⟩ =>
    exact head_apply 448 7 rfl slices_S128x512_o0_448_S128x64 slices_S1024x512_o0_448_S1024x64 slices_S1024x512_o0_448_S1024x64
      (k0_pay233 v1219) (k0_pay234 v1221) (k0_pay235 v1223) Qf Kf Vf hQ' hK' hV' p e
  | ⟨n + 8, hn⟩ => exact absurd hn (by omega)

/-- Each head of the second batch is its numerator over its denominator. -/
theorem heads1_apply (hQ : ∀ p c, v1305 (ix3 (0 : Fin 1) p c) = Qf p c) (hK : ∀ j c, v1307 (ix3 (0 : Fin 1) j c) = Kf j c)
    (hV : ∀ j c, v1309 (ix3 (0 : Fin 1) j c) = Vf j c) (h : Fin 8) (p : Fin 128) (e : Fin 64) :
    heads1 v1305 v1307 v1309 h (ix2 p e) = Ideal.div (aNum Qf Kf Vf h p e) (aDen Qf Kf h p) := by
  have hQ' : ∀ p c, k0_pay263 v1305 (ix2 p c) = Qf p c := fun p c => (dropUnit_apply v1305 _ p c).trans (hQ p c)
  have hK' : ∀ j c, k0_pay264 v1307 (ix2 j c) = Kf j c := fun j c => (dropUnit_apply v1307 _ j c).trans (hK j c)
  have hV' : ∀ j c, k0_pay265 v1309 (ix2 j c) = Vf j c := fun j c => (dropUnit_apply v1309 _ j c).trans (hV j c)
  match h with
  | ⟨0, _⟩ =>
    exact head_apply 0 0 rfl slices_S128x512_o0_0_S128x64 slices_S1024x512_o0_0_S1024x64 slices_S1024x512_o0_0_S1024x64
      (k0_pay263 v1305) (k0_pay264 v1307) (k0_pay265 v1309) Qf Kf Vf hQ' hK' hV' p e
  | ⟨1, _⟩ =>
    exact head_apply 64 1 rfl slices_S128x512_o0_64_S128x64 slices_S1024x512_o0_64_S1024x64 slices_S1024x512_o0_64_S1024x64
      (k0_pay263 v1305) (k0_pay264 v1307) (k0_pay265 v1309) Qf Kf Vf hQ' hK' hV' p e
  | ⟨2, _⟩ =>
    exact head_apply 128 2 rfl slices_S128x512_o0_128_S128x64 slices_S1024x512_o0_128_S1024x64 slices_S1024x512_o0_128_S1024x64
      (k0_pay263 v1305) (k0_pay264 v1307) (k0_pay265 v1309) Qf Kf Vf hQ' hK' hV' p e
  | ⟨3, _⟩ =>
    exact head_apply 192 3 rfl slices_S128x512_o0_192_S128x64 slices_S1024x512_o0_192_S1024x64 slices_S1024x512_o0_192_S1024x64
      (k0_pay263 v1305) (k0_pay264 v1307) (k0_pay265 v1309) Qf Kf Vf hQ' hK' hV' p e
  | ⟨4, _⟩ =>
    exact head_apply 256 4 rfl slices_S128x512_o0_256_S128x64 slices_S1024x512_o0_256_S1024x64 slices_S1024x512_o0_256_S1024x64
      (k0_pay263 v1305) (k0_pay264 v1307) (k0_pay265 v1309) Qf Kf Vf hQ' hK' hV' p e
  | ⟨5, _⟩ =>
    exact head_apply 320 5 rfl slices_S128x512_o0_320_S128x64 slices_S1024x512_o0_320_S1024x64 slices_S1024x512_o0_320_S1024x64
      (k0_pay263 v1305) (k0_pay264 v1307) (k0_pay265 v1309) Qf Kf Vf hQ' hK' hV' p e
  | ⟨6, _⟩ =>
    exact head_apply 384 6 rfl slices_S128x512_o0_384_S128x64 slices_S1024x512_o0_384_S1024x64 slices_S1024x512_o0_384_S1024x64
      (k0_pay263 v1305) (k0_pay264 v1307) (k0_pay265 v1309) Qf Kf Vf hQ' hK' hV' p e
  | ⟨7, _⟩ =>
    exact head_apply 448 7 rfl slices_S128x512_o0_448_S128x64 slices_S1024x512_o0_448_S1024x64 slices_S1024x512_o0_448_S1024x64
      (k0_pay263 v1305) (k0_pay264 v1307) (k0_pay265 v1309) Qf Kf Vf hQ' hK' hV' p e
  | ⟨n + 8, hn⟩ => exact absurd hn (by omega)

variable (wof : Fin 512 → Fin 512 → EReal)

/-- The first batch's rows times the projection block: the attention output over all 1024 keys. -/
theorem y0_apply (hwo : ∀ c n, v137 (ix2 c n) = wof c n) (hQ : ∀ p c, v1219 (ix3 (0 : Fin 1) p c) = Qf p c)
    (hK : ∀ j c, v1221 (ix3 (0 : Fin 1) j c) = Kf j c) (hV : ∀ j c, v1223 (ix3 (0 : Fin 1) j c) = Vf j c) (p : Fin 128) (n : Fin 512) :
    y0 v137 v1219 v1221 v1223 (ix2 p n) = aOutWhole Qf Kf Vf wof p n := by
  rw [y0_eq]
  exact yOf_eq_aOutWhole v137 _ Qf Kf Vf wof hwo (heads0_apply v1219 v1221 v1223 Qf Kf Vf hQ hK hV) p n

end Values

section Stacked
variable (Qf : Fin 2 → Fin 128 → Fin 512 → EReal) (Kf Vf : Fin 2 → Fin 1024 → Fin 512 → EReal) (wof : Fin 512 → Fin 512 → EReal)
  (hwo : ∀ c n, v137 (ix2 c n) = wof c n)
  (hQ0 : ∀ p c, v1219 (ix3 (0 : Fin 1) p c) = Qf 0 p c) (hK0 : ∀ j c, v1221 (ix3 (0 : Fin 1) j c) = Kf 0 j c)
  (hV0 : ∀ j c, v1223 (ix3 (0 : Fin 1) j c) = Vf 0 j c)
  (hQ1 : ∀ p c, v1305 (ix3 (0 : Fin 1) p c) = Qf 1 p c) (hK1 : ∀ j c, v1307 (ix3 (0 : Fin 1) j c) = Kf 1 j c)
  (hV1 : ∀ j c, v1309 (ix3 (0 : Fin 1) j c) = Vf 1 j c)

include hwo hQ0 hK0 hV0 hQ1 hK1 hV1 in
/-- Both batches stacked plus the first received partial result, at (b, q, n). -/
theorem acc38_apply (b : Fin 2) (q : Fin 128) (n : Fin 512) :
    acc38 v137 v1219 v1221 v1223 v1305 v1307 v1309 r0 (ix3 b q n)
      = aOutWhole (Qf b) (Kf b) (Vf b) wof q n + r0 (ix4 (0 : Fin 1) b q n) := by
  rw [acc38_eq, addR_apply]
  refine congrArg (· + r0 (ix4 (0 : Fin 1) b q n)) ?_
  match b with
  | ⟨0, _⟩ =>
    exact (stack2_apply0 _ _ q n).trans (y0_apply v137 v1219 v1221 v1223 (Qf 0) (Kf 0) (Vf 0) wof hwo hQ0 hK0 hV0 q n)
  | ⟨1, _⟩ =>
    exact (stack2_apply1 _ _ q n).trans (yOf_eq_aOutWhole v137 _ (Qf 1) (Kf 1) (Vf 1) wof hwo
      (heads1_apply v1305 v1307 v1309 (Qf 1) (Kf 1) (Vf 1) hQ1 hK1 hV1) q n)

/-- The stored result: the accumulator plus the six further received partial results, in the order they are added. -/
theorem out41_apply_acc (b : Fin 2) (q : Fin 128) (n : Fin 512) :
    out41 v137 v1219 v1221 v1223 v1305 v1307 v1309 r0 r1 r2 r3 r4 r5 r6 (ix3 b q n)
      = acc38 v137 v1219 v1221 v1223 v1305 v1307 v1309 r0 (ix3 b q n) + r1 (ix4 (0 : Fin 1) b q n) + r2 (ix4 (0 : Fin 1) b q n)
        + r3 (ix4 (0 : Fin 1) b q n) + r4 (ix4 (0 : Fin 1) b q n) + r5 (ix4 (0 : Fin 1) b q n) + r6 (ix4 (0 : Fin 1) b q n) := by
  rw [out41_eq, addR_apply, addR_apply, addR_apply, addR_apply, addR_apply, addR_apply]

include hwo hQ0 hK0 hV0 hQ1 hK1 hV1 in
/-- The stored result at (b, q, n): the batch's attention output plus the seven received partial results. -/
theorem out41_apply (b : Fin 2) (q : Fin 128) (n : Fin 512) :
    out41 v137 v1219 v1221 v1223 v1305 v1307 v1309 r0 r1 r2 r3 r4 r5 r6 (ix3 b q n)
      = aOutWhole (Qf b) (Kf b) (Vf b) wof q n + r0 (ix4 (0 : Fin 1) b q n) + r1 (ix4 (0 : Fin 1) b q n) + r2 (ix4 (0 : Fin 1) b q n)
        + r3 (ix4 (0 : Fin 1) b q n) + r4 (ix4 (0 : Fin 1) b q n) + r5 (ix4 (0 : Fin 1) b q n) + r6 (ix4 (0 : Fin 1) b q n) := by
  rw [out41_apply_acc, acc38_apply v137 v1219 v1221 v1223 v1305 v1307 v1309 r0 Qf Kf Vf wof hwo hQ0 hK0 hV0 hQ1 hK1 hV1 b q n]

end Stacked

end Pass

end Cert.Val3

end
-- ==== Proof.ValOut.lean ====
/-
  The kernel's stored value, read at an index over the extended reals: device c's result at (b, r, n) is the
  index-by-index description kOut of the certificate's mathematics, on the devices' blocks of the arguments.

  The staged arguments are the argument arrays; a slot of the gather buffer is a block of x; rotated block ρ of the q, k
  and v scratch is the projection of the block of device (c − ρ) mod 8, so a row of the scratch is the description's
  kq, kk, kv; the attention passes' results on the rows they load are the description's partial products kY0, kY1, kY2;
  the send and receive slots carry 128 rows each to the device they are for, which adds them in the description's order.
-/
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.ValProj
import proofs.«900761_g7700000000000762_dist_attn_self_mha_htp_ss_b2_sq128_skv128_d512_hq8_dh64_v7x_i8_bf16_1_alg».proof.Proof.SpecAttn
import proofs.«900761_g7700000000000762_dist_attn_self_mha_htp_ss_b2_sq128_skv128_d512_hq8_dh64_v7x_i8_bf16_1_alg».proof.Proof.ValPass1
import proofs.«900761_g7700000000000762_dist_attn_self_mha_htp_ss_b2_sq128_skv128_d512_hq8_dh64_v7x_i8_bf16_1_alg».proof.Proof.ValPass2
import proofs.«900761_g7700000000000762_dist_attn_self_mha_htp_ss_b2_sq128_skv128_d512_hq8_dh64_v7x_i8_bf16_1_alg».proof.Proof.ValPass3

noncomputable section

namespace Cert.KernelIdealProof

open Cert.KernelIdeal Cert.KernelIdeal.Gen
open Idealize.ShloMosaic Idealize.ShloMosaic.TcCoe Idealize.ShloMosaic.ValueIdx
open Idealize.SL.Sem
open Cert.Spec

/-! ## The staged arguments are the argument arrays (any float instance) -/

section AnyInstance
variable {F : FTy → Type} [FloatOps F] (m : (ℓ : Loc nD τ sig) → Buf (Elt F) ℓ)

theorem xv_apply (c : Dev nD) (b : Fin 2) (r : Fin 128) (k : Fin 512) :
    xv m c (ix3 b r k) = m ((c : Thread nD τ).loc main_arg0) (ix3 b r k) := by
  unfold xv Gen.iblk
  rw [View.read_apply]
  have he : ((cfg0.win 0).blk t₀).view.emb (ix3 b r k) = (ix3 b r k : S2x128x512.Idx) := by
    funext a
    apply Fin.ext
    match a with
    | ⟨0, _⟩ => show 0 + 1 * b.val = b.val; omega
    | ⟨1, _⟩ => show 0 + 1 * r.val = r.val; omega
    | ⟨2, _⟩ => show 0 + 1 * k.val = k.val; omega
  rw [he]
  rfl

theorem wqv_apply (c : Dev nD) (k n : Fin 512) : wqv m c (ix2 k n) = m ((c : Thread nD τ).loc main_arg1) (ix2 k n) := by
  unfold wqv Gen.iblk
  rw [View.read_apply]
  have he : ((cfg0.win 1).blk t₀).view.emb (ix2 k n) = (ix2 k n : S512x512.Idx) := by
    funext a
    apply Fin.ext
    match a with
    | ⟨0, _⟩ => show 0 + 1 * k.val = k.val; omega
    | ⟨1, _⟩ => show 0 + 1 * n.val = n.val; omega
  rw [he]
  rfl

theorem wov_apply (c : Dev nD) (k n : Fin 512) : wov m c (ix2 k n) = m ((c : Thread nD τ).loc main_arg2) (ix2 k n) := by
  unfold wov Gen.iblk
  rw [View.read_apply]
  have he : ((cfg0.win 2).blk t₀).view.emb (ix2 k n) = (ix2 k n : S512x512.Idx) := by
    funext a
    apply Fin.ext
    match a with
    | ⟨0, _⟩ => show 0 + 1 * k.val = k.val; omega
    | ⟨1, _⟩ => show 0 + 1 * n.val = n.val; omega
  rw [he]
  rfl

theorem wkv_apply (c : Dev nD) (k n : Fin 512) : wkv m c (ix2 k n) = m ((c : Thread nD τ).loc main_arg3) (ix2 k n) := by
  unfold wkv Gen.iblk
  rw [View.read_apply]
  have he : ((cfg0.win 3).blk t₀).view.emb (ix2 k n) = (ix2 k n : S512x512.Idx) := by
    funext a
    apply Fin.ext
    match a with
    | ⟨0, _⟩ => show 0 + 1 * k.val = k.val; omega
    | ⟨1, _⟩ => show 0 + 1 * n.val = n.val; omega
  rw [he]
  rfl

theorem wvv_apply (c : Dev nD) (k n : Fin 512) : wvv m c (ix2 k n) = m ((c : Thread nD τ).loc main_arg4) (ix2 k n) := by
  unfold wvv Gen.iblk
  rw [View.read_apply]
  have he : ((cfg0.win 4).blk t₀).view.emb (ix2 k n) = (ix2 k n : S512x512.Idx) := by
    funext a
    apply Fin.ext
    match a with
    | ⟨0, _⟩ => show 0 + 1 * k.val = k.val; omega
    | ⟨1, _⟩ => show 0 + 1 * n.val = n.val; omega
  rw [he]
  rfl

/-- The three chunk threadings of every rotated block are one computation: the product of the slot with the
    concatenated weights, then its query, key or value columns. -/
theorem chunkQ_eq (W : FVec F S512x1536 .bf16) (slot : FVec F S1x2x128x512 .bf16) (ρ : Fin 8) :
    chunkQ W slot ρ = k0_pay89 (k0_pay88 W slot) := by
  fin_cases ρ <;> rfl
theorem chunkK_eq (W : FVec F S512x1536 .bf16) (slot : FVec F S1x2x128x512 .bf16) (ρ : Fin 8) :
    chunkK W slot ρ = k0_pay90 (k0_pay88 W slot) := by
  fin_cases ρ <;> rfl
theorem chunkV_eq (W : FVec F S512x1536 .bf16) (slot : FVec F S1x2x128x512 .bf16) (ρ : Fin 8) :
    chunkV W slot ρ = k0_pay91 (k0_pay88 W slot) := by
  fin_cases ρ <;> rfl

/-- A scratch buffer at an index, by its coordinates. -/
theorem buf3_at {α : Type} (X : S2x1024x512.Idx → α) (j : S2x1024x512.Idx) (b : Fin 2) (p : Fin 1024) (e : Fin 512)
    (h0 : (j 0).val = b.val) (h1 : (j 1).val = p.val) (h2 : (j 2).val = e.val) : X j = X (ix3 b p e) := by
  congr 1
  funext a
  match a with
  | ⟨0, _⟩ => exact Fin.ext h0
  | ⟨1, _⟩ => exact Fin.ext h1
  | ⟨2, _⟩ => exact Fin.ext h2

end AnyInstance

/-! ## At the extended reals -/

variable (m : (ℓ : Loc nD τ sig) → Buf (Elt Ideal) ℓ)

/-- The scale 1/8. -/
abbrev κ : EReal := Ideal.ofBits .f32 0x3E000000#32

/-- Device s's block of x, and device d's blocks of the four weights, as plain functions. -/
def xB (s : Dev nD) (b : Fin 2) (r : Fin 128) (k : Fin 512) : EReal := m ((s : Thread nD τ).loc main_arg0) (ix3 b r k)
def wqB (d : Dev nD) (k c : Fin 512) : EReal := m ((d : Thread nD τ).loc main_arg1) (ix2 k c)
def woB (d : Dev nD) (c n : Fin 512) : EReal := m ((d : Thread nD τ).loc main_arg2) (ix2 c n)
def wkB (d : Dev nD) (k c : Fin 512) : EReal := m ((d : Thread nD τ).loc main_arg3) (ix2 k c)
def wvB (d : Dev nD) (k c : Fin 512) : EReal := m ((d : Thread nD τ).loc main_arg4) (ix2 k c)

/-- A slot of the gather buffer is a block of x. -/
theorem slotv_apply (s : Dev nD) (b : Fin 2) (r : Fin 128) (k : Fin 512) : slotv m s (ix4 0 b r k) = xB m s b r k := by
  unfold slotv
  rw [Cert.ValProj.pay1_apply, xv_apply]
  rfl

/-- The output projection's block, cast. -/
theorem WOv_apply (c : Dev nD) (e n : Fin 512) : WOv m c (ix2 e n) = woB m c e n := by
  unfold WOv
  rw [Cert.ValProj.pay2_apply, wov_apply]
  rfl

/-- Rotated block ρ of the q scratch: the projection of the block of device (c − ρ) mod 8 by the scaled query weight. -/
theorem Qchunk_apply (c : Dev nD) (ρ : Fin 8) (b : Fin 2) (r : Fin 128) (e : Fin 512) :
    Qchunk m c ρ (ix3 b r e) = ∑ k : Fin 512, xB m (src c ρ) b r k * (wqB m c k e * κ) := by
  unfold Qchunk Wv
  rw [chunkQ_eq, Cert.ValProj.proj_q]
  exact Finset.sum_congr rfl fun k _ => by rw [slotv_apply, wqv_apply]; rfl

theorem Kchunk_apply (c : Dev nD) (ρ : Fin 8) (b : Fin 2) (r : Fin 128) (e : Fin 512) :
    Kchunk m c ρ (ix3 b r e) = ∑ k : Fin 512, xB m (src c ρ) b r k * wkB m c k e := by
  unfold Kchunk Wv
  rw [chunkK_eq, Cert.ValProj.proj_k]
  exact Finset.sum_congr rfl fun k _ => by rw [slotv_apply, wkv_apply]; rfl

theorem Vchunk_apply (c : Dev nD) (ρ : Fin 8) (b : Fin 2) (r : Fin 128) (e : Fin 512) :
    Vchunk m c ρ (ix3 b r e) = ∑ k : Fin 512, xB m (src c ρ) b r k * wvB m c k e := by
  unfold Vchunk Wv
  rw [chunkV_eq, Cert.ValProj.proj_v]
  exact Finset.sum_congr rfl fun k _ => by rw [slotv_apply, wvv_apply]; rfl

/-- A row of the q, k, v scratch is the description's row. -/
theorem Qbuf_apply (c : Dev nD) (b : Fin 2) (p : Fin 1024) (e : Fin 512) :
    Qbuf m c (ix3 b p e) = kq κ (xB m) (wqB m) c b p e :=
  Qchunk_apply m c (blkOf p) b (inBlk p) e
theorem Kbuf_apply (c : Dev nD) (b : Fin 2) (p : Fin 1024) (e : Fin 512) :
    Kbuf m c (ix3 b p e) = kk (xB m) (wkB m) c b p e :=
  Kchunk_apply m c (blkOf p) b (inBlk p) e
theorem Vbuf_apply (c : Dev nD) (b : Fin 2) (p : Fin 1024) (e : Fin 512) :
    Vbuf m c (ix3 b p e) = kv (xB m) (wvB m) c b p e :=
  Vchunk_apply m c (blkOf p) b (inBlk p) e

/-- What a load of rows of the q scratch returns: the description's rows, at the rectangle's offsets. -/
theorem ldQ_apply (c : Dev nD) (off size : Fin 3 → Nat) (inb : ∀ a, off a + size a ≤ S2x1024x512.size a)
    (x : (Rect.unit (s := S2x1024x512) off size inb).shape.Idx) (b : Fin 2) (p : Fin 1024) (e : Fin 512)
    (h0 : off 0 + (x 0).val = b.val) (h1 : off 1 + (x 1).val = p.val) (h2 : off 2 + (x 2).val = e.val) :
    View.ld (Qbuf m c : S2x1024x512.Idx → Elt Ideal .bf16) (Rect.unit (s := S2x1024x512) off size inb) x
      = kq κ (xB m) (wqB m) c b p e :=
  (buf3_at (Qbuf m c) _ b p e (by show off 0 + 1 * (x 0).val = b.val; omega) (by show off 1 + 1 * (x 1).val = p.val; omega)
    (by show off 2 + 1 * (x 2).val = e.val; omega)).trans (Qbuf_apply m c b p e)
theorem ldK_apply (c : Dev nD) (off size : Fin 3 → Nat) (inb : ∀ a, off a + size a ≤ S2x1024x512.size a)
    (x : (Rect.unit (s := S2x1024x512) off size inb).shape.Idx) (b : Fin 2) (p : Fin 1024) (e : Fin 512)
    (h0 : off 0 + (x 0).val = b.val) (h1 : off 1 + (x 1).val = p.val) (h2 : off 2 + (x 2).val = e.val) :
    View.ld (Kbuf m c : S2x1024x512.Idx → Elt Ideal .bf16) (Rect.unit (s := S2x1024x512) off size inb) x
      = kk (xB m) (wkB m) c b p e :=
  (buf3_at (Kbuf m c) _ b p e (by show off 0 + 1 * (x 0).val = b.val; omega) (by show off 1 + 1 * (x 1).val = p.val; omega)
    (by show off 2 + 1 * (x 2).val = e.val; omega)).trans (Kbuf_apply m c b p e)
theorem ldV_apply (c : Dev nD) (off size : Fin 3 → Nat) (inb : ∀ a, off a + size a ≤ S2x1024x512.size a)
    (x : (Rect.unit (s := S2x1024x512) off size inb).shape.Idx) (b : Fin 2) (p : Fin 1024) (e : Fin 512)
    (h0 : off 0 + (x 0).val = b.val) (h1 : off 1 + (x 1).val = p.val) (h2 : off 2 + (x 2).val = e.val) :
    View.ld (Vbuf m c : S2x1024x512.Idx → Elt Ideal .bf16) (Rect.unit (s := S2x1024x512) off size inb) x
      = kv (xB m) (wvB m) c b p e :=
  (buf3_at (Vbuf m c) _ b p e (by show off 0 + 1 * (x 0).val = b.val; omega) (by show off 1 + 1 * (x 1).val = p.val; omega)
    (by show off 2 + 1 * (x 2).val = e.val; omega)).trans (Vbuf_apply m c b p e)

/-! ## The passes' attention rows are the description's -/

section Rows

variable (κ' : EReal) (xb : Fin 8 → Fin 2 → Fin 128 → Fin 512 → EReal) (wq wk wv wo : Fin 8 → Fin 512 → Fin 512 → EReal)

/-- Row j of the first half of the keys, and of the second half, as a row of the scratch. -/
def loRow (j : Fin 512) : Fin 1024 := ⟨j.val, by have := j.isLt; omega⟩
def hiRow (j : Fin 512) : Fin 1024 := ⟨512 + j.val, by have := j.isLt; omega⟩

/-- A sum over the first 512 rows is the sum over the keys of rotated blocks 0 … 3. -/
theorem sum_loKeys (g : Fin 1024 → EReal) : ∑ j : Fin 512, g (loRow j) = ∑ j ∈ loKeys, g j := by
  refine Finset.sum_bij (fun j _ => loRow j) ?_ ?_ ?_ ?_
  · intro j _
    exact Finset.mem_filter.mpr ⟨Finset.mem_univ _, j.isLt⟩
  · intro a _ b _ h
    have h' : (loRow a).val = (loRow b).val := congrArg Fin.val h
    exact Fin.ext h'
  · intro j hj
    exact ⟨⟨j.val, (Finset.mem_filter.mp hj).2⟩, Finset.mem_univ _, Fin.ext rfl⟩
  · intro j _
    rfl

/-- A sum over the last 512 rows is the sum over the keys of rotated blocks 4 … 7. -/
theorem sum_hiKeys (g : Fin 1024 → EReal) : ∑ j : Fin 512, g (hiRow j) = ∑ j ∈ hiKeys, g j := by
  refine Finset.sum_bij (fun j _ => hiRow j) ?_ ?_ ?_ ?_
  · intro j _
    exact Finset.mem_filter.mpr ⟨Finset.mem_univ _, Nat.le_add_right _ _⟩
  · intro a _ b _ h
    have h' : (hiRow a).val = (hiRow b).val := congrArg Fin.val h
    have h'' : 512 + a.val = 512 + b.val := h'
    exact Fin.ext (by omega)
  · intro j hj
    have h512 : 512 ≤ j.val := (Finset.mem_filter.mp hj).2
    exact ⟨⟨j.val - 512, by have := j.isLt; omega⟩, Finset.mem_univ _, Fin.ext (by show 512 + (j.val - 512) = j.val; omega)⟩
  · intro j _
    rfl

/-- The attention row with the keys in two halves, on rows of the scratch, is the description's split row. -/
theorem aAttSplit_eq {R : ℕ} (d : Fin 8) (b : Fin 2) (p : Fin 1024) (Q : Fin R → Fin 512 → EReal) (q : Fin R)
    (K₁ V₁ K₂ V₂ : Fin 512 → Fin 512 → EReal)
    (hQ : ∀ e, Q q e = kq κ' xb wq d b p e)
    (hK₁ : ∀ j e, K₁ j e = kk xb wk d b (loRow j) e) (hV₁ : ∀ j e, V₁ j e = kv xb wv d b (loRow j) e)
    (hK₂ : ∀ j e, K₂ j e = kk xb wk d b (hiRow j) e) (hV₂ : ∀ j e, V₂ j e = kv xb wv d b (hiRow j) e) (c : Fin 512) :
    aAttSplit Q K₁ V₁ K₂ V₂ q c = kAttSplit κ' xb wq wk wv d b p c := by
  unfold aAttSplit kAttSplit aNum aDen kNum kDen aScore kScore
  simp only [hQ, hK₁, hV₁, hK₂, hV₂]
  rw [← sum_loKeys, ← sum_hiKeys, ← sum_loKeys, ← sum_hiKeys]

/-- The attention row over all keys at once is the description's whole row. -/
theorem aAttWhole_eq {R : ℕ} (d : Fin 8) (b : Fin 2) (p : Fin 1024) (Q : Fin R → Fin 512 → EReal) (q : Fin R)
    (K V : Fin 1024 → Fin 512 → EReal)
    (hQ : ∀ e, Q q e = kq κ' xb wq d b p e)
    (hK : ∀ j e, K j e = kk xb wk d b j e) (hV : ∀ j e, V j e = kv xb wv d b j e) (c : Fin 512) :
    aAttWhole Q K V q c = kAttWhole κ' xb wq wk wv d b p c := by
  unfold aAttWhole kAttWhole aNum aDen kNum kDen aScore kScore
  simp only [hQ, hK, hV]

end Rows

section Rows2

variable (κ' : EReal) (xb : Fin 8 → Fin 2 → Fin 128 → Fin 512 → EReal) (wq wk wv wo : Fin 8 → Fin 512 → Fin 512 → EReal)

/-- The split attention rows times the output projection's block. -/
theorem outSplit_eq {R : ℕ} (d : Fin 8) (b : Fin 2) (Q : Fin R → Fin 512 → EReal)
    (K₁ V₁ K₂ V₂ : Fin 512 → Fin 512 → EReal) (wo' : Fin 512 → Fin 512 → EReal) (q : Fin R) (p : Fin 1024)
    (hQ : ∀ e, Q q e = kq κ' xb wq d b p e)
    (hK₁ : ∀ j e, K₁ j e = kk xb wk d b (loRow j) e) (hV₁ : ∀ j e, V₁ j e = kv xb wv d b (loRow j) e)
    (hK₂ : ∀ j e, K₂ j e = kk xb wk d b (hiRow j) e) (hV₂ : ∀ j e, V₂ j e = kv xb wv d b (hiRow j) e)
    (hwo : ∀ e n, wo' e n = wo d e n) (n : Fin 512) :
    aOutSplit Q K₁ V₁ K₂ V₂ wo' q n = ∑ c : Fin 512, kAttSplit κ' xb wq wk wv d b p c * wo d c n := by
  unfold aOutSplit
  exact Finset.sum_congr rfl fun c _ => by
    rw [aAttSplit_eq κ' xb wq wk wv d b p Q q K₁ V₁ K₂ V₂ hQ hK₁ hV₁ hK₂ hV₂ c, hwo]

/-- The whole attention rows times the output projection's block. -/
theorem outWhole_eq {R : ℕ} (d : Fin 8) (b : Fin 2) (Q : Fin R → Fin 512 → EReal)
    (K V : Fin 1024 → Fin 512 → EReal) (wo' : Fin 512 → Fin 512 → EReal) (q : Fin R) (p : Fin 1024)
    (hQ : ∀ e, Q q e = kq κ' xb wq d b p e)
    (hK : ∀ j e, K j e = kk xb wk d b j e) (hV : ∀ j e, V j e = kv xb wv d b j e)
    (hwo : ∀ e n, wo' e n = wo d e n) (n : Fin 512) :
    aOutWhole Q K V wo' q n = ∑ c : Fin 512, kAttWhole κ' xb wq wk wv d b p c * wo d c n := by
  unfold aOutWhole
  exact Finset.sum_congr rfl fun c _ => by
    rw [aAttWhole_eq κ' xb wq wk wv d b p Q q K V hQ hK hV c, hwo]

end Rows2

/-! ## The passes' results are the description's partial products -/

/-- The first pass: query rows 128 … 639 against the keys in two halves. -/
theorem Y0def_apply (c : Dev nD) (b : Fin 2) (q n : Fin 512) :
    Y0def m c (ix3 b q n) = kY0 κ (xB m) (wqB m) (wkB m) (wvB m) (woB m) c b q n := by
  have hp : 128 + q.val < 1024 := by have := q.isLt; omega
  fin_cases b
  · refine (Cert.ValPass1.Y0_apply_0 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) rfl q n).trans ?_
    exact outSplit_eq κ (xB m) (wqB m) (wkB m) (wvB m) (woB m) c 0 _ _ _ _ _ _ q ⟨128 + q.val, hp⟩
      (fun e => ldQ_apply m c ![0, 128, 0] S1x512x512.size inb_S2x1024x512_S1x512x512_0_128_0 (ix3 0 q e) 0 ⟨128 + q.val, hp⟩ e rfl rfl (Nat.zero_add _))
      (fun j e => ldK_apply m c ![0, 0, 0] S1x512x512.size inb_S2x1024x512_S1x512x512_0_0_0 (ix3 0 j e) 0 (loRow j) e rfl (Nat.zero_add _) (Nat.zero_add _))
      (fun j e => ldV_apply m c ![0, 0, 0] S1x512x512.size inb_S2x1024x512_S1x512x512_0_0_0 (ix3 0 j e) 0 (loRow j) e rfl (Nat.zero_add _) (Nat.zero_add _))
      (fun j e => ldK_apply m c ![0, 512, 0] S1x512x512.size inb_S2x1024x512_S1x512x512_0_512_0 (ix3 0 j e) 0 (hiRow j) e rfl rfl (Nat.zero_add _))
      (fun j e => ldV_apply m c ![0, 512, 0] S1x512x512.size inb_S2x1024x512_S1x512x512_0_512_0 (ix3 0 j e) 0 (hiRow j) e rfl rfl (Nat.zero_add _))
      (fun e n => WOv_apply m c e n) n
  · refine (Cert.ValPass1.Y0_apply_1 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) rfl q n).trans ?_
    exact outSplit_eq κ (xB m) (wqB m) (wkB m) (wvB m) (woB m) c 1 _ _ _ _ _ _ q ⟨128 + q.val, hp⟩
      (fun e => ldQ_apply m c ![1, 128, 0] S1x512x512.size inb_S2x1024x512_S1x512x512_1_128_0 (ix3 0 q e) 1 ⟨128 + q.val, hp⟩ e rfl rfl (Nat.zero_add _))
      (fun j e => ldK_apply m c ![1, 0, 0] S1x512x512.size inb_S2x1024x512_S1x512x512_1_0_0 (ix3 0 j e) 1 (loRow j) e rfl (Nat.zero_add _) (Nat.zero_add _))
      (fun j e => ldV_apply m c ![1, 0, 0] S1x512x512.size inb_S2x1024x512_S1x512x512_1_0_0 (ix3 0 j e) 1 (loRow j) e rfl (Nat.zero_add _) (Nat.zero_add _))
      (fun j e => ldK_apply m c ![1, 512, 0] S1x512x512.size inb_S2x1024x512_S1x512x512_1_512_0 (ix3 0 j e) 1 (hiRow j) e rfl rfl (Nat.zero_add _))
      (fun j e => ldV_apply m c ![1, 512, 0] S1x512x512.size inb_S2x1024x512_S1x512x512_1_512_0 (ix3 0 j e) 1 (hiRow j) e rfl rfl (Nat.zero_add _))
      (fun e n => WOv_apply m c e n) n

/-- The second pass: query rows 640 … 1023 against all keys. -/
theorem Y1def_apply (c : Dev nD) (b : Fin 2) (q : Fin 384) (n : Fin 512) :
    Y1def m c (ix3 b q n) = kY1 κ (xB m) (wqB m) (wkB m) (wvB m) (woB m) c b q n := by
  have hp : 640 + q.val < 1024 := by have := q.isLt; omega
  fin_cases b
  · refine (Cert.ValPass2.Y1_apply0 (WOv m c) (ld_v940 m c) (ld_v942 m c) (ld_v944 m c) (ld_v1026 m c) (ld_v1028 m c) (ld_v1030 m c) q n).trans ?_
    exact outWhole_eq κ (xB m) (wqB m) (wkB m) (wvB m) (woB m) c 0 _ _ _ _ q ⟨640 + q.val, hp⟩
      (fun e => ldQ_apply m c ![0, 640, 0] S1x384x512.size inb_S2x1024x512_S1x384x512_0_640_0 (ix3 0 q e) 0 ⟨640 + q.val, hp⟩ e rfl rfl (Nat.zero_add _))
      (fun j e => ldK_apply m c ![0, 0, 0] S1x1024x512.size inb_S2x1024x512_S1x1024x512_0_0_0 (ix3 0 j e) 0 j e rfl (Nat.zero_add _) (Nat.zero_add _))
      (fun j e => ldV_apply m c ![0, 0, 0] S1x1024x512.size inb_S2x1024x512_S1x1024x512_0_0_0 (ix3 0 j e) 0 j e rfl (Nat.zero_add _) (Nat.zero_add _))
      (fun e n => WOv_apply m c e n) n
  · refine (Cert.ValPass2.Y1_apply1 (WOv m c) (ld_v940 m c) (ld_v942 m c) (ld_v944 m c) (ld_v1026 m c) (ld_v1028 m c) (ld_v1030 m c) q n).trans ?_
    exact outWhole_eq κ (xB m) (wqB m) (wkB m) (wvB m) (woB m) c 1 _ _ _ _ q ⟨640 + q.val, hp⟩
      (fun e => ldQ_apply m c ![1, 640, 0] S1x384x512.size inb_S2x1024x512_S1x384x512_1_640_0 (ix3 0 q e) 1 ⟨640 + q.val, hp⟩ e rfl rfl (Nat.zero_add _))
      (fun j e => ldK_apply m c ![1, 0, 0] S1x1024x512.size inb_S2x1024x512_S1x1024x512_1_0_0 (ix3 0 j e) 1 j e rfl (Nat.zero_add _) (Nat.zero_add _))
      (fun j e => ldV_apply m c ![1, 0, 0] S1x1024x512.size inb_S2x1024x512_S1x1024x512_1_0_0 (ix3 0 j e) 1 j e rfl (Nat.zero_add _) (Nat.zero_add _))
      (fun e n => WOv_apply m c e n) n

/-! ## The send and receive slots, and the stored value -/

/-- The first pass's result at a row named in another way. -/
theorem Y0def_row (d : Dev nD) (b : Fin 2) (q q' : Fin 512) (h : q.val = q'.val) (n : Fin 512) :
    Y0def m d (ix3 b q n) = kY0 κ (xB m) (wqB m) (wkB m) (wvB m) (woB m) d b q' n := by
  obtain rfl : q = q' := Fin.ext h
  exact Y0def_apply m d b q n
theorem Y1def_row (d : Dev nD) (b : Fin 2) (q q' : Fin 384) (h : q.val = q'.val) (n : Fin 512) :
    Y1def m d (ix3 b q n) = kY1 κ (xB m) (wqB m) (wkB m) (wvB m) (woB m) d b q' n := by
  obtain rfl : q = q' := Fin.ext h
  exact Y1def_apply m d b q n

/-- Send slot 0 of device d: rows 0 … 127 of the first pass's result. -/
theorem SS0_apply (d : Dev nD) (b : Fin 2) (r : Fin 128) (n : Fin 512) (q : Fin 512) (hq : 0 + r.val = q.val) :
    SSdef m d (ix4 (0 : Fin 7) b r n) = kY0 κ (xB m) (wqB m) (wkB m) (wvB m) (woB m) d b q n :=
  (Cert.ValPass1.slot0_apply (WOv m d) (ld_v323 m d) (ld_v325 m d) (ld_v327 m d) (ld_v409 m d) (ld_v411 m d) (ld_v413 m d) (ld_v612 m d) (ld_v614 m d) (ld_v616 m d) (ld_v714 m d) (ld_v716 m d) (ld_v718 m d) 0 b r n).trans (Y0def_row m d b _ q hq n)
/-- Send slot 1 of device d: rows 128 … 255 of the first pass's result. -/
theorem SS1_apply (d : Dev nD) (b : Fin 2) (r : Fin 128) (n : Fin 512) (q : Fin 512) (hq : 128 + r.val = q.val) :
    SSdef m d (ix4 (1 : Fin 7) b r n) = kY0 κ (xB m) (wqB m) (wkB m) (wvB m) (woB m) d b q n :=
  (Cert.ValPass1.slot1_apply (WOv m d) (ld_v323 m d) (ld_v325 m d) (ld_v327 m d) (ld_v409 m d) (ld_v411 m d) (ld_v413 m d) (ld_v612 m d) (ld_v614 m d) (ld_v616 m d) (ld_v714 m d) (ld_v716 m d) (ld_v718 m d) 0 b r n).trans (Y0def_row m d b _ q hq n)
/-- Send slot 2 of device d: rows 256 … 383 of the first pass's result. -/
theorem SS2_apply (d : Dev nD) (b : Fin 2) (r : Fin 128) (n : Fin 512) (q : Fin 512) (hq : 256 + r.val = q.val) :
    SSdef m d (ix4 (2 : Fin 7) b r n) = kY0 κ (xB m) (wqB m) (wkB m) (wvB m) (woB m) d b q n :=
  (Cert.ValPass1.slot2_apply (WOv m d) (ld_v323 m d) (ld_v325 m d) (ld_v327 m d) (ld_v409 m d) (ld_v411 m d) (ld_v413 m d) (ld_v612 m d) (ld_v614 m d) (ld_v616 m d) (ld_v714 m d) (ld_v716 m d) (ld_v718 m d) 0 b r n).trans (Y0def_row m d b _ q hq n)
/-- Send slot 3 of device d: rows 384 … 511 of the first pass's result. -/
theorem SS3_apply (d : Dev nD) (b : Fin 2) (r : Fin 128) (n : Fin 512) (q : Fin 512) (hq : 384 + r.val = q.val) :
    SSdef m d (ix4 (3 : Fin 7) b r n) = kY0 κ (xB m) (wqB m) (wkB m) (wvB m) (woB m) d b q n :=
  (Cert.ValPass1.slot3_apply (WOv m d) (ld_v323 m d) (ld_v325 m d) (ld_v327 m d) (ld_v409 m d) (ld_v411 m d) (ld_v413 m d) (ld_v612 m d) (ld_v614 m d) (ld_v616 m d) (ld_v714 m d) (ld_v716 m d) (ld_v718 m d) 0 b r n).trans (Y0def_row m d b _ q hq n)
/-- Send slot 4 of device d: rows 0 … 127 of the second pass's result. -/
theorem SS4_apply (d : Dev nD) (b : Fin 2) (r : Fin 128) (n : Fin 512) (q : Fin 384) (hq : r.val = q.val) :
    SSdef m d (ix4 (4 : Fin 7) b r n) = kY1 κ (xB m) (wqB m) (wkB m) (wvB m) (woB m) d b q n :=
  (Cert.ValPass2.Slot4_apply (WOv m d) (ld_v940 m d) (ld_v942 m d) (ld_v944 m d) (ld_v1026 m d) (ld_v1028 m d) (ld_v1030 m d) 0 b r n).trans (Y1def_row m d b _ q hq n)
/-- Send slot 5 of device d: rows 128 … 255 of the second pass's result. -/
theorem SS5_apply (d : Dev nD) (b : Fin 2) (r : Fin 128) (n : Fin 512) (q : Fin 384) (hq : 128 + r.val = q.val) :
    SSdef m d (ix4 (5 : Fin 7) b r n) = kY1 κ (xB m) (wqB m) (wkB m) (wvB m) (woB m) d b q n :=
  (Cert.ValPass2.Slot5_apply (WOv m d) (ld_v940 m d) (ld_v942 m d) (ld_v944 m d) (ld_v1026 m d) (ld_v1028 m d) (ld_v1030 m d) 0 b r n).trans (Y1def_row m d b _ q hq n)
/-- Send slot 6 of device d: rows 256 … 383 of the second pass's result. -/
theorem SS6_apply (d : Dev nD) (b : Fin 2) (r : Fin 128) (n : Fin 512) (q : Fin 384) (hq : 256 + r.val = q.val) :
    SSdef m d (ix4 (6 : Fin 7) b r n) = kY1 κ (xB m) (wqB m) (wkB m) (wvB m) (woB m) d b q n :=
  (Cert.ValPass2.Slot6_apply (WOv m d) (ld_v940 m d) (ld_v942 m d) (ld_v944 m d) (ld_v1026 m d) (ld_v1028 m d) (ld_v1030 m d) 0 b r n).trans (Y1def_row m d b _ q hq n)

/-- A slot buffer at an index, by its coordinates. -/
theorem buf4_at {α : Type} (X : S7x2x128x512.Idx → α) (j : S7x2x128x512.Idx) (i : Fin 7) (b : Fin 2) (r : Fin 128) (n : Fin 512)
    (h0 : (j 0).val = i.val) (h1 : (j 1).val = b.val) (h2 : (j 2).val = r.val) (h3 : (j 3).val = n.val) :
    X j = X (ix4 i b r n) := by
  congr 1
  funext a
  match a with
  | ⟨0, _⟩ => exact Fin.ext h0
  | ⟨1, _⟩ => exact Fin.ext h1
  | ⟨2, _⟩ => exact Fin.ext h2
  | ⟨3, _⟩ => exact Fin.ext h3

/-- What device c loads from slot i of its receive buffer: slot i of the send buffer of the device i + 1 places after it. -/
theorem ldR_apply (c : Dev nD) (off size : Fin 4 → Nat) (inb : ∀ a, off a + size a ≤ S7x2x128x512.size a)
    (x : (Rect.unit (s := S7x2x128x512) off size inb).shape.Idx) (i : Fin 7) (b : Fin 2) (r : Fin 128) (n : Fin 512)
    (h0 : off 0 + (x 0).val = i.val) (h1 : off 1 + (x 1).val = b.val) (h2 : off 2 + (x 2).val = r.val)
    (h3 : off 3 + (x 3).val = n.val) :
    View.ld (RSdef m c : S7x2x128x512.Idx → Elt Ideal .bf16) (Rect.unit (s := S7x2x128x512) off size inb) x
      = SSdef m (fwd c (i.val + 1)) (ix4 i b r n) :=
  (buf4_at (RSdef m c) _ i b r n (by show off 0 + 1 * (x 0).val = i.val; omega) (by show off 1 + 1 * (x 1).val = b.val; omega)
    (by show off 2 + 1 * (x 2).val = r.val; omega) (by show off 3 + 1 * (x 3).val = n.val; omega)).trans rfl

/-- The device j places after c, as the description names it. -/
theorem fwd_eq_peer (c : Dev nD) (j : ℕ) : fwd c j = peer c j := rfl

/-- THE STORED VALUE: device c's result at (b, r, n) is the description's. -/
theorem OUTdef_apply (c : Dev nD) (b : Fin 2) (r : Fin 128) (n : Fin 512) :
    OUTdef m c (ix3 b r n) = kOut κ (xB m) (wqB m) (wkB m) (wvB m) (woB m) c b r n := by
  have hr : r.val < 1024 := by have := r.isLt; omega
  have h := Cert.Val3.out41_apply (WOv m c) (ld_v1219 m c) (ld_v1221 m c) (ld_v1223 m c) (ld_v1305 m c) (ld_v1307 m c) (ld_v1309 m c)
    (ld_r0 m c) (ld_r1 m c) (ld_r2 m c) (ld_r3 m c) (ld_r4 m c) (ld_r5 m c) (ld_r6 m c)
    (fun b' p e => kq κ (xB m) (wqB m) c b' ⟨p.val, by have := p.isLt; omega⟩ e)
    (fun b' j e => kk (xB m) (wkB m) c b' j e) (fun b' j e => kv (xB m) (wvB m) c b' j e) (woB m c)
    (fun e n => WOv_apply m c e n)
    (fun p e => ldQ_apply m c ![0, 0, 0] S1x128x512.size inb_S2x1024x512_S1x128x512_0_0_0 (ix3 0 p e) 0 ⟨p.val, by have := p.isLt; omega⟩ e rfl (Nat.zero_add _) (Nat.zero_add _))
    (fun j e => ldK_apply m c ![0, 0, 0] S1x1024x512.size inb_S2x1024x512_S1x1024x512_0_0_0 (ix3 0 j e) 0 j e rfl (Nat.zero_add _) (Nat.zero_add _))
    (fun j e => ldV_apply m c ![0, 0, 0] S1x1024x512.size inb_S2x1024x512_S1x1024x512_0_0_0 (ix3 0 j e) 0 j e rfl (Nat.zero_add _) (Nat.zero_add _))
    (fun p e => ldQ_apply m c ![1, 0, 0] S1x128x512.size inb_S2x1024x512_S1x128x512_1_0_0 (ix3 0 p e) 1 ⟨p.val, by have := p.isLt; omega⟩ e rfl (Nat.zero_add _) (Nat.zero_add _))
    (fun j e => ldK_apply m c ![1, 0, 0] S1x1024x512.size inb_S2x1024x512_S1x1024x512_1_0_0 (ix3 0 j e) 1 j e rfl (Nat.zero_add _) (Nat.zero_add _))
    (fun j e => ldV_apply m c ![1, 0, 0] S1x1024x512.size inb_S2x1024x512_S1x1024x512_1_0_0 (ix3 0 j e) 1 j e rfl (Nat.zero_add _) (Nat.zero_add _))
    b r n
  refine h.trans ?_
  -- the device's own partial product
  have e2 : aOutWhole (fun p e => kq κ (xB m) (wqB m) c b ⟨p.val, by have := p.isLt; omega⟩ e)
      (fun j e => kk (xB m) (wkB m) c b j e) (fun j e => kv (xB m) (wvB m) c b j e) (woB m c) r n
      = kY2 κ (xB m) (wqB m) (wkB m) (wvB m) (woB m) c b r n :=
    outWhole_eq κ (xB m) (wqB m) (wkB m) (wvB m) (woB m) c b _ _ _ _ r ⟨r.val, hr⟩ (fun _ => rfl) (fun _ _ => rfl) (fun _ _ => rfl) (fun _ _ => rfl) n
  -- the seven received ones
  have e_r0 : ld_r0 m c (ix4 (0 : Fin 1) b r n) = kY0 κ (xB m) (wqB m) (wkB m) (wvB m) (woB m) (peer c 1) b ⟨r.val, by have := r.isLt; omega⟩ n :=
    (ldR_apply m c ![0, 0, 0, 0] S1x2x128x512.size inb_S7x2x128x512_S1x2x128x512_0_0_0_0 (ix4 0 b r n) 0 b r n rfl (Nat.zero_add _) (Nat.zero_add _) (Nat.zero_add _)).trans
      (SS0_apply m (fwd c 1) b r n _ (Nat.zero_add _))
  have e_r1 : ld_r1 m c (ix4 (0 : Fin 1) b r n) = kY0 κ (xB m) (wqB m) (wkB m) (wvB m) (woB m) (peer c 2) b ⟨128 + r.val, by have := r.isLt; omega⟩ n :=
    (ldR_apply m c ![1, 0, 0, 0] S1x2x128x512.size inb_S7x2x128x512_S1x2x128x512_1_0_0_0 (ix4 0 b r n) 1 b r n rfl (Nat.zero_add _) (Nat.zero_add _) (Nat.zero_add _)).trans
      (SS1_apply m (fwd c 2) b r n _ rfl)
  have e_r2 : ld_r2 m c (ix4 (0 : Fin 1) b r n) = kY0 κ (xB m) (wqB m) (wkB m) (wvB m) (woB m) (peer c 3) b ⟨256 + r.val, by have := r.isLt; omega⟩ n :=
    (ldR_apply m c ![2, 0, 0, 0] S1x2x128x512.size inb_S7x2x128x512_S1x2x128x512_2_0_0_0 (ix4 0 b r n) 2 b r n rfl (Nat.zero_add _) (Nat.zero_add _) (Nat.zero_add _)).trans
      (SS2_apply m (fwd c 3) b r n _ rfl)
  have e_r3 : ld_r3 m c (ix4 (0 : Fin 1) b r n) = kY0 κ (xB m) (wqB m) (wkB m) (wvB m) (woB m) (peer c 4) b ⟨384 + r.val, by have := r.isLt; omega⟩ n :=
    (ldR_apply m c ![3, 0, 0, 0] S1x2x128x512.size inb_S7x2x128x512_S1x2x128x512_3_0_0_0 (ix4 0 b r n) 3 b r n rfl (Nat.zero_add _) (Nat.zero_add _) (Nat.zero_add _)).trans
      (SS3_apply m (fwd c 4) b r n _ rfl)
  have e_r4 : ld_r4 m c (ix4 (0 : Fin 1) b r n) = kY1 κ (xB m) (wqB m) (wkB m) (wvB m) (woB m) (peer c 5) b ⟨r.val, by have := r.isLt; omega⟩ n :=
    (ldR_apply m c ![4, 0, 0, 0] S1x2x128x512.size inb_S7x2x128x512_S1x2x128x512_4_0_0_0 (ix4 0 b r n) 4 b r n rfl (Nat.zero_add _) (Nat.zero_add _) (Nat.zero_add _)).trans
      (SS4_apply m (fwd c 5) b r n _ rfl)
  have e_r5 : ld_r5 m c (ix4 (0 : Fin 1) b r n) = kY1 κ (xB m) (wqB m) (wkB m) (wvB m) (woB m) (peer c 6) b ⟨128 + r.val, by have := r.isLt; omega⟩ n :=
    (ldR_apply m c ![5, 0, 0, 0] S1x2x128x512.size inb_S7x2x128x512_S1x2x128x512_5_0_0_0 (ix4 0 b r n) 5 b r n rfl (Nat.zero_add _) (Nat.zero_add _) (Nat.zero_add _)).trans
      (SS5_apply m (fwd c 6) b r n _ rfl)
  have e_r6 : ld_r6 m c (ix4 (0 : Fin 1) b r n) = kY1 κ (xB m) (wqB m) (wkB m) (wvB m) (woB m) (peer c 7) b ⟨256 + r.val, by have := r.isLt; omega⟩ n :=
    (ldR_apply m c ![6, 0, 0, 0] S1x2x128x512.size inb_S7x2x128x512_S1x2x128x512_6_0_0_0 (ix4 0 b r n) 6 b r n rfl (Nat.zero_add _) (Nat.zero_add _) (Nat.zero_add _)).trans
      (SS6_apply m (fwd c 7) b r n _ rfl)
  rw [e2, e_r0, e_r1, e_r2, e_r3, e_r4, e_r5, e_r6]
  rfl

end Cert.KernelIdealProof

end
-- ==== Proof.Bridge.lean ====
/-
  The bridge between the two index-by-index readings of the certificate: device c's result kOut, on the
  blocks of the whole arrays, is the reference's result refOut on the rows of device c's chunk.

  All inputs are real numbers, so every quantity below is a real number read as an extended real. The real
  quantities are written out once (rProj, rScore, rAtt, rOut); the reference's definitions and the
  kernel's definitions are each shown to be the coercion of the same real quantity.
-/
import proofs.«900761_g7700000000000762_dist_attn_self_mha_htp_ss_b2_sq128_skv128_d512_hq8_dh64_v7x_i8_bf16_1_alg».proof.Proof.Spec
import Mathlib.Algebra.BigOperators.Fin
import Mathlib.Algebra.BigOperators.Group.Finset.Basic
import Mathlib.Data.Fintype.BigOperators
import Mathlib.Logic.Equiv.Fin.Basic
import Mathlib.Data.EReal.Operations
import Mathlib.Tactic.Ring
import Mathlib.Tactic.FieldSimp
import Mathlib.Tactic.Choose

noncomputable section

namespace Cert.Spec

open Idealize.ShloMosaic

/-! ## Reals inside the extended reals -/

/-- A finite sum of reals read as extended reals is the real sum read as an extended real. -/
theorem coe_finsum {ι : Type*} (s : Finset ι) (g : ι → ℝ) :
    (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The quotient of two reals, the divisor not zero. -/
theorem div_coe_real (a : ℝ) {y : ℝ} (hy : y ≠ 0) : Ideal.div (a : EReal) (y : EReal) = ((a / y : ℝ) : EReal) := by
  rw [Ideal.div_coe hy, ← EReal.coe_mul, mul_one_div]

/-- The largest of finitely many reals (the family not empty), taken in the extended reals, is one of them. -/
theorem sup_coe_real {ι : Type*} [Fintype ι] [Nonempty ι] (g : ι → ℝ) :
    ∃ m : ℝ, (Finset.univ.sup fun i : ι => ((g i : ℝ) : EReal)) = (m : EReal) := by
  obtain ⟨i, -, hi⟩ := Finset.exists_mem_eq_sup (Finset.univ : Finset ι) Finset.univ_nonempty
    (fun i : ι => ((g i : ℝ) : EReal))
  exact ⟨g i, hi⟩

/-- Subtracting one number from every score changes neither weight ratio: exp (−m) is a positive common factor
    of the numerator and the denominator. -/
theorem softmax_shift {ι : Type*} [Fintype ι] [Nonempty ι] (s v : ι → ℝ) (m : ℝ) :
    (∑ j, Real.exp (s j - m) * v j) / (∑ j, Real.exp (s j - m))
      = (∑ j, Real.exp (s j) * v j) / (∑ j, Real.exp (s j)) := by
  have hm : Real.exp (-m) ≠ 0 := (Real.exp_pos _).ne'
  have h1 : ∀ j, Real.exp (s j - m) = Real.exp (-m) * Real.exp (s j) := by
    intro j; rw [← Real.exp_add]; congr 1; ring
  have e1 : ∑ j, Real.exp (s j - m) * v j = Real.exp (-m) * ∑ j, Real.exp (s j) * v j := by
    rw [Finset.mul_sum]; exact Finset.sum_congr rfl (fun j _ => by rw [h1 j, mul_assoc])
  have e2 : ∑ j, Real.exp (s j - m) = Real.exp (-m) * ∑ j, Real.exp (s j) := by
    rw [Finset.mul_sum]; exact Finset.sum_congr rfl (fun j _ => h1 j)
  rw [e1, e2, mul_div_mul_left _ _ hm]

/-! ## The real quantities -/

section RealSide

variable (κ : ℝ) (X : Fin 2 → Fin 1024 → Fin 512 → ℝ) (Wq Wk Wv : Fin 512 → Fin 4096 → ℝ) (Wo : Fin 4096 → Fin 512 → ℝ)

/-- Row i of batch b times column c of W. -/
def rProj (W : Fin 512 → Fin 4096 → ℝ) (b : Fin 2) (i : Fin 1024) (c : Fin 4096) : ℝ := ∑ k : Fin 512, X b i k * W k c

/-- The scaled score of query i against key j in head h. -/
def rScore (b : Fin 2) (h : Fin 64) (i j : Fin 1024) : ℝ :=
  (∑ e : Fin 64, rProj X Wq b i (hd64 h e) * rProj X Wk b j (hd64 h e)) * κ

/-- The attention row of query i, column c, with no maximum subtracted. -/
def rAtt (b : Fin 2) (i : Fin 1024) (c : Fin 4096) : ℝ :=
  (∑ j : Fin 1024, Real.exp (rScore κ X Wq Wk b (headOf64 c) i j) * rProj X Wv b j (hd64 (headOf64 c) (inHead64 c)))
    / (∑ j : Fin 1024, Real.exp (rScore κ X Wq Wk b (headOf64 c) i j))

/-- The attention row times Wo. -/
def rOut (b : Fin 2) (i : Fin 1024) (n : Fin 512) : ℝ := ∑ c : Fin 4096, rAtt κ X Wq Wk Wv b i c * Wo c n

/-- The sum of the weights is positive. -/
theorem rDen_pos (b : Fin 2) (h : Fin 64) (i : Fin 1024) (m : ℝ) :
    0 < ∑ j : Fin 1024, Real.exp (rScore κ X Wq Wk b h i j - m) :=
  Finset.sum_pos (fun j _ => Real.exp_pos _) Finset.univ_nonempty

/-! ## The reference is the coercion of the real quantities -/

theorem proj_coe (W : Fin 512 → Fin 4096 → ℝ) (b : Fin 2) (i : Fin 1024) (c : Fin 4096) :
    proj (fun b i k => ((X b i k : ℝ) : EReal)) (fun k c => ((W k c : ℝ) : EReal)) b i c = ((rProj X W b i c : ℝ) : EReal) := by
  unfold proj rProj
  simp only [← EReal.coe_mul, coe_finsum]

theorem refScore_coe (b : Fin 2) (h : Fin 64) (i j : Fin 1024) :
    refScore (κ : EReal) (fun b i k => ((X b i k : ℝ) : EReal)) (fun k c => ((Wq k c : ℝ) : EReal))
      (fun k c => ((Wk k c : ℝ) : EReal)) b h i j = ((rScore κ X Wq Wk b h i j : ℝ) : EReal) := by
  unfold refScore rScore
  simp only [proj_coe, ← EReal.coe_mul, coe_finsum]

theorem refAtt_coe (b : Fin 2) (i : Fin 1024) (c : Fin 4096) :
    refAtt (κ : EReal) (fun b i k => ((X b i k : ℝ) : EReal)) (fun k c => ((Wq k c : ℝ) : EReal))
      (fun k c => ((Wk k c : ℝ) : EReal)) (fun k c => ((Wv k c : ℝ) : EReal)) b i c
      = ((rAtt κ X Wq Wk Wv b i c : ℝ) : EReal) := by
  -- the row's maximum is a real number m
  obtain ⟨m, hm⟩ := sup_coe_real (fun j : Fin 1024 => rScore κ X Wq Wk b (headOf64 c) i j)
  have hmax : refMax (κ : EReal) (fun b i k => ((X b i k : ℝ) : EReal)) (fun k c => ((Wq k c : ℝ) : EReal))
      (fun k c => ((Wk k c : ℝ) : EReal)) b (headOf64 c) i = (m : EReal) := by
    unfold refMax
    simp only [refScore_coe]
    exact hm
  unfold refAtt refNum refDen refP
  simp only [hmax, refScore_coe, proj_coe, ← EReal.coe_sub, Ideal.exp_coe, ← EReal.coe_mul, coe_finsum]
  rw [div_coe_real _ (rDen_pos κ X Wq Wk b (headOf64 c) i m).ne', softmax_shift]
  rfl

theorem refOut_coe (b : Fin 2) (i : Fin 1024) (n : Fin 512) :
    refOut (κ : EReal) (fun b i k => ((X b i k : ℝ) : EReal)) (fun k c => ((Wq k c : ℝ) : EReal))
      (fun k c => ((Wk k c : ℝ) : EReal)) (fun k c => ((Wv k c : ℝ) : EReal)) (fun c n => ((Wo c n : ℝ) : EReal)) b i n
      = ((rOut κ X Wq Wk Wv Wo b i n : ℝ) : EReal) := by
  unfold refOut rOut
  simp only [refAtt_coe, ← EReal.coe_mul, coe_finsum]

end RealSide

/-! ## The kernel's indices -/

/-- The sequence row held in scratch row p of device d: block (d − p / 128) mod 8, place p mod 128. -/
def seqRow (d : Fin 8) (p : Fin 1024) : Fin 1024 :=
  ⟨128 * (src d (blkOf p)).val + (inBlk p).val, by
    have := (src d (blkOf p)).isLt; have := (inBlk p).isLt; omega⟩

/-- Column c of device d's block, as a column of the whole weight. -/
def col (d : Fin 8) (c : Fin 512) : Fin 4096 := ⟨512 * d.val + c.val, by have := d.isLt; have := c.isLt; omega⟩

/-- Head h of device d, among the 64 heads. -/
def hdOf (d h : Fin 8) : Fin 64 := ⟨8 * d.val + h.val, by have := d.isLt; have := h.isLt; omega⟩

/-- Rotating twice gives back the row: the rotation is its own inverse. -/
theorem seqRow_invol (d : Fin 8) : Function.Involutive (seqRow d) := by
  intro p
  apply Fin.ext
  have := d.isLt; have := p.isLt
  simp only [seqRow, src, blkOf, inBlk]
  omega

/-- A sum over all scratch rows of device d is the sum over all sequence rows. -/
theorem sum_seqRow (d : Fin 8) (f : Fin 1024 → ℝ) : ∑ p : Fin 1024, f (seqRow d p) = ∑ i : Fin 1024, f i :=
  Equiv.sum_comp (Function.Involutive.toPerm (seqRow d) (seqRow_invol d)) f

/-- The two halves of the keys make up all the keys. -/
theorem sum_lo_add_hi (f : Fin 1024 → ℝ) : (∑ j ∈ loKeys, f j) + (∑ j ∈ hiKeys, f j) = ∑ j : Fin 1024, f j := by
  have h : hiKeys = Finset.univ.filter (fun j : Fin 1024 => ¬ j.val < 512) := by
    unfold hiKeys
    exact Finset.filter_congr (fun j _ => not_lt.symm)
  rw [h]
  exact Finset.sum_filter_add_sum_filter_not Finset.univ _ f

theorem col_hd8 (d h : Fin 8) (e : Fin 64) : col d (hd8 h e) = hd64 (hdOf d h) e := by
  apply Fin.ext
  simp only [col, hd8, hd64, hdOf]
  omega

theorem headOf64_col (d : Fin 8) (c : Fin 512) : headOf64 (col d c) = hdOf d (headOf8 c) := by
  apply Fin.ext
  simp only [headOf64, col, hdOf, headOf8]
  omega

theorem inHead64_col (d : Fin 8) (c : Fin 512) : inHead64 (col d c) = inHead8 c := by
  apply Fin.ext
  simp only [inHead64, col, inHead8]
  omega

/-- The eight devices c, c+1, …, c+7 on the ring are all the devices. -/
theorem sum_peers (g : Fin 8 → ℝ) (c : Fin 8) :
    g c + g (peer c 1) + g (peer c 2) + g (peer c 3) + g (peer c 4) + g (peer c 5) + g (peer c 6) + g (peer c 7)
      = ∑ d : Fin 8, g d := by
  have hbij : ∑ d : Fin 8, g d = ∑ j : Fin 8, g (peer c j.val) := by
    rw [← Equiv.sum_comp (Equiv.addLeft c) g]
    exact Finset.sum_congr rfl (fun j _ => congrArg g (Fin.ext (by simp [peer, Fin.val_add])))
  have h0 : peer c 0 = c := Fin.ext (by have := c.isLt; simp only [peer]; omega)
  rw [hbij, Fin.sum_univ_eight]
  show _ = g (peer c 0) + g (peer c 1) + g (peer c 2) + g (peer c 3) + g (peer c 4) + g (peer c 5) + g (peer c 6)
    + g (peer c 7)
  rw [h0]

/-- The 4096 columns are the eight devices' blocks of 512. -/
theorem sum_blocks (f : Fin 4096 → ℝ) : ∑ d : Fin 8, ∑ c : Fin 512, f (col d c) = ∑ c : Fin 4096, f c := by
  rw [← Fintype.sum_prod_type' (fun d c => f (col d c))]
  exact Fintype.sum_equiv (finProdFinEquiv : Fin 8 × Fin 512 ≃ Fin 4096) _ _
    (fun x => congrArg f (Fin.ext (by simp only [col, finProdFinEquiv_apply_val]; omega)))

/-! ## The kernel is the coercion of the same real quantities -/

section KerSide

variable (κ : ℝ) (X : Fin 2 → Fin 1024 → Fin 512 → ℝ) (Wq Wk Wv : Fin 512 → Fin 4096 → ℝ) (Wo : Fin 4096 → Fin 512 → ℝ)

/-- The query projection with the scale folded into the weight: the scale comes out of the sum over k. -/
theorem kq_coe (d : Fin 8) (b : Fin 2) (p : Fin 1024) (c : Fin 512) :
    kq (κ : EReal) (xBlk fun b i k => ((X b i k : ℝ) : EReal)) (colBlk fun k c => ((Wq k c : ℝ) : EReal)) d b p c
      = ((rProj X Wq b (seqRow d p) (col d c) * κ : ℝ) : EReal) := by
  show (∑ k : Fin 512, ((X b (seqRow d p) k : ℝ) : EReal) * (((Wq k (col d c) : ℝ) : EReal) * (κ : EReal))) = _
  simp only [← EReal.coe_mul, coe_finsum]
  congr 1
  unfold rProj
  rw [Finset.sum_mul]
  exact Finset.sum_congr rfl (fun k _ => (mul_assoc _ _ _).symm)

theorem kk_coe (W : Fin 512 → Fin 4096 → ℝ) (d : Fin 8) (b : Fin 2) (p : Fin 1024) (c : Fin 512) :
    kk (xBlk fun b i k => ((X b i k : ℝ) : EReal)) (colBlk fun k c => ((W k c : ℝ) : EReal)) d b p c
      = ((rProj X W b (seqRow d p) (col d c) : ℝ) : EReal) := by
  show (∑ k : Fin 512, ((X b (seqRow d p) k : ℝ) : EReal) * ((W k (col d c) : ℝ) : EReal)) = _
  simp only [← EReal.coe_mul, coe_finsum]
  rfl

theorem kv_coe (W : Fin 512 → Fin 4096 → ℝ) (d : Fin 8) (b : Fin 2) (p : Fin 1024) (c : Fin 512) :
    kv (xBlk fun b i k => ((X b i k : ℝ) : EReal)) (colBlk fun k c => ((W k c : ℝ) : EReal)) d b p c
      = ((rProj X W b (seqRow d p) (col d c) : ℝ) : EReal) := by
  show (∑ k : Fin 512, ((X b (seqRow d p) k : ℝ) : EReal) * ((W k (col d c) : ℝ) : EReal)) = _
  simp only [← EReal.coe_mul, coe_finsum]
  rfl

/-- The kernel's score of scratch rows p, j in its head h is the reference's score of their sequence rows in
    head 8 d + h. -/
theorem kScore_coe (d : Fin 8) (b : Fin 2) (h : Fin 8) (p j : Fin 1024) :
    kScore (κ : EReal) (xBlk fun b i k => ((X b i k : ℝ) : EReal)) (colBlk fun k c => ((Wq k c : ℝ) : EReal))
      (colBlk fun k c => ((Wk k c : ℝ) : EReal)) d b h p j
      = ((rScore κ X Wq Wk b (hdOf d h) (seqRow d p) (seqRow d j) : ℝ) : EReal) := by
  unfold kScore
  simp only [kq_coe, kk_coe, ← EReal.coe_mul, coe_finsum, col_hd8]
  congr 1
  unfold rScore
  rw [Finset.sum_mul]
  exact Finset.sum_congr rfl (fun e _ => by ring)

theorem kNum_coe (d : Fin 8) (b : Fin 2) (h : Fin 8) (p : Fin 1024) (e : Fin 64) (S : Finset (Fin 1024)) :
    kNum (κ : EReal) (xBlk fun b i k => ((X b i k : ℝ) : EReal)) (colBlk fun k c => ((Wq k c : ℝ) : EReal))
      (colBlk fun k c => ((Wk k c : ℝ) : EReal)) (colBlk fun k c => ((Wv k c : ℝ) : EReal)) d b h p e S
      = ((∑ j ∈ S, Real.exp (rScore κ X Wq Wk b (hdOf d h) (seqRow d p) (seqRow d j))
            * rProj X Wv b (seqRow d j) (hd64 (hdOf d h) e) : ℝ) : EReal) := by
  unfold kNum
  simp only [kScore_coe, kv_coe, Ideal.exp_coe, ← EReal.coe_mul, coe_finsum, col_hd8]

theorem kDen_coe (d : Fin 8) (b : Fin 2) (h : Fin 8) (p : Fin 1024) (S : Finset (Fin 1024)) :
    kDen (κ : EReal) (xBlk fun b i k => ((X b i k : ℝ) : EReal)) (colBlk fun k c => ((Wq k c : ℝ) : EReal))
      (colBlk fun k c => ((Wk k c : ℝ) : EReal)) d b h p S
      = ((∑ j ∈ S, Real.exp (rScore κ X Wq Wk b (hdOf d h) (seqRow d p) (seqRow d j)) : ℝ) : EReal) := by
  unfold kDen
  simp only [kScore_coe, Ideal.exp_coe, coe_finsum]

/-- The attention row of scratch row p of device d, all keys in scratch order, is the reference's attention row of
    the sequence row, in the column of the whole width. -/
theorem rAtt_rot (d : Fin 8) (b : Fin 2) (p : Fin 1024) (c : Fin 512) :
    (∑ j : Fin 1024, Real.exp (rScore κ X Wq Wk b (hdOf d (headOf8 c)) (seqRow d p) (seqRow d j))
        * rProj X Wv b (seqRow d j) (hd64 (hdOf d (headOf8 c)) (inHead8 c)))
      / (∑ j : Fin 1024, Real.exp (rScore κ X Wq Wk b (hdOf d (headOf8 c)) (seqRow d p) (seqRow d j)))
      = rAtt κ X Wq Wk Wv b (seqRow d p) (col d c) := by
  unfold rAtt
  rw [headOf64_col, inHead64_col,
    sum_seqRow d (fun i => Real.exp (rScore κ X Wq Wk b (hdOf d (headOf8 c)) (seqRow d p) i)
        * rProj X Wv b i (hd64 (hdOf d (headOf8 c)) (inHead8 c))),
    sum_seqRow d (fun i => Real.exp (rScore κ X Wq Wk b (hdOf d (headOf8 c)) (seqRow d p) i))]

theorem rot_den_ne (d : Fin 8) (b : Fin 2) (h : Fin 8) (p : Fin 1024) :
    (∑ j : Fin 1024, Real.exp (rScore κ X Wq Wk b (hdOf d h) (seqRow d p) (seqRow d j))) ≠ 0 :=
  (Finset.sum_pos (fun j _ => Real.exp_pos _) Finset.univ_nonempty).ne'

theorem kAttWhole_coe (d : Fin 8) (b : Fin 2) (p : Fin 1024) (c : Fin 512) :
    kAttWhole (κ : EReal) (xBlk fun b i k => ((X b i k : ℝ) : EReal)) (colBlk fun k c => ((Wq k c : ℝ) : EReal))
      (colBlk fun k c => ((Wk k c : ℝ) : EReal)) (colBlk fun k c => ((Wv k c : ℝ) : EReal)) d b p c
      = ((rAtt κ X Wq Wk Wv b (seqRow d p) (col d c) : ℝ) : EReal) := by
  unfold kAttWhole
  rw [kNum_coe, kDen_coe, div_coe_real _ (rot_den_ne κ X Wq Wk d b (headOf8 c) p), rAtt_rot]

theorem kAttSplit_coe (d : Fin 8) (b : Fin 2) (p : Fin 1024) (c : Fin 512) :
    kAttSplit (κ : EReal) (xBlk fun b i k => ((X b i k : ℝ) : EReal)) (colBlk fun k c => ((Wq k c : ℝ) : EReal))
      (colBlk fun k c => ((Wk k c : ℝ) : EReal)) (colBlk fun k c => ((Wv k c : ℝ) : EReal)) d b p c
      = ((rAtt κ X Wq Wk Wv b (seqRow d p) (col d c) : ℝ) : EReal) := by
  unfold kAttSplit
  rw [kNum_coe, kNum_coe, kDen_coe, kDen_coe, ← EReal.coe_add, ← EReal.coe_add, sum_lo_add_hi, sum_lo_add_hi,
    div_coe_real _ (rot_den_ne κ X Wq Wk d b (headOf8 c) p), rAtt_rot]

/-- Device d's partial product with its rows of Wo, for sequence row i. -/
def rY (d : Fin 8) (b : Fin 2) (i : Fin 1024) (n : Fin 512) : ℝ :=
  ∑ c : Fin 512, rAtt κ X Wq Wk Wv b i (col d c) * Wo (col d c) n

theorem kY0_coe (d : Fin 8) (b : Fin 2) (q : Fin 512) (n : Fin 512) :
    kY0 (κ : EReal) (xBlk fun b i k => ((X b i k : ℝ) : EReal)) (colBlk fun k c => ((Wq k c : ℝ) : EReal))
      (colBlk fun k c => ((Wk k c : ℝ) : EReal)) (colBlk fun k c => ((Wv k c : ℝ) : EReal))
      (rowBlk fun c n => ((Wo c n : ℝ) : EReal)) d b q n
      = ((rY κ X Wq Wk Wv Wo d b (seqRow d ⟨128 + q.val, by have := q.isLt; omega⟩) n : ℝ) : EReal) := by
  unfold kY0 rowBlk
  simp only [kAttSplit_coe, ← EReal.coe_mul, coe_finsum]
  rfl

theorem kY1_coe (d : Fin 8) (b : Fin 2) (q : Fin 384) (n : Fin 512) :
    kY1 (κ : EReal) (xBlk fun b i k => ((X b i k : ℝ) : EReal)) (colBlk fun k c => ((Wq k c : ℝ) : EReal))
      (colBlk fun k c => ((Wk k c : ℝ) : EReal)) (colBlk fun k c => ((Wv k c : ℝ) : EReal))
      (rowBlk fun c n => ((Wo c n : ℝ) : EReal)) d b q n
      = ((rY κ X Wq Wk Wv Wo d b (seqRow d ⟨640 + q.val, by have := q.isLt; omega⟩) n : ℝ) : EReal) := by
  unfold kY1 rowBlk
  simp only [kAttWhole_coe, ← EReal.coe_mul, coe_finsum]
  rfl

theorem kY2_coe (d : Fin 8) (b : Fin 2) (q : Fin 128) (n : Fin 512) :
    kY2 (κ : EReal) (xBlk fun b i k => ((X b i k : ℝ) : EReal)) (colBlk fun k c => ((Wq k c : ℝ) : EReal))
      (colBlk fun k c => ((Wk k c : ℝ) : EReal)) (colBlk fun k c => ((Wv k c : ℝ) : EReal))
      (rowBlk fun c n => ((Wo c n : ℝ) : EReal)) d b q n
      = ((rY κ X Wq Wk Wv Wo d b (seqRow d ⟨q.val, by have := q.isLt; omega⟩) n : ℝ) : EReal) := by
  unfold kY2 rowBlk
  simp only [kAttWhole_coe, ← EReal.coe_mul, coe_finsum]
  rfl

/-- Every partial that device c adds is for sequence row 128 c + r: the scratch row it was computed at, on the
    device j places after c, sits in rotated block j, which holds the chunk of device c. -/
theorem seqRow_peer (c : Fin 8) (r : Fin 128) (j : ℕ) (hj : j < 8) (p : Fin 1024) (hp : p.val = 128 * j + r.val) :
    seqRow (peer c j) p = ⟨128 * c.val + r.val, by have := c.isLt; have := r.isLt; omega⟩ := by
  apply Fin.ext
  have := c.isLt; have := r.isLt
  simp only [seqRow, src, blkOf, inBlk, peer]
  omega

theorem seqRow_own (c : Fin 8) (r : Fin 128) (p : Fin 1024) (hp : p.val = r.val) :
    seqRow c p = ⟨128 * c.val + r.val, by have := c.isLt; have := r.isLt; omega⟩ := by
  apply Fin.ext
  have := c.isLt; have := r.isLt
  simp only [seqRow, src, blkOf, inBlk]
  omega

theorem kOut_coe (c : Fin 8) (b : Fin 2) (r : Fin 128) (n : Fin 512) :
    kOut (κ : EReal) (xBlk fun b i k => ((X b i k : ℝ) : EReal)) (colBlk fun k c => ((Wq k c : ℝ) : EReal))
      (colBlk fun k c => ((Wk k c : ℝ) : EReal)) (colBlk fun k c => ((Wv k c : ℝ) : EReal))
      (rowBlk fun c n => ((Wo c n : ℝ) : EReal)) c b r n
      = ((∑ d : Fin 8, rY κ X Wq Wk Wv Wo d b ⟨128 * c.val + r.val, by have := c.isLt; have := r.isLt; omega⟩ n : ℝ) : EReal) := by
  unfold kOut
  rw [kY2_coe, kY0_coe, kY0_coe, kY0_coe, kY0_coe, kY1_coe, kY1_coe, kY1_coe,
    seqRow_own c r _ rfl,
    seqRow_peer c r 1 (by omega) _ (by simp only []; first | done | omega), seqRow_peer c r 2 (by omega) _ (by simp only []; first | done | omega),
    seqRow_peer c r 3 (by omega) _ (by simp only []; first | done | omega), seqRow_peer c r 4 (by omega) _ (by simp only []; first | done | omega),
    seqRow_peer c r 5 (by omega) _ (by simp only []; first | done | omega), seqRow_peer c r 6 (by omega) _ (by simp only []; first | done | omega),
    seqRow_peer c r 7 (by omega) _ (by simp only []; first | done | omega)]
  simp only [← EReal.coe_add]
  rw [sum_peers (fun d => rY κ X Wq Wk Wv Wo d b ⟨128 * c.val + r.val, by have := c.isLt; have := r.isLt; omega⟩ n) c]

end KerSide

/-! ## The bridge -/

theorem kOut_eq_refOut (κ : EReal) (x : Fin 2 → Fin 1024 → Fin 512 → EReal) (wq wk wv : Fin 512 → Fin 4096 → EReal)
    (wo : Fin 4096 → Fin 512 → EReal)
    (hκ : ∃ r : ℝ, κ = (r : EReal)) (hx : ∀ b i k, ∃ r : ℝ, x b i k = (r : EReal))
    (hwq : ∀ k c, ∃ r : ℝ, wq k c = (r : EReal)) (hwk : ∀ k c, ∃ r : ℝ, wk k c = (r : EReal))
    (hwv : ∀ k c, ∃ r : ℝ, wv k c = (r : EReal)) (hwo : ∀ c n, ∃ r : ℝ, wo c n = (r : EReal))
    (c : Fin 8) (b : Fin 2) (r : Fin 128) (n : Fin 512) :
    Cert.Spec.kOut κ (Cert.Spec.xBlk x) (Cert.Spec.colBlk wq) (Cert.Spec.colBlk wk) (Cert.Spec.colBlk wv)
        (Cert.Spec.rowBlk wo) c b r n
      = Cert.Spec.refOut κ x wq wk wv wo b
          ⟨128 * c.val + r.val, by have := c.isLt; have := r.isLt; omega⟩ n := by
  -- real witnesses for every entry
  obtain ⟨κr, rfl⟩ := hκ
  choose X hX using hx
  choose Wq hWq using hwq
  choose Wk hWk using hwk
  choose Wv hWv using hwv
  choose Wo hWo using hwo
  obtain rfl : x = fun b i k => ((X b i k : ℝ) : EReal) := by funext b i k; exact hX b i k
  obtain rfl : wq = fun k c => ((Wq k c : ℝ) : EReal) := by funext k c; exact hWq k c
  obtain rfl : wk = fun k c => ((Wk k c : ℝ) : EReal) := by funext k c; exact hWk k c
  obtain rfl : wv = fun k c => ((Wv k c : ℝ) : EReal) := by funext k c; exact hWv k c
  obtain rfl : wo = fun c n => ((Wo c n : ℝ) : EReal) := by funext c n; exact hWo c n
  -- both sides are the same real number: the sum over the 4096 columns, device by device
  rw [kOut_coe, refOut_coe]
  congr 1
  unfold rOut rY
  exact sum_blocks (fun c' => rAtt κr X Wq Wk Wv b ⟨128 * c.val + r.val, by have := c.isLt; have := r.isLt; omega⟩ c' * Wo c' n)

end Cert.Spec

end
-- ==== Proof.RefValue.lean ====
/-
  The one-device reference read as the clean specification. The reference computes Q, K, V = x·Wq, x·Wk, x·Wv, cuts
  each 4096-wide row into 64 heads of width 64, scores query i against key j in head h by κ · Σ_e Q[i,h,e]·K[j,h,e],
  and then makes ONE trip of a running-maximum loop from m = −∞, l = 0, out = 0. Over the extended reals that trip
  collapses: max(−∞, a) = a, −∞ − a = −∞, exp(−∞) = 0, 0·0 = 0 and 0 + a = a, so the weights are
  exp(score − row maximum), the denominator is their sum over the keys, the numerator their sum against V, and the
  result is the quotient row times Wo. None of these steps needs a finite entry. Index by index that is `Spec.refOut`.
-/
import proofs.«900761_g7700000000000762_dist_attn_self_mha_htp_ss_b2_sq128_skv128_d512_hq8_dh64_v7x_i8_bf16_1_alg».proof.Defs
import proofs.«900761_g7700000000000762_dist_attn_self_mha_htp_ss_b2_sq128_skv128_d512_hq8_dh64_v7x_i8_bf16_1_alg».proof.Proof.Gen.ReferenceIdeal.Run
import proofs.«900761_g7700000000000762_dist_attn_self_mha_htp_ss_b2_sq128_skv128_d512_hq8_dh64_v7x_i8_bf16_1_alg».proof.Proof.Gen.ReferenceIdeal.Read
import proofs.«900761_g7700000000000762_dist_attn_self_mha_htp_ss_b2_sq128_skv128_d512_hq8_dh64_v7x_i8_bf16_1_alg».proof.Proof.Gen.Pre_finite_inputs_ReferenceIdeal
import proofs.«900761_g7700000000000762_dist_attn_self_mha_htp_ss_b2_sq128_skv128_d512_hq8_dh64_v7x_i8_bf16_1_alg».proof.Proof.Spec

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The frame -/

/-- The reference runs to the end and leaves its five arguments as it found them: its run with the result dropped. -/
theorem frame : Cert.frame_ReferenceIdeal := fun m ρ _ =>
  (θ_run Cert.ReferenceIdeal.defs _ _).mono (fun _ h c => (h c).2) (Cert.ReferenceIdeal.Value.run (F := Ideal) m ρ)

/-! ## The scale -/

/-- The reference's literal 0.125 as the extended real its pattern denotes. -/
def κ : EReal := Ideal.ofBits .f32 0x3E000000#32

/-- The scale is the real number 1/8. -/
theorem κ_eq : κ = ((1 / 8 : ℝ) : EReal) := by
  simp [κ, Ideal.ofBits, Ideal.ieee, -EReal.coe_mul]; norm_num

theorem κ_real : ∃ r : ℝ, κ = (r : EReal) := ⟨_, κ_eq⟩

/-- The pattern of −∞ denotes the bottom of the extended reals. -/
theorem ofBits_neg_inf : Ideal.ofBits .f32 0xFF800000#32 = (⊥ : EReal) := by
  simp [Ideal.ofBits, Ideal.ieee]

/-! ## The argument arrays as coordinate functions -/

/-- The types of the five argument arrays. -/
abbrev XArr : Type := (⟨S2x1024x512, .f32⟩ : BufTy).Contents (Elt Ideal)
abbrev WArr : Type := (⟨S512x4096, .f32⟩ : BufTy).Contents (Elt Ideal)
abbrev OArr : Type := (⟨S4096x512, .f32⟩ : BufTy).Contents (Elt Ideal)

/-- x by batch, row and column; a projection weight and Wo by row and column. -/
abbrev x3 (X : XArr) : Fin 2 → Fin 1024 → Fin 512 → EReal := fun b i k => X (ix3 b i k)
abbrev w2 (W : WArr) : Fin 512 → Fin 4096 → EReal := fun k c => W (ix2 k c)
abbrev o2 (O : OArr) : Fin 4096 → Fin 512 → EReal := fun c n => O (ix2 c n)

/-! ## The projections and their heads -/

/-- x·W at (b, i, c) is the row of x against column c of W. -/
theorem proj_apply (X : XArr) (W : WArr) (b : Fin 2) (i : Fin 1024) (c : Fin 4096) :
    val_main_v0 (F := Ideal) X W (ix3 b i c) = Spec.proj (x3 X) (w2 W) b i c := by
  rw [val_main_v0_apply]
  unfold Spec.proj
  refine Finset.sum_congr rfl fun k _ => ?_
  have el : lidx_main_v0 (ix3 b i c) k = ix3 b i k := funext fun a => Fin.ext (by
    match a with
    | ⟨0, _⟩ => rfl
    | ⟨1, _⟩ => rfl
    | ⟨2, _⟩ => rfl)
  have er : ridx_main_v0 (ix3 b i c) k = ix2 k c := funext fun a => Fin.ext (by
    match a with
    | ⟨0, _⟩ => rfl
    | ⟨1, _⟩ => rfl)
  rw [el, er]

/-- Cut into heads: entry (b, i, h, e) is column 64·h + e of the projection's row. -/
theorem heads_apply (X : XArr) (W : WArr) (b : Fin 2) (i : Fin 1024) (h e : Fin 64) :
    val_main_v1 (F := Ideal) X W (ix4 b i h e) = Spec.proj (x3 X) (w2 W) b i (Spec.hd64 h e) := by
  rw [val_main_v1_apply]
  have ei : idx_main_v1 (ix4 b i h e) = ix3 b i (Spec.hd64 h e) := funext fun a => Fin.ext (by
    have hb := b.isLt; have hi := i.isLt; have hh := h.isLt; have he := e.isLt
    match a with
    | ⟨0, _⟩ => show (((b.val * 1024 + i.val) * 64 + h.val) * 64 + e.val) / 4194304 = b.val; omega
    | ⟨1, _⟩ => show (((b.val * 1024 + i.val) * 64 + h.val) * 64 + e.val) / 4096 % 1024 = i.val; omega
    | ⟨2, _⟩ => show (((b.val * 1024 + i.val) * 64 + h.val) * 64 + e.val) % 4096 = h.val * 64 + e.val; omega)
  rw [ei]
  exact proj_apply X W b i _

/-- The three projections are one operation on different weights. -/
theorem heads_k (X : XArr) (W : WArr) : val_main_v3 (F := Ideal) X W = val_main_v1 (F := Ideal) X W := rfl
theorem heads_v (X : XArr) (W : WArr) : val_main_v5 (F := Ideal) X W = val_main_v1 (F := Ideal) X W := rfl

/-! ## The scores -/

/-- The scaled score of query i against key j in head h. -/
theorem score_apply (X : XArr) (Q K : WArr) (b : Fin 2) (h : Fin 64) (i j : Fin 1024) :
    val_main_v11 (F := Ideal) X Q K (ix4 b h i j) = Spec.refScore κ (x3 X) (w2 Q) (w2 K) b h i j := by
  rw [val_main_v11_apply, val_main_v9_apply, val_main_v10_apply, val_main_cst_2_apply]
  unfold Spec.refScore
  simp only [Ideal.mulf_def, Ideal.ofBits_def]
  show _ * κ = _ * κ
  refine congrArg (· * κ) (Finset.sum_congr rfl fun e _ => ?_)
  have el : lidx_main_v9 (ix4 b h i j) e = ix4 b i h e := funext fun a => Fin.ext (by
    match a with
    | ⟨0, _⟩ => rfl
    | ⟨1, _⟩ => rfl
    | ⟨2, _⟩ => rfl
    | ⟨3, _⟩ => rfl)
  have er : ridx_main_v9 (ix4 b h i j) e = ix4 b j h e := funext fun a => Fin.ext (by
    match a with
    | ⟨0, _⟩ => rfl
    | ⟨1, _⟩ => rfl
    | ⟨2, _⟩ => rfl
    | ⟨3, _⟩ => rfl)
  rw [el, er, heads_k, heads_apply, heads_apply]

/-! ## The row maximum -/

/-- A fold of the maximum from −∞ is the supremum. -/
theorem fold_max_bot {ι : Type} (s : Finset ι) (f : ι → EReal) :
    s.fold (FloatOps.maximumf (F := Ideal) (φ := .f32)) (⊥ : EReal) f = s.sup f := by
  classical
  induction s using Finset.induction_on with
  | empty => rw [Finset.fold_empty, Finset.sup_empty]
  | insert a s ha ih => rw [Finset.fold_insert ha, Finset.sup_insert, ih]; rfl

/-- The reduced index (b, h, i) with key k put back on the last axis. -/
theorem lift_keys (hr : S2x64x1024x1024.Reduces [3] S2x64x1024) (b : Fin 2) (h : Fin 64) (i : Fin 1024)
    (k : Fin (S2x64x1024x1024.size 3)) : hr.lift (ix3 b h i) k = ix4 b h i (⟨k.val, k.isLt⟩ : Fin 1024) := by
  funext c; apply Fin.ext
  fin_cases c <;> rfl

/-- The maximum-reduce over the keys, from −∞, is the largest score of the row. -/
theorem rowmax_apply (X : XArr) (Q K : WArr) (b : Fin 2) (h : Fin 64) (i : Fin 1024) :
    val_main_v12 (F := Ideal) X Q K (ix3 b h i) = Spec.refMax κ (x3 X) (w2 Q) (w2 K) b h i := by
  unfold val_main_v12
  have hr : S2x64x1024x1024.Reduces [3] S2x64x1024 := by decide
  rw [Host.reduce_eq_fold_single FloatOps.maximumf _ _ reducesTo_S2x64x1024x1024_S2x64x1024_d3 hr h_S_]
  rw [val_main_cst_3_apply, Ideal.ofBits_def, ofBits_neg_inf]
  have hf : (val_main_v11 (F := Ideal) X Q K ∘ hr.lift (ix3 b h i))
      = fun k : Fin 1024 => Spec.refScore κ (x3 X) (w2 Q) (w2 K) b h i k := funext fun k => by
    show val_main_v11 (F := Ideal) X Q K (hr.lift (ix3 b h i) k) = _
    rw [lift_keys hr b h i k]
    exact score_apply X Q K b h i _
  rw [hf]
  exact fold_max_bot _ _

/-- The running maximum after the one trip, from −∞: the row maximum. -/
theorem runmax_apply (X : XArr) (Q K : WArr) (b : Fin 2) (h : Fin 64) (i : Fin 1024) (z : Fin 1) :
    val_main_v14 (F := Ideal) X Q K (ix4 b h i z) = Spec.refMax κ (x3 X) (w2 Q) (w2 K) b h i := by
  rw [val_main_v14_apply, val_main_v7_apply, val_main_cst_0_apply, val_main_v13_apply]
  have ei : idx_main_v13 (ix4 b h i z) = ix3 b h i := funext fun a => Fin.ext (by
    match a with
    | ⟨0, _⟩ => rfl
    | ⟨1, _⟩ => rfl
    | ⟨2, _⟩ => rfl)
  rw [ei, rowmax_apply]
  simp only [Ideal.maximumf_def, Ideal.ofBits_def, ofBits_neg_inf]
  exact max_bot_left _

/-- The correction factor of the one trip: exp (−∞ − maximum) = exp (−∞) = 0. -/
theorem alpha_apply (X : XArr) (Q K : WArr) (b : Fin 2) (h : Fin 64) (i : Fin 1024) (z : Fin 1) :
    val_main_v16 (F := Ideal) X Q K (ix4 b h i z) = 0 := by
  rw [val_main_v16_apply, val_main_v15_apply, val_main_v7_apply, val_main_cst_0_apply]
  simp only [Ideal.hostUnary_exp_def, Ideal.subf_def, Ideal.ofBits_def, ofBits_neg_inf, EReal.bot_sub, Ideal.exp_bot]

/-! ## The weights, their sum, and the weighted sum of V -/

/-- The weight of key j: the exponential of its score less the row maximum. -/
theorem weight_apply (X : XArr) (Q K : WArr) (b : Fin 2) (h : Fin 64) (i j : Fin 1024) :
    val_main_v19 (F := Ideal) X Q K (ix4 b h i j) = Spec.refP κ (x3 X) (w2 Q) (w2 K) b h i j := by
  rw [val_main_v19_apply, val_main_v18_apply, val_main_v17_apply]
  have ei : idx_main_v17 (ix4 b h i j) = ix4 b h i (0 : Fin 1) := funext fun a => Fin.ext (by
    match a with
    | ⟨0, _⟩ => rfl
    | ⟨1, _⟩ => rfl
    | ⟨2, _⟩ => rfl
    | ⟨3, _⟩ => rfl)
  rw [ei, runmax_apply, score_apply]
  unfold Spec.refP
  simp only [Ideal.hostUnary_exp_def, Ideal.subf_def]

/-- The denominator: 0·0 + (0 + Σ_j weight) is the sum of the weights. -/
theorem den_apply (X : XArr) (Q K : WArr) (b : Fin 2) (h : Fin 64) (i : Fin 1024) (z : Fin 1) :
    val_main_v23 (F := Ideal) X Q K (ix4 b h i z) = Spec.refDen κ (x3 X) (w2 Q) (w2 K) b h i := by
  rw [val_main_v23_apply, val_main_v20_apply, val_main_v8_apply, val_main_cst_1_apply, alpha_apply, val_main_v22_apply]
  have ei : idx_main_v22 (ix4 b h i z) = ix3 b h i := funext fun a => Fin.ext (by
    match a with
    | ⟨0, _⟩ => rfl
    | ⟨1, _⟩ => rfl
    | ⟨2, _⟩ => rfl)
  rw [ei, val_main_v21_apply, val_main_cst_4_apply]
  simp only [Ideal.addf_def, Ideal.mulf_def, Ideal.ofBits_def, Ideal.ofBits_zero_f32, mul_zero, zero_add]
  unfold Spec.refDen
  refine Finset.sum_congr rfl fun j _ => ?_
  have ej : idx_main_v21 (ix3 b h i) j = ix4 b h i j := funext fun a => Fin.ext (by
    match a with
    | ⟨0, _⟩ => rfl
    | ⟨1, _⟩ => rfl
    | ⟨2, _⟩ => rfl
    | ⟨3, _⟩ => rfl)
  rw [ej, weight_apply]

/-- The numerator: 0·0 + Σ_j V[j]·weight_j, the weighted sum of the values of head h at place e. -/
theorem num_apply (X : XArr) (Q K V : WArr) (b : Fin 2) (i : Fin 1024) (h e : Fin 64) :
    val_main_v29 (F := Ideal) X Q K V (ix4 b i h e) = Spec.refNum κ (x3 X) (w2 Q) (w2 K) (w2 V) b h i e := by
  rw [val_main_v29_apply, val_main_v26_apply, val_main_v6_apply, val_main_cst_apply, val_main_v25_apply]
  have e25 : idx_main_v25 (ix4 b i h e) = ix4 b i h (0 : Fin 1) := funext fun a => Fin.ext (by
    match a with
    | ⟨0, _⟩ => rfl
    | ⟨1, _⟩ => rfl
    | ⟨2, _⟩ => rfl
    | ⟨3, _⟩ => rfl)
  rw [e25, val_main_v24_apply]
  have e24 : idx_main_v24 (ix4 b i h (0 : Fin 1)) = ix4 b h i (0 : Fin 1) := funext fun a => Fin.ext (by
    match a with
    | ⟨0, _⟩ => rfl
    | ⟨1, _⟩ => rfl
    | ⟨2, _⟩ => rfl
    | ⟨3, _⟩ => rfl)
  rw [e24, alpha_apply, val_main_v28_apply]
  have e28 : idx_main_v28 (ix4 b i h e) = ix4 b h e i := funext fun a => Fin.ext (by
    match a with
    | ⟨0, _⟩ => rfl
    | ⟨1, _⟩ => rfl
    | ⟨2, _⟩ => rfl
    | ⟨3, _⟩ => rfl)
  rw [e28, val_main_v27_apply]
  simp only [Ideal.addf_def, Ideal.mulf_def, Ideal.ofBits_def, Ideal.ofBits_zero_f32, mul_zero, zero_add]
  unfold Spec.refNum
  refine Finset.sum_congr rfl fun j _ => ?_
  have el : lidx_main_v27 (ix4 b h e i) j = ix4 b j h e := funext fun a => Fin.ext (by
    match a with
    | ⟨0, _⟩ => rfl
    | ⟨1, _⟩ => rfl
    | ⟨2, _⟩ => rfl
    | ⟨3, _⟩ => rfl)
  have er : ridx_main_v27 (ix4 b h e i) j = ix4 b h i j := funext fun a => Fin.ext (by
    match a with
    | ⟨0, _⟩ => rfl
    | ⟨1, _⟩ => rfl
    | ⟨2, _⟩ => rfl
    | ⟨3, _⟩ => rfl)
  rw [el, er, weight_apply, heads_v, heads_apply, mul_comm]

/-! ## The quotient, the heads laid side by side, and the output projection -/

/-- The attention entry of query i in head h at place e. -/
theorem quot_apply (X : XArr) (Q K V : WArr) (b : Fin 2) (i : Fin 1024) (h e : Fin 64) :
    val_main_v32 (F := Ideal) X Q K V (ix4 b i h e)
      = Ideal.div (Spec.refNum κ (x3 X) (w2 Q) (w2 K) (w2 V) b h i e) (Spec.refDen κ (x3 X) (w2 Q) (w2 K) b h i) := by
  rw [val_main_v32_apply, num_apply, val_main_v31_apply]
  have e31 : idx_main_v31 (ix4 b i h e) = ix4 b i h (0 : Fin 1) := funext fun a => Fin.ext (by
    match a with
    | ⟨0, _⟩ => rfl
    | ⟨1, _⟩ => rfl
    | ⟨2, _⟩ => rfl
    | ⟨3, _⟩ => rfl)
  rw [e31, val_main_v30_apply]
  have e30 : idx_main_v30 (ix4 b i h (0 : Fin 1)) = ix4 b h i (0 : Fin 1) := funext fun a => Fin.ext (by
    match a with
    | ⟨0, _⟩ => rfl
    | ⟨1, _⟩ => rfl
    | ⟨2, _⟩ => rfl
    | ⟨3, _⟩ => rfl)
  rw [e30, den_apply]
  rfl

/-- The heads side by side again: column c of the row is head c / 64, place c % 64. -/
theorem att_apply (X : XArr) (Q K V : WArr) (b : Fin 2) (i : Fin 1024) (c : Fin 4096) :
    val_main_v33 (F := Ideal) X Q K V (ix3 b i c) = Spec.refAtt κ (x3 X) (w2 Q) (w2 K) (w2 V) b i c := by
  rw [val_main_v33_apply]
  have e33 : idx_main_v33 (ix3 b i c) = ix4 b i (Spec.headOf64 c) (Spec.inHead64 c) := funext fun a => Fin.ext (by
    have hb := b.isLt; have hi := i.isLt; have hc := c.isLt
    match a with
    | ⟨0, _⟩ => show ((b.val * 1024 + i.val) * 4096 + c.val) / 4194304 = b.val; omega
    | ⟨1, _⟩ => show ((b.val * 1024 + i.val) * 4096 + c.val) / 4096 % 1024 = i.val; omega
    | ⟨2, _⟩ => show ((b.val * 1024 + i.val) * 4096 + c.val) / 64 % 64 = c.val / 64; omega
    | ⟨3, _⟩ => show ((b.val * 1024 + i.val) * 4096 + c.val) % 64 = c.val % 64; omega)
  rw [e33, quot_apply]
  rfl

/-! ## The result -/

/-- The reference's result array as a function of its five argument arrays, in @main's order: x, Wq, Wo, Wk, Wv. -/
def refResult (X : XArr) (Q : WArr) (O : OArr) (K V : WArr) : XArr := val_main_v34 (F := Ideal) X Q O K V

/-- The reference's result at (b, i, n) is the specification's, the weights taken in the specification's order. -/
theorem result_apply (X : XArr) (Q : WArr) (O : OArr) (K V : WArr) (b : Fin 2) (i : Fin 1024) (n : Fin 512) :
    refResult X Q O K V (ix3 b i n)
      = Spec.refOut κ (fun b i k => X (ix3 b i k)) (fun k c => Q (ix2 k c)) (fun k c => K (ix2 k c))
          (fun k c => V (ix2 k c)) (fun c n => O (ix2 c n)) b i n := by
  unfold refResult
  rw [val_main_v34_apply]
  unfold Spec.refOut
  refine Finset.sum_congr rfl fun c _ => ?_
  have el : lidx_main_v34 (ix3 b i n) c = ix3 b i c := funext fun a => Fin.ext (by
    match a with
    | ⟨0, _⟩ => rfl
    | ⟨1, _⟩ => rfl
    | ⟨2, _⟩ => rfl)
  have er : ridx_main_v34 (ix3 b i n) c = ix2 c n := funext fun a => Fin.ext (by
    match a with
    | ⟨0, _⟩ => rfl
    | ⟨1, _⟩ => rfl)
  rw [el, er, att_apply]

/-- The reference's run with its result named: every weakly fair execution ends with the result buffer at
    `refResult` of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34)
        = refResult (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v34_eq m c), (h c).2⟩)
    (Cert.ReferenceIdeal.Value.run (F := Ideal) m ρ)

end Cert.RefValue

end
-- ==== Proof.Finite.lean ====
/-
  The precondition read back: the printed predicate says, of each device's five argument buffers, that every entry's
  absolute value is below +∞; so every entry is a real number.

  The predicate is the conjunction of five all-reductions of the comparisons |x| < +∞. A conjunction that is 1 has both
  parts 1; an all-reduction that is 1 had a 1 at every index; and an extended real whose absolute value max x (−x) is
  below +∞ is neither infinity.
-/
import proofs.«900761_g7700000000000762_dist_attn_self_mha_htp_ss_b2_sq128_skv128_d512_hq8_dh64_v7x_i8_bf16_1_alg».proof.Defs
import Idealize.ShloMosaic.Lib.ReduceAll
import Idealize.ShloMosaic.Lib.IdealHost
import Idealize.ShloMosaic.Lib.ValueIdx

noncomputable section

namespace Cert.Finite

open Idealize.ShloMosaic Idealize.ShloMosaic.ValueIdx Idealize.SL.Sem
open Cert.Pre_finite_inputs_Kernel (S_ S2x128x512 S512x512)

/-- The scalar shape has one index. -/
instance : Subsingleton S_.Idx := ⟨fun _ _ => funext fun d => d.elim0⟩

/-- The word the predicate compares against denotes +∞. -/
theorem inf_word : Ideal.ofBits .f32 0x7F800000#32 = (⊤ : EReal) := by
  simp [Ideal.ofBits, Ideal.ieee]

/-- An extended real whose absolute value is below +∞ is a real. -/
theorem real_of_abs_lt_inf (x : EReal) (h : Ideal.cmp .olt (max x (-x)) (Ideal.ofBits .f32 0x7F800000#32) = 1#1) :
    ∃ r : ℝ, x = (r : EReal) := by
  rw [inf_word] at h
  induction x using EReal.rec with
  | bot => exfalso; simp [Ideal.cmp] at h
  | coe r => exact ⟨r, rfl⟩
  | top => exfalso; simp [Ideal.cmp] at h

/-- One conjunct of the predicate: if the all-reduction of |x| < +∞ over the whole array is 1, every entry is a real. -/
theorem all_real {s : Shape} {axes : List (Fin s.rank)} (x : FVec Ideal s .f32)
    (hb : S_.BroadcastsInDim s (![] : Fin 0 → Fin s.rank)) (hr : s.ReducesTo axes S_) (hS : 0 < S_.numel) (init : IVec S_ 1)
    (h : Host.reduce IntOp.andi
        (cmpf .olt (Host.absf x) (broadcastInDim s ![] hb (constant (F := Ideal) S_ .f32 0x7F800000#32))) init hr hS ix0 = 1#1)
    (i : s.Idx) : ∃ r : ℝ, x i = (r : EReal) := by
  have e := Host.reduce_andi_all _ init hr hS ix0 h i
  have hbc : broadcastInDim s ![] hb (constant (F := Ideal) S_ .f32 0x7F800000#32) i = Ideal.ofBits .f32 0x7F800000#32 :=
    broadcastInDim_scalar_apply hb _ i
  have e' : Ideal.cmp .olt (max (x i) (-(x i)))
      (broadcastInDim s ![] hb (constant (F := Ideal) S_ .f32 0x7F800000#32) i) = 1#1 := e
  rw [hbc] at e'
  exact real_of_abs_lt_inf (x i) e'

/-- The predicate all ones: every entry of the five arrays is a real. -/
theorem args_real [Cert.Pre_finite_inputs_Kernel.Facts] (a0 : FVec Ideal S2x128x512 .f32) (a1 a2 a3 a4 : FVec Ideal S512x512 .f32)
    (h : Cert.Pre_finite_inputs_Kernel.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  unfold Cert.Pre_finite_inputs_Kernel.fn Cert.Pre_finite_inputs_Kernel.fn_part1 at h0
  dsimp only at h0
  obtain ⟨h0123, h4⟩ := IntOp.andi_eq_one.1 h0
  obtain ⟨h012, h3⟩ := IntOp.andi_eq_one.1 h0123
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3,
    all_real a4 _ _ _ _ h4⟩

/-- Under the precondition, every entry of every device's five argument buffers is a real. -/
theorem pre_real [Cert.Pre_finite_inputs_Kernel.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal))
      ∧ (∀ i, ∃ r : ℝ, m ((c.tc : Thread Cert.KernelIdeal.nD Cert.KernelIdeal.τ).loc Cert.KernelIdeal.main_arg4) i = (r : EReal)) :=
  args_real _ _ _ _ _ (hpre c)

end Cert.Finite

end
-- ==== Proof.Launch.lean ====
/-
  The launch of the kernel's one region on the eight devices: from the body obligation of one device to the run of @main.

  The launch element deals every device the round states, positions, reached-marks and duty tokens of its own thirty cells;
  one global step allocates the cells' invariants (each from its semaphore at zero and its round state), records them and
  the reached-marks for every device, and re-deals the duty tokens by payer: the token of duty `j` of a barrier cell goes
  to the device `j` places behind the owner, the token of a receive cell to the device that copies into it.
-/
import proofs.«900761_g7700000000000762_dist_attn_self_mha_htp_ss_b2_sq128_skv128_d512_hq8_dh64_v7x_i8_bf16_1_alg».proof.Proof.Data

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (OUT : Dev nD → (cc0_stg5_0 : Ref sig .tc).ty.Contents (Elt F))

/-! ## The layout facts -/

theorem ownSemFacts : Pipeline.OwnSemFacts cfg0.spec osem := by decide

theorem share_eq (c : Dev nD) (w : Fin cfg0.W) : (dats m ρ XG SS RS OUT 0 c).share w = fullShare := by unfold Dat.share; split <;> rfl

/-- A cell's number among a device's thirty, read back off the semaphore. -/
def cidx : SemLoc sig → ℕ
  | .reg s => s.val
  | .dma q => q.val - 4

theorem cidx_csem : ∀ k : Fin 30, cidx (csem k) = k.val := by decide

theorem csem_injective : Function.Injective csem := fun k k' h =>
  Fin.ext (by rw [← cidx_csem k, ← cidx_csem k', h])

theorem kcell_injective : Function.Injective (kcell : Dev nD × Fin 30 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def ringCells : Finset (GSem nD τ sig) := Finset.univ.map ⟨kcell, kcell_injective⟩

/-! ## Thirty cells and seven peers, one by one -/

abbrev l30 : List (Fin 30) := [0, 1, 2, 3, 4, 5, 6, 7, 8, 9, 10, 11, 12, 13, 14, 15, 16, 17, 18, 19, 20, 21, 22, 23, 24, 25, 26, 27, 28, 29]
abbrev l29 : List (Fin 29) := [0, 1, 2, 3, 4, 5, 6, 7, 8, 9, 10, 11, 12, 13, 14, 15, 16, 17, 18, 19, 20, 21, 22, 23, 24, 25, 26, 27, 28]

omit [FloatOps F] in
theorem bigSep_fin30 (Φ : Fin 30 → sProp 𝕄) : bigSep Finset.univ Φ = bigSepL l30 Φ := bigSep_univ_eq_bigSepL l30 (by decide) (by decide) Φ

omit [FloatOps F] in
/-- The kernel's own twenty-nine semaphores at zero, -/
theorem ownSems0_eq (c : Dev nD) : (Pipeline.ownSems0 (Ix := Unit) (Name := ℕ) (U := UU) (Lvl := ℕ) (Val := Elt F) (τ := τ) osem c : sProp 𝕄) = ownZero c := by
  rw [Pipeline.ownSems0_eq_of_list c osem l29 (by decide) (by decide)]; rfl
omit [FloatOps F] in
/-- and the barrier semaphore, the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 30 => semVal (kcell (c, k)) 0 : sProp 𝕄) := by
  rw [ownSems0_eq, unscopedSems0_eq, bigSep_fin30]
  exact sep_comm.1

/-! ## The duty tokens -/

theorem fwd_mul8 (c : Dev nD) (k : ℕ) : fwd c (8 * k) = c := by
  apply Fin.ext; show (c.val + 8 * k) % 8 = c.val; have h : c.val < 8 := c.isLt; omega

/-- Going `j` places on around the ring. -/
def rot (j : ℕ) : Dev nD ≃ Dev nD where
  toFun c := fwd c j
  invFun c := fwd c (7 * j)
  left_inv c := by show fwd (fwd c j) (7 * j) = c; rw [fwd_fwd, show j + 7 * j = 8 * j by omega, fwd_mul8]
  right_inv c := by show fwd (fwd c (7 * j)) j = c; rw [fwd_fwd, show 7 * j + j = 8 * j by omega, fwd_mul8]

/-- The forty-two duties of a device's cells, by family and member: the barrier's duties 1..7, the one duty of each
    receive cell of the gathered blocks and of each receive cell of the partial rows, the exit barrier's duties 1..7, the one
    duty of each send cell of the gathered blocks and of the partial rows. -/
abbrev TI : Type := Fin 6 × Fin 7

/-- The semaphore and the duty of token `x`. -/
def tokSem (x : TI) : SemLoc sig × DD := match x.1 with
  | 0 => (.reg barS, x.2.succ)
  | 1 => (.dma (agR x.2), 0)
  | 2 => (.dma (rsR x.2), 0)
  | 3 => (.reg exitS, x.2.succ)
  | 4 => (.dma (agS x.2), 0)
  | 5 => (.dma (rsS x.2), 0)

theorem tokSem_injective : Function.Injective tokSem := by
  have h : Function.Injective (fun x : TI => cidx (tokSem x).1 * 8 + (tokSem x).2.val) := by decide
  exact fun x y e => h (congrArg (fun p : SemLoc sig × DD => cidx p.1 * 8 + p.2.val) e)

/-- A device's own cells' duty tokens as minted. -/
abbrev tokOf (cx : Dev nD × TI) : GSem nD τ sig × ℕ × DD := (((cx.1 : Thread nD τ), (tokSem cx.2).1), 0, (tokSem cx.2).2)

theorem tokOf_injective : Function.Injective (tokOf : Dev nD × TI → GSem nD τ sig × ℕ × DD) := by
  rintro ⟨c, x⟩ ⟨c', x'⟩ h
  have h1 : c = c' := by have := congrArg (fun y : GSem nD τ sig × ℕ × DD => y.1.1.1) h; exact this
  subst h1
  have h2 : tokSem x = tokSem x' := Prod.ext (congrArg (fun y : GSem nD τ sig × ℕ × DD => y.1.2) h) (congrArg (fun y : GSem nD τ sig × ℕ × DD => y.2.2) h)
  rw [tokSem_injective h2]

def ringToks : Finset (GSem nD τ sig × ℕ × DD) := Finset.univ.map ⟨tokOf, tokOf_injective⟩

def u₀ : UU :=
  (initOf (Pipeline.cells cfgs cellOf_inj) (Pipeline.launchToks cfgs cellOf_inj), initOf ringCells ringToks)

/-- Token `x` of device `c`'s own cells. -/
def tokAt (c : Dev nD) (x : TI) : sProp 𝕄 := dutyTok ER ((c : Thread nD τ), (tokSem x).1) 0 (tokSem x).2

/-- The duty tokens of device `c`'s own cells. -/
def toks (c : Dev nD) : sProp 𝕄 := bigSep Finset.univ fun x : TI => tokAt c x

/-- Who pays duty `x` of a device's cells, counted from the owner: a barrier's duty `j` the device `j` places behind,
    which is the one that copies its block into the owner's receive cell `j − 1` of the gathered blocks; the receive cell
    `i` of the partial rows the device `7 − i` places behind; a send cell the owner itself. -/
def shift (x : TI) : ℕ := match x.1 with
  | 0 => x.2.val + 1
  | 1 => x.2.val + 1
  | 2 => 7 - x.2.val
  | 3 => x.2.val + 1
  | _ => 0

/-- From the payer of duty `x` to the owner of its cell. -/
def mover (x : TI) : Dev nD ≃ Dev nD := if x.1.val < 4 then rot (shift x) else Equiv.refl _

abbrev l42 : List TI := [(0, 0), (0, 1), (0, 2), (0, 3), (0, 4), (0, 5), (0, 6), (1, 0), (1, 1), (1, 2), (1, 3), (1, 4), (1, 5), (1, 6),
  (2, 0), (2, 1), (2, 2), (2, 3), (2, 4), (2, 5), (2, 6), (3, 0), (3, 1), (3, 2), (3, 3), (3, 4), (3, 5), (3, 6),
  (4, 0), (4, 1), (4, 2), (4, 3), (4, 4), (4, 5), (4, 6), (5, 0), (5, 1), (5, 2), (5, 3), (5, 4), (5, 5), (5, 6)]

omit [FloatOps F] in
theorem bigSep_ti (Φ : TI → sProp 𝕄) : bigSep Finset.univ Φ = bigSepL l42 Φ := bigSep_univ_eq_bigSepL l42 (by decide) (by decide) Φ

omit [FloatOps F] in
/-- The tokens device `c` pays with are, duty by duty, the token of the cell that duty's mover takes `c` to. -/
theorem payToks_eq (c : Dev nD) : (payToks c : sProp 𝕄) = bigSep Finset.univ fun x : TI => tokAt (mover x c) x := by
  rw [bigSep_ti]; rfl

omit [FloatOps F] in
/-- The tokens dealt around the ring. -/
theorem toks_around : (bigSep Finset.univ fun c : Dev nD => (toks c : sProp 𝕄)) ⊢ bigSep Finset.univ fun c : Dev nD => payToks c := by
  refine Entails.of_eq ?_
  unfold toks
  rw [bigSep_univ_comm (fun (c : Dev nD) (x : TI) => (tokAt c x : sProp 𝕄)),
    bigSep_congr (s := Finset.univ) (fun (x : TI) _ => bigSep_univ_equiv (mover x) (fun c : Dev nD => (tokAt c x : sProp 𝕄))),
    bigSep_univ_comm (fun (x : TI) (c : Dev nD) => (tokAt (mover x c) x : sProp 𝕄))]
  exact bigSep_congr fun c _ => (payToks_eq c).symm

/-! ## What the launch element deals, and the global step -/

/-- What the launch element deals device `c` (the theorem's `G`). -/
def G (c : Dev nD) : sProp 𝕄 :=
  iprop((bigSep Finset.univ fun k : Fin 30 => roundState ER (sched XG SS RS) (kcell (c, k)) 0)
    ∗ (bigSep Finset.univ fun k : Fin 30 => iprop(atPos ER (kcell (c, k)) 0 ∅ 0 ∗ reached ER (kcell (c, k)) 0)) ∗ toks c)

/-- What the global step makes of it (`G'`). -/
def G' (c : Dev nD) : sProp 𝕄 := iprop(∃ K, ghost XG SS RS K c)

theorem fund_ring : BI.own (ER (initOf ringCells ringToks)) ⊢ (|==> bigSep Finset.univ (G XG SS RS) : sProp 𝕄) := by
  have hX (Φ : GSem nD τ sig → sProp 𝕄) : bigSep ringCells Φ = bigSep Finset.univ fun c : Dev nD => bigSep Finset.univ fun k : Fin 30 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (sched XG SS RS) ringCells ringToks) $$ HX with ⟨Hst, Hr, Hat, Htok⟩
  imodintro
  ihave Hst' := (Entails.of_eq (hX fun g => roundState ER (sched XG SS RS) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G XG SS RS c)
      ⊢ |={Set.univ}=> iprop((bigSep Finset.univ fun k => iprop(∃ κ : ℕ, cellInv ER (sched XG SS RS) κ (kcell (c, k))))
          ∗ (bigSep Finset.univ fun k : Fin 30 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 30 => semVal (kcell (c, k)) 0) ∗ bigSep Finset.univ fun k : Fin 30 => roundState ER (sched XG SS RS) (kcell (c, k)) 0)
      ⊢ (|={Set.univ}=> bigSep Finset.univ fun k => iprop(∃ κ : ℕ, cellInv ER (sched XG SS RS) κ (kcell (c, k))) : sProp 𝕄) from by
        rw [← bigSep_sep']
        exact (bigSep_mono fun k _ => (Rounds.body_intro ER (sched XG SS RS) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant at its name, and round 0 of every cell reached: for every device to keep. -/
def records (K : Dev nD × Fin 30 → ℕ) : sProp 𝕄 :=
  iprop((bigSep Finset.univ fun ck : Dev nD × Fin 30 => cellInv ER (sched XG SS RS) (K ck) (kcell ck))
    ∗ bigSep Finset.univ fun ck : Dev nD × Fin 30 => reached ER (kcell ck) 0)

instance records_persistent (K : Dev nD × Fin 30 → ℕ) : BI.Persistent (records XG SS RS K) := by unfold records; infer_instance

omit [FloatOps F] in
/-- Of persistent assertions over a finite type, any list of them. -/
theorem bigSep_univ_listP {I : Type} [Fintype I] [DecidableEq I] (Φ : I → sProp 𝕄) [∀ i, BI.Persistent (Φ i)] (l : List I) :
    bigSep Finset.univ Φ ⊢ bigSepL l Φ := by
  induction l with
  | nil => iintro -; iempintro
  | cons i l ih =>
    refine (show bigSep Finset.univ Φ ⊢ iprop(Φ i ∗ bigSepL l Φ) from ?_).trans (Entails.of_eq (bigSepL_cons i l Φ).symm)
    have hi : bigSep Finset.univ Φ ⊢ Φ i := bigSep_elim (Finset.mem_univ i)
    iintro #H
    isplitr
    · iapply hi; iexact H
    · iapply ih; iexact H

/-- The cells device `c` touches: its own thirty, then its peers' barrier cells, the receive cells it copies into, and
    its peers' exit cells. -/
abbrev l58 (c : Dev nD) : List (Dev nD × Fin 30) :=
  [(c, 0), (c, 1), (c, 2), (c, 3), (c, 4), (c, 5), (c, 6), (c, 7), (c, 8), (c, 9), (c, 10), (c, 11), (c, 12), (c, 13), (c, 14),
   (c, 15), (c, 16), (c, 17), (c, 18), (c, 19), (c, 20), (c, 21), (c, 22), (c, 23), (c, 24), (c, 25), (c, 26), (c, 27), (c, 28), (c, 29),
   (fwd c 1, 0), (fwd c 2, 0), (fwd c 3, 0), (fwd c 4, 0), (fwd c 5, 0), (fwd c 6, 0), (fwd c 7, 0),
   (fwd c 1, 9), (fwd c 2, 10), (fwd c 3, 11), (fwd c 4, 12), (fwd c 5, 13), (fwd c 6, 14), (fwd c 7, 15),
   (fwd c 7, 23), (fwd c 6, 24), (fwd c 5, 25), (fwd c 4, 26), (fwd c 3, 27), (fwd c 2, 28), (fwd c 1, 29),
   (fwd c 1, 1), (fwd c 2, 1), (fwd c 3, 1), (fwd c 4, 1), (fwd c 5, 1), (fwd c 6, 1), (fwd c 7, 1)]

theorem invs_eq (K : Dev nD × Fin 30 → ℕ) (c : Dev nD) :
    invs XG SS RS K c = bigSepL (l58 c) fun ck => (cellInv ER (sched XG SS RS) (K ck) (kcell ck) : sProp 𝕄) := rfl
omit [FloatOps F] in
theorem reacheds_eq (c : Dev nD) : (reacheds c : sProp 𝕄) = bigSepL (l58 c) fun ck => (reached ER (kcell ck) 0 : sProp 𝕄) := rfl
omit [FloatOps F] in
theorem positions_eq (c : Dev nD) : (positions c : sProp 𝕄) = bigSep Finset.univ fun k : Fin 30 => (atPos ER (kcell (c, k)) 0 ∅ 0 : sProp 𝕄) := by
  rw [bigSep_fin30]; rfl

/-- What stays with device `c`: its positions, and the tokens of the duties IT pays. -/
def linear (c : Dev nD) : sProp 𝕄 :=
  iprop((bigSep Finset.univ fun k : Fin 30 => atPos ER (kcell (c, k)) 0 ∅ 0) ∗ payToks c)

theorem ghost_intro (K : Dev nD × Fin 30 → ℕ) (c : Dev nD) : iprop(records XG SS RS K ∗ linear c) ⊢ G' XG SS RS c := by
  unfold records linear G' ghost
  iintro ⟨⟨#HI, #HR⟩, Hat, Htok⟩
  iexists K
  rw [invs_eq, reacheds_eq, positions_eq]
  isplitr
  · iapply (bigSep_univ_listP (fun ck : Dev nD × Fin 30 => (cellInv ER (sched XG SS RS) (K ck) (kcell ck) : sProp 𝕄)) (l58 c)); iexact HI
  isplitr
  · iapply (bigSep_univ_listP (fun ck : Dev nD × Fin 30 => (reached ER (kcell ck) 0 : sProp 𝕄)) (l58 c)); iexact HR
  isplitl [Hat]; · iexact Hat
  iexact Htok

theorem regroup :
    (bigSep Finset.univ fun c : Dev nD => iprop((bigSep Finset.univ fun k => iprop(∃ κ : ℕ, cellInv ER (sched XG SS RS) κ (kcell (c, k))))
          ∗ (bigSep Finset.univ fun k : Fin 30 => iprop(atPos ER (kcell (c, k)) 0 ∅ 0 ∗ reached ER (kcell (c, k)) 0)) ∗ toks c) : sProp 𝕄)
      ⊢ bigSep Finset.univ (G' XG SS RS) := by
  rw [bigSep_sep', bigSep_sep', ← bigSep_univ_prod (fun ck : Dev nD × Fin 30 => iprop(∃ κ : ℕ, cellInv ER (sched XG SS RS) κ (kcell ck))),
    bigSep_congr (s := Finset.univ) (fun (c : Dev nD) _ => bigSep_sep' Finset.univ (fun k : Fin 30 => (atPos ER (kcell (c, k)) 0 ∅ 0 : sProp 𝕄)) (fun k => reached ER (kcell (c, k)) 0)),
    bigSep_sep', ← bigSep_univ_prod (fun ck : Dev nD × Fin 30 => (reached ER (kcell ck) 0 : sProp 𝕄))]
  iintro ⟨HI, ⟨Hat, #HR⟩, Htok⟩
  ihave HK := (BI.bigSep_exists_pi Finset.univ (fun (ck : Dev nD × Fin 30) (κ : ℕ) => (cellInv ER (sched XG SS RS) κ (kcell ck) : sProp 𝕄))) $$ HI
  icases HK with ⟨%K, #HI⟩
  ihave Htk := (toks_around (F := F)) $$ Htok
  iapply (bigSep_with_persistent (R := records XG SS RS K) fun c _ => ghost_intro XG SS RS K c)
  isplitr
  · unfold records; isplitl; · iexact HI
    iexact HR
  · iapply (Entails.of_eq (bigSep_sep' Finset.univ (fun c : Dev nD => bigSep Finset.univ fun k : Fin 30 => (atPos ER (kcell (c, k)) 0 ∅ 0 : sProp 𝕄)) payToks).symm)
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G XG SS RS c) : sProp 𝕄)
    ⊢ |={Set.univ}=> bigSep Finset.univ (G' XG SS RS) :=
  ((bigSep_mono fun c _ => core_alloc XG SS RS c).trans (bigSep_fupd _ _)).trans (BI.fupd_mono (regroup XG SS RS))

/-! ## The launch theorem's side conditions -/

theorem start_intro (hcreds : ∀ c, (Pipeline.launchCred O₀ c : sProp 𝕄) ⊢ creds c) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' XG SS RS c)
      ⊢ |={Set.univ}=> iprop(start XG SS RS c ∗ emp) := by
  iintro ⟨-, Hlev, Hcr, -, HG⟩
  ihave Hc := (hcreds c) $$ Hcr
  imodintro
  unfold start G'
  isplitl
  · isplitl [HG]; · iexact HG
    isplitl [Hc]; · iexact Hc
    iexact Hlev
  · iempintro

theorem phi0_intro (c : Dev nD) :
    iprop(start XG SS RS c ∗ Pipeline.prefHeld Pipeline.Prefetch.none c (fun _ => fullShare.right) (fun k => k.elim0) ∗ Pipeline.scopedRest cfg0.spec c)
      ⊢ (dats m ρ XG SS RS OUT 0 c).Φ 0 := by
  rw [show (dats m ρ XG SS RS OUT 0 c).Φ 0 = Φ₀ XG SS RS c from rfl, scopedRest0_eq]
  unfold Φ₀ scratch
  iintro ⟨Hs, -, Hr⟩
  isplitl [Hs]; · iexact Hs
  iexact Hr

theorem phi1_exit (c : Dev nD) :
    (dats m ρ XG SS RS OUT 0 c).Φ (Fin.last cfg0.N) ⊢ iprop(emp ∗ Pipeline.ownSems0 osem c ∗ Pipeline.scopedRest cfg0.spec c) := by
  rw [show (dats m ρ XG SS RS OUT 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

/-! ## The run -/

set_option maxRecDepth 8000 in
/-- At the compiled mesh of eight devices, for any float values, from any memory with zero counters: if one device's body
    is proved from its ghost state, every weakly fair execution of @main terminates, and every final state has each
    window's array at what the proof data say. -/
theorem run_of_body (hbody : ∀ c, BodyObligation (dats (F := F) m ρ XG SS RS OUT 0 c) (defs₀ (F := F)) 𝒱₀ () Set.univ)
    (hcreds : ∀ c, (Pipeline.launchCred O₀ c : sProp 𝕄) ⊢ creds c)
    (hwaits : ∀ c, (levAts L lv : sProp 𝕄) ⊢ Pipeline.cellsWaits cfgs (dats m ρ XG SS RS OUT) () 0 c) :
    θ_run defs (onTc (τ := τ) (main (F := F))) (s₀ m ρ)
      (fun r => ∀ c : Dev nD, ∀ w : Fin cfg0.W, r.2.mem ((cfg0.win w).arr.view.loc (c : Thread nD τ)) = (dats m ρ XG SS RS OUT 0 c).arrAt w cfg0.N) :=
  Pipeline.θ_run_region_owing_glob_pf (fun p => (cfgs p).toPCfg) (fun p => (cfgs p).toPCfg_adm) (dats m ρ XG SS RS OUT) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ XG SS RS OUT)
    (hdistinct := winFacts0.arr_inj)
    (O₀ := O₀) (howed₀ := fun _ => rfl) (howedN := fun _ => rfl)
    (L := L) (lv := lv) (hL := L_of_ne) (hwaits := hwaits)
    (G := G XG SS RS) (G' := G' XG SS RS) (u₀ := u₀)
    (hu₀ := by
      unfold u₀
      iintro Hu
      ihave H := (ownU_pair _ _) $$ Hu
      icases H with ⟨HP, HX⟩
      imod (fund_ring XG SS RS) $$ HX with HG
      imodintro
      isplitl [HP] <;> iassumption)
    (hglob := glob XG SS RS)
    (hA := fun _ _ => rfl) (hpf := fun _ k => k.elim0)
    (X := start XG SS RS) (Y := fun _ => iprop(emp)) (Z := fun _ => iprop(emp))
    (hX := start_intro m ρ XG SS RS hcreds) (hin := phi0_intro m ρ XG SS RS OUT) (hout := phi1_exit m ρ XG SS RS OUT)
    (QY := fun _ _ => True)
    (hY := fun c s' => by
      iintro ⟨-, -, HSI⟩
      imodintro
      isplitr; · ipureintro; trivial
      iexact HSI)
    (hQ := fun _ h c w => (h c).1 w)

/-! ## The arrays read back -/

/-- An input window's array after the run holds what it held. -/
theorem finalA_in (c : Dev nD) (w : Fin cfg0.W) (hw : (cfg0.win w).isOut = false) :
    (dats m ρ XG SS RS OUT 0 c).arrAt w cfg0.N = m ((cfg0.win w).arr.view.loc (c : Thread nD τ)) :=
  (dats (F := F) m ρ XG SS RS OUT 0 c).arrAt_in w hw _

/-- The result array's one block — the whole array — read back is what the body left in the staging buffer. -/
theorem finalA_out_blk (c : Dev nD) :
    (win0_5.blk t₀).view.read (Elt F) ((dats m ρ XG SS RS OUT 0 c).arrAt (5 : Fin 6) cfg0.N) = OUT c := by
  rw [show cfg0.N = (t₀ : Fin cfg0.N).val + 1 from rfl, (dats m ρ XG SS RS OUT 0 c).arrAt_succ (5 : Fin 6) t₀]
  rw [show (cfg0.win (5 : Fin 6)).flush t₀ = true from by decide, if_pos rfl]
  exact View.read_write_univ _ _

/-- That block is the array: it is the rectangle of the array's own sizes at block index 0. -/
theorem finalA_out (c : Dev nD) :
    (dats m ρ XG SS RS OUT 0 c).arrAt (5 : Fin 6) cfg0.N = OUT c := by
  have hz : (fun a => (win0_5.index t₀) a * main_v1.ty.shape.size a) = fun _ => 0 :=
    funext fun a => by fin_cases a <;> decide
  have hr := Memref.read_access_unit_zero (Elt F) main_v1 hz (fun a => by fin_cases a <;> decide)
    ((dats m ρ XG SS RS OUT 0 c).arrAt (5 : Fin 6) cfg0.N)
  exact hr.symm.trans (finalA_out_blk m ρ XG SS RS OUT c)

/-- The run of @main with every array named: the result array holds what the body stores, the five arguments what they held. -/
theorem run_named (hbody : ∀ c, BodyObligation (dats (F := F) m ρ XG SS RS OUT 0 c) (defs₀ (F := F)) 𝒱₀ () Set.univ)
    (hcreds : ∀ c, (Pipeline.launchCred O₀ c : sProp 𝕄) ⊢ creds c)
    (hwaits : ∀ c, (levAts L lv : sProp 𝕄) ⊢ Pipeline.cellsWaits cfgs (dats m ρ XG SS RS OUT) () 0 c) :
    θ_run defs (onTc (τ := τ) (main (F := F))) ⟨m, fun _ => 0, ρ⟩ (fun r => ∀ c : Dev nD,
      r.2.mem ((c.tc : Thread nD τ).loc main_v1) = OUT c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c (5 : Fin 6)).trans (finalA_out m ρ XG SS RS OUT c),
      (h c (0 : Fin 6)).trans (finalA_in m ρ XG SS RS OUT c (0 : Fin 6) rfl),
      (h c (1 : Fin 6)).trans (finalA_in m ρ XG SS RS OUT c (1 : Fin 6) rfl),
      (h c (2 : Fin 6)).trans (finalA_in m ρ XG SS RS OUT c (2 : Fin 6) rfl),
      (h c (3 : Fin 6)).trans (finalA_in m ρ XG SS RS OUT c (3 : Fin 6) rfl),
      (h c (4 : Fin 6)).trans (finalA_in m ρ XG SS RS OUT c (4 : Fin 6) rfl)⟩)
    (run_of_body m ρ XG SS RS OUT hbody hcreds hwaits)

/-- info: 'Cert.KernelIdealProof.run_named' depends on axioms: [propext, Classical.choice, Quot.sound] -/
#guard_msgs in #print axioms run_named

end Cert.KernelIdealProof

end
-- ==== Proof.BodyOblig.lean ====
/-
  From the body lemma of one device to the library's body obligation.

  The kernel has no grid: the body runs once, at the one point. There the five input windows' staging buffers hold their
  blocks — each device's whole argument array —, the result window's holds anything; the body leaves the inputs in place
  and the result's staging buffer at what it stores.
-/
import proofs.«900761_g7700000000000762_dist_attn_self_mha_htp_ss_b2_sq128_skv128_d512_hq8_dh64_v7x_i8_bf16_1_alg».proof.Proof.Data

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (OUT : Dev nD → (cc0_stg5_0 : Ref sig .tc).ty.Contents (Elt F))

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

omit [FloatOps F] in
/-- A whole buffer owned at contents `X` is its points-to at contents equal to `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## What the input windows' staging buffers hold at the point -/

theorem before_0 (c : Dev nD) (d) : (dats m ρ XG SS RS OUT 0 c).before (0 : Fin 6) t₀ d = iblk m c (0 : Fin 6) t₀ :=
  ((dats m ρ XG SS RS OUT 0 c).before_in_eq_fetched (0 : Fin 6) rfl (fun _ => rfl) (fun _ _ _ => rfl) (fun t => rfl) t₀ d).trans rfl
theorem before_1 (c : Dev nD) (d) : (dats m ρ XG SS RS OUT 0 c).before (1 : Fin 6) t₀ d = iblk m c (1 : Fin 6) t₀ :=
  ((dats m ρ XG SS RS OUT 0 c).before_in_eq_fetched (1 : Fin 6) rfl (fun _ => rfl) (fun _ _ _ => rfl) (fun t => rfl) t₀ d).trans rfl
theorem before_2 (c : Dev nD) (d) : (dats m ρ XG SS RS OUT 0 c).before (2 : Fin 6) t₀ d = iblk m c (2 : Fin 6) t₀ :=
  ((dats m ρ XG SS RS OUT 0 c).before_in_eq_fetched (2 : Fin 6) rfl (fun _ => rfl) (fun _ _ _ => rfl) (fun t => rfl) t₀ d).trans rfl
theorem before_3 (c : Dev nD) (d) : (dats m ρ XG SS RS OUT 0 c).before (3 : Fin 6) t₀ d = iblk m c (3 : Fin 6) t₀ :=
  ((dats m ρ XG SS RS OUT 0 c).before_in_eq_fetched (3 : Fin 6) rfl (fun _ => rfl) (fun _ _ _ => rfl) (fun t => rfl) t₀ d).trans rfl
theorem before_4 (c : Dev nD) (d) : (dats m ρ XG SS RS OUT 0 c).before (4 : Fin 6) t₀ d = iblk m c (4 : Fin 6) t₀ :=
  ((dats m ρ XG SS RS OUT 0 c).before_in_eq_fetched (4 : Fin 6) rfl (fun _ => rfl) (fun _ _ _ => rfl) (fun t => rfl) t₀ d).trans rfl

/-! ## The body's pre- and postcondition -/

/-- What device `c`'s body starts from: its ghost state at the names `K`, its credit, the level facts, its scratch
    buffers; what it owes; the input windows' staging buffers at their blocks, the result's at anything. -/
def bodyPre (K : Dev nD × Fin 30 → ℕ) (c : Dev nD) : sProp 𝕄 :=
  iprop((ghost XG SS RS K c ∗ creds c ∗ levAts L lv ∗ scratch c)
    ∗ (dats m ρ XG SS RS OUT 0 c).owesAt () t₀.castSucc
    ∗ stg c cc0_stg0_0 (iblk m c (0 : Fin 6) t₀)
    ∗ stg c cc0_stg1_0 (iblk m c (1 : Fin 6) t₀)
    ∗ stg c cc0_stg2_0 (iblk m c (2 : Fin 6) t₀)
    ∗ stg c cc0_stg3_0 (iblk m c (3 : Fin 6) t₀)
    ∗ stg c cc0_stg4_0 (iblk m c (4 : Fin 6) t₀)
    ∗ (∃ f : Buf (Elt F) ((c : Thread nD τ).loc cc0_stg5_0), ((c : Thread nD τ).loc cc0_stg5_0) ↦{fullShare} f))

/-- What it ends with: its scratch buffers and its own semaphores at zero; nothing owed; the inputs' staging buffers as
    they were, the result's at what the body stores. -/
def bodyPost (c : Dev nD) : sProp 𝕄 :=
  iprop(Φ₁ (F := F) c
    ∗ (dats m ρ XG SS RS OUT 0 c).owesAt () t₀.succ
    ∗ stg c cc0_stg0_0 (iblk m c (0 : Fin 6) t₀)
    ∗ stg c cc0_stg1_0 (iblk m c (1 : Fin 6) t₀)
    ∗ stg c cc0_stg2_0 (iblk m c (2 : Fin 6) t₀)
    ∗ stg c cc0_stg3_0 (iblk m c (3 : Fin 6) t₀)
    ∗ stg c cc0_stg4_0 (iblk m c (4 : Fin 6) t₀)
    ∗ stg c cc0_stg5_0 (OUT c))

set_option maxRecDepth 4000 in
/-- The obligation's precondition at the one point, its windows one by one. -/
def bodyPre' (c : Dev nD) : sProp 𝕄 :=
  iprop(Φ₀ XG SS RS c ∗ (dats m ρ XG SS RS OUT 0 c).owesAt () t₀.castSucc
    ∗ (∃ d, stg c cc0_stg0_0 ((dats m ρ XG SS RS OUT 0 c).before (0 : Fin 6) t₀ d))
    ∗ (∃ d, stg c cc0_stg1_0 ((dats m ρ XG SS RS OUT 0 c).before (1 : Fin 6) t₀ d))
    ∗ (∃ d, stg c cc0_stg2_0 ((dats m ρ XG SS RS OUT 0 c).before (2 : Fin 6) t₀ d))
    ∗ (∃ d, stg c cc0_stg3_0 ((dats m ρ XG SS RS OUT 0 c).before (3 : Fin 6) t₀ d))
    ∗ (∃ d, stg c cc0_stg4_0 ((dats m ρ XG SS RS OUT 0 c).before (4 : Fin 6) t₀ d))
    ∗ (∃ d, stg c cc0_stg5_0 ((dats m ρ XG SS RS OUT 0 c).before (5 : Fin 6) t₀ d)))

set_option maxRecDepth 16384 in
/-- The library's body obligation on device `c`, from the body run between `bodyPre` and `bodyPost`. -/
theorem body_obligation
    (hsound : ∀ (K : Dev nD × Fin 30 → ℕ) (c : Dev nD) (Kt : PUnit → sProp 𝕄),
      iprop(bodyPre m ρ XG SS RS OUT K c ∗ (bodyPost m ρ XG SS RS OUT c -∗ Kt ⟨⟩))
        ⊢ wp frame (wpE (defs₀ (F := F)) 𝒱₀ (c : Thread nD τ) none) Set.univ
            (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0) Kt)
    (c : Dev nD) : BodyObligation (dats (F := F) m ρ XG SS RS OUT 0 c) (defs₀ (F := F)) 𝒱₀ () Set.univ := fun t => by
  rw [fin_N t]
  rw [bigSep_W, bigSep_W]
  simp only [owns_whole_eq]
  show bodyPre' m ρ XG SS RS OUT c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0) (fun _ => bodyPost m ρ XG SS RS OUT c)
  unfold bodyPre' Φ₀ start
  iintro ⟨⟨⟨⟨%K, Hg⟩, Hcr, Hlev⟩, Hscr⟩, Ho, ⟨%d0, H0⟩, ⟨%d1, H1⟩, ⟨%d2, H2⟩, ⟨%d3, H3⟩, ⟨%d4, H4⟩, ⟨%d5, %f5, -, H5⟩⟩
  rw [before_0, before_1, before_2, before_3, before_4]
  iapply (hsound K c fun _ => bodyPost m ρ XG SS RS OUT c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [H0]; · iexact H0
    isplitl [H1]; · iexact H1
    isplitl [H2]; · iexact H2
    isplitl [H3]; · iexact H3
    isplitl [H4]; · iexact H4
    iexists f5; iexact H5
  · iintro H; iexact H

/-- info: 'Cert.KernelIdealProof.body_obligation' depends on axioms: [propext, Classical.choice, Quot.sound] -/
#guard_msgs in #print axioms body_obligation

end Cert.KernelIdealProof

end
-- ==== Proof.TablesCredit.lean ====
/-
  The launch credit of the cross-device protocol: summed over the devices, the launch tallies owe each device's entry
  barrier seven units, each of its fourteen receive cells one slot's credit, and its exit barrier seven units; the launch
  deals the device exactly these.
-/
import proofs.«900761_g7700000000000762_dist_attn_self_mha_htp_ss_b2_sq128_skv128_d512_hq8_dh64_v7x_i8_bf16_1_alg».proof.Proof.Proto
import Idealize.ShloMosaic.Lib.Pipeline.Launch
import Idealize.ShloMosaic.Lib.Pipeline.Kit

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Reading a one-cell tally at a cell; the ring -/

/-- A tally on a TensorCore's cell, read at a TensorCore's cell. -/
theorem tallyAt_dev_apply (a b : Dev nD) (s t : SemLoc sig) (k : ℕ) :
    (tallyAt (((a : Thread nD τ), s) : GSem nD τ sig) () k : CellTallies nD τ sig Unit) ((b : Thread nD τ), t) () = if t = s ∧ b = a then k else 0 := by
  rw [tallyAt_apply]
  by_cases h : t = s ∧ b = a
  · rw [if_pos h, if_pos ⟨by rw [h.1, h.2], rfl⟩]
  · rw [if_neg h, if_neg fun h' => h ⟨congrArg Prod.snd h'.1, Fin.ext (congrArg (fun g : GSem nD τ sig => g.1.1.val) h'.1)⟩]

/-- `c` is `j` places after `d` exactly when `d` is `k` places after `c`, for `j + k` a multiple of eight. -/
theorem eq_fwd_comm (c d : Dev nD) (j k : ℕ) (h : (j + k) % 8 = 0) : (c = fwd d j) = (d = fwd c k) := by
  have hc : c.val < 8 := c.isLt
  have hd : d.val < 8 := d.isLt
  refine propext ⟨fun e => ?_, fun e => ?_⟩
  · rw [e, fwd_fwd]; apply Fin.ext; show d.val = (d.val + (j + k)) % 8; omega
  · rw [e, fwd_fwd]; apply Fin.ext; show c.val = (c.val + (k + j)) % 8; omega

/-! ## What device `d` owes a cell of device `c` -/

/-- The entry barrier of `c`: one unit from each of the seven other devices. -/
theorem owed_bar (d c : Dev nD) : O₀ d (barCell c) () = ((if d = fwd c 1 then 1 else 0) + (if d = fwd c 2 then 1 else 0) + (if d = fwd c 3 then 1 else 0) + (if d = fwd c 4 then 1 else 0) + (if d = fwd c 5 then 1 else 0) + (if d = fwd c 6 then 1 else 0) + (if d = fwd c 7 then 1 else 0)) := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
/-- The exit barrier of `c`: the same. -/
theorem owed_exit (d c : Dev nD) : O₀ d (exitCell c) () = ((if d = fwd c 1 then 1 else 0) + (if d = fwd c 2 then 1 else 0) + (if d = fwd c 3 then 1 else 0) + (if d = fwd c 4 then 1 else 0) + (if d = fwd c 5 then 1 else 0) + (if d = fwd c 6 then 1 else 0) + (if d = fwd c 7 then 1 else 0)) := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_0 (d c : Dev nD) : O₀ d (agRCell c 0) () = if d = fwd c 7 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_1 (d c : Dev nD) : O₀ d (agRCell c 1) () = if d = fwd c 6 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_2 (d c : Dev nD) : O₀ d (agRCell c 2) () = if d = fwd c 5 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_3 (d c : Dev nD) : O₀ d (agRCell c 3) () = if d = fwd c 4 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_4 (d c : Dev nD) : O₀ d (agRCell c 4) () = if d = fwd c 3 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_5 (d c : Dev nD) : O₀ d (agRCell c 5) () = if d = fwd c 2 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_agR_6 (d c : Dev nD) : O₀ d (agRCell c 6) () = if d = fwd c 1 then Nag else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_0 (d c : Dev nD) : O₀ d (rsRCell c 0) () = if d = fwd c 1 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_1 (d c : Dev nD) : O₀ d (rsRCell c 1) () = if d = fwd c 2 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_2 (d c : Dev nD) : O₀ d (rsRCell c 2) () = if d = fwd c 3 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_3 (d c : Dev nD) : O₀ d (rsRCell c 3) () = if d = fwd c 4 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_4 (d c : Dev nD) : O₀ d (rsRCell c 4) () = if d = fwd c 5 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_5 (d c : Dev nD) : O₀ d (rsRCell c 5) () = if d = fwd c 6 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]
theorem owed_rsR_6 (d c : Dev nD) : O₀ d (rsRCell c 6) () = if d = fwd c 7 then Nrs else 0 := by
  unfold O₀
  simp (config := {decide := true}) only [Pi.add_apply, Finsupp.add_apply, tallyAt_dev_apply, true_and, false_and, if_false, ite_false, Nat.zero_add, Nat.add_zero,
    eq_fwd_comm c d 1 7 rfl, eq_fwd_comm c d 2 6 rfl, eq_fwd_comm c d 3 5 rfl, eq_fwd_comm c d 4 4 rfl, eq_fwd_comm c d 5 3 rfl, eq_fwd_comm c d 6 2 rfl, eq_fwd_comm c d 7 1 rfl]

/-- Receive cell `i` of the gather on `c`: one slot's credit, from the device `i + 1` places behind `c`. -/
theorem owed_agR (d c : Dev nD) : (i : Fin 7) → O₀ d (agRCell c i) () = if d = fwd c (7 - i.val) then Nag else 0
  | 0 => owed_agR_0 d c
  | 1 => owed_agR_1 d c
  | 2 => owed_agR_2 d c
  | 3 => owed_agR_3 d c
  | 4 => owed_agR_4 d c
  | 5 => owed_agR_5 d c
  | 6 => owed_agR_6 d c
/-- Receive cell `i` of the partial rows on `c`: one slot's credit, from the device `i + 1` places after `c`. -/
theorem owed_rsR (d c : Dev nD) : (i : Fin 7) → O₀ d (rsRCell c i) () = if d = fwd c (i.val + 1) then Nrs else 0
  | 0 => owed_rsR_0 d c
  | 1 => owed_rsR_1 d c
  | 2 => owed_rsR_2 d c
  | 3 => owed_rsR_3 d c
  | 4 => owed_rsR_4 d c
  | 5 => owed_rsR_5 d c
  | 6 => owed_rsR_6 d c

/-! ## What the launch deals a device -/

section Launch
variable (c : Dev nD)

theorem launch_bar :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  simp only [Finset.sum_add_distrib, Finset.sum_ite_eq', Finset.mem_univ, if_true]
theorem launch_exit :
    tallyOn (exitCell c) (launchCredit (Pipeline.owing O₀) 0 (exitCell c)) = (tallyAt (exitCell c) () 7 : CellTallies nD τ sig Unit) := by
  unfold tallyAt; refine congrArg _ (Finsupp.ext fun u => ?_); cases u
  rw [Pipeline.launchCredit_owing, Finsupp.single_eq_same, Finset.sum_congr rfl fun d _ => owed_exit d c]
  simp only [Finset.sum_add_distrib, Finset.sum_ite_eq', Finset.mem_univ, if_true]
theorem launch_agR (i : Fin 7) :
    tallyOn (agRCell c i) (launchCredit (Pipeline.owing O₀) 0 (agRCell c i)) = (tallyAt (agRCell c i) () Nag : CellTallies nD τ sig Unit) := by
  unfold tallyAt; refine congrArg _ (Finsupp.ext fun u => ?_); cases u
  rw [Pipeline.launchCredit_owing, Finsupp.single_eq_same, Finset.sum_congr rfl fun d _ => owed_agR d c i,
    Finset.sum_ite_eq' Finset.univ (fwd c (7 - i.val)) fun _ => Nag, if_pos (Finset.mem_univ _)]
theorem launch_rsR (i : Fin 7) :
    tallyOn (rsRCell c i) (launchCredit (Pipeline.owing O₀) 0 (rsRCell c i)) = (tallyAt (rsRCell c i) () Nrs : CellTallies nD τ sig Unit) := by
  unfold tallyAt; refine congrArg _ (Finsupp.ext fun u => ?_); cases u
  rw [Pipeline.launchCredit_owing, Finsupp.single_eq_same, Finset.sum_congr rfl fun d _ => owed_rsR d c i,
    Finset.sum_ite_eq' Finset.univ (fwd c (i.val + 1)) fun _ => Nrs, if_pos (Finset.mem_univ _)]

/-- The sixteen semaphores of a device that other devices pay. -/
def credSems : List (SemLoc sig) := [.reg barS, .dma (agR 0), .dma (agR 1), .dma (agR 2), .dma (agR 3), .dma (agR 4), .dma (agR 5), .dma (agR 6), .dma (rsR 0), .dma (rsR 1), .dma (rsR 2), .dma (rsR 3), .dma (rsR 4), .dma (rsR 5), .dma (rsR 6), .reg exitS]
theorem credSems_nodup : credSems.Nodup := by decide

omit [FloatOps F] in
/-- The credit a device is dealt at launch for the units the others owe its cells. -/
theorem launch_creds : (Pipeline.launchCred O₀ c : sProp 𝕄) ⊢
    iprop(cred (tallyAt (barCell c) () 7)
      ∗ cred (tallyAt (agRCell c 0) () Nag)
      ∗ cred (tallyAt (agRCell c 1) () Nag)
      ∗ cred (tallyAt (agRCell c 2) () Nag)
      ∗ cred (tallyAt (agRCell c 3) () Nag)
      ∗ cred (tallyAt (agRCell c 4) () Nag)
      ∗ cred (tallyAt (agRCell c 5) () Nag)
      ∗ cred (tallyAt (agRCell c 6) () Nag)
      ∗ cred (tallyAt (rsRCell c 0) () Nrs)
      ∗ cred (tallyAt (rsRCell c 1) () Nrs)
      ∗ cred (tallyAt (rsRCell c 2) () Nrs)
      ∗ cred (tallyAt (rsRCell c 3) () Nrs)
      ∗ cred (tallyAt (rsRCell c 4) () Nrs)
      ∗ cred (tallyAt (rsRCell c 5) () Nrs)
      ∗ cred (tallyAt (rsRCell c 6) () Nrs)
      ∗ cred (tallyAt (exitCell c) () 7)) := by
  unfold Pipeline.launchCred
  refine (bigSep_subset (Finset.subset_univ credSems.toFinset)).trans ?_
  rw [bigSep_eq_bigSepL credSems credSems_nodup]
  unfold credSems
  simp only [bigSepL_cons_cons, bigSepL_singleton]
  rw [launch_bar c, launch_agR c 0, launch_agR c 1, launch_agR c 2, launch_agR c 3, launch_agR c 4, launch_agR c 5, launch_agR c 6, launch_rsR c 0, launch_rsR c 1, launch_rsR c 2, launch_rsR c 3, launch_rsR c 4, launch_rsR c 5, launch_rsR c 6, launch_exit c]
  exact Idealize.SL.BI.Entails.refl _

end Launch

end Cert.KernelIdealProof

end
-- ==== Proof.TablesLevels.lean ====
/-
  The levels of the cross-device protocol: at each of its waits a device still owes only cells that stand above the
  cell it waits on. What it still owes is a beginning of the launch tally's sum, whose summands are paid from the last
  to the first: seven signals to the entry barriers, seven blocks to the gather's receive cells, seven partial rows to
  the second phase's receive cells, seven signals to the exit barriers.
-/
import proofs.«900761_g7700000000000762_dist_attn_self_mha_htp_ss_b2_sq128_skv128_d512_hq8_dh64_v7x_i8_bf16_1_alg».proof.Proof.Proto
import Idealize.ShloMosaic.Lib.Pipeline.Launch

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The levels of the cells -/

theorem lv_bar (d : Dev nD) : lv (barCell d) () = 1 := rfl
theorem lv_exit (d : Dev nD) : lv (exitCell d) () = 4 := rfl
theorem lv_agS (d : Dev nD) (i : Fin 7) : lv (agSCell d i) () = 0 := by dsimp only [lv]; rw [kindOf_agS]
theorem lv_agR (d : Dev nD) (i : Fin 7) : lv (agRCell d i) () = 2 := by dsimp only [lv]; rw [kindOf_agR]
theorem lv_rsS (d : Dev nD) (i : Fin 7) : lv (rsSCell d i) () = 0 := by dsimp only [lv]; rw [kindOf_rsS]
theorem lv_rsR (d : Dev nD) (i : Fin 7) : lv (rsRCell d i) () = 3 := by dsimp only [lv]; rw [kindOf_rsR]
theorem lv_other (d : Dev nD) (s : SemLoc sig) (h : kindOf s = .other) : lv ((d : Thread nD τ), s) () = 0 := by dsimp only [lv]; rw [h]

theorem le_lv_bar (d : Dev nD) {b : ℕ} (h : b ≤ 1) : b ≤ lv (barCell d) () := h
theorem le_lv_exit (d : Dev nD) {b : ℕ} (h : b ≤ 4) : b ≤ lv (exitCell d) () := h
theorem le_lv_agR (d : Dev nD) (i : Fin 7) {b : ℕ} (h : b ≤ 2) : b ≤ lv (agRCell d i) () := by rw [lv_agR]; exact h
theorem le_lv_rsR (d : Dev nD) (i : Fin 7) {b : ℕ} (h : b ≤ 3) : b ≤ lv (rsRCell d i) () := by rw [lv_rsR]; exact h

/-! ## Tallies that sit at or above a level -/

/-- Wherever the tally is positive is a TensorCore's cell of level at least `b`. -/
def AtLeast (b : ℕ) (O : CellTallies nD τ sig Unit) : Prop := ∀ g u, 0 < O g u → g.1.2 = .tc ∧ b ≤ lv g u

theorem AtLeast.add {b : ℕ} {O D : CellTallies nD τ sig Unit} (hO : AtLeast b O) (hD : AtLeast b D) : AtLeast b (O + D) :=
  fun g u h => (Pipeline.add_pos_cases h).elim (hO g u) (hD g u)
theorem AtLeast.tally {b : ℕ} {g : GSem nD τ sig} {k : ℕ} (hg : g.1.2 = .tc) (hb : b ≤ lv g ()) : AtLeast b (tallyAt g () k) :=
  fun g' u h => by obtain ⟨rfl, rfl⟩ := Pipeline.tallyAt_pos h; exact ⟨hg, hb⟩
theorem AtLeast.mono {b b' : ℕ} {O : CellTallies nD τ sig Unit} (h : b' ≤ b) (hO : AtLeast b O) : AtLeast b' O :=
  fun g u hg => ⟨(hO g u hg).1, Nat.le_trans h (hO g u hg).2⟩
theorem AtLeast.zero (b : ℕ) : AtLeast b (0 : CellTallies nD τ sig Unit) := fun g u h => absurd h (Nat.lt_irrefl 0)

omit [FloatOps F] in
/-- A device may wait on a cell of its own below the level everything it owes sits at. -/
theorem mayWait_of_atLeast (c : Dev nD) (s : SemLoc sig) {b : ℕ} {O : CellTallies nD τ sig Unit}
    (hs : lv ((c : Thread nD τ), s) () < b) (hO : AtLeast b O) :
    (levAts L lv : sProp 𝕄) ⊢ MayWait (c : Thread nD τ) s () O :=
  Pipeline.mayWait_of_levAts (by rw [L_tc]; exact Finset.mem_singleton_self _) fun g u h =>
    ⟨by unfold L; rw [if_pos (hO g u h).1]; exact Finset.mem_singleton_self _, Nat.lt_of_lt_of_le hs (hO g u h).2⟩

/-! ## What a device still owes at its waits -/

section Owed
variable (c : Dev nD)

/-- The seven exit signals: all a device owes from its last copy on. -/
theorem atLeast_exit : AtLeast 4 (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1 : CellTallies nD τ sig Unit) := by
  repeat' (first | refine AtLeast.add ?_ ?_ | exact AtLeast.tally rfl (by first | exact le_lv_exit _ (by decide) | exact le_lv_rsR _ _ (by decide) | exact le_lv_agR _ _ (by decide) | exact le_lv_bar _ (by decide)))
/-- Those and the seven copies of partial rows: what it owes while it gathers. -/
theorem atLeast_rs : AtLeast 3 (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs : CellTallies nD τ sig Unit) := by
  repeat' (first | refine AtLeast.add ?_ ?_ | exact AtLeast.tally rfl (by first | exact le_lv_exit _ (by decide) | exact le_lv_rsR _ _ (by decide) | exact le_lv_agR _ _ (by decide) | exact le_lv_bar _ (by decide)))
/-- Those and the seven copies of its block: what it owes at the entry barrier. -/
theorem atLeast_ag : AtLeast 2 (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs
      + tallyAt (agRCell (fwd c 7) 6) () Nag
      + tallyAt (agRCell (fwd c 6) 5) () Nag
      + tallyAt (agRCell (fwd c 5) 4) () Nag
      + tallyAt (agRCell (fwd c 4) 3) () Nag
      + tallyAt (agRCell (fwd c 3) 2) () Nag
      + tallyAt (agRCell (fwd c 2) 1) () Nag
      + tallyAt (agRCell (fwd c 1) 0) () Nag : CellTallies nD τ sig Unit) := by
  repeat' (first | refine AtLeast.add ?_ ?_ | exact AtLeast.tally rfl (by first | exact le_lv_exit _ (by decide) | exact le_lv_rsR _ _ (by decide) | exact le_lv_agR _ _ (by decide) | exact le_lv_bar _ (by decide)))
/-- Everything it owes at launch. -/
theorem atLeast_launch : AtLeast 1 (O₀ c) := by
  unfold O₀
  repeat' (first | refine AtLeast.add ?_ ?_ | exact AtLeast.tally rfl (by first | exact le_lv_exit _ (by decide) | exact le_lv_rsR _ _ (by decide) | exact le_lv_agR _ _ (by decide) | exact le_lv_bar _ (by decide)))

/-- The launch tally, summand by summand: the sums above are its beginnings. -/
theorem O₀_eq_sum : O₀ c = (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs
      + tallyAt (agRCell (fwd c 7) 6) () Nag
      + tallyAt (agRCell (fwd c 6) 5) () Nag
      + tallyAt (agRCell (fwd c 5) 4) () Nag
      + tallyAt (agRCell (fwd c 4) 3) () Nag
      + tallyAt (agRCell (fwd c 3) 2) () Nag
      + tallyAt (agRCell (fwd c 2) 1) () Nag
      + tallyAt (agRCell (fwd c 1) 0) () Nag
      + tallyAt (barCell (fwd c 7)) () 1
      + tallyAt (barCell (fwd c 6)) () 1
      + tallyAt (barCell (fwd c 5)) () 1
      + tallyAt (barCell (fwd c 4)) () 1
      + tallyAt (barCell (fwd c 3)) () 1
      + tallyAt (barCell (fwd c 2)) () 1
      + tallyAt (barCell (fwd c 1)) () 1 : CellTallies nD τ sig Unit) := rfl

theorem pos_snoc {O : CellTallies nD τ sig Unit} {g₀ g : GSem nD τ sig} {k : ℕ} {u : Unit} {P : Prop} (hO : 0 < O g u → P)
    (h : 0 < (O + tallyAt g₀ () k) g u) : g = g₀ ∨ P :=
  (Pipeline.add_pos_cases h).elim (fun h => .inr (hO h)) (fun h => .inl (Pipeline.tallyAt_pos h).1)

/-- The launch tally is positive only at the twenty-eight cells it names, here in the order they are paid. -/
theorem O₀_pos {g : GSem nD τ sig} {u : Unit} (h : 0 < O₀ c g u) :
    g = barCell (fwd c 1)
    ∨ g = barCell (fwd c 2)
    ∨ g = barCell (fwd c 3)
    ∨ g = barCell (fwd c 4)
    ∨ g = barCell (fwd c 5)
    ∨ g = barCell (fwd c 6)
    ∨ g = barCell (fwd c 7)
    ∨ g = agRCell (fwd c 1) 0
    ∨ g = agRCell (fwd c 2) 1
    ∨ g = agRCell (fwd c 3) 2
    ∨ g = agRCell (fwd c 4) 3
    ∨ g = agRCell (fwd c 5) 4
    ∨ g = agRCell (fwd c 6) 5
    ∨ g = agRCell (fwd c 7) 6
    ∨ g = rsRCell (fwd c 7) 0
    ∨ g = rsRCell (fwd c 6) 1
    ∨ g = rsRCell (fwd c 5) 2
    ∨ g = rsRCell (fwd c 4) 3
    ∨ g = rsRCell (fwd c 3) 4
    ∨ g = rsRCell (fwd c 2) 5
    ∨ g = rsRCell (fwd c 1) 6
    ∨ g = exitCell (fwd c 1)
    ∨ g = exitCell (fwd c 2)
    ∨ g = exitCell (fwd c 3)
    ∨ g = exitCell (fwd c 4)
    ∨ g = exitCell (fwd c 5)
    ∨ g = exitCell (fwd c 6)
    ∨ g = exitCell (fwd c 7) := by
  unfold O₀ at h
  iterate 27 (refine pos_snoc ?_ h; clear h; intro h)
  exact (Pipeline.tallyAt_pos h).1

/-! ## The waits, in program order -/

omit [FloatOps F] in
/-- The entry barrier's wait: the seven signals are sent, everything else is owed. -/
theorem mayWait_bar : (levAts L lv : sProp 𝕄) ⊢ MayWait (c : Thread nD τ) (.reg barS) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs
      + tallyAt (agRCell (fwd c 7) 6) () Nag
      + tallyAt (agRCell (fwd c 6) 5) () Nag
      + tallyAt (agRCell (fwd c 5) 4) () Nag
      + tallyAt (agRCell (fwd c 4) 3) () Nag
      + tallyAt (agRCell (fwd c 3) 2) () Nag
      + tallyAt (agRCell (fwd c 2) 1) () Nag
      + tallyAt (agRCell (fwd c 1) 0) () Nag : CellTallies nD τ sig Unit) :=
  mayWait_of_atLeast c _ (b := 2) (by rw [lv_bar]; decide) (atLeast_ag c)
omit [FloatOps F] in
/-- A send wait of the gather placed before the copies of partial rows would owe those and the exit signals. -/
theorem mayWait_agS_early (i : Fin 7) : (levAts L lv : sProp 𝕄) ⊢ MayWait (c : Thread nD τ) (.dma (agS i)) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs : CellTallies nD τ sig Unit) :=
  mayWait_of_atLeast c _ (b := 3) (by rw [lv_agS]; decide) (atLeast_rs c)
omit [FloatOps F] in
/-- The receive waits of the gather: the same. -/
theorem mayWait_agR (i : Fin 7) : (levAts L lv : sProp 𝕄) ⊢ MayWait (c : Thread nD τ) (.dma (agR i)) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1
      + tallyAt (rsRCell (fwd c 1) 6) () Nrs
      + tallyAt (rsRCell (fwd c 2) 5) () Nrs
      + tallyAt (rsRCell (fwd c 3) 4) () Nrs
      + tallyAt (rsRCell (fwd c 4) 3) () Nrs
      + tallyAt (rsRCell (fwd c 5) 2) () Nrs
      + tallyAt (rsRCell (fwd c 6) 1) () Nrs
      + tallyAt (rsRCell (fwd c 7) 0) () Nrs : CellTallies nD τ sig Unit) :=
  mayWait_of_atLeast c _ (b := 3) (by rw [lv_agR]; decide) (atLeast_rs c)
omit [FloatOps F] in
/-- The send waits of the gather, which come after every copy is started: the exit signals are owed. -/
theorem mayWait_agS (i : Fin 7) : (levAts L lv : sProp 𝕄) ⊢ MayWait (c : Thread nD τ) (.dma (agS i)) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1 : CellTallies nD τ sig Unit) :=
  mayWait_of_atLeast c _ (b := 4) (by rw [lv_agS]; decide) (atLeast_exit c)
omit [FloatOps F] in
/-- The send waits of the partial rows: the exit signals are owed. -/
theorem mayWait_rsS (i : Fin 7) : (levAts L lv : sProp 𝕄) ⊢ MayWait (c : Thread nD τ) (.dma (rsS i)) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1 : CellTallies nD τ sig Unit) :=
  mayWait_of_atLeast c _ (b := 4) (by rw [lv_rsS]; decide) (atLeast_exit c)
omit [FloatOps F] in
/-- The receive waits of the partial rows: the same. -/
theorem mayWait_rsR (i : Fin 7) : (levAts L lv : sProp 𝕄) ⊢ MayWait (c : Thread nD τ) (.dma (rsR i)) ()
    (tallyAt (exitCell (fwd c 7)) () 1
      + tallyAt (exitCell (fwd c 6)) () 1
      + tallyAt (exitCell (fwd c 5)) () 1
      + tallyAt (exitCell (fwd c 4)) () 1
      + tallyAt (exitCell (fwd c 3)) () 1
      + tallyAt (exitCell (fwd c 2)) () 1
      + tallyAt (exitCell (fwd c 1)) () 1 : CellTallies nD τ sig Unit) :=
  mayWait_of_atLeast c _ (b := 4) (by rw [lv_rsR]; decide) (atLeast_exit c)
omit [FloatOps F] in
/-- The exit barrier's wait: nothing is owed. -/
theorem mayWait_exit : (levAts L lv : sProp 𝕄) ⊢ MayWait (c : Thread nD τ) (.reg exitS) () 0 := by
  rw [MayWait_zero]; iintro -; iempintro
omit [FloatOps F] in
/-- A semaphore that is none of the protocol's (the staging copies' own) sits below everything: a device may wait on it
    whatever of the launch tally it still owes. -/
theorem mayWait_other (s : SemLoc sig) (hs : kindOf s = .other) {O : CellTallies nD τ sig Unit} (hO : AtLeast 1 O) :
    (levAts L lv : sProp 𝕄) ⊢ MayWait (c : Thread nD τ) s () O :=
  mayWait_of_atLeast c s (b := 1) (by rw [lv_other c s hs]; decide) hO
omit [FloatOps F] in
theorem mayWait_stage (q : DmaSem sig) (hq : kindOf (.dma q) = .other) (O : CellTallies nD τ sig Unit) (hO : O = O₀ c ∨ O = 0) :
    (levAts L lv : sProp 𝕄) ⊢ MayWait (c : Thread nD τ) (.dma q) () O := by
  rcases hO with rfl | rfl
  · exact mayWait_other c _ hq (atLeast_launch c)
  · exact mayWait_other c _ hq (AtLeast.zero 1)

end Owed

end Cert.KernelIdealProof

end
-- ==== Proof.Claims.lean ====
/-
  The claims of the certificate, assembled.

  Each device's argument buffers are its blocks of the reference's whole arrays, so the devices' blocks of x and of the
  weights, as plain functions, are the blocks of the whole arrays the mathematics speaks of; the precondition makes every
  entry of every block, hence of the whole arrays, a real; so device c's stored value, which is the description kOut, is
  the reference's result on the rows of device c's chunk: its block of the reference's result.
-/
import proofs.«900761_g7700000000000762_dist_attn_self_mha_htp_ss_b2_sq128_skv128_d512_hq8_dh64_v7x_i8_bf16_1_alg».proof.Proof.ValOut
import proofs.«900761_g7700000000000762_dist_attn_self_mha_htp_ss_b2_sq128_skv128_d512_hq8_dh64_v7x_i8_bf16_1_alg».proof.Proof.Bridge
import proofs.«900761_g7700000000000762_dist_attn_self_mha_htp_ss_b2_sq128_skv128_d512_hq8_dh64_v7x_i8_bf16_1_alg».proof.Proof.RefValue
import proofs.«900761_g7700000000000762_dist_attn_self_mha_htp_ss_b2_sq128_skv128_d512_hq8_dh64_v7x_i8_bf16_1_alg».proof.Proof.Finite
import proofs.«900761_g7700000000000762_dist_attn_self_mha_htp_ss_b2_sq128_skv128_d512_hq8_dh64_v7x_i8_bf16_1_alg».proof.Proof.Launch
import proofs.«900761_g7700000000000762_dist_attn_self_mha_htp_ss_b2_sq128_skv128_d512_hq8_dh64_v7x_i8_bf16_1_alg».proof.Proof.BodyOblig
import proofs.«900761_g7700000000000762_dist_attn_self_mha_htp_ss_b2_sq128_skv128_d512_hq8_dh64_v7x_i8_bf16_1_alg».proof.Proof.TablesCredit
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Gen.Kernel
import proofs.«900761_g7700000000000762_dist_attn_self_mha_htp_ss_b2_sq128_skv128_d512_hq8_dh64_v7x_i8_bf16_1_alg».proof.Proof.Gen.ReferenceIdeal
import proofs.«900761_g7700000000000762_dist_attn_self_mha_htp_ss_b2_sq128_skv128_d512_hq8_dh64_v7x_i8_bf16_1_alg».proof.Proof.Gen.Pre_finite_inputs_Kernel
import proofs.«900761_g7700000000000762_dist_attn_self_mha_htp_ss_b2_sq128_skv128_d512_hq8_dh64_v7x_i8_bf16_1_alg».proof.Proof.Gen.Pre_finite_inputs_ReferenceIdeal

noncomputable section

namespace Cert.KernelIdealProof

open Cert.KernelIdeal Cert.KernelIdeal.Gen
open Idealize.ShloMosaic Idealize.ShloMosaic.TcCoe Idealize.ShloMosaic.ValueIdx
open Idealize.SL.Sem
open Cert.Spec

/-! ## The devices' blocks of the whole arrays -/

section Blocks

variable (m : (ℓ : Loc nD τ sig) → Buf (Elt Ideal) ℓ)
variable (X : Cert.RefValue.XArr) (Q K V : Cert.RefValue.WArr) (O : Cert.RefValue.OArr)

/-- Device c's block of x is rows 128 c … 128 c + 127 of the whole x. -/
theorem xB_eq (h : ∀ c : Dev nD, m ((c : Thread nD τ).loc main_arg0) = Layout.block ⟨3, ![2, 128, 512]⟩ ⟨3, ![2, 1024, 512]⟩ 1 8 c X) :
    xB m = xBlk (fun b i k => X (ix3 b i k)) := by
  funext c b r k
  unfold xB xBlk
  rw [h c]
  show X _ = X _
  congr 1
  funext a
  match a with
  | ⟨0, _⟩ => exact Fin.ext (by show b.val = b.val; rfl)
  | ⟨1, _⟩ => exact Fin.ext (by show c.val * 128 + r.val = 128 * c.val + r.val; omega)
  | ⟨2, _⟩ => exact Fin.ext (by show k.val = k.val; rfl)

/-- Device d's block of a projection weight is columns 512 d … 512 d + 511 of the whole weight. -/
theorem colB_eq (W : Cert.RefValue.WArr) (wB : Dev nD → Fin 512 → Fin 512 → EReal) (f : Dev nD → S512x512.Idx → EReal)
    (hw : ∀ d k c, wB d k c = f d (ix2 k c))
    (h : ∀ d : Dev nD, f d = Layout.block ⟨2, ![512, 512]⟩ ⟨2, ![512, 4096]⟩ 1 8 d W) :
    wB = colBlk (fun k c => W (ix2 k c)) := by
  funext d k c
  rw [hw, h d]
  unfold colBlk
  show W _ = W _
  congr 1
  funext a
  match a with
  | ⟨0, _⟩ => exact Fin.ext (by show k.val = k.val; rfl)
  | ⟨1, _⟩ => exact Fin.ext (by show d.val * 512 + c.val = 512 * d.val + c.val; omega)

/-- Device d's block of the output projection is rows 512 d … 512 d + 511 of the whole. -/
theorem woB_eq (h : ∀ d : Dev nD, m ((d : Thread nD τ).loc main_arg2) = Layout.block ⟨2, ![512, 512]⟩ ⟨2, ![4096, 512]⟩ 0 8 d O) :
    woB m = rowBlk (fun c n => O (ix2 c n)) := by
  funext d c n
  unfold woB rowBlk
  rw [h d]
  show O _ = O _
  congr 1
  funext a
  match a with
  | ⟨0, _⟩ => exact Fin.ext (by show d.val * 512 + c.val = 512 * d.val + c.val; omega)
  | ⟨1, _⟩ => exact Fin.ext (by show n.val = n.val; rfl)

theorem wqB_eq (h : ∀ d : Dev nD, m ((d : Thread nD τ).loc main_arg1) = Layout.block ⟨2, ![512, 512]⟩ ⟨2, ![512, 4096]⟩ 1 8 d Q) :
    wqB m = colBlk (fun k c => Q (ix2 k c)) :=
  colB_eq Q (wqB m) (fun d => m ((d : Thread nD τ).loc main_arg1)) (fun _ _ _ => rfl) h
theorem wkB_eq (h : ∀ d : Dev nD, m ((d : Thread nD τ).loc main_arg3) = Layout.block ⟨2, ![512, 512]⟩ ⟨2, ![512, 4096]⟩ 1 8 d K) :
    wkB m = colBlk (fun k c => K (ix2 k c)) :=
  colB_eq K (wkB m) (fun d => m ((d : Thread nD τ).loc main_arg3)) (fun _ _ _ => rfl) h
theorem wvB_eq (h : ∀ d : Dev nD, m ((d : Thread nD τ).loc main_arg4) = Layout.block ⟨2, ![512, 512]⟩ ⟨2, ![512, 4096]⟩ 1 8 d V) :
    wvB m = colBlk (fun k c => V (ix2 k c)) :=
  colB_eq V (wvB m) (fun d => m ((d : Thread nD τ).loc main_arg4)) (fun _ _ _ => rfl) h

/-! ## Every entry of the whole arrays is a real -/

/-- Every row of the whole x lies in some device's block. -/
theorem X_real (hx : xB m = xBlk (fun b i k => X (ix3 b i k)))
    (hr : ∀ (c : Dev nD) i, ∃ r : ℝ, m ((c : Thread nD τ).loc main_arg0) i = (r : EReal)) (b : Fin 2) (i : Fin 1024) (k : Fin 512) :
    ∃ r : ℝ, X (ix3 b i k) = (r : EReal) := by
  have hi := i.isLt
  have e : X (ix3 b i k) = xB m ⟨i.val / 128, by show i.val / 128 < 8; omega⟩ b ⟨i.val % 128, Nat.mod_lt _ (by decide)⟩ k := by
    rw [hx]
    unfold xBlk
    show X (ix3 b i k) = X (ix3 b _ k)
    congr 2
    exact Fin.ext (by show i.val = 128 * (i.val / 128) + i.val % 128; omega)
  rw [e]
  exact hr _ _

/-- Every column of a whole projection weight lies in some device's block. -/
theorem W_real (W : Cert.RefValue.WArr) (wB : Dev nD → Fin 512 → Fin 512 → EReal) (hw : wB = colBlk (fun k c => W (ix2 k c)))
    (hr : ∀ d k c, ∃ r : ℝ, wB d k c = (r : EReal)) (k : Fin 512) (c : Fin 4096) : ∃ r : ℝ, W (ix2 k c) = (r : EReal) := by
  have hc := c.isLt
  have e : W (ix2 k c) = wB ⟨c.val / 512, by show c.val / 512 < 8; omega⟩ k ⟨c.val % 512, Nat.mod_lt _ (by decide)⟩ := by
    rw [hw]
    unfold colBlk
    show W (ix2 k c) = W (ix2 k _)
    congr 2
    exact Fin.ext (by show c.val = 512 * (c.val / 512) + c.val % 512; omega)
  rw [e]
  exact hr _ _ _

/-- Every row of the whole output projection lies in some device's block. -/
theorem O_real (hw : woB m = rowBlk (fun c n => O (ix2 c n)))
    (hr : ∀ (d : Dev nD) i, ∃ r : ℝ, m ((d : Thread nD τ).loc main_arg2) i = (r : EReal)) (c : Fin 4096) (n : Fin 512) :
    ∃ r : ℝ, O (ix2 c n) = (r : EReal) := by
  have hc := c.isLt
  have e : O (ix2 c n) = woB m ⟨c.val / 512, by show c.val / 512 < 8; omega⟩ ⟨c.val % 512, Nat.mod_lt _ (by decide)⟩ n := by
    rw [hw]
    unfold rowBlk
    show O (ix2 c n) = O (ix2 _ n)
    congr 2
    exact Fin.ext (by show c.val = 512 * (c.val / 512) + c.val % 512; omega)
  rw [e]
  exact hr _ _

end Blocks

/-! ## The value equation -/

section Value

variable (m : (ℓ : Loc nD τ sig) → Buf (Elt Ideal) ℓ)
variable (X : Cert.RefValue.XArr) (Q K V : Cert.RefValue.WArr) (O : Cert.RefValue.OArr)

/-- Under the precondition and the five block equations, what device c stores is its block of the reference's result. -/
theorem OUTdef_eq_block [Cert.Pre_finite_inputs_Kernel.Facts] (hpre : Cert.Pre_KernelIdeal m)
    (h0 : ∀ c : Dev nD, m ((c : Thread nD τ).loc main_arg0) = Layout.block ⟨3, ![2, 128, 512]⟩ ⟨3, ![2, 1024, 512]⟩ 1 8 c X)
    (h1 : ∀ d : Dev nD, m ((d : Thread nD τ).loc main_arg1) = Layout.block ⟨2, ![512, 512]⟩ ⟨2, ![512, 4096]⟩ 1 8 d Q)
    (h2 : ∀ d : Dev nD, m ((d : Thread nD τ).loc main_arg2) = Layout.block ⟨2, ![512, 512]⟩ ⟨2, ![4096, 512]⟩ 0 8 d O)
    (h3 : ∀ d : Dev nD, m ((d : Thread nD τ).loc main_arg3) = Layout.block ⟨2, ![512, 512]⟩ ⟨2, ![512, 4096]⟩ 1 8 d K)
    (h4 : ∀ d : Dev nD, m ((d : Thread nD τ).loc main_arg4) = Layout.block ⟨2, ![512, 512]⟩ ⟨2, ![512, 4096]⟩ 1 8 d V)
    (c : Dev nD) :
    OUTdef m c = Layout.block ⟨3, ![2, 128, 512]⟩ ⟨3, ![2, 1024, 512]⟩ 1 8 c (Cert.RefValue.refResult X Q O K V) := by
  have hx := xB_eq m X h0
  have hq := wqB_eq m Q h1
  have ho := woB_eq m O h2
  have hk := wkB_eq m K h3
  have hv := wvB_eq m V h4
  -- the entries of the whole arrays are reals
  have rX := X_real m X hx (fun c i => (Cert.Finite.pre_real m hpre c).1 i)
  have rQ := W_real Q (wqB m) hq (fun d k c => (Cert.Finite.pre_real m hpre d).2.1 (ix2 k c))
  have rO := O_real m O ho (fun d i => (Cert.Finite.pre_real m hpre d).2.2.1 i)
  have rK := W_real K (wkB m) hk (fun d k c => (Cert.Finite.pre_real m hpre d).2.2.2.1 (ix2 k c))
  have rV := W_real V (wvB m) hv (fun d k c => (Cert.Finite.pre_real m hpre d).2.2.2.2 (ix2 k c))
  funext i
  obtain ⟨b, r, n, rfl⟩ : ∃ (b : Fin 2) (r : Fin 128) (n : Fin 512), i = ix3 b r n := ⟨i 0, i 1, i 2, eq_ix3 i⟩
  rw [OUTdef_apply, hx, hq, ho, hk, hv]
  have hκ : (κ : EReal) = Cert.RefValue.κ := rfl
  rw [hκ, kOut_eq_refOut Cert.RefValue.κ (fun b i k => X (ix3 b i k)) (fun k c => Q (ix2 k c)) (fun k c => K (ix2 k c))
    (fun k c => V (ix2 k c)) (fun c n => O (ix2 c n)) Cert.RefValue.κ_real rX rQ rK rV rO c b r n,
    ← Cert.RefValue.result_apply X Q O K V]
  show Cert.RefValue.refResult X Q O K V _ = Cert.RefValue.refResult X Q O K V _
  congr 1
  funext a
  match a with
  | ⟨0, _⟩ => exact Fin.ext (by show b.val = b.val; rfl)
  | ⟨1, _⟩ => exact Fin.ext (by show 128 * c.val + r.val = c.val * 128 + r.val; omega)
  | ⟨2, _⟩ => exact Fin.ext (by show n.val = n.val; rfl)

end Value

/-! ## The claims -/

section Claims

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄I" => MT nD τ sig Unit (Elt Ideal) ℕ UU ℕ

variable (m : (ℓ : Loc nD τ sig) → Buf (Elt Ideal) ℓ) (ρ : Dev nD → PrngReg)

/-- The body lemma of one device at the extended reals, for the contents the shadow run names: from its ghost state, its
    credit, its scratch and the staged arguments, the body runs to the staged result at the stored value. -/
def BodySound : Prop :=
  ∀ (K : Dev nD × Fin 30 → ℕ) (c : Dev nD) (Kt : PUnit → sProp 𝕄I),
    iprop(bodyPre m ρ (XGdef m) (SSdef m) (RSdef m) (OUTdef m) K c
        ∗ (bodyPost m ρ (XGdef m) (SSdef m) (RSdef m) (OUTdef m) c -∗ Kt ⟨⟩))
      ⊢ wp frame (wpE (defs₀ (F := Ideal)) 𝒱₀ (c : Thread nD τ) none) Set.univ
          (cc0_body (F := Ideal) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0) Kt

/-- A device may wait on every staging cell: they sit below everything it owes. -/
theorem waits (c : Dev nD) :
    (levAts L lv : sProp 𝕄I) ⊢ Pipeline.cellsWaits cfgs (dats m ρ (XGdef m) (SSdef m) (RSdef m) (OUTdef m)) () 0 c :=
  Pipeline.cellsWaits_intro cfgs (dats m ρ (XGdef m) (SSdef m) (RSdef m) (OUTdef m)) () 0 c fun w s t =>
    mayWait_stage c _ (by fin_cases w <;> fin_cases s <;> decide) _ (by
      rcases t with ⟨_ | _, ht⟩
      · exact Or.inl rfl
      · exact Or.inr rfl)

/-- The kernel's run at the extended reals: each device's result buffer ends at the stored value, the arguments as they were. -/
theorem kernel_run (hs : BodySound m ρ) :
    θ_run defs (onTc (τ := τ) (main (F := Ideal))) ⟨m, fun _ => 0, ρ⟩ (fun r => ∀ c : Dev nD,
      r.2.mem ((c.tc : Thread nD τ).loc main_v1) = OUTdef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_named m ρ (XGdef m) (SSdef m) (RSdef m) (OUTdef m)
    (fun c => body_obligation m ρ (XGdef m) (SSdef m) (RSdef m) (OUTdef m) hs c) (fun c => launch_creds c) (fun c => waits m ρ c)

end Claims

/-- The idealized kernel runs and leaves its arguments unchanged. -/
theorem frame_ki (hs : ∀ m ρ, BodySound m ρ) : Cert.frame_KernelIdeal := fun m ρ _ =>
  (θ_run Cert.KernelIdeal.defs _ _).mono (fun _ h c => (h c).2) (kernel_run m ρ (hs m ρ))

/-- The one rewrite of the idealization: narrowing to bf16 and widening back is the identity at the extended reals. -/
theorem preserves : Cert.preserves_Kernel_KernelIdeal :=
  IdealRules.truncf_extf.statement Cert.KernelIdeal.S2x128x512 .f32 .bf16

/-- At the extended reals the eight devices' results are the blocks of the reference's result. -/
theorem algebraic (hs : ∀ m ρ, BodySound m ρ) : Cert.algebraic_KernelIdeal_ReferenceIdeal := by
  intro m ρ m' ρ' hpre hagree
  refine ⟨Cert.RefValue.refResult
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    ?_, ?_⟩
  · refine (θ_run Cert.KernelIdeal.defs _ _).mono (fun _ h c => ⟨(h c).1.trans ?_, (h c).2⟩) (kernel_run m ρ (hs m ρ))
    exact OUTdef_eq_block m _ _ _ _ _ hpre (fun c => (hagree c).1) (fun c => (hagree c).2.1) (fun c => (hagree c).2.2.1)
      (fun c => (hagree c).2.2.2.1) (fun c => (hagree c).2.2.2.2) c
  · exact (θ_run Cert.ReferenceIdeal.defs _ _).mono (fun _ h => h 0) (Cert.RefValue.run m' ρ')

/-- Everything the certificate claims, from the body lemma at the extended reals and the word-level program's frame. -/
theorem claim_of (hsoundI : ∀ m ρ, BodySound m ρ) (hframeK : Cert.frame_Kernel) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, hframeK, frame_ki hsoundI, Cert.RefValue.frame, preserves, algebraic hsoundI⟩

end Cert.KernelIdealProof

end
-- ==== Proof.FrameBits.lean ====
/-
  The frame of the program as printed, at bit patterns: it terminates without a fault and leaves its argument arrays
  unchanged.

  Everything about the protocol, the launch and the body's obligation holds for any float instance; it is used here, as
  stated for the printed program, at the instance of bit patterns, with the buffers' contents the shadow run names
  there. The result array's contents play no part in the frame and are dropped; so is the precondition.
-/
import proofs.«900761_g7700000000000762_dist_attn_self_mha_htp_ss_b2_sq128_skv128_d512_hq8_dh64_v7x_i8_bf16_1_alg».proof.Defs
import proofs.«900761_g7700000000000762_dist_attn_self_mha_htp_ss_b2_sq128_skv128_d512_hq8_dh64_v7x_i8_bf16_1_alg».proof.Proof.Bits.Contents
import proofs.«900761_g7700000000000762_dist_attn_self_mha_htp_ss_b2_sq128_skv128_d512_hq8_dh64_v7x_i8_bf16_1_alg».proof.Proof.Bits.Launch
import proofs.«900761_g7700000000000762_dist_attn_self_mha_htp_ss_b2_sq128_skv128_d512_hq8_dh64_v7x_i8_bf16_1_alg».proof.Proof.Bits.BodyOblig
import proofs.«900761_g7700000000000762_dist_attn_self_mha_htp_ss_b2_sq128_skv128_d512_hq8_dh64_v7x_i8_bf16_1_alg».proof.Proof.Bits.TablesCredit
import proofs.«900761_g7700000000000762_dist_attn_self_mha_htp_ss_b2_sq128_skv128_d512_hq8_dh64_v7x_i8_bf16_1_alg».proof.Proof.Bits.TablesLevels
import proofs.«900761_g7700000000000762_dist_attn_self_mha_htp_ss_b2_sq128_skv128_d512_hq8_dh64_v7x_i8_bf16_1_alg».proof.Proof.Gen.Kernel
import proofs.«900761_g7700000000000762_dist_attn_self_mha_htp_ss_b2_sq128_skv128_d512_hq8_dh64_v7x_i8_bf16_1_alg».proof.Proof.Gen.Pre_finite_inputs_Kernel

noncomputable section

namespace Cert.KernelProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

local notation "𝕄B" => MT nD τ sig Unit (Elt Bits) ℕ UU ℕ

variable (m : (ℓ : Loc nD τ sig) → Buf (Elt Bits) ℓ) (ρ : Dev nD → PrngReg)

/-- The body lemma of one device at bit patterns, for the contents the shadow run names: from its ghost state, its
    credit, its scratch and the staged arguments, the body runs to the staged result at the stored value. -/
def BodySound : Prop :=
  ∀ (K : Dev nD × Fin 30 → ℕ) (c : Dev nD) (Kt : PUnit → sProp 𝕄B),
    iprop(bodyPre m ρ (XGdef m) (SSdef m) (RSdef m) (OUTdef m) K c
        ∗ (bodyPost m ρ (XGdef m) (SSdef m) (RSdef m) (OUTdef m) c -∗ Kt ⟨⟩))
      ⊢ wp frame (wpE (defs₀ (F := Bits)) 𝒱₀ (c : Thread nD τ) none) Set.univ
          (cc0_body (F := Bits) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0) Kt

/-- A device may wait on every staging cell: they sit below everything it owes. -/
theorem waits (c : Dev nD) :
    (levAts L lv : sProp 𝕄B) ⊢ Pipeline.cellsWaits cfgs (dats m ρ (XGdef m) (SSdef m) (RSdef m) (OUTdef m)) () 0 c :=
  Pipeline.cellsWaits_intro cfgs (dats m ρ (XGdef m) (SSdef m) (RSdef m) (OUTdef m)) () 0 c fun w s t =>
    mayWait_stage c _ (by fin_cases w <;> fin_cases s <;> decide) _ (by
      rcases t with ⟨_ | _, ht⟩
      · exact Or.inl rfl
      · exact Or.inr rfl)

/-- The program's run at bit patterns: each device's result buffer ends at the stored value, the arguments as they were. -/
theorem kernel_run (hs : BodySound m ρ) :
    θ_run defs (onTc (τ := τ) (main (F := Bits))) ⟨m, fun _ => 0, ρ⟩ (fun r => ∀ c : Dev nD,
      r.2.mem ((c.tc : Thread nD τ).loc main_v1) = OUTdef m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_named m ρ (XGdef m) (SSdef m) (RSdef m) (OUTdef m)
    (fun c => body_obligation m ρ (XGdef m) (SSdef m) (RSdef m) (OUTdef m) hs c) (fun c => launch_creds c) (fun c => waits m ρ c)

end Run

/-- The printed program runs and leaves its arguments unchanged. -/
theorem frame_k (hs : ∀ m ρ, BodySound m ρ) : Cert.frame_Kernel := fun m ρ _ =>
  (θ_run Cert.Kernel.defs _ _).mono (fun _ h c => (h c).2) (kernel_run m ρ (hs m ρ))

end Cert.KernelProof

end
-- ==== Proof.BodyLib.lean ====
/-
  What the composition of the body's parts uses throughout: running one part and then the rest, and reading one record
  out of the folded invariants and reached-marks a device holds.
-/
import proofs.«900761_g7700000000000762_dist_attn_self_mha_htp_ss_b2_sq128_skv128_d512_hq8_dh64_v7x_i8_bf16_1_alg».proof.Proof.Launch

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (OUT : Dev nD → (cc0_stg5_0 : Ref sig .tc).ty.Contents (Elt F))
variable (K : Dev nD × Fin 30 → ℕ)

/-! ## Sequencing -/

/-- A part run from `P` to `Post`, then the rest from `Post`. -/
theorem wp_seq {α β : Type} (c : Dev nD) {p : Prog (TpuEff nD τ sig (Elt F) Λ₀ .tc) α} {k : α → Prog (TpuEff nD τ sig (Elt F) Λ₀ .tc) β}
    {Q : β → sProp 𝕄} {P : sProp 𝕄} {Post : α → sProp 𝕄}
    (h : P ⊢ wp frame (wpE (defs₀ (F := F)) 𝒱₀ (c : Thread nD τ) none) Set.univ p Post) :
    iprop(P ∗ (∀ a, Post a -∗ wp frame (wpE (defs₀ (F := F)) 𝒱₀ (c : Thread nD τ) none) Set.univ (k a) Q))
      ⊢ wp frame (wpE (defs₀ (F := F)) 𝒱₀ (c : Thread nD τ) none) Set.univ (p >>= k) Q := by
  rw [wp_bind]
  iintro ⟨HP, Hk⟩
  ihave H := h $$ HP
  iapply (wp_wand_r frame (wpE (defs₀ (F := F)) 𝒱₀ (c : Thread nD τ) none) Set.univ)
  isplitl [H]; · iexact H
  iexact Hk

/-! ## Reading the folded records -/

omit [FloatOps F] in
theorem bigSepL_getP {I : Type} (Φ : I → sProp 𝕄) [∀ i, BI.Persistent (Φ i)] : ∀ (l : List I) (n : ℕ) (h : n < l.length), bigSepL l Φ ⊢ Φ (l.get ⟨n, h⟩)
  | [], n, h => absurd h (Nat.not_lt_zero n)
  | a :: l, 0, _ => by
    refine (Entails.of_eq (bigSepL_cons a l Φ)).trans ?_
    show iprop(Φ a ∗ bigSepL l Φ) ⊢ Φ a
    iintro ⟨H, -⟩; iexact H
  | a :: l, n + 1, h => by
    refine (Entails.of_eq (bigSepL_cons a l Φ)).trans ?_
    show iprop(Φ a ∗ bigSepL l Φ) ⊢ Φ (l.get ⟨n, Nat.lt_of_succ_lt_succ h⟩)
    iintro ⟨-, H⟩; iapply (bigSepL_getP Φ l n (Nat.lt_of_succ_lt_succ h)); iexact H

theorem l58_len (c : Dev nD) : (l58 c).length = 58 := rfl

/-- The invariant of the `n`-th cell device `c` touches. -/
theorem invs_nth (c : Dev nD) (n : ℕ) (h : n < 58) :
    invs XG SS RS K c ⊢ cellInv ER (sched XG SS RS) (K ((l58 c).get ⟨n, h⟩)) (kcell ((l58 c).get ⟨n, h⟩)) := by
  rw [invs_eq]; exact bigSepL_getP _ (l58 c) n h
omit [FloatOps F] in
/-- Round 0 of the `n`-th cell device `c` touches is reached. -/
theorem reacheds_nth (c : Dev nD) (n : ℕ) (h : n < 58) :
    (reacheds c : sProp 𝕄) ⊢ reached ER (kcell ((l58 c).get ⟨n, h⟩)) 0 := by
  rw [reacheds_eq]; exact bigSepL_getP _ (l58 c) n h

end Cert.KernelIdealProof

end
-- ==== Proof.Tables.lean ====
/-
  The tables of the cross-device schedule: for every cell of a device, the duties of its one round, their amounts, the
  units the round expects, and what each duty hands the owner, spelt as the points-to assertions themselves; and the
  facts that tell the thirty semaphores of a device apart.
-/
import proofs.«900761_g7700000000000762_dist_attn_self_mha_htp_ss_b2_sq128_skv128_d512_hq8_dh64_v7x_i8_bf16_1_alg».proof.Proof.Proto
import Idealize.ShloMosaic.Lib.Pipeline.Kit

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The semaphores are pairwise different -/

theorem bar_ne_exit : (SemLoc.reg barS : SemLoc sig) ≠ .reg exitS := by decide
theorem exit_ne_bar : (SemLoc.reg exitS : SemLoc sig) ≠ .reg barS := by decide
theorem reg_ne_dma (s : Sem sig) (q : DmaSem sig) : (SemLoc.reg s : SemLoc sig) ≠ .dma q := fun h => by cases h
theorem dma_ne_reg (q : DmaSem sig) (s : Sem sig) : (SemLoc.dma q : SemLoc sig) ≠ .reg s := fun h => by cases h
/-- Semaphores of different kinds are different. -/
theorem semLoc_ne_of_kindOf {s t : SemLoc sig} (h : kindOf s ≠ kindOf t) : s ≠ t := fun e => h (congrArg kindOf e)
theorem agS_inj {i j : Fin 7} : Iff (agS i = agS j) (i = j) := by revert i j; decide
theorem agS_ne {i j : Fin 7} (h : i ≠ j) : (SemLoc.dma (agS i) : SemLoc sig) ≠ .dma (agS j) := fun e => h (agS_inj.mp (SemLoc.dma.inj e))
theorem agS_ne_agR (i j : Fin 7) : (SemLoc.dma (agS i) : SemLoc sig) ≠ .dma (agR j) := by revert i j; decide
theorem agS_ne_rsS (i j : Fin 7) : (SemLoc.dma (agS i) : SemLoc sig) ≠ .dma (rsS j) := by revert i j; decide
theorem agS_ne_rsR (i j : Fin 7) : (SemLoc.dma (agS i) : SemLoc sig) ≠ .dma (rsR j) := by revert i j; decide
theorem agR_inj {i j : Fin 7} : Iff (agR i = agR j) (i = j) := by revert i j; decide
theorem agR_ne {i j : Fin 7} (h : i ≠ j) : (SemLoc.dma (agR i) : SemLoc sig) ≠ .dma (agR j) := fun e => h (agR_inj.mp (SemLoc.dma.inj e))
theorem agR_ne_agS (i j : Fin 7) : (SemLoc.dma (agR i) : SemLoc sig) ≠ .dma (agS j) := by revert i j; decide
theorem agR_ne_rsS (i j : Fin 7) : (SemLoc.dma (agR i) : SemLoc sig) ≠ .dma (rsS j) := by revert i j; decide
theorem agR_ne_rsR (i j : Fin 7) : (SemLoc.dma (agR i) : SemLoc sig) ≠ .dma (rsR j) := by revert i j; decide
theorem rsS_inj {i j : Fin 7} : Iff (rsS i = rsS j) (i = j) := by revert i j; decide
theorem rsS_ne {i j : Fin 7} (h : i ≠ j) : (SemLoc.dma (rsS i) : SemLoc sig) ≠ .dma (rsS j) := fun e => h (rsS_inj.mp (SemLoc.dma.inj e))
theorem rsS_ne_agS (i j : Fin 7) : (SemLoc.dma (rsS i) : SemLoc sig) ≠ .dma (agS j) := by revert i j; decide
theorem rsS_ne_agR (i j : Fin 7) : (SemLoc.dma (rsS i) : SemLoc sig) ≠ .dma (agR j) := by revert i j; decide
theorem rsS_ne_rsR (i j : Fin 7) : (SemLoc.dma (rsS i) : SemLoc sig) ≠ .dma (rsR j) := by revert i j; decide
theorem rsR_inj {i j : Fin 7} : Iff (rsR i = rsR j) (i = j) := by revert i j; decide
theorem rsR_ne {i j : Fin 7} (h : i ≠ j) : (SemLoc.dma (rsR i) : SemLoc sig) ≠ .dma (rsR j) := fun e => h (rsR_inj.mp (SemLoc.dma.inj e))
theorem rsR_ne_agS (i j : Fin 7) : (SemLoc.dma (rsR i) : SemLoc sig) ≠ .dma (agS j) := by revert i j; decide
theorem rsR_ne_agR (i j : Fin 7) : (SemLoc.dma (rsR i) : SemLoc sig) ≠ .dma (agR j) := by revert i j; decide
theorem rsR_ne_rsS (i j : Fin 7) : (SemLoc.dma (rsR i) : SemLoc sig) ≠ .dma (rsS j) := by revert i j; decide

/-- Two cells of TensorCores are the same cell when the devices and the semaphores are. -/
theorem cell_eq_iff {a b : Dev nD} {s t : SemLoc sig} : Iff ((((a : Thread nD τ), s) : GSem nD τ sig) = ((b : Thread nD τ), t)) (a = b ∧ s = t) :=
  ⟨fun h => ⟨Fin.ext (congrArg (fun g : GSem nD τ sig => g.1.1.val) h), congrArg Prod.snd h⟩, fun h => by rw [h.1, h.2]⟩

/-! ## The schedule's tables -/

section Tables
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (c : Dev nD)

/-! ### Duties -/

theorem duties_bar : (sched (F := F) XG SS RS).duties (barCell c) 0 = Finset.univ.erase 0 := by
  dsimp only [sched]; rw [if_pos ⟨rfl, rfl⟩, kindOf_bar]
theorem duties_exit : (sched (F := F) XG SS RS).duties (exitCell c) 0 = Finset.univ.erase 0 := by
  dsimp only [sched]; rw [if_pos ⟨rfl, rfl⟩, kindOf_exit]
theorem duties_agS (i : Fin 7) : (sched (F := F) XG SS RS).duties (agSCell c i) 0 = {0} := by
  dsimp only [sched]; rw [if_pos ⟨rfl, rfl⟩, kindOf_agS]
theorem duties_agR (i : Fin 7) : (sched (F := F) XG SS RS).duties (agRCell c i) 0 = {0} := by
  dsimp only [sched]; rw [if_pos ⟨rfl, rfl⟩, kindOf_agR]
theorem duties_rsS (i : Fin 7) : (sched (F := F) XG SS RS).duties (rsSCell c i) 0 = {0} := by
  dsimp only [sched]; rw [if_pos ⟨rfl, rfl⟩, kindOf_rsS]
theorem duties_rsR (i : Fin 7) : (sched (F := F) XG SS RS).duties (rsRCell c i) 0 = {0} := by
  dsimp only [sched]; rw [if_pos ⟨rfl, rfl⟩, kindOf_rsR]
theorem duties_later (g : GSem nD τ sig) : ∀ r, 1 ≤ r → (sched (F := F) XG SS RS).duties g r = ∅ :=
  fun r hr => by dsimp only [sched]; rw [if_neg fun h => by omega]

/-! ### Amounts -/

theorem amount_bar (d : DD) : (sched (F := F) XG SS RS).amount (barCell c) 0 d = 1 := by dsimp only [sched]; rw [kindOf_bar]
theorem amount_exit (d : DD) : (sched (F := F) XG SS RS).amount (exitCell c) 0 d = 1 := by dsimp only [sched]; rw [kindOf_exit]
theorem amount_agS (i : Fin 7) (d : DD) : (sched (F := F) XG SS RS).amount (agSCell c i) 0 d = Nag := by dsimp only [sched]; rw [kindOf_agS]
theorem amount_agR (i : Fin 7) (d : DD) : (sched (F := F) XG SS RS).amount (agRCell c i) 0 d = Nag := by dsimp only [sched]; rw [kindOf_agR]
theorem amount_rsS (i : Fin 7) (d : DD) : (sched (F := F) XG SS RS).amount (rsSCell c i) 0 d = Nrs := by dsimp only [sched]; rw [kindOf_rsS]
theorem amount_rsR (i : Fin 7) (d : DD) : (sched (F := F) XG SS RS).amount (rsRCell c i) 0 d = Nrs := by dsimp only [sched]; rw [kindOf_rsR]

/-! ### The units a round expects -/

theorem card_duties_seven : (Finset.univ.erase (0 : DD)).card = 7 := by decide
theorem expect_bar : (sched (F := F) XG SS RS).expect (barCell c) 0 = 7 := by
  unfold Schedule.expect Schedule.amountOf
  rw [duties_bar, Finset.sum_congr rfl fun d _ => amount_bar XG SS RS c d, Finset.sum_const, card_duties_seven, smul_eq_mul]
theorem expect_exit : (sched (F := F) XG SS RS).expect (exitCell c) 0 = 7 := by
  unfold Schedule.expect Schedule.amountOf
  rw [duties_exit, Finset.sum_congr rfl fun d _ => amount_exit XG SS RS c d, Finset.sum_const, card_duties_seven, smul_eq_mul]
theorem expect_agS (i : Fin 7) : (sched (F := F) XG SS RS).expect (agSCell c i) 0 = Nag := by
  unfold Schedule.expect Schedule.amountOf; rw [duties_agS, Finset.sum_singleton, amount_agS]
theorem expect_agR (i : Fin 7) : (sched (F := F) XG SS RS).expect (agRCell c i) 0 = Nag := by
  unfold Schedule.expect Schedule.amountOf; rw [duties_agR, Finset.sum_singleton, amount_agR]
theorem expect_rsS (i : Fin 7) : (sched (F := F) XG SS RS).expect (rsSCell c i) 0 = Nrs := by
  unfold Schedule.expect Schedule.amountOf; rw [duties_rsS, Finset.sum_singleton, amount_rsS]
theorem expect_rsR (i : Fin 7) : (sched (F := F) XG SS RS).expect (rsRCell c i) 0 = Nrs := by
  unfold Schedule.expect Schedule.amountOf; rw [duties_rsR, Finset.sum_singleton, amount_rsR]

/-! ### What each duty hands the owner -/

theorem payload_bar_0 : (sched (F := F) XG SS RS).payload (barCell c) 0 0 = iprop(emp) := rfl
theorem payload_bar_1 : (sched (F := F) XG SS RS).payload (barCell c) 0 1 =
    iprop((∃ f, (xgSlot c).view.loc ((fwd c 7 : Dev nD) : Thread nD τ) ↦[(xgSlot c).view.set]{fullShare} f) ∗ reached ER (agRCell (fwd c 7) 6) 0
      ∗ (∃ f, rsSlot0.view.loc ((fwd c 7 : Dev nD) : Thread nD τ) ↦[rsSlot0.view.set]{fullShare} f) ∗ reached ER (rsRCell (fwd c 7) 0) 0) := rfl
theorem payload_bar_2 : (sched (F := F) XG SS RS).payload (barCell c) 0 2 =
    iprop((∃ f, (xgSlot c).view.loc ((fwd c 6 : Dev nD) : Thread nD τ) ↦[(xgSlot c).view.set]{fullShare} f) ∗ reached ER (agRCell (fwd c 6) 5) 0
      ∗ (∃ f, rsSlot1.view.loc ((fwd c 6 : Dev nD) : Thread nD τ) ↦[rsSlot1.view.set]{fullShare} f) ∗ reached ER (rsRCell (fwd c 6) 1) 0) := rfl
theorem payload_bar_3 : (sched (F := F) XG SS RS).payload (barCell c) 0 3 =
    iprop((∃ f, (xgSlot c).view.loc ((fwd c 5 : Dev nD) : Thread nD τ) ↦[(xgSlot c).view.set]{fullShare} f) ∗ reached ER (agRCell (fwd c 5) 4) 0
      ∗ (∃ f, rsSlot2.view.loc ((fwd c 5 : Dev nD) : Thread nD τ) ↦[rsSlot2.view.set]{fullShare} f) ∗ reached ER (rsRCell (fwd c 5) 2) 0) := rfl
theorem payload_bar_4 : (sched (F := F) XG SS RS).payload (barCell c) 0 4 =
    iprop((∃ f, (xgSlot c).view.loc ((fwd c 4 : Dev nD) : Thread nD τ) ↦[(xgSlot c).view.set]{fullShare} f) ∗ reached ER (agRCell (fwd c 4) 3) 0
      ∗ (∃ f, rsSlot3.view.loc ((fwd c 4 : Dev nD) : Thread nD τ) ↦[rsSlot3.view.set]{fullShare} f) ∗ reached ER (rsRCell (fwd c 4) 3) 0) := rfl
theorem payload_bar_5 : (sched (F := F) XG SS RS).payload (barCell c) 0 5 =
    iprop((∃ f, (xgSlot c).view.loc ((fwd c 3 : Dev nD) : Thread nD τ) ↦[(xgSlot c).view.set]{fullShare} f) ∗ reached ER (agRCell (fwd c 3) 2) 0
      ∗ (∃ f, rsSlot4.view.loc ((fwd c 3 : Dev nD) : Thread nD τ) ↦[rsSlot4.view.set]{fullShare} f) ∗ reached ER (rsRCell (fwd c 3) 4) 0) := rfl
theorem payload_bar_6 : (sched (F := F) XG SS RS).payload (barCell c) 0 6 =
    iprop((∃ f, (xgSlot c).view.loc ((fwd c 2 : Dev nD) : Thread nD τ) ↦[(xgSlot c).view.set]{fullShare} f) ∗ reached ER (agRCell (fwd c 2) 1) 0
      ∗ (∃ f, rsSlot5.view.loc ((fwd c 2 : Dev nD) : Thread nD τ) ↦[rsSlot5.view.set]{fullShare} f) ∗ reached ER (rsRCell (fwd c 2) 5) 0) := rfl
theorem payload_bar_7 : (sched (F := F) XG SS RS).payload (barCell c) 0 7 =
    iprop((∃ f, (xgSlot c).view.loc ((fwd c 1 : Dev nD) : Thread nD τ) ↦[(xgSlot c).view.set]{fullShare} f) ∗ reached ER (agRCell (fwd c 1) 0) 0
      ∗ (∃ f, rsSlot6.view.loc ((fwd c 1 : Dev nD) : Thread nD τ) ↦[rsSlot6.view.set]{fullShare} f) ∗ reached ER (rsRCell (fwd c 1) 6) 0) := rfl
theorem payload_exit (d : DD) : (sched (F := F) XG SS RS).payload (exitCell c) 0 d = iprop(emp) := rfl
theorem payload_agS (i : Fin 7) (d : DD) : (sched (F := F) XG SS RS).payload (agSCell c i) 0 d =
    ((xgSlot c).view.loc (c : Thread nD τ) ↦[(xgSlot c).view.set]{lend i} XG) := by
  dsimp only [sched]; rw [kindOf_agS]; rfl
theorem payload_agR (i : Fin 7) (d : DD) : (sched (F := F) XG SS RS).payload (agRCell c i) 0 d =
    ((xgSlot (fwd c (7 - i.val))).view.loc (c : Thread nD τ) ↦[(xgSlot (fwd c (7 - i.val))).view.set]{fullShare} XG) := by
  dsimp only [sched]; rw [kindOf_agR]; rfl
theorem payload_agR_0 (d : DD) : (sched (F := F) XG SS RS).payload (agRCell c 0) 0 d =
    ((xgSlot (fwd c 7)).view.loc (c : Thread nD τ) ↦[(xgSlot (fwd c 7)).view.set]{fullShare} XG) := rfl
theorem payload_agR_1 (d : DD) : (sched (F := F) XG SS RS).payload (agRCell c 1) 0 d =
    ((xgSlot (fwd c 6)).view.loc (c : Thread nD τ) ↦[(xgSlot (fwd c 6)).view.set]{fullShare} XG) := rfl
theorem payload_agR_2 (d : DD) : (sched (F := F) XG SS RS).payload (agRCell c 2) 0 d =
    ((xgSlot (fwd c 5)).view.loc (c : Thread nD τ) ↦[(xgSlot (fwd c 5)).view.set]{fullShare} XG) := rfl
theorem payload_agR_3 (d : DD) : (sched (F := F) XG SS RS).payload (agRCell c 3) 0 d =
    ((xgSlot (fwd c 4)).view.loc (c : Thread nD τ) ↦[(xgSlot (fwd c 4)).view.set]{fullShare} XG) := rfl
theorem payload_agR_4 (d : DD) : (sched (F := F) XG SS RS).payload (agRCell c 4) 0 d =
    ((xgSlot (fwd c 3)).view.loc (c : Thread nD τ) ↦[(xgSlot (fwd c 3)).view.set]{fullShare} XG) := rfl
theorem payload_agR_5 (d : DD) : (sched (F := F) XG SS RS).payload (agRCell c 5) 0 d =
    ((xgSlot (fwd c 2)).view.loc (c : Thread nD τ) ↦[(xgSlot (fwd c 2)).view.set]{fullShare} XG) := rfl
theorem payload_agR_6 (d : DD) : (sched (F := F) XG SS RS).payload (agRCell c 6) 0 d =
    ((xgSlot (fwd c 1)).view.loc (c : Thread nD τ) ↦[(xgSlot (fwd c 1)).view.set]{fullShare} XG) := rfl
theorem payload_rsS_0 (d : DD) : (sched (F := F) XG SS RS).payload (rsSCell c 0) 0 d =
    (ssSlot0.view.loc (c : Thread nD τ) ↦[ssSlot0.view.set]{fullShare} SS c) := rfl
theorem payload_rsS_1 (d : DD) : (sched (F := F) XG SS RS).payload (rsSCell c 1) 0 d =
    (ssSlot1.view.loc (c : Thread nD τ) ↦[ssSlot1.view.set]{fullShare} SS c) := rfl
theorem payload_rsS_2 (d : DD) : (sched (F := F) XG SS RS).payload (rsSCell c 2) 0 d =
    (ssSlot2.view.loc (c : Thread nD τ) ↦[ssSlot2.view.set]{fullShare} SS c) := rfl
theorem payload_rsS_3 (d : DD) : (sched (F := F) XG SS RS).payload (rsSCell c 3) 0 d =
    (ssSlot3.view.loc (c : Thread nD τ) ↦[ssSlot3.view.set]{fullShare} SS c) := rfl
theorem payload_rsS_4 (d : DD) : (sched (F := F) XG SS RS).payload (rsSCell c 4) 0 d =
    (ssSlot4.view.loc (c : Thread nD τ) ↦[ssSlot4.view.set]{fullShare} SS c) := rfl
theorem payload_rsS_5 (d : DD) : (sched (F := F) XG SS RS).payload (rsSCell c 5) 0 d =
    (ssSlot5.view.loc (c : Thread nD τ) ↦[ssSlot5.view.set]{fullShare} SS c) := rfl
theorem payload_rsS_6 (d : DD) : (sched (F := F) XG SS RS).payload (rsSCell c 6) 0 d =
    (ssSlot6.view.loc (c : Thread nD τ) ↦[ssSlot6.view.set]{fullShare} SS c) := rfl
theorem payload_rsR_0 (d : DD) : (sched (F := F) XG SS RS).payload (rsRCell c 0) 0 d =
    (rsSlot0.view.loc (c : Thread nD τ) ↦[rsSlot0.view.set]{fullShare} RS c) := rfl
theorem payload_rsR_1 (d : DD) : (sched (F := F) XG SS RS).payload (rsRCell c 1) 0 d =
    (rsSlot1.view.loc (c : Thread nD τ) ↦[rsSlot1.view.set]{fullShare} RS c) := rfl
theorem payload_rsR_2 (d : DD) : (sched (F := F) XG SS RS).payload (rsRCell c 2) 0 d =
    (rsSlot2.view.loc (c : Thread nD τ) ↦[rsSlot2.view.set]{fullShare} RS c) := rfl
theorem payload_rsR_3 (d : DD) : (sched (F := F) XG SS RS).payload (rsRCell c 3) 0 d =
    (rsSlot3.view.loc (c : Thread nD τ) ↦[rsSlot3.view.set]{fullShare} RS c) := rfl
theorem payload_rsR_4 (d : DD) : (sched (F := F) XG SS RS).payload (rsRCell c 4) 0 d =
    (rsSlot4.view.loc (c : Thread nD τ) ↦[rsSlot4.view.set]{fullShare} RS c) := rfl
theorem payload_rsR_5 (d : DD) : (sched (F := F) XG SS RS).payload (rsRCell c 5) 0 d =
    (rsSlot5.view.loc (c : Thread nD τ) ↦[rsSlot5.view.set]{fullShare} RS c) := rfl
theorem payload_rsR_6 (d : DD) : (sched (F := F) XG SS RS).payload (rsRCell c 6) 0 d =
    (rsSlot6.view.loc (c : Thread nD τ) ↦[rsSlot6.view.set]{fullShare} RS c) := rfl

/-! ### The rest of a round no duty of which is taken -/

theorem duties_seven_list : (Finset.univ.erase (0 : DD)) = ([1, 2, 3, 4, 5, 6, 7] : List DD).toFinset := by decide

/-- The seven payloads of the entry barrier's round, in the order of the signallers' distance. -/
theorem rest_bar : bigSep ((sched (F := F) XG SS RS).duties (barCell c) 0 \ ∅) (fun d => (sched (F := F) XG SS RS).payload (barCell c) 0 d) =
    iprop(((∃ f, (xgSlot c).view.loc ((fwd c 7 : Dev nD) : Thread nD τ) ↦[(xgSlot c).view.set]{fullShare} f) ∗ reached ER (agRCell (fwd c 7) 6) 0
      ∗ (∃ f, rsSlot0.view.loc ((fwd c 7 : Dev nD) : Thread nD τ) ↦[rsSlot0.view.set]{fullShare} f) ∗ reached ER (rsRCell (fwd c 7) 0) 0)
      ∗ ((∃ f, (xgSlot c).view.loc ((fwd c 6 : Dev nD) : Thread nD τ) ↦[(xgSlot c).view.set]{fullShare} f) ∗ reached ER (agRCell (fwd c 6) 5) 0
      ∗ (∃ f, rsSlot1.view.loc ((fwd c 6 : Dev nD) : Thread nD τ) ↦[rsSlot1.view.set]{fullShare} f) ∗ reached ER (rsRCell (fwd c 6) 1) 0)
      ∗ ((∃ f, (xgSlot c).view.loc ((fwd c 5 : Dev nD) : Thread nD τ) ↦[(xgSlot c).view.set]{fullShare} f) ∗ reached ER (agRCell (fwd c 5) 4) 0
      ∗ (∃ f, rsSlot2.view.loc ((fwd c 5 : Dev nD) : Thread nD τ) ↦[rsSlot2.view.set]{fullShare} f) ∗ reached ER (rsRCell (fwd c 5) 2) 0)
      ∗ ((∃ f, (xgSlot c).view.loc ((fwd c 4 : Dev nD) : Thread nD τ) ↦[(xgSlot c).view.set]{fullShare} f) ∗ reached ER (agRCell (fwd c 4) 3) 0
      ∗ (∃ f, rsSlot3.view.loc ((fwd c 4 : Dev nD) : Thread nD τ) ↦[rsSlot3.view.set]{fullShare} f) ∗ reached ER (rsRCell (fwd c 4) 3) 0)
      ∗ ((∃ f, (xgSlot c).view.loc ((fwd c 3 : Dev nD) : Thread nD τ) ↦[(xgSlot c).view.set]{fullShare} f) ∗ reached ER (agRCell (fwd c 3) 2) 0
      ∗ (∃ f, rsSlot4.view.loc ((fwd c 3 : Dev nD) : Thread nD τ) ↦[rsSlot4.view.set]{fullShare} f) ∗ reached ER (rsRCell (fwd c 3) 4) 0)
      ∗ ((∃ f, (xgSlot c).view.loc ((fwd c 2 : Dev nD) : Thread nD τ) ↦[(xgSlot c).view.set]{fullShare} f) ∗ reached ER (agRCell (fwd c 2) 1) 0
      ∗ (∃ f, rsSlot5.view.loc ((fwd c 2 : Dev nD) : Thread nD τ) ↦[rsSlot5.view.set]{fullShare} f) ∗ reached ER (rsRCell (fwd c 2) 5) 0)
      ∗ ((∃ f, (xgSlot c).view.loc ((fwd c 1 : Dev nD) : Thread nD τ) ↦[(xgSlot c).view.set]{fullShare} f) ∗ reached ER (agRCell (fwd c 1) 0) 0
      ∗ (∃ f, rsSlot6.view.loc ((fwd c 1 : Dev nD) : Thread nD τ) ↦[rsSlot6.view.set]{fullShare} f) ∗ reached ER (rsRCell (fwd c 1) 6) 0)) := by
  rw [Finset.sdiff_empty, duties_bar, bigSep_eq_bigSepL_of_eq [1, 2, 3, 4, 5, 6, 7] duties_seven_list (by decide)]
  rfl
theorem rest_exit : bigSep ((sched (F := F) XG SS RS).duties (exitCell c) 0 \ ∅) (fun d => (sched (F := F) XG SS RS).payload (exitCell c) 0 d) =
    iprop(emp ∗ emp ∗ emp ∗ emp ∗ emp ∗ emp ∗ emp) := by
  rw [Finset.sdiff_empty, duties_exit, bigSep_eq_bigSepL_of_eq [1, 2, 3, 4, 5, 6, 7] duties_seven_list (by decide)]
  rfl
theorem rest_agS (i : Fin 7) : bigSep ((sched (F := F) XG SS RS).duties (agSCell c i) 0 \ ∅) (fun d => (sched (F := F) XG SS RS).payload (agSCell c i) 0 d) =
    ((xgSlot c).view.loc (c : Thread nD τ) ↦[(xgSlot c).view.set]{lend i} XG) := by
  rw [Finset.sdiff_empty, duties_agS, bigSep_singleton, payload_agS]
theorem rest_agR (i : Fin 7) : bigSep ((sched (F := F) XG SS RS).duties (agRCell c i) 0 \ ∅) (fun d => (sched (F := F) XG SS RS).payload (agRCell c i) 0 d) =
    ((xgSlot (fwd c (7 - i.val))).view.loc (c : Thread nD τ) ↦[(xgSlot (fwd c (7 - i.val))).view.set]{fullShare} XG) := by
  rw [Finset.sdiff_empty, duties_agR, bigSep_singleton, payload_agR]
theorem rest_agR_0 : bigSep ((sched (F := F) XG SS RS).duties (agRCell c 0) 0 \ ∅) (fun d => (sched (F := F) XG SS RS).payload (agRCell c 0) 0 d) =
    ((xgSlot (fwd c 7)).view.loc (c : Thread nD τ) ↦[(xgSlot (fwd c 7)).view.set]{fullShare} XG) := by
  rw [Finset.sdiff_empty, duties_agR, bigSep_singleton, payload_agR_0]
theorem rest_agR_1 : bigSep ((sched (F := F) XG SS RS).duties (agRCell c 1) 0 \ ∅) (fun d => (sched (F := F) XG SS RS).payload (agRCell c 1) 0 d) =
    ((xgSlot (fwd c 6)).view.loc (c : Thread nD τ) ↦[(xgSlot (fwd c 6)).view.set]{fullShare} XG) := by
  rw [Finset.sdiff_empty, duties_agR, bigSep_singleton, payload_agR_1]
theorem rest_agR_2 : bigSep ((sched (F := F) XG SS RS).duties (agRCell c 2) 0 \ ∅) (fun d => (sched (F := F) XG SS RS).payload (agRCell c 2) 0 d) =
    ((xgSlot (fwd c 5)).view.loc (c : Thread nD τ) ↦[(xgSlot (fwd c 5)).view.set]{fullShare} XG) := by
  rw [Finset.sdiff_empty, duties_agR, bigSep_singleton, payload_agR_2]
theorem rest_agR_3 : bigSep ((sched (F := F) XG SS RS).duties (agRCell c 3) 0 \ ∅) (fun d => (sched (F := F) XG SS RS).payload (agRCell c 3) 0 d) =
    ((xgSlot (fwd c 4)).view.loc (c : Thread nD τ) ↦[(xgSlot (fwd c 4)).view.set]{fullShare} XG) := by
  rw [Finset.sdiff_empty, duties_agR, bigSep_singleton, payload_agR_3]
theorem rest_agR_4 : bigSep ((sched (F := F) XG SS RS).duties (agRCell c 4) 0 \ ∅) (fun d => (sched (F := F) XG SS RS).payload (agRCell c 4) 0 d) =
    ((xgSlot (fwd c 3)).view.loc (c : Thread nD τ) ↦[(xgSlot (fwd c 3)).view.set]{fullShare} XG) := by
  rw [Finset.sdiff_empty, duties_agR, bigSep_singleton, payload_agR_4]
theorem rest_agR_5 : bigSep ((sched (F := F) XG SS RS).duties (agRCell c 5) 0 \ ∅) (fun d => (sched (F := F) XG SS RS).payload (agRCell c 5) 0 d) =
    ((xgSlot (fwd c 2)).view.loc (c : Thread nD τ) ↦[(xgSlot (fwd c 2)).view.set]{fullShare} XG) := by
  rw [Finset.sdiff_empty, duties_agR, bigSep_singleton, payload_agR_5]
theorem rest_agR_6 : bigSep ((sched (F := F) XG SS RS).duties (agRCell c 6) 0 \ ∅) (fun d => (sched (F := F) XG SS RS).payload (agRCell c 6) 0 d) =
    ((xgSlot (fwd c 1)).view.loc (c : Thread nD τ) ↦[(xgSlot (fwd c 1)).view.set]{fullShare} XG) := by
  rw [Finset.sdiff_empty, duties_agR, bigSep_singleton, payload_agR_6]
theorem rest_rsS_0 : bigSep ((sched (F := F) XG SS RS).duties (rsSCell c 0) 0 \ ∅) (fun d => (sched (F := F) XG SS RS).payload (rsSCell c 0) 0 d) =
    (ssSlot0.view.loc (c : Thread nD τ) ↦[ssSlot0.view.set]{fullShare} SS c) := by
  rw [Finset.sdiff_empty, duties_rsS, bigSep_singleton, payload_rsS_0]
theorem rest_rsS_1 : bigSep ((sched (F := F) XG SS RS).duties (rsSCell c 1) 0 \ ∅) (fun d => (sched (F := F) XG SS RS).payload (rsSCell c 1) 0 d) =
    (ssSlot1.view.loc (c : Thread nD τ) ↦[ssSlot1.view.set]{fullShare} SS c) := by
  rw [Finset.sdiff_empty, duties_rsS, bigSep_singleton, payload_rsS_1]
theorem rest_rsS_2 : bigSep ((sched (F := F) XG SS RS).duties (rsSCell c 2) 0 \ ∅) (fun d => (sched (F := F) XG SS RS).payload (rsSCell c 2) 0 d) =
    (ssSlot2.view.loc (c : Thread nD τ) ↦[ssSlot2.view.set]{fullShare} SS c) := by
  rw [Finset.sdiff_empty, duties_rsS, bigSep_singleton, payload_rsS_2]
theorem rest_rsS_3 : bigSep ((sched (F := F) XG SS RS).duties (rsSCell c 3) 0 \ ∅) (fun d => (sched (F := F) XG SS RS).payload (rsSCell c 3) 0 d) =
    (ssSlot3.view.loc (c : Thread nD τ) ↦[ssSlot3.view.set]{fullShare} SS c) := by
  rw [Finset.sdiff_empty, duties_rsS, bigSep_singleton, payload_rsS_3]
theorem rest_rsS_4 : bigSep ((sched (F := F) XG SS RS).duties (rsSCell c 4) 0 \ ∅) (fun d => (sched (F := F) XG SS RS).payload (rsSCell c 4) 0 d) =
    (ssSlot4.view.loc (c : Thread nD τ) ↦[ssSlot4.view.set]{fullShare} SS c) := by
  rw [Finset.sdiff_empty, duties_rsS, bigSep_singleton, payload_rsS_4]
theorem rest_rsS_5 : bigSep ((sched (F := F) XG SS RS).duties (rsSCell c 5) 0 \ ∅) (fun d => (sched (F := F) XG SS RS).payload (rsSCell c 5) 0 d) =
    (ssSlot5.view.loc (c : Thread nD τ) ↦[ssSlot5.view.set]{fullShare} SS c) := by
  rw [Finset.sdiff_empty, duties_rsS, bigSep_singleton, payload_rsS_5]
theorem rest_rsS_6 : bigSep ((sched (F := F) XG SS RS).duties (rsSCell c 6) 0 \ ∅) (fun d => (sched (F := F) XG SS RS).payload (rsSCell c 6) 0 d) =
    (ssSlot6.view.loc (c : Thread nD τ) ↦[ssSlot6.view.set]{fullShare} SS c) := by
  rw [Finset.sdiff_empty, duties_rsS, bigSep_singleton, payload_rsS_6]
theorem rest_rsR_0 : bigSep ((sched (F := F) XG SS RS).duties (rsRCell c 0) 0 \ ∅) (fun d => (sched (F := F) XG SS RS).payload (rsRCell c 0) 0 d) =
    (rsSlot0.view.loc (c : Thread nD τ) ↦[rsSlot0.view.set]{fullShare} RS c) := by
  rw [Finset.sdiff_empty, duties_rsR, bigSep_singleton, payload_rsR_0]
theorem rest_rsR_1 : bigSep ((sched (F := F) XG SS RS).duties (rsRCell c 1) 0 \ ∅) (fun d => (sched (F := F) XG SS RS).payload (rsRCell c 1) 0 d) =
    (rsSlot1.view.loc (c : Thread nD τ) ↦[rsSlot1.view.set]{fullShare} RS c) := by
  rw [Finset.sdiff_empty, duties_rsR, bigSep_singleton, payload_rsR_1]
theorem rest_rsR_2 : bigSep ((sched (F := F) XG SS RS).duties (rsRCell c 2) 0 \ ∅) (fun d => (sched (F := F) XG SS RS).payload (rsRCell c 2) 0 d) =
    (rsSlot2.view.loc (c : Thread nD τ) ↦[rsSlot2.view.set]{fullShare} RS c) := by
  rw [Finset.sdiff_empty, duties_rsR, bigSep_singleton, payload_rsR_2]
theorem rest_rsR_3 : bigSep ((sched (F := F) XG SS RS).duties (rsRCell c 3) 0 \ ∅) (fun d => (sched (F := F) XG SS RS).payload (rsRCell c 3) 0 d) =
    (rsSlot3.view.loc (c : Thread nD τ) ↦[rsSlot3.view.set]{fullShare} RS c) := by
  rw [Finset.sdiff_empty, duties_rsR, bigSep_singleton, payload_rsR_3]
theorem rest_rsR_4 : bigSep ((sched (F := F) XG SS RS).duties (rsRCell c 4) 0 \ ∅) (fun d => (sched (F := F) XG SS RS).payload (rsRCell c 4) 0 d) =
    (rsSlot4.view.loc (c : Thread nD τ) ↦[rsSlot4.view.set]{fullShare} RS c) := by
  rw [Finset.sdiff_empty, duties_rsR, bigSep_singleton, payload_rsR_4]
theorem rest_rsR_5 : bigSep ((sched (F := F) XG SS RS).duties (rsRCell c 5) 0 \ ∅) (fun d => (sched (F := F) XG SS RS).payload (rsRCell c 5) 0 d) =
    (rsSlot5.view.loc (c : Thread nD τ) ↦[rsSlot5.view.set]{fullShare} RS c) := by
  rw [Finset.sdiff_empty, duties_rsR, bigSep_singleton, payload_rsR_5]
theorem rest_rsR_6 : bigSep ((sched (F := F) XG SS RS).duties (rsRCell c 6) 0 \ ∅) (fun d => (sched (F := F) XG SS RS).payload (rsRCell c 6) 0 d) =
    (rsSlot6.view.loc (c : Thread nD τ) ↦[rsSlot6.view.set]{fullShare} RS c) := by
  rw [Finset.sdiff_empty, duties_rsR, bigSep_singleton, payload_rsR_6]

end Tables

end Cert.KernelIdealProof

end
-- ==== Proof.BodyClose.lean ====
/-
  Closing a device's own cells at the end of the body.

  Every cell has one round. Past it, at round 1 with nothing taken and nothing consumed, the owner opens the cell's
  invariant, reads the counter at zero against its position, leaves position and round state behind as the cell closed,
  and keeps the counter: the twenty-nine semaphores of the kernel's own go back to the region's exit at zero.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))

/-- One cell closed: past the schedule's one round its counter is the owner's again, at zero. -/
theorem close_cell (κ : ℕ) (g : GSem nD τ sig) :
    iprop(cellInv ER (sched XG SS RS) κ g ∗ atPos ER g 1 ∅ 0) ⊢ (|={Set.univ}=> semVal g 0 : sProp 𝕄) :=
  Rounds.cell_close ER (sched XG SS RS) (Set.mem_univ κ) (fun h => h) (duties_later XG SS RS g)

/-- Device `c`'s own twenty-nine cells, each with its invariant and the owner past round 0. -/
def closing (K : Dev nD × Fin 30 → ℕ) (c : Dev nD) : sProp 𝕄 :=
  iprop((cellInv ER (sched XG SS RS) (K (c, 1)) (exitCell c) ∗ atPos ER (exitCell c) 1 ∅ 0)
    ∗ (cellInv ER (sched XG SS RS) (K (c, 2)) (agSCell c 0) ∗ atPos ER (agSCell c 0) 1 ∅ 0)
    ∗ (cellInv ER (sched XG SS RS) (K (c, 3)) (agSCell c 1) ∗ atPos ER (agSCell c 1) 1 ∅ 0)
    ∗ (cellInv ER (sched XG SS RS) (K (c, 4)) (agSCell c 2) ∗ atPos ER (agSCell c 2) 1 ∅ 0)
    ∗ (cellInv ER (sched XG SS RS) (K (c, 5)) (agSCell c 3) ∗ atPos ER (agSCell c 3) 1 ∅ 0)
    ∗ (cellInv ER (sched XG SS RS) (K (c, 6)) (agSCell c 4) ∗ atPos ER (agSCell c 4) 1 ∅ 0)
    ∗ (cellInv ER (sched XG SS RS) (K (c, 7)) (agSCell c 5) ∗ atPos ER (agSCell c 5) 1 ∅ 0)
    ∗ (cellInv ER (sched XG SS RS) (K (c, 8)) (agSCell c 6) ∗ atPos ER (agSCell c 6) 1 ∅ 0)
    ∗ (cellInv ER (sched XG SS RS) (K (c, 9)) (agRCell c 0) ∗ atPos ER (agRCell c 0) 1 ∅ 0)
    ∗ (cellInv ER (sched XG SS RS) (K (c, 10)) (agRCell c 1) ∗ atPos ER (agRCell c 1) 1 ∅ 0)
    ∗ (cellInv ER (sched XG SS RS) (K (c, 11)) (agRCell c 2) ∗ atPos ER (agRCell c 2) 1 ∅ 0)
    ∗ (cellInv ER (sched XG SS RS) (K (c, 12)) (agRCell c 3) ∗ atPos ER (agRCell c 3) 1 ∅ 0)
    ∗ (cellInv ER (sched XG SS RS) (K (c, 13)) (agRCell c 4) ∗ atPos ER (agRCell c 4) 1 ∅ 0)
    ∗ (cellInv ER (sched XG SS RS) (K (c, 14)) (agRCell c 5) ∗ atPos ER (agRCell c 5) 1 ∅ 0)
    ∗ (cellInv ER (sched XG SS RS) (K (c, 15)) (agRCell c 6) ∗ atPos ER (agRCell c 6) 1 ∅ 0)
    ∗ (cellInv ER (sched XG SS RS) (K (c, 16)) (rsSCell c 0) ∗ atPos ER (rsSCell c 0) 1 ∅ 0)
    ∗ (cellInv ER (sched XG SS RS) (K (c, 17)) (rsSCell c 1) ∗ atPos ER (rsSCell c 1) 1 ∅ 0)
    ∗ (cellInv ER (sched XG SS RS) (K (c, 18)) (rsSCell c 2) ∗ atPos ER (rsSCell c 2) 1 ∅ 0)
    ∗ (cellInv ER (sched XG SS RS) (K (c, 19)) (rsSCell c 3) ∗ atPos ER (rsSCell c 3) 1 ∅ 0)
    ∗ (cellInv ER (sched XG SS RS) (K (c, 20)) (rsSCell c 4) ∗ atPos ER (rsSCell c 4) 1 ∅ 0)
    ∗ (cellInv ER (sched XG SS RS) (K (c, 21)) (rsSCell c 5) ∗ atPos ER (rsSCell c 5) 1 ∅ 0)
    ∗ (cellInv ER (sched XG SS RS) (K (c, 22)) (rsSCell c 6) ∗ atPos ER (rsSCell c 6) 1 ∅ 0)
    ∗ (cellInv ER (sched XG SS RS) (K (c, 23)) (rsRCell c 0) ∗ atPos ER (rsRCell c 0) 1 ∅ 0)
    ∗ (cellInv ER (sched XG SS RS) (K (c, 24)) (rsRCell c 1) ∗ atPos ER (rsRCell c 1) 1 ∅ 0)
    ∗ (cellInv ER (sched XG SS RS) (K (c, 25)) (rsRCell c 2) ∗ atPos ER (rsRCell c 2) 1 ∅ 0)
    ∗ (cellInv ER (sched XG SS RS) (K (c, 26)) (rsRCell c 3) ∗ atPos ER (rsRCell c 3) 1 ∅ 0)
    ∗ (cellInv ER (sched XG SS RS) (K (c, 27)) (rsRCell c 4) ∗ atPos ER (rsRCell c 4) 1 ∅ 0)
    ∗ (cellInv ER (sched XG SS RS) (K (c, 28)) (rsRCell c 5) ∗ atPos ER (rsRCell c 5) 1 ∅ 0)
    ∗ (cellInv ER (sched XG SS RS) (K (c, 29)) (rsRCell c 6) ∗ atPos ER (rsRCell c 6) 1 ∅ 0))

/-- The owner's positions past round 0 of its own twenty-nine cells. -/
def positionsDone (c : Dev nD) : sProp 𝕄 :=
  iprop(atPos ER (exitCell c) 1 ∅ 0
    ∗ atPos ER (agSCell c 0) 1 ∅ 0
    ∗ atPos ER (agSCell c 1) 1 ∅ 0
    ∗ atPos ER (agSCell c 2) 1 ∅ 0
    ∗ atPos ER (agSCell c 3) 1 ∅ 0
    ∗ atPos ER (agSCell c 4) 1 ∅ 0
    ∗ atPos ER (agSCell c 5) 1 ∅ 0
    ∗ atPos ER (agSCell c 6) 1 ∅ 0
    ∗ atPos ER (agRCell c 0) 1 ∅ 0
    ∗ atPos ER (agRCell c 1) 1 ∅ 0
    ∗ atPos ER (agRCell c 2) 1 ∅ 0
    ∗ atPos ER (agRCell c 3) 1 ∅ 0
    ∗ atPos ER (agRCell c 4) 1 ∅ 0
    ∗ atPos ER (agRCell c 5) 1 ∅ 0
    ∗ atPos ER (agRCell c 6) 1 ∅ 0
    ∗ atPos ER (rsSCell c 0) 1 ∅ 0
    ∗ atPos ER (rsSCell c 1) 1 ∅ 0
    ∗ atPos ER (rsSCell c 2) 1 ∅ 0
    ∗ atPos ER (rsSCell c 3) 1 ∅ 0
    ∗ atPos ER (rsSCell c 4) 1 ∅ 0
    ∗ atPos ER (rsSCell c 5) 1 ∅ 0
    ∗ atPos ER (rsSCell c 6) 1 ∅ 0
    ∗ atPos ER (rsRCell c 0) 1 ∅ 0
    ∗ atPos ER (rsRCell c 1) 1 ∅ 0
    ∗ atPos ER (rsRCell c 2) 1 ∅ 0
    ∗ atPos ER (rsRCell c 3) 1 ∅ 0
    ∗ atPos ER (rsRCell c 4) 1 ∅ 0
    ∗ atPos ER (rsRCell c 5) 1 ∅ 0
    ∗ atPos ER (rsRCell c 6) 1 ∅ 0)

abbrev l29' : List (Fin 29) := [0, 1, 2, 3, 4, 5, 6, 7, 8, 9, 10, 11, 12, 13, 14, 15, 16, 17, 18, 19, 20, 21, 22, 23, 24, 25, 26, 27, 28]

omit [FloatOps F] in
theorem bigSep_fin29 (Φ : Fin 29 → sProp 𝕄) : bigSep Finset.univ Φ = bigSepL l29' Φ := bigSep_univ_eq_bigSepL l29' (by decide) (by decide) Φ

theorem closing_eq (K : Dev nD × Fin 30 → ℕ) (c : Dev nD) :
    closing XG SS RS K c = bigSep Finset.univ fun k : Fin 29 =>
      iprop(cellInv ER (sched XG SS RS) (K (c, k.succ)) ((c : Thread nD τ), osem k) ∗ atPos ER ((c : Thread nD τ), osem k) 1 ∅ 0) := by
  rw [bigSep_fin29]; rfl

omit [FloatOps F] in
theorem ownZero_eq (c : Dev nD) : (ownZero c : sProp 𝕄) = bigSep Finset.univ fun k : Fin 29 => semVal ((c : Thread nD τ), osem k) 0 := by
  rw [bigSep_fin29]; rfl

/-- All twenty-nine closed under one update: the kernel's own semaphores at zero. -/
theorem closeAll (K : Dev nD × Fin 30 → ℕ) (c : Dev nD) : closing XG SS RS K c ⊢ |={Set.univ}=> ownZero c := by
  rw [closing_eq, ownZero_eq]
  exact (bigSep_mono fun k _ => close_cell XG SS RS _ _).trans (bigSep_fupd _ _)

/-- The same from the invariants a device holds from the launch and its twenty-nine positions. -/
theorem closeAll_of_invs (K : Dev nD × Fin 30 → ℕ) (c : Dev nD) :
    iprop(invs XG SS RS K c ∗ positionsDone c) ⊢ |={Set.univ}=> ownZero c := by
  refine (show iprop(invs XG SS RS K c ∗ positionsDone c) ⊢ closing XG SS RS K c from ?_).trans (closeAll XG SS RS K c)
  unfold invs positionsDone closing
  iintro ⟨⟨-, #I1, #I2, #I3, #I4, #I5, #I6, #I7, #I8, #I9, #I10, #I11, #I12, #I13, #I14, #I15, #I16, #I17, #I18, #I19, #I20, #I21, #I22, #I23, #I24, #I25, #I26, #I27, #I28, #I29, -⟩, P1, P2, P3, P4, P5, P6, P7, P8, P9, P10, P11, P12, P13, P14, P15, P16, P17, P18, P19, P20, P21, P22, P23, P24, P25, P26, P27, P28, P29⟩
  isplitl [P1]
  · isplitr; · iexact I1
    iexact P1
  isplitl [P2]
  · isplitr; · iexact I2
    iexact P2
  isplitl [P3]
  · isplitr; · iexact I3
    iexact P3
  isplitl [P4]
  · isplitr; · iexact I4
    iexact P4
  isplitl [P5]
  · isplitr; · iexact I5
    iexact P5
  isplitl [P6]
  · isplitr; · iexact I6
    iexact P6
  isplitl [P7]
  · isplitr; · iexact I7
    iexact P7
  isplitl [P8]
  · isplitr; · iexact I8
    iexact P8
  isplitl [P9]
  · isplitr; · iexact I9
    iexact P9
  isplitl [P10]
  · isplitr; · iexact I10
    iexact P10
  isplitl [P11]
  · isplitr; · iexact I11
    iexact P11
  isplitl [P12]
  · isplitr; · iexact I12
    iexact P12
  isplitl [P13]
  · isplitr; · iexact I13
    iexact P13
  isplitl [P14]
  · isplitr; · iexact I14
    iexact P14
  isplitl [P15]
  · isplitr; · iexact I15
    iexact P15
  isplitl [P16]
  · isplitr; · iexact I16
    iexact P16
  isplitl [P17]
  · isplitr; · iexact I17
    iexact P17
  isplitl [P18]
  · isplitr; · iexact I18
    iexact P18
  isplitl [P19]
  · isplitr; · iexact I19
    iexact P19
  isplitl [P20]
  · isplitr; · iexact I20
    iexact P20
  isplitl [P21]
  · isplitr; · iexact I21
    iexact P21
  isplitl [P22]
  · isplitr; · iexact I22
    iexact P22
  isplitl [P23]
  · isplitr; · iexact I23
    iexact P23
  isplitl [P24]
  · isplitr; · iexact I24
    iexact P24
  isplitl [P25]
  · isplitr; · iexact I25
    iexact P25
  isplitl [P26]
  · isplitr; · iexact I26
    iexact P26
  isplitl [P27]
  · isplitr; · iexact I27
    iexact P27
  isplitl [P28]
  · isplitr; · iexact I28
    iexact P28
  isplitr; · iexact I29
  iexact P29

/-- info: 'Cert.KernelIdealProof.closeAll_of_invs' depends on axioms: [propext, Classical.choice, Quot.sound] -/
#guard_msgs in #print axioms closeAll_of_invs

end Cert.KernelIdealProof

end
-- ==== Proof.BodyP42.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agS_0 (c : Dev nD) : (sched (F := F) XG SS RS).duties (agSCell c 0) 0 = {0} := duties_agS XG SS RS c 0
private theorem amount_agS_0 (c : Dev nD) (d : DD) : (sched (F := F) XG SS RS).amount (agSCell c 0) 0 d = Nag := amount_agS XG SS RS c 0 d
private theorem expect_agS_0 (c : Dev nD) : (sched (F := F) XG SS RS).expect (agSCell c 0) 0 = Nag := expect_agS XG SS RS c 0
private theorem restd_agS_0 (c : Dev nD) : bigSep ((sched (F := F) XG SS RS).duties (agSCell c 0) 0) (fun d => (sched (F := F) XG SS RS).payload (agSCell c 0) 0 d) ⊢
    ((xgSlot c).view.loc (c : Thread nD τ) ↦[(xgSlot c).view.set]{lend 0} XG) := by
  rw [duties_agS, bigSep_singleton, payload_agS]
private theorem duties_agS_1 (c : Dev nD) : (sched (F := F) XG SS RS).duties (agSCell c 1) 0 = {0} := duties_agS XG SS RS c 1
private theorem amount_agS_1 (c : Dev nD) (d : DD) : (sched (F := F) XG SS RS).amount (agSCell c 1) 0 d = Nag := amount_agS XG SS RS c 1 d
private theorem expect_agS_1 (c : Dev nD) : (sched (F := F) XG SS RS).expect (agSCell c 1) 0 = Nag := expect_agS XG SS RS c 1
private theorem restd_agS_1 (c : Dev nD) : bigSep ((sched (F := F) XG SS RS).duties (agSCell c 1) 0) (fun d => (sched (F := F) XG SS RS).payload (agSCell c 1) 0 d) ⊢
    ((xgSlot c).view.loc (c : Thread nD τ) ↦[(xgSlot c).view.set]{lend 1} XG) := by
  rw [duties_agS, bigSep_singleton, payload_agS]
private theorem duties_agS_2 (c : Dev nD) : (sched (F := F) XG SS RS).duties (agSCell c 2) 0 = {0} := duties_agS XG SS RS c 2
private theorem amount_agS_2 (c : Dev nD) (d : DD) : (sched (F := F) XG SS RS).amount (agSCell c 2) 0 d = Nag := amount_agS XG SS RS c 2 d
private theorem expect_agS_2 (c : Dev nD) : (sched (F := F) XG SS RS).expect (agSCell c 2) 0 = Nag := expect_agS XG SS RS c 2
private theorem restd_agS_2 (c : Dev nD) : bigSep ((sched (F := F) XG SS RS).duties (agSCell c 2) 0) (fun d => (sched (F := F) XG SS RS).payload (agSCell c 2) 0 d) ⊢
    ((xgSlot c).view.loc (c : Thread nD τ) ↦[(xgSlot c).view.set]{lend 2} XG) := by
  rw [duties_agS, bigSep_singleton, payload_agS]
private theorem duties_agS_3 (c : Dev nD) : (sched (F := F) XG SS RS).duties (agSCell c 3) 0 = {0} := duties_agS XG SS RS c 3
private theorem amount_agS_3 (c : Dev nD) (d : DD) : (sched (F := F) XG SS RS).amount (agSCell c 3) 0 d = Nag := amount_agS XG SS RS c 3 d
private theorem expect_agS_3 (c : Dev nD) : (sched (F := F) XG SS RS).expect (agSCell c 3) 0 = Nag := expect_agS XG SS RS c 3
private theorem restd_agS_3 (c : Dev nD) : bigSep ((sched (F := F) XG SS RS).duties (agSCell c 3) 0) (fun d => (sched (F := F) XG SS RS).payload (agSCell c 3) 0 d) ⊢
    ((xgSlot c).view.loc (c : Thread nD τ) ↦[(xgSlot c).view.set]{lend 3} XG) := by
  rw [duties_agS, bigSep_singleton, payload_agS]

end Lit

attribute [local irreducible] fwd
attribute [local sl_rounds] duties_agS_0 amount_agS_0 expect_agS_0 duties_agS_1 amount_agS_1 expect_agS_1 duties_agS_2 amount_agS_2 expect_agS_2 duties_agS_3 amount_agS_3 expect_agS_3

set_option maxHeartbeats 4000000 in
/-- The first four send waits of the gather: each hands back the share of the device's own slot that its copy was lent. -/
theorem part42_run (c : Dev nD) (W : Waits sig Unit) :
    iprop((cellInv ER (sched XG SS RS) (K (c, 2)) (agSCell c 0) ∗ cellInv ER (sched XG SS RS) (K (c, 3)) (agSCell c 1) ∗ cellInv ER (sched XG SS RS) (K (c, 4)) (agSCell c 2) ∗ cellInv ER (sched XG SS RS) (K (c, 5)) (agSCell c 3))
        ∗ (atPos ER (agSCell c 0) 0 ∅ 0 ∗ atPos ER (agSCell c 1) 0 ∅ 0 ∗ atPos ER (agSCell c 2) 0 ∅ 0 ∗ atPos ER (agSCell c 3) 0 ∅ 0)
        ∗ (cred (tallyAt (agSCell c 0) () Nag) ∗ cred (tallyAt (agSCell c 1) () Nag) ∗ cred (tallyAt (agSCell c 2) () Nag) ∗ cred (tallyAt (agSCell c 3) () Nag))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part42 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c)
          (fun _ => iprop((atPos ER (agSCell c 0) 1 ∅ 0 ∗ atPos ER (agSCell c 1) 1 ∅ 0 ∗ atPos ER (agSCell c 2) 1 ∅ 0 ∗ atPos ER (agSCell c 3) 1 ∅ 0)
            ∗ (reached ER (agSCell c 0) 1 ∗ reached ER (agSCell c 1) 1 ∗ reached ER (agSCell c 2) 1 ∗ reached ER (agSCell c 3) 1)
            ∗ (((xgSlot c).view.loc (c : Thread nD τ) ↦[(xgSlot c).view.set]{lend 0} XG) ∗ ((xgSlot c).view.loc (c : Thread nD τ) ↦[(xgSlot c).view.set]{lend 1} XG) ∗ ((xgSlot c).view.loc (c : Thread nD τ) ↦[(xgSlot c).view.set]{lend 2} XG) ∗ ((xgSlot c).view.loc (c : Thread nD τ) ↦[(xgSlot c).view.set]{lend 3} XG))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma agS3, ()) (insert (SemLoc.dma agS2, ()) (insert (SemLoc.dma agS1, ()) (insert (SemLoc.dma agS0, ()) W)))))) := by
  have hw0 := mayWait_agS (F := F) c 0
  have hw1 := mayWait_agS (F := F) c 1
  have hw2 := mayWait_agS (F := F) c 2
  have hw3 := mayWait_agS (F := F) c 3
  iintro ⟨⟨#I0, #I1, #I2, #I3⟩, ⟨P0, P1, P2, P3⟩, ⟨C0, C1, C2, C3⟩, #HL, HO⟩
  sl_exec
  ihave Y0 := (restd_agS_0 XG SS RS c) $$ P0_pay1
  ihave Y1 := (restd_agS_1 XG SS RS c) $$ P1_pay1
  ihave Y2 := (restd_agS_2 XG SS RS c) $$ P2_pay1
  ihave Y3 := (restd_agS_3 XG SS RS c) $$ P3_pay1
  sl_step
  sl_close

end Cert.KernelIdealProof
end
-- ==== Proof.BodyP43.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agS_4 (c : Dev nD) : (sched (F := F) XG SS RS).duties (agSCell c 4) 0 = {0} := duties_agS XG SS RS c 4
private theorem amount_agS_4 (c : Dev nD) (d : DD) : (sched (F := F) XG SS RS).amount (agSCell c 4) 0 d = Nag := amount_agS XG SS RS c 4 d
private theorem expect_agS_4 (c : Dev nD) : (sched (F := F) XG SS RS).expect (agSCell c 4) 0 = Nag := expect_agS XG SS RS c 4
private theorem restd_agS_4 (c : Dev nD) : bigSep ((sched (F := F) XG SS RS).duties (agSCell c 4) 0) (fun d => (sched (F := F) XG SS RS).payload (agSCell c 4) 0 d) ⊢
    ((xgSlot c).view.loc (c : Thread nD τ) ↦[(xgSlot c).view.set]{lend 4} XG) := by
  rw [duties_agS, bigSep_singleton, payload_agS]
private theorem duties_agS_5 (c : Dev nD) : (sched (F := F) XG SS RS).duties (agSCell c 5) 0 = {0} := duties_agS XG SS RS c 5
private theorem amount_agS_5 (c : Dev nD) (d : DD) : (sched (F := F) XG SS RS).amount (agSCell c 5) 0 d = Nag := amount_agS XG SS RS c 5 d
private theorem expect_agS_5 (c : Dev nD) : (sched (F := F) XG SS RS).expect (agSCell c 5) 0 = Nag := expect_agS XG SS RS c 5
private theorem restd_agS_5 (c : Dev nD) : bigSep ((sched (F := F) XG SS RS).duties (agSCell c 5) 0) (fun d => (sched (F := F) XG SS RS).payload (agSCell c 5) 0 d) ⊢
    ((xgSlot c).view.loc (c : Thread nD τ) ↦[(xgSlot c).view.set]{lend 5} XG) := by
  rw [duties_agS, bigSep_singleton, payload_agS]
private theorem duties_agS_6 (c : Dev nD) : (sched (F := F) XG SS RS).duties (agSCell c 6) 0 = {0} := duties_agS XG SS RS c 6
private theorem amount_agS_6 (c : Dev nD) (d : DD) : (sched (F := F) XG SS RS).amount (agSCell c 6) 0 d = Nag := amount_agS XG SS RS c 6 d
private theorem expect_agS_6 (c : Dev nD) : (sched (F := F) XG SS RS).expect (agSCell c 6) 0 = Nag := expect_agS XG SS RS c 6
private theorem restd_agS_6 (c : Dev nD) : bigSep ((sched (F := F) XG SS RS).duties (agSCell c 6) 0) (fun d => (sched (F := F) XG SS RS).payload (agSCell c 6) 0 d) ⊢
    ((xgSlot c).view.loc (c : Thread nD τ) ↦[(xgSlot c).view.set]{lend 6} XG) := by
  rw [duties_agS, bigSep_singleton, payload_agS]

end Lit

attribute [local irreducible] fwd
attribute [local sl_rounds] duties_agS_4 amount_agS_4 expect_agS_4 duties_agS_5 amount_agS_5 expect_agS_5 duties_agS_6 amount_agS_6 expect_agS_6

set_option maxHeartbeats 4000000 in
/-- The last three send waits of the gather. -/
theorem part43_run (c : Dev nD) (W : Waits sig Unit) :
    iprop((cellInv ER (sched XG SS RS) (K (c, 6)) (agSCell c 4) ∗ cellInv ER (sched XG SS RS) (K (c, 7)) (agSCell c 5) ∗ cellInv ER (sched XG SS RS) (K (c, 8)) (agSCell c 6))
        ∗ (atPos ER (agSCell c 4) 0 ∅ 0 ∗ atPos ER (agSCell c 5) 0 ∅ 0 ∗ atPos ER (agSCell c 6) 0 ∅ 0)
        ∗ (cred (tallyAt (agSCell c 4) () Nag) ∗ cred (tallyAt (agSCell c 5) () Nag) ∗ cred (tallyAt (agSCell c 6) () Nag))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part43 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c)
          (fun _ => iprop((atPos ER (agSCell c 4) 1 ∅ 0 ∗ atPos ER (agSCell c 5) 1 ∅ 0 ∗ atPos ER (agSCell c 6) 1 ∅ 0)
            ∗ (reached ER (agSCell c 4) 1 ∗ reached ER (agSCell c 5) 1 ∗ reached ER (agSCell c 6) 1)
            ∗ (((xgSlot c).view.loc (c : Thread nD τ) ↦[(xgSlot c).view.set]{lend 4} XG) ∗ ((xgSlot c).view.loc (c : Thread nD τ) ↦[(xgSlot c).view.set]{lend 5} XG) ∗ ((xgSlot c).view.loc (c : Thread nD τ) ↦[(xgSlot c).view.set]{lend 6} XG))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma agS6, ()) (insert (SemLoc.dma agS5, ()) (insert (SemLoc.dma agS4, ()) W))))) := by
  have hw0 := mayWait_agS (F := F) c 4
  have hw1 := mayWait_agS (F := F) c 5
  have hw2 := mayWait_agS (F := F) c 6
  iintro ⟨⟨#I0, #I1, #I2⟩, ⟨P0, P1, P2⟩, ⟨C0, C1, C2⟩, #HL, HO⟩
  sl_exec
  ihave Y0 := (restd_agS_4 XG SS RS c) $$ P0_pay1
  ihave Y1 := (restd_agS_5 XG SS RS c) $$ P1_pay1
  ihave Y2 := (restd_agS_6 XG SS RS c) $$ P2_pay1
  sl_step
  sl_close

end Cert.KernelIdealProof
end
-- ==== Proof.BodyP44.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_rsS_0 (c : Dev nD) : (sched (F := F) XG SS RS).duties (rsSCell c 0) 0 = {0} := duties_rsS XG SS RS c 0
private theorem amount_rsS_0 (c : Dev nD) (d : DD) : (sched (F := F) XG SS RS).amount (rsSCell c 0) 0 d = Nrs := amount_rsS XG SS RS c 0 d
private theorem expect_rsS_0 (c : Dev nD) : (sched (F := F) XG SS RS).expect (rsSCell c 0) 0 = Nrs := expect_rsS XG SS RS c 0
private theorem restd_rsS_0 (c : Dev nD) : bigSep ((sched (F := F) XG SS RS).duties (rsSCell c 0) 0) (fun d => (sched (F := F) XG SS RS).payload (rsSCell c 0) 0 d) ⊢
    (ssSlot0.view.loc (c : Thread nD τ) ↦[ssSlot0.view.set]{fullShare} SS c) := by
  rw [duties_rsS, bigSep_singleton, payload_rsS_0]
private theorem duties_rsS_1 (c : Dev nD) : (sched (F := F) XG SS RS).duties (rsSCell c 1) 0 = {0} := duties_rsS XG SS RS c 1
private theorem amount_rsS_1 (c : Dev nD) (d : DD) : (sched (F := F) XG SS RS).amount (rsSCell c 1) 0 d = Nrs := amount_rsS XG SS RS c 1 d
private theorem expect_rsS_1 (c : Dev nD) : (sched (F := F) XG SS RS).expect (rsSCell c 1) 0 = Nrs := expect_rsS XG SS RS c 1
private theorem restd_rsS_1 (c : Dev nD) : bigSep ((sched (F := F) XG SS RS).duties (rsSCell c 1) 0) (fun d => (sched (F := F) XG SS RS).payload (rsSCell c 1) 0 d) ⊢
    (ssSlot1.view.loc (c : Thread nD τ) ↦[ssSlot1.view.set]{fullShare} SS c) := by
  rw [duties_rsS, bigSep_singleton, payload_rsS_1]
private theorem duties_rsS_2 (c : Dev nD) : (sched (F := F) XG SS RS).duties (rsSCell c 2) 0 = {0} := duties_rsS XG SS RS c 2
private theorem amount_rsS_2 (c : Dev nD) (d : DD) : (sched (F := F) XG SS RS).amount (rsSCell c 2) 0 d = Nrs := amount_rsS XG SS RS c 2 d
private theorem expect_rsS_2 (c : Dev nD) : (sched (F := F) XG SS RS).expect (rsSCell c 2) 0 = Nrs := expect_rsS XG SS RS c 2
private theorem restd_rsS_2 (c : Dev nD) : bigSep ((sched (F := F) XG SS RS).duties (rsSCell c 2) 0) (fun d => (sched (F := F) XG SS RS).payload (rsSCell c 2) 0 d) ⊢
    (ssSlot2.view.loc (c : Thread nD τ) ↦[ssSlot2.view.set]{fullShare} SS c) := by
  rw [duties_rsS, bigSep_singleton, payload_rsS_2]
private theorem duties_rsS_3 (c : Dev nD) : (sched (F := F) XG SS RS).duties (rsSCell c 3) 0 = {0} := duties_rsS XG SS RS c 3
private theorem amount_rsS_3 (c : Dev nD) (d : DD) : (sched (F := F) XG SS RS).amount (rsSCell c 3) 0 d = Nrs := amount_rsS XG SS RS c 3 d
private theorem expect_rsS_3 (c : Dev nD) : (sched (F := F) XG SS RS).expect (rsSCell c 3) 0 = Nrs := expect_rsS XG SS RS c 3
private theorem restd_rsS_3 (c : Dev nD) : bigSep ((sched (F := F) XG SS RS).duties (rsSCell c 3) 0) (fun d => (sched (F := F) XG SS RS).payload (rsSCell c 3) 0 d) ⊢
    (ssSlot3.view.loc (c : Thread nD τ) ↦[ssSlot3.view.set]{fullShare} SS c) := by
  rw [duties_rsS, bigSep_singleton, payload_rsS_3]

end Lit

attribute [local irreducible] fwd
attribute [local sl_rounds] duties_rsS_0 amount_rsS_0 expect_rsS_0 duties_rsS_1 amount_rsS_1 expect_rsS_1 duties_rsS_2 amount_rsS_2 expect_rsS_2 duties_rsS_3 amount_rsS_3 expect_rsS_3

set_option maxHeartbeats 4000000 in
/-- The first four send waits of the partial rows: each hands back the slot of the send buffer its copy read. -/
theorem part44_run (c : Dev nD) (W : Waits sig Unit) :
    iprop((cellInv ER (sched XG SS RS) (K (c, 16)) (rsSCell c 0) ∗ cellInv ER (sched XG SS RS) (K (c, 17)) (rsSCell c 1) ∗ cellInv ER (sched XG SS RS) (K (c, 18)) (rsSCell c 2) ∗ cellInv ER (sched XG SS RS) (K (c, 19)) (rsSCell c 3))
        ∗ (atPos ER (rsSCell c 0) 0 ∅ 0 ∗ atPos ER (rsSCell c 1) 0 ∅ 0 ∗ atPos ER (rsSCell c 2) 0 ∅ 0 ∗ atPos ER (rsSCell c 3) 0 ∅ 0)
        ∗ (cred (tallyAt (rsSCell c 0) () Nrs) ∗ cred (tallyAt (rsSCell c 1) () Nrs) ∗ cred (tallyAt (rsSCell c 2) () Nrs) ∗ cred (tallyAt (rsSCell c 3) () Nrs))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part44 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0)
          (fun _ => iprop((atPos ER (rsSCell c 0) 1 ∅ 0 ∗ atPos ER (rsSCell c 1) 1 ∅ 0 ∗ atPos ER (rsSCell c 2) 1 ∅ 0 ∗ atPos ER (rsSCell c 3) 1 ∅ 0)
            ∗ (reached ER (rsSCell c 0) 1 ∗ reached ER (rsSCell c 1) 1 ∗ reached ER (rsSCell c 2) 1 ∗ reached ER (rsSCell c 3) 1)
            ∗ ((ssSlot0.view.loc (c : Thread nD τ) ↦[ssSlot0.view.set]{fullShare} SS c) ∗ (ssSlot1.view.loc (c : Thread nD τ) ↦[ssSlot1.view.set]{fullShare} SS c) ∗ (ssSlot2.view.loc (c : Thread nD τ) ↦[ssSlot2.view.set]{fullShare} SS c) ∗ (ssSlot3.view.loc (c : Thread nD τ) ↦[ssSlot3.view.set]{fullShare} SS c))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsS3, ()) (insert (SemLoc.dma rsS2, ()) (insert (SemLoc.dma rsS1, ()) (insert (SemLoc.dma rsS0, ()) W)))))) := by
  have hw0 := mayWait_rsS (F := F) c 0
  have hw1 := mayWait_rsS (F := F) c 1
  have hw2 := mayWait_rsS (F := F) c 2
  have hw3 := mayWait_rsS (F := F) c 3
  iintro ⟨⟨#I0, #I1, #I2, #I3⟩, ⟨P0, P1, P2, P3⟩, ⟨C0, C1, C2, C3⟩, #HL, HO⟩
  sl_exec
  ihave Y0 := (restd_rsS_0 XG SS RS c) $$ P0_pay1
  ihave Y1 := (restd_rsS_1 XG SS RS c) $$ P1_pay1
  ihave Y2 := (restd_rsS_2 XG SS RS c) $$ P2_pay1
  ihave Y3 := (restd_rsS_3 XG SS RS c) $$ P3_pay1
  sl_step
  sl_close

end Cert.KernelIdealProof
end
-- ==== Proof.BodyP45.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_rsS_4 (c : Dev nD) : (sched (F := F) XG SS RS).duties (rsSCell c 4) 0 = {0} := duties_rsS XG SS RS c 4
private theorem amount_rsS_4 (c : Dev nD) (d : DD) : (sched (F := F) XG SS RS).amount (rsSCell c 4) 0 d = Nrs := amount_rsS XG SS RS c 4 d
private theorem expect_rsS_4 (c : Dev nD) : (sched (F := F) XG SS RS).expect (rsSCell c 4) 0 = Nrs := expect_rsS XG SS RS c 4
private theorem restd_rsS_4 (c : Dev nD) : bigSep ((sched (F := F) XG SS RS).duties (rsSCell c 4) 0) (fun d => (sched (F := F) XG SS RS).payload (rsSCell c 4) 0 d) ⊢
    (ssSlot4.view.loc (c : Thread nD τ) ↦[ssSlot4.view.set]{fullShare} SS c) := by
  rw [duties_rsS, bigSep_singleton, payload_rsS_4]
private theorem duties_rsS_5 (c : Dev nD) : (sched (F := F) XG SS RS).duties (rsSCell c 5) 0 = {0} := duties_rsS XG SS RS c 5
private theorem amount_rsS_5 (c : Dev nD) (d : DD) : (sched (F := F) XG SS RS).amount (rsSCell c 5) 0 d = Nrs := amount_rsS XG SS RS c 5 d
private theorem expect_rsS_5 (c : Dev nD) : (sched (F := F) XG SS RS).expect (rsSCell c 5) 0 = Nrs := expect_rsS XG SS RS c 5
private theorem restd_rsS_5 (c : Dev nD) : bigSep ((sched (F := F) XG SS RS).duties (rsSCell c 5) 0) (fun d => (sched (F := F) XG SS RS).payload (rsSCell c 5) 0 d) ⊢
    (ssSlot5.view.loc (c : Thread nD τ) ↦[ssSlot5.view.set]{fullShare} SS c) := by
  rw [duties_rsS, bigSep_singleton, payload_rsS_5]
private theorem duties_rsS_6 (c : Dev nD) : (sched (F := F) XG SS RS).duties (rsSCell c 6) 0 = {0} := duties_rsS XG SS RS c 6
private theorem amount_rsS_6 (c : Dev nD) (d : DD) : (sched (F := F) XG SS RS).amount (rsSCell c 6) 0 d = Nrs := amount_rsS XG SS RS c 6 d
private theorem expect_rsS_6 (c : Dev nD) : (sched (F := F) XG SS RS).expect (rsSCell c 6) 0 = Nrs := expect_rsS XG SS RS c 6
private theorem restd_rsS_6 (c : Dev nD) : bigSep ((sched (F := F) XG SS RS).duties (rsSCell c 6) 0) (fun d => (sched (F := F) XG SS RS).payload (rsSCell c 6) 0 d) ⊢
    (ssSlot6.view.loc (c : Thread nD τ) ↦[ssSlot6.view.set]{fullShare} SS c) := by
  rw [duties_rsS, bigSep_singleton, payload_rsS_6]

end Lit

attribute [local irreducible] fwd
attribute [local sl_rounds] duties_rsS_4 amount_rsS_4 expect_rsS_4 duties_rsS_5 amount_rsS_5 expect_rsS_5 duties_rsS_6 amount_rsS_6 expect_rsS_6

set_option maxHeartbeats 4000000 in
/-- The last three send waits of the partial rows, and the first peer's number for the exit signals. -/
theorem part45_run (c : Dev nD) (W : Waits sig Unit) (v2 : BitVec 32) :
    iprop((cellInv ER (sched XG SS RS) (K (c, 20)) (rsSCell c 4) ∗ cellInv ER (sched XG SS RS) (K (c, 21)) (rsSCell c 5) ∗ cellInv ER (sched XG SS RS) (K (c, 22)) (rsSCell c 6))
        ∗ (atPos ER (rsSCell c 4) 0 ∅ 0 ∗ atPos ER (rsSCell c 5) 0 ∅ 0 ∗ atPos ER (rsSCell c 6) 0 ∅ 0)
        ∗ (cred (tallyAt (rsSCell c 4) () Nrs) ∗ cred (tallyAt (rsSCell c 5) () Nrs) ∗ cred (tallyAt (rsSCell c 6) () Nrs))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part45 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v2)
          (fun r => iprop(⌜r = ⟨Scalar.muli (Scalar.remsi (Scalar.addi v2 1#32) 8#32) 1#32, 0#32⟩⌝ ∗ (atPos ER (rsSCell c 4) 1 ∅ 0 ∗ atPos ER (rsSCell c 5) 1 ∅ 0 ∗ atPos ER (rsSCell c 6) 1 ∅ 0)
            ∗ (reached ER (rsSCell c 4) 1 ∗ reached ER (rsSCell c 5) 1 ∗ reached ER (rsSCell c 6) 1)
            ∗ ((ssSlot4.view.loc (c : Thread nD τ) ↦[ssSlot4.view.set]{fullShare} SS c) ∗ (ssSlot5.view.loc (c : Thread nD τ) ↦[ssSlot5.view.set]{fullShare} SS c) ∗ (ssSlot6.view.loc (c : Thread nD τ) ↦[ssSlot6.view.set]{fullShare} SS c))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsS6, ()) (insert (SemLoc.dma rsS5, ()) (insert (SemLoc.dma rsS4, ()) W))))) := by
  have hw0 := mayWait_rsS (F := F) c 4
  have hw1 := mayWait_rsS (F := F) c 5
  have hw2 := mayWait_rsS (F := F) c 6
  iintro ⟨⟨#I0, #I1, #I2⟩, ⟨P0, P1, P2⟩, ⟨C0, C1, C2⟩, #HL, HO⟩
  sl_exec
  ihave Y0 := (restd_rsS_4 XG SS RS c) $$ P0_pay1
  ihave Y1 := (restd_rsS_5 XG SS RS c) $$ P1_pay1
  ihave Y2 := (restd_rsS_6 XG SS RS c) $$ P2_pay1
  sl_step
  sl_close

end Cert.KernelIdealProof
end
-- ==== Proof.BodyP46.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd
attribute [local sl_rounds] duties_exit amount_exit expect_exit payload_exit

set_option maxHeartbeats 4000000 in
/-- The first six exit signals: one unit to the exit barrier of each of the six devices one to six places after this one. -/
theorem part46_run (c : Dev nD) (W : Waits sig Unit) (v2 v1620_r0 c0_i32_973_r0 : BitVec 32) :
    iprop((cellInv ER (sched XG SS RS) (K (fwd c 1, 1)) (exitCell (fwd c 1)) ∗ cellInv ER (sched XG SS RS) (K (fwd c 2, 1)) (exitCell (fwd c 2)) ∗ cellInv ER (sched XG SS RS) (K (fwd c 3, 1)) (exitCell (fwd c 3)) ∗ cellInv ER (sched XG SS RS) (K (fwd c 4, 1)) (exitCell (fwd c 4)) ∗ cellInv ER (sched XG SS RS) (K (fwd c 5, 1)) (exitCell (fwd c 5)) ∗ cellInv ER (sched XG SS RS) (K (fwd c 6, 1)) (exitCell (fwd c 6)))
        ∗ (reached ER (exitCell (fwd c 1)) 0 ∗ reached ER (exitCell (fwd c 2)) 0 ∗ reached ER (exitCell (fwd c 3)) 0 ∗ reached ER (exitCell (fwd c 4)) 0 ∗ reached ER (exitCell (fwd c 5)) 0 ∗ reached ER (exitCell (fwd c 6)) 0)
        ∗ (dutyTok ER (exitCell (fwd c 1)) 0 1 ∗ dutyTok ER (exitCell (fwd c 2)) 0 2 ∗ dutyTok ER (exitCell (fwd c 3)) 0 3 ∗ dutyTok ER (exitCell (fwd c 4)) 0 4 ∗ dutyTok ER (exitCell (fwd c 5)) 0 5 ∗ dutyTok ER (exitCell (fwd c 6)) 0 6)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part46 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v1620_r0 c0_i32_973_r0)
          (fun r => iprop(⌜r = ⟨Scalar.muli (Scalar.remsi (Scalar.addi v2 7#32) 8#32) 1#32, 0#32⟩⌝
            ∗ owes (c : Thread nD τ) (tallyAt (exitCell (fwd c 7)) () 1) W)) := by
  iintro ⟨⟨#I1, #I2, #I3, #I4, #I5, #I6⟩, ⟨#R1, #R2, #R3, #R4, #R5, #R6⟩, ⟨T1, T2, T3, T4, T5, T6⟩, HO⟩
  sl_exec
  sl_step
  sl_close

end Cert.KernelIdealProof
end
-- ==== Proof.BodyTail.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

/-- The end of the kernel's body after its last part: the seventh exit signal, and the wait for the seven signals of the others. -/
def bodyTail (v1617_r0 : Sems sig S_) (d0 : Dev nD) : Prog (TpuEff nD τ sig (Elt F) Λ₀ .tc) PUnit := do
  semSignalWord (⟨k0_dev28 d0, k0_dev28_lt d0⟩ : Dev nD) v1617_r0.sem 1#32 hamt_1
  semWaitWord v1617_r0.sem 7#32 hamt_7
  pure ⟨⟩

attribute [local irreducible] fwd
attribute [local sl_rounds] duties_exit amount_exit expect_exit payload_exit rest_exit

set_option maxHeartbeats 4000000 in
/-- The seventh exit signal, then the exit barrier's wait, at which the device owes nothing any more. -/
theorem tail_run (c : Dev nD) (W : Waits sig Unit) :
    iprop(cellInv ER (sched XG SS RS) (K (fwd c 7, 1)) (exitCell (fwd c 7)) ∗ reached ER (exitCell (fwd c 7)) 0 ∗ dutyTok ER (exitCell (fwd c 7)) 0 7
        ∗ cellInv ER (sched XG SS RS) (K (c, 1)) (exitCell c) ∗ atPos ER (exitCell c) 0 ∅ 0 ∗ cred (tallyAt (exitCell c) () 7)
        ∗ levAts L lv
        ∗ owes (c : Thread nD τ) (tallyAt (exitCell (fwd c 7)) () 1) W)
      ⊢ wp frame (wpE (defs₀ (F := F)) 𝒱₀ (c : Thread nD τ) none) Set.univ (bodyTail (F := F) cc0_scoped0 c)
          (fun _ => iprop(atPos ER (exitCell c) 1 ∅ 0 ∗ reached ER (exitCell c) 1
            ∗ owes (c : Thread nD τ) 0 (insert (SemLoc.reg exitS, ()) W))) := by
  have hw := mayWait_exit (F := F) c
  iintro ⟨#I7, #R7, T7, #I, P, C, #HL, HO⟩
  unfold bodyTail
  sl_exec
  sl_step
  sl_close

end Cert.KernelIdealProof
end
-- ==== Proof.BodySuffix.lean ====
/-
  The end of the body: the waits for the device's own copies to have been read out, the exit barrier, and the closing
  of the device's own cells.

  The send waits hand back what was lent of the device's slot of the gather buffer and the seven slots of the send
  buffer; the six exit signals and the seventh pay what the device still owes; the exit wait is its last. All its cells
  then stand past their one round and are closed: their twenty-nine semaphores are the kernel's again, at zero.
-/
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.BodyClose
import proofs.«900761_g7700000000000762_dist_attn_self_mha_htp_ss_b2_sq128_skv128_d512_hq8_dh64_v7x_i8_bf16_1_alg».proof.Proof.BodyP42
import proofs.«900761_g7700000000000762_dist_attn_self_mha_htp_ss_b2_sq128_skv128_d512_hq8_dh64_v7x_i8_bf16_1_alg».proof.Proof.BodyP43
import proofs.«900761_g7700000000000762_dist_attn_self_mha_htp_ss_b2_sq128_skv128_d512_hq8_dh64_v7x_i8_bf16_1_alg».proof.Proof.BodyP44
import proofs.«900761_g7700000000000762_dist_attn_self_mha_htp_ss_b2_sq128_skv128_d512_hq8_dh64_v7x_i8_bf16_1_alg».proof.Proof.BodyP45
import proofs.«900761_g7700000000000762_dist_attn_self_mha_htp_ss_b2_sq128_skv128_d512_hq8_dh64_v7x_i8_bf16_1_alg».proof.Proof.BodyP46
import proofs.«900761_g7700000000000762_dist_attn_self_mha_htp_ss_b2_sq128_skv128_d512_hq8_dh64_v7x_i8_bf16_1_alg».proof.Proof.BodyTail

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

/-- The body from its forty-second part on. -/
def bodySuffix (c : Dev nD) (v2 : BitVec 32) : Prog (TpuEff nD τ sig (Elt F) Λ₀ .tc) PUnit := do
  k0_part42 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 c
  k0_part43 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 c
  k0_part44 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0
  let x ← k0_part45 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 v2
  let _ ← k0_part46 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 c v2 x.1 x.2
  bodyTail (F := F) cc0_scoped0 c

/-- What the end of the body starts from: the positions, at round 0, and the credit of the fourteen send cells; the seven
    exit tokens; the exit cell's position and credit; the fourteen receive cells' positions past their round. -/
def suffixPre (c : Dev nD) : sProp 𝕄 :=
  iprop((atPos ER (agSCell c 0) 0 ∅ 0 ∗ atPos ER (agSCell c 1) 0 ∅ 0 ∗ atPos ER (agSCell c 2) 0 ∅ 0 ∗ atPos ER (agSCell c 3) 0 ∅ 0 ∗ atPos ER (agSCell c 4) 0 ∅ 0 ∗ atPos ER (agSCell c 5) 0 ∅ 0 ∗ atPos ER (agSCell c 6) 0 ∅ 0)
    ∗ (cred (tallyAt (agSCell c 0) () Nag) ∗ cred (tallyAt (agSCell c 1) () Nag) ∗ cred (tallyAt (agSCell c 2) () Nag) ∗ cred (tallyAt (agSCell c 3) () Nag) ∗ cred (tallyAt (agSCell c 4) () Nag) ∗ cred (tallyAt (agSCell c 5) () Nag) ∗ cred (tallyAt (agSCell c 6) () Nag))
    ∗ (atPos ER (rsSCell c 0) 0 ∅ 0 ∗ atPos ER (rsSCell c 1) 0 ∅ 0 ∗ atPos ER (rsSCell c 2) 0 ∅ 0 ∗ atPos ER (rsSCell c 3) 0 ∅ 0 ∗ atPos ER (rsSCell c 4) 0 ∅ 0 ∗ atPos ER (rsSCell c 5) 0 ∅ 0 ∗ atPos ER (rsSCell c 6) 0 ∅ 0)
    ∗ (cred (tallyAt (rsSCell c 0) () Nrs) ∗ cred (tallyAt (rsSCell c 1) () Nrs) ∗ cred (tallyAt (rsSCell c 2) () Nrs) ∗ cred (tallyAt (rsSCell c 3) () Nrs) ∗ cred (tallyAt (rsSCell c 4) () Nrs) ∗ cred (tallyAt (rsSCell c 5) () Nrs) ∗ cred (tallyAt (rsSCell c 6) () Nrs))
    ∗ (dutyTok ER (exitCell (fwd c 1)) 0 1 ∗ dutyTok ER (exitCell (fwd c 2)) 0 2 ∗ dutyTok ER (exitCell (fwd c 3)) 0 3 ∗ dutyTok ER (exitCell (fwd c 4)) 0 4 ∗ dutyTok ER (exitCell (fwd c 5)) 0 5 ∗ dutyTok ER (exitCell (fwd c 6)) 0 6 ∗ dutyTok ER (exitCell (fwd c 7)) 0 7)
    ∗ atPos ER (exitCell c) 0 ∅ 0 ∗ cred (tallyAt (exitCell c) () 7)
    ∗ (atPos ER (agRCell c 0) 1 ∅ 0 ∗ atPos ER (agRCell c 1) 1 ∅ 0 ∗ atPos ER (agRCell c 2) 1 ∅ 0 ∗ atPos ER (agRCell c 3) 1 ∅ 0 ∗ atPos ER (agRCell c 4) 1 ∅ 0 ∗ atPos ER (agRCell c 5) 1 ∅ 0 ∗ atPos ER (agRCell c 6) 1 ∅ 0)
    ∗ (atPos ER (rsRCell c 0) 1 ∅ 0 ∗ atPos ER (rsRCell c 1) 1 ∅ 0 ∗ atPos ER (rsRCell c 2) 1 ∅ 0 ∗ atPos ER (rsRCell c 3) 1 ∅ 0 ∗ atPos ER (rsRCell c 4) 1 ∅ 0 ∗ atPos ER (rsRCell c 5) 1 ∅ 0 ∗ atPos ER (rsRCell c 6) 1 ∅ 0))

/-- What it ends with: the kernel's own semaphores at zero, what was lent of the device's own slot of the gather buffer, the
    seven slots of the send buffer. -/
def suffixPost (c : Dev nD) : sProp 𝕄 :=
  iprop(ownZero (F := F) c
    ∗ (((xgSlot c).view.loc (c : Thread nD τ) ↦[(xgSlot c).view.set]{lend 0} XG) ∗ ((xgSlot c).view.loc (c : Thread nD τ) ↦[(xgSlot c).view.set]{lend 1} XG) ∗ ((xgSlot c).view.loc (c : Thread nD τ) ↦[(xgSlot c).view.set]{lend 2} XG) ∗ ((xgSlot c).view.loc (c : Thread nD τ) ↦[(xgSlot c).view.set]{lend 3} XG) ∗ ((xgSlot c).view.loc (c : Thread nD τ) ↦[(xgSlot c).view.set]{lend 4} XG) ∗ ((xgSlot c).view.loc (c : Thread nD τ) ↦[(xgSlot c).view.set]{lend 5} XG) ∗ ((xgSlot c).view.loc (c : Thread nD τ) ↦[(xgSlot c).view.set]{lend 6} XG))
    ∗ ((ssSlot0.view.loc (c : Thread nD τ) ↦[ssSlot0.view.set]{fullShare} SS c) ∗ (ssSlot1.view.loc (c : Thread nD τ) ↦[ssSlot1.view.set]{fullShare} SS c) ∗ (ssSlot2.view.loc (c : Thread nD τ) ↦[ssSlot2.view.set]{fullShare} SS c) ∗ (ssSlot3.view.loc (c : Thread nD τ) ↦[ssSlot3.view.set]{fullShare} SS c) ∗ (ssSlot4.view.loc (c : Thread nD τ) ↦[ssSlot4.view.set]{fullShare} SS c) ∗ (ssSlot5.view.loc (c : Thread nD τ) ↦[ssSlot5.view.set]{fullShare} SS c) ∗ (ssSlot6.view.loc (c : Thread nD τ) ↦[ssSlot6.view.set]{fullShare} SS c)))

/-- Running a part to its post and weakening the post under an update. -/
theorem wp_conseq_fupd {α : Type} (c : Dev nD) {p : Prog (TpuEff nD τ sig (Elt F) Λ₀ .tc) α} {Q Post : α → sProp 𝕄} {P : sProp 𝕄}
    (h : P ⊢ wp frame (wpE (defs₀ (F := F)) 𝒱₀ (c : Thread nD τ) none) Set.univ p Post) :
    iprop(P ∗ (∀ a, Post a -∗ |={Set.univ}=> Q a)) ⊢ wp frame (wpE (defs₀ (F := F)) 𝒱₀ (c : Thread nD τ) none) Set.univ p Q := by
  refine BIBase.Entails.trans ?_ (wp_fupd frame (wpE (defs₀ (F := F)) 𝒱₀ (c : Thread nD τ) none) Set.univ p Q)
  iintro ⟨HP, Hk⟩
  ihave H := h $$ HP
  iapply (wp_wand_r frame (wpE (defs₀ (F := F)) 𝒱₀ (c : Thread nD τ) none) Set.univ)
  isplitl [H]; · iexact H
  iexact Hk

set_option maxHeartbeats 4000000 in
/-- The end of the body, run. -/
theorem suffix_run (c : Dev nD) (W : Waits sig Unit) (v2 : BitVec 32) :
    iprop(invs XG SS RS K c ∗ reacheds c ∗ levAts L lv ∗ suffixPre (F := F) c ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (bodySuffix (F := F) c v2)
          (fun _ => iprop(suffixPost XG SS c ∗ ∃ W', owes (c : Thread nD τ) 0 W')) := by
  unfold suffixPre bodySuffix
  iintro ⟨#HI, #HR, #HL, ⟨⟨PagS0, PagS1, PagS2, PagS3, PagS4, PagS5, PagS6⟩, ⟨CagS0, CagS1, CagS2, CagS3, CagS4, CagS5, CagS6⟩, ⟨PrsS0, PrsS1, PrsS2, PrsS3, PrsS4, PrsS5, PrsS6⟩, ⟨CrsS0, CrsS1, CrsS2, CrsS3, CrsS4, CrsS5, CrsS6⟩, ⟨Te1, Te2, Te3, Te4, Te5, Te6, Te7⟩, Pexit, Cexit, ⟨PagR0, PagR1, PagR2, PagR3, PagR4, PagR5, PagR6⟩, ⟨PrsR0, PrsR1, PrsR2, PrsR3, PrsR4, PrsR5, PrsR6⟩⟩, HO⟩
  -- part 42: the first four send waits of the gather
  iapply (wp_seq c (part42_run XG SS RS K c (W)))
  isplitl [PagS0 PagS1 PagS2 PagS3 CagS0 CagS1 CagS2 CagS3 HO]
  ·
    isplitr
    ·
      isplitr; · iapply (invs_nth XG SS RS K c 2 (by decide)); iexact HI
      isplitr; · iapply (invs_nth XG SS RS K c 3 (by decide)); iexact HI
      isplitr; · iapply (invs_nth XG SS RS K c 4 (by decide)); iexact HI
      iapply (invs_nth XG SS RS K c 5 (by decide)); iexact HI
    isplitl [PagS0 PagS1 PagS2 PagS3]
    ·
      isplitl [PagS0]; · iexact PagS0
      isplitl [PagS1]; · iexact PagS1
      isplitl [PagS2]; · iexact PagS2
      iexact PagS3
    isplitl [CagS0 CagS1 CagS2 CagS3]
    ·
      isplitl [CagS0]; · iexact CagS0
      isplitl [CagS1]; · iexact CagS1
      isplitl [CagS2]; · iexact CagS2
      iexact CagS3
    isplitr; · iexact HL
    iexact HO
  iintro %u42 ⟨⟨QagS0, QagS1, QagS2, QagS3⟩, -, ⟨Lx0, Lx1, Lx2, Lx3⟩, HO⟩
  -- part 43: the last three
  iapply (wp_seq c (part43_run XG SS RS K c (insert (SemLoc.dma agS3, ()) (insert (SemLoc.dma agS2, ()) (insert (SemLoc.dma agS1, ()) (insert (SemLoc.dma agS0, ()) (W)))))))
  isplitl [PagS4 PagS5 PagS6 CagS4 CagS5 CagS6 HO]
  ·
    isplitr
    ·
      isplitr; · iapply (invs_nth XG SS RS K c 6 (by decide)); iexact HI
      isplitr; · iapply (invs_nth XG SS RS K c 7 (by decide)); iexact HI
      iapply (invs_nth XG SS RS K c 8 (by decide)); iexact HI
    isplitl [PagS4 PagS5 PagS6]
    ·
      isplitl [PagS4]; · iexact PagS4
      isplitl [PagS5]; · iexact PagS5
      iexact PagS6
    isplitl [CagS4 CagS5 CagS6]
    ·
      isplitl [CagS4]; · iexact CagS4
      isplitl [CagS5]; · iexact CagS5
      iexact CagS6
    isplitr; · iexact HL
    iexact HO
  iintro %u43 ⟨⟨QagS4, QagS5, QagS6⟩, -, ⟨Lx4, Lx5, Lx6⟩, HO⟩
  -- part 44: the first four send waits of the partial rows
  iapply (wp_seq c (part44_run XG SS RS K c (insert (SemLoc.dma agS6, ()) (insert (SemLoc.dma agS5, ()) (insert (SemLoc.dma agS4, ()) (insert (SemLoc.dma agS3, ()) (insert (SemLoc.dma agS2, ()) (insert (SemLoc.dma agS1, ()) (insert (SemLoc.dma agS0, ()) (W))))))))))
  isplitl [PrsS0 PrsS1 PrsS2 PrsS3 CrsS0 CrsS1 CrsS2 CrsS3 HO]
  ·
    isplitr
    ·
      isplitr; · iapply (invs_nth XG SS RS K c 16 (by decide)); iexact HI
      isplitr; · iapply (invs_nth XG SS RS K c 17 (by decide)); iexact HI
      isplitr; · iapply (invs_nth XG SS RS K c 18 (by decide)); iexact HI
      iapply (invs_nth XG SS RS K c 19 (by decide)); iexact HI
    isplitl [PrsS0 PrsS1 PrsS2 PrsS3]
    ·
      isplitl [PrsS0]; · iexact PrsS0
      isplitl [PrsS1]; · iexact PrsS1
      isplitl [PrsS2]; · iexact PrsS2
      iexact PrsS3
    isplitl [CrsS0 CrsS1 CrsS2 CrsS3]
    ·
      isplitl [CrsS0]; · iexact CrsS0
      isplitl [CrsS1]; · iexact CrsS1
      isplitl [CrsS2]; · iexact CrsS2
      iexact CrsS3
    isplitr; · iexact HL
    iexact HO
  iintro %u44 ⟨⟨QrsS0, QrsS1, QrsS2, QrsS3⟩, -, ⟨Ls0, Ls1, Ls2, Ls3⟩, HO⟩
  -- part 45: the last three
  iapply (wp_seq c (part45_run XG SS RS K c (insert (SemLoc.dma rsS3, ()) (insert (SemLoc.dma rsS2, ()) (insert (SemLoc.dma rsS1, ()) (insert (SemLoc.dma rsS0, ()) (insert (SemLoc.dma agS6, ()) (insert (SemLoc.dma agS5, ()) (insert (SemLoc.dma agS4, ()) (insert (SemLoc.dma agS3, ()) (insert (SemLoc.dma agS2, ()) (insert (SemLoc.dma agS1, ()) (insert (SemLoc.dma agS0, ()) (W)))))))))))) v2))
  isplitl [PrsS4 PrsS5 PrsS6 CrsS4 CrsS5 CrsS6 HO]
  ·
    isplitr
    ·
      isplitr; · iapply (invs_nth XG SS RS K c 20 (by decide)); iexact HI
      isplitr; · iapply (invs_nth XG SS RS K c 21 (by decide)); iexact HI
      iapply (invs_nth XG SS RS K c 22 (by decide)); iexact HI
    isplitl [PrsS4 PrsS5 PrsS6]
    ·
      isplitl [PrsS4]; · iexact PrsS4
      isplitl [PrsS5]; · iexact PrsS5
      iexact PrsS6
    isplitl [CrsS4 CrsS5 CrsS6]
    ·
      isplitl [CrsS4]; · iexact CrsS4
      isplitl [CrsS5]; · iexact CrsS5
      iexact CrsS6
    isplitr; · iexact HL
    iexact HO
  iintro %r45 ⟨%hr45, ⟨QrsS4, QrsS5, QrsS6⟩, -, ⟨Ls4, Ls5, Ls6⟩, HO⟩
  subst hr45
  -- part 46: the first six exit signals
  iapply (wp_seq c (part46_run XG SS RS K c (insert (SemLoc.dma rsS6, ()) (insert (SemLoc.dma rsS5, ()) (insert (SemLoc.dma rsS4, ()) (insert (SemLoc.dma rsS3, ()) (insert (SemLoc.dma rsS2, ()) (insert (SemLoc.dma rsS1, ()) (insert (SemLoc.dma rsS0, ()) (insert (SemLoc.dma agS6, ()) (insert (SemLoc.dma agS5, ()) (insert (SemLoc.dma agS4, ()) (insert (SemLoc.dma agS3, ()) (insert (SemLoc.dma agS2, ()) (insert (SemLoc.dma agS1, ()) (insert (SemLoc.dma agS0, ()) (W))))))))))))))) v2 _ _))
  isplitl [Te1 Te2 Te3 Te4 Te5 Te6 HO]
  ·
    isplitr
    ·
      isplitr; · iapply (invs_nth XG SS RS K c 51 (by decide)); iexact HI
      isplitr; · iapply (invs_nth XG SS RS K c 52 (by decide)); iexact HI
      isplitr; · iapply (invs_nth XG SS RS K c 53 (by decide)); iexact HI
      isplitr; · iapply (invs_nth XG SS RS K c 54 (by decide)); iexact HI
      isplitr; · iapply (invs_nth XG SS RS K c 55 (by decide)); iexact HI
      iapply (invs_nth XG SS RS K c 56 (by decide)); iexact HI
    isplitr
    ·
      isplitr; · iapply (reacheds_nth (F := F) c 51 (by decide)); iexact HR
      isplitr; · iapply (reacheds_nth (F := F) c 52 (by decide)); iexact HR
      isplitr; · iapply (reacheds_nth (F := F) c 53 (by decide)); iexact HR
      isplitr; · iapply (reacheds_nth (F := F) c 54 (by decide)); iexact HR
      isplitr; · iapply (reacheds_nth (F := F) c 55 (by decide)); iexact HR
      iapply (reacheds_nth (F := F) c 56 (by decide)); iexact HR
    isplitl [Te1 Te2 Te3 Te4 Te5 Te6]
    ·
      isplitl [Te1]; · iexact Te1
      isplitl [Te2]; · iexact Te2
      isplitl [Te3]; · iexact Te3
      isplitl [Te4]; · iexact Te4
      isplitl [Te5]; · iexact Te5
      iexact Te6
    iexact HO
  iintro %r46 ⟨-, HO⟩
  -- the seventh exit signal and the exit wait; then every own cell is closed
  iapply (wp_conseq_fupd c (tail_run XG SS RS K c (insert (SemLoc.dma rsS6, ()) (insert (SemLoc.dma rsS5, ()) (insert (SemLoc.dma rsS4, ()) (insert (SemLoc.dma rsS3, ()) (insert (SemLoc.dma rsS2, ()) (insert (SemLoc.dma rsS1, ()) (insert (SemLoc.dma rsS0, ()) (insert (SemLoc.dma agS6, ()) (insert (SemLoc.dma agS5, ()) (insert (SemLoc.dma agS4, ()) (insert (SemLoc.dma agS3, ()) (insert (SemLoc.dma agS2, ()) (insert (SemLoc.dma agS1, ()) (insert (SemLoc.dma agS0, ()) (W)))))))))))))))))
  isplitl [Te7 Pexit Cexit HO]
  ·
    isplitr; · iapply (invs_nth XG SS RS K c 57 (by decide)); iexact HI
    isplitr; · iapply (reacheds_nth (F := F) c 57 (by decide)); iexact HR
    isplitl [Te7]; · iexact Te7
    isplitr; · iapply (invs_nth XG SS RS K c 1 (by decide)); iexact HI
    isplitl [Pexit]; · iexact Pexit
    isplitl [Cexit]; · iexact Cexit
    isplitr; · iexact HL
    iexact HO
  iintro %u ⟨Qexit, -, HO⟩
  imod (closeAll_of_invs XG SS RS K c) $$ [Qexit QagS0 QagS1 QagS2 QagS3 QagS4 QagS5 QagS6 PagR0 PagR1 PagR2 PagR3 PagR4 PagR5 PagR6 QrsS0 QrsS1 QrsS2 QrsS3 QrsS4 QrsS5 QrsS6 PrsR0 PrsR1 PrsR2 PrsR3 PrsR4 PrsR5 PrsR6] with Hz
  ·
    isplitr; · iexact HI
    unfold positionsDone
    isplitl [Qexit]; · iexact Qexit
    isplitl [QagS0]; · iexact QagS0
    isplitl [QagS1]; · iexact QagS1
    isplitl [QagS2]; · iexact QagS2
    isplitl [QagS3]; · iexact QagS3
    isplitl [QagS4]; · iexact QagS4
    isplitl [QagS5]; · iexact QagS5
    isplitl [QagS6]; · iexact QagS6
    isplitl [PagR0]; · iexact PagR0
    isplitl [PagR1]; · iexact PagR1
    isplitl [PagR2]; · iexact PagR2
    isplitl [PagR3]; · iexact PagR3
    isplitl [PagR4]; · iexact PagR4
    isplitl [PagR5]; · iexact PagR5
    isplitl [PagR6]; · iexact PagR6
    isplitl [QrsS0]; · iexact QrsS0
    isplitl [QrsS1]; · iexact QrsS1
    isplitl [QrsS2]; · iexact QrsS2
    isplitl [QrsS3]; · iexact QrsS3
    isplitl [QrsS4]; · iexact QrsS4
    isplitl [QrsS5]; · iexact QrsS5
    isplitl [QrsS6]; · iexact QrsS6
    isplitl [PrsR0]; · iexact PrsR0
    isplitl [PrsR1]; · iexact PrsR1
    isplitl [PrsR2]; · iexact PrsR2
    isplitl [PrsR3]; · iexact PrsR3
    isplitl [PrsR4]; · iexact PrsR4
    isplitl [PrsR5]; · iexact PrsR5
    iexact PrsR6
  imodintro
  unfold suffixPost
  isplitr [HO]
  ·
    isplitl [Hz]; · iexact Hz
    isplitl [Lx0 Lx1 Lx2 Lx3 Lx4 Lx5 Lx6]
    ·
      isplitl [Lx0]; · iexact Lx0
      isplitl [Lx1]; · iexact Lx1
      isplitl [Lx2]; · iexact Lx2
      isplitl [Lx3]; · iexact Lx3
      isplitl [Lx4]; · iexact Lx4
      isplitl [Lx5]; · iexact Lx5
      iexact Lx6
    isplitl [Ls0]; · iexact Ls0
    isplitl [Ls1]; · iexact Ls1
    isplitl [Ls2]; · iexact Ls2
    isplitl [Ls3]; · iexact Ls3
    isplitl [Ls4]; · iexact Ls4
    isplitl [Ls5]; · iexact Ls5
    iexact Ls6
  iexists _; iexact HO

/-- info: 'Cert.KernelIdealProof.suffix_run' depends on axioms: [propext, Classical.choice, Quot.sound] -/
#guard_msgs in #print axioms suffix_run

end Cert.KernelIdealProof

end
-- ==== Proof.Slots.lean ====
/-
  The three slotted scratch buffers cut into their slots.

  The gather buffer xg has shape [8,2,128,512]; its slot `s` is the rectangle of leading coordinate `s`, read at
  shape [2,128,512]. The buffers ss and rs have shape [7,2,128,512] and seven such slots. A slot's elements are those of
  its rectangle (dropping the unit axis re-indexes the same elements); rectangles of different leading coordinate are
  disjoint, and every element lies in the rectangle of its own leading coordinate. So a buffer's points-to is the
  separating conjunction of its slots' points-to, at the same contents and share.
-/
import proofs.«900761_g7700000000000762_dist_attn_self_mha_htp_ss_b2_sq128_skv128_d512_hq8_dh64_v7x_i8_bf16_1_alg».proof.Proof.Proto

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## A slot's buffer and elements -/

omit [FloatOps F] in
theorem xgSlot_loc (c s : Dev nD) : (xgSlot s).view.loc (c : Thread nD τ) = (c : Thread nD τ).loc cc0_scratch0 := rfl

/-- The rectangle of leading coordinate `k` in a shape [n,2,128,512]. -/
abbrev lead8 (k : ℕ) (h : ∀ a, (![k, 0, 0, 0] : Fin 4 → ℕ) a + S1x2x128x512.size a ≤ S8x2x128x512.size a) : Rect S8x2x128x512 :=
  Rect.unit (s := S8x2x128x512) ![k, 0, 0, 0] S1x2x128x512.size h
abbrev lead7 (k : ℕ) (h : ∀ a, (![k, 0, 0, 0] : Fin 4 → ℕ) a + S1x2x128x512.size a ≤ S7x2x128x512.size a) : Rect S7x2x128x512 :=
  Rect.unit (s := S7x2x128x512) ![k, 0, 0, 0] S1x2x128x512.size h

/-- Membership in the rectangle of leading coordinate `k`: the leading coordinate is `k`. -/
theorem mem_lead8 {k : ℕ} {h} {i : S8x2x128x512.Idx} : i ∈ (lead8 k h).set ↔ (i 0).val = k := by
  rw [Rect.mem_set_unit]
  constructor
  · intro H; have := H 0; simp at this; omega
  · intro e a
    have ha := (i a).isLt
    fin_cases a <;> simp at ha ⊢ <;> omega

theorem mem_lead7 {k : ℕ} {h} {i : S7x2x128x512.Idx} : i ∈ (lead7 k h).set ↔ (i 0).val = k := by
  rw [Rect.mem_set_unit]
  constructor
  · intro H; have := H 0; simp at this; omega
  · intro e a
    have ha := (i a).isLt
    fin_cases a <;> simp at ha ⊢ <;> omega

theorem xgSlot_inb (s : Dev nD) : ∀ a, (![s.val, 0, 0, 0] : Fin 4 → ℕ) a + S1x2x128x512.size a ≤ S8x2x128x512.size a := by
  rw [← k0_off2_eq s]; exact k0_off2_inb s

/-- The elements of slot `s` of xg: leading coordinate `s`. -/
theorem xgSlot_set (s : Dev nD) : (xgSlot s).view.set = (lead8 s.val (xgSlot_inb s)).set := by
  rw [Memref.set_view_squeeze]
  refine (View.set_slice_whole _ _).trans ?_
  ext i
  rw [Rect.mem_set_unit, Rect.mem_set_unit, k0_off2_eq]; exact Iff.rfl

theorem mem_xgSlot_set (s : Dev nD) (i : S8x2x128x512.Idx) : i ∈ (xgSlot s).view.set ↔ (i 0).val = s.val := by
  rw [xgSlot_set]; exact mem_lead8

/-! ## The gather buffer as its eight slots -/

/-- xg at contents `f` is its eight slots at `f`. -/
theorem xg_cut (c : Dev nD) (q : PosShare TreeShare) (f : Buf (Elt F) ((c : Thread nD τ).loc cc0_scratch0)) :
    (((c : Thread nD τ).loc cc0_scratch0) ↦{q} f : sProp 𝕄)
      = BI.bigSep Finset.univ fun s : Dev nD => ((xgSlot s).view.loc (c : Thread nD τ) ↦[(xgSlot s).view.set]{q} f) := by
  have hcov : (Finset.univ : Finset (Idx ((c : Thread nD τ).loc cc0_scratch0)))
      = (Finset.univ : Finset (Dev nD)).biUnion fun s => (xgSlot s).view.set := by
    ext i
    simp only [Finset.mem_univ, Finset.mem_biUnion, true_and, true_iff]
    exact ⟨⟨(i 0).val, (i 0).isLt⟩, (mem_xgSlot_set _ i).mpr rfl⟩
  show (((c : Thread nD τ).loc cc0_scratch0) ↦[Finset.univ]{q} f : sProp 𝕄) = _
  rw [hcov]
  exact pointsTo_biUnion _ _ fun s _ s' _ hss => Finset.disjoint_left.mpr fun i hi hi' =>
    hss (Fin.ext (((mem_xgSlot_set s i).mp hi).symm.trans ((mem_xgSlot_set s' i).mp hi')))

/-- The devices in ring order from `c`. -/
def fwdEquiv (c : Dev nD) : Fin 8 ≃ Dev nD where
  toFun j := fwd c j.val
  invFun s := ⟨(s.val + 8 - c.val) % 8, Nat.mod_lt _ (by decide)⟩
  left_inv j := by
    apply Fin.ext
    show ((c.val + j.val) % 8 + 8 - c.val) % 8 = j.val
    have hc : c.val < 8 := c.isLt
    have hj : j.val < 8 := j.isLt
    omega
  right_inv s := by
    apply Fin.ext
    show (c.val + (s.val + 8 - c.val) % 8) % 8 = s.val
    have hc : c.val < 8 := c.isLt
    have hs : s.val < 8 := s.isLt
    omega

omit [FloatOps F] in
/-- A conjunction over `Fin 8`, written out. -/
theorem bigSep_fin_eight (Φ : Fin 8 → sProp 𝕄) :
    BI.bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} from by decide,
    bigSep_insert (by decide), bigSep_insert (by decide), bigSep_insert (by decide), bigSep_insert (by decide),
    bigSep_insert (by decide), bigSep_insert (by decide), bigSep_insert (by decide), bigSep_singleton]
  rfl

/-- xg as its slots in ring order from `c`. -/
theorem xg_cut_ring (c : Dev nD) (q : PosShare TreeShare) (f : Buf (Elt F) ((c : Thread nD τ).loc cc0_scratch0)) :
    (((c : Thread nD τ).loc cc0_scratch0) ↦{q} f : sProp 𝕄)
      = iprop(((xgSlot (fwd c 0)).view.loc (c : Thread nD τ) ↦[(xgSlot (fwd c 0)).view.set]{q} f)
          ∗ ((xgSlot (fwd c 1)).view.loc (c : Thread nD τ) ↦[(xgSlot (fwd c 1)).view.set]{q} f)
          ∗ ((xgSlot (fwd c 2)).view.loc (c : Thread nD τ) ↦[(xgSlot (fwd c 2)).view.set]{q} f)
          ∗ ((xgSlot (fwd c 3)).view.loc (c : Thread nD τ) ↦[(xgSlot (fwd c 3)).view.set]{q} f)
          ∗ ((xgSlot (fwd c 4)).view.loc (c : Thread nD τ) ↦[(xgSlot (fwd c 4)).view.set]{q} f)
          ∗ ((xgSlot (fwd c 5)).view.loc (c : Thread nD τ) ↦[(xgSlot (fwd c 5)).view.set]{q} f)
          ∗ ((xgSlot (fwd c 6)).view.loc (c : Thread nD τ) ↦[(xgSlot (fwd c 6)).view.set]{q} f)
          ∗ ((xgSlot (fwd c 7)).view.loc (c : Thread nD τ) ↦[(xgSlot (fwd c 7)).view.set]{q} f)) := by
  rw [xg_cut c q f, BI.bigSep_univ_equiv (fwdEquiv c), bigSep_fin_eight]
  rfl

/-- The same, the first slot named as `c`'s own. -/
theorem xg_cut_ring' (c : Dev nD) (q : PosShare TreeShare) (f : Buf (Elt F) ((c : Thread nD τ).loc cc0_scratch0)) :
    (((c : Thread nD τ).loc cc0_scratch0) ↦{q} f : sProp 𝕄)
      = iprop(((xgSlot c).view.loc (c : Thread nD τ) ↦[(xgSlot c).view.set]{q} f)
          ∗ ((xgSlot (fwd c 1)).view.loc (c : Thread nD τ) ↦[(xgSlot (fwd c 1)).view.set]{q} f)
          ∗ ((xgSlot (fwd c 2)).view.loc (c : Thread nD τ) ↦[(xgSlot (fwd c 2)).view.set]{q} f)
          ∗ ((xgSlot (fwd c 3)).view.loc (c : Thread nD τ) ↦[(xgSlot (fwd c 3)).view.set]{q} f)
          ∗ ((xgSlot (fwd c 4)).view.loc (c : Thread nD τ) ↦[(xgSlot (fwd c 4)).view.set]{q} f)
          ∗ ((xgSlot (fwd c 5)).view.loc (c : Thread nD τ) ↦[(xgSlot (fwd c 5)).view.set]{q} f)
          ∗ ((xgSlot (fwd c 6)).view.loc (c : Thread nD τ) ↦[(xgSlot (fwd c 6)).view.set]{q} f)
          ∗ ((xgSlot (fwd c 7)).view.loc (c : Thread nD τ) ↦[(xgSlot (fwd c 7)).view.set]{q} f)) := by
  have h := xg_cut_ring c q f
  rw [fwd_zero] at h
  exact h

/-! ## Shapes [7,2,128,512]: the seven rectangles by leading coordinate -/

theorem lead7F_inb : ∀ k : Fin 7, ∀ a, (![k.val, 0, 0, 0] : Fin 4 → ℕ) a + S1x2x128x512.size a ≤ S7x2x128x512.size a := by decide

/-- The rectangle of leading coordinate `k`, for `k` below 7. -/
abbrev lead7F (k : Fin 7) : Rect S7x2x128x512 := lead7 k.val (lead7F_inb k)

theorem lead7F_disjoint {k k' : Fin 7} (h : k ≠ k') : Disjoint (lead7F k).set (lead7F k').set :=
  Finset.disjoint_left.mpr fun i hi hi' => h (Fin.ext ((mem_lead7.mp hi).symm.trans (mem_lead7.mp hi')))

theorem univ_eq_biUnion_lead7F :
    (Finset.univ : Finset S7x2x128x512.Idx) = (Finset.univ : Finset (Fin 7)).biUnion fun k => (lead7F k).set := by
  ext i
  simp only [Finset.mem_univ, Finset.mem_biUnion, true_and, true_iff]
  exact ⟨⟨(i 0).val, (i 0).isLt⟩, mem_lead7.mpr rfl⟩

omit [FloatOps F] in
/-- A conjunction over `Fin 7`, written out. -/
theorem bigSep_fin_seven (Φ : Fin 7 → sProp 𝕄) :
    BI.bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} from by decide,
    bigSep_insert (by decide), bigSep_insert (by decide), bigSep_insert (by decide), bigSep_insert (by decide),
    bigSep_insert (by decide), bigSep_insert (by decide), bigSep_singleton]
  rfl

/-! ## The buffer rs as its seven slots -/

theorem rsSlot0_set : rsSlot0.view.set = (lead7 0 inb_S7x2x128x512_S1x2x128x512_0_0_0_0).set := by
  rw [Memref.set_view_squeeze]; exact View.set_slice_whole _ _

theorem rsSlot1_set : rsSlot1.view.set = (lead7 1 inb_S7x2x128x512_S1x2x128x512_1_0_0_0).set := by
  rw [Memref.set_view_squeeze]; exact View.set_slice_whole _ _

theorem rsSlot2_set : rsSlot2.view.set = (lead7 2 inb_S7x2x128x512_S1x2x128x512_2_0_0_0).set := by
  rw [Memref.set_view_squeeze]; exact View.set_slice_whole _ _

theorem rsSlot3_set : rsSlot3.view.set = (lead7 3 inb_S7x2x128x512_S1x2x128x512_3_0_0_0).set := by
  rw [Memref.set_view_squeeze]; exact View.set_slice_whole _ _

theorem rsSlot4_set : rsSlot4.view.set = (lead7 4 inb_S7x2x128x512_S1x2x128x512_4_0_0_0).set := by
  rw [Memref.set_view_squeeze]; exact View.set_slice_whole _ _

theorem rsSlot5_set : rsSlot5.view.set = (lead7 5 inb_S7x2x128x512_S1x2x128x512_5_0_0_0).set := by
  rw [Memref.set_view_squeeze]; exact View.set_slice_whole _ _

theorem rsSlot6_set : rsSlot6.view.set = (lead7 6 inb_S7x2x128x512_S1x2x128x512_6_0_0_0).set := by
  rw [Memref.set_view_squeeze]; exact View.set_slice_whole _ _

/-- rs at contents `f` is its seven slots at `f`. -/
theorem rs_cut (c : Dev nD) (q : PosShare TreeShare) (f : Buf (Elt F) ((c : Thread nD τ).loc cc0_scratch5)) :
    (((c : Thread nD τ).loc cc0_scratch5) ↦{q} f : sProp 𝕄)
      = iprop((rsSlot0.view.loc (c : Thread nD τ) ↦[rsSlot0.view.set]{q} f)
          ∗ (rsSlot1.view.loc (c : Thread nD τ) ↦[rsSlot1.view.set]{q} f)
          ∗ (rsSlot2.view.loc (c : Thread nD τ) ↦[rsSlot2.view.set]{q} f)
          ∗ (rsSlot3.view.loc (c : Thread nD τ) ↦[rsSlot3.view.set]{q} f)
          ∗ (rsSlot4.view.loc (c : Thread nD τ) ↦[rsSlot4.view.set]{q} f)
          ∗ (rsSlot5.view.loc (c : Thread nD τ) ↦[rsSlot5.view.set]{q} f)
          ∗ (rsSlot6.view.loc (c : Thread nD τ) ↦[rsSlot6.view.set]{q} f)) := by
  show (((c : Thread nD τ).loc cc0_scratch5) ↦[Finset.univ]{q} f : sProp 𝕄) = _
  rw [show (Finset.univ : Finset (Idx ((c : Thread nD τ).loc cc0_scratch5))) = (Finset.univ : Finset (Fin 7)).biUnion fun k => (lead7F k).set from univ_eq_biUnion_lead7F,
    pointsTo_biUnion _ _ (fun k _ k' _ h => lead7F_disjoint h), bigSep_fin_seven,
    rsSlot0_set, rsSlot1_set, rsSlot2_set, rsSlot3_set, rsSlot4_set, rsSlot5_set, rsSlot6_set]
  rfl

/-! ## The buffer ss as its seven slots -/

theorem ssSlot0_set : ssSlot0.view.set = (lead7 0 inb_S7x2x128x512_S1x2x128x512_0_0_0_0).set := by
  rw [Memref.set_view_squeeze]; exact View.set_slice_whole _ _

theorem ssSlot1_set : ssSlot1.view.set = (lead7 1 inb_S7x2x128x512_S1x2x128x512_1_0_0_0).set := by
  rw [Memref.set_view_squeeze]; exact View.set_slice_whole _ _

theorem ssSlot2_set : ssSlot2.view.set = (lead7 2 inb_S7x2x128x512_S1x2x128x512_2_0_0_0).set := by
  rw [Memref.set_view_squeeze]; exact View.set_slice_whole _ _

theorem ssSlot3_set : ssSlot3.view.set = (lead7 3 inb_S7x2x128x512_S1x2x128x512_3_0_0_0).set := by
  rw [Memref.set_view_squeeze]; exact View.set_slice_whole _ _

theorem ssSlot4_set : ssSlot4.view.set = (lead7 4 inb_S7x2x128x512_S1x2x128x512_4_0_0_0).set := by
  rw [Memref.set_view_squeeze]; exact View.set_slice_whole _ _

theorem ssSlot5_set : ssSlot5.view.set = (lead7 5 inb_S7x2x128x512_S1x2x128x512_5_0_0_0).set := by
  rw [Memref.set_view_squeeze]; exact View.set_slice_whole _ _

theorem ssSlot6_set : ssSlot6.view.set = (lead7 6 inb_S7x2x128x512_S1x2x128x512_6_0_0_0).set := by
  rw [Memref.set_view_squeeze]; exact View.set_slice_whole _ _

/-- ss at contents `f` is its seven slots at `f`. -/
theorem ss_cut (c : Dev nD) (q : PosShare TreeShare) (f : Buf (Elt F) ((c : Thread nD τ).loc cc0_scratch4)) :
    (((c : Thread nD τ).loc cc0_scratch4) ↦{q} f : sProp 𝕄)
      = iprop((ssSlot0.view.loc (c : Thread nD τ) ↦[ssSlot0.view.set]{q} f)
          ∗ (ssSlot1.view.loc (c : Thread nD τ) ↦[ssSlot1.view.set]{q} f)
          ∗ (ssSlot2.view.loc (c : Thread nD τ) ↦[ssSlot2.view.set]{q} f)
          ∗ (ssSlot3.view.loc (c : Thread nD τ) ↦[ssSlot3.view.set]{q} f)
          ∗ (ssSlot4.view.loc (c : Thread nD τ) ↦[ssSlot4.view.set]{q} f)
          ∗ (ssSlot5.view.loc (c : Thread nD τ) ↦[ssSlot5.view.set]{q} f)
          ∗ (ssSlot6.view.loc (c : Thread nD τ) ↦[ssSlot6.view.set]{q} f)) := by
  show (((c : Thread nD τ).loc cc0_scratch4) ↦[Finset.univ]{q} f : sProp 𝕄) = _
  rw [show (Finset.univ : Finset (Idx ((c : Thread nD τ).loc cc0_scratch4))) = (Finset.univ : Finset (Fin 7)).biUnion fun k => (lead7F k).set from univ_eq_biUnion_lead7F,
    pointsTo_biUnion _ _ (fun k _ k' _ h => lead7F_disjoint h), bigSep_fin_seven,
    ssSlot0_set, ssSlot1_set, ssSlot2_set, ssSlot3_set, ssSlot4_set, ssSlot5_set, ssSlot6_set]
  rfl

end Cert.KernelIdealProof
end
-- ==== Proof.Slots2.lean ====
/-
  The own slot of the gather buffer lent out in seven shares, and the gather's tables as the payer of a copy reads them.

  The full share of a region splits into its left half and its right half; splitting the right half again and again
  gives the seven shares lent to the seven copies of the device's own block and the eighth part kept for its own loads.
  Device `c`'s copy number `j` lands in slot `c` of the device `j` places after it, on that device's receive cell
  `j - 1`, whose payload is that slot at the gathered contents: the device `8 - j` places after that one is `c` again.
-/
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.Tables

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lending -/

omit [FloatOps F] in
/-- A region at share `q` is the region at the two halves of `q`. -/
theorem pointsTo_halves {ℓ : Loc nD τ sig} (S : Finset (Idx ℓ)) (q : PosShare TreeShare) (f : Buf (Elt F) ℓ) :
    (ℓ ↦[S]{q} f : sProp 𝕄) = iprop((ℓ ↦[S]{q.left} f) ∗ ℓ ↦[S]{q.right} f) :=
  have h : (ℓ ↦[S]{q} f : sProp 𝕄) ⊣⊢ iprop((ℓ ↦[S]{q.left} f) ∗ ℓ ↦[S]{q.right} f) :=
    pointsTo_share (PosShare.mem_left_op_right q)
  BI.equiv_iff.mp ⟨h.1, h.2⟩

omit [FloatOps F] in
/-- A region at the full share is the region at the seven lent shares and the kept one. -/
theorem pointsTo_lend {ℓ : Loc nD τ sig} (S : Finset (Idx ℓ)) (f : Buf (Elt F) ℓ) :
    (ℓ ↦[S]{fullShare} f : sProp 𝕄)
      = iprop((ℓ ↦[S]{lend 0} f) ∗ (ℓ ↦[S]{lend 1} f) ∗ (ℓ ↦[S]{lend 2} f) ∗ (ℓ ↦[S]{lend 3} f)
          ∗ (ℓ ↦[S]{lend 4} f) ∗ (ℓ ↦[S]{lend 5} f) ∗ (ℓ ↦[S]{lend 6} f) ∗ (ℓ ↦[S]{kept} f)) := by
  rw [pointsTo_halves S fullShare, pointsTo_halves S fullShare.right, pointsTo_halves S fullShare.right.right,
    pointsTo_halves S fullShare.right.right.right, pointsTo_halves S fullShare.right.right.right.right,
    pointsTo_halves S fullShare.right.right.right.right.right,
    pointsTo_halves S fullShare.right.right.right.right.right.right]
  rfl

omit [FloatOps F] in
/-- Device `c`'s own slot of xg, lent out. -/
theorem own_lend (c : Dev nD) (f : Buf (Elt F) ((xgSlot c).view.loc (c : Thread nD τ))) :
    ((xgSlot c).view.loc (c : Thread nD τ) ↦[(xgSlot c).view.set]{fullShare} f : sProp 𝕄)
      = iprop(((xgSlot c).view.loc (c : Thread nD τ) ↦[(xgSlot c).view.set]{lend 0} f)
          ∗ ((xgSlot c).view.loc (c : Thread nD τ) ↦[(xgSlot c).view.set]{lend 1} f)
          ∗ ((xgSlot c).view.loc (c : Thread nD τ) ↦[(xgSlot c).view.set]{lend 2} f)
          ∗ ((xgSlot c).view.loc (c : Thread nD τ) ↦[(xgSlot c).view.set]{lend 3} f)
          ∗ ((xgSlot c).view.loc (c : Thread nD τ) ↦[(xgSlot c).view.set]{lend 4} f)
          ∗ ((xgSlot c).view.loc (c : Thread nD τ) ↦[(xgSlot c).view.set]{lend 5} f)
          ∗ ((xgSlot c).view.loc (c : Thread nD τ) ↦[(xgSlot c).view.set]{lend 6} f)
          ∗ ((xgSlot c).view.loc (c : Thread nD τ) ↦[(xgSlot c).view.set]{kept} f)) :=
  pointsTo_lend _ f

omit [FloatOps F] in
/-- and taken back. -/
theorem own_unlend (c : Dev nD) (f : Buf (Elt F) ((xgSlot c).view.loc (c : Thread nD τ))) :
    (iprop(((xgSlot c).view.loc (c : Thread nD τ) ↦[(xgSlot c).view.set]{lend 0} f)
          ∗ ((xgSlot c).view.loc (c : Thread nD τ) ↦[(xgSlot c).view.set]{lend 1} f)
          ∗ ((xgSlot c).view.loc (c : Thread nD τ) ↦[(xgSlot c).view.set]{lend 2} f)
          ∗ ((xgSlot c).view.loc (c : Thread nD τ) ↦[(xgSlot c).view.set]{lend 3} f)
          ∗ ((xgSlot c).view.loc (c : Thread nD τ) ↦[(xgSlot c).view.set]{lend 4} f)
          ∗ ((xgSlot c).view.loc (c : Thread nD τ) ↦[(xgSlot c).view.set]{lend 5} f)
          ∗ ((xgSlot c).view.loc (c : Thread nD τ) ↦[(xgSlot c).view.set]{lend 6} f)
          ∗ ((xgSlot c).view.loc (c : Thread nD τ) ↦[(xgSlot c).view.set]{kept} f)) : sProp 𝕄)
      = ((xgSlot c).view.loc (c : Thread nD τ) ↦[(xgSlot c).view.set]{fullShare} f) :=
  (own_lend c f).symm

/-! ## The gather's tables for the payer of copy `j` -/

section TablesTo
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))

theorem payload_agR_to1 (c : Dev nD) (d : DD) : (sched (F := F) XG SS RS).payload (agRCell (fwd c 1) 0) 0 d =
    ((xgSlot c).view.loc ((fwd c 1 : Dev nD) : Thread nD τ) ↦[(xgSlot c).view.set]{fullShare} XG) := by
  have h : fwd (fwd c 1) 7 = c := by rw [fwd_fwd]; exact fwd_eight c
  rw [payload_agR_0 XG SS RS (fwd c 1), h]
theorem payload_agR_to2 (c : Dev nD) (d : DD) : (sched (F := F) XG SS RS).payload (agRCell (fwd c 2) 1) 0 d =
    ((xgSlot c).view.loc ((fwd c 2 : Dev nD) : Thread nD τ) ↦[(xgSlot c).view.set]{fullShare} XG) := by
  have h : fwd (fwd c 2) 6 = c := by rw [fwd_fwd]; exact fwd_eight c
  rw [payload_agR_1 XG SS RS (fwd c 2), h]
theorem payload_agR_to3 (c : Dev nD) (d : DD) : (sched (F := F) XG SS RS).payload (agRCell (fwd c 3) 2) 0 d =
    ((xgSlot c).view.loc ((fwd c 3 : Dev nD) : Thread nD τ) ↦[(xgSlot c).view.set]{fullShare} XG) := by
  have h : fwd (fwd c 3) 5 = c := by rw [fwd_fwd]; exact fwd_eight c
  rw [payload_agR_2 XG SS RS (fwd c 3), h]
theorem payload_agR_to4 (c : Dev nD) (d : DD) : (sched (F := F) XG SS RS).payload (agRCell (fwd c 4) 3) 0 d =
    ((xgSlot c).view.loc ((fwd c 4 : Dev nD) : Thread nD τ) ↦[(xgSlot c).view.set]{fullShare} XG) := by
  have h : fwd (fwd c 4) 4 = c := by rw [fwd_fwd]; exact fwd_eight c
  rw [payload_agR_3 XG SS RS (fwd c 4), h]
theorem payload_agR_to5 (c : Dev nD) (d : DD) : (sched (F := F) XG SS RS).payload (agRCell (fwd c 5) 4) 0 d =
    ((xgSlot c).view.loc ((fwd c 5 : Dev nD) : Thread nD τ) ↦[(xgSlot c).view.set]{fullShare} XG) := by
  have h : fwd (fwd c 5) 3 = c := by rw [fwd_fwd]; exact fwd_eight c
  rw [payload_agR_4 XG SS RS (fwd c 5), h]
theorem payload_agR_to6 (c : Dev nD) (d : DD) : (sched (F := F) XG SS RS).payload (agRCell (fwd c 6) 5) 0 d =
    ((xgSlot c).view.loc ((fwd c 6 : Dev nD) : Thread nD τ) ↦[(xgSlot c).view.set]{fullShare} XG) := by
  have h : fwd (fwd c 6) 2 = c := by rw [fwd_fwd]; exact fwd_eight c
  rw [payload_agR_5 XG SS RS (fwd c 6), h]
theorem payload_agR_to7 (c : Dev nD) (d : DD) : (sched (F := F) XG SS RS).payload (agRCell (fwd c 7) 6) 0 d =
    ((xgSlot c).view.loc ((fwd c 7 : Dev nD) : Thread nD τ) ↦[(xgSlot c).view.set]{fullShare} XG) := by
  have h : fwd (fwd c 7) 1 = c := by rw [fwd_fwd]; exact fwd_eight c
  rw [payload_agR_6 XG SS RS (fwd c 7), h]

theorem payload_agS_0 (c : Dev nD) (d : DD) : (sched (F := F) XG SS RS).payload (agSCell c 0) 0 d =
    ((xgSlot c).view.loc (c : Thread nD τ) ↦[(xgSlot c).view.set]{lend 0} XG) := payload_agS XG SS RS c 0 d
theorem payload_agS_1 (c : Dev nD) (d : DD) : (sched (F := F) XG SS RS).payload (agSCell c 1) 0 d =
    ((xgSlot c).view.loc (c : Thread nD τ) ↦[(xgSlot c).view.set]{lend 1} XG) := payload_agS XG SS RS c 1 d
theorem payload_agS_2 (c : Dev nD) (d : DD) : (sched (F := F) XG SS RS).payload (agSCell c 2) 0 d =
    ((xgSlot c).view.loc (c : Thread nD τ) ↦[(xgSlot c).view.set]{lend 2} XG) := payload_agS XG SS RS c 2 d
theorem payload_agS_3 (c : Dev nD) (d : DD) : (sched (F := F) XG SS RS).payload (agSCell c 3) 0 d =
    ((xgSlot c).view.loc (c : Thread nD τ) ↦[(xgSlot c).view.set]{lend 3} XG) := payload_agS XG SS RS c 3 d
theorem payload_agS_4 (c : Dev nD) (d : DD) : (sched (F := F) XG SS RS).payload (agSCell c 4) 0 d =
    ((xgSlot c).view.loc (c : Thread nD τ) ↦[(xgSlot c).view.set]{lend 4} XG) := payload_agS XG SS RS c 4 d
theorem payload_agS_5 (c : Dev nD) (d : DD) : (sched (F := F) XG SS RS).payload (agSCell c 5) 0 d =
    ((xgSlot c).view.loc (c : Thread nD τ) ↦[(xgSlot c).view.set]{lend 5} XG) := payload_agS XG SS RS c 5 d
theorem payload_agS_6 (c : Dev nD) (d : DD) : (sched (F := F) XG SS RS).payload (agSCell c 6) 0 d =
    ((xgSlot c).view.loc (c : Thread nD τ) ↦[(xgSlot c).view.set]{lend 6} XG) := payload_agS XG SS RS c 6 d

end TablesTo

end Cert.KernelIdealProof
end
-- ==== Proof.BodyFinish.lean ====
/-
  The last step of the body: the slotted buffers whole again, and the body's postcondition.
-/
import proofs.«900761_g7700000000000762_dist_attn_self_mha_htp_ss_b2_sq128_skv128_d512_hq8_dh64_v7x_i8_bf16_1_alg».proof.Proof.BodyOblig
import proofs.«900761_g7700000000000762_dist_attn_self_mha_htp_ss_b2_sq128_skv128_d512_hq8_dh64_v7x_i8_bf16_1_alg».proof.Proof.BodySuffix
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.Slots2

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (OUT : Dev nD → (cc0_stg5_0 : Ref sig .tc).ty.Contents (Elt F))

/-- What is left beside the end of the body's own post: the kept share of the device's own slot of the gather buffer and the
    seven gathered slots, the three projection buffers, the receive buffer's seven slots, the staging buffers. -/
def finishPre (c : Dev nD) (fq : Buf (Elt F) ((c : Thread nD τ).loc cc0_scratch1)) (fk : Buf (Elt F) ((c : Thread nD τ).loc cc0_scratch2))
    (fv : Buf (Elt F) ((c : Thread nD τ).loc cc0_scratch3)) : sProp 𝕄 :=
  iprop(((xgSlot (c)).view.loc (c : Thread nD τ) ↦[(xgSlot (c)).view.set]{kept} XG)
    ∗ (((xgSlot (fwd c 1)).view.loc (c : Thread nD τ) ↦[(xgSlot (fwd c 1)).view.set]{fullShare} XG) ∗ ((xgSlot (fwd c 2)).view.loc (c : Thread nD τ) ↦[(xgSlot (fwd c 2)).view.set]{fullShare} XG) ∗ ((xgSlot (fwd c 3)).view.loc (c : Thread nD τ) ↦[(xgSlot (fwd c 3)).view.set]{fullShare} XG) ∗ ((xgSlot (fwd c 4)).view.loc (c : Thread nD τ) ↦[(xgSlot (fwd c 4)).view.set]{fullShare} XG) ∗ ((xgSlot (fwd c 5)).view.loc (c : Thread nD τ) ↦[(xgSlot (fwd c 5)).view.set]{fullShare} XG) ∗ ((xgSlot (fwd c 6)).view.loc (c : Thread nD τ) ↦[(xgSlot (fwd c 6)).view.set]{fullShare} XG) ∗ ((xgSlot (fwd c 7)).view.loc (c : Thread nD τ) ↦[(xgSlot (fwd c 7)).view.set]{fullShare} XG))
    ∗ (((c : Thread nD τ).loc cc0_scratch1) ↦{fullShare} fq) ∗ (((c : Thread nD τ).loc cc0_scratch2) ↦{fullShare} fk) ∗ (((c : Thread nD τ).loc cc0_scratch3) ↦{fullShare} fv)
    ∗ ((rsSlot0.view.loc (c : Thread nD τ) ↦[rsSlot0.view.set]{fullShare} RS c) ∗ (rsSlot1.view.loc (c : Thread nD τ) ↦[rsSlot1.view.set]{fullShare} RS c) ∗ (rsSlot2.view.loc (c : Thread nD τ) ↦[rsSlot2.view.set]{fullShare} RS c) ∗ (rsSlot3.view.loc (c : Thread nD τ) ↦[rsSlot3.view.set]{fullShare} RS c) ∗ (rsSlot4.view.loc (c : Thread nD τ) ↦[rsSlot4.view.set]{fullShare} RS c) ∗ (rsSlot5.view.loc (c : Thread nD τ) ↦[rsSlot5.view.set]{fullShare} RS c) ∗ (rsSlot6.view.loc (c : Thread nD τ) ↦[rsSlot6.view.set]{fullShare} RS c))
    ∗ stg c cc0_stg0_0 (iblk m c (0 : Fin 6) t₀) ∗ stg c cc0_stg1_0 (iblk m c (1 : Fin 6) t₀) ∗ stg c cc0_stg2_0 (iblk m c (2 : Fin 6) t₀)
    ∗ stg c cc0_stg3_0 (iblk m c (3 : Fin 6) t₀) ∗ stg c cc0_stg4_0 (iblk m c (4 : Fin 6) t₀) ∗ stg c cc0_stg5_0 (OUT c))

theorem body_finish (c : Dev nD) (fq : Buf (Elt F) ((c : Thread nD τ).loc cc0_scratch1)) (fk : Buf (Elt F) ((c : Thread nD τ).loc cc0_scratch2))
    (fv : Buf (Elt F) ((c : Thread nD τ).loc cc0_scratch3)) :
    iprop((suffixPost XG SS c ∗ ∃ W', owes (c : Thread nD τ) 0 W') ∗ finishPre m XG RS OUT c fq fk fv) ⊢ bodyPost m ρ XG SS RS OUT c := by
  unfold suffixPost finishPre bodyPost Φ₁ scratch
  iintro ⟨⟨⟨Hz, ⟨Lx0, Lx1, Lx2, Lx3, Lx4, Lx5, Lx6⟩, ⟨Ls0, Ls1, Ls2, Ls3, Ls4, Ls5, Ls6⟩⟩, ⟨%W', HO⟩⟩, Lk, ⟨X1, X2, X3, X4, X5, X6, X7⟩, Sq, Sk, Sv, ⟨Y0, Y1, Y2, Y3, Y4, Y5, Y6⟩, B0, B1, B2, B3, B4, B5⟩
  -- the device's own slot of the gather buffer from its shares, then the buffer from its eight slots
  ihave X0 := (Entails.of_eq (own_unlend (F := F) c XG)) $$ [Lx0 Lx1 Lx2 Lx3 Lx4 Lx5 Lx6 Lk]
  ·
    isplitl [Lx0]; · iexact Lx0
    isplitl [Lx1]; · iexact Lx1
    isplitl [Lx2]; · iexact Lx2
    isplitl [Lx3]; · iexact Lx3
    isplitl [Lx4]; · iexact Lx4
    isplitl [Lx5]; · iexact Lx5
    isplitl [Lx6]; · iexact Lx6
    iexact Lk
  ihave S0 := (Entails.of_eq (xg_cut_ring' (F := F) c fullShare XG).symm) $$ [X0 X1 X2 X3 X4 X5 X6 X7]
  ·
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  ihave S4 := (Entails.of_eq (ss_cut (F := F) c fullShare (SS c)).symm) $$ [Ls0 Ls1 Ls2 Ls3 Ls4 Ls5 Ls6]
  ·
    isplitl [Ls0]; · iexact Ls0
    isplitl [Ls1]; · iexact Ls1
    isplitl [Ls2]; · iexact Ls2
    isplitl [Ls3]; · iexact Ls3
    isplitl [Ls4]; · iexact Ls4
    isplitl [Ls5]; · iexact Ls5
    iexact Ls6
  ihave S5 := (Entails.of_eq (rs_cut (F := F) c fullShare (RS c)).symm) $$ [Y0 Y1 Y2 Y3 Y4 Y5 Y6]
  ·
    isplitl [Y0]; · iexact Y0
    isplitl [Y1]; · iexact Y1
    isplitl [Y2]; · iexact Y2
    isplitl [Y3]; · iexact Y3
    isplitl [Y4]; · iexact Y4
    isplitl [Y5]; · iexact Y5
    iexact Y6
  isplitl [Hz S0 Sq Sk Sv S4 S5]
  · isplitr [Hz]
    · isplitl [S0]; · iexists XG; iexact S0
      isplitl [Sq]; · iexists fq; iexact Sq
      isplitl [Sk]; · iexists fk; iexact Sk
      isplitl [Sv]; · iexists fv; iexact Sv
      isplitl [S4]; · iexists (SS c); iexact S4
      iexists (RS c); iexact S5
    iexact Hz
  isplitl [HO]
  · iexists W'
    isplitr; · ipureintro; exact fun _ _ => Or.inl trivial
    iexact HO
  isplitl [B0]; · iexact B0
  isplitl [B1]; · iexact B1
  isplitl [B2]; · iexact B2
  isplitl [B3]; · iexact B3
  isplitl [B4]; · iexact B4
  iexact B5

/-- info: 'Cert.KernelIdealProof.body_finish' depends on axioms: [propext, Classical.choice, Quot.sound] -/
#guard_msgs in #print axioms body_finish

end Cert.KernelIdealProof

end
-- ==== Proof.SlotsLand.lean ====
/-
  A slot's points-to depends only on the contents under the slot; what a transfer that lands in a slot leaves there.

  A write through a view, unmasked, puts the payload's entry at every element under the view and leaves every other element
  alone. So when the payload is what the view itself (or a like-shaped view of another buffer that reads the same) reads of
  contents `G`, the written contents agree with `G` on the view's elements, and the slot's points-to at the written contents
  is its points-to at `G`.
-/
import proofs.«900761_g7700000000000762_dist_attn_self_mha_htp_ss_b2_sq128_skv128_d512_hq8_dh64_v7x_i8_bf16_1_alg».proof.Proof.Proto

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Congruence on a part -/

omit [FloatOps F] in
/-- Contents that agree under a slot give the same points-to of the slot. -/
theorem slot_congr (c : Dev nD) (q : PosShare TreeShare) (M : Memref sig .tc .vmem S2x128x512 .bf16)
    {f g : Buf (Elt F) (M.view.loc (c : Thread nD τ))} (h : ∀ i ∈ M.view.set, f i = g i) :
    (M.view.loc (c : Thread nD τ) ↦[M.view.set]{q} f : sProp 𝕄) = (M.view.loc (c : Thread nD τ) ↦[M.view.set]{q} g) :=
  pointsTo_congr h

omit [FloatOps F] in
/-- The same for `slotAt`. -/
theorem slotAt_congr (c : Dev nD) (q : PosShare TreeShare) (M : Memref sig .tc .vmem S2x128x512 .bf16)
    {f g : Buf (Elt F) (M.view.loc (c : Thread nD τ))} (h : ∀ i ∈ M.view.set, f i = g i) :
    slotAt (F := F) c M q f = slotAt c M q g :=
  pointsTo_congr h

omit [FloatOps F] in
/-- Contents that read the same through the slot agree under it. -/
theorem agree_of_read_eq (M : Memref sig .tc .vmem S2x128x512 .bf16) {f g : M.view.ty.Contents (Elt F)}
    (h : M.view.read (Elt F) f = M.view.read (Elt F) g) : ∀ i ∈ M.view.set, f i = g i := by
  intro i hi
  obtain ⟨x, -, rfl⟩ := Finset.mem_map.mp hi
  have := congrFun h x
  rw [View.read_apply, View.read_apply] at this
  exact (cast_inj _).mp this

/-! ## What a landing writes -/

omit [FloatOps F] in
/-- An unmasked write through the slot puts `v x` at the element under `x`. -/
theorem write_univ_emb (M : Memref sig .tc .vmem S2x128x512 .bf16) (fd : M.view.ty.Contents (Elt F)) (v : S2x128x512.Idx → Elt F .bf16)
    (x : S2x128x512.Idx) :
    M.view.write (Elt F) fd v Finset.univ (M.view.emb x) = _root_.cast (congrArg (Elt F) M.view.elt_eq.symm) (v x) :=
  View.write_emb_of_mem fd v (Finset.mem_univ x)

omit [FloatOps F] in
/-- Read back through the slot, an unmasked write is its payload. -/
theorem read_write_univ (M : Memref sig .tc .vmem S2x128x512 .bf16) (fd : M.view.ty.Contents (Elt F)) (v : S2x128x512.Idx → Elt F .bf16) :
    M.view.read (Elt F) (M.view.write (Elt F) fd v Finset.univ) = v :=
  View.read_write_univ fd v

omit [FloatOps F] in
/-- Off the slot an unmasked write changes nothing. -/
theorem write_univ_off (M : Memref sig .tc .vmem S2x128x512 .bf16) (fd : M.view.ty.Contents (Elt F)) (v : S2x128x512.Idx → Elt F .bf16)
    {i : M.view.ty.Idx} (hi : i ∉ M.view.set) : M.view.write (Elt F) fd v Finset.univ i = fd i :=
  View.write_of_not_mem fd v Finset.univ hi

omit [FloatOps F] in
/-- Writing what the slot reads of `G` leaves `G` under the slot, whatever was there. -/
theorem write_read_agree (M : Memref sig .tc .vmem S2x128x512 .bf16) (fd G : M.view.ty.Contents (Elt F)) :
    ∀ i ∈ M.view.set, M.view.write (Elt F) fd (M.view.read (Elt F) G) Finset.univ i = G i := by
  intro i hi
  rw [View.write_read_eq_piecewise]
  exact Finset.piecewise_eq_of_mem _ _ _ hi

omit [FloatOps F] in
/-- A payload read through a like-shaped slot `M'` of other contents `G'` that reads as `M` reads `G`: the written contents
    agree with `G` under `M`. -/
theorem landing_agree (M M' : Memref sig .tc .vmem S2x128x512 .bf16) (fd G : M.view.ty.Contents (Elt F)) (G' : M'.view.ty.Contents (Elt F))
    (h : M'.view.read (Elt F) G' = M.view.read (Elt F) G) :
    ∀ i ∈ M.view.set, M.view.write (Elt F) fd (M'.view.read (Elt F) G') Finset.univ i = G i := by
  rw [h]; exact write_read_agree M fd G

omit [FloatOps F] in
/-- Any payload `v` that is what `M` reads of `G`: the written contents agree with `G` under `M`. -/
theorem landing_agree_of_eq (M : Memref sig .tc .vmem S2x128x512 .bf16) (fd G : M.view.ty.Contents (Elt F)) (v : S2x128x512.Idx → Elt F .bf16)
    (h : v = M.view.read (Elt F) G) :
    ∀ i ∈ M.view.set, M.view.write (Elt F) fd v Finset.univ i = G i := by
  rw [h]; exact write_read_agree M fd G

omit [FloatOps F] in
/-- The slot's points-to after such a landing is its points-to at `G`. -/
theorem landing_pointsTo (c : Dev nD) (q : PosShare TreeShare) (M : Memref sig .tc .vmem S2x128x512 .bf16)
    (fd G : Buf (Elt F) (M.view.loc (c : Thread nD τ))) (v : S2x128x512.Idx → Elt F .bf16) (h : v = M.view.read (Elt F) G) :
    (M.view.loc (c : Thread nD τ) ↦[M.view.set]{q} M.view.write (Elt F) fd v Finset.univ : sProp 𝕄)
      = (M.view.loc (c : Thread nD τ) ↦[M.view.set]{q} G) :=
  pointsTo_congr (landing_agree_of_eq M fd G v h)

end Cert.KernelIdealProof
end
-- ==== Proof.BodyFacts.lean ====
/-
  The contents of a device's own slot of the gather buffer after its block of x is stored there.

  The staged block of x, read whole, is the block itself; cast, it is what the device's slot of the gather buffer holds
  after the gather. The store writes it through the rectangle at the device's own leading coordinate, so under that
  slot the written contents are the gathered contents, whatever the buffer held before.
-/
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The staged block of x read through the whole-buffer rectangle is the block. -/
theorem stg0_readAt (c : Dev nD) :
    View.readAt (Elt F) (Memref.whole cc0_stg0_0 : Memref sig .tc .vmem S2x128x512 .f32).view
      (Rect.unit (s := S2x128x512) ![0, 0, 0] S2x128x512.size inb_S2x128x512_S2x128x512_0_0_0).toLoadRect (Gen.iblk m c 0 t₀) = xv m c :=
  Memref.readAt_unit_zero (Elt F) cc0_stg0_0 (by funext a; fin_cases a <;> rfl) _ _

/-- Under the device's own slot, the gather buffer with the cast block stored through the rectangle at the device's
    leading coordinate holds the gathered contents. -/
theorem hown_contents (c : Dev nD) (fx : Buf (Elt F) ((c : Thread nD τ).loc cc0_scratch0)) :
    ∀ i ∈ (xgSlot c).view.set,
      (View.write (Elt F) ((Memref.whole cc0_scratch0 : Memref sig .tc .vmem S8x2x128x512 .bf16).access (Rect.unit (s := S8x2x128x512) (k0_off1 c) S1x2x128x512.size (k0_off1_inb c))) fx
        (k0_pay1 (View.readAt (Elt F) (Memref.whole cc0_stg0_0 : Memref sig .tc .vmem S2x128x512 .f32).view
          (Rect.unit (s := S2x128x512) ![0, 0, 0] S2x128x512.size inb_S2x128x512_S2x128x512_0_0_0).toLoadRect (Gen.iblk m c 0 t₀))) Finset.univ) i
        = XGdef m i := by
  intro i hi
  rw [stg0_readAt m c]
  have hi0 : (i 0).val = c.val := (mem_xgSlot_set c i).mp hi
  have hemb : ((Memref.whole cc0_scratch0 : Memref sig .tc .vmem S8x2x128x512 .bf16).access (Rect.unit (s := S8x2x128x512) (k0_off1 c) S1x2x128x512.size (k0_off1_inb c))).emb
      (ix4 (0 : Fin 1) (i 1) (i 2) (i 3)) = i := by
    funext a
    apply Fin.ext
    have ho := k0_off1_eq c
    match a with
    | ⟨0, _⟩ =>
      show k0_off1 c 0 + 1 * 0 = (i 0).val
      rw [ho, hi0]; rfl
    | ⟨1, _⟩ =>
      show k0_off1 c 1 + 1 * (i 1).val = (i 1).val
      rw [ho]; show 0 + 1 * (i 1).val = (i 1).val; omega
    | ⟨2, _⟩ =>
      show k0_off1 c 2 + 1 * (i 2).val = (i 2).val
      rw [ho]; show 0 + 1 * (i 2).val = (i 2).val; omega
    | ⟨3, _⟩ =>
      show k0_off1 c 3 + 1 * (i 3).val = (i 3).val
      rw [ho]; show 0 + 1 * (i 3).val = (i 3).val; omega
  have hw := View.write_emb_of_mem (v := (Memref.whole cc0_scratch0 : Memref sig .tc .vmem S8x2x128x512 .bf16).access (Rect.unit (s := S8x2x128x512) (k0_off1 c) S1x2x128x512.size (k0_off1_inb c)))
    (Val := Elt F) fx (k0_pay1 (xv m c)) (M := Finset.univ) (Finset.mem_univ (ix4 (0 : Fin 1) (i 1) (i 2) (i 3)))
  refine (congrArg (View.write (Elt F) ((Memref.whole cc0_scratch0 : Memref sig .tc .vmem S8x2x128x512 .bf16).access (Rect.unit (s := S8x2x128x512) (k0_off1 c) S1x2x128x512.size (k0_off1_inb c))) fx
    (k0_pay1 (xv m c)) Finset.univ) hemb.symm).trans (hw.trans ?_)
  exact (XGdef_apply m i c (i 1) (i 2) (i 3) hi0 rfl rfl rfl).symm

end Cert.KernelIdealProof

end
-- ==== Proof.BodyTables.lean ====
/-
  The schedule's tables read from the PAYER's side: the payload of the duty device `c` pays at a peer's cell, with the
  peer's view of `c` (the device `8 − j` places after the peer `j` places after `c`) resolved to `c`.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section TablesTo
/-- What signal `1` of the entry barrier hands the device 1 place after `c`: `c`'s slots for it. -/
theorem payload_bar_to1 (c : Dev nD) : (sched (F := F) XG SS RS).payload (barCell (fwd c 1)) 0 1 =
    iprop((∃ f, (xgSlot (fwd c 1)).view.loc (c : Thread nD τ) ↦[(xgSlot (fwd c 1)).view.set]{fullShare} f) ∗ reached ER (agRCell c 6) 0
      ∗ (∃ f, rsSlot0.view.loc (c : Thread nD τ) ↦[rsSlot0.view.set]{fullShare} f) ∗ reached ER (rsRCell c 0) 0) := by
  have h : fwd (fwd c 1) 7 = c := by rw [fwd_fwd]; exact fwd_eight c
  rw [payload_bar_1 XG SS RS (fwd c 1), h]
/-- What signal `2` of the entry barrier hands the device 2 places after `c`: `c`'s slots for it. -/
theorem payload_bar_to2 (c : Dev nD) : (sched (F := F) XG SS RS).payload (barCell (fwd c 2)) 0 2 =
    iprop((∃ f, (xgSlot (fwd c 2)).view.loc (c : Thread nD τ) ↦[(xgSlot (fwd c 2)).view.set]{fullShare} f) ∗ reached ER (agRCell c 5) 0
      ∗ (∃ f, rsSlot1.view.loc (c : Thread nD τ) ↦[rsSlot1.view.set]{fullShare} f) ∗ reached ER (rsRCell c 1) 0) := by
  have h : fwd (fwd c 2) 6 = c := by rw [fwd_fwd]; exact fwd_eight c
  rw [payload_bar_2 XG SS RS (fwd c 2), h]
/-- What signal `3` of the entry barrier hands the device 3 places after `c`: `c`'s slots for it. -/
theorem payload_bar_to3 (c : Dev nD) : (sched (F := F) XG SS RS).payload (barCell (fwd c 3)) 0 3 =
    iprop((∃ f, (xgSlot (fwd c 3)).view.loc (c : Thread nD τ) ↦[(xgSlot (fwd c 3)).view.set]{fullShare} f) ∗ reached ER (agRCell c 4) 0
      ∗ (∃ f, rsSlot2.view.loc (c : Thread nD τ) ↦[rsSlot2.view.set]{fullShare} f) ∗ reached ER (rsRCell c 2) 0) := by
  have h : fwd (fwd c 3) 5 = c := by rw [fwd_fwd]; exact fwd_eight c
  rw [payload_bar_3 XG SS RS (fwd c 3), h]
/-- What signal `4` of the entry barrier hands the device 4 places after `c`: `c`'s slots for it. -/
theorem payload_bar_to4 (c : Dev nD) : (sched (F := F) XG SS RS).payload (barCell (fwd c 4)) 0 4 =
    iprop((∃ f, (xgSlot (fwd c 4)).view.loc (c : Thread nD τ) ↦[(xgSlot (fwd c 4)).view.set]{fullShare} f) ∗ reached ER (agRCell c 3) 0
      ∗ (∃ f, rsSlot3.view.loc (c : Thread nD τ) ↦[rsSlot3.view.set]{fullShare} f) ∗ reached ER (rsRCell c 3) 0) := by
  have h : fwd (fwd c 4) 4 = c := by rw [fwd_fwd]; exact fwd_eight c
  rw [payload_bar_4 XG SS RS (fwd c 4), h]
/-- What signal `5` of the entry barrier hands the device 5 places after `c`: `c`'s slots for it. -/
theorem payload_bar_to5 (c : Dev nD) : (sched (F := F) XG SS RS).payload (barCell (fwd c 5)) 0 5 =
    iprop((∃ f, (xgSlot (fwd c 5)).view.loc (c : Thread nD τ) ↦[(xgSlot (fwd c 5)).view.set]{fullShare} f) ∗ reached ER (agRCell c 2) 0
      ∗ (∃ f, rsSlot4.view.loc (c : Thread nD τ) ↦[rsSlot4.view.set]{fullShare} f) ∗ reached ER (rsRCell c 4) 0) := by
  have h : fwd (fwd c 5) 3 = c := by rw [fwd_fwd]; exact fwd_eight c
  rw [payload_bar_5 XG SS RS (fwd c 5), h]
/-- What signal `6` of the entry barrier hands the device 6 places after `c`: `c`'s slots for it. -/
theorem payload_bar_to6 (c : Dev nD) : (sched (F := F) XG SS RS).payload (barCell (fwd c 6)) 0 6 =
    iprop((∃ f, (xgSlot (fwd c 6)).view.loc (c : Thread nD τ) ↦[(xgSlot (fwd c 6)).view.set]{fullShare} f) ∗ reached ER (agRCell c 1) 0
      ∗ (∃ f, rsSlot5.view.loc (c : Thread nD τ) ↦[rsSlot5.view.set]{fullShare} f) ∗ reached ER (rsRCell c 5) 0) := by
  have h : fwd (fwd c 6) 2 = c := by rw [fwd_fwd]; exact fwd_eight c
  rw [payload_bar_6 XG SS RS (fwd c 6), h]
/-- What signal `7` of the entry barrier hands the device 7 places after `c`: `c`'s slots for it. -/
theorem payload_bar_to7 (c : Dev nD) : (sched (F := F) XG SS RS).payload (barCell (fwd c 7)) 0 7 =
    iprop((∃ f, (xgSlot (fwd c 7)).view.loc (c : Thread nD τ) ↦[(xgSlot (fwd c 7)).view.set]{fullShare} f) ∗ reached ER (agRCell c 0) 0
      ∗ (∃ f, rsSlot6.view.loc (c : Thread nD τ) ↦[rsSlot6.view.set]{fullShare} f) ∗ reached ER (rsRCell c 6) 0) := by
  have h : fwd (fwd c 7) 1 = c := by rw [fwd_fwd]; exact fwd_eight c
  rw [payload_bar_7 XG SS RS (fwd c 7), h]
end TablesTo

end Cert.KernelIdealProof

end
-- ==== Proof.BodyP01.lean ====
/-
  Part 1 of the body: the device reads its id and signals the entry barrier of the five devices 1..5 places after it.
  Each signal pays duty `j` of that device's barrier cell and hands it the device's slots that it will write: slot
  `fwd c j` of the gather buffer and slot `j − 1` of the receive buffer, each at whatever it holds.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
import proofs.«900761_g7700000000000762_dist_attn_self_mha_htp_ss_b2_sq128_skv128_d512_hq8_dh64_v7x_i8_bf16_1_alg».proof.Proof.BodyTables
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd
attribute [local sl_rounds] duties_bar amount_bar expect_bar payload_bar_to1 payload_bar_to2 payload_bar_to3 payload_bar_to4 payload_bar_to5 payload_bar_to6 payload_bar_to7

set_option maxHeartbeats 4000000 in
theorem part1_run (c : Dev nD) (W : Waits sig Unit) (fx : Buf (Elt F) ((c : Thread nD τ).loc cc0_scratch0)) (fr : Buf (Elt F) ((c : Thread nD τ).loc cc0_scratch5)) :
    iprop((cellInv ER (sched XG SS RS) (K (fwd c 1, 0)) (barCell (fwd c 1)) ∗ cellInv ER (sched XG SS RS) (K (fwd c 2, 0)) (barCell (fwd c 2)) ∗ cellInv ER (sched XG SS RS) (K (fwd c 3, 0)) (barCell (fwd c 3)) ∗ cellInv ER (sched XG SS RS) (K (fwd c 4, 0)) (barCell (fwd c 4)) ∗ cellInv ER (sched XG SS RS) (K (fwd c 5, 0)) (barCell (fwd c 5)) ∗ cellInv ER (sched XG SS RS) (K (fwd c 6, 0)) (barCell (fwd c 6)) ∗ cellInv ER (sched XG SS RS) (K (fwd c 7, 0)) (barCell (fwd c 7))) ∗ (reached ER (barCell (fwd c 1)) 0 ∗ reached ER (barCell (fwd c 2)) 0 ∗ reached ER (barCell (fwd c 3)) 0 ∗ reached ER (barCell (fwd c 4)) 0 ∗ reached ER (barCell (fwd c 5)) 0 ∗ reached ER (barCell (fwd c 6)) 0 ∗ reached ER (barCell (fwd c 7)) 0) ∗ (reached ER (agRCell c 0) 0 ∗ reached ER (agRCell c 1) 0 ∗ reached ER (agRCell c 2) 0 ∗ reached ER (agRCell c 3) 0 ∗ reached ER (agRCell c 4) 0 ∗ reached ER (agRCell c 5) 0 ∗ reached ER (agRCell c 6) 0) ∗ (reached ER (rsRCell c 0) 0 ∗ reached ER (rsRCell c 1) 0 ∗ reached ER (rsRCell c 2) 0 ∗ reached ER (rsRCell c 3) 0 ∗ reached ER (rsRCell c 4) 0 ∗ reached ER (rsRCell c 5) 0 ∗ reached ER (rsRCell c 6) 0)
        ∗ (dutyTok ER (barCell (fwd c 1)) 0 1 ∗ dutyTok ER (barCell (fwd c 2)) 0 2 ∗ dutyTok ER (barCell (fwd c 3)) 0 3 ∗ dutyTok ER (barCell (fwd c 4)) 0 4 ∗ dutyTok ER (barCell (fwd c 5)) 0 5 ∗ dutyTok ER (barCell (fwd c 6)) 0 6 ∗ dutyTok ER (barCell (fwd c 7)) 0 7)
        ∗ (((xgSlot (fwd c 1)).view.loc (c : Thread nD τ) ↦[(xgSlot (fwd c 1)).view.set]{fullShare} fx) ∗ ((xgSlot (fwd c 2)).view.loc (c : Thread nD τ) ↦[(xgSlot (fwd c 2)).view.set]{fullShare} fx) ∗ ((xgSlot (fwd c 3)).view.loc (c : Thread nD τ) ↦[(xgSlot (fwd c 3)).view.set]{fullShare} fx) ∗ ((xgSlot (fwd c 4)).view.loc (c : Thread nD τ) ↦[(xgSlot (fwd c 4)).view.set]{fullShare} fx) ∗ ((xgSlot (fwd c 5)).view.loc (c : Thread nD τ) ↦[(xgSlot (fwd c 5)).view.set]{fullShare} fx) ∗ ((xgSlot (fwd c 6)).view.loc (c : Thread nD τ) ↦[(xgSlot (fwd c 6)).view.set]{fullShare} fx) ∗ ((xgSlot (fwd c 7)).view.loc (c : Thread nD τ) ↦[(xgSlot (fwd c 7)).view.set]{fullShare} fx))
        ∗ ((rsSlot0.view.loc (c : Thread nD τ) ↦[rsSlot0.view.set]{fullShare} fr) ∗ (rsSlot1.view.loc (c : Thread nD τ) ↦[rsSlot1.view.set]{fullShare} fr) ∗ (rsSlot2.view.loc (c : Thread nD τ) ↦[rsSlot2.view.set]{fullShare} fr) ∗ (rsSlot3.view.loc (c : Thread nD τ) ↦[rsSlot3.view.set]{fullShare} fr) ∗ (rsSlot4.view.loc (c : Thread nD τ) ↦[rsSlot4.view.set]{fullShare} fr) ∗ (rsSlot5.view.loc (c : Thread nD τ) ↦[rsSlot5.view.set]{fullShare} fr) ∗ (rsSlot6.view.loc (c : Thread nD τ) ↦[rsSlot6.view.set]{fullShare} fr))
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag + tallyAt (agRCell (fwd c 1) 0) () Nag + tallyAt (barCell (fwd c 7)) () 1 + tallyAt (barCell (fwd c 6)) () 1 + tallyAt (barCell (fwd c 5)) () 1 + tallyAt (barCell (fwd c 4)) () 1 + tallyAt (barCell (fwd c 3)) () 1 + tallyAt (barCell (fwd c 2)) () 1 + tallyAt (barCell (fwd c 1)) () 1) W)
      ⊢ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0)
          (fun r => iprop(⌜r.1 = c ∧ r.2.2.1 = SemArray.scalar (sig.barrier 0 rfl)⌝ ∗ dutyTok ER (barCell (fwd c 6)) 0 6 ∗ dutyTok ER (barCell (fwd c 7)) 0 7 ∗ ((xgSlot (fwd c 6)).view.loc (c : Thread nD τ) ↦[(xgSlot (fwd c 6)).view.set]{fullShare} fx) ∗ ((xgSlot (fwd c 7)).view.loc (c : Thread nD τ) ↦[(xgSlot (fwd c 7)).view.set]{fullShare} fx) ∗ (rsSlot5.view.loc (c : Thread nD τ) ↦[rsSlot5.view.set]{fullShare} fr) ∗ (rsSlot6.view.loc (c : Thread nD τ) ↦[rsSlot6.view.set]{fullShare} fr) ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag + tallyAt (agRCell (fwd c 1) 0) () Nag + tallyAt (barCell (fwd c 7)) () 1 + tallyAt (barCell (fwd c 6)) () 1) W)) := by
  iintro ⟨⟨#I0, #I1, #I2, #I3, #I4, #I5, #I6⟩, ⟨#Rb0, #Rb1, #Rb2, #Rb3, #Rb4, #Rb5, #Rb6⟩, ⟨#Ra0, #Ra1, #Ra2, #Ra3, #Ra4, #Ra5, #Ra6⟩, ⟨#Rr0, #Rr1, #Rr2, #Rr3, #Rr4, #Rr5, #Rr6⟩, ⟨T0, T1, T2, T3, T4, T5, T6⟩, ⟨X0, X1, X2, X3, X4, X5, X6⟩, ⟨Y0, Y1, Y2, Y3, Y4, Y5, Y6⟩, HO⟩
  sl_exec
  sl_step
  isplitr; · ipureintro; exact ⟨rfl, rfl⟩
  isplitl [T5]; · iexact T5
  isplitl [T6]; · iexact T6
  isplitl [X5]; · iexact X5
  isplitl [X6]; · iexact X6
  isplitl [Y5]; · iexact Y5
  isplitl [Y6]; · iexact Y6
  iexact HO

end Cert.KernelIdealProof

end
-- ==== Proof.BodyP03.lean ====
/-
  Part 3 of the body: the gather's copies 2 and 3.

  Device `c`'s copy on its send semaphore `i` reads its own slot of xg, of which it holds the share lent to that copy at
  the gathered contents, and writes slot `c` of the xg of the device `i + 1` places after it, which that device handed
  over at the entry barrier, crediting that device's receive semaphore `i`. The departure's payload is the lent share
  itself. The arrival's payload is the written slot at the gathered contents: what lands is what slot `c` reads of the
  gathered contents, so the written contents agree with them under the slot; and the device `7 - i` places after the
  receiver is `c` again, so the slot the receiver's table names is slot `c`. Each copy takes the receiver's tally off
  what `c` owes and leaves the credit of its own send cell.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.Slots2
import proofs.«900761_g7700000000000762_dist_attn_self_mha_htp_ss_b2_sq128_skv128_d512_hq8_dh64_v7x_i8_bf16_1_alg».proof.Proof.SlotsLand
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

/-- The device `7 - i` places after the one `i + 1` places after `c` is `c`. -/
theorem fwd_back (c : Dev nD) (i : Fin 7) : fwd (fwd c (i.val + 1)) (7 - i.val) = c := by
  rw [fwd_fwd, show i.val + 1 + (7 - i.val) = 8 from by have := i.isLt; omega]; exact fwd_eight c

set_option maxHeartbeats 400000 in
theorem ag_send (c : Dev nD) (i : Fin 7) (κ₁ κ₂ : ℕ) (W : Waits sig Unit) (O : CellTallies nD τ sig Unit)
    (fd : Buf (Elt F) ((xgSlot c).view.loc ((fwd c (i.val + 1) : Dev nD) : Thread nD τ)))
    {α : Type} (k : PUnit → Prog (TpuEff nD τ sig (Elt F) Λ₀ .tc) α) (Q : α → sProp 𝕄)
    (hsc : (xgSlot c).view.ref.isScScratch = false) (hsrc hdst : (xgSlot c).view.WordExact)
    (hsem : DmaTarget.Typed (p := .tc) .vmem (.dma (agR i)) (.remote ((fwd c (i.val + 1) : Dev nD) : Thread nD τ) (xgSlot c) (.dma (agS i)) hsc)) :
    iprop(cellInv ER (sched XG SS RS) κ₁ (agSCell c i) ∗ cellInv ER (sched XG SS RS) κ₂ (agRCell (fwd c (i.val + 1)) i)
        ∗ ((xgSlot c).view.loc (c : Thread nD τ) ↦[(xgSlot c).view.set]{lend i} XG)
        ∗ ((xgSlot c).view.loc ((fwd c (i.val + 1) : Dev nD) : Thread nD τ) ↦[(xgSlot c).view.set]{fullShare} fd)
        ∗ owes (c : Thread nD τ) (O + tallyAt (agRCell (fwd c (i.val + 1)) i) () Nag) W
        ∗ dutyTok ER (agSCell c i) 0 0 ∗ reached ER (agSCell c i) 0
        ∗ dutyTok ER (agRCell (fwd c (i.val + 1)) i) 0 0 ∗ reached ER (agRCell (fwd c (i.val + 1)) i) 0)
      ⊢ iprop(((cred (tallyAt (agSCell c i) () Nag) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xgSlot c) (.remote ((fwd c (i.val + 1) : Dev nD) : Thread nD τ) (xgSlot c) (.dma (agS i)) hsc) (.dma (agR i)) hsrc hdst hsem) k) Q) := by
  have hd₁ : (0 : DD) ∈ (sched (F := F) XG SS RS).duties (agSCell c i) 0 := by
    rw [duties_agS]; exact Finset.mem_singleton_self _
  have hd₂ : (0 : DD) ∈ (sched (F := F) XG SS RS).duties (agRCell (fwd c (i.val + 1)) i) 0 := by
    rw [duties_agR]; exact Finset.mem_singleton_self _
  have hpay₁ : ((xgSlot c).view.loc (c : Thread nD τ) ↦[(xgSlot c).view.set]{lend i} XG : sProp 𝕄)
      ⊢ (sched XG SS RS).payload (agSCell c i) 0 0 := Entails.of_eq (payload_agS XG SS RS c i 0).symm
  have hpay₂ : ((xgSlot c).view.loc ((fwd c (i.val + 1) : Dev nD) : Thread nD τ) ↦[(xgSlot c).view.set]{fullShare}
        ((xgSlot c).view.write (Elt F) fd ((xgSlot c).view.read (Elt F) XG) Finset.univ) : sProp 𝕄)
      ⊢ (sched XG SS RS).payload (agRCell (fwd c (i.val + 1)) i) 0 0 := by
    rw [payload_agR XG SS RS (fwd c (i.val + 1)) i 0, fwd_back c i,
      landing_pointsTo (fwd c (i.val + 1)) fullShare (xgSlot c) fd XG _ rfl]
  exact Rounds.wp_send_pointsTo 𝒱₀ ER (sched XG SS RS) (c : Thread nD τ) none
    (c' := ((fwd c (i.val + 1) : Dev nD) : Thread nD τ)) (src := xgSlot c) (dst := xgSlot c) (q := lend i) (fs := XG) (fd := fd)
    (sS := .dma (agS i)) (sem := .dma (agR i)) (r₁ := 0) (r₂ := 0) (d₁ := 0) (d₂ := 0) hd₁ hd₂ () () Nag rfl
    (amount_agS XG SS RS c i 0) (amount_agR XG SS RS (fwd c (i.val + 1)) i 0) O rfl hpay₁ hpay₂

attribute [local irreducible] fwd

set_option maxHeartbeats 4000000 in
theorem part3_run (c : Dev nD) (W : Waits sig Unit) (v2 : BitVec 32) (fd2 : Buf (Elt F) ((xgSlot c).view.loc ((fwd c 2 : Dev nD) : Thread nD τ))) (fd3 : Buf (Elt F) ((xgSlot c).view.loc ((fwd c 3 : Dev nD) : Thread nD τ))) :
    iprop((cellInv ER (sched XG SS RS) (K (c, 3)) (((c : Dev nD) : Thread nD τ), SemLoc.dma agS1) ∗ cellInv ER (sched XG SS RS) (K (fwd c 2, 10)) (((fwd c 2 : Dev nD) : Thread nD τ), SemLoc.dma agR1) ∗ cellInv ER (sched XG SS RS) (K (c, 4)) (((c : Dev nD) : Thread nD τ), SemLoc.dma agS2) ∗ cellInv ER (sched XG SS RS) (K (fwd c 3, 11)) (((fwd c 3 : Dev nD) : Thread nD τ), SemLoc.dma agR2)) ∗ (reached ER (((c : Dev nD) : Thread nD τ), SemLoc.dma agS1) 0 ∗ reached ER (((fwd c 2 : Dev nD) : Thread nD τ), SemLoc.dma agR1) 0 ∗ reached ER (((c : Dev nD) : Thread nD τ), SemLoc.dma agS2) 0 ∗ reached ER (((fwd c 3 : Dev nD) : Thread nD τ), SemLoc.dma agR2) 0)
        ∗ (dutyTok ER (((c : Dev nD) : Thread nD τ), SemLoc.dma agS1) 0 0 ∗ dutyTok ER (((fwd c 2 : Dev nD) : Thread nD τ), SemLoc.dma agR1) 0 0 ∗ dutyTok ER (((c : Dev nD) : Thread nD τ), SemLoc.dma agS2) 0 0 ∗ dutyTok ER (((fwd c 3 : Dev nD) : Thread nD τ), SemLoc.dma agR2) 0 0)
        ∗ (((xgSlot c).view.loc (c : Thread nD τ) ↦[(xgSlot c).view.set]{lend 1} XG) ∗ ((xgSlot c).view.loc (c : Thread nD τ) ↦[(xgSlot c).view.set]{lend 2} XG))
        ∗ (((xgSlot c).view.loc ((fwd c 2 : Dev nD) : Thread nD τ) ↦[(xgSlot c).view.set]{fullShare} fd2) ∗ ((xgSlot c).view.loc ((fwd c 3 : Dev nD) : Thread nD τ) ↦[(xgSlot c).view.set]{fullShare} fd3))
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag) W)
      ⊢ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2)
          (fun r => iprop(⌜r = ⟨Scalar.remsi (Scalar.addi v2 2#32) 8#32, Scalar.remsi (Scalar.addi v2 3#32) 8#32, Scalar.remsi (Scalar.addi v2 4#32) 8#32⟩⌝
            ∗ cred (tallyAt (((c : Dev nD) : Thread nD τ), SemLoc.dma agS1) () Nag) ∗ cred (tallyAt (((c : Dev nD) : Thread nD τ), SemLoc.dma agS2) () Nag)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag) W)) := by
  iintro ⟨⟨#I0, #I1, #I2, #I3⟩, ⟨#R0, #R1, #R2, #R3⟩, ⟨T0, T1, T2, T3⟩, ⟨S0, S1⟩, ⟨D0, D1⟩, HO⟩
  sl_exec (disch := simp only [dev9_eq])
  iapply (ag_send XG SS RS c 1 (K (c, 3)) (K (fwd c 2, 10)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag) fd2) $$ [S0 D0 HO T0 T1]
  · isplitr; · iexact I0
    isplitr; · iexact I1
    isplitl [S0]; · iexact S0
    isplitl [D0]; · iexact D0
    isplitl [HO]; · iexact HO
    isplitl [T0]; · iexact T0
    isplitr; · iexact R0
    isplitl [T1]; · iexact T1
    iexact R1
  iintro ⟨C0, HO⟩
  sl_exec (disch := simp only [dev10_eq])
  iapply (ag_send XG SS RS c 2 (K (c, 4)) (K (fwd c 3, 11)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag) fd3) $$ [S1 D1 HO T2 T3]
  · isplitr; · iexact I2
    isplitr; · iexact I3
    isplitl [S1]; · iexact S1
    isplitl [D1]; · iexact D1
    isplitl [HO]; · iexact HO
    isplitl [T2]; · iexact T2
    isplitr; · iexact R2
    isplitl [T3]; · iexact T3
    iexact R3
  iintro ⟨C1, HO⟩
  sl_exec
  sl_step
  isplitr; · ipureintro; rfl
  isplitl [C0]; · iexact C0
  isplitl [C1]; · iexact C1
  iexact HO

end Cert.KernelIdealProof
end
-- ==== Proof.BodyP02.lean ====
/-
  Part 2 of the body: the last two entry signals; the wait for the seven peers' signals, which hands the device each peer's
  slot for its block and each peer's slot for its partial rows; its own block cast and stored into its slot of the gather
  buffer; the slot lent eight ways; and the first copy of it, to the device one place after it.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
import proofs.«900761_g7700000000000762_dist_attn_self_mha_htp_ss_b2_sq128_skv128_d512_hq8_dh64_v7x_i8_bf16_1_alg».proof.Proof.BodyTables
import proofs.«900761_g7700000000000762_dist_attn_self_mha_htp_ss_b2_sq128_skv128_d512_hq8_dh64_v7x_i8_bf16_1_alg».proof.Proof.Slots2
import proofs.«900761_g7700000000000762_dist_attn_self_mha_htp_ss_b2_sq128_skv128_d512_hq8_dh64_v7x_i8_bf16_1_alg».proof.Proof.BodyP03
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd
attribute [local sl_rounds] duties_bar amount_bar expect_bar rest_bar payload_bar_to6 payload_bar_to7

/-- The seven payloads of the entry barrier's round, duty 1 first. -/
theorem bar_payloads (c : Dev nD) :
    bigSep (Finset.univ.erase (0 : DD)) (fun d => (sched (F := F) XG SS RS).payload (barCell c) 0 d) =
      iprop(((∃ f, (xgSlot c).view.loc ((fwd c 7 : Dev nD) : Thread nD τ) ↦[(xgSlot c).view.set]{fullShare} f) ∗ reached ER (agRCell (fwd c 7) 6) 0 ∗ (∃ f, rsSlot0.view.loc ((fwd c 7 : Dev nD) : Thread nD τ) ↦[rsSlot0.view.set]{fullShare} f) ∗ reached ER (rsRCell (fwd c 7) 0) 0)
        ∗ ((∃ f, (xgSlot c).view.loc ((fwd c 6 : Dev nD) : Thread nD τ) ↦[(xgSlot c).view.set]{fullShare} f) ∗ reached ER (agRCell (fwd c 6) 5) 0 ∗ (∃ f, rsSlot1.view.loc ((fwd c 6 : Dev nD) : Thread nD τ) ↦[rsSlot1.view.set]{fullShare} f) ∗ reached ER (rsRCell (fwd c 6) 1) 0)
        ∗ ((∃ f, (xgSlot c).view.loc ((fwd c 5 : Dev nD) : Thread nD τ) ↦[(xgSlot c).view.set]{fullShare} f) ∗ reached ER (agRCell (fwd c 5) 4) 0 ∗ (∃ f, rsSlot2.view.loc ((fwd c 5 : Dev nD) : Thread nD τ) ↦[rsSlot2.view.set]{fullShare} f) ∗ reached ER (rsRCell (fwd c 5) 2) 0)
        ∗ ((∃ f, (xgSlot c).view.loc ((fwd c 4 : Dev nD) : Thread nD τ) ↦[(xgSlot c).view.set]{fullShare} f) ∗ reached ER (agRCell (fwd c 4) 3) 0 ∗ (∃ f, rsSlot3.view.loc ((fwd c 4 : Dev nD) : Thread nD τ) ↦[rsSlot3.view.set]{fullShare} f) ∗ reached ER (rsRCell (fwd c 4) 3) 0)
        ∗ ((∃ f, (xgSlot c).view.loc ((fwd c 3 : Dev nD) : Thread nD τ) ↦[(xgSlot c).view.set]{fullShare} f) ∗ reached ER (agRCell (fwd c 3) 2) 0 ∗ (∃ f, rsSlot4.view.loc ((fwd c 3 : Dev nD) : Thread nD τ) ↦[rsSlot4.view.set]{fullShare} f) ∗ reached ER (rsRCell (fwd c 3) 4) 0)
        ∗ ((∃ f, (xgSlot c).view.loc ((fwd c 2 : Dev nD) : Thread nD τ) ↦[(xgSlot c).view.set]{fullShare} f) ∗ reached ER (agRCell (fwd c 2) 1) 0 ∗ (∃ f, rsSlot5.view.loc ((fwd c 2 : Dev nD) : Thread nD τ) ↦[rsSlot5.view.set]{fullShare} f) ∗ reached ER (rsRCell (fwd c 2) 5) 0)
        ∗ ((∃ f, (xgSlot c).view.loc ((fwd c 1 : Dev nD) : Thread nD τ) ↦[(xgSlot c).view.set]{fullShare} f) ∗ reached ER (agRCell (fwd c 1) 0) 0 ∗ (∃ f, rsSlot6.view.loc ((fwd c 1 : Dev nD) : Thread nD τ) ↦[rsSlot6.view.set]{fullShare} f) ∗ reached ER (rsRCell (fwd c 1) 6) 0)) := by
  have h := rest_bar (F := F) XG SS RS c
  rwa [duties_bar, Finset.sdiff_empty] at h

set_option maxHeartbeats 4000000 in
theorem part2_run (c : Dev nD) (W : Waits sig Unit) (v2 v24 c8 : BitVec 32) (fx : Buf (Elt F) ((c : Thread nD τ).loc cc0_scratch0)) (fr : Buf (Elt F) ((c : Thread nD τ).loc cc0_scratch5))
    (x0 : Buf (Elt F) ((c : Thread nD τ).loc cc0_stg0_0))
    (hown : ∀ i ∈ (xgSlot c).view.set, (View.write (Elt F) ((Memref.whole cc0_scratch0 : Memref sig .tc .vmem S8x2x128x512 .bf16).access (Rect.unit (s := S8x2x128x512) (k0_off1 c) S1x2x128x512.size (k0_off1_inb c))) fx (k0_pay1 (View.readAt (Elt F) (Memref.whole cc0_stg0_0 : Memref sig .tc .vmem S2x128x512 .f32).view (Rect.unit (s := S2x128x512) ![0, 0, 0] S2x128x512.size inb_S2x128x512_S2x128x512_0_0_0).toLoadRect x0)) Finset.univ) i = XG i) :
    iprop((cellInv ER (sched XG SS RS) (K (fwd c 6, 0)) (barCell (fwd c 6)) ∗ cellInv ER (sched XG SS RS) (K (fwd c 7, 0)) (barCell (fwd c 7)) ∗ cellInv ER (sched XG SS RS) (K (c, 0)) (barCell c) ∗ cellInv ER (sched XG SS RS) (K (c, 2)) (agSCell c 0) ∗ cellInv ER (sched XG SS RS) (K (fwd c 1, 9)) (agRCell (fwd c 1) 0)) ∗ (reached ER (barCell (fwd c 6)) 0 ∗ reached ER (barCell (fwd c 7)) 0 ∗ reached ER (agRCell c 1) 0 ∗ reached ER (agRCell c 0) 0 ∗ reached ER (rsRCell c 5) 0 ∗ reached ER (rsRCell c 6) 0 ∗ reached ER (agSCell c 0) 0 ∗ reached ER (agRCell (fwd c 1) 0) 0)
        ∗ (dutyTok ER (barCell (fwd c 6)) 0 6 ∗ dutyTok ER (barCell (fwd c 7)) 0 7) ∗ dutyTok ER (agSCell c 0) 0 0 ∗ dutyTok ER (agRCell (fwd c 1) 0) 0 0
        ∗ (((xgSlot (fwd c 6)).view.loc (c : Thread nD τ) ↦[(xgSlot (fwd c 6)).view.set]{fullShare} fx) ∗ ((xgSlot (fwd c 7)).view.loc (c : Thread nD τ) ↦[(xgSlot (fwd c 7)).view.set]{fullShare} fx)) ∗ ((rsSlot5.view.loc (c : Thread nD τ) ↦[rsSlot5.view.set]{fullShare} fr) ∗ (rsSlot6.view.loc (c : Thread nD τ) ↦[rsSlot6.view.set]{fullShare} fr))
        ∗ ((xgSlot c).view.loc (c : Thread nD τ) ↦[(xgSlot c).view.set]{fullShare} fx)
        ∗ atPos ER (barCell c) 0 ∅ 0 ∗ cred (tallyAt (barCell c) () 7) ∗ levAts L lv
        ∗ (View.loc (c : Thread nD τ) (Memref.whole cc0_stg0_0 : Memref sig .tc .vmem S2x128x512 .f32).view ↦{fullShare} x0)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag + tallyAt (agRCell (fwd c 1) 0) () Nag + tallyAt (barCell (fwd c 7)) () 1 + tallyAt (barCell (fwd c 6)) () 1) W)
      ⊢ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 (SemArray.scalar (sig.barrier 0 rfl)) v24 c8)
          (fun _ => iprop(atPos ER (barCell c) 1 ∅ 0 ∗ reached ER (barCell c) 1
            ∗ (((∃ f, (xgSlot c).view.loc ((fwd c 7 : Dev nD) : Thread nD τ) ↦[(xgSlot c).view.set]{fullShare} f) ∗ reached ER (agRCell (fwd c 7) 6) 0 ∗ (∃ f, rsSlot0.view.loc ((fwd c 7 : Dev nD) : Thread nD τ) ↦[rsSlot0.view.set]{fullShare} f) ∗ reached ER (rsRCell (fwd c 7) 0) 0) ∗ ((∃ f, (xgSlot c).view.loc ((fwd c 6 : Dev nD) : Thread nD τ) ↦[(xgSlot c).view.set]{fullShare} f) ∗ reached ER (agRCell (fwd c 6) 5) 0 ∗ (∃ f, rsSlot1.view.loc ((fwd c 6 : Dev nD) : Thread nD τ) ↦[rsSlot1.view.set]{fullShare} f) ∗ reached ER (rsRCell (fwd c 6) 1) 0) ∗ ((∃ f, (xgSlot c).view.loc ((fwd c 5 : Dev nD) : Thread nD τ) ↦[(xgSlot c).view.set]{fullShare} f) ∗ reached ER (agRCell (fwd c 5) 4) 0 ∗ (∃ f, rsSlot2.view.loc ((fwd c 5 : Dev nD) : Thread nD τ) ↦[rsSlot2.view.set]{fullShare} f) ∗ reached ER (rsRCell (fwd c 5) 2) 0) ∗ ((∃ f, (xgSlot c).view.loc ((fwd c 4 : Dev nD) : Thread nD τ) ↦[(xgSlot c).view.set]{fullShare} f) ∗ reached ER (agRCell (fwd c 4) 3) 0 ∗ (∃ f, rsSlot3.view.loc ((fwd c 4 : Dev nD) : Thread nD τ) ↦[rsSlot3.view.set]{fullShare} f) ∗ reached ER (rsRCell (fwd c 4) 3) 0) ∗ ((∃ f, (xgSlot c).view.loc ((fwd c 3 : Dev nD) : Thread nD τ) ↦[(xgSlot c).view.set]{fullShare} f) ∗ reached ER (agRCell (fwd c 3) 2) 0 ∗ (∃ f, rsSlot4.view.loc ((fwd c 3 : Dev nD) : Thread nD τ) ↦[rsSlot4.view.set]{fullShare} f) ∗ reached ER (rsRCell (fwd c 3) 4) 0) ∗ ((∃ f, (xgSlot c).view.loc ((fwd c 2 : Dev nD) : Thread nD τ) ↦[(xgSlot c).view.set]{fullShare} f) ∗ reached ER (agRCell (fwd c 2) 1) 0 ∗ (∃ f, rsSlot5.view.loc ((fwd c 2 : Dev nD) : Thread nD τ) ↦[rsSlot5.view.set]{fullShare} f) ∗ reached ER (rsRCell (fwd c 2) 5) 0))
            ∗ ((∃ f, rsSlot6.view.loc ((fwd c 1 : Dev nD) : Thread nD τ) ↦[rsSlot6.view.set]{fullShare} f) ∗ reached ER (rsRCell (fwd c 1) 6) 0)
            ∗ (((xgSlot c).view.loc (c : Thread nD τ) ↦[(xgSlot c).view.set]{lend 1} XG) ∗ ((xgSlot c).view.loc (c : Thread nD τ) ↦[(xgSlot c).view.set]{lend 2} XG) ∗ ((xgSlot c).view.loc (c : Thread nD τ) ↦[(xgSlot c).view.set]{lend 3} XG) ∗ ((xgSlot c).view.loc (c : Thread nD τ) ↦[(xgSlot c).view.set]{lend 4} XG) ∗ ((xgSlot c).view.loc (c : Thread nD τ) ↦[(xgSlot c).view.set]{lend 5} XG) ∗ ((xgSlot c).view.loc (c : Thread nD τ) ↦[(xgSlot c).view.set]{lend 6} XG)) ∗ ((xgSlot c).view.loc (c : Thread nD τ) ↦[(xgSlot c).view.set]{kept} XG)
            ∗ cred (tallyAt (agSCell c 0) () Nag)
            ∗ (View.loc (c : Thread nD τ) (Memref.whole cc0_stg0_0 : Memref sig .tc .vmem S2x128x512 .f32).view ↦{fullShare} x0)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag) (insert (SemLoc.reg barS, ()) W))) := by
  iintro ⟨⟨#I0, #I1, #I2, #I3, #I4⟩, ⟨#R0, #R1, #R2, #R3, #R4, #R5, #R6, #R7⟩, ⟨T5, T6⟩, TS, TR, ⟨X5, X6⟩, ⟨Y5, Y6⟩, Xc, Hat, Hcr, Hlev, Hx0, HO⟩
  have hmw := mayWait_bar (F := F) c
  sl_exec (disch := simp only [dev8_eq])
  sl_unfold_run_names
  ihave Xc' := (Entails.of_eq (slot_congr (F := F) c fullShare (xgSlot c) hown)) $$ Xc
  ihave Xl := (Entails.of_eq (own_lend (F := F) c XG)) $$ Xc'
  icases Xl with ⟨L0, L1, L2, L3, L4, L5, L6, Lk⟩
  ihave Hp := (Entails.of_eq (bar_payloads (F := F) XG SS RS c)) $$ Hat_pay1
  icases Hp with ⟨P1, P2, P3, P4, P5, P6, ⟨⟨%fd, Hd⟩, #Hrd, Hrs7, #Hrr7⟩⟩
  iapply (ag_send XG SS RS c 0 (K (c, 2)) (K (fwd c 1, 9)) (insert (SemLoc.reg barS, ()) W) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag + tallyAt (agRCell (fwd c 3) 2) () Nag + tallyAt (agRCell (fwd c 2) 1) () Nag) fd) $$ [L0 Hd HO TS TR]
  · isplitr; · iexact I3
    isplitr; · iexact I4
    isplitl [L0]; · iexact L0
    isplitl [Hd]; · iexact Hd
    isplitl [HO]; · iexact HO
    isplitl [TS]; · iexact TS
    isplitr; · iexact R6
    isplitl [TR]; · iexact TR
    iexact R7
  iintro ⟨C0, HO⟩
  sl_exec
  sl_step
  isplitl [Hat]; · iexact Hat
  isplitl [Hat_reached]; · iexact Hat_reached
  isplitl [P1 P2 P3 P4 P5 P6]
  · isplitl [P1]; · iexact P1
    isplitl [P2]; · iexact P2
    isplitl [P3]; · iexact P3
    isplitl [P4]; · iexact P4
    isplitl [P5]; · iexact P5
    iexact P6
  isplitl [Hrs7]
  · isplitl [Hrs7]; · iexact Hrs7
    iexact Hrr7
  isplitl [L1 L2 L3 L4 L5 L6]
  · isplitl [L1]; · iexact L1
    isplitl [L2]; · iexact L2
    isplitl [L3]; · iexact L3
    isplitl [L4]; · iexact L4
    isplitl [L5]; · iexact L5
    iexact L6
  isplitl [Lk]; · iexact Lk
  isplitl [C0]; · iexact C0
  isplitl [Hx0]; · iexact Hx0
  iexact HO

end Cert.KernelIdealProof

end
-- ==== Proof.BodyP04.lean ====
/-
  Part 4 of the body: the gather's copies 4 and 5, each by the one rule for a copy of the gather: the lent share of the own slot
  goes out, slot `c` of the receiver comes to hold the gathered contents, the receiver's tally comes off what `c` owes.
-/
import proofs.«900761_g7700000000000762_dist_attn_self_mha_htp_ss_b2_sq128_skv128_d512_hq8_dh64_v7x_i8_bf16_1_alg».proof.Proof.BodyP03
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
theorem part4_run (c : Dev nD) (W : Waits sig Unit) (v2 : BitVec 32) (fd4 : Buf (Elt F) ((xgSlot c).view.loc ((fwd c 4 : Dev nD) : Thread nD τ))) (fd5 : Buf (Elt F) ((xgSlot c).view.loc ((fwd c 5 : Dev nD) : Thread nD τ))) :
    iprop((cellInv ER (sched XG SS RS) (K (c, 5)) (((c : Dev nD) : Thread nD τ), SemLoc.dma agS3) ∗ cellInv ER (sched XG SS RS) (K (fwd c 4, 12)) (((fwd c 4 : Dev nD) : Thread nD τ), SemLoc.dma agR3) ∗ cellInv ER (sched XG SS RS) (K (c, 6)) (((c : Dev nD) : Thread nD τ), SemLoc.dma agS4) ∗ cellInv ER (sched XG SS RS) (K (fwd c 5, 13)) (((fwd c 5 : Dev nD) : Thread nD τ), SemLoc.dma agR4)) ∗ (reached ER (((c : Dev nD) : Thread nD τ), SemLoc.dma agS3) 0 ∗ reached ER (((fwd c 4 : Dev nD) : Thread nD τ), SemLoc.dma agR3) 0 ∗ reached ER (((c : Dev nD) : Thread nD τ), SemLoc.dma agS4) 0 ∗ reached ER (((fwd c 5 : Dev nD) : Thread nD τ), SemLoc.dma agR4) 0)
        ∗ (dutyTok ER (((c : Dev nD) : Thread nD τ), SemLoc.dma agS3) 0 0 ∗ dutyTok ER (((fwd c 4 : Dev nD) : Thread nD τ), SemLoc.dma agR3) 0 0 ∗ dutyTok ER (((c : Dev nD) : Thread nD τ), SemLoc.dma agS4) 0 0 ∗ dutyTok ER (((fwd c 5 : Dev nD) : Thread nD τ), SemLoc.dma agR4) 0 0)
        ∗ (((xgSlot c).view.loc (c : Thread nD τ) ↦[(xgSlot c).view.set]{lend 3} XG) ∗ ((xgSlot c).view.loc (c : Thread nD τ) ↦[(xgSlot c).view.set]{lend 4} XG))
        ∗ (((xgSlot c).view.loc ((fwd c 4 : Dev nD) : Thread nD τ) ↦[(xgSlot c).view.set]{fullShare} fd4) ∗ ((xgSlot c).view.loc ((fwd c 5 : Dev nD) : Thread nD τ) ↦[(xgSlot c).view.set]{fullShare} fd5))
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag + tallyAt (agRCell (fwd c 4) 3) () Nag) W)
      ⊢ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2)
          (fun r => iprop(⌜r = ⟨Scalar.remsi (Scalar.addi v2 5#32) 8#32, Scalar.remsi (Scalar.addi v2 6#32) 8#32⟩⌝
            ∗ cred (tallyAt (((c : Dev nD) : Thread nD τ), SemLoc.dma agS3) () Nag) ∗ cred (tallyAt (((c : Dev nD) : Thread nD τ), SemLoc.dma agS4) () Nag)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag) W)) := by
  iintro ⟨⟨#I0, #I1, #I2, #I3⟩, ⟨#R0, #R1, #R2, #R3⟩, ⟨T0, T1, T2, T3⟩, ⟨S0, S1⟩, ⟨D0, D1⟩, HO⟩
  sl_exec (disch := simp only [dev11_eq])
  iapply (ag_send XG SS RS c 3 (K (c, 5)) (K (fwd c 4, 12)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag + tallyAt (agRCell (fwd c 5) 4) () Nag) fd4) $$ [S0 D0 HO T0 T1]
  · isplitr; · iexact I0
    isplitr; · iexact I1
    isplitl [S0]; · iexact S0
    isplitl [D0]; · iexact D0
    isplitl [HO]; · iexact HO
    isplitl [T0]; · iexact T0
    isplitr; · iexact R0
    isplitl [T1]; · iexact T1
    iexact R1
  iintro ⟨C0, HO⟩
  sl_exec (disch := simp only [dev12_eq])
  iapply (ag_send XG SS RS c 4 (K (c, 6)) (K (fwd c 5, 13)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag) fd5) $$ [S1 D1 HO T2 T3]
  · isplitr; · iexact I2
    isplitr; · iexact I3
    isplitl [S1]; · iexact S1
    isplitl [D1]; · iexact D1
    isplitl [HO]; · iexact HO
    isplitl [T2]; · iexact T2
    isplitr; · iexact R2
    isplitl [T3]; · iexact T3
    iexact R3
  iintro ⟨C1, HO⟩
  sl_exec
  sl_step
  isplitr; · ipureintro; rfl
  isplitl [C0]; · iexact C0
  isplitl [C1]; · iexact C1
  iexact HO

end Cert.KernelIdealProof
end
-- ==== Proof.BodyP05.lean ====
/-
  Part 5 of the body: the gather's copies 6 and 7, each by the one rule for a copy of the gather; then the loads of the four
  weight staging buffers, held whole, and of the device's own slot of xg, of which it holds the share kept for its own
  loads: the load's rectangle, at leading coordinate `c`, lies in that slot.
-/
import proofs.«900761_g7700000000000762_dist_attn_self_mha_htp_ss_b2_sq128_skv128_d512_hq8_dh64_v7x_i8_bf16_1_alg».proof.Proof.BodyP03
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
theorem part5_run (c : Dev nD) (W : Waits sig Unit) (v2 : BitVec 32) (fd6 : Buf (Elt F) ((xgSlot c).view.loc ((fwd c 6 : Dev nD) : Thread nD τ))) (fd7 : Buf (Elt F) ((xgSlot c).view.loc ((fwd c 7 : Dev nD) : Thread nD τ))) (w1 : Buf (Elt F) ((c : Thread nD τ).loc cc0_stg1_0)) (w2 : Buf (Elt F) ((c : Thread nD τ).loc cc0_stg2_0)) (w3 : Buf (Elt F) ((c : Thread nD τ).loc cc0_stg3_0)) (w4 : Buf (Elt F) ((c : Thread nD τ).loc cc0_stg4_0)) (fo : Buf (Elt F) ((xgSlot c).view.loc (c : Thread nD τ))) :
    iprop((cellInv ER (sched XG SS RS) (K (c, 7)) (((c : Dev nD) : Thread nD τ), SemLoc.dma agS5) ∗ cellInv ER (sched XG SS RS) (K (fwd c 6, 14)) (((fwd c 6 : Dev nD) : Thread nD τ), SemLoc.dma agR5) ∗ cellInv ER (sched XG SS RS) (K (c, 8)) (((c : Dev nD) : Thread nD τ), SemLoc.dma agS6) ∗ cellInv ER (sched XG SS RS) (K (fwd c 7, 15)) (((fwd c 7 : Dev nD) : Thread nD τ), SemLoc.dma agR6)) ∗ (reached ER (((c : Dev nD) : Thread nD τ), SemLoc.dma agS5) 0 ∗ reached ER (((fwd c 6 : Dev nD) : Thread nD τ), SemLoc.dma agR5) 0 ∗ reached ER (((c : Dev nD) : Thread nD τ), SemLoc.dma agS6) 0 ∗ reached ER (((fwd c 7 : Dev nD) : Thread nD τ), SemLoc.dma agR6) 0)
        ∗ (dutyTok ER (((c : Dev nD) : Thread nD τ), SemLoc.dma agS5) 0 0 ∗ dutyTok ER (((fwd c 6 : Dev nD) : Thread nD τ), SemLoc.dma agR5) 0 0 ∗ dutyTok ER (((c : Dev nD) : Thread nD τ), SemLoc.dma agS6) 0 0 ∗ dutyTok ER (((fwd c 7 : Dev nD) : Thread nD τ), SemLoc.dma agR6) 0 0)
        ∗ (((xgSlot c).view.loc (c : Thread nD τ) ↦[(xgSlot c).view.set]{lend 5} XG) ∗ ((xgSlot c).view.loc (c : Thread nD τ) ↦[(xgSlot c).view.set]{lend 6} XG))
        ∗ (((xgSlot c).view.loc ((fwd c 6 : Dev nD) : Thread nD τ) ↦[(xgSlot c).view.set]{fullShare} fd6) ∗ ((xgSlot c).view.loc ((fwd c 7 : Dev nD) : Thread nD τ) ↦[(xgSlot c).view.set]{fullShare} fd7))
        ∗ ((View.loc (c : Thread nD τ) (Memref.whole cc0_stg1_0 : Memref sig .tc .vmem S512x512 .f32).view ↦{fullShare} w1) ∗ (View.loc (c : Thread nD τ) (Memref.whole cc0_stg2_0 : Memref sig .tc .vmem S512x512 .f32).view ↦{fullShare} w2) ∗ (View.loc (c : Thread nD τ) (Memref.whole cc0_stg3_0 : Memref sig .tc .vmem S512x512 .f32).view ↦{fullShare} w3) ∗ (View.loc (c : Thread nD τ) (Memref.whole cc0_stg4_0 : Memref sig .tc .vmem S512x512 .f32).view ↦{fullShare} w4))
        ∗ ((xgSlot c).view.loc (c : Thread nD τ) ↦[(xgSlot c).view.set]{kept} fo)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag + tallyAt (agRCell (fwd c 6) 5) () Nag) W)
      ⊢ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2)
          (fun r => iprop(⌜r = ⟨Scalar.remsi (Scalar.addi v2 7#32) 8#32,
                k0_pay2 (View.readAt (Elt F) (Memref.whole cc0_stg2_0 : Memref sig .tc .vmem S512x512 .f32).view (Rect.unit (s := S512x512) ![0, 0] S512x512.size inb_S512x512_S512x512_0_0).toLoadRect w2),
                k0_pay3 (View.readAt (Elt F) (Memref.whole cc0_stg1_0 : Memref sig .tc .vmem S512x512 .f32).view (Rect.unit (s := S512x512) ![0, 0] S512x512.size inb_S512x512_S512x512_0_0).toLoadRect w1) (View.readAt (Elt F) (Memref.whole cc0_stg3_0 : Memref sig .tc .vmem S512x512 .f32).view (Rect.unit (s := S512x512) ![0, 0] S512x512.size inb_S512x512_S512x512_0_0).toLoadRect w3) (View.readAt (Elt F) (Memref.whole cc0_stg4_0 : Memref sig .tc .vmem S512x512 .f32).view (Rect.unit (s := S512x512) ![0, 0] S512x512.size inb_S512x512_S512x512_0_0).toLoadRect w4),
                k0_pay4 (View.readAt (Elt F) (Memref.whole cc0_scratch0 : Memref sig .tc .vmem S8x2x128x512 .bf16).view (Rect.unit (s := S8x2x128x512) (k0_off1 c) S1x2x128x512.size (k0_off1_inb c)).toLoadRect fo)⟩⌝
            ∗ cred (tallyAt (((c : Dev nD) : Thread nD τ), SemLoc.dma agS5) () Nag) ∗ cred (tallyAt (((c : Dev nD) : Thread nD τ), SemLoc.dma agS6) () Nag)
            ∗ ((View.loc (c : Thread nD τ) (Memref.whole cc0_stg1_0 : Memref sig .tc .vmem S512x512 .f32).view ↦{fullShare} w1) ∗ (View.loc (c : Thread nD τ) (Memref.whole cc0_stg2_0 : Memref sig .tc .vmem S512x512 .f32).view ↦{fullShare} w2) ∗ (View.loc (c : Thread nD τ) (Memref.whole cc0_stg3_0 : Memref sig .tc .vmem S512x512 .f32).view ↦{fullShare} w3) ∗ (View.loc (c : Thread nD τ) (Memref.whole cc0_stg4_0 : Memref sig .tc .vmem S512x512 .f32).view ↦{fullShare} w4))
            ∗ ((xgSlot c).view.loc (c : Thread nD τ) ↦[(xgSlot c).view.set]{kept} fo)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W)) := by
  have hsub : ((Memref.whole cc0_scratch0 : Memref sig .tc .vmem S8x2x128x512 .bf16).access (Rect.unit (s := S8x2x128x512) (k0_off1 c) S1x2x128x512.size (k0_off1_inb c))).set ⊆ (xgSlot c).view.set := by
    have e : ((Memref.whole cc0_scratch0 : Memref sig .tc .vmem S8x2x128x512 .bf16).access (Rect.unit (s := S8x2x128x512) (k0_off1 c) S1x2x128x512.size (k0_off1_inb c))).set
        = (Rect.unit (s := S8x2x128x512) (k0_off1 c) S1x2x128x512.size (k0_off1_inb c)).set := View.set_slice_whole _ _
    intro i hi
    rw [e, Rect.mem_set_unit, k0_off1_eq] at hi
    refine (mem_xgSlot_set c i).mpr ?_
    have := hi 0
    simp at this
    omega
  iintro ⟨⟨#I0, #I1, #I2, #I3⟩, ⟨#R0, #R1, #R2, #R3⟩, ⟨T0, T1, T2, T3⟩, ⟨S0, S1⟩, ⟨D0, D1⟩, ⟨W1, W2, W3, W4⟩, HK, HO⟩
  sl_exec (disch := simp only [dev13_eq])
  iapply (ag_send XG SS RS c 5 (K (c, 7)) (K (fwd c 6, 14)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs + tallyAt (agRCell (fwd c 7) 6) () Nag) fd6) $$ [S0 D0 HO T0 T1]
  · isplitr; · iexact I0
    isplitr; · iexact I1
    isplitl [S0]; · iexact S0
    isplitl [D0]; · iexact D0
    isplitl [HO]; · iexact HO
    isplitl [T0]; · iexact T0
    isplitr; · iexact R0
    isplitl [T1]; · iexact T1
    iexact R1
  iintro ⟨C0, HO⟩
  sl_exec (disch := simp only [dev14_eq])
  iapply (ag_send XG SS RS c 6 (K (c, 8)) (K (fwd c 7, 15)) W (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) fd7) $$ [S1 D1 HO T2 T3]
  · isplitr; · iexact I2
    isplitr; · iexact I3
    isplitl [S1]; · iexact S1
    isplitl [D1]; · iexact D1
    isplitl [HO]; · iexact HO
    isplitl [T2]; · iexact T2
    isplitr; · iexact R2
    isplitl [T3]; · iexact T3
    iexact R3
  iintro ⟨C1, HO⟩
  sl_exec
  sl_step
  isplitr; · ipureintro; rfl
  isplitl [C0]; · iexact C0
  isplitl [C1]; · iexact C1
  isplitl [W1 W2 W3 W4]
  · isplitl [W1]; · iexact W1
    isplitl [W2]; · iexact W2
    isplitl [W3]; · iexact W3
    iexact W4
  isplitl [HK]; · iexact HK
  iexact HO

end Cert.KernelIdealProof
end
-- ==== Proof.BodyMid1Vals.lean ====
/-
  The q, k and v scratch buffers fill block by block: each store writes the 128 rows of the next rotated block and leaves
  the others. Contents that agree with the final ones on the blocks below n agree on block n too after that block's
  store; a load of rows lying in blocks already stored returns the final contents' rows; after the eighth store the
  contents are the final ones. The block a device loads from slot (c + 7 − r) mod 8 of the gather buffer is the block of
  x of the device 1 + r places back, which is what rotated block 1 + r is computed from.
-/
import proofs.«900761_g7700000000000762_dist_attn_self_mha_htp_ss_b2_sq128_skv128_d512_hq8_dh64_v7x_i8_bf16_1_alg».proof.Proof.Contents
import Idealize.ShloMosaic.Lib.WritesUnit
import Idealize.ShloMosaic.Lib.Pipeline.FrameBody

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]

/-! ## Any view of the shape of the three scratch buffers -/

section AnyView

variable {κ : Idealize.ShloMosaic.Kind} {sp : Space} (v : View sig κ sp S2x1024x512 .bf16)

/-- The contents f, read through the view, agree with G on the rotated blocks below n. -/
def AgreesOn (G : S2x1024x512.Idx → Elt F .bf16) (n : ℕ) (f : v.ty.Contents (Elt F)) : Prop :=
  ∀ y : S2x1024x512.Idx, (y 1).val / 128 < n → v.read (Elt F) f y = G y

omit [FloatOps F] in
theorem agreesOn_zero (G : S2x1024x512.Idx → Elt F .bf16) (f : v.ty.Contents (Elt F)) : AgreesOn v G 0 f :=
  fun _ h => absurd h (Nat.not_lt_zero _)

omit [FloatOps F] in
/-- One more block stored: agreement on the blocks below n extends to block n. -/
theorem agreesOn_write (G : S2x1024x512.Idx → Elt F .bf16) (n : ℕ) (f : v.ty.Contents (Elt F)) (off : Fin 3 → ℕ)
    (inb : ∀ a, off a + S2x128x512.size a ≤ S2x1024x512.size a) (hoff : off = ![0, 128 * n, 0]) (P : Vec F S2x128x512 .bf16)
    (hP : ∀ y : S2x1024x512.Idx, (y 1).val / 128 = n → P (ix3 (y 0) (Cert.Spec.inBlk (y 1)) (y 2)) = G y)
    (h : AgreesOn v G n f) :
    AgreesOn v G (n + 1) (v.writes (Elt F) f [⟨Rect.unit (s := S2x1024x512) off S2x128x512.size inb, P⟩]) := by
  intro y hy
  by_cases hb : (y 1).val / 128 = n
  · refine Eq.trans ?_ (hP y hb)
    exact View.read_writes_cons_unit_of_mem v f inb P [] y (ix3 (y 0) (Cert.Spec.inBlk (y 1)) (y 2)) hoff (fun a => by
      match a with
      | ⟨0, _⟩ => show (y 0).val = 0 + (y 0).val; omega
      | ⟨1, _⟩ => show (y 1).val = 128 * n + (y 1).val % 128; omega
      | ⟨2, _⟩ => show (y 2).val = 0 + (y 2).val; omega)
  · refine Eq.trans ?_ (h y (by omega))
    exact View.read_writes_cons_unit_of_not_mem v f inb P [] y hoff 1 (Or.inl (by show (y 1).val < 128 * n; omega))

omit [FloatOps F] in
/-- A block of 512 rows read below the blocks already stored is that block of G. -/
theorem ld_of_agreesOn (G : S2x1024x512.Idx → Elt F .bf16) (n : ℕ) (f : v.ty.Contents (Elt F)) (h : AgreesOn v G n f) (b0 r0 : ℕ)
    (inb : ∀ a, (![b0, r0, 0] : Fin 3 → ℕ) a + S1x512x512.size a ≤ S2x1024x512.size a) (hr : r0 + 512 ≤ 128 * n) :
    View.readAt (Elt F) v (Rect.unit (s := S2x1024x512) ![b0, r0, 0] S1x512x512.size inb).toLoadRect f
      = View.ld G (Rect.unit (s := S2x1024x512) ![b0, r0, 0] S1x512x512.size inb) := by
  funext x
  refine h _ ?_
  have hx : (x 1).val < 512 := (x 1).isLt
  show (r0 + 1 * (x 1).val) / 128 < n
  omega

end AnyView

/-! ## The three scratch buffers -/

variable (m : (ℓ : Loc nD τ sig) → Buf (Elt F) ℓ)

/-- The contents g agree with G on the rotated blocks below n. -/
def AgreesBelow (G g : S2x1024x512.Idx → Elt F .bf16) (n : ℕ) : Prop :=
  ∀ i : S2x1024x512.Idx, (i 1).val / 128 < n → g i = G i

omit [FloatOps F] in
theorem agrees_zero (G g : S2x1024x512.Idx → Elt F .bf16) : AgreesBelow G g 0 := fun _ h => absurd h (Nat.not_lt_zero _)

omit [FloatOps F] in
/-- Agreement on all eight blocks is equality. -/
theorem eq_of_agrees_eight (G g : S2x1024x512.Idx → Elt F .bf16) (h : AgreesBelow G g 8) : g = G :=
  funext fun i => h i (by have h1 : (i 1).val < 1024 := (i 1).isLt; show (i 1).val / 128 < 8; omega)

set_option maxHeartbeats 1000000 in
/-- One more block stored into the q scratch: agreement on the blocks below n extends to block n. -/
theorem agrees_write_1 (G g : S2x1024x512.Idx → Elt F .bf16) (n : ℕ) (off : Fin 3 → ℕ)
    (inb : ∀ a, off a + S2x128x512.size a ≤ S2x1024x512.size a) (hoff : off = ![0, 128 * n, 0]) (P : Vec F S2x128x512 .bf16)
    (hP : ∀ i : S2x1024x512.Idx, (i 1).val / 128 = n → P (ix3 (i 0) (Cert.Spec.inBlk (i 1)) (i 2)) = G i)
    (h : AgreesBelow G g n) :
    AgreesBelow G ((Memref.whole cc0_scratch1 : Memref sig .tc .vmem S2x1024x512 .bf16).view.writes (Elt F) g
      [⟨Rect.unit (s := S2x1024x512) off S2x128x512.size inb, P⟩]) (n + 1) := by
  have hg : AgreesOn (View.whole cc0_scratch1 : View sig .tc _ S2x1024x512 .bf16) G n g := fun y hy => by
    rw [View.read_whole]; exact h y hy
  intro i hi
  have e := agreesOn_write (View.whole cc0_scratch1 : View sig .tc _ S2x1024x512 .bf16) G n g off inb hoff P hP hg i hi
  rw [View.read_whole] at e
  exact e

/-- A block of 512 rows read from the q scratch below the blocks already stored is that block of the final contents. -/
theorem ld_of_agrees_1 (G g : S2x1024x512.Idx → Elt F .bf16) (n : ℕ) (h : AgreesBelow G g n) (b0 r0 : ℕ)
    (inb : ∀ a, (![b0, r0, 0] : Fin 3 → ℕ) a + S1x512x512.size a ≤ S2x1024x512.size a) (hr : r0 + 512 ≤ 128 * n) :
    View.readAt (Elt F) (Memref.whole cc0_scratch1 : Memref sig .tc .vmem S2x1024x512 .bf16).view
        (Rect.unit (s := S2x1024x512) ![b0, r0, 0] S1x512x512.size inb).toLoadRect g
      = View.ld G (Rect.unit (s := S2x1024x512) ![b0, r0, 0] S1x512x512.size inb) := by
  funext x
  refine h _ ?_
  have hx : (x 1).val < 512 := (x 1).isLt
  show (r0 + 1 * (x 1).val) / 128 < n
  omega

set_option maxHeartbeats 1000000 in
/-- One more block stored into the k scratch: agreement on the blocks below n extends to block n. -/
theorem agrees_write_2 (G g : S2x1024x512.Idx → Elt F .bf16) (n : ℕ) (off : Fin 3 → ℕ)
    (inb : ∀ a, off a + S2x128x512.size a ≤ S2x1024x512.size a) (hoff : off = ![0, 128 * n, 0]) (P : Vec F S2x128x512 .bf16)
    (hP : ∀ i : S2x1024x512.Idx, (i 1).val / 128 = n → P (ix3 (i 0) (Cert.Spec.inBlk (i 1)) (i 2)) = G i)
    (h : AgreesBelow G g n) :
    AgreesBelow G ((Memref.whole cc0_scratch2 : Memref sig .tc .vmem S2x1024x512 .bf16).view.writes (Elt F) g
      [⟨Rect.unit (s := S2x1024x512) off S2x128x512.size inb, P⟩]) (n + 1) := by
  have hg : AgreesOn (View.whole cc0_scratch2 : View sig .tc _ S2x1024x512 .bf16) G n g := fun y hy => by
    rw [View.read_whole]; exact h y hy
  intro i hi
  have e := agreesOn_write (View.whole cc0_scratch2 : View sig .tc _ S2x1024x512 .bf16) G n g off inb hoff P hP hg i hi
  rw [View.read_whole] at e
  exact e

/-- A block of 512 rows read from the k scratch below the blocks already stored is that block of the final contents. -/
theorem ld_of_agrees_2 (G g : S2x1024x512.Idx → Elt F .bf16) (n : ℕ) (h : AgreesBelow G g n) (b0 r0 : ℕ)
    (inb : ∀ a, (![b0, r0, 0] : Fin 3 → ℕ) a + S1x512x512.size a ≤ S2x1024x512.size a) (hr : r0 + 512 ≤ 128 * n) :
    View.readAt (Elt F) (Memref.whole cc0_scratch2 : Memref sig .tc .vmem S2x1024x512 .bf16).view
        (Rect.unit (s := S2x1024x512) ![b0, r0, 0] S1x512x512.size inb).toLoadRect g
      = View.ld G (Rect.unit (s := S2x1024x512) ![b0, r0, 0] S1x512x512.size inb) := by
  funext x
  refine h _ ?_
  have hx : (x 1).val < 512 := (x 1).isLt
  show (r0 + 1 * (x 1).val) / 128 < n
  omega

set_option maxHeartbeats 1000000 in
/-- One more block stored into the v scratch: agreement on the blocks below n extends to block n. -/
theorem agrees_write_3 (G g : S2x1024x512.Idx → Elt F .bf16) (n : ℕ) (off : Fin 3 → ℕ)
    (inb : ∀ a, off a + S2x128x512.size a ≤ S2x1024x512.size a) (hoff : off = ![0, 128 * n, 0]) (P : Vec F S2x128x512 .bf16)
    (hP : ∀ i : S2x1024x512.Idx, (i 1).val / 128 = n → P (ix3 (i 0) (Cert.Spec.inBlk (i 1)) (i 2)) = G i)
    (h : AgreesBelow G g n) :
    AgreesBelow G ((Memref.whole cc0_scratch3 : Memref sig .tc .vmem S2x1024x512 .bf16).view.writes (Elt F) g
      [⟨Rect.unit (s := S2x1024x512) off S2x128x512.size inb, P⟩]) (n + 1) := by
  have hg : AgreesOn (View.whole cc0_scratch3 : View sig .tc _ S2x1024x512 .bf16) G n g := fun y hy => by
    rw [View.read_whole]; exact h y hy
  intro i hi
  have e := agreesOn_write (View.whole cc0_scratch3 : View sig .tc _ S2x1024x512 .bf16) G n g off inb hoff P hP hg i hi
  rw [View.read_whole] at e
  exact e

/-- A block of 512 rows read from the v scratch below the blocks already stored is that block of the final contents. -/
theorem ld_of_agrees_3 (G g : S2x1024x512.Idx → Elt F .bf16) (n : ℕ) (h : AgreesBelow G g n) (b0 r0 : ℕ)
    (inb : ∀ a, (![b0, r0, 0] : Fin 3 → ℕ) a + S1x512x512.size a ≤ S2x1024x512.size a) (hr : r0 + 512 ≤ 128 * n) :
    View.readAt (Elt F) (Memref.whole cc0_scratch3 : Memref sig .tc .vmem S2x1024x512 .bf16).view
        (Rect.unit (s := S2x1024x512) ![b0, r0, 0] S1x512x512.size inb).toLoadRect g
      = View.ld G (Rect.unit (s := S2x1024x512) ![b0, r0, 0] S1x512x512.size inb) := by
  funext x
  refine h _ ?_
  have hx : (x 1).val < 512 := (x 1).isLt
  show (r0 + 1 * (x 1).val) / 128 < n
  omega

/-! ## The offsets of the eight blocks -/

theorem off3_block : ∀ c : Dev nD, k0_off3 c = ![0, 128 * 0, 0] := by decide +kernel
theorem off5_block : ∀ (c : Dev nD) (r : Fin 7), k0_off5 c (BitVec.ofNat 32 (1 + r.val)) = ![0, 128 * (1 + r.val), 0] := by decide +kernel

/-! ## The final contents on a block -/

theorem Qbuf_block (c : Dev nD) (ρ : Fin 8) (i : S2x1024x512.Idx) (hb : (i 1).val / 128 = ρ.val) :
    (Qbuf m c : S2x1024x512.Idx → Elt F .bf16) i = Qchunk m c ρ (ix3 (i 0) (Cert.Spec.inBlk (i 1)) (i 2)) := by
  have e : Cert.Spec.blkOf (i 1) = ρ := Fin.ext hb
  show Qchunk m c (Cert.Spec.blkOf (i 1)) _ = _
  rw [e]
theorem Kbuf_block (c : Dev nD) (ρ : Fin 8) (i : S2x1024x512.Idx) (hb : (i 1).val / 128 = ρ.val) :
    (Kbuf m c : S2x1024x512.Idx → Elt F .bf16) i = Kchunk m c ρ (ix3 (i 0) (Cert.Spec.inBlk (i 1)) (i 2)) := by
  have e : Cert.Spec.blkOf (i 1) = ρ := Fin.ext hb
  show Kchunk m c (Cert.Spec.blkOf (i 1)) _ = _
  rw [e]
theorem Vbuf_block (c : Dev nD) (ρ : Fin 8) (i : S2x1024x512.Idx) (hb : (i 1).val / 128 = ρ.val) :
    (Vbuf m c : S2x1024x512.Idx → Elt F .bf16) i = Vchunk m c ρ (ix3 (i 0) (Cert.Spec.inBlk (i 1)) (i 2)) := by
  have e : Cert.Spec.blkOf (i 1) = ρ := Fin.ext hb
  show Vchunk m c (Cert.Spec.blkOf (i 1)) _ = _
  rw [e]

/-! ## What a device loads from the gather buffer -/

theorem srcDev_zero (c : Dev nD) : srcDev c 0 = c := by
  apply Fin.ext
  show (c.val + 8 - 0) % 8 = c.val
  have hc : c.val < 8 := c.isLt
  omega

/-- The load of the slot at `k0_off4 c (1 + r)`, the gather buffer holding every device's block, is the block of the
    device rotated block `1 + r` is computed from. -/
theorem ldXG_eq (c : Dev nD) (r : Fin 7) (ρ : Fin 8) (hρ : ρ.val = 1 + r.val)
    (inb : ∀ a, k0_off4 c (BitVec.ofNat 32 (1 + r.val)) a + S1x2x128x512.size a ≤ S8x2x128x512.size a) :
    View.readAt (Elt F) (Memref.whole cc0_scratch0 : Memref sig .tc .vmem S8x2x128x512 .bf16).view
        (Rect.unit (s := S8x2x128x512) (k0_off4 c (BitVec.ofNat 32 (1 + r.val))) S1x2x128x512.size inb).toLoadRect (XGdef m)
      = slotv m (srcDev c ρ) := by
  have e := k0_off4_eq c r
  refine (ldSlot_eq m _ inb (srcDev c ρ) ?_ ?_ ?_ ?_)
  · rw [e]; show (c.val + 7 - r.val) % 8 = (c.val + 8 - ρ.val) % 8; rw [hρ]; have hc : c.val < 8 := c.isLt; have hr : r.val < 7 := r.isLt; omega
  · rw [e]; rfl
  · rw [e]; rfl
  · rw [e]; rfl

end Cert.KernelIdealProof

end
-- ==== Proof.BodyP12.lean ====
/-
  Part 12 of the kernel's body on a device: no memory operation, only values. It returns columns of row sums and blocks of
  sums of exponential times value of the first attention pass, each a function of the part's arguments.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part12_run (c : Dev nD) (W : Waits sig Unit) (v324 v326 v328 v352 : FVec F S512x512 .bf16) :
    (BIBase.emp : sProp 𝕄)
      ⊢ wp frame (wpE (defs₀ (F := F)) 𝒱₀ (c : Thread nD τ) none) Set.univ
          (k0_part12 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v324 v326 v328 v352)
          (fun r => iprop(⌜r = ⟨k0_pay38 v352, k0_pay39 v328 v352, k0_pay41 v324 v326, k0_pay42 v324 v326 v328, k0_pay44 v324 v326,
            k0_pay45 v324 v326 v328, k0_pay47 v324 v326, k0_pay48 v324 v326 v328, k0_pay50 v324 v326, k0_pay51 v324 v326 v328⟩⌝)) := by
  iintro -
  sl_exec
  sl_step
  ipureintro
  rfl

end Cert.KernelIdealProof

end
-- ==== Proof.BodyP13.lean ====
/-
  Part 13 of the kernel's body on a device: values of the first attention pass, and the loads of batch 1's blocks of
  queries (rows 128..639 of the q scratch) and of keys and values (rows 0..511 of the k and v scratch). The three scratch
  buffers are only read: they are held before and after at the same contents.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The block part 13 loads from the q scratch at contents f. -/
abbrev p13_v409 (c : Dev nD) (fq : Buf (Elt F) ((Memref.whole cc0_scratch1).view.loc (c : Thread nD τ))) :=
  View.readAt (Elt F) (Memref.whole cc0_scratch1).view (Rect.unit (s := S2x1024x512) ![1, 128, 0] S1x512x512.size inb_S2x1024x512_S1x512x512_1_128_0).toLoadRect fq

/-- The block part 13 loads from the k scratch at contents f. -/
abbrev p13_v411 (c : Dev nD) (fk : Buf (Elt F) ((Memref.whole cc0_scratch2).view.loc (c : Thread nD τ))) :=
  View.readAt (Elt F) (Memref.whole cc0_scratch2).view (Rect.unit (s := S2x1024x512) ![1, 0, 0] S1x512x512.size inb_S2x1024x512_S1x512x512_1_0_0).toLoadRect fk

/-- The block part 13 loads from the v scratch at contents f. -/
abbrev p13_v413 (c : Dev nD) (fv : Buf (Elt F) ((Memref.whole cc0_scratch3).view.loc (c : Thread nD τ))) :=
  View.readAt (Elt F) (Memref.whole cc0_scratch3).view (Rect.unit (s := S2x1024x512) ![1, 0, 0] S1x512x512.size inb_S2x1024x512_S1x512x512_1_0_0).toLoadRect fv

theorem part13_run (c : Dev nD) (W : Waits sig Unit) (v324 v326 v328 : FVec F S512x512 .bf16)
    (fq : Buf (Elt F) ((Memref.whole cc0_scratch1).view.loc (c : Thread nD τ))) (fk : Buf (Elt F) ((Memref.whole cc0_scratch2).view.loc (c : Thread nD τ)))
    (fv : Buf (Elt F) ((Memref.whole cc0_scratch3).view.loc (c : Thread nD τ))) :
    (iprop(((Memref.whole cc0_scratch1).view.loc (c : Thread nD τ) ↦{fullShare} fq) ∗ ((Memref.whole cc0_scratch2).view.loc (c : Thread nD τ) ↦{fullShare} fk) ∗ ((Memref.whole cc0_scratch3).view.loc (c : Thread nD τ) ↦{fullShare} fv)) : sProp 𝕄)
      ⊢ wp frame (wpE (defs₀ (F := F)) 𝒱₀ (c : Thread nD τ) none) Set.univ
          (k0_part13 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v324 v326 v328)
          (fun r => iprop(⌜r = ⟨k0_pay53 v324 v326, k0_pay54 v324 v326 v328, k0_pay55 (p13_v409 c fq), k0_pay56 (p13_v411 c fk), k0_pay57 (p13_v413 c fv),
              k0_pay59 (p13_v409 c fq) (p13_v411 c fk), k0_pay60 (p13_v409 c fq) (p13_v411 c fk) (p13_v413 c fv), k0_pay62 (p13_v409 c fq) (p13_v411 c fk),
              k0_pay63 (p13_v409 c fq) (p13_v411 c fk) (p13_v413 c fv), k0_pay64 (p13_v409 c fq) (p13_v411 c fk)⟩⌝
            ∗ ((Memref.whole cc0_scratch1).view.loc (c : Thread nD τ) ↦{fullShare} fq) ∗ ((Memref.whole cc0_scratch2).view.loc (c : Thread nD τ) ↦{fullShare} fk) ∗ ((Memref.whole cc0_scratch3).view.loc (c : Thread nD τ) ↦{fullShare} fv))) := by
  iintro ⟨Hq, Hk, Hv⟩
  sl_exec
  sl_step
  isplitr [Hq Hk Hv]
  · ipureintro; rfl
  isplitl [Hq]
  · iexact Hq
  isplitl [Hk]
  · iexact Hk
  iexact Hv

end Cert.KernelIdealProof

end
-- ==== Proof.BodyP14.lean ====
/-
  Part 14 of the kernel's body on a device: no memory operation, only values. It returns columns of row sums and blocks of
  sums of exponential times value of the first attention pass, each a function of the part's arguments.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part14_run (c : Dev nD) (W : Waits sig Unit) (v410 v412 v414 v439 : FVec F S512x512 .bf16) :
    (BIBase.emp : sProp 𝕄)
      ⊢ wp frame (wpE (defs₀ (F := F)) 𝒱₀ (c : Thread nD τ) none) Set.univ
          (k0_part14 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v410 v412 v414 v439)
          (fun r => iprop(⌜r = ⟨k0_pay65 v439, k0_pay66 v414 v439, k0_pay68 v410 v412, k0_pay69 v410 v412 v414, k0_pay71 v410 v412, k0_pay72 v410 v412 v414, k0_pay74 v410 v412, k0_pay75 v410 v412 v414, k0_pay77 v410 v412, k0_pay78 v410 v412 v414, k0_pay79 v410⟩⌝)) := by
  iintro -
  sl_exec
  sl_step
  ipureintro
  rfl

end Cert.KernelIdealProof

end
-- ==== Proof.BodyP06Lib.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.Slots
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

/-- The elements a load of the slot at offset `k0_off4 c (1 + r)` reads lie in the gather buffer's slot of device `s`
    when `s` is the device `7 − r` places on from `c`: the offset's leading coordinate is that device's number. -/
theorem xgLoad_sub (c s : Dev nD) (r : Fin 7) (hs : s.val = (c.val + 7 - r.val) % 8)
    (h : ∀ a, k0_off4 c (BitVec.ofNat 32 (1 + r.val)) a + S1x2x128x512.size a ≤ S8x2x128x512.size a) :
    (Memref.whole cc0_scratch0).view.setOn
        (Rect.unit (s := S8x2x128x512) (k0_off4 c (BitVec.ofNat 32 (1 + r.val))) S1x2x128x512.size h).set
      ⊆ (xgSlot s).view.set := by
  intro i hi
  obtain ⟨x, hx, rfl⟩ := Finset.mem_map.mp hi
  refine (mem_xgSlot_set s x).mpr ?_
  rw [Rect.mem_set_unit] at hx
  have h0 := hx 0
  rw [k0_off4_eq c r] at h0
  rw [hs]
  simp at h0
  omega

end Cert.KernelIdealProof
end
-- ==== Proof.BodyP15.lean ====
/-
  Part 15 of the kernel's body on a device: values of the first attention pass; the wait for the fifth gathered block (the
  receive cell 4 of the gather), which hands over the gather buffer's slot of the device three places on at the gathered
  contents; the load of that block and of the rows of the q scratch its projection will be stored into.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_4 (c : Dev nD) : (sched (F := F) XG SS RS).duties (agRCell c 4) 0 = {0} := duties_agR XG SS RS c 4
private theorem amount_agR_4 (c : Dev nD) (d : DD) : (sched (F := F) XG SS RS).amount (agRCell c 4) 0 d = Nag := amount_agR XG SS RS c 4 d
private theorem expect_agR_4 (c : Dev nD) : (sched (F := F) XG SS RS).expect (agRCell c 4) 0 = Nag := expect_agR XG SS RS c 4
private theorem restd_agR_4 (c : Dev nD) : bigSep ((sched (F := F) XG SS RS).duties (agRCell c 4) 0) (fun d => (sched (F := F) XG SS RS).payload (agRCell c 4) 0 d) ⊢
    ((xgSlot (fwd c 3)).view.loc (c : Thread nD τ) ↦[(xgSlot (fwd c 3)).view.set]{fullShare} XG) := by
  rw [duties_agR, bigSep_singleton, payload_agR_4]
end Lit

/-- The elements part 15's load of the received block reads lie in the gather buffer's slot of the device 3 places on. -/
theorem part15_sub (c : Dev nD) : (Memref.whole cc0_scratch0 : Memref sig .tc .vmem S8x2x128x512 .bf16).view.setOn (Rect.unit (s := S8x2x128x512) (k0_off4 c 5#32) S1x2x128x512.size (k0_off4_inb c 4)).set
    ⊆ (xgSlot (fwd c 3)).view.set :=
  xgLoad_sub c (fwd c 3) ⟨4, by decide⟩ (by unfold fwd; show (c.val + 3) % 8 = (c.val + 7 - 4) % 8; omega) (k0_off4_inb c 4)

attribute [local irreducible] fwd
attribute [local sl_rounds] duties_agR_4 amount_agR_4 expect_agR_4

set_option maxHeartbeats 4000000 in
theorem part15_run (c : Dev nD) (W : Waits sig Unit) (v2 v89 : BitVec 32) (v138 : FVec F S512x1536 .bf16) (v412 v414 : FVec F S512x512 .bf16) (v485 : FVec F S512x64 .bf16)
    (fq : _) :
    (iprop(cellInv ER (sched XG SS RS) (K (c, 13)) (agRCell c 4)
        ∗ atPos ER (agRCell c 4) 0 ∅ 0
        ∗ cred (tallyAt (agRCell c 4) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)) : sProp 𝕄)
      ⊢ wp frame (wpE (defs₀ (F := F)) 𝒱₀ (c : Thread nD τ) none) Set.univ
          (k0_part15 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v2 v89 v138 v412 v414 v485)
          (fun r => iprop(⌜r = ⟨k0_pay81 v412 v485, k0_pay82 v412 v414 v485, k0_pay83 v138 (View.readAt (Elt F) (Memref.whole cc0_scratch0 : Memref sig .tc .vmem S8x2x128x512 .bf16).view (Rect.unit (s := S8x2x128x512) (k0_off4 c 5#32) S1x2x128x512.size (k0_off4_inb c 4)).toLoadRect XG),
              Scalar.muli (Scalar.remsi (Scalar.addi (Scalar.subi v2 (Scalar.remsi (Scalar.addi (Scalar.subi v2 5#32) 8#32) 8#32)) 8#32) 8#32) 128#32,
              k0_pay84 v138 (View.readAt (Elt F) (Memref.whole cc0_scratch0 : Memref sig .tc .vmem S8x2x128x512 .bf16).view (Rect.unit (s := S8x2x128x512) (k0_off4 c 5#32) S1x2x128x512.size (k0_off4_inb c 4)).toLoadRect XG),
              View.readAt (Elt F) (Memref.whole cc0_scratch1 : Memref sig .tc .vmem S2x1024x512 .bf16).view (Rect.unit (s := S2x1024x512) (k0_off5 c 5#32) S2x128x512.size (k0_off5_inb c 4)).toLoadRect fq⟩⌝
            ∗ atPos ER (agRCell c 4) 1 ∅ 0
            ∗ reached ER (agRCell c 4) 1
            ∗ ((xgSlot (fwd c 3)).view.loc (c : Thread nD τ) ↦[(xgSlot (fwd c 3)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR4, ()) W)
            ∗ (View.loc (c : Thread nD τ) (Memref.whole cc0_scratch1 : Memref sig .tc .vmem S2x1024x512 .bf16).view ↦{fullShare} fq))) := by
  have hw := mayWait_agR (F := F) c 4
  have hsub := part15_sub c
  iintro ⟨#I0, P0, C0, #HL, HO, Hq⟩
  sl_exec
  ihave Y0 := (restd_agR_4 XG SS RS c) $$ P0_pay1
  sl_exec
  sl_step
  sl_close

end Cert.KernelIdealProof

end
-- ==== Proof.BodyP16.lean ====
/-
  Part 16 of the kernel's body on a device: the projections of the fifth gathered block are stored into its rows of the q, k
  and v scratch; then the wait for the sixth gathered block (the receive cell 5 of the gather), which hands over the gather
  buffer's slot of the device two places on at the gathered contents, and the load of that block.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_5 (c : Dev nD) : (sched (F := F) XG SS RS).duties (agRCell c 5) 0 = {0} := duties_agR XG SS RS c 5
private theorem amount_agR_5 (c : Dev nD) (d : DD) : (sched (F := F) XG SS RS).amount (agRCell c 5) 0 d = Nag := amount_agR XG SS RS c 5 d
private theorem expect_agR_5 (c : Dev nD) : (sched (F := F) XG SS RS).expect (agRCell c 5) 0 = Nag := expect_agR XG SS RS c 5
private theorem restd_agR_5 (c : Dev nD) : bigSep ((sched (F := F) XG SS RS).duties (agRCell c 5) 0) (fun d => (sched (F := F) XG SS RS).payload (agRCell c 5) 0 d) ⊢
    ((xgSlot (fwd c 2)).view.loc (c : Thread nD τ) ↦[(xgSlot (fwd c 2)).view.set]{fullShare} XG) := by
  rw [duties_agR, bigSep_singleton, payload_agR_5]
end Lit

/-- The elements part 16's load of the received block reads lie in the gather buffer's slot of the device 2 places on. -/
theorem part16_sub (c : Dev nD) : (Memref.whole cc0_scratch0 : Memref sig .tc .vmem S8x2x128x512 .bf16).view.setOn (Rect.unit (s := S8x2x128x512) (k0_off4 c 6#32) S1x2x128x512.size (k0_off4_inb c 5)).set
    ⊆ (xgSlot (fwd c 2)).view.set :=
  xgLoad_sub c (fwd c 2) ⟨5, by decide⟩ (by unfold fwd; show (c.val + 2) % 8 = (c.val + 7 - 5) % 8; omega) (k0_off4_inb c 5)

attribute [local irreducible] fwd
attribute [local sl_rounds] duties_agR_5 amount_agR_5 expect_agR_5

set_option maxHeartbeats 4000000 in
theorem part16_run (c : Dev nD) (W : Waits sig Unit) (v2 v101 : BitVec 32) (v138 : FVec F S512x1536 .bf16) (v511 : FVec F S256x1536 .bf16) (v515 : BitVec 32)
    (v517 : FVec F S2x128x512 .bf16) (v519 : Vec F S2x128x512 .bf16) (fq : _) (fk : _) (fv : _) :
    (iprop(cellInv ER (sched XG SS RS) (K (c, 14)) (agRCell c 5)
        ∗ atPos ER (agRCell c 5) 0 ∅ 0
        ∗ cred (tallyAt (agRCell c 5) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ
          (k0_part16 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v2 v101 v138 v511 v515 v517 v519)
          (fun r => iprop(⌜r = ⟨k0_pay88 v138 (View.readAt (Elt F) (Memref.whole cc0_scratch0 : Memref sig .tc .vmem S8x2x128x512 .bf16).view (Rect.unit (s := S8x2x128x512) (k0_off4 c 6#32) S1x2x128x512.size (k0_off4_inb c 5)).toLoadRect XG),
              Scalar.addi (Scalar.subi v2 (Scalar.remsi (Scalar.addi (Scalar.subi v2 6#32) 8#32) 8#32)) 8#32, 8#32⟩⌝
            ∗ atPos ER (agRCell c 5) 1 ∅ 0
            ∗ reached ER (agRCell c 5) 1
            ∗ ((xgSlot (fwd c 2)).view.loc (c : Thread nD τ) ↦[(xgSlot (fwd c 2)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR5, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 5#32) S2x128x512.size (k0_off5_inb c 4), k0_pay85 v517⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off5 c 5#32) S2x128x512.size (k0_off5_inb c 4), k0_pay86 v511⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off5 c 5#32) S2x128x512.size (k0_off5_inb c 4), k0_pay87 v511⟩]))) := by
  have hw := mayWait_agR (F := F) c 5
  have hsub := part16_sub c
  iintro ⟨#I0, P0, C0, #HL, HO, Hq, Hk, Hv⟩
  sl_exec
  ihave Y0 := (restd_agR_5 XG SS RS c) $$ P0_pay1
  sl_exec
  sl_step
  sl_close

end Cert.KernelIdealProof

end
-- ==== Proof.BodyP17.lean ====
/-
  Part 17 of the kernel's body on a device: the projections of the sixth gathered block are stored into its rows of the q, k
  and v scratch; then the wait for the last gathered block (the receive cell 6 of the gather), which hands over the gather
  buffer's slot of the next device at the gathered contents, and the load of that block.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_6 (c : Dev nD) : (sched (F := F) XG SS RS).duties (agRCell c 6) 0 = {0} := duties_agR XG SS RS c 6
private theorem amount_agR_6 (c : Dev nD) (d : DD) : (sched (F := F) XG SS RS).amount (agRCell c 6) 0 d = Nag := amount_agR XG SS RS c 6 d
private theorem expect_agR_6 (c : Dev nD) : (sched (F := F) XG SS RS).expect (agRCell c 6) 0 = Nag := expect_agR XG SS RS c 6
private theorem restd_agR_6 (c : Dev nD) : bigSep ((sched (F := F) XG SS RS).duties (agRCell c 6) 0) (fun d => (sched (F := F) XG SS RS).payload (agRCell c 6) 0 d) ⊢
    ((xgSlot (fwd c 1)).view.loc (c : Thread nD τ) ↦[(xgSlot (fwd c 1)).view.set]{fullShare} XG) := by
  rw [duties_agR, bigSep_singleton, payload_agR_6]
end Lit

/-- The elements part 17's load of the received block reads lie in the gather buffer's slot of the device 1 places on. -/
theorem part17_sub (c : Dev nD) : (Memref.whole cc0_scratch0 : Memref sig .tc .vmem S8x2x128x512 .bf16).view.setOn (Rect.unit (s := S8x2x128x512) (k0_off4 c 7#32) S1x2x128x512.size (k0_off4_inb c 6)).set
    ⊆ (xgSlot (fwd c 1)).view.set :=
  xgLoad_sub c (fwd c 1) ⟨6, by decide⟩ (by unfold fwd; show (c.val + 1) % 8 = (c.val + 7 - 6) % 8; omega) (k0_off4_inb c 6)

attribute [local irreducible] fwd
attribute [local sl_rounds] duties_agR_6 amount_agR_6 expect_agR_6

set_option maxHeartbeats 4000000 in
theorem part17_run (c : Dev nD) (W : Waits sig Unit) (v2 v113 : BitVec 32) (v550 : FVec F S256x1536 .bf16) (v552 c8 : BitVec 32)
    (fq : _) (fk : _) (fv : _) :
    (iprop(cellInv ER (sched XG SS RS) (K (c, 15)) (agRCell c 6)
        ∗ atPos ER (agRCell c 6) 0 ∅ 0
        ∗ cred (tallyAt (agRCell c 6) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ
          (k0_part17 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v2 v113 v550 v552 c8)
          (fun r => iprop(⌜r = ⟨Scalar.remsi (Scalar.addi (Scalar.subi v2 7#32) 8#32) 8#32, (View.readAt (Elt F) (Memref.whole cc0_scratch0 : Memref sig .tc .vmem S8x2x128x512 .bf16).view (Rect.unit (s := S8x2x128x512) (k0_off4 c 7#32) S1x2x128x512.size (k0_off4_inb c 6)).toLoadRect XG)⟩⌝
            ∗ atPos ER (agRCell c 6) 1 ∅ 0
            ∗ reached ER (agRCell c 6) 1
            ∗ ((xgSlot (fwd c 1)).view.loc (c : Thread nD τ) ↦[(xgSlot (fwd c 1)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR6, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 6#32) S2x128x512.size (k0_off5_inb c 5), k0_pay89 v550⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off5 c 6#32) S2x128x512.size (k0_off5_inb c 5), k0_pay90 v550⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off5 c 6#32) S2x128x512.size (k0_off5_inb c 5), k0_pay91 v550⟩]))) := by
  have hw := mayWait_agR (F := F) c 6
  have hsub := part17_sub c
  iintro ⟨#I0, P0, C0, #HL, HO, Hq, Hk, Hv⟩
  sl_exec
  ihave Y0 := (restd_agR_6 XG SS RS c) $$ P0_pay1
  sl_exec
  sl_step
  sl_close

end Cert.KernelIdealProof

end
-- ==== Proof.BodyP18.lean ====
/-
  Part 18 of the kernel's body on a device: the projections of the last gathered chunk are stored into its rows of the
  q, k and v scratch (each store after a load of the same rows whose value nothing reads), then the blocks of the second
  group of keys of batch 0 are loaded: queries rows 128..639, keys and values rows 512..1023. Each scratch buffer is held
  whole before, at any contents, and after, at those contents with the one store written.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The q scratch after part 18's store of the last chunk's projection into its rows. -/
abbrev p18_q (c : Dev nD) (v138 : FVec F S512x1536 .bf16) (v585 : Vec F S1x2x128x512 .bf16)
    (fq : Buf (Elt F) ((Memref.whole cc0_scratch1).view.loc (c : Thread nD τ))) :=
  (Memref.whole cc0_scratch1).view.writes (Elt F) fq
    [⟨Rect.unit (s := S2x1024x512) (k0_off5 c 7#32) S2x128x512.size (k0_off5_inb c 6), k0_pay93 v138 v585⟩]

/-- The k scratch after part 18's store. -/
abbrev p18_k (c : Dev nD) (v138 : FVec F S512x1536 .bf16) (v585 : Vec F S1x2x128x512 .bf16)
    (fk : Buf (Elt F) ((Memref.whole cc0_scratch2).view.loc (c : Thread nD τ))) :=
  (Memref.whole cc0_scratch2).view.writes (Elt F) fk
    [⟨Rect.unit (s := S2x1024x512) (k0_off5 c 7#32) S2x128x512.size (k0_off5_inb c 6), k0_pay94 v138 v585⟩]

/-- The v scratch after part 18's store. -/
abbrev p18_v (c : Dev nD) (v138 : FVec F S512x1536 .bf16) (v585 : Vec F S1x2x128x512 .bf16)
    (fv : Buf (Elt F) ((Memref.whole cc0_scratch3).view.loc (c : Thread nD τ))) :=
  (Memref.whole cc0_scratch3).view.writes (Elt F) fv
    [⟨Rect.unit (s := S2x1024x512) (k0_off5 c 7#32) S2x128x512.size (k0_off5_inb c 6), k0_pay95 v138 v585⟩]

/-- The block of queries part 18 then loads (batch 0, rows 128..639). -/
abbrev p18_v612 (c : Dev nD) (v138 : FVec F S512x1536 .bf16) (v585 : Vec F S1x2x128x512 .bf16)
    (fq : Buf (Elt F) ((Memref.whole cc0_scratch1).view.loc (c : Thread nD τ))) :=
  View.readAt (Elt F) (Memref.whole cc0_scratch1).view (Rect.unit (s := S2x1024x512) ![0, 128, 0] S1x512x512.size inb_S2x1024x512_S1x512x512_0_128_0).toLoadRect
    (p18_q c v138 v585 fq)

/-- The block of keys part 18 then loads (batch 0, rows 512..1023). -/
abbrev p18_v614 (c : Dev nD) (v138 : FVec F S512x1536 .bf16) (v585 : Vec F S1x2x128x512 .bf16)
    (fk : Buf (Elt F) ((Memref.whole cc0_scratch2).view.loc (c : Thread nD τ))) :=
  View.readAt (Elt F) (Memref.whole cc0_scratch2).view (Rect.unit (s := S2x1024x512) ![0, 512, 0] S1x512x512.size inb_S2x1024x512_S1x512x512_0_512_0).toLoadRect
    (p18_k c v138 v585 fk)

/-- The block of values part 18 then loads (batch 0, rows 512..1023). -/
abbrev p18_v616 (c : Dev nD) (v138 : FVec F S512x1536 .bf16) (v585 : Vec F S1x2x128x512 .bf16)
    (fv : Buf (Elt F) ((Memref.whole cc0_scratch3).view.loc (c : Thread nD τ))) :=
  View.readAt (Elt F) (Memref.whole cc0_scratch3).view (Rect.unit (s := S2x1024x512) ![0, 512, 0] S1x512x512.size inb_S2x1024x512_S1x512x512_0_512_0).toLoadRect
    (p18_v c v138 v585 fv)

theorem part18_run (c : Dev nD) (W : Waits sig Unit) (v2 : BitVec 32) (v138 : FVec F S512x1536 .bf16) (v583 : BitVec 32) (v585 : Vec F S1x2x128x512 .bf16)
    (fq : Buf (Elt F) ((Memref.whole cc0_scratch1).view.loc (c : Thread nD τ))) (fk : Buf (Elt F) ((Memref.whole cc0_scratch2).view.loc (c : Thread nD τ)))
    (fv : Buf (Elt F) ((Memref.whole cc0_scratch3).view.loc (c : Thread nD τ))) :
    (iprop(((Memref.whole cc0_scratch1).view.loc (c : Thread nD τ) ↦{fullShare} fq) ∗ ((Memref.whole cc0_scratch2).view.loc (c : Thread nD τ) ↦{fullShare} fk) ∗ ((Memref.whole cc0_scratch3).view.loc (c : Thread nD τ) ↦{fullShare} fv)) : sProp 𝕄)
      ⊢ wp frame (wpE (defs₀ (F := F)) 𝒱₀ (c : Thread nD τ) none) Set.univ
          (k0_part18 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v2 v138 v583 v585)
          (fun r => iprop(⌜r = ⟨k0_pay96 (p18_v612 c v138 v585 fq), k0_pay97 (p18_v614 c v138 v585 fk), k0_pay98 (p18_v616 c v138 v585 fv), k0_pay99 (p18_v612 c v138 v585 fq) (p18_v614 c v138 v585 fk)⟩⌝
            ∗ ((Memref.whole cc0_scratch1).view.loc (c : Thread nD τ) ↦{fullShare} p18_q c v138 v585 fq)
            ∗ ((Memref.whole cc0_scratch2).view.loc (c : Thread nD τ) ↦{fullShare} p18_k c v138 v585 fk)
            ∗ ((Memref.whole cc0_scratch3).view.loc (c : Thread nD τ) ↦{fullShare} p18_v c v138 v585 fv))) := by
  iintro ⟨Hq, Hk, Hv⟩
  sl_exec
  sl_step
  isplitr [Hq Hk Hv]
  · ipureintro; rfl
  isplitl [Hq]
  · iexact Hq
  isplitl [Hk]
  · iexact Hk
  iexact Hv

end Cert.KernelIdealProof

end
-- ==== Proof.BodyP19.lean ====
/-
  Part 19 of the kernel's body on a device: no memory operation, only values. It returns blocks and columns of row sums of
  the first attention pass's second group of keys added to the first group's, each a function of the part's arguments.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part19_run (c : Dev nD) (W : Waits sig Unit) (v336 : FVec F S512x1 .f32) (v338 : FVec F S512x64 .f32) (v346 : FVec F S512x1 .f32) (v348 : FVec F S512x64 .f32) (v356 : FVec F S512x1 .f32) (v358 : FVec F S512x64 .f32) (v366 : FVec F S512x1 .f32) (v368 : FVec F S512x64 .f32) (v613 v615 v617 v622 : FVec F S512x512 .bf16) :
    (BIBase.emp : sProp 𝕄)
      ⊢ wp frame (wpE (defs₀ (F := F)) 𝒱₀ (c : Thread nD τ) none) Set.univ
          (k0_part19 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v336 v338 v346 v348 v356 v358 v366 v368 v613 v615 v617 v622)
          (fun r => iprop(⌜r = ⟨k0_pay100 v338 v617 v622, k0_pay101 v336 v622, k0_pay103 v348 v613 v615 v617, k0_pay104 v346 v613 v615, k0_pay106 v358 v613 v615 v617, k0_pay107 v356 v613 v615, k0_pay109 v368 v613 v615 v617, k0_pay110 v366 v613 v615, k0_pay111 v613 v615⟩⌝)) := by
  iintro -
  sl_exec
  sl_step
  ipureintro
  rfl

end Cert.KernelIdealProof

end
-- ==== Proof.BodyP20.lean ====
/-
  Part 20 of the kernel's body on a device: values of the first attention pass's second group of keys, then the load of
  batch 1's block of queries (rows 128..639 of the q scratch). The q scratch is only read.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The block part 20 loads from the q scratch at contents f. -/
abbrev p20_v714 (c : Dev nD) (fq : Buf (Elt F) ((Memref.whole cc0_scratch1).view.loc (c : Thread nD τ))) :=
  View.readAt (Elt F) (Memref.whole cc0_scratch1).view (Rect.unit (s := S2x1024x512) ![1, 128, 0] S1x512x512.size inb_S2x1024x512_S1x512x512_1_128_0).toLoadRect fq

theorem part20_run (c : Dev nD) (W : Waits sig Unit) (v376 : FVec F S512x1 .f32) (v378 : FVec F S512x64 .f32) (v386 : FVec F S512x1 .f32) (v388 : FVec F S512x64 .f32) (v396 : FVec F S512x1 .f32) (v398 : FVec F S512x64 .f32) (v406 : FVec F S512x1 .f32) (v408 : FVec F S512x64 .f32) (v613 v615 v617 v670 : FVec F S512x512 .bf16)
    (fq : Buf (Elt F) ((Memref.whole cc0_scratch1).view.loc (c : Thread nD τ))) :
    (iprop(((Memref.whole cc0_scratch1).view.loc (c : Thread nD τ) ↦{fullShare} fq)) : sProp 𝕄)
      ⊢ wp frame (wpE (defs₀ (F := F)) 𝒱₀ (c : Thread nD τ) none) Set.univ
          (k0_part20 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v376 v378 v386 v388 v396 v398 v406 v408 v613 v615 v617 v670)
          (fun r => iprop(⌜r = ⟨k0_pay112 v378 v617 v670, k0_pay113 v376 v670, k0_pay115 v388 v613 v615 v617, k0_pay116 v386 v613 v615, k0_pay118 v398 v613 v615 v617, k0_pay119 v396 v613 v615, k0_pay121 v408 v613 v615 v617, k0_pay122 v406 v613 v615, k0_pay123 (p20_v714 c fq)⟩⌝
            ∗ ((Memref.whole cc0_scratch1).view.loc (c : Thread nD τ) ↦{fullShare} fq))) := by
  iintro Hq
  sl_exec
  sl_step
  isplitr [Hq]
  · ipureintro; rfl
  iexact Hq

end Cert.KernelIdealProof

end
-- ==== Proof.BodyP21.lean ====
/-
  Part 21 of the kernel's body on a device: the loads of batch 1's blocks of keys and values (rows 512..1023 of the k and v
  scratch), then values of the first attention pass's second group of keys. The k and v scratch are only read.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The block part 21 loads from the k scratch at contents f. -/
abbrev p21_v716 (c : Dev nD) (fk : Buf (Elt F) ((Memref.whole cc0_scratch2).view.loc (c : Thread nD τ))) :=
  View.readAt (Elt F) (Memref.whole cc0_scratch2).view (Rect.unit (s := S2x1024x512) ![1, 512, 0] S1x512x512.size inb_S2x1024x512_S1x512x512_1_512_0).toLoadRect fk

/-- The block part 21 loads from the v scratch at contents f. -/
abbrev p21_v718 (c : Dev nD) (fv : Buf (Elt F) ((Memref.whole cc0_scratch3).view.loc (c : Thread nD τ))) :=
  View.readAt (Elt F) (Memref.whole cc0_scratch3).view (Rect.unit (s := S2x1024x512) ![1, 512, 0] S1x512x512.size inb_S2x1024x512_S1x512x512_1_512_0).toLoadRect fv

theorem part21_run (c : Dev nD) (W : Waits sig Unit) (v422 : FVec F S512x1 .f32) (v424 : FVec F S512x64 .f32) (v432 : FVec F S512x1 .f32) (v434 : FVec F S512x64 .f32) (v442 : FVec F S512x1 .f32) (v444 : FVec F S512x64 .f32) (v715 : FVec F S512x512 .bf16)
    (fk : Buf (Elt F) ((Memref.whole cc0_scratch2).view.loc (c : Thread nD τ))) (fv : Buf (Elt F) ((Memref.whole cc0_scratch3).view.loc (c : Thread nD τ))) :
    (iprop(((Memref.whole cc0_scratch2).view.loc (c : Thread nD τ) ↦{fullShare} fk) ∗ ((Memref.whole cc0_scratch3).view.loc (c : Thread nD τ) ↦{fullShare} fv)) : sProp 𝕄)
      ⊢ wp frame (wpE (defs₀ (F := F)) 𝒱₀ (c : Thread nD τ) none) Set.univ
          (k0_part21 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v422 v424 v432 v434 v442 v444 v715)
          (fun r => iprop(⌜r = ⟨k0_pay124 (p21_v716 c fk), k0_pay125 (p21_v718 c fv), k0_pay127 v424 v715 (p21_v716 c fk) (p21_v718 c fv), k0_pay128 v422 v715 (p21_v716 c fk), k0_pay130 v434 v715 (p21_v716 c fk) (p21_v718 c fv), k0_pay131 v432 v715 (p21_v716 c fk), k0_pay133 v444 v715 (p21_v716 c fk) (p21_v718 c fv), k0_pay134 v442 v715 (p21_v716 c fk), k0_pay135 v715 (p21_v716 c fk)⟩⌝
            ∗ ((Memref.whole cc0_scratch2).view.loc (c : Thread nD τ) ↦{fullShare} fk) ∗ ((Memref.whole cc0_scratch3).view.loc (c : Thread nD τ) ↦{fullShare} fv))) := by
  iintro ⟨Hk, Hv⟩
  sl_exec
  sl_step
  isplitr [Hk Hv]
  · ipureintro; rfl
  isplitl [Hk]
  · iexact Hk
  iexact Hv

end Cert.KernelIdealProof

end
-- ==== Proof.BodyP22.lean ====
/-
  Part 22 of the kernel's body on a device: no memory operation, only values of the first attention pass's second group of
  keys, each a function of the part's arguments.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part22_run (c : Dev nD) (W : Waits sig Unit) (v452 : FVec F S512x1 .f32) (v454 : FVec F S512x64 .f32) (v462 : FVec F S512x1 .f32) (v464 : FVec F S512x64 .f32) (v472 : FVec F S512x1 .f32) (v474 : FVec F S512x64 .f32) (v482 : FVec F S512x1 .f32) (v484 : FVec F S512x64 .f32) (v715 v717 v719 v760 : FVec F S512x512 .bf16) :
    (BIBase.emp : sProp 𝕄)
      ⊢ wp frame (wpE (defs₀ (F := F)) 𝒱₀ (c : Thread nD τ) none) Set.univ
          (k0_part22 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v452 v454 v462 v464 v472 v474 v482 v484 v715 v717 v719 v760)
          (fun r => iprop(⌜r = ⟨k0_pay136 v454 v719 v760, k0_pay137 v452 v760, k0_pay139 v464 v715 v717 v719, k0_pay140 v462 v715 v717, k0_pay142 v474 v715 v717 v719, k0_pay143 v472 v715 v717, k0_pay145 v484 v715 v717 v719, k0_pay146 v482 v715 v717, k0_pay147 v715 v717⟩⌝)) := by
  iintro -
  sl_exec
  sl_step
  ipureintro
  rfl

end Cert.KernelIdealProof

end
-- ==== Proof.BodyP23.lean ====
/-
  Part 23 of the kernel's body on a device: no memory operation, only values: the first pass's finalize (quotients, the
  product with the block of the output projection), each returned value a function of the part's arguments.
-/
import proofs.«900761_g7700000000000762_dist_attn_self_mha_htp_ss_b2_sq128_skv128_d512_hq8_dh64_v7x_i8_bf16_1_alg».proof.Proof.Data

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part23_run (c : Dev nD) (W : Waits sig Unit) (v137 : FVec F S512x512 .bf16) (v492 : FVec F S512x1 .f32) (v494 v628 : FVec F S512x64 .f32) (v629 : FVec F S512x1 .f32) (v640 : FVec F S512x64 .f32) (v641 : FVec F S512x1 .f32) (v652 : FVec F S512x64 .f32) (v653 : FVec F S512x1 .f32) (v664 : FVec F S512x64 .f32) (v665 : FVec F S512x1 .f32) (v676 : FVec F S512x64 .f32) (v677 : FVec F S512x1 .f32) (v688 : FVec F S512x64 .f32) (v689 : FVec F S512x1 .f32) (v700 : FVec F S512x64 .f32) (v701 : FVec F S512x1 .f32) (v712 : FVec F S512x64 .f32) (v713 : FVec F S512x1 .f32) (v719 : FVec F S512x512 .bf16) (v730 : FVec F S512x64 .f32) (v731 : FVec F S512x1 .f32) (v742 : FVec F S512x64 .f32) (v743 : FVec F S512x1 .f32) (v754 : FVec F S512x64 .f32) (v755 : FVec F S512x1 .f32) (v766 : FVec F S512x64 .f32) (v767 : FVec F S512x1 .f32) (v778 : FVec F S512x64 .f32) (v779 : FVec F S512x1 .f32) (v790 : FVec F S512x64 .f32) (v791 : FVec F S512x1 .f32) (v802 : FVec F S512x64 .f32) (v803 : FVec F S512x1 .f32) (v808 : FVec F S512x512 .bf16) :
    (BIBase.emp : sProp 𝕄)
      ⊢ wp frame (wpE (defs₀ (F := F)) 𝒱₀ (c : Thread nD τ) none) Set.univ
          (k0_part23 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v137 v492 v494 v628 v629 v640 v641 v652 v653 v664 v665 v676 v677 v688 v689 v700 v701 v712 v713 v719 v730 v731 v742 v743 v754 v755 v766 v767 v778 v779 v790 v791 v802 v803 v808)
          (fun r => iprop(⌜r = ⟨k0_pay148 v137 v628 v629 v640 v641 v652 v653 v664 v665 v676 v677 v688 v689 v700 v701 v712 v713, k0_pay149 v730 v731, k0_pay150 v742 v743, k0_pay151 v754 v755, k0_pay152 v766 v767, k0_pay153 v778 v779, k0_pay154 v790 v791, k0_pay155 v802 v803, k0_pay156 v492 v494 v719 v808⟩⌝)) := by
  iintro -
  sl_exec
  sl_step
  ipureintro
  rfl

end Cert.KernelIdealProof

end
-- ==== Proof.BodyMid1b.lean ====
/-
  The second half of the body's middle stretch on a device, parts twelve to twenty-three: the rest of the first attention
  pass over the first group of keys; the fifth, sixth and seventh receive waits of the gather, each handing over the
  gather buffer's slot of a peer at the gathered contents, with the stores of the projections of those blocks into rotated
  blocks 5, 6 and 7 of the q, k and v scratch; the pass over the second group of keys; and its finalize. The scratch
  buffers enter holding the final contents on rotated blocks 0 to 4 and leave holding them everywhere; every load of the
  stretch reads rows of blocks already stored, so it returns the final contents' rows.
-/
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.BodyMid1Vals
import proofs.«900761_g7700000000000762_dist_attn_self_mha_htp_ss_b2_sq128_skv128_d512_hq8_dh64_v7x_i8_bf16_1_alg».proof.Proof.BodyP12
import proofs.«900761_g7700000000000762_dist_attn_self_mha_htp_ss_b2_sq128_skv128_d512_hq8_dh64_v7x_i8_bf16_1_alg».proof.Proof.BodyP13
import proofs.«900761_g7700000000000762_dist_attn_self_mha_htp_ss_b2_sq128_skv128_d512_hq8_dh64_v7x_i8_bf16_1_alg».proof.Proof.BodyP14
import proofs.«900761_g7700000000000762_dist_attn_self_mha_htp_ss_b2_sq128_skv128_d512_hq8_dh64_v7x_i8_bf16_1_alg».proof.Proof.BodyP15
import proofs.«900761_g7700000000000762_dist_attn_self_mha_htp_ss_b2_sq128_skv128_d512_hq8_dh64_v7x_i8_bf16_1_alg».proof.Proof.BodyP16
import proofs.«900761_g7700000000000762_dist_attn_self_mha_htp_ss_b2_sq128_skv128_d512_hq8_dh64_v7x_i8_bf16_1_alg».proof.Proof.BodyP17
import proofs.«900761_g7700000000000762_dist_attn_self_mha_htp_ss_b2_sq128_skv128_d512_hq8_dh64_v7x_i8_bf16_1_alg».proof.Proof.BodyP18
import proofs.«900761_g7700000000000762_dist_attn_self_mha_htp_ss_b2_sq128_skv128_d512_hq8_dh64_v7x_i8_bf16_1_alg».proof.Proof.BodyP19
import proofs.«900761_g7700000000000762_dist_attn_self_mha_htp_ss_b2_sq128_skv128_d512_hq8_dh64_v7x_i8_bf16_1_alg».proof.Proof.BodyP20
import proofs.«900761_g7700000000000762_dist_attn_self_mha_htp_ss_b2_sq128_skv128_d512_hq8_dh64_v7x_i8_bf16_1_alg».proof.Proof.BodyP21
import proofs.«900761_g7700000000000762_dist_attn_self_mha_htp_ss_b2_sq128_skv128_d512_hq8_dh64_v7x_i8_bf16_1_alg».proof.Proof.BodyP22
import proofs.«900761_g7700000000000762_dist_attn_self_mha_htp_ss_b2_sq128_skv128_d512_hq8_dh64_v7x_i8_bf16_1_alg».proof.Proof.BodyP23

set_option maxRecDepth 16384

noncomputable section

namespace Cert.KernelIdealProof

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (SS : Dev nD → (cc0_scratch4 : Ref sig .tc).ty.Contents (Elt F)) (RS : Dev nD → (cc0_scratch5 : Ref sig .tc).ty.Contents (Elt F))
variable (K : Dev nD × Fin 30 → ℕ)

/-- The body from its twelfth part through its twenty-third, over what the eleventh returns: the rest of the first
    attention pass's first group of keys, the last three receive waits of the gather with the stores of their chunks'
    projections, the second group of keys, and the pass's finalize. -/
def bodyMid1b (c : Dev nD) (v2 v89 v101 v113 : BitVec 32) (v137 : FVec F S512x512 .bf16) (v138 : FVec F S512x1536 .bf16)
    (v324 v326 v328 : FVec F S512x512 .bf16) (v336 : FVec F S512x1 .f32) (v338 : FVec F S512x64 .f32) (v346 : FVec F S512x1 .f32)
    (v348 : FVec F S512x64 .f32) (v352 : FVec F S512x512 .bf16) :
    Prog (TpuEff nD τ sig (Elt F) Λ₀ .tc) (Σ' (v841 : FVec F S512x512 .f32) (v844 : FVec F S512x64 .bf16) (v847 : FVec F S512x64 .bf16) (v850 : FVec F S512x64 .bf16) (v853 : FVec F S512x64 .bf16) (v856 : FVec F S512x64 .bf16) (v859 : FVec F S512x64 .bf16) (v862 : FVec F S512x64 .bf16), FVec F S512x64 .bf16) := do
  let ⟨v356, v358, v366, v368, v376, v378, v386, v388, v396, v398⟩ : Σ' (v356 : FVec F S512x1 .f32) (v358 : FVec F S512x64 .f32) (v366 : FVec F S512x1 .f32) (v368 : FVec F S512x64 .f32) (v376 : FVec F S512x1 .f32) (v378 : FVec F S512x64 .f32) (v386 : FVec F S512x1 .f32) (v388 : FVec F S512x64 .f32) (v396 : FVec F S512x1 .f32), FVec F S512x64 .f32 ← k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v324 v326 v328 v352
  let ⟨v406, v408, v410, v412, v414, v422, v424, v432, v434, v439⟩ : Σ' (v406 : FVec F S512x1 .f32) (v408 : FVec F S512x64 .f32) (v410 : FVec F S512x512 .bf16) (v412 : FVec F S512x512 .bf16) (v414 : FVec F S512x512 .bf16) (v422 : FVec F S512x1 .f32) (v424 : FVec F S512x64 .f32) (v432 : FVec F S512x1 .f32) (v434 : FVec F S512x64 .f32), FVec F S512x512 .bf16 ← k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v324 v326 v328
  let ⟨v442, v444, v452, v454, v462, v464, v472, v474, v482, v484, v485⟩ : Σ' (v442 : FVec F S512x1 .f32) (v444 : FVec F S512x64 .f32) (v452 : FVec F S512x1 .f32) (v454 : FVec F S512x64 .f32) (v462 : FVec F S512x1 .f32) (v464 : FVec F S512x64 .f32) (v472 : FVec F S512x1 .f32) (v474 : FVec F S512x64 .f32) (v482 : FVec F S512x1 .f32) (v484 : FVec F S512x64 .f32), FVec F S512x64 .bf16 ← k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v410 v412 v414 v439
  let ⟨v492, v494, v511, v515, v517, v519⟩ : Σ' (v492 : FVec F S512x1 .f32) (v494 : FVec F S512x64 .f32) (v511 : FVec F S256x1536 .bf16) (v515 : BitVec 32) (v517 : FVec F S2x128x512 .bf16), Vec F S2x128x512 .bf16 ← k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v89 v138 v412 v414 v485
  let ⟨v550, v552, c8_i32_350⟩ : Σ' (v550 : FVec F S256x1536 .bf16) (v552 : BitVec 32), BitVec 32 ← k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v101 v138 v511 v515 v517 v519
  let ⟨v583, v585⟩ : Σ' (v583 : BitVec 32), Vec F S1x2x128x512 .bf16 ← k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v113 v550 v552 c8_i32_350
  let ⟨v613, v615, v617, v622⟩ : Σ' (v613 : FVec F S512x512 .bf16) (v615 : FVec F S512x512 .bf16) (v617 : FVec F S512x512 .bf16), FVec F S512x512 .bf16 ← k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v138 v583 v585
  let ⟨v628, v629, v640, v641, v652, v653, v664, v665, v670⟩ : Σ' (v628 : FVec F S512x64 .f32) (v629 : FVec F S512x1 .f32) (v640 : FVec F S512x64 .f32) (v641 : FVec F S512x1 .f32) (v652 : FVec F S512x64 .f32) (v653 : FVec F S512x1 .f32) (v664 : FVec F S512x64 .f32) (v665 : FVec F S512x1 .f32), FVec F S512x512 .bf16 ← k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v336 v338 v346 v348 v356 v358 v366 v368 v613 v615 v617 v622
  let ⟨v676, v677, v688, v689, v700, v701, v712, v713, v715⟩ : Σ' (v676 : FVec F S512x64 .f32) (v677 : FVec F S512x1 .f32) (v688 : FVec F S512x64 .f32) (v689 : FVec F S512x1 .f32) (v700 : FVec F S512x64 .f32) (v701 : FVec F S512x1 .f32) (v712 : FVec F S512x64 .f32) (v713 : FVec F S512x1 .f32), FVec F S512x512 .bf16 ← k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v376 v378 v386 v388 v396 v398 v406 v408 v613 v615 v617 v670
  let ⟨v717, v719, v730, v731, v742, v743, v754, v755, v760⟩ : Σ' (v717 : FVec F S512x512 .bf16) (v719 : FVec F S512x512 .bf16) (v730 : FVec F S512x64 .f32) (v731 : FVec F S512x1 .f32) (v742 : FVec F S512x64 .f32) (v743 : FVec F S512x1 .f32) (v754 : FVec F S512x64 .f32) (v755 : FVec F S512x1 .f32), FVec F S512x512 .bf16 ← k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v422 v424 v432 v434 v442 v444 v715
  let ⟨v766, v767, v778, v779, v790, v791, v802, v803, v808⟩ : Σ' (v766 : FVec F S512x64 .f32) (v767 : FVec F S512x1 .f32) (v778 : FVec F S512x64 .f32) (v779 : FVec F S512x1 .f32) (v790 : FVec F S512x64 .f32) (v791 : FVec F S512x1 .f32) (v802 : FVec F S512x64 .f32) (v803 : FVec F S512x1 .f32), FVec F S512x512 .bf16 ← k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v452 v454 v462 v464 v472 v474 v482 v484 v715 v717 v719 v760
  k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v137 v492 v494 v628 v629 v640 v641 v652 v653 v664 v665 v676 v677 v688 v689 v700 v701 v712 v713 v719 v730 v731 v742 v743 v754 v755 v766 v767 v778 v779 v790 v791 v802 v803 v808

section Vals
variable (c : Dev nD)

/-- The block loaded after the fifth, sixth and seventh receive waits is the block the rotated blocks 5, 6, 7 are computed from. -/
theorem x507_eq : (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)) = slotv m (srcDev c 5) := ldXG_eq m c 4 5 rfl _
theorem x546_eq : (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)) = slotv m (srcDev c 6) := ldXG_eq m c 5 6 rfl _
theorem x585_eq : (View.readAt (Elt F) (Memref.whole cc0_scratch0 : Memref sig .tc .vmem S8x2x128x512 .bf16).view (Rect.unit (s := S8x2x128x512) (k0_off4 c 7#32) S1x2x128x512.size (k0_off4_inb c 6)).toLoadRect (XGdef m)) = slotv m (srcDev c 7) := ldXG_eq m c 6 7 rfl _

end Vals

set_option maxHeartbeats 8000000 in
/-- The second half of the middle stretch, run from the state the eleventh part leaves. -/
theorem mid1b_run (c : Dev nD) (W : Waits sig Unit) (v2 v89 v101 v113 : BitVec 32) (fq fk fv : S2x1024x512.Idx → Elt F .bf16)
    (hq : AgreesBelow (Qbuf m c) fq 5) (hk : AgreesBelow (Kbuf m c) fk 5) (hv : AgreesBelow (Vbuf m c) fv 5) :
    (iprop((cellInv ER (sched (XGdef m) SS RS) (K (c, 13)) (agRCell c 4) ∗ cellInv ER (sched (XGdef m) SS RS) (K (c, 14)) (agRCell c 5) ∗ cellInv ER (sched (XGdef m) SS RS) (K (c, 15)) (agRCell c 6))
        ∗ (atPos ER (agRCell c 4) 0 ∅ 0 ∗ atPos ER (agRCell c 5) 0 ∅ 0 ∗ atPos ER (agRCell c 6) 0 ∅ 0)
        ∗ (cred (tallyAt (agRCell c 4) () Nag) ∗ cred (tallyAt (agRCell c 5) () Nag) ∗ cred (tallyAt (agRCell c 6) () Nag))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ
          (bodyMid1b (F := F) c v2 v89 v101 v113 (WOv m c) (Wv m c) (k0_pay27 (ld_v323 m c)) (k0_pay28 (ld_v325 m c)) (k0_pay29 (ld_v327 m c))
            (k0_pay31 (ld_v323 m c) (ld_v325 m c)) (k0_pay32 (ld_v323 m c) (ld_v325 m c) (ld_v327 m c)) (k0_pay34 (ld_v323 m c) (ld_v325 m c))
            (k0_pay35 (ld_v323 m c) (ld_v325 m c) (ld_v327 m c)) (k0_pay36 (ld_v323 m c) (ld_v325 m c)))
          (fun r => iprop(⌜r = ⟨Cert.ValPass1.x841 (WOv m c) (ld_v323 m c) (ld_v325 m c) (ld_v327 m c) (ld_v612 m c) (ld_v614 m c) (ld_v616 m c),
              Cert.ValPass1.x844 (ld_v409 m c) (ld_v411 m c) (ld_v413 m c) (ld_v714 m c) (ld_v716 m c) (ld_v718 m c),
              Cert.ValPass1.x847 (ld_v409 m c) (ld_v411 m c) (ld_v413 m c) (ld_v714 m c) (ld_v716 m c) (ld_v718 m c),
              Cert.ValPass1.x850 (ld_v409 m c) (ld_v411 m c) (ld_v413 m c) (ld_v714 m c) (ld_v716 m c) (ld_v718 m c),
              Cert.ValPass1.x853 (ld_v409 m c) (ld_v411 m c) (ld_v413 m c) (ld_v714 m c) (ld_v716 m c) (ld_v718 m c),
              Cert.ValPass1.x856 (ld_v409 m c) (ld_v411 m c) (ld_v413 m c) (ld_v714 m c) (ld_v716 m c) (ld_v718 m c),
              Cert.ValPass1.x859 (ld_v409 m c) (ld_v411 m c) (ld_v413 m c) (ld_v714 m c) (ld_v716 m c) (ld_v718 m c),
              Cert.ValPass1.x862 (ld_v409 m c) (ld_v411 m c) (ld_v413 m c) (ld_v714 m c) (ld_v716 m c) (ld_v718 m c),
              Cert.ValPass1.x865 (ld_v409 m c) (ld_v411 m c) (ld_v413 m c) (ld_v714 m c) (ld_v716 m c) (ld_v718 m c)⟩⌝
            ∗ (atPos ER (agRCell c 4) 1 ∅ 0 ∗ atPos ER (agRCell c 5) 1 ∅ 0 ∗ atPos ER (agRCell c 6) 1 ∅ 0)
            ∗ (reached ER (agRCell c 4) 1 ∗ reached ER (agRCell c 5) 1 ∗ reached ER (agRCell c 6) 1)
            ∗ (((xgSlot (fwd c 3)).view.loc (c : Thread nD τ) ↦[(xgSlot (fwd c 3)).view.set]{fullShare} XGdef m) ∗ ((xgSlot (fwd c 2)).view.loc (c : Thread nD τ) ↦[(xgSlot (fwd c 2)).view.set]{fullShare} XGdef m) ∗ ((xgSlot (fwd c 1)).view.loc (c : Thread nD τ) ↦[(xgSlot (fwd c 1)).view.set]{fullShare} XGdef m))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR6, ()) (insert (SemLoc.dma agR5, ()) (insert (SemLoc.dma agR4, ()) W)))
            ∗ (View.loc (c : Thread nD τ) (Memref.whole cc0_scratch1 : Memref sig .tc .vmem S2x1024x512 .bf16).view ↦{fullShare} Qbuf m c)
            ∗ (View.loc (c : Thread nD τ) (Memref.whole cc0_scratch2 : Memref sig .tc .vmem S2x1024x512 .bf16).view ↦{fullShare} Kbuf m c)
            ∗ (View.loc (c : Thread nD τ) (Memref.whole cc0_scratch3 : Memref sig .tc .vmem S2x1024x512 .bf16).view ↦{fullShare} Vbuf m c))) := by
  -- the three scratch buffers after the stores of blocks 5, 6 and 7 hold the final contents

  have hq6 : AgreesBelow (Qbuf m c) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 :=
    agrees_write_1 (Qbuf m c) fq 5 (k0_off5 c 5#32) (k0_off5_inb c 4) (off5_block c 4) _
      (fun i hb => by rw [x507_eq m c]; exact (Qbuf_block m c 5 i hb).symm) hq
  have hq7 : AgreesBelow (Qbuf m c) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 :=
    agrees_write_1 (Qbuf m c) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 (k0_off5 c 6#32) (k0_off5_inb c 5) (off5_block c 5) _
      (fun i hb => by rw [x546_eq m c]; exact (Qbuf_block m c 6 i hb).symm) hq6
  have hq8 : AgreesBelow (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay93 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 :=
    agrees_write_1 (Qbuf m c) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 (k0_off5 c 7#32) (k0_off5_inb c 6) (off5_block c 6) _
      (fun i hb => by rw [x585_eq m c]; exact (Qbuf_block m c 7 i hb).symm) hq7
  have eq3 : (((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay93 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) : S2x1024x512.Idx → Elt F .bf16) = Qbuf m c := eq_of_agrees_eight _ _ hq8

  have hk6 : AgreesBelow (Kbuf m c) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 :=
    agrees_write_2 (Kbuf m c) fk 5 (k0_off5 c 5#32) (k0_off5_inb c 4) (off5_block c 4) _
      (fun i hb => by rw [x507_eq m c]; exact (Kbuf_block m c 5 i hb).symm) hk
  have hk7 : AgreesBelow (Kbuf m c) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 :=
    agrees_write_2 (Kbuf m c) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 (k0_off5 c 6#32) (k0_off5_inb c 5) (off5_block c 5) _
      (fun i hb => by rw [x546_eq m c]; exact (Kbuf_block m c 6 i hb).symm) hk6
  have hk8 : AgreesBelow (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay94 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 :=
    agrees_write_2 (Kbuf m c) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 (k0_off5 c 7#32) (k0_off5_inb c 6) (off5_block c 6) _
      (fun i hb => by rw [x585_eq m c]; exact (Kbuf_block m c 7 i hb).symm) hk7
  have ek3 : (((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay94 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) : S2x1024x512.Idx → Elt F .bf16) = Kbuf m c := eq_of_agrees_eight _ _ hk8

  have hv6 : AgreesBelow (Vbuf m c) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 :=
    agrees_write_3 (Vbuf m c) fv 5 (k0_off5 c 5#32) (k0_off5_inb c 4) (off5_block c 4) _
      (fun i hb => by rw [x507_eq m c]; exact (Vbuf_block m c 5 i hb).symm) hv
  have hv7 : AgreesBelow (Vbuf m c) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 :=
    agrees_write_3 (Vbuf m c) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) 6 (k0_off5 c 6#32) (k0_off5_inb c 5) (off5_block c 5) _
      (fun i hb => by rw [x546_eq m c]; exact (Vbuf_block m c 6 i hb).symm) hv6
  have hv8 : AgreesBelow (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay95 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 :=
    agrees_write_3 (Vbuf m c) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) 7 (k0_off5 c 7#32) (k0_off5_inb c 6) (off5_block c 6) _
      (fun i hb => by rw [x585_eq m c]; exact (Vbuf_block m c 7 i hb).symm) hv7
  have ev3 : (((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay95 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) : S2x1024x512.Idx → Elt F .bf16) = Vbuf m c := eq_of_agrees_eight _ _ hv8
  -- what the loads return
  have e409 : p13_v409 c fq = ld_v409 m c := ld_of_agrees_1 (Qbuf m c) fq 5 hq 1 128 _ (by norm_num)
  have e411 : p13_v411 c fk = ld_v411 m c := ld_of_agrees_2 (Kbuf m c) fk 5 hk 1 0 _ (by norm_num)
  have e413 : p13_v413 c fv = ld_v413 m c := ld_of_agrees_3 (Vbuf m c) fv 5 hv 1 0 _ (by norm_num)
  have e612 : p18_v612 c (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m)) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) = ld_v612 m c := ld_of_agrees_1 (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay93 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hq8 0 128 _ (by norm_num)
  have e614 : p18_v614 c (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m)) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) = ld_v614 m c := ld_of_agrees_2 (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay94 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hk8 0 512 _ (by norm_num)
  have e616 : p18_v616 c (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m)) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) = ld_v616 m c := ld_of_agrees_3 (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay95 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hv8 0 512 _ (by norm_num)
  have e714 : p20_v714 c ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay93 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) = ld_v714 m c := ld_of_agrees_1 (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off5 c 5#32) S2x128x512.size (k0_off5_inb c 4), k0_pay85 (k0_pay84 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay89 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay93 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hq8 1 128 _ (by norm_num)
  have e716 : p21_v716 c ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay94 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) = ld_v716 m c := ld_of_agrees_2 (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off5 c 5#32) S2x128x512.size (k0_off5_inb c 4), k0_pay86 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay90 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay94 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hk8 1 512 _ (by norm_num)
  have e718 : p21_v718 c ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay95 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) = ld_v718 m c := ld_of_agrees_3 (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off5 c 5#32) S2x128x512.size (k0_off5_inb c 4), k0_pay87 (k0_pay83 (Wv m c) (View.readAt (Elt F) (Memref.whole cc0_scratch0 : Memref sig .tc .vmem S8x2x128x512 .bf16).view (Rect.unit (s := S8x2x128x512) (k0_off4 c 5#32) S1x2x128x512.size (k0_off4_inb c 4)).toLoadRect (XGdef m)))⟩]) [⟨Rect.unit (s := S2x1024x512) (k0_off5 c 6#32) S2x128x512.size (k0_off5_inb c 5), k0_pay91 (k0_pay88 (Wv m c) (View.readAt (Elt F) (Memref.whole cc0_scratch0 : Memref sig .tc .vmem S8x2x128x512 .bf16).view (Rect.unit (s := S8x2x128x512) (k0_off4 c 6#32) S1x2x128x512.size (k0_off4_inb c 5)).toLoadRect (XGdef m)))⟩]) [⟨Rect.unit (s := S2x1024x512) (k0_off5 c 7#32) S2x128x512.size (k0_off5_inb c 6), k0_pay95 (Wv m c) (View.readAt (Elt F) (Memref.whole cc0_scratch0 : Memref sig .tc .vmem S8x2x128x512 .bf16).view (Rect.unit (s := S8x2x128x512) (k0_off4 c 7#32) S1x2x128x512.size (k0_off4_inb c 6)).toLoadRect (XGdef m))⟩]) 8 hv8 1 512 _ (by norm_num)
  unfold bodyMid1b
  iintro ⟨⟨#I4, #I5, #I6⟩, ⟨P4, P5, P6⟩, ⟨C4, C5, C6⟩, #HL, HO, Hq, Hk, Hv⟩
  -- part 12: computes only
  iapply (wp_seq c (part12_run c W _ _ _ _))
  isplitr; · iempintro
  iintro %r12 %h12; subst h12
  -- part 13: batch 1's blocks loaded
  iapply (wp_seq c (part13_run c W _ _ _ fq fk fv))
  isplitl [Hq Hk Hv]
  · isplitl [Hq]; · iexact Hq
    isplitl [Hk]; · iexact Hk
    iexact Hv
  iintro %r13 ⟨%h13, Hq, Hk, Hv⟩; subst h13
  -- part 14: computes only
  iapply (wp_seq c (part14_run c W _ _ _ _))
  isplitr; · iempintro
  iintro %r14 %h14; subst h14
  -- part 15: receive wait 4
  iapply (wp_seq c (part15_run (XGdef m) SS RS K c W _ _ _ _ _ _ fq))
  isplitl [P4 C4 HO Hq]
  · isplitr; · iexact I4
    isplitl [P4]; · iexact P4
    isplitl [C4]; · iexact C4
    isplitr; · iexact HL
    isplitl [HO]; · iexact HO
    iexact Hq
  iintro %r15 ⟨%h15, P4, R4, S4, HO, Hq⟩; subst h15
  -- part 16: block 5 stored, receive wait 5
  iapply (wp_seq c (part16_run (XGdef m) SS RS K c (insert (SemLoc.dma agR4, ()) W) _ _ _ _ _ _ _ fq fk fv))
  isplitl [P5 C5 HO Hq Hk Hv]
  · isplitr; · iexact I5
    isplitl [P5]; · iexact P5
    isplitl [C5]; · iexact C5
    isplitr; · iexact HL
    isplitl [HO]; · iexact HO
    isplitl [Hq]; · iexact Hq
    isplitl [Hk]; · iexact Hk
    iexact Hv
  iintro %r16 ⟨%h16, P5, R5, S5, HO, Hq, Hk, Hv⟩; subst h16
  -- part 17: block 6 stored, receive wait 6
  iapply (wp_seq c (part17_run (XGdef m) SS RS K c (insert (SemLoc.dma agR5, ()) (insert (SemLoc.dma agR4, ()) W)) _ _ _ _ _ _ _ _))
  isplitl [P6 C6 HO Hq Hk Hv]
  · isplitr; · iexact I6
    isplitl [P6]; · iexact P6
    isplitl [C6]; · iexact C6
    isplitr; · iexact HL
    isplitl [HO]; · iexact HO
    isplitl [Hq]; · iexact Hq
    isplitl [Hk]; · iexact Hk
    iexact Hv
  iintro %r17 ⟨%h17, P6, R6, S6, HO, Hq, Hk, Hv⟩; subst h17
  -- part 18: block 7 stored, batch 0's blocks of the second group of keys loaded
  iapply (wp_seq c (part18_run c W _ _ _ _ _ _ _))
  isplitl [Hq Hk Hv]
  · isplitl [Hq]; · iexact Hq
    isplitl [Hk]; · iexact Hk
    iexact Hv
  iintro %r18 ⟨%h18, Hq, Hk, Hv⟩; subst h18
  -- part 19: computes only
  iapply (wp_seq c (part19_run c W _ _ _ _ _ _ _ _ _ _ _ _))
  isplitr; · iempintro
  iintro %r19 %h19; subst h19
  -- part 20: batch 1's queries loaded
  iapply (wp_seq c (part20_run c W _ _ _ _ _ _ _ _ _ _ _ _ _))
  isplitl [Hq]; · iexact Hq
  iintro %r20 ⟨%h20, Hq⟩; subst h20
  -- part 21: batch 1's keys and values of the second group loaded
  iapply (wp_seq c (part21_run c W _ _ _ _ _ _ _ _ _))
  isplitl [Hk Hv]
  · isplitl [Hk]; · iexact Hk
    iexact Hv
  iintro %r21 ⟨%h21, Hk, Hv⟩; subst h21
  -- part 22: computes only
  iapply (wp_seq c (part22_run c W _ _ _ _ _ _ _ _ _ _ _ _))
  isplitr; · iempintro
  iintro %r22 %h22; subst h22
  -- part 23: the finalize
  iapply (wp_wand_r frame (wpE (defs₀ (F := F)) 𝒱₀ (c : Thread nD τ) none) Set.univ)
  isplitr [P4 P5 P6 R4 R5 R6 S4 S5 S6 HO Hq Hk Hv]
  · iapply (part23_run c W _ _ _ _ _ _ _ _ _ _ _ _ _ _ _ _ _ _ _ _ _ _ _ _ _ _ _ _ _ _ _ _ _ _ _)
    iempintro
  iintro %r23 %h23; subst h23
  isplitr [P4 P5 P6 R4 R5 R6 S4 S5 S6 HO Hq Hk Hv]
  · ipureintro
    rw [e409, e411, e413, e612, e614, e616, e714, e716, e718]
    rfl
  isplitl [P4 P5 P6]
  · isplitl [P4]; · iexact P4
    isplitl [P5]; · iexact P5
    iexact P6
  isplitl [R4 R5 R6]
  · isplitl [R4]; · iexact R4
    isplitl [R5]; · iexact R5
    iexact R6
  isplitl [S4 S5 S6]
  · isplitl [S4]; · iexact S4
    isplitl [S5]; · iexact S5
    iexact S6
  isplitl [HO]; · iexact HO
  isplitl [Hq]
  · iapply (Entails.of_eq (congrArg (fun g => (View.loc (c : Thread nD τ) (Memref.whole cc0_scratch1 : Memref sig .tc .vmem S2x1024x512 .bf16).view ↦{fullShare} g : sProp 𝕄)) eq3))
    iexact Hq
  isplitl [Hk]
  · iapply (Entails.of_eq (congrArg (fun g => (View.loc (c : Thread nD τ) (Memref.whole cc0_scratch2 : Memref sig .tc .vmem S2x1024x512 .bf16).view ↦{fullShare} g : sProp 𝕄)) ek3))
    iexact Hk
  iapply (Entails.of_eq (congrArg (fun g => (View.loc (c : Thread nD τ) (Memref.whole cc0_scratch3 : Memref sig .tc .vmem S2x1024x512 .bf16).view ↦{fullShare} g : sProp 𝕄)) ev3))
  iexact Hv

end Cert.KernelIdealProof

end
-- ==== Proof.BodyP06.lean ====
/-
  Part 6 of the body at a symbolic device: the projections of the device's own block of x are stored into the q, k and v
  scratch at the first chunk's rows, and the first receive wait of the gather returns the slot of the device seven
  places on, holding that device's block.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_0 (c : Dev nD) : (sched (F := F) XG SS RS).duties (agRCell c 0) 0 = {0} := duties_agR XG SS RS c 0
private theorem amount_agR_0 (c : Dev nD) (d : DD) : (sched (F := F) XG SS RS).amount (agRCell c 0) 0 d = Nag := amount_agR XG SS RS c 0 d
private theorem expect_agR_0 (c : Dev nD) : (sched (F := F) XG SS RS).expect (agRCell c 0) 0 = Nag := expect_agR XG SS RS c 0
private theorem restd_agR_0 (c : Dev nD) : bigSep ((sched (F := F) XG SS RS).duties (agRCell c 0) 0) (fun d => (sched (F := F) XG SS RS).payload (agRCell c 0) 0 d) ⊢
    ((xgSlot (fwd c 7)).view.loc (c : Thread nD τ) ↦[(xgSlot (fwd c 7)).view.set]{fullShare} XG) := by
  rw [duties_agR, bigSep_singleton, payload_agR_0]

end Lit

attribute [local irreducible] fwd
attribute [local sl_rounds] duties_agR_0 amount_agR_0 expect_agR_0

set_option maxHeartbeats 4000000 in
/-- Part 6 from the three scratch buffers, whatever they hold, and the first receive cell at round 0. -/
theorem part6_run (c : Dev nD) (W : Waits sig Unit) (v2 v41 : BitVec 32) (v138 : FVec F S512x1536 .bf16) (v141 : FVec F S2x128x512 .bf16)
    (fq : _) (fk : _) (fv : _) :
    (iprop(cellInv ER (sched XG SS RS) (K (c, 9)) (agRCell c 0)
        ∗ atPos ER (agRCell c 0) 0 ∅ 0
        ∗ cred (tallyAt (agRCell c 0) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v41 v138 v141)
          (fun r => iprop(⌜r = ⟨Scalar.subi v2 1#32, 8#32⟩⌝
            ∗ atPos ER (agRCell c 0) 1 ∅ 0
            ∗ reached ER (agRCell c 0) 1
            ∗ ((xgSlot (fwd c 7)).view.loc (c : Thread nD τ) ↦[(xgSlot (fwd c 7)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR0, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off3 c) S2x128x512.size (k0_off3_inb c), k0_pay6 v138 v141⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off3 c) S2x128x512.size (k0_off3_inb c), k0_pay7 v138 v141⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off3 c) S2x128x512.size (k0_off3_inb c), k0_pay8 v138 v141⟩]))) := by
  have hw0 := mayWait_agR (F := F) c 0
  iintro ⟨#I0, P0, C0, #HL, HO, Hq, Hk, Hv⟩
  sl_exec
  ihave Y0 := (restd_agR_0 XG SS RS c) $$ P0_pay1
  sl_step
  sl_close

end Cert.KernelIdealProof
end
-- ==== Proof.BodyP07.lean ====
/-
  Part 7 of the body at a symbolic device: the block of x received first (the slot of the device seven places on in
  the gather buffer) is read, and its projections are stored into the q, k and v scratch at the rows of that chunk.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

theorem part7_sub (c : Dev nD) : (Memref.whole cc0_scratch0 : Memref sig .tc .vmem S8x2x128x512 .bf16).view.setOn (Rect.unit (s := S8x2x128x512) (k0_off4 c 1#32) S1x2x128x512.size (k0_off4_inb c 0)).set
    ⊆ (xgSlot (fwd c 7)).view.set :=
  xgLoad_sub c (fwd c 7) ⟨0, by decide⟩ (by unfold fwd; simp) (k0_off4_inb c 0)

attribute [local irreducible] fwd

set_option maxHeartbeats 4000000 in
/-- Part 7 from the received slot and the three scratch buffers, whatever they hold. -/
theorem part7_run (c : Dev nD) (v2 v53 v175 c8 : BitVec 32) (v138 : FVec F S512x1536 .bf16) (fx : _) (fq : _) (fk : _) (fv : _) :
    (iprop(((xgSlot (fwd c 7)).view.loc (c : Thread nD τ) ↦[(xgSlot (fwd c 7)).view.set]{fullShare} fx)
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v53 v138 v175 c8)
          (fun r => iprop(⌜r = PUnit.unit⌝ ∗ ((xgSlot (fwd c 7)).view.loc (c : Thread nD τ) ↦[(xgSlot (fwd c 7)).view.set]{fullShare} fx)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 1#32) S2x128x512.size (k0_off5_inb c 0), k0_pay10 v138 (View.readAt (Elt F) (Memref.whole cc0_scratch0 : Memref sig .tc .vmem S8x2x128x512 .bf16).view (Rect.unit (s := S8x2x128x512) (k0_off4 c 1#32) S1x2x128x512.size (k0_off4_inb c 0)).toLoadRect fx)⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off5 c 1#32) S2x128x512.size (k0_off5_inb c 0), k0_pay11 v138 (View.readAt (Elt F) (Memref.whole cc0_scratch0 : Memref sig .tc .vmem S8x2x128x512 .bf16).view (Rect.unit (s := S8x2x128x512) (k0_off4 c 1#32) S1x2x128x512.size (k0_off4_inb c 0)).toLoadRect fx)⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off5 c 1#32) S2x128x512.size (k0_off5_inb c 0), k0_pay12 v138 (View.readAt (Elt F) (Memref.whole cc0_scratch0 : Memref sig .tc .vmem S8x2x128x512 .bf16).view (Rect.unit (s := S8x2x128x512) (k0_off4 c 1#32) S1x2x128x512.size (k0_off4_inb c 0)).toLoadRect fx)⟩]))) := by
  have hsub := part7_sub c
  iintro ⟨X0, Hq, Hk, Hv⟩
  sl_exec
  sl_step
  isplitr
  · ipureintro; rfl
  isplitl [X0]; · iexact X0
  isplitl [Hq]; · iexact Hq
  isplitl [Hk]; · iexact Hk
  iexact Hv

end Cert.KernelIdealProof
end
-- ==== Proof.BodyP08.lean ====
/-
  Part 8 of the body at a symbolic device: the second receive wait of the gather returns the slot of the device six places
  on; its block of x is read and its projections are stored into the q, k and v scratch at the rows of that chunk.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_1 (c : Dev nD) : (sched (F := F) XG SS RS).duties (agRCell c 1) 0 = {0} := duties_agR XG SS RS c 1
private theorem amount_agR_1 (c : Dev nD) (d : DD) : (sched (F := F) XG SS RS).amount (agRCell c 1) 0 d = Nag := amount_agR XG SS RS c 1 d
private theorem expect_agR_1 (c : Dev nD) : (sched (F := F) XG SS RS).expect (agRCell c 1) 0 = Nag := expect_agR XG SS RS c 1
private theorem restd_agR_1 (c : Dev nD) : bigSep ((sched (F := F) XG SS RS).duties (agRCell c 1) 0) (fun d => (sched (F := F) XG SS RS).payload (agRCell c 1) 0 d) ⊢
    ((xgSlot (fwd c 6)).view.loc (c : Thread nD τ) ↦[(xgSlot (fwd c 6)).view.set]{fullShare} XG) := by
  rw [duties_agR, bigSep_singleton, payload_agR_1]

end Lit

theorem part8_sub (c : Dev nD) : (Memref.whole cc0_scratch0 : Memref sig .tc .vmem S8x2x128x512 .bf16).view.setOn (Rect.unit (s := S8x2x128x512) (k0_off4 c 2#32) S1x2x128x512.size (k0_off4_inb c 1)).set
    ⊆ (xgSlot (fwd c 6)).view.set :=
  xgLoad_sub c (fwd c 6) ⟨1, by decide⟩ (by unfold fwd; simp) (k0_off4_inb c 1)

attribute [local irreducible] fwd
attribute [local sl_rounds] duties_agR_1 amount_agR_1 expect_agR_1

set_option maxHeartbeats 4000000 in
/-- Part 8 from the second receive cell at round 0 and the three scratch buffers, whatever they hold. -/
theorem part8_run (c : Dev nD) (W : Waits sig Unit) (v2 v65 : BitVec 32) (v138 : FVec F S512x1536 .bf16)
    (fq : _) (fk : _) (fv : _) :
    (iprop(cellInv ER (sched XG SS RS) (K (c, 10)) (agRCell c 1)
        ∗ atPos ER (agRCell c 1) 0 ∅ 0
        ∗ cred (tallyAt (agRCell c 1) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v65 v138)
          (fun r => iprop(⌜r = Scalar.muli v65 1#32⌝
            ∗ atPos ER (agRCell c 1) 1 ∅ 0
            ∗ reached ER (agRCell c 1) 1
            ∗ ((xgSlot (fwd c 6)).view.loc (c : Thread nD τ) ↦[(xgSlot (fwd c 6)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR1, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 2#32) S2x128x512.size (k0_off5_inb c 1), k0_pay14 v138 (View.readAt (Elt F) (Memref.whole cc0_scratch0 : Memref sig .tc .vmem S8x2x128x512 .bf16).view (Rect.unit (s := S8x2x128x512) (k0_off4 c 2#32) S1x2x128x512.size (k0_off4_inb c 1)).toLoadRect XG)⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off5 c 2#32) S2x128x512.size (k0_off5_inb c 1), k0_pay15 v138 (View.readAt (Elt F) (Memref.whole cc0_scratch0 : Memref sig .tc .vmem S8x2x128x512 .bf16).view (Rect.unit (s := S8x2x128x512) (k0_off4 c 2#32) S1x2x128x512.size (k0_off4_inb c 1)).toLoadRect XG)⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off5 c 2#32) S2x128x512.size (k0_off5_inb c 1), k0_pay16 v138 (View.readAt (Elt F) (Memref.whole cc0_scratch0 : Memref sig .tc .vmem S8x2x128x512 .bf16).view (Rect.unit (s := S8x2x128x512) (k0_off4 c 2#32) S1x2x128x512.size (k0_off4_inb c 1)).toLoadRect XG)⟩]))) := by
  have hw0 := mayWait_agR (F := F) c 1
  have hsub := part8_sub c
  iintro ⟨#I0, P0, C0, #HL, HO, Hq, Hk, Hv⟩
  sl_exec
  ihave Y0 := (restd_agR_1 XG SS RS c) $$ P0_pay1
  sl_exec
  sl_step
  sl_close

end Cert.KernelIdealProof
end
-- ==== Proof.BodyP09.lean ====
/-
  Part 9 of the body at a symbolic device: the third receive wait of the gather returns the slot of the device five places
  on; its block of x is read, its q and k projections are stored at the rows of that chunk, and its v projection is returned.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_2 (c : Dev nD) : (sched (F := F) XG SS RS).duties (agRCell c 2) 0 = {0} := duties_agR XG SS RS c 2
private theorem amount_agR_2 (c : Dev nD) (d : DD) : (sched (F := F) XG SS RS).amount (agRCell c 2) 0 d = Nag := amount_agR XG SS RS c 2 d
private theorem expect_agR_2 (c : Dev nD) : (sched (F := F) XG SS RS).expect (agRCell c 2) 0 = Nag := expect_agR XG SS RS c 2
private theorem restd_agR_2 (c : Dev nD) : bigSep ((sched (F := F) XG SS RS).duties (agRCell c 2) 0) (fun d => (sched (F := F) XG SS RS).payload (agRCell c 2) 0 d) ⊢
    ((xgSlot (fwd c 5)).view.loc (c : Thread nD τ) ↦[(xgSlot (fwd c 5)).view.set]{fullShare} XG) := by
  rw [duties_agR, bigSep_singleton, payload_agR_2]

end Lit

theorem part9_sub (c : Dev nD) : (Memref.whole cc0_scratch0 : Memref sig .tc .vmem S8x2x128x512 .bf16).view.setOn (Rect.unit (s := S8x2x128x512) (k0_off4 c 3#32) S1x2x128x512.size (k0_off4_inb c 2)).set
    ⊆ (xgSlot (fwd c 5)).view.set :=
  xgLoad_sub c (fwd c 5) ⟨2, by decide⟩ (by unfold fwd; simp) (k0_off4_inb c 2)

attribute [local irreducible] fwd
attribute [local sl_rounds] duties_agR_2 amount_agR_2 expect_agR_2

set_option maxHeartbeats 4000000 in
theorem part9_run (c : Dev nD) (W : Waits sig Unit) (v2 v245 : BitVec 32) (v138 : FVec F S512x1536 .bf16) (fq : _) (fk : _) :
    (iprop(cellInv ER (sched XG SS RS) (K (c, 11)) (agRCell c 2)
        ∗ atPos ER (agRCell c 2) 0 ∅ 0
        ∗ cred (tallyAt (agRCell c 2) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)) : sProp 𝕄)
      ⊢ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v138 v245)
          (fun r => iprop(⌜r = k0_pay20 v138 (View.readAt (Elt F) (Memref.whole cc0_scratch0 : Memref sig .tc .vmem S8x2x128x512 .bf16).view (Rect.unit (s := S8x2x128x512) (k0_off4 c 3#32) S1x2x128x512.size (k0_off4_inb c 2)).toLoadRect XG)⌝
            ∗ atPos ER (agRCell c 2) 1 ∅ 0
            ∗ reached ER (agRCell c 2) 1
            ∗ ((xgSlot (fwd c 5)).view.loc (c : Thread nD τ) ↦[(xgSlot (fwd c 5)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR2, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 3#32) S2x128x512.size (k0_off5_inb c 2), k0_pay18 v138 (View.readAt (Elt F) (Memref.whole cc0_scratch0 : Memref sig .tc .vmem S8x2x128x512 .bf16).view (Rect.unit (s := S8x2x128x512) (k0_off4 c 3#32) S1x2x128x512.size (k0_off4_inb c 2)).toLoadRect XG)⟩])
            ∗ (View.loc (c : Thread nD τ) (Memref.whole cc0_scratch2 : Memref sig .tc .vmem S2x1024x512 .bf16).view ↦{fullShare}
              (Memref.whole cc0_scratch2 : Memref sig .tc .vmem S2x1024x512 .bf16).view.writes (Elt F) fk
                [⟨Rect.unit (s := S2x1024x512) (k0_off5 c 3#32) S2x128x512.size (k0_off5_inb c 2), k0_pay19 v138 (View.readAt (Elt F) (Memref.whole cc0_scratch0 : Memref sig .tc .vmem S8x2x128x512 .bf16).view (Rect.unit (s := S8x2x128x512) (k0_off4 c 3#32) S1x2x128x512.size (k0_off4_inb c 2)).toLoadRect XG)⟩]))) := by
  have hw0 := mayWait_agR (F := F) c 2
  have hsub := part9_sub c
  iintro ⟨#I0, P0, C0, #HL, HO, Hq, Hk⟩
  sl_exec
  ihave Y0 := (restd_agR_2 XG SS RS c) $$ P0_pay1
  sl_exec
  sl_step
  sl_close

end Cert.KernelIdealProof
end
-- ==== Proof.BodyP10.lean ====
/-
  Part 10 of the body at a symbolic device: the v projection of the third received block is stored; the fourth receive
  wait of the gather returns the slot of the device four places on; its block of x is read, its q projection is stored at the
  rows of that chunk, and its k and v projections are returned.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.BodyP06Lib
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

section Lit
private theorem duties_agR_3 (c : Dev nD) : (sched (F := F) XG SS RS).duties (agRCell c 3) 0 = {0} := duties_agR XG SS RS c 3
private theorem amount_agR_3 (c : Dev nD) (d : DD) : (sched (F := F) XG SS RS).amount (agRCell c 3) 0 d = Nag := amount_agR XG SS RS c 3 d
private theorem expect_agR_3 (c : Dev nD) : (sched (F := F) XG SS RS).expect (agRCell c 3) 0 = Nag := expect_agR XG SS RS c 3
private theorem restd_agR_3 (c : Dev nD) : bigSep ((sched (F := F) XG SS RS).duties (agRCell c 3) 0) (fun d => (sched (F := F) XG SS RS).payload (agRCell c 3) 0 d) ⊢
    ((xgSlot (fwd c 4)).view.loc (c : Thread nD τ) ↦[(xgSlot (fwd c 4)).view.set]{fullShare} XG) := by
  rw [duties_agR, bigSep_singleton, payload_agR_3]

end Lit

theorem part10_sub (c : Dev nD) : (Memref.whole cc0_scratch0 : Memref sig .tc .vmem S8x2x128x512 .bf16).view.setOn (Rect.unit (s := S8x2x128x512) (k0_off4 c 4#32) S1x2x128x512.size (k0_off4_inb c 3)).set
    ⊆ (xgSlot (fwd c 4)).view.set :=
  xgLoad_sub c (fwd c 4) ⟨3, by decide⟩ (by unfold fwd; simp) (k0_off4_inb c 3)

attribute [local irreducible] fwd
attribute [local sl_rounds] duties_agR_3 amount_agR_3 expect_agR_3

set_option maxHeartbeats 4000000 in
theorem part10_run (c : Dev nD) (W : Waits sig Unit) (v2 v77 : BitVec 32) (v138 : FVec F S512x1536 .bf16) (v279 : FVec F S2x128x512 .bf16) (fq : _) (fv : _) :
    (iprop(cellInv ER (sched XG SS RS) (K (c, 12)) (agRCell c 3)
        ∗ atPos ER (agRCell c 3) 0 ∅ 0
        ∗ cred (tallyAt (agRCell c 3) () Nag)
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v77 v138 v279)
          (fun r => iprop(⌜r = ⟨k0_pay22 v138 (View.readAt (Elt F) (Memref.whole cc0_scratch0 : Memref sig .tc .vmem S8x2x128x512 .bf16).view (Rect.unit (s := S8x2x128x512) (k0_off4 c 4#32) S1x2x128x512.size (k0_off4_inb c 3)).toLoadRect XG), Scalar.muli (Scalar.remsi (Scalar.addi (Scalar.subi v2 (Scalar.remsi (Scalar.addi (Scalar.subi v2 4#32) 8#32) 8#32)) 8#32) 8#32) 128#32, k0_pay24 v138 (View.readAt (Elt F) (Memref.whole cc0_scratch0 : Memref sig .tc .vmem S8x2x128x512 .bf16).view (Rect.unit (s := S8x2x128x512) (k0_off4 c 4#32) S1x2x128x512.size (k0_off4_inb c 3)).toLoadRect XG)⟩⌝
            ∗ atPos ER (agRCell c 3) 1 ∅ 0
            ∗ reached ER (agRCell c 3) 1
            ∗ ((xgSlot (fwd c 4)).view.loc (c : Thread nD τ) ↦[(xgSlot (fwd c 4)).view.set]{fullShare} XG)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR3, ()) W)
            ∗ (View.loc (c : Thread nD τ) (Memref.whole cc0_scratch1 : Memref sig .tc .vmem S2x1024x512 .bf16).view ↦{fullShare}
              (Memref.whole cc0_scratch1 : Memref sig .tc .vmem S2x1024x512 .bf16).view.writes (Elt F) fq
                [⟨Rect.unit (s := S2x1024x512) (k0_off5 c 4#32) S2x128x512.size (k0_off5_inb c 3), k0_pay23 v138 (View.readAt (Elt F) (Memref.whole cc0_scratch0 : Memref sig .tc .vmem S8x2x128x512 .bf16).view (Rect.unit (s := S8x2x128x512) (k0_off4 c 4#32) S1x2x128x512.size (k0_off4_inb c 3)).toLoadRect XG)⟩])
            ∗ (View.loc (c : Thread nD τ) (Memref.whole cc0_scratch3 : Memref sig .tc .vmem S2x1024x512 .bf16).view ↦{fullShare}
              (Memref.whole cc0_scratch3 : Memref sig .tc .vmem S2x1024x512 .bf16).view.writes (Elt F) fv
                [⟨Rect.unit (s := S2x1024x512) (k0_off5 c 3#32) S2x128x512.size (k0_off5_inb c 2), k0_pay21 v279⟩]))) := by
  have hw0 := mayWait_agR (F := F) c 3
  have hsub := part10_sub c
  iintro ⟨#I0, P0, C0, #HL, HO, Hq, Hv⟩
  sl_exec
  ihave Y0 := (restd_agR_3 XG SS RS c) $$ P0_pay1
  sl_exec
  sl_step
  sl_close

end Cert.KernelIdealProof
end
-- ==== Proof.BodyP11.lean ====
/-
  Part 11 of the body at a symbolic device: the k and v projections of the fourth received block are stored at the rows
  of that chunk; then the first attention pass loads, for batch 0, the queries (rows 128 to 639 of q) and the first 512
  rows of k and of v, and computes the first two heads' sums and the third head's scores.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.Slots
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
/-- Part 11 from the three scratch buffers, whatever they hold. -/
theorem part11_run (c : Dev nD) (v304 : BitVec 32) (v300 : FVec F S256x1536 .bf16) (v312 : FVec F S2x128x512 .bf16) (fq : _) (fk : _) (fv : _) :
    (iprop((View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v300 v304 v312)
          (fun r => iprop(⌜r = ⟨k0_pay27 (View.readAt (Elt F) (Memref.whole cc0_scratch1 : Memref sig .tc .vmem S2x1024x512 .bf16).view (Rect.unit (s := S2x1024x512) ![0, 128, 0] S1x512x512.size inb_S2x1024x512_S1x512x512_0_128_0).toLoadRect fq),
                k0_pay28 (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩])),
                k0_pay29 (View.readAt (Elt F) (Memref.whole cc0_scratch3 : Memref sig .tc .vmem S2x1024x512 .bf16).view (Rect.unit (s := S2x1024x512) ![0, 0, 0] S1x512x512.size inb_S2x1024x512_S1x512x512_0_0_0).toLoadRect ((Memref.whole cc0_scratch3 : Memref sig .tc .vmem S2x1024x512 .bf16).view.writes (Elt F) fv [⟨Rect.unit (s := S2x1024x512) (k0_off5 c 4#32) S2x128x512.size (k0_off5_inb c 3), k0_pay26 v300⟩])),
                k0_pay31 (View.readAt (Elt F) (Memref.whole cc0_scratch1 : Memref sig .tc .vmem S2x1024x512 .bf16).view (Rect.unit (s := S2x1024x512) ![0, 128, 0] S1x512x512.size inb_S2x1024x512_S1x512x512_0_128_0).toLoadRect fq) (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩])),
                k0_pay32 (View.readAt (Elt F) (Memref.whole cc0_scratch1 : Memref sig .tc .vmem S2x1024x512 .bf16).view (Rect.unit (s := S2x1024x512) ![0, 128, 0] S1x512x512.size inb_S2x1024x512_S1x512x512_0_128_0).toLoadRect fq) (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩])) (View.readAt (Elt F) (Memref.whole cc0_scratch3 : Memref sig .tc .vmem S2x1024x512 .bf16).view (Rect.unit (s := S2x1024x512) ![0, 0, 0] S1x512x512.size inb_S2x1024x512_S1x512x512_0_0_0).toLoadRect ((Memref.whole cc0_scratch3 : Memref sig .tc .vmem S2x1024x512 .bf16).view.writes (Elt F) fv [⟨Rect.unit (s := S2x1024x512) (k0_off5 c 4#32) S2x128x512.size (k0_off5_inb c 3), k0_pay26 v300⟩])),
                k0_pay34 (View.readAt (Elt F) (Memref.whole cc0_scratch1 : Memref sig .tc .vmem S2x1024x512 .bf16).view (Rect.unit (s := S2x1024x512) ![0, 128, 0] S1x512x512.size inb_S2x1024x512_S1x512x512_0_128_0).toLoadRect fq) (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩])),
                k0_pay35 (View.readAt (Elt F) (Memref.whole cc0_scratch1 : Memref sig .tc .vmem S2x1024x512 .bf16).view (Rect.unit (s := S2x1024x512) ![0, 128, 0] S1x512x512.size inb_S2x1024x512_S1x512x512_0_128_0).toLoadRect fq) (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩])) (View.readAt (Elt F) (Memref.whole cc0_scratch3 : Memref sig .tc .vmem S2x1024x512 .bf16).view (Rect.unit (s := S2x1024x512) ![0, 0, 0] S1x512x512.size inb_S2x1024x512_S1x512x512_0_0_0).toLoadRect ((Memref.whole cc0_scratch3 : Memref sig .tc .vmem S2x1024x512 .bf16).view.writes (Elt F) fv [⟨Rect.unit (s := S2x1024x512) (k0_off5 c 4#32) S2x128x512.size (k0_off5_inb c 3), k0_pay26 v300⟩])),
                k0_pay36 (View.readAt (Elt F) (Memref.whole cc0_scratch1 : Memref sig .tc .vmem S2x1024x512 .bf16).view (Rect.unit (s := S2x1024x512) ![0, 128, 0] S1x512x512.size inb_S2x1024x512_S1x512x512_0_128_0).toLoadRect fq) (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) fk [⟨Rect.unit (s := S2x1024x512) (k0_off5 c 4#32) S2x128x512.size (k0_off5_inb c 3), k0_pay25 v312⟩]))⟩⌝
            ∗ (View.loc (c : Thread nD τ) (Memref.whole cc0_scratch1 : Memref sig .tc .vmem S2x1024x512 .bf16).view ↦{fullShare} fq)
            ∗ (View.loc (c : Thread nD τ) (Memref.whole cc0_scratch2 : Memref sig .tc .vmem S2x1024x512 .bf16).view ↦{fullShare} ((Memref.whole cc0_scratch2 : Memref sig .tc .vmem S2x1024x512 .bf16).view.writes (Elt F) fk [⟨Rect.unit (s := S2x1024x512) (k0_off5 c 4#32) S2x128x512.size (k0_off5_inb c 3), k0_pay25 v312⟩]))
            ∗ (View.loc (c : Thread nD τ) (Memref.whole cc0_scratch3 : Memref sig .tc .vmem S2x1024x512 .bf16).view ↦{fullShare} ((Memref.whole cc0_scratch3 : Memref sig .tc .vmem S2x1024x512 .bf16).view.writes (Elt F) fv [⟨Rect.unit (s := S2x1024x512) (k0_off5 c 4#32) S2x128x512.size (k0_off5_inb c 3), k0_pay26 v300⟩])))) := by
  iintro ⟨Hq, Hk, Hv⟩
  sl_exec
  sl_step
  sl_close

end Cert.KernelIdealProof
end
-- ==== Proof.BodyMid1.lean ====
/-
  The body from its sixth part through its twenty-third, run as one stretch at a symbolic device: the eight chunks'
  projections stored into the q, k and v scratch with the seven receive waits of the gather between them, and the first
  attention pass. The scratch buffers' contents are followed block by block: after the store of rotated block n they
  agree with their final contents on the blocks below n + 1, so every load of the pass, whose rows lie in blocks already
  stored, returns rows of the final contents, and the values the pass returns are those of the pass read over the final
  contents' rows.
-/
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.BodyMid1Vals
import proofs.«900761_g7700000000000762_dist_attn_self_mha_htp_ss_b2_sq128_skv128_d512_hq8_dh64_v7x_i8_bf16_1_alg».proof.Proof.BodyMid1b
import proofs.«900761_g7700000000000762_dist_attn_self_mha_htp_ss_b2_sq128_skv128_d512_hq8_dh64_v7x_i8_bf16_1_alg».proof.Proof.BodyP06
import proofs.«900761_g7700000000000762_dist_attn_self_mha_htp_ss_b2_sq128_skv128_d512_hq8_dh64_v7x_i8_bf16_1_alg».proof.Proof.BodyP07
import proofs.«900761_g7700000000000762_dist_attn_self_mha_htp_ss_b2_sq128_skv128_d512_hq8_dh64_v7x_i8_bf16_1_alg».proof.Proof.BodyP08
import proofs.«900761_g7700000000000762_dist_attn_self_mha_htp_ss_b2_sq128_skv128_d512_hq8_dh64_v7x_i8_bf16_1_alg».proof.Proof.BodyP09
import proofs.«900761_g7700000000000762_dist_attn_self_mha_htp_ss_b2_sq128_skv128_d512_hq8_dh64_v7x_i8_bf16_1_alg».proof.Proof.BodyP10
import proofs.«900761_g7700000000000762_dist_attn_self_mha_htp_ss_b2_sq128_skv128_d512_hq8_dh64_v7x_i8_bf16_1_alg».proof.Proof.BodyP11
set_option maxRecDepth 16384
noncomputable section
namespace Cert.KernelIdealProof
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)
variable (SS : Dev nD → (cc0_scratch4 : Ref sig .tc).ty.Contents (Elt F)) (RS : Dev nD → (cc0_scratch5 : Ref sig .tc).ty.Contents (Elt F))
variable (K : Dev nD × Fin 30 → ℕ)

/-- The body from its sixth part through its twenty-third: the stores of the eight chunks' projections with the seven
    receive waits of the gather between them, and the first attention pass. -/
def bodyMid1 (c : Dev nD) (v2 v41 v53 v65 v77 v89 v101 v113 : BitVec 32) (v137 : FVec F S512x512 .bf16) (v138 : FVec F S512x1536 .bf16) (v141 : FVec F S2x128x512 .bf16) :
    Prog (TpuEff nD τ sig (Elt F) Λ₀ .tc) (Σ' (v841 : FVec F S512x512 .f32) (v844 : FVec F S512x64 .bf16) (v847 : FVec F S512x64 .bf16) (v850 : FVec F S512x64 .bf16) (v853 : FVec F S512x64 .bf16) (v856 : FVec F S512x64 .bf16) (v859 : FVec F S512x64 .bf16) (v862 : FVec F S512x64 .bf16), FVec F S512x64 .bf16) := do
  let ⟨v175, c8_i32_149⟩ : Σ' (v175 : BitVec 32), BitVec 32 ← k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v41 v138 v141
  k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v53 v138 v175 c8_i32_149
  let v245 : BitVec 32 ← k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v65 v138
  let v279 : FVec F S2x128x512 .bf16 ← k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v138 v245
  let ⟨v300, v304, v312⟩ : Σ' (v300 : FVec F S256x1536 .bf16) (v304 : BitVec 32), FVec F S2x128x512 .bf16 ← k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v77 v138 v279
  let ⟨v324, v326, v328, v336, v338, v346, v348, v352⟩ : Σ' (v324 : FVec F S512x512 .bf16) (v326 : FVec F S512x512 .bf16) (v328 : FVec F S512x512 .bf16) (v336 : FVec F S512x1 .f32) (v338 : FVec F S512x64 .f32) (v346 : FVec F S512x1 .f32) (v348 : FVec F S512x64 .f32), FVec F S512x512 .bf16 ← k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v300 v304 v312
  let ⟨v356, v358, v366, v368, v376, v378, v386, v388, v396, v398⟩ : Σ' (v356 : FVec F S512x1 .f32) (v358 : FVec F S512x64 .f32) (v366 : FVec F S512x1 .f32) (v368 : FVec F S512x64 .f32) (v376 : FVec F S512x1 .f32) (v378 : FVec F S512x64 .f32) (v386 : FVec F S512x1 .f32) (v388 : FVec F S512x64 .f32) (v396 : FVec F S512x1 .f32), FVec F S512x64 .f32 ← k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v324 v326 v328 v352
  let ⟨v406, v408, v410, v412, v414, v422, v424, v432, v434, v439⟩ : Σ' (v406 : FVec F S512x1 .f32) (v408 : FVec F S512x64 .f32) (v410 : FVec F S512x512 .bf16) (v412 : FVec F S512x512 .bf16) (v414 : FVec F S512x512 .bf16) (v422 : FVec F S512x1 .f32) (v424 : FVec F S512x64 .f32) (v432 : FVec F S512x1 .f32) (v434 : FVec F S512x64 .f32), FVec F S512x512 .bf16 ← k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v324 v326 v328
  let ⟨v442, v444, v452, v454, v462, v464, v472, v474, v482, v484, v485⟩ : Σ' (v442 : FVec F S512x1 .f32) (v444 : FVec F S512x64 .f32) (v452 : FVec F S512x1 .f32) (v454 : FVec F S512x64 .f32) (v462 : FVec F S512x1 .f32) (v464 : FVec F S512x64 .f32) (v472 : FVec F S512x1 .f32) (v474 : FVec F S512x64 .f32) (v482 : FVec F S512x1 .f32) (v484 : FVec F S512x64 .f32), FVec F S512x64 .bf16 ← k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v410 v412 v414 v439
  let ⟨v492, v494, v511, v515, v517, v519⟩ : Σ' (v492 : FVec F S512x1 .f32) (v494 : FVec F S512x64 .f32) (v511 : FVec F S256x1536 .bf16) (v515 : BitVec 32) (v517 : FVec F S2x128x512 .bf16), Vec F S2x128x512 .bf16 ← k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v89 v138 v412 v414 v485
  let ⟨v550, v552, c8_i32_350⟩ : Σ' (v550 : FVec F S256x1536 .bf16) (v552 : BitVec 32), BitVec 32 ← k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v101 v138 v511 v515 v517 v519
  let ⟨v583, v585⟩ : Σ' (v583 : BitVec 32), Vec F S1x2x128x512 .bf16 ← k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v113 v550 v552 c8_i32_350
  let ⟨v613, v615, v617, v622⟩ : Σ' (v613 : FVec F S512x512 .bf16) (v615 : FVec F S512x512 .bf16) (v617 : FVec F S512x512 .bf16), FVec F S512x512 .bf16 ← k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v138 v583 v585
  let ⟨v628, v629, v640, v641, v652, v653, v664, v665, v670⟩ : Σ' (v628 : FVec F S512x64 .f32) (v629 : FVec F S512x1 .f32) (v640 : FVec F S512x64 .f32) (v641 : FVec F S512x1 .f32) (v652 : FVec F S512x64 .f32) (v653 : FVec F S512x1 .f32) (v664 : FVec F S512x64 .f32) (v665 : FVec F S512x1 .f32), FVec F S512x512 .bf16 ← k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v336 v338 v346 v348 v356 v358 v366 v368 v613 v615 v617 v622
  let ⟨v676, v677, v688, v689, v700, v701, v712, v713, v715⟩ : Σ' (v676 : FVec F S512x64 .f32) (v677 : FVec F S512x1 .f32) (v688 : FVec F S512x64 .f32) (v689 : FVec F S512x1 .f32) (v700 : FVec F S512x64 .f32) (v701 : FVec F S512x1 .f32) (v712 : FVec F S512x64 .f32) (v713 : FVec F S512x1 .f32), FVec F S512x512 .bf16 ← k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v376 v378 v386 v388 v396 v398 v406 v408 v613 v615 v617 v670
  let ⟨v717, v719, v730, v731, v742, v743, v754, v755, v760⟩ : Σ' (v717 : FVec F S512x512 .bf16) (v719 : FVec F S512x512 .bf16) (v730 : FVec F S512x64 .f32) (v731 : FVec F S512x1 .f32) (v742 : FVec F S512x64 .f32) (v743 : FVec F S512x1 .f32) (v754 : FVec F S512x64 .f32) (v755 : FVec F S512x1 .f32), FVec F S512x512 .bf16 ← k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v422 v424 v432 v434 v442 v444 v715
  let ⟨v766, v767, v778, v779, v790, v791, v802, v803, v808⟩ : Σ' (v766 : FVec F S512x64 .f32) (v767 : FVec F S512x1 .f32) (v778 : FVec F S512x64 .f32) (v779 : FVec F S512x1 .f32) (v790 : FVec F S512x64 .f32) (v791 : FVec F S512x1 .f32) (v802 : FVec F S512x64 .f32) (v803 : FVec F S512x1 .f32), FVec F S512x512 .bf16 ← k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v452 v454 v462 v464 v472 v474 v482 v484 v715 v717 v719 v760
  k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v137 v492 v494 v628 v629 v640 v641 v652 v653 v664 v665 v676 v677 v688 v689 v700 v701 v712 v713 v719 v730 v731 v742 v743 v754 v755 v766 v767 v778 v779 v790 v791 v802 v803 v808

/-- A stretch run from `P` to `Post`, the post then weakened. -/
theorem wp_conseq {α : Type} (c : Dev nD) {p : Prog (TpuEff nD τ sig (Elt F) Λ₀ .tc) α} {Q Post : α → sProp 𝕄} {P : sProp 𝕄}
    (h : P ⊢ wp frame (wpE (defs₀ (F := F)) 𝒱₀ (c : Thread nD τ) none) Set.univ p Post) :
    iprop(P ∗ (∀ a, Post a -∗ Q a)) ⊢ wp frame (wpE (defs₀ (F := F)) 𝒱₀ (c : Thread nD τ) none) Set.univ p Q := by
  iintro ⟨HP, Hk⟩
  ihave H := h $$ HP
  iapply (wp_wand_r frame (wpE (defs₀ (F := F)) 𝒱₀ (c : Thread nD τ) none) Set.univ)
  isplitl [H]; · iexact H
  iexact Hk

attribute [local irreducible] fwd

set_option maxHeartbeats 8000000 in
/-- Parts 6 to 23 from the seven receive cells at round 0 and the three scratch buffers, whatever they hold, the gather
    buffer's slots arriving at every device's block of x. -/
theorem mid1_run (c : Dev nD) (W : Waits sig Unit) (v2 v41 v53 v65 v77 v89 v101 v113 : BitVec 32) (fq : _) (fk : _) (fv : _) :
    (iprop((cellInv ER (sched (XGdef m) SS RS) (K (c, 9)) (agRCell c 0) ∗ cellInv ER (sched (XGdef m) SS RS) (K (c, 10)) (agRCell c 1) ∗ cellInv ER (sched (XGdef m) SS RS) (K (c, 11)) (agRCell c 2) ∗ cellInv ER (sched (XGdef m) SS RS) (K (c, 12)) (agRCell c 3) ∗ cellInv ER (sched (XGdef m) SS RS) (K (c, 13)) (agRCell c 4) ∗ cellInv ER (sched (XGdef m) SS RS) (K (c, 14)) (agRCell c 5) ∗ cellInv ER (sched (XGdef m) SS RS) (K (c, 15)) (agRCell c 6))
        ∗ (atPos ER (agRCell c 0) 0 ∅ 0 ∗ atPos ER (agRCell c 1) 0 ∅ 0 ∗ atPos ER (agRCell c 2) 0 ∅ 0 ∗ atPos ER (agRCell c 3) 0 ∅ 0 ∗ atPos ER (agRCell c 4) 0 ∅ 0 ∗ atPos ER (agRCell c 5) 0 ∅ 0 ∗ atPos ER (agRCell c 6) 0 ∅ 0)
        ∗ (cred (tallyAt (agRCell c 0) () Nag) ∗ cred (tallyAt (agRCell c 1) () Nag) ∗ cred (tallyAt (agRCell c 2) () Nag) ∗ cred (tallyAt (agRCell c 3) () Nag) ∗ cred (tallyAt (agRCell c 4) () Nag) ∗ cred (tallyAt (agRCell c 5) () Nag) ∗ cred (tallyAt (agRCell c 6) () Nag))
        ∗ levAts L lv
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)) : sProp 𝕄)
      ⊢ wp frame (wpE (defs₀ (F := F)) 𝒱₀ (c : Thread nD τ) none) Set.univ
          (bodyMid1 (F := F) c v2 v41 v53 v65 v77 v89 v101 v113 (WOv m c) (Wv m c) (k0_pay4 (slotv m c)))
          (fun r => iprop(⌜r = ⟨Cert.ValPass1.x841 (WOv m c) (ld_v323 m c) (ld_v325 m c) (ld_v327 m c) (ld_v612 m c) (ld_v614 m c) (ld_v616 m c),
              Cert.ValPass1.x844 (ld_v409 m c) (ld_v411 m c) (ld_v413 m c) (ld_v714 m c) (ld_v716 m c) (ld_v718 m c),
              Cert.ValPass1.x847 (ld_v409 m c) (ld_v411 m c) (ld_v413 m c) (ld_v714 m c) (ld_v716 m c) (ld_v718 m c),
              Cert.ValPass1.x850 (ld_v409 m c) (ld_v411 m c) (ld_v413 m c) (ld_v714 m c) (ld_v716 m c) (ld_v718 m c),
              Cert.ValPass1.x853 (ld_v409 m c) (ld_v411 m c) (ld_v413 m c) (ld_v714 m c) (ld_v716 m c) (ld_v718 m c),
              Cert.ValPass1.x856 (ld_v409 m c) (ld_v411 m c) (ld_v413 m c) (ld_v714 m c) (ld_v716 m c) (ld_v718 m c),
              Cert.ValPass1.x859 (ld_v409 m c) (ld_v411 m c) (ld_v413 m c) (ld_v714 m c) (ld_v716 m c) (ld_v718 m c),
              Cert.ValPass1.x862 (ld_v409 m c) (ld_v411 m c) (ld_v413 m c) (ld_v714 m c) (ld_v716 m c) (ld_v718 m c),
              Cert.ValPass1.x865 (ld_v409 m c) (ld_v411 m c) (ld_v413 m c) (ld_v714 m c) (ld_v716 m c) (ld_v718 m c)⟩⌝
            ∗ (atPos ER (agRCell c 0) 1 ∅ 0 ∗ atPos ER (agRCell c 1) 1 ∅ 0 ∗ atPos ER (agRCell c 2) 1 ∅ 0 ∗ atPos ER (agRCell c 3) 1 ∅ 0 ∗ atPos ER (agRCell c 4) 1 ∅ 0 ∗ atPos ER (agRCell c 5) 1 ∅ 0 ∗ atPos ER (agRCell c 6) 1 ∅ 0)
            ∗ (reached ER (agRCell c 0) 1 ∗ reached ER (agRCell c 1) 1 ∗ reached ER (agRCell c 2) 1 ∗ reached ER (agRCell c 3) 1 ∗ reached ER (agRCell c 4) 1 ∗ reached ER (agRCell c 5) 1 ∗ reached ER (agRCell c 6) 1)
            ∗ (((xgSlot (fwd c 7)).view.loc (c : Thread nD τ) ↦[(xgSlot (fwd c 7)).view.set]{fullShare} XGdef m) ∗ ((xgSlot (fwd c 6)).view.loc (c : Thread nD τ) ↦[(xgSlot (fwd c 6)).view.set]{fullShare} XGdef m) ∗ ((xgSlot (fwd c 5)).view.loc (c : Thread nD τ) ↦[(xgSlot (fwd c 5)).view.set]{fullShare} XGdef m) ∗ ((xgSlot (fwd c 4)).view.loc (c : Thread nD τ) ↦[(xgSlot (fwd c 4)).view.set]{fullShare} XGdef m) ∗ ((xgSlot (fwd c 3)).view.loc (c : Thread nD τ) ↦[(xgSlot (fwd c 3)).view.set]{fullShare} XGdef m) ∗ ((xgSlot (fwd c 2)).view.loc (c : Thread nD τ) ↦[(xgSlot (fwd c 2)).view.set]{fullShare} XGdef m) ∗ ((xgSlot (fwd c 1)).view.loc (c : Thread nD τ) ↦[(xgSlot (fwd c 1)).view.set]{fullShare} XGdef m))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) (insert (SemLoc.dma agR6, ()) (insert (SemLoc.dma agR5, ()) (insert (SemLoc.dma agR4, ()) (insert (SemLoc.dma agR3, ()) (insert (SemLoc.dma agR2, ()) (insert (SemLoc.dma agR1, ()) (insert (SemLoc.dma agR0, ()) W)))))))
            ∗ (View.loc (c : Thread nD τ) (Memref.whole cc0_scratch1 : Memref sig .tc .vmem S2x1024x512 .bf16).view ↦{fullShare} Qbuf m c)
            ∗ (View.loc (c : Thread nD τ) (Memref.whole cc0_scratch2 : Memref sig .tc .vmem S2x1024x512 .bf16).view ↦{fullShare} Kbuf m c)
            ∗ (View.loc (c : Thread nD τ) (Memref.whole cc0_scratch3 : Memref sig .tc .vmem S2x1024x512 .bf16).view ↦{fullShare} Vbuf m c))) := by
  unfold bodyMid1
  iintro ⟨⟨#I0, #I1, #I2, #I3, #I4, #I5, #I6⟩, ⟨PR0, PR1, PR2, PR3, PR4, PR5, PR6⟩, ⟨CR0, CR1, CR2, CR3, CR4, CR5, CR6⟩, #HL, HO, Hq, Hk, Hv⟩
  have aq0 : AgreesBelow (Qbuf m c) fq 0 := agrees_zero _ _
  have ak0 : AgreesBelow (Kbuf m c) fk 0 := agrees_zero _ _
  have av0 : AgreesBelow (Vbuf m c) fv 0 := agrees_zero _ _
  -- part 6: block 0 of q, k, v; the first receive wait
  iapply (wp_seq c (part6_run (XGdef m) SS RS K c W v2 v41 (Wv m c) (k0_pay4 (slotv m c)) fq fk fv))
  isplitl [PR0 CR0 HO Hq Hk Hv]
  · isplitr; · iexact I0
    isplitl [PR0]; · iexact PR0
    isplitl [CR0]; · iexact CR0
    isplitr; · iexact HL
    isplitl [HO]; · iexact HO
    isplitl [Hq]; · iexact Hq
    isplitl [Hk]; · iexact Hk
    iexact Hv
  iintro %r6 ⟨%hr6, QR0, #RR0, S7, HO, Hq, Hk, Hv⟩
  subst hr6
  have aq1 : AgreesBelow (Qbuf m c) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) 1 :=
    agrees_write_1 (Qbuf m c) fq 0 (k0_off3 c) (k0_off3_inb c) (off3_block c) (k0_pay6 (Wv m c) (k0_pay4 (slotv m c)))
      (fun i hb => (congrFun (show (k0_pay6 (Wv m c) (k0_pay4 (slotv m c)) : Vec F S2x128x512 .bf16) = Qchunk m c 0 from (by show _ = chunkQ (Wv m c) (slotv m (srcDev c 0)) 0; rw [srcDev_zero]; rfl)) _).trans (Qbuf_block m c 0 i hb).symm) aq0
  have ak1 : AgreesBelow (Kbuf m c) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) 1 :=
    agrees_write_2 (Kbuf m c) fk 0 (k0_off3 c) (k0_off3_inb c) (off3_block c) (k0_pay7 (Wv m c) (k0_pay4 (slotv m c)))
      (fun i hb => (congrFun (show (k0_pay7 (Wv m c) (k0_pay4 (slotv m c)) : Vec F S2x128x512 .bf16) = Kchunk m c 0 from (by show _ = chunkK (Wv m c) (slotv m (srcDev c 0)) 0; rw [srcDev_zero]; rfl)) _).trans (Kbuf_block m c 0 i hb).symm) ak0
  have av1 : AgreesBelow (Vbuf m c) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) 1 :=
    agrees_write_3 (Vbuf m c) fv 0 (k0_off3 c) (k0_off3_inb c) (off3_block c) (k0_pay8 (Wv m c) (k0_pay4 (slotv m c)))
      (fun i hb => (congrFun (show (k0_pay8 (Wv m c) (k0_pay4 (slotv m c)) : Vec F S2x128x512 .bf16) = Vchunk m c 0 from (by show _ = chunkV (Wv m c) (slotv m (srcDev c 0)) 0; rw [srcDev_zero]; rfl)) _).trans (Vbuf_block m c 0 i hb).symm) av0
  -- part 7: block 1
  iapply (wp_seq c (part7_run c v2 v53 (Scalar.subi v2 1#32) 8#32 (Wv m c) (XGdef m) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩])))
  isplitl [S7 Hq Hk Hv]
  · isplitl [S7]; · iexact S7
    isplitl [Hq]; · iexact Hq
    isplitl [Hk]; · iexact Hk
    iexact Hv
  iintro %r7 ⟨%hr7, S7, Hq, Hk, Hv⟩
  subst hr7
  have aq2 : AgreesBelow (Qbuf m c) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 :=
    agrees_write_1 (Qbuf m c) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) 1 (k0_off5 c 1#32) (k0_off5_inb c 0) (off5_block c 0) (k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)))
      (fun i hb => (congrFun (show (k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)) : Vec F S2x128x512 .bf16) = Qchunk m c 1 from (by show _ = chunkQ (Wv m c) (slotv m (srcDev c 1)) 1; rw [← ldXG_eq m c 0 1 rfl (k0_off4_inb c 0)]; rfl)) _).trans (Qbuf_block m c 1 i hb).symm) aq1
  have ak2 : AgreesBelow (Kbuf m c) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 :=
    agrees_write_2 (Kbuf m c) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) 1 (k0_off5 c 1#32) (k0_off5_inb c 0) (off5_block c 0) (k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)))
      (fun i hb => (congrFun (show (k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)) : Vec F S2x128x512 .bf16) = Kchunk m c 1 from (by show _ = chunkK (Wv m c) (slotv m (srcDev c 1)) 1; rw [← ldXG_eq m c 0 1 rfl (k0_off4_inb c 0)]; rfl)) _).trans (Kbuf_block m c 1 i hb).symm) ak1
  have av2 : AgreesBelow (Vbuf m c) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 :=
    agrees_write_3 (Vbuf m c) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) 1 (k0_off5 c 1#32) (k0_off5_inb c 0) (off5_block c 0) (k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)))
      (fun i hb => (congrFun (show (k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m)) : Vec F S2x128x512 .bf16) = Vchunk m c 1 from (by show _ = chunkV (Wv m c) (slotv m (srcDev c 1)) 1; rw [← ldXG_eq m c 0 1 rfl (k0_off4_inb c 0)]; rfl)) _).trans (Vbuf_block m c 1 i hb).symm) av1
  -- part 8: the second receive wait; block 2
  iapply (wp_seq c (part8_run (XGdef m) SS RS K c (insert (SemLoc.dma agR0, ()) W) v2 v65 (Wv m c) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩])))
  isplitl [PR1 CR1 HO Hq Hk Hv]
  · isplitr; · iexact I1
    isplitl [PR1]; · iexact PR1
    isplitl [CR1]; · iexact CR1
    isplitr; · iexact HL
    isplitl [HO]; · iexact HO
    isplitl [Hq]; · iexact Hq
    isplitl [Hk]; · iexact Hk
    iexact Hv
  iintro %r8 ⟨%hr8, QR1, #RR1, S6, HO, Hq, Hk, Hv⟩
  subst hr8
  have aq3 : AgreesBelow (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 :=
    agrees_write_1 (Qbuf m c) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 (k0_off5 c 2#32) (k0_off5_inb c 1) (off5_block c 1) (k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)))
      (fun i hb => (congrFun (show (k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)) : Vec F S2x128x512 .bf16) = Qchunk m c 2 from (by show _ = chunkQ (Wv m c) (slotv m (srcDev c 2)) 2; rw [← ldXG_eq m c 1 2 rfl (k0_off4_inb c 1)]; rfl)) _).trans (Qbuf_block m c 2 i hb).symm) aq2
  have ak3 : AgreesBelow (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 :=
    agrees_write_2 (Kbuf m c) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 (k0_off5 c 2#32) (k0_off5_inb c 1) (off5_block c 1) (k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)))
      (fun i hb => (congrFun (show (k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)) : Vec F S2x128x512 .bf16) = Kchunk m c 2 from (by show _ = chunkK (Wv m c) (slotv m (srcDev c 2)) 2; rw [← ldXG_eq m c 1 2 rfl (k0_off4_inb c 1)]; rfl)) _).trans (Kbuf_block m c 2 i hb).symm) ak2
  have av3 : AgreesBelow (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 :=
    agrees_write_3 (Vbuf m c) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) 2 (k0_off5 c 2#32) (k0_off5_inb c 1) (off5_block c 1) (k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)))
      (fun i hb => (congrFun (show (k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m)) : Vec F S2x128x512 .bf16) = Vchunk m c 2 from (by show _ = chunkV (Wv m c) (slotv m (srcDev c 2)) 2; rw [← ldXG_eq m c 1 2 rfl (k0_off4_inb c 1)]; rfl)) _).trans (Vbuf_block m c 2 i hb).symm) av2
  -- part 9: the third receive wait; block 3 of q and k
  iapply (wp_seq c (part9_run (XGdef m) SS RS K c (insert (SemLoc.dma agR1, ()) (insert (SemLoc.dma agR0, ()) W)) v2 (Scalar.muli v65 1#32) (Wv m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩])))
  isplitl [PR2 CR2 HO Hq Hk]
  · isplitr; · iexact I2
    isplitl [PR2]; · iexact PR2
    isplitl [CR2]; · iexact CR2
    isplitr; · iexact HL
    isplitl [HO]; · iexact HO
    isplitl [Hq]; · iexact Hq
    iexact Hk
  iintro %r9 ⟨%hr9, QR2, #RR2, S5, HO, Hq, Hk⟩
  subst hr9
  have aq4 : AgreesBelow (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) 4 :=
    agrees_write_1 (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 (k0_off5 c 3#32) (k0_off5_inb c 2) (off5_block c 2) (k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))
      (fun i hb => (congrFun (show (k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)) : Vec F S2x128x512 .bf16) = Qchunk m c 3 from (by show _ = chunkQ (Wv m c) (slotv m (srcDev c 3)) 3; rw [← ldXG_eq m c 2 3 rfl (k0_off4_inb c 2)]; rfl)) _).trans (Qbuf_block m c 3 i hb).symm) aq3
  have ak4 : AgreesBelow (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) 4 :=
    agrees_write_2 (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 (k0_off5 c 3#32) (k0_off5_inb c 2) (off5_block c 2) (k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))
      (fun i hb => (congrFun (show (k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)) : Vec F S2x128x512 .bf16) = Kchunk m c 3 from (by show _ = chunkK (Wv m c) (slotv m (srcDev c 3)) 3; rw [← ldXG_eq m c 2 3 rfl (k0_off4_inb c 2)]; rfl)) _).trans (Kbuf_block m c 3 i hb).symm) ak3
  -- part 10: block 3 of v; the fourth receive wait; block 4 of q
  iapply (wp_seq c (part10_run (XGdef m) SS RS K c (insert (SemLoc.dma agR2, ()) (insert (SemLoc.dma agR1, ()) (insert (SemLoc.dma agR0, ()) W))) v2 v77 (Wv m c) (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩])))
  isplitl [PR3 CR3 HO Hq Hv]
  · isplitr; · iexact I3
    isplitl [PR3]; · iexact PR3
    isplitl [CR3]; · iexact CR3
    isplitr; · iexact HL
    isplitl [HO]; · iexact HO
    isplitl [Hq]; · iexact Hq
    iexact Hv
  iintro %r10 ⟨%hr10, QR3, #RR3, S4, HO, Hq, Hv⟩
  subst hr10
  have av4 : AgreesBelow (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) 4 :=
    agrees_write_3 (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) 3 (k0_off5 c 3#32) (k0_off5_inb c 2) (off5_block c 2) (k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))))
      (fun i hb => (congrFun (show (k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))) : Vec F S2x128x512 .bf16) = Vchunk m c 3 from (by show _ = chunkV (Wv m c) (slotv m (srcDev c 3)) 3; rw [← ldXG_eq m c 2 3 rfl (k0_off4_inb c 2)]; rfl)) _).trans (Vbuf_block m c 3 i hb).symm) av3
  have aq5 : AgreesBelow (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))⟩]) 5 :=
    agrees_write_1 (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) 4 (k0_off5 c 4#32) (k0_off5_inb c 3) (off5_block c 3) (k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))
      (fun i hb => (congrFun (show (k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)) : Vec F S2x128x512 .bf16) = Qchunk m c 4 from (by show _ = chunkQ (Wv m c) (slotv m (srcDev c 4)) 4; rw [← ldXG_eq m c 3 4 rfl (k0_off4_inb c 3)]; rfl)) _).trans (Qbuf_block m c 4 i hb).symm) aq4
  -- part 11: block 4 of k and v; the first loads of the attention pass
  iapply (wp_seq c (part11_run c (Scalar.muli (Scalar.remsi (Scalar.addi (Scalar.subi v2 (Scalar.remsi (Scalar.addi (Scalar.subi v2 4#32) 8#32) 8#32)) 8#32) 8#32) 128#32) (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))) (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))⟩]) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩])))
  isplitl [Hq Hk Hv]
  · isplitl [Hq]; · iexact Hq
    isplitl [Hk]; · iexact Hk
    iexact Hv
  iintro %r11 ⟨%hr11, Hq, Hk, Hv⟩
  have ak5 : AgreesBelow (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) 5 :=
    agrees_write_2 (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) 4 (k0_off5 c 4#32) (k0_off5_inb c 3) (off5_block c 3) (k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))))
      (fun i hb => (congrFun (show (k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))) : Vec F S2x128x512 .bf16) = Kchunk m c 4 from (by show _ = chunkK (Wv m c) (slotv m (srcDev c 4)) 4; rw [← ldXG_eq m c 3 4 rfl (k0_off4_inb c 3)]; rfl)) _).trans (Kbuf_block m c 4 i hb).symm) ak4
  have av5 : AgreesBelow (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) [⟨Rect.unit (s := S2x1024x512) (k0_off5 c 4#32) S2x128x512.size (k0_off5_inb c 3), k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) 5 :=
    agrees_write_3 (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) 4 (k0_off5 c 4#32) (k0_off5_inb c 3) (off5_block c 3) (k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))))
      (fun i hb => (congrFun (show (k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))) : Vec F S2x128x512 .bf16) = Vchunk m c 4 from (by show _ = chunkV (Wv m c) (slotv m (srcDev c 4)) 4; rw [← ldXG_eq m c 3 4 rfl (k0_off4_inb c 3)]; rfl)) _).trans (Vbuf_block m c 4 i hb).symm) av4
  have eLQ : (View.readAt (Elt F) (Memref.whole cc0_scratch1 : Memref sig .tc .vmem S2x1024x512 .bf16).view (Rect.unit (s := S2x1024x512) ![0, 128, 0] S1x512x512.size inb_S2x1024x512_S1x512x512_0_128_0).toLoadRect ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))⟩])) = ld_v323 m c :=
    ld_of_agrees_1 (Qbuf m c) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))⟩]) 5 aq5 0 128 inb_S2x1024x512_S1x512x512_0_128_0 (by norm_num)
  have eLK : (View.readAt (Elt F) (Memref.whole cc0_scratch2 : Memref sig .tc .vmem S2x1024x512 .bf16).view (Rect.unit (s := S2x1024x512) ![0, 0, 0] S1x512x512.size inb_S2x1024x512_S1x512x512_0_0_0).toLoadRect ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩])) = ld_v325 m c :=
    ld_of_agrees_2 (Kbuf m c) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) 5 ak5 0 0 inb_S2x1024x512_S1x512x512_0_0_0 (by norm_num)
  have eLV : (View.readAt (Elt F) (Memref.whole cc0_scratch3 : Memref sig .tc .vmem S2x1024x512 .bf16).view (Rect.unit (s := S2x1024x512) ![0, 0, 0] S1x512x512.size inb_S2x1024x512_S1x512x512_0_0_0).toLoadRect ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) [⟨Rect.unit (s := S2x1024x512) (k0_off5 c 4#32) S2x128x512.size (k0_off5_inb c 3), k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩])) = ld_v327 m c :=
    ld_of_agrees_3 (Vbuf m c) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) [⟨Rect.unit (s := S2x1024x512) (k0_off5 c 4#32) S2x128x512.size (k0_off5_inb c 3), k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) 5 av5 0 0 inb_S2x1024x512_S1x512x512_0_0_0 (by norm_num)
  have hr11' : r11 = ⟨k0_pay27 (ld_v323 m c), k0_pay28 (ld_v325 m c), k0_pay29 (ld_v327 m c), k0_pay31 (ld_v323 m c) (ld_v325 m c), k0_pay32 (ld_v323 m c) (ld_v325 m c) (ld_v327 m c), k0_pay34 (ld_v323 m c) (ld_v325 m c), k0_pay35 (ld_v323 m c) (ld_v325 m c) (ld_v327 m c), k0_pay36 (ld_v323 m c) (ld_v325 m c)⟩ := hr11.trans (by rw [eLQ, eLK, eLV])
  subst hr11'
  -- parts 12 … 23
  iapply (wp_conseq c (mid1b_run m SS RS K c (insert (SemLoc.dma agR3, ()) (insert (SemLoc.dma agR2, ()) (insert (SemLoc.dma agR1, ()) (insert (SemLoc.dma agR0, ()) W)))) v2 v89 v101 v113 ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) ((Memref.whole cc0_scratch1 : Memref sig .tc .vmem S2x1024x512 .bf16).view.writes (Elt F) fq [⟨Rect.unit (s := S2x1024x512) (k0_off3 c) S2x128x512.size (k0_off3_inb c), k0_pay6 (Wv m c) (k0_pay4 (slotv m c))⟩]) [⟨Rect.unit (s := S2x1024x512) (k0_off5 c 1#32) S2x128x512.size (k0_off5_inb c 0), k0_pay10 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay14 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay18 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay23 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m))⟩]) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) ((Memref.whole cc0_scratch2 : Memref sig .tc .vmem S2x1024x512 .bf16).view.writes (Elt F) fk [⟨Rect.unit (s := S2x1024x512) (k0_off3 c) S2x128x512.size (k0_off3_inb c), k0_pay7 (Wv m c) (k0_pay4 (slotv m c))⟩]) [⟨Rect.unit (s := S2x1024x512) (k0_off5 c 1#32) S2x128x512.size (k0_off5_inb c 0), k0_pay11 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay15 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay19 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m))⟩]) [⟨Rect.unit (s := S2x1024x512) (k0_off5 c 4#32) S2x128x512.size (k0_off5_inb c 3), k0_pay25 (k0_pay24 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) ((Memref.whole cc0_scratch3 : Memref sig .tc .vmem S2x1024x512 .bf16).view.writes (Elt F) fv [⟨Rect.unit (s := S2x1024x512) (k0_off3 c) S2x128x512.size (k0_off3_inb c), k0_pay8 (Wv m c) (k0_pay4 (slotv m c))⟩]) [⟨Rect.unit (s := S2x1024x512) (k0_off5 c 1#32) S2x128x512.size (k0_off5_inb c 0), k0_pay12 (Wv m c) (View.readAt (Elt F) (Memref.whole cc0_scratch0 : Memref sig .tc .vmem S8x2x128x512 .bf16).view (Rect.unit (s := S8x2x128x512) (k0_off4 c 1#32) S1x2x128x512.size (k0_off4_inb c 0)).toLoadRect (XGdef m))⟩]) [⟨Rect.unit (s := S2x1024x512) (k0_off5 c 2#32) S2x128x512.size (k0_off5_inb c 1), k0_pay16 (Wv m c) (View.readAt (Elt F) (Memref.whole cc0_scratch0 : Memref sig .tc .vmem S8x2x128x512 .bf16).view (Rect.unit (s := S8x2x128x512) (k0_off4 c 2#32) S1x2x128x512.size (k0_off4_inb c 1)).toLoadRect (XGdef m))⟩]) [⟨Rect.unit (s := S2x1024x512) (k0_off5 c 3#32) S2x128x512.size (k0_off5_inb c 2), k0_pay21 (k0_pay20 (Wv m c) (View.readAt (Elt F) (Memref.whole cc0_scratch0 : Memref sig .tc .vmem S8x2x128x512 .bf16).view (Rect.unit (s := S8x2x128x512) (k0_off4 c 3#32) S1x2x128x512.size (k0_off4_inb c 2)).toLoadRect (XGdef m)))⟩]) [⟨Rect.unit (s := S2x1024x512) (k0_off5 c 4#32) S2x128x512.size (k0_off5_inb c 3), k0_pay26 (k0_pay22 (Wv m c) (View.readAt (Elt F) (Memref.whole cc0_scratch0 : Memref sig .tc .vmem S8x2x128x512 .bf16).view (Rect.unit (s := S8x2x128x512) (k0_off4 c 4#32) S1x2x128x512.size (k0_off4_inb c 3)).toLoadRect (XGdef m)))⟩]) aq5 ak5 av5))
  isplitl [PR4 PR5 PR6 CR4 CR5 CR6 HO Hq Hk Hv]
  · isplitr
    · isplitr; · iexact I4
      isplitr; · iexact I5
      iexact I6
    isplitl [PR4 PR5 PR6]
    · isplitl [PR4]; · iexact PR4
      isplitl [PR5]; · iexact PR5
      iexact PR6
    isplitl [CR4 CR5 CR6]
    · isplitl [CR4]; · iexact CR4
      isplitl [CR5]; · iexact CR5
      iexact CR6
    isplitr; · iexact HL
    isplitl [HO]; · iexact HO
    isplitl [Hq]; · iexact Hq
    isplitl [Hk]; · iexact Hk
    iexact Hv
  iintro %r ⟨%hr, ⟨QR4, QR5, QR6⟩, ⟨#RR4, #RR5, #RR6⟩, ⟨S3, S2, S1⟩, HO, Hq, Hk, Hv⟩
  isplitr; · ipureintro; exact hr
  isplitl [QR0 QR1 QR2 QR3 QR4 QR5 QR6]
  ·
    isplitl [QR0]; · iexact QR0
    isplitl [QR1]; · iexact QR1
    isplitl [QR2]; · iexact QR2
    isplitl [QR3]; · iexact QR3
    isplitl [QR4]; · iexact QR4
    isplitl [QR5]; · iexact QR5
    iexact QR6
  isplitr
  ·
    isplitr; · iexact RR0
    isplitr; · iexact RR1
    isplitr; · iexact RR2
    isplitr; · iexact RR3
    isplitr; · iexact RR4
    isplitr; · iexact RR5
    iexact RR6
  isplitl [S7 S6 S5 S4 S3 S2 S1]
  ·
    isplitl [S7]; · iexact S7
    isplitl [S6]; · iexact S6
    isplitl [S5]; · iexact S5
    isplitl [S4]; · iexact S4
    isplitl [S3]; · iexact S3
    isplitl [S2]; · iexact S2
    iexact S1
  isplitl [HO]; · iexact HO
  isplitl [Hq]; · iexact Hq
  isplitl [Hk]; · iexact Hk
  iexact Hv

end Cert.KernelIdealProof
end
-- ==== Proof.BodyP24.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
/-- The first copy of partial rows: the rows for the chunk of the device seven places after this one are stored into slot 0 of the
    send buffer and sent to that device's slot 0; then the rows for the next copy are stored into slot 1. -/
theorem part24_run (c : Dev nD) (W : Waits sig Unit) (v2 : BitVec 32) (v137 : FVec F S512x512 .bf16) (v841 : FVec F S512x512 .f32) (v844 : FVec F S512x64 .bf16) (v847 : FVec F S512x64 .bf16) (v850 : FVec F S512x64 .bf16) (v853 : FVec F S512x64 .bf16) (v856 : FVec F S512x64 .bf16) (v859 : FVec F S512x64 .bf16) (v862 : FVec F S512x64 .bf16) (v865 : FVec F S512x64 .bf16)
    (f0 f1 : Buf (Elt F) ((c : Thread nD τ).loc cc0_scratch4)) (fd : Buf (Elt F) (((fwd c 7 : Dev nD) : Thread nD τ).loc cc0_scratch5))
    (hss0 : ∀ i ∈ ssSlot0.view.set, (View.write (Elt F) ((Memref.whole cc0_scratch4 : Memref sig .tc .vmem S7x2x128x512 .bf16).access (Rect.unit (s := S7x2x128x512) ![0, 0, 0, 0] S1x2x128x512.size inb_S7x2x128x512_S1x2x128x512_0_0_0_0)) f0 (k0_pay158 v137 v841 v844 v847 v850 v853 v856 v859 v862 v865) Finset.univ) i = SS c i)
    (hRS0 : ssSlot0.view.read (Elt F) (SS c) = rsSlot0.view.read (Elt F) (RS (fwd c 7))) :
    iprop((cellInv ER (sched XG SS RS) (K (c, 16)) (rsSCell c 0) ∗ cellInv ER (sched XG SS RS) (K (fwd c 7, 23)) (rsRCell (fwd c 7) 0))
        ∗ (reached ER (rsSCell c 0) 0 ∗ reached ER (rsRCell (fwd c 7) 0) 0)
        ∗ (dutyTok ER (rsSCell c 0) 0 0 ∗ dutyTok ER (rsRCell (fwd c 7) 0) 0 0)
        ∗ (ssSlot0.view.loc (c : Thread nD τ) ↦[ssSlot0.view.set]{fullShare} f0)
        ∗ (ssSlot1.view.loc (c : Thread nD τ) ↦[ssSlot1.view.set]{fullShare} f1)
        ∗ (rsSlot0.view.loc ((fwd c 7 : Dev nD) : Thread nD τ) ↦[rsSlot0.view.set]{fullShare} fd)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W)
      ⊢ wp frame (wpE (defs₀ (F := F)) 𝒱₀ (c : Thread nD τ) none) Set.univ (k0_part24 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v137 v841 v844 v847 v850 v853 v856 v859 v862 v865)
          (fun r => iprop(⌜r = ⟨k0_pay157 v137 v841 v844 v847 v850 v853 v856 v859 v862 v865, Scalar.remsi (Scalar.addi (Scalar.subi v2 1#32) 8#32) 8#32, Scalar.remsi (Scalar.addi (Scalar.subi v2 2#32) 8#32) 8#32⟩⌝
            ∗ cred (tallyAt (rsSCell c 0) () Nrs)
            ∗ (ssSlot1.view.loc (c : Thread nD τ) ↦[ssSlot1.view.set]{fullShare} (View.write (Elt F) ((Memref.whole cc0_scratch4 : Memref sig .tc .vmem S7x2x128x512 .bf16).access (Rect.unit (s := S7x2x128x512) ![1, 0, 0, 0] S1x2x128x512.size inb_S7x2x128x512_S1x2x128x512_1_0_0_0)) f1 (k0_pay159 v137 v841 v844 v847 v850 v853 v856 v859 v862 v865) Finset.univ))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs) W)) := by
  iintro ⟨⟨#I0, #I1⟩, ⟨#R0, #R1⟩, ⟨T0, T1⟩, S0, S1, D0, HO⟩
  sl_exec (disch := simp only [dev15_eq])
  sl_unfold_run_names
  ihave S0' := (Entails.of_eq (slot_congr (F := F) c fullShare ssSlot0 hss0)) $$ S0
  have hd₁ : (0 : DD) ∈ (sched (F := F) XG SS RS).duties (((c : Dev nD) : Thread nD τ), SemLoc.dma rsS0) 0 := by
    rw [show ((((c : Dev nD) : Thread nD τ), SemLoc.dma rsS0) : GSem nD τ sig) = rsSCell c 0 from rfl, duties_rsS]; exact Finset.mem_singleton_self _
  have hd₂ : (0 : DD) ∈ (sched (F := F) XG SS RS).duties (((fwd c 7 : Dev nD) : Thread nD τ), SemLoc.dma rsR0) 0 := by
    rw [show ((((fwd c 7 : Dev nD) : Thread nD τ), SemLoc.dma rsR0) : GSem nD τ sig) = rsRCell (fwd c 7) 0 from rfl, duties_rsR]; exact Finset.mem_singleton_self _
  have hk₁ : (sched (F := F) XG SS RS).amount (((c : Dev nD) : Thread nD τ), SemLoc.dma rsS0) 0 0 = Nrs := amount_rsS XG SS RS c 0 0
  have hk₂ : (sched (F := F) XG SS RS).amount (((fwd c 7 : Dev nD) : Thread nD τ), SemLoc.dma rsR0) 0 0 = Nrs := amount_rsR XG SS RS (fwd c 7) 0 0
  have hpay₁ : (ssSlot0.view.loc (c : Thread nD τ) ↦[ssSlot0.view.set]{fullShare} SS c : sProp 𝕄)
      ⊢ (sched (F := F) XG SS RS).payload (((c : Dev nD) : Thread nD τ), SemLoc.dma rsS0) 0 0 := by
    rw [show ((((c : Dev nD) : Thread nD τ), SemLoc.dma rsS0) : GSem nD τ sig) = rsSCell c 0 from rfl, payload_rsS_0]
  have hpay₂ : (rsSlot0.view.loc ((fwd c 7 : Dev nD) : Thread nD τ) ↦[rsSlot0.view.set]{fullShare}
        (rsSlot0.view.write (Elt F) fd (ssSlot0.view.read (Elt F) (SS c)) Finset.univ) : sProp 𝕄)
      ⊢ (sched (F := F) XG SS RS).payload (((fwd c 7 : Dev nD) : Thread nD τ), SemLoc.dma rsR0) 0 0 := by
    rw [show ((((fwd c 7 : Dev nD) : Thread nD τ), SemLoc.dma rsR0) : GSem nD τ sig) = rsRCell (fwd c 7) 0 from rfl, payload_rsR_0,
      landing_pointsTo (F := F) (fwd c 7) fullShare rsSlot0 fd (RS (fwd c 7)) _ hRS0]
  iapply (Rounds.wp_send_pointsTo (Ix := Unit) 𝒱₀ ER (sched (F := F) XG SS RS) (c : Thread nD τ) none
      (c' := ((fwd c 7 : Dev nD) : Thread nD τ)) (src := ssSlot0) (dst := rsSlot0) (q := fullShare) (fs := SS c) (fd := fd)
      (κ₁ := K (c, 16)) (κ₂ := K (fwd c 7, 23)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs) rfl (W := W) hpay₁ hpay₂) $$ [S0' D0 HO T0 T1]
  · sl_close
  iintro ⟨Hcr, HO⟩
  sl_exec
  sl_unfold_run_names
  sl_step
  sl_close

end Cert.KernelIdealProof
end
-- ==== Proof.BodyP25.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
/-- The second copy of partial rows, out of slot 1 of the send buffer; then the rows for the third copy are stored into slot 2. -/
theorem part25_run (c : Dev nD) (W : Waits sig Unit) (v2 : BitVec 32) (v871 : FVec F S2x512x512 .bf16) (v891 : BitVec 32)
    (g1 f2 : Buf (Elt F) ((c : Thread nD τ).loc cc0_scratch4)) (fd : Buf (Elt F) (((fwd c 6 : Dev nD) : Thread nD τ).loc cc0_scratch5))
    (hs1 : ∀ i ∈ ssSlot1.view.set, g1 i = SS c i)
    (hRS1 : ssSlot1.view.read (Elt F) (SS c) = rsSlot1.view.read (Elt F) (RS (fwd c 6))) :
    iprop((cellInv ER (sched XG SS RS) (K (c, 17)) (rsSCell c 1) ∗ cellInv ER (sched XG SS RS) (K (fwd c 6, 24)) (rsRCell (fwd c 6) 1))
        ∗ (reached ER (rsSCell c 1) 0 ∗ reached ER (rsRCell (fwd c 6) 1) 0)
        ∗ (dutyTok ER (rsSCell c 1) 0 0 ∗ dutyTok ER (rsRCell (fwd c 6) 1) 0 0)
        ∗ (ssSlot1.view.loc (c : Thread nD τ) ↦[ssSlot1.view.set]{fullShare} g1)
        ∗ (ssSlot2.view.loc (c : Thread nD τ) ↦[ssSlot2.view.set]{fullShare} f2)
        ∗ (rsSlot1.view.loc ((fwd c 6 : Dev nD) : Thread nD τ) ↦[rsSlot1.view.set]{fullShare} fd)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs) W)
      ⊢ wp frame (wpE (defs₀ (F := F)) 𝒱₀ (c : Thread nD τ) none) Set.univ (k0_part25 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v871 v891)
          (fun r => iprop(⌜r = Scalar.remsi (Scalar.addi (Scalar.subi v2 3#32) 8#32) 8#32⌝
            ∗ cred (tallyAt (rsSCell c 1) () Nrs)
            ∗ (ssSlot2.view.loc (c : Thread nD τ) ↦[ssSlot2.view.set]{fullShare} (View.write (Elt F) ((Memref.whole cc0_scratch4 : Memref sig .tc .vmem S7x2x128x512 .bf16).access (Rect.unit (s := S7x2x128x512) ![2, 0, 0, 0] S1x2x128x512.size inb_S7x2x128x512_S1x2x128x512_2_0_0_0)) f2 (k0_pay160 v871) Finset.univ))
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs) W)) := by
  iintro ⟨⟨#I0, #I1⟩, ⟨#R0, #R1⟩, ⟨T0, T1⟩, S1, S2, D0, HO⟩
  ihave S1' := (Entails.of_eq (slot_congr (F := F) c fullShare ssSlot1 hs1)) $$ S1
  sl_exec (disch := simp only [dev16_eq])
  have hd₁ : (0 : DD) ∈ (sched (F := F) XG SS RS).duties (((c : Dev nD) : Thread nD τ), SemLoc.dma rsS1) 0 := by
    rw [show ((((c : Dev nD) : Thread nD τ), SemLoc.dma rsS1) : GSem nD τ sig) = rsSCell c 1 from rfl, duties_rsS]; exact Finset.mem_singleton_self _
  have hd₂ : (0 : DD) ∈ (sched (F := F) XG SS RS).duties (((fwd c 6 : Dev nD) : Thread nD τ), SemLoc.dma rsR1) 0 := by
    rw [show ((((fwd c 6 : Dev nD) : Thread nD τ), SemLoc.dma rsR1) : GSem nD τ sig) = rsRCell (fwd c 6) 1 from rfl, duties_rsR]; exact Finset.mem_singleton_self _
  have hk₁ : (sched (F := F) XG SS RS).amount (((c : Dev nD) : Thread nD τ), SemLoc.dma rsS1) 0 0 = Nrs := amount_rsS XG SS RS c 1 0
  have hk₂ : (sched (F := F) XG SS RS).amount (((fwd c 6 : Dev nD) : Thread nD τ), SemLoc.dma rsR1) 0 0 = Nrs := amount_rsR XG SS RS (fwd c 6) 1 0
  have hpay₁ : (ssSlot1.view.loc (c : Thread nD τ) ↦[ssSlot1.view.set]{fullShare} SS c : sProp 𝕄)
      ⊢ (sched (F := F) XG SS RS).payload (((c : Dev nD) : Thread nD τ), SemLoc.dma rsS1) 0 0 := by
    rw [show ((((c : Dev nD) : Thread nD τ), SemLoc.dma rsS1) : GSem nD τ sig) = rsSCell c 1 from rfl, payload_rsS_1]
  have hpay₂ : (rsSlot1.view.loc ((fwd c 6 : Dev nD) : Thread nD τ) ↦[rsSlot1.view.set]{fullShare}
        (rsSlot1.view.write (Elt F) fd (ssSlot1.view.read (Elt F) (SS c)) Finset.univ) : sProp 𝕄)
      ⊢ (sched (F := F) XG SS RS).payload (((fwd c 6 : Dev nD) : Thread nD τ), SemLoc.dma rsR1) 0 0 := by
    rw [show ((((fwd c 6 : Dev nD) : Thread nD τ), SemLoc.dma rsR1) : GSem nD τ sig) = rsRCell (fwd c 6) 1 from rfl, payload_rsR_1,
      landing_pointsTo (F := F) (fwd c 6) fullShare rsSlot1 fd (RS (fwd c 6)) _ hRS1]
  iapply (Rounds.wp_send_pointsTo (Ix := Unit) 𝒱₀ ER (sched (F := F) XG SS RS) (c : Thread nD τ) none
      (c' := ((fwd c 6 : Dev nD) : Thread nD τ)) (src := ssSlot1) (dst := rsSlot1) (q := fullShare) (fs := SS c) (fd := fd)
      (κ₁ := K (c, 17)) (κ₂ := K (fwd c 6, 24)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs) rfl (W := W) hpay₁ hpay₂) $$ [S1' D0 HO T0 T1]
  · sl_close
  iintro ⟨Hcr, HO⟩
  sl_exec
  sl_unfold_run_names
  sl_step
  sl_close

end Cert.KernelIdealProof
end
-- ==== Proof.BodyP26.lean ====
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
/-- The third copy of partial rows, out of slot 2; the rows for the fourth are stored into slot 3 and sent; then the next pass's loads of q, k and v. -/
theorem part26_run (c : Dev nD) (W : Waits sig Unit) (v2 : BitVec 32) (v871 : FVec F S2x512x512 .bf16)
    (g2 f3 : Buf (Elt F) ((c : Thread nD τ).loc cc0_scratch4)) (fd3 : Buf (Elt F) (((fwd c 5 : Dev nD) : Thread nD τ).loc cc0_scratch5)) (fd4 : Buf (Elt F) (((fwd c 4 : Dev nD) : Thread nD τ).loc cc0_scratch5))
    (fq : Buf (Elt F) ((c : Thread nD τ).loc cc0_scratch1)) (fk : Buf (Elt F) ((c : Thread nD τ).loc cc0_scratch2)) (fv : Buf (Elt F) ((c : Thread nD τ).loc cc0_scratch3))
    (hs2 : ∀ i ∈ ssSlot2.view.set, g2 i = SS c i)
    (hss3 : ∀ i ∈ ssSlot3.view.set, (View.write (Elt F) ((Memref.whole cc0_scratch4 : Memref sig .tc .vmem S7x2x128x512 .bf16).access (Rect.unit (s := S7x2x128x512) ![3, 0, 0, 0] S1x2x128x512.size inb_S7x2x128x512_S1x2x128x512_3_0_0_0)) f3 (k0_pay161 v871) Finset.univ) i = SS c i)
    (hRS2 : ssSlot2.view.read (Elt F) (SS c) = rsSlot2.view.read (Elt F) (RS (fwd c 5)))
    (hRS3 : ssSlot3.view.read (Elt F) (SS c) = rsSlot3.view.read (Elt F) (RS (fwd c 4))) :
    iprop((cellInv ER (sched XG SS RS) (K (c, 18)) (rsSCell c 2) ∗ cellInv ER (sched XG SS RS) (K (fwd c 5, 25)) (rsRCell (fwd c 5) 2) ∗ cellInv ER (sched XG SS RS) (K (c, 19)) (rsSCell c 3) ∗ cellInv ER (sched XG SS RS) (K (fwd c 4, 26)) (rsRCell (fwd c 4) 3))
        ∗ (reached ER (rsSCell c 2) 0 ∗ reached ER (rsRCell (fwd c 5) 2) 0 ∗ reached ER (rsSCell c 3) 0 ∗ reached ER (rsRCell (fwd c 4) 3) 0)
        ∗ (dutyTok ER (rsSCell c 2) 0 0 ∗ dutyTok ER (rsRCell (fwd c 5) 2) 0 0 ∗ dutyTok ER (rsSCell c 3) 0 0 ∗ dutyTok ER (rsRCell (fwd c 4) 3) 0 0)
        ∗ (ssSlot2.view.loc (c : Thread nD τ) ↦[ssSlot2.view.set]{fullShare} g2)
        ∗ (ssSlot3.view.loc (c : Thread nD τ) ↦[ssSlot3.view.set]{fullShare} f3)
        ∗ (rsSlot2.view.loc ((fwd c 5 : Dev nD) : Thread nD τ) ↦[rsSlot2.view.set]{fullShare} fd3)
        ∗ (rsSlot3.view.loc ((fwd c 4 : Dev nD) : Thread nD τ) ↦[rsSlot3.view.set]{fullShare} fd4)
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs) W)
      ⊢ wp frame (wpE (defs₀ (F := F)) 𝒱₀ (c : Thread nD τ) none) Set.univ (k0_part26 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 c v2 v871)
          (fun r => iprop(⌜r = ⟨Scalar.remsi (Scalar.addi (Scalar.subi v2 4#32) 8#32) 8#32, k0_pay162 (View.readAt (Elt F) (Memref.whole cc0_scratch1 : Memref sig .tc .vmem S2x1024x512 .bf16).view (Rect.unit (s := S2x1024x512) ![0, 640, 0] S1x384x512.size inb_S2x1024x512_S1x384x512_0_640_0).toLoadRect fq), k0_pay163 (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk), k0_pay164 (View.readAt (Elt F) (Memref.whole cc0_scratch3 : Memref sig .tc .vmem S2x1024x512 .bf16).view (Rect.unit (s := S2x1024x512) ![0, 0, 0] S1x1024x512.size inb_S2x1024x512_S1x1024x512_0_0_0).toLoadRect fv), k0_pay165 (View.readAt (Elt F) (Memref.whole cc0_scratch1 : Memref sig .tc .vmem S2x1024x512 .bf16).view (Rect.unit (s := S2x1024x512) ![0, 640, 0] S1x384x512.size inb_S2x1024x512_S1x384x512_0_640_0).toLoadRect fq) (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk)⟩⌝
            ∗ cred (tallyAt (rsSCell c 2) () Nrs)
            ∗ cred (tallyAt (rsSCell c 3) () Nrs)
            ∗ (View.loc (c : Thread nD τ) (Memref.whole cc0_scratch1 : Memref sig .tc .vmem S2x1024x512 .bf16).view ↦{fullShare} fq)
            ∗ (View.loc (c : Thread nD τ) (Memref.whole cc0_scratch2 : Memref sig .tc .vmem S2x1024x512 .bf16).view ↦{fullShare} fk)
            ∗ (View.loc (c : Thread nD τ) (Memref.whole cc0_scratch3 : Memref sig .tc .vmem S2x1024x512 .bf16).view ↦{fullShare} fv)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs) W)) := by
  iintro ⟨⟨#I0, #I1, #I2, #I3⟩, ⟨#R0, #R1, #R2, #R3⟩, ⟨T0, T1, T2, T3⟩, S2, S3, D3, D4, Hq, Hk, Hv, HO⟩
  ihave S2' := (Entails.of_eq (slot_congr (F := F) c fullShare ssSlot2 hs2)) $$ S2
  sl_exec (disch := simp only [dev17_eq])
  have hd₁ : (0 : DD) ∈ (sched (F := F) XG SS RS).duties (((c : Dev nD) : Thread nD τ), SemLoc.dma rsS2) 0 := by
    rw [show ((((c : Dev nD) : Thread nD τ), SemLoc.dma rsS2) : GSem nD τ sig) = rsSCell c 2 from rfl, duties_rsS]; exact Finset.mem_singleton_self _
  have hd₂ : (0 : DD) ∈ (sched (F := F) XG SS RS).duties (((fwd c 5 : Dev nD) : Thread nD τ), SemLoc.dma rsR2) 0 := by
    rw [show ((((fwd c 5 : Dev nD) : Thread nD τ), SemLoc.dma rsR2) : GSem nD τ sig) = rsRCell (fwd c 5) 2 from rfl, duties_rsR]; exact Finset.mem_singleton_self _
  have hk₁ : (sched (F := F) XG SS RS).amount (((c : Dev nD) : Thread nD τ), SemLoc.dma rsS2) 0 0 = Nrs := amount_rsS XG SS RS c 2 0
  have hk₂ : (sched (F := F) XG SS RS).amount (((fwd c 5 : Dev nD) : Thread nD τ), SemLoc.dma rsR2) 0 0 = Nrs := amount_rsR XG SS RS (fwd c 5) 2 0
  have hpay₁ : (ssSlot2.view.loc (c : Thread nD τ) ↦[ssSlot2.view.set]{fullShare} SS c : sProp 𝕄)
      ⊢ (sched (F := F) XG SS RS).payload (((c : Dev nD) : Thread nD τ), SemLoc.dma rsS2) 0 0 := by
    rw [show ((((c : Dev nD) : Thread nD τ), SemLoc.dma rsS2) : GSem nD τ sig) = rsSCell c 2 from rfl, payload_rsS_2]
  have hpay₂ : (rsSlot2.view.loc ((fwd c 5 : Dev nD) : Thread nD τ) ↦[rsSlot2.view.set]{fullShare}
        (rsSlot2.view.write (Elt F) fd3 (ssSlot2.view.read (Elt F) (SS c)) Finset.univ) : sProp 𝕄)
      ⊢ (sched (F := F) XG SS RS).payload (((fwd c 5 : Dev nD) : Thread nD τ), SemLoc.dma rsR2) 0 0 := by
    rw [show ((((fwd c 5 : Dev nD) : Thread nD τ), SemLoc.dma rsR2) : GSem nD τ sig) = rsRCell (fwd c 5) 2 from rfl, payload_rsR_2,
      landing_pointsTo (F := F) (fwd c 5) fullShare rsSlot2 fd3 (RS (fwd c 5)) _ hRS2]
  iapply (Rounds.wp_send_pointsTo (Ix := Unit) 𝒱₀ ER (sched (F := F) XG SS RS) (c : Thread nD τ) none
      (c' := ((fwd c 5 : Dev nD) : Thread nD τ)) (src := ssSlot2) (dst := rsSlot2) (q := fullShare) (fs := SS c) (fd := fd3)
      (κ₁ := K (c, 18)) (κ₂ := K (fwd c 5, 25)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs) rfl (W := W) hpay₁ hpay₂) $$ [S2' D3 HO T0 T1]
  · sl_close
  iintro ⟨Hcr3, HO⟩
  clear hd₁ hd₂ hk₁ hk₂ hpay₁ hpay₂
  sl_exec (disch := simp only [dev18_eq])
  sl_unfold_run_names
  ihave S3' := (Entails.of_eq (slot_congr (F := F) c fullShare ssSlot3 hss3)) $$ S3
  have hd₁ : (0 : DD) ∈ (sched (F := F) XG SS RS).duties (((c : Dev nD) : Thread nD τ), SemLoc.dma rsS3) 0 := by
    rw [show ((((c : Dev nD) : Thread nD τ), SemLoc.dma rsS3) : GSem nD τ sig) = rsSCell c 3 from rfl, duties_rsS]; exact Finset.mem_singleton_self _
  have hd₂ : (0 : DD) ∈ (sched (F := F) XG SS RS).duties (((fwd c 4 : Dev nD) : Thread nD τ), SemLoc.dma rsR3) 0 := by
    rw [show ((((fwd c 4 : Dev nD) : Thread nD τ), SemLoc.dma rsR3) : GSem nD τ sig) = rsRCell (fwd c 4) 3 from rfl, duties_rsR]; exact Finset.mem_singleton_self _
  have hk₁ : (sched (F := F) XG SS RS).amount (((c : Dev nD) : Thread nD τ), SemLoc.dma rsS3) 0 0 = Nrs := amount_rsS XG SS RS c 3 0
  have hk₂ : (sched (F := F) XG SS RS).amount (((fwd c 4 : Dev nD) : Thread nD τ), SemLoc.dma rsR3) 0 0 = Nrs := amount_rsR XG SS RS (fwd c 4) 3 0
  have hpay₁ : (ssSlot3.view.loc (c : Thread nD τ) ↦[ssSlot3.view.set]{fullShare} SS c : sProp 𝕄)
      ⊢ (sched (F := F) XG SS RS).payload (((c : Dev nD) : Thread nD τ), SemLoc.dma rsS3) 0 0 := by
    rw [show ((((c : Dev nD) : Thread nD τ), SemLoc.dma rsS3) : GSem nD τ sig) = rsSCell c 3 from rfl, payload_rsS_3]
  have hpay₂ : (rsSlot3.view.loc ((fwd c 4 : Dev nD) : Thread nD τ) ↦[rsSlot3.view.set]{fullShare}
        (rsSlot3.view.write (Elt F) fd4 (ssSlot3.view.read (Elt F) (SS c)) Finset.univ) : sProp 𝕄)
      ⊢ (sched (F := F) XG SS RS).payload (((fwd c 4 : Dev nD) : Thread nD τ), SemLoc.dma rsR3) 0 0 := by
    rw [show ((((fwd c 4 : Dev nD) : Thread nD τ), SemLoc.dma rsR3) : GSem nD τ sig) = rsRCell (fwd c 4) 3 from rfl, payload_rsR_3,
      landing_pointsTo (F := F) (fwd c 4) fullShare rsSlot3 fd4 (RS (fwd c 4)) _ hRS3]
  iapply (Rounds.wp_send_pointsTo (Ix := Unit) 𝒱₀ ER (sched (F := F) XG SS RS) (c : Thread nD τ) none
      (c' := ((fwd c 4 : Dev nD) : Thread nD τ)) (src := ssSlot3) (dst := rsSlot3) (q := fullShare) (fs := SS c) (fd := fd4)
      (κ₁ := K (c, 19)) (κ₂ := K (fwd c 4, 26)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs) rfl (W := W) hpay₁ hpay₂) $$ [S3' D4 HO T2 T3]
  · sl_close
  iintro ⟨Hcr4, HO⟩
  sl_exec
  sl_unfold_run_names
  sl_step
  sl_close

end Cert.KernelIdealProof
end
-- ==== Proof.BodyP27.lean ====
/-
  Part 27 of the body computes only: from the second pass's query rows (384 rows of a batch), all key and value rows and
  the exponentials of one head's scores, it forms that head's row sums and weighted values, the same for four more heads,
  and cuts the next head's query columns. No memory is touched; the part returns those vectors.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part27_run (c : Dev nD) (v941 : FVec F S384x512 .bf16) (v943 v945 : FVec F S1024x512 .bf16) (v950 : FVec F S384x1024 .bf16) :
    (iprop(emp) : sProp 𝕄)
      ⊢ wp frame (wpE (defs₀ (F := F)) 𝒱₀ (c : Thread nD τ) none) Set.univ (k0_part27 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v941 v943 v945 v950)
          (fun r => iprop(⌜r = ⟨k0_pay166 v950, k0_pay167 v945 v950, k0_pay169 v941 v943, k0_pay170 v941 v943 v945, k0_pay172 v941 v943,
            k0_pay173 v941 v943 v945, k0_pay175 v941 v943, k0_pay176 v941 v943 v945, k0_pay178 v941 v943, k0_pay179 v941 v943 v945, k0_pay180 v941⟩⌝)) := by
  iintro _
  sl_exec
  sl_step
  ipureintro; rfl

end Cert.KernelIdealProof

end
-- ==== Proof.BodyP28.lean ====
/-
  Part 28 of the body: three more heads of the second pass's first batch (row sums and weighted values), then the loads
  of the second batch's query rows 640 … 1023 and of all its key and value rows, and the first head's scores of that batch.
  The three scratch buffers are read whole and left as they are.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
theorem part28_run (c : Dev nD) (v941 : FVec F S384x512 .bf16) (v943 v945 : FVec F S1024x512 .bf16) (v996 : FVec F S384x64 .bf16)
    (fq : Buf (Elt F) ((c : Thread nD τ).loc cc0_scratch1)) (fk : Buf (Elt F) ((c : Thread nD τ).loc cc0_scratch2))
    (fv : Buf (Elt F) ((c : Thread nD τ).loc cc0_scratch3)) :
    (iprop(((Memref.whole cc0_scratch1).view.loc (c : Thread nD τ) ↦{fullShare} fq) ∗ ((Memref.whole cc0_scratch2).view.loc (c : Thread nD τ) ↦{fullShare} fk)
        ∗ ((Memref.whole cc0_scratch3).view.loc (c : Thread nD τ) ↦{fullShare} fv)) : sProp 𝕄)
      ⊢ wp frame (wpE (defs₀ (F := F)) 𝒱₀ (c : Thread nD τ) none) Set.univ (k0_part28 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v941 v943 v945 v996)
          (fun r => iprop(⌜r = ⟨k0_pay182 v943 v996, k0_pay183 v943 v945 v996, k0_pay185 v941 v943, k0_pay186 v941 v943 v945, k0_pay188 v941 v943,
              k0_pay189 v941 v943 v945,
              k0_pay190 (View.readAt (Elt F) (Memref.whole cc0_scratch1).view (Rect.unit (s := S2x1024x512) ![1, 640, 0] S1x384x512.size inb_S2x1024x512_S1x384x512_1_640_0).toLoadRect fq),
              k0_pay191 (View.readAt (Elt F) (Memref.whole cc0_scratch2).view (Rect.unit (s := S2x1024x512) ![1, 0, 0] S1x1024x512.size inb_S2x1024x512_S1x1024x512_1_0_0).toLoadRect fk),
              k0_pay192 (View.readAt (Elt F) (Memref.whole cc0_scratch3).view (Rect.unit (s := S2x1024x512) ![1, 0, 0] S1x1024x512.size inb_S2x1024x512_S1x1024x512_1_0_0).toLoadRect fv),
              k0_pay193 (View.readAt (Elt F) (Memref.whole cc0_scratch1).view (Rect.unit (s := S2x1024x512) ![1, 640, 0] S1x384x512.size inb_S2x1024x512_S1x384x512_1_640_0).toLoadRect fq)
                (View.readAt (Elt F) (Memref.whole cc0_scratch2).view (Rect.unit (s := S2x1024x512) ![1, 0, 0] S1x1024x512.size inb_S2x1024x512_S1x1024x512_1_0_0).toLoadRect fk),
              k0_pay194 (View.readAt (Elt F) (Memref.whole cc0_scratch1).view (Rect.unit (s := S2x1024x512) ![1, 640, 0] S1x384x512.size inb_S2x1024x512_S1x384x512_1_640_0).toLoadRect fq)
                (View.readAt (Elt F) (Memref.whole cc0_scratch2).view (Rect.unit (s := S2x1024x512) ![1, 0, 0] S1x1024x512.size inb_S2x1024x512_S1x1024x512_1_0_0).toLoadRect fk)⟩⌝
            ∗ ((Memref.whole cc0_scratch1).view.loc (c : Thread nD τ) ↦{fullShare} fq) ∗ ((Memref.whole cc0_scratch2).view.loc (c : Thread nD τ) ↦{fullShare} fk)
            ∗ ((Memref.whole cc0_scratch3).view.loc (c : Thread nD τ) ↦{fullShare} fv))) := by
  iintro ⟨HQ, HK, HV⟩
  sl_exec
  sl_step
  isplitr; · ipureintro; rfl
  isplitl [HQ]; · iexact HQ
  isplitl [HK]; · iexact HK
  iexact HV

end Cert.KernelIdealProof

end
-- ==== Proof.BodyP29.lean ====
/-
  Part 29 of the body computes only: for the second pass's second batch, one head's row sums and weighted values from its
  scores, four more heads' row sums and weighted values, and the next head's query and key columns.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part29_run (c : Dev nD) (v1027 : FVec F S384x512 .bf16) (v1029 v1031 : FVec F S1024x512 .bf16) (v1036 : FVec F S384x1024 .bf16) (v1037 : FVec F S384x1024 .f32) :
    (iprop(emp) : sProp 𝕄)
      ⊢ wp frame (wpE (defs₀ (F := F)) 𝒱₀ (c : Thread nD τ) none) Set.univ (k0_part29 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1027 v1029 v1031 v1036 v1037)
          (fun r => iprop(⌜r = ⟨k0_pay195 v1037, k0_pay196 v1031 v1036, k0_pay198 v1027 v1029, k0_pay199 v1027 v1029 v1031, k0_pay201 v1027 v1029,
            k0_pay202 v1027 v1029 v1031, k0_pay204 v1027 v1029, k0_pay205 v1027 v1029 v1031, k0_pay207 v1027 v1029, k0_pay208 v1027 v1029 v1031,
            k0_pay209 v1027, k0_pay210 v1029⟩⌝)) := by
  iintro _
  sl_exec
  sl_step
  ipureintro; rfl

end Cert.KernelIdealProof

end
-- ==== Proof.BodyP30.lean ====
/-
  Part 30 of the body computes only: the last three heads of the second pass's second batch (row sums and weighted
  values) and the first batch's eight heads each divided by its row sums.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part30_run (c : Dev nD) (v953 : FVec F S384x1 .f32) (v955 : FVec F S384x64 .f32) (v963 : FVec F S384x1 .f32) (v965 : FVec F S384x64 .f32)
    (v973 : FVec F S384x1 .f32) (v975 : FVec F S384x64 .f32) (v983 : FVec F S384x1 .f32) (v985 : FVec F S384x64 .f32)
    (v993 : FVec F S384x1 .f32) (v995 : FVec F S384x64 .f32) (v1003 : FVec F S384x1 .f32) (v1005 : FVec F S384x64 .f32)
    (v1013 : FVec F S384x1 .f32) (v1015 : FVec F S384x64 .f32) (v1023 : FVec F S384x1 .f32) (v1025 : FVec F S384x64 .f32)
    (v1027 : FVec F S384x512 .bf16) (v1029 v1031 : FVec F S1024x512 .bf16) (v1082 : FVec F S384x64 .bf16) (v1083 : FVec F S1024x64 .bf16) :
    (iprop(emp) : sProp 𝕄)
      ⊢ wp frame (wpE (defs₀ (F := F)) 𝒱₀ (c : Thread nD τ) none) Set.univ (k0_part30 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v953 v955 v963 v965 v973 v975 v983 v985 v993 v995 v1003 v1005 v1013 v1015 v1023 v1025 v1027 v1029 v1031 v1082 v1083)
          (fun r => iprop(⌜r = ⟨k0_pay212 v1082 v1083, k0_pay213 v1031 v1082 v1083, k0_pay215 v1027 v1029, k0_pay216 v1027 v1029 v1031, k0_pay218 v1027 v1029,
            k0_pay219 v1027 v1029 v1031, k0_pay220 v953 v955, k0_pay221 v963 v965, k0_pay222 v973 v975, k0_pay223 v983 v985, k0_pay224 v993 v995,
            k0_pay225 v1003 v1005, k0_pay226 v1013 v1015, k0_pay227 v1023 v1025⟩⌝)) := by
  iintro _
  sl_exec
  sl_step
  ipureintro; rfl

end Cert.KernelIdealProof

end
-- ==== Proof.BodyP31.lean ====
/-
  Part 31 of the kernel's body on a device: the second pass's finalize. The stacked result of the pass is computed from the
  part's arguments; its first block of rows is stored into slot 4 of the send buffer (after a load of that slot whose value
  nothing reads). The slot is held before at any contents and after at those contents with the block written.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.Slots

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 4000000 in
theorem part31_run (c : Dev nD) (W : Waits sig Unit) (v2 : BitVec 32) (v137 : FVec F S512x512 .bf16) (v1039 : FVec F S384x1 .f32) (v1041 : FVec F S384x64 .f32) (v1049 : FVec F S384x1 .f32) (v1051 : FVec F S384x64 .f32) (v1059 : FVec F S384x1 .f32) (v1061 : FVec F S384x64 .f32) (v1069 : FVec F S384x1 .f32) (v1071 : FVec F S384x64 .f32) (v1079 : FVec F S384x1 .f32) (v1081 : FVec F S384x64 .f32) (v1089 : FVec F S384x1 .f32) (v1091 : FVec F S384x64 .f32) (v1099 : FVec F S384x1 .f32) (v1101 : FVec F S384x64 .f32) (v1109 : FVec F S384x1 .f32) (v1111 : FVec F S384x64 .f32) (v1114 v1117 v1120 v1123 v1126 v1129 v1132 : FVec F S384x64 .bf16) (v1134 : FVec F S384x64 .f32) (fs : _) :
    (iprop((ssSlot4.view.loc (c : Thread nD τ) ↦[ssSlot4.view.set]{fullShare} fs)) : sProp 𝕄)
      ⊢ wp frame (wpE (defs₀ (F := F)) 𝒱₀ (c : Thread nD τ) none) Set.univ
          (k0_part31 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            v2 v137 v1039 v1041 v1049 v1051 v1059 v1061 v1069 v1071 v1079 v1081 v1089 v1091 v1099 v1101 v1109 v1111 v1114 v1117 v1120 v1123 v1126 v1129 v1132 v1134)
          (fun r => iprop(⌜r = ⟨k0_pay228 v137 v1039 v1041 v1049 v1051 v1059 v1061 v1069 v1071 v1079 v1081 v1089 v1091 v1099 v1101 v1109 v1111 v1114 v1117 v1120 v1123 v1126 v1129 v1132 v1134,
              Scalar.remsi (Scalar.addi (Scalar.subi v2 5#32) 8#32) 8#32⟩⌝
            ∗ (ssSlot4.view.loc (c : Thread nD τ) ↦[ssSlot4.view.set]{fullShare}
              View.write (Elt F) ((Memref.whole cc0_scratch4 : Memref sig .tc .vmem S7x2x128x512 .bf16).access (Rect.unit (s := S7x2x128x512) ![4, 0, 0, 0] S1x2x128x512.size inb_S7x2x128x512_S1x2x128x512_4_0_0_0)) fs
              (k0_pay229 v137 v1039 v1041 v1049 v1051 v1059 v1061 v1069 v1071 v1079 v1081 v1089 v1091 v1099 v1101 v1109 v1111 v1114 v1117 v1120 v1123 v1126 v1129 v1132 v1134) Finset.univ))) := by
  iintro Hs
  sl_exec
  sl_step
  isplitr [Hs]
  · ipureintro; rfl
  iexact Hs

end Cert.KernelIdealProof

end
-- ==== Proof.BodyP32.lean ====
/-
  Part 32 of the kernel's body on a device: the copy of slot 4 of the send buffer to the device three places on; the second
  block of rows of the second pass's result stored into slot 5 and copied to the device two places on. Each copy pays the
  departure duty of the device's own send cell and the arrival duty of the peer's receive cell; the peer's slot, which the
  entry barrier handed over, goes with the arrival.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
theorem part32_run (c : Dev nD) (W : Waits sig Unit) (v2 : BitVec 32) (v1167 : FVec F S2x384x512 .bf16)
    (fs4 fs5 : Buf (Elt F) ((c : Thread nD τ).loc cc0_scratch4)) (fd4 : Buf (Elt F) (((fwd c 3 : Dev nD) : Thread nD τ).loc cc0_scratch5)) (fd5 : Buf (Elt F) (((fwd c 2 : Dev nD) : Thread nD τ).loc cc0_scratch5))
    (hss4 : ∀ i ∈ ssSlot4.view.set, fs4 i = SS c i)
    (hss5 : ∀ i ∈ ssSlot5.view.set, (View.write (Elt F) ((Memref.whole cc0_scratch4 : Memref sig .tc .vmem S7x2x128x512 .bf16).access (Rect.unit (s := S7x2x128x512) ![5, 0, 0, 0] S1x2x128x512.size inb_S7x2x128x512_S1x2x128x512_5_0_0_0)) fs5
              (k0_pay230 v1167) Finset.univ) i = SS c i)
    (hRS4 : ssSlot4.view.read (Elt F) (SS c) = rsSlot4.view.read (Elt F) (RS (fwd c 3)))
    (hRS5 : ssSlot5.view.read (Elt F) (SS c) = rsSlot5.view.read (Elt F) (RS (fwd c 2))) :
    iprop((cellInv ER (sched XG SS RS) (K (c, 20)) (rsSCell c 4) ∗ cellInv ER (sched XG SS RS) (K (fwd c 3, 27)) (rsRCell (fwd c 3) 4)
          ∗ cellInv ER (sched XG SS RS) (K (c, 21)) (rsSCell c 5) ∗ cellInv ER (sched XG SS RS) (K (fwd c 2, 28)) (rsRCell (fwd c 2) 5))
        ∗ (reached ER (rsSCell c 4) 0 ∗ reached ER (rsRCell (fwd c 3) 4) 0 ∗ reached ER (rsSCell c 5) 0 ∗ reached ER (rsRCell (fwd c 2) 5) 0)
        ∗ (dutyTok ER (rsSCell c 4) 0 0 ∗ dutyTok ER (rsRCell (fwd c 3) 4) 0 0 ∗ dutyTok ER (rsSCell c 5) 0 0 ∗ dutyTok ER (rsRCell (fwd c 2) 5) 0 0)
        ∗ (ssSlot4.view.loc (c : Thread nD τ) ↦[ssSlot4.view.set]{fullShare} fs4)
        ∗ (ssSlot5.view.loc (c : Thread nD τ) ↦[ssSlot5.view.set]{fullShare} fs5)
        ∗ (rsSlot4.view.loc ((fwd c 3 : Dev nD) : Thread nD τ) ↦[rsSlot4.view.set]{fullShare} fd4)
        ∗ (rsSlot5.view.loc ((fwd c 2 : Dev nD) : Thread nD τ) ↦[rsSlot5.view.set]{fullShare} fd5)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs) W)
      ⊢ wp frame (wpE (defs₀ (F := F)) 𝒱₀ (c : Thread nD τ) none) Set.univ
          (k0_part32 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v2 v1167)
          (fun r => iprop(⌜r = ⟨Scalar.remsi (Scalar.addi (Scalar.subi v2 6#32) 8#32) 8#32, Scalar.remsi (Scalar.addi (Scalar.subi v2 7#32) 8#32) 8#32, k0_pay231 v1167⟩⌝
            ∗ cred (tallyAt (rsSCell c 4) () Nrs)
            ∗ cred (tallyAt (rsSCell c 5) () Nrs)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs) W)) := by
  iintro ⟨⟨#I0, #I1, #I2, #I3⟩, ⟨#R0, #R1, #R2, #R3⟩, ⟨TS4, TR4, TS5, TR5⟩, Hs4, Hs5, Hd4, Hd5, HO⟩
  sl_exec (disch := simp only [dev19_eq, dev20_eq])
  sl_unfold_run_names
  ihave Hs4' := (Entails.of_eq (slot_congr (F := F) c fullShare ssSlot4 hss4)) $$ Hs4
  have hd₁ : (0 : DD) ∈ (sched (F := F) XG SS RS).duties (((c : Dev nD) : Thread nD τ), SemLoc.dma rsS4) 0 := by
    rw [show ((((c : Dev nD) : Thread nD τ), SemLoc.dma rsS4) : GSem nD τ sig) = rsSCell c 4 from rfl, duties_rsS]; exact Finset.mem_singleton_self _
  have hd₂ : (0 : DD) ∈ (sched (F := F) XG SS RS).duties (((fwd c 3 : Dev nD) : Thread nD τ), SemLoc.dma rsR4) 0 := by
    rw [show ((((fwd c 3 : Dev nD) : Thread nD τ), SemLoc.dma rsR4) : GSem nD τ sig) = rsRCell (fwd c 3) 4 from rfl, duties_rsR]; exact Finset.mem_singleton_self _
  have hk₁ : (sched (F := F) XG SS RS).amount (((c : Dev nD) : Thread nD τ), SemLoc.dma rsS4) 0 0 = Nrs := amount_rsS XG SS RS c 4 0
  have hk₂ : (sched (F := F) XG SS RS).amount (((fwd c 3 : Dev nD) : Thread nD τ), SemLoc.dma rsR4) 0 0 = Nrs := amount_rsR XG SS RS (fwd c 3) 4 0
  have hpay₁ : (ssSlot4.view.loc (c : Thread nD τ) ↦[ssSlot4.view.set]{fullShare} SS c : sProp 𝕄)
      ⊢ (sched (F := F) XG SS RS).payload (((c : Dev nD) : Thread nD τ), SemLoc.dma rsS4) 0 0 := by
    rw [show ((((c : Dev nD) : Thread nD τ), SemLoc.dma rsS4) : GSem nD τ sig) = rsSCell c 4 from rfl, payload_rsS_4]
  have hpay₂ : (rsSlot4.view.loc ((fwd c 3 : Dev nD) : Thread nD τ) ↦[rsSlot4.view.set]{fullShare}
        (rsSlot4.view.write (Elt F) fd4 (ssSlot4.view.read (Elt F) (SS c)) Finset.univ) : sProp 𝕄)
      ⊢ (sched (F := F) XG SS RS).payload (((fwd c 3 : Dev nD) : Thread nD τ), SemLoc.dma rsR4) 0 0 := by
    rw [show ((((fwd c 3 : Dev nD) : Thread nD τ), SemLoc.dma rsR4) : GSem nD τ sig) = rsRCell (fwd c 3) 4 from rfl, payload_rsR_4,
      landing_pointsTo (F := F) (fwd c 3) fullShare rsSlot4 fd4 (RS (fwd c 3)) _ hRS4]
  iapply (Rounds.wp_send_pointsTo (Ix := Unit) 𝒱₀ ER (sched (F := F) XG SS RS) (c : Thread nD τ) none
      (c' := ((fwd c 3 : Dev nD) : Thread nD τ)) (src := ssSlot4) (dst := rsSlot4) (q := fullShare) (fs := SS c) (fd := fd4)
      (κ₁ := K (c, 20)) (κ₂ := K (fwd c 3, 27)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs) rfl (W := W) hpay₁ hpay₂) $$ [Hs4' Hd4 HO TS4 TR4]
  · sl_close
  iintro ⟨Hcr4, HO⟩
  sl_exec (disch := simp only [dev19_eq, dev20_eq])
  sl_unfold_run_names
  have hss5' : ∀ i ∈ ssSlot5.view.set, (View.write (Elt F) ((Memref.whole cc0_scratch4 : Memref sig .tc .vmem S7x2x128x512 .bf16).access (Rect.unit (s := S7x2x128x512) ![5, 0, 0, 0] S1x2x128x512.size inb_S7x2x128x512_S1x2x128x512_5_0_0_0)) fs5
      (shapeCast S1x2x128x512 (extractStridedSlice S2x128x512 ![0, 128, 0] v1167 slices_S2x384x512_o0_128_0_S2x128x512) shapeCasts_S2x128x512_S1x2x128x512) Finset.univ) i = SS c i := hss5
  ihave Hs5' := (Entails.of_eq (slot_congr (F := F) c fullShare ssSlot5 hss5')) $$ Hs5
  clear hd₁ hd₂ hk₁ hk₂ hpay₁ hpay₂
  have hd₁ : (0 : DD) ∈ (sched (F := F) XG SS RS).duties (((c : Dev nD) : Thread nD τ), SemLoc.dma rsS5) 0 := by
    rw [show ((((c : Dev nD) : Thread nD τ), SemLoc.dma rsS5) : GSem nD τ sig) = rsSCell c 5 from rfl, duties_rsS]; exact Finset.mem_singleton_self _
  have hd₂ : (0 : DD) ∈ (sched (F := F) XG SS RS).duties (((fwd c 2 : Dev nD) : Thread nD τ), SemLoc.dma rsR5) 0 := by
    rw [show ((((fwd c 2 : Dev nD) : Thread nD τ), SemLoc.dma rsR5) : GSem nD τ sig) = rsRCell (fwd c 2) 5 from rfl, duties_rsR]; exact Finset.mem_singleton_self _
  have hk₁ : (sched (F := F) XG SS RS).amount (((c : Dev nD) : Thread nD τ), SemLoc.dma rsS5) 0 0 = Nrs := amount_rsS XG SS RS c 5 0
  have hk₂ : (sched (F := F) XG SS RS).amount (((fwd c 2 : Dev nD) : Thread nD τ), SemLoc.dma rsR5) 0 0 = Nrs := amount_rsR XG SS RS (fwd c 2) 5 0
  have hpay₁ : (ssSlot5.view.loc (c : Thread nD τ) ↦[ssSlot5.view.set]{fullShare} SS c : sProp 𝕄)
      ⊢ (sched (F := F) XG SS RS).payload (((c : Dev nD) : Thread nD τ), SemLoc.dma rsS5) 0 0 := by
    rw [show ((((c : Dev nD) : Thread nD τ), SemLoc.dma rsS5) : GSem nD τ sig) = rsSCell c 5 from rfl, payload_rsS_5]
  have hpay₂ : (rsSlot5.view.loc ((fwd c 2 : Dev nD) : Thread nD τ) ↦[rsSlot5.view.set]{fullShare}
        (rsSlot5.view.write (Elt F) fd5 (ssSlot5.view.read (Elt F) (SS c)) Finset.univ) : sProp 𝕄)
      ⊢ (sched (F := F) XG SS RS).payload (((fwd c 2 : Dev nD) : Thread nD τ), SemLoc.dma rsR5) 0 0 := by
    rw [show ((((fwd c 2 : Dev nD) : Thread nD τ), SemLoc.dma rsR5) : GSem nD τ sig) = rsRCell (fwd c 2) 5 from rfl, payload_rsR_5,
      landing_pointsTo (F := F) (fwd c 2) fullShare rsSlot5 fd5 (RS (fwd c 2)) _ hRS5]
  iapply (Rounds.wp_send_pointsTo (Ix := Unit) 𝒱₀ ER (sched (F := F) XG SS RS) (c : Thread nD τ) none
      (c' := ((fwd c 2 : Dev nD) : Thread nD τ)) (src := ssSlot5) (dst := rsSlot5) (q := fullShare) (fs := SS c) (fd := fd5)
      (κ₁ := K (c, 21)) (κ₂ := K (fwd c 2, 28)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs) rfl (W := W) hpay₁ hpay₂) $$ [Hs5' Hd5 HO TS5 TR5]
  · sl_close
  iintro ⟨Hcr5, HO⟩
  sl_exec
  sl_unfold_run_names
  sl_step
  sl_close

end Cert.KernelIdealProof

end
-- ==== Proof.BodyP33.lean ====
/-
  Part 33 of the kernel's body on a device: the last block of rows of the second pass's result is stored into slot 6 of the
  send buffer and copied to the next device, paying the departure duty of the device's own send cell and the arrival duty
  of the peer's receive cell; then the third pass's blocks are loaded: queries rows 0..127, keys and values rows 0..1023 of
  batch 0. The q, k and v scratch are only read.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

set_option maxHeartbeats 4000000 in
theorem part33_run (c : Dev nD) (W : Waits sig Unit) (v1204 : BitVec 32) (v1205 : FVec F S2x128x512 .bf16)
    (fs6 : Buf (Elt F) ((c : Thread nD τ).loc cc0_scratch4)) (fd6 : Buf (Elt F) (((fwd c 1 : Dev nD) : Thread nD τ).loc cc0_scratch5)) (fq : _) (fk : _) (fv : _)
    (hss6 : ∀ i ∈ ssSlot6.view.set, (View.write (Elt F) ((Memref.whole cc0_scratch4 : Memref sig .tc .vmem S7x2x128x512 .bf16).access (Rect.unit (s := S7x2x128x512) ![6, 0, 0, 0] S1x2x128x512.size inb_S7x2x128x512_S1x2x128x512_6_0_0_0)) fs6
              (k0_pay232 v1205) Finset.univ) i = SS c i)
    (hRS6 : ssSlot6.view.read (Elt F) (SS c) = rsSlot6.view.read (Elt F) (RS (fwd c 1))) :
    iprop((cellInv ER (sched XG SS RS) (K (c, 22)) (rsSCell c 6) ∗ cellInv ER (sched XG SS RS) (K (fwd c 1, 29)) (rsRCell (fwd c 1) 6))
        ∗ (reached ER (rsSCell c 6) 0 ∗ reached ER (rsRCell (fwd c 1) 6) 0)
        ∗ (dutyTok ER (rsSCell c 6) 0 0 ∗ dutyTok ER (rsRCell (fwd c 1) 6) 0 0)
        ∗ (ssSlot6.view.loc (c : Thread nD τ) ↦[ssSlot6.view.set]{fullShare} fs6)
        ∗ (rsSlot6.view.loc ((fwd c 1 : Dev nD) : Thread nD τ) ↦[rsSlot6.view.set]{fullShare} fd6)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs) W
        ∗ (View.loc (c : Thread nD τ) (Memref.whole cc0_scratch1 : Memref sig .tc .vmem S2x1024x512 .bf16).view ↦{fullShare} fq)
        ∗ (View.loc (c : Thread nD τ) (Memref.whole cc0_scratch2 : Memref sig .tc .vmem S2x1024x512 .bf16).view ↦{fullShare} fk)
        ∗ (View.loc (c : Thread nD τ) (Memref.whole cc0_scratch3 : Memref sig .tc .vmem S2x1024x512 .bf16).view ↦{fullShare} fv))
      ⊢ wp frame (wpE (defs₀ (F := F)) 𝒱₀ (c : Thread nD τ) none) Set.univ
          (k0_part33 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0
            c v1204 v1205)
          (fun r => iprop(⌜r = ⟨k0_pay233 (View.readAt (Elt F) (Memref.whole cc0_scratch1 : Memref sig .tc .vmem S2x1024x512 .bf16).view (Rect.unit (s := S2x1024x512) ![0, 0, 0] S1x128x512.size inb_S2x1024x512_S1x128x512_0_0_0).toLoadRect fq), k0_pay234 (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk), k0_pay235 (View.readAt (Elt F) (Memref.whole cc0_scratch3 : Memref sig .tc .vmem S2x1024x512 .bf16).view (Rect.unit (s := S2x1024x512) ![0, 0, 0] S1x1024x512.size inb_S2x1024x512_S1x1024x512_0_0_0).toLoadRect fv),
              k0_pay237 (View.readAt (Elt F) (Memref.whole cc0_scratch1 : Memref sig .tc .vmem S2x1024x512 .bf16).view (Rect.unit (s := S2x1024x512) ![0, 0, 0] S1x128x512.size inb_S2x1024x512_S1x128x512_0_0_0).toLoadRect fq) (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk),
              k0_pay238 (View.readAt (Elt F) (Memref.whole cc0_scratch1 : Memref sig .tc .vmem S2x1024x512 .bf16).view (Rect.unit (s := S2x1024x512) ![0, 0, 0] S1x128x512.size inb_S2x1024x512_S1x128x512_0_0_0).toLoadRect fq) (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk) (View.readAt (Elt F) (Memref.whole cc0_scratch3 : Memref sig .tc .vmem S2x1024x512 .bf16).view (Rect.unit (s := S2x1024x512) ![0, 0, 0] S1x1024x512.size inb_S2x1024x512_S1x1024x512_0_0_0).toLoadRect fv),
              k0_pay239 (View.readAt (Elt F) (Memref.whole cc0_scratch1 : Memref sig .tc .vmem S2x1024x512 .bf16).view (Rect.unit (s := S2x1024x512) ![0, 0, 0] S1x128x512.size inb_S2x1024x512_S1x128x512_0_0_0).toLoadRect fq), k0_pay240 (View.readAt (Elt F) (Memref.whole cc0_scratch2 : Memref sig .tc .vmem S2x1024x512 .bf16).view (Rect.unit (s := S2x1024x512) ![0, 0, 0] S1x1024x512.size inb_S2x1024x512_S1x1024x512_0_0_0).toLoadRect fk), constant S128x1024 .f32 0x00000000#32⟩⌝
            ∗ cred (tallyAt (rsSCell c 6) () Nrs)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W
            ∗ (View.loc (c : Thread nD τ) (Memref.whole cc0_scratch1 : Memref sig .tc .vmem S2x1024x512 .bf16).view ↦{fullShare} fq)
            ∗ (View.loc (c : Thread nD τ) (Memref.whole cc0_scratch2 : Memref sig .tc .vmem S2x1024x512 .bf16).view ↦{fullShare} fk)
            ∗ (View.loc (c : Thread nD τ) (Memref.whole cc0_scratch3 : Memref sig .tc .vmem S2x1024x512 .bf16).view ↦{fullShare} fv))) := by
  iintro ⟨⟨#I0, #I1⟩, ⟨#R0, #R1⟩, ⟨TS6, TR6⟩, Hs6, Hd6, HO, Hq, Hk, Hv⟩
  sl_exec (disch := simp only [dev21_eq])
  sl_unfold_run_names
  ihave Hs6' := (Entails.of_eq (slot_congr (F := F) c fullShare ssSlot6 hss6)) $$ Hs6
  have hd₁ : (0 : DD) ∈ (sched (F := F) XG SS RS).duties (((c : Dev nD) : Thread nD τ), SemLoc.dma rsS6) 0 := by
    rw [show ((((c : Dev nD) : Thread nD τ), SemLoc.dma rsS6) : GSem nD τ sig) = rsSCell c 6 from rfl, duties_rsS]; exact Finset.mem_singleton_self _
  have hd₂ : (0 : DD) ∈ (sched (F := F) XG SS RS).duties (((fwd c 1 : Dev nD) : Thread nD τ), SemLoc.dma rsR6) 0 := by
    rw [show ((((fwd c 1 : Dev nD) : Thread nD τ), SemLoc.dma rsR6) : GSem nD τ sig) = rsRCell (fwd c 1) 6 from rfl, duties_rsR]; exact Finset.mem_singleton_self _
  have hk₁ : (sched (F := F) XG SS RS).amount (((c : Dev nD) : Thread nD τ), SemLoc.dma rsS6) 0 0 = Nrs := amount_rsS XG SS RS c 6 0
  have hk₂ : (sched (F := F) XG SS RS).amount (((fwd c 1 : Dev nD) : Thread nD τ), SemLoc.dma rsR6) 0 0 = Nrs := amount_rsR XG SS RS (fwd c 1) 6 0
  have hpay₁ : (ssSlot6.view.loc (c : Thread nD τ) ↦[ssSlot6.view.set]{fullShare} SS c : sProp 𝕄)
      ⊢ (sched (F := F) XG SS RS).payload (((c : Dev nD) : Thread nD τ), SemLoc.dma rsS6) 0 0 := by
    rw [show ((((c : Dev nD) : Thread nD τ), SemLoc.dma rsS6) : GSem nD τ sig) = rsSCell c 6 from rfl, payload_rsS_6]
  have hpay₂ : (rsSlot6.view.loc ((fwd c 1 : Dev nD) : Thread nD τ) ↦[rsSlot6.view.set]{fullShare}
        (rsSlot6.view.write (Elt F) fd6 (ssSlot6.view.read (Elt F) (SS c)) Finset.univ) : sProp 𝕄)
      ⊢ (sched (F := F) XG SS RS).payload (((fwd c 1 : Dev nD) : Thread nD τ), SemLoc.dma rsR6) 0 0 := by
    rw [show ((((fwd c 1 : Dev nD) : Thread nD τ), SemLoc.dma rsR6) : GSem nD τ sig) = rsRCell (fwd c 1) 6 from rfl, payload_rsR_6,
      landing_pointsTo (F := F) (fwd c 1) fullShare rsSlot6 fd6 (RS (fwd c 1)) _ hRS6]
  iapply (Rounds.wp_send_pointsTo (Ix := Unit) 𝒱₀ ER (sched (F := F) XG SS RS) (c : Thread nD τ) none
      (c' := ((fwd c 1 : Dev nD) : Thread nD τ)) (src := ssSlot6) (dst := rsSlot6) (q := fullShare) (fs := SS c) (fd := fd6)
      (κ₁ := K (c, 22)) (κ₂ := K (fwd c 1, 29)) hd₁ hd₂ () () Nrs rfl hk₁ hk₂
      (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) rfl (W := W) hpay₁ hpay₂) $$ [Hs6' Hd6 HO TS6 TR6]
  · sl_close
  iintro ⟨Hcr6, HO⟩
  sl_exec
  sl_unfold_run_names
  sl_step
  sl_close

end Cert.KernelIdealProof

end
-- ==== Proof.BodyMid2.lean ====
/-
  The body from its twenty-fourth part through its thirty-third: the first pass's result is stacked and stored, slot by
  slot, into the send buffer and the second pass computed, while the seven copies of the partial rows go out; then the
  third pass's first rows are loaded.

  What a store into a slot of the send buffer leaves there is its payload, index by index; the send buffer's named
  contents are, on slot `k`, that payload at the loaded vectors; and the receive buffer's named contents on slot `k` of a
  device are the send buffer's of the device `k + 1` places after it. So each stored slot agrees with the named contents,
  and each copy lands what the receiver's table names.
-/
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
import proofs.«900761_g7700000000000762_dist_attn_self_mha_htp_ss_b2_sq128_skv128_d512_hq8_dh64_v7x_i8_bf16_1_alg».proof.Proof.BodyP24
import proofs.«900761_g7700000000000762_dist_attn_self_mha_htp_ss_b2_sq128_skv128_d512_hq8_dh64_v7x_i8_bf16_1_alg».proof.Proof.BodyP25
import proofs.«900761_g7700000000000762_dist_attn_self_mha_htp_ss_b2_sq128_skv128_d512_hq8_dh64_v7x_i8_bf16_1_alg».proof.Proof.BodyP26
import proofs.«900761_g7700000000000762_dist_attn_self_mha_htp_ss_b2_sq128_skv128_d512_hq8_dh64_v7x_i8_bf16_1_alg».proof.Proof.BodyP27
import proofs.«900761_g7700000000000762_dist_attn_self_mha_htp_ss_b2_sq128_skv128_d512_hq8_dh64_v7x_i8_bf16_1_alg».proof.Proof.BodyP28
import proofs.«900761_g7700000000000762_dist_attn_self_mha_htp_ss_b2_sq128_skv128_d512_hq8_dh64_v7x_i8_bf16_1_alg».proof.Proof.BodyP29
import proofs.«900761_g7700000000000762_dist_attn_self_mha_htp_ss_b2_sq128_skv128_d512_hq8_dh64_v7x_i8_bf16_1_alg».proof.Proof.BodyP30
import proofs.«900761_g7700000000000762_dist_attn_self_mha_htp_ss_b2_sq128_skv128_d512_hq8_dh64_v7x_i8_bf16_1_alg».proof.Proof.BodyP31
import proofs.«900761_g7700000000000762_dist_attn_self_mha_htp_ss_b2_sq128_skv128_d512_hq8_dh64_v7x_i8_bf16_1_alg».proof.Proof.BodyP32
import proofs.«900761_g7700000000000762_dist_attn_self_mha_htp_ss_b2_sq128_skv128_d512_hq8_dh64_v7x_i8_bf16_1_alg».proof.Proof.BodyP33
set_option maxRecDepth 16384
noncomputable section
namespace Cert.KernelIdealProof
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
variable {F : FTy → Type} [FloatOps F]
local notation "𝕄" => MT nD τ sig Unit (Elt F) ℕ UU ℕ
variable (XG : (cc0_scratch0 : Ref sig .tc).ty.Contents (Elt F))
variable (K : Dev nD × Fin 30 → ℕ)
variable (m : (ℓ : Loc nD τ sig) → Buf (Elt F) ℓ)

/-! ## What a store into a slot of the send buffer leaves -/

set_option maxHeartbeats 1000000 in
omit [FloatOps F] in
/-- An unmasked store of `p` through the rectangle of leading coordinate `k` of the send buffer leaves, at an element of
    that rectangle, `p` at the element's other three coordinates. -/
theorem ss_store_at (k : ℕ) (h : ∀ a, (![k, 0, 0, 0] : Fin 4 → ℕ) a + S1x2x128x512.size a ≤ S7x2x128x512.size a)
    (f : (cc0_scratch4 : Ref sig .tc).ty.Contents (Elt F)) (p : S1x2x128x512.Idx → Elt F .bf16) (i : S7x2x128x512.Idx)
    (hi : i ∈ (lead7 k h).set) :
    View.write (Elt F) ((Memref.whole cc0_scratch4 : Memref sig .tc .vmem S7x2x128x512 .bf16).access (Rect.unit (s := S7x2x128x512) ![k, 0, 0, 0] S1x2x128x512.size h)) f p Finset.univ i
      = p (ix4 0 (i 1) (i 2) (i 3)) := by
  obtain ⟨y, rfl⟩ := (lead7 k h).exists_idx_of_mem hi
  have e := View.write_emb_of_mem (v := ((Memref.whole cc0_scratch4 : Memref sig .tc .vmem S7x2x128x512 .bf16).access (Rect.unit (s := S7x2x128x512) ![k, 0, 0, 0] S1x2x128x512.size h)))
    (Val := Elt F) f p (Finset.mem_univ y)
  refine e.trans ?_
  show p y = _
  congr 1
  funext a
  refine Fin.ext ?_
  have h0 : (y 0).val = 0 := by have := (y 0).isLt; simp at this; omega
  fin_cases a
  · simpa using h0
  · show (y 1).val = ((lead7 k h).emb y 1).val; rw [Rect.emb_apply]; simp
  · show (y 2).val = ((lead7 k h).emb y 2).val; rw [Rect.emb_apply]; simp
  · show (y 3).val = ((lead7 k h).emb y 3).val; rw [Rect.emb_apply]; simp

/-! ## The named contents of the send buffer, slot by slot -/

theorem SSdef_slot0 (c : Dev nD) (i : S7x2x128x512.Idx) (hi : (i 0).val = 0) :
    SSdef m c i = Cert.ValPass1.slot0 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) (ix4 0 (i 1) (i 2) (i 3)) := by
  unfold SSdef
  rw [show (⟨(i 0).val, (i 0).isLt⟩ : Fin 7) = 0 from Fin.ext hi]
theorem SSdef_slot1 (c : Dev nD) (i : S7x2x128x512.Idx) (hi : (i 0).val = 1) :
    SSdef m c i = Cert.ValPass1.slot1 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) (ix4 0 (i 1) (i 2) (i 3)) := by
  unfold SSdef
  rw [show (⟨(i 0).val, (i 0).isLt⟩ : Fin 7) = 1 from Fin.ext hi]
theorem SSdef_slot2 (c : Dev nD) (i : S7x2x128x512.Idx) (hi : (i 0).val = 2) :
    SSdef m c i = Cert.ValPass1.slot2 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) (ix4 0 (i 1) (i 2) (i 3)) := by
  unfold SSdef
  rw [show (⟨(i 0).val, (i 0).isLt⟩ : Fin 7) = 2 from Fin.ext hi]
theorem SSdef_slot3 (c : Dev nD) (i : S7x2x128x512.Idx) (hi : (i 0).val = 3) :
    SSdef m c i = Cert.ValPass1.slot3 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c) (ix4 0 (i 1) (i 2) (i 3)) := by
  unfold SSdef
  rw [show (⟨(i 0).val, (i 0).isLt⟩ : Fin 7) = 3 from Fin.ext hi]
theorem SSdef_slot4 (c : Dev nD) (i : S7x2x128x512.Idx) (hi : (i 0).val = 4) :
    SSdef m c i = Cert.ValPass2.Slot4 (WOv m c) (ld_v940 m c) (ld_v942 m c) (ld_v944 m c) (ld_v1026 m c) (ld_v1028 m c) (ld_v1030 m c) (ix4 0 (i 1) (i 2) (i 3)) := by
  unfold SSdef
  rw [show (⟨(i 0).val, (i 0).isLt⟩ : Fin 7) = 4 from Fin.ext hi]
theorem SSdef_slot5 (c : Dev nD) (i : S7x2x128x512.Idx) (hi : (i 0).val = 5) :
    SSdef m c i = Cert.ValPass2.Slot5 (WOv m c) (ld_v940 m c) (ld_v942 m c) (ld_v944 m c) (ld_v1026 m c) (ld_v1028 m c) (ld_v1030 m c) (ix4 0 (i 1) (i 2) (i 3)) := by
  unfold SSdef
  rw [show (⟨(i 0).val, (i 0).isLt⟩ : Fin 7) = 5 from Fin.ext hi]
theorem SSdef_slot6 (c : Dev nD) (i : S7x2x128x512.Idx) (hi : (i 0).val = 6) :
    SSdef m c i = Cert.ValPass2.Slot6 (WOv m c) (ld_v940 m c) (ld_v942 m c) (ld_v944 m c) (ld_v1026 m c) (ld_v1028 m c) (ld_v1030 m c) (ix4 0 (i 1) (i 2) (i 3)) := by
  unfold SSdef
  rw [show (⟨(i 0).val, (i 0).isLt⟩ : Fin 7) = 6 from Fin.ext hi]

/-- The stored slot 0 agrees with the named contents. -/
theorem hss0 (c : Dev nD) (f : (cc0_scratch4 : Ref sig .tc).ty.Contents (Elt F)) :
    ∀ i ∈ ssSlot0.view.set, View.write (Elt F) ((Memref.whole cc0_scratch4 : Memref sig .tc .vmem S7x2x128x512 .bf16).access (Rect.unit (s := S7x2x128x512) ![0, 0, 0, 0] S1x2x128x512.size inb_S7x2x128x512_S1x2x128x512_0_0_0_0)) f (Cert.ValPass1.slot0 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ i = SSdef m c i := by
  intro i hi
  rw [ssSlot0_set] at hi
  exact (ss_store_at 0 inb_S7x2x128x512_S1x2x128x512_0_0_0_0 f _ i hi).trans (SSdef_slot0 m c i (mem_lead7.mp hi)).symm
/-- The stored slot 1 agrees with the named contents. -/
theorem hss1 (c : Dev nD) (f : (cc0_scratch4 : Ref sig .tc).ty.Contents (Elt F)) :
    ∀ i ∈ ssSlot1.view.set, View.write (Elt F) ((Memref.whole cc0_scratch4 : Memref sig .tc .vmem S7x2x128x512 .bf16).access (Rect.unit (s := S7x2x128x512) ![1, 0, 0, 0] S1x2x128x512.size inb_S7x2x128x512_S1x2x128x512_1_0_0_0)) f (Cert.ValPass1.slot1 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ i = SSdef m c i := by
  intro i hi
  rw [ssSlot1_set] at hi
  exact (ss_store_at 1 inb_S7x2x128x512_S1x2x128x512_1_0_0_0 f _ i hi).trans (SSdef_slot1 m c i (mem_lead7.mp hi)).symm
/-- The stored slot 2 agrees with the named contents. -/
theorem hss2 (c : Dev nD) (f : (cc0_scratch4 : Ref sig .tc).ty.Contents (Elt F)) :
    ∀ i ∈ ssSlot2.view.set, View.write (Elt F) ((Memref.whole cc0_scratch4 : Memref sig .tc .vmem S7x2x128x512 .bf16).access (Rect.unit (s := S7x2x128x512) ![2, 0, 0, 0] S1x2x128x512.size inb_S7x2x128x512_S1x2x128x512_2_0_0_0)) f (Cert.ValPass1.slot2 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ i = SSdef m c i := by
  intro i hi
  rw [ssSlot2_set] at hi
  exact (ss_store_at 2 inb_S7x2x128x512_S1x2x128x512_2_0_0_0 f _ i hi).trans (SSdef_slot2 m c i (mem_lead7.mp hi)).symm
/-- The stored slot 3 agrees with the named contents. -/
theorem hss3 (c : Dev nD) (f : (cc0_scratch4 : Ref sig .tc).ty.Contents (Elt F)) :
    ∀ i ∈ ssSlot3.view.set, View.write (Elt F) ((Memref.whole cc0_scratch4 : Memref sig .tc .vmem S7x2x128x512 .bf16).access (Rect.unit (s := S7x2x128x512) ![3, 0, 0, 0] S1x2x128x512.size inb_S7x2x128x512_S1x2x128x512_3_0_0_0)) f (Cert.ValPass1.slot3 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ i = SSdef m c i := by
  intro i hi
  rw [ssSlot3_set] at hi
  exact (ss_store_at 3 inb_S7x2x128x512_S1x2x128x512_3_0_0_0 f _ i hi).trans (SSdef_slot3 m c i (mem_lead7.mp hi)).symm
/-- The stored slot 4 agrees with the named contents. -/
theorem hss4 (c : Dev nD) (f : (cc0_scratch4 : Ref sig .tc).ty.Contents (Elt F)) :
    ∀ i ∈ ssSlot4.view.set, View.write (Elt F) ((Memref.whole cc0_scratch4 : Memref sig .tc .vmem S7x2x128x512 .bf16).access (Rect.unit (s := S7x2x128x512) ![4, 0, 0, 0] S1x2x128x512.size inb_S7x2x128x512_S1x2x128x512_4_0_0_0)) f (Cert.ValPass2.Slot4 (WOv m c) (ld_v940 m c) (ld_v942 m c) (ld_v944 m c) (ld_v1026 m c) (ld_v1028 m c) (ld_v1030 m c)) Finset.univ i = SSdef m c i := by
  intro i hi
  rw [ssSlot4_set] at hi
  exact (ss_store_at 4 inb_S7x2x128x512_S1x2x128x512_4_0_0_0 f _ i hi).trans (SSdef_slot4 m c i (mem_lead7.mp hi)).symm
/-- The stored slot 5 agrees with the named contents. -/
theorem hss5 (c : Dev nD) (f : (cc0_scratch4 : Ref sig .tc).ty.Contents (Elt F)) :
    ∀ i ∈ ssSlot5.view.set, View.write (Elt F) ((Memref.whole cc0_scratch4 : Memref sig .tc .vmem S7x2x128x512 .bf16).access (Rect.unit (s := S7x2x128x512) ![5, 0, 0, 0] S1x2x128x512.size inb_S7x2x128x512_S1x2x128x512_5_0_0_0)) f (Cert.ValPass2.Slot5 (WOv m c) (ld_v940 m c) (ld_v942 m c) (ld_v944 m c) (ld_v1026 m c) (ld_v1028 m c) (ld_v1030 m c)) Finset.univ i = SSdef m c i := by
  intro i hi
  rw [ssSlot5_set] at hi
  exact (ss_store_at 5 inb_S7x2x128x512_S1x2x128x512_5_0_0_0 f _ i hi).trans (SSdef_slot5 m c i (mem_lead7.mp hi)).symm
/-- The stored slot 6 agrees with the named contents. -/
theorem hss6 (c : Dev nD) (f : (cc0_scratch4 : Ref sig .tc).ty.Contents (Elt F)) :
    ∀ i ∈ ssSlot6.view.set, View.write (Elt F) ((Memref.whole cc0_scratch4 : Memref sig .tc .vmem S7x2x128x512 .bf16).access (Rect.unit (s := S7x2x128x512) ![6, 0, 0, 0] S1x2x128x512.size inb_S7x2x128x512_S1x2x128x512_6_0_0_0)) f (Cert.ValPass2.Slot6 (WOv m c) (ld_v940 m c) (ld_v942 m c) (ld_v944 m c) (ld_v1026 m c) (ld_v1028 m c) (ld_v1030 m c)) Finset.univ i = SSdef m c i := by
  intro i hi
  rw [ssSlot6_set] at hi
  exact (ss_store_at 6 inb_S7x2x128x512_S1x2x128x512_6_0_0_0 f _ i hi).trans (SSdef_slot6 m c i (mem_lead7.mp hi)).symm

/-! ## The receive buffer's named contents are the sender's -/

theorem hRS0 (c : Dev nD) : ssSlot0.view.read (Elt F) (SSdef m c) = rsSlot0.view.read (Elt F) (RSdef m (fwd c 7)) := by
  funext y
  have hy : ssSlot0.view.emb y ∈ (lead7 0 inb_S7x2x128x512_S1x2x128x512_0_0_0_0).set := ssSlot0_set ▸ ssSlot0.view.emb_mem_set y
  have h0 : ((ssSlot0.view.emb y) 0).val = 0 := mem_lead7.mp hy
  show (SSdef m c (ssSlot0.view.emb y) : Elt F .bf16) = SSdef m (fwd (fwd c 7) (((ssSlot0.view.emb y) 0).val + 1)) (ssSlot0.view.emb y)
  rw [h0, fwd_fwd, fwd_eight]
theorem hRS1 (c : Dev nD) : ssSlot1.view.read (Elt F) (SSdef m c) = rsSlot1.view.read (Elt F) (RSdef m (fwd c 6)) := by
  funext y
  have hy : ssSlot1.view.emb y ∈ (lead7 1 inb_S7x2x128x512_S1x2x128x512_1_0_0_0).set := ssSlot1_set ▸ ssSlot1.view.emb_mem_set y
  have h0 : ((ssSlot1.view.emb y) 0).val = 1 := mem_lead7.mp hy
  show (SSdef m c (ssSlot1.view.emb y) : Elt F .bf16) = SSdef m (fwd (fwd c 6) (((ssSlot1.view.emb y) 0).val + 1)) (ssSlot1.view.emb y)
  rw [h0, fwd_fwd, fwd_eight]
theorem hRS2 (c : Dev nD) : ssSlot2.view.read (Elt F) (SSdef m c) = rsSlot2.view.read (Elt F) (RSdef m (fwd c 5)) := by
  funext y
  have hy : ssSlot2.view.emb y ∈ (lead7 2 inb_S7x2x128x512_S1x2x128x512_2_0_0_0).set := ssSlot2_set ▸ ssSlot2.view.emb_mem_set y
  have h0 : ((ssSlot2.view.emb y) 0).val = 2 := mem_lead7.mp hy
  show (SSdef m c (ssSlot2.view.emb y) : Elt F .bf16) = SSdef m (fwd (fwd c 5) (((ssSlot2.view.emb y) 0).val + 1)) (ssSlot2.view.emb y)
  rw [h0, fwd_fwd, fwd_eight]
theorem hRS3 (c : Dev nD) : ssSlot3.view.read (Elt F) (SSdef m c) = rsSlot3.view.read (Elt F) (RSdef m (fwd c 4)) := by
  funext y
  have hy : ssSlot3.view.emb y ∈ (lead7 3 inb_S7x2x128x512_S1x2x128x512_3_0_0_0).set := ssSlot3_set ▸ ssSlot3.view.emb_mem_set y
  have h0 : ((ssSlot3.view.emb y) 0).val = 3 := mem_lead7.mp hy
  show (SSdef m c (ssSlot3.view.emb y) : Elt F .bf16) = SSdef m (fwd (fwd c 4) (((ssSlot3.view.emb y) 0).val + 1)) (ssSlot3.view.emb y)
  rw [h0, fwd_fwd, fwd_eight]
theorem hRS4 (c : Dev nD) : ssSlot4.view.read (Elt F) (SSdef m c) = rsSlot4.view.read (Elt F) (RSdef m (fwd c 3)) := by
  funext y
  have hy : ssSlot4.view.emb y ∈ (lead7 4 inb_S7x2x128x512_S1x2x128x512_4_0_0_0).set := ssSlot4_set ▸ ssSlot4.view.emb_mem_set y
  have h0 : ((ssSlot4.view.emb y) 0).val = 4 := mem_lead7.mp hy
  show (SSdef m c (ssSlot4.view.emb y) : Elt F .bf16) = SSdef m (fwd (fwd c 3) (((ssSlot4.view.emb y) 0).val + 1)) (ssSlot4.view.emb y)
  rw [h0, fwd_fwd, fwd_eight]
theorem hRS5 (c : Dev nD) : ssSlot5.view.read (Elt F) (SSdef m c) = rsSlot5.view.read (Elt F) (RSdef m (fwd c 2)) := by
  funext y
  have hy : ssSlot5.view.emb y ∈ (lead7 5 inb_S7x2x128x512_S1x2x128x512_5_0_0_0).set := ssSlot5_set ▸ ssSlot5.view.emb_mem_set y
  have h0 : ((ssSlot5.view.emb y) 0).val = 5 := mem_lead7.mp hy
  show (SSdef m c (ssSlot5.view.emb y) : Elt F .bf16) = SSdef m (fwd (fwd c 2) (((ssSlot5.view.emb y) 0).val + 1)) (ssSlot5.view.emb y)
  rw [h0, fwd_fwd, fwd_eight]
theorem hRS6 (c : Dev nD) : ssSlot6.view.read (Elt F) (SSdef m c) = rsSlot6.view.read (Elt F) (RSdef m (fwd c 1)) := by
  funext y
  have hy : ssSlot6.view.emb y ∈ (lead7 6 inb_S7x2x128x512_S1x2x128x512_6_0_0_0).set := ssSlot6_set ▸ ssSlot6.view.emb_mem_set y
  have h0 : ((ssSlot6.view.emb y) 0).val = 6 := mem_lead7.mp hy
  show (SSdef m c (ssSlot6.view.emb y) : Elt F .bf16) = SSdef m (fwd (fwd c 1) (((ssSlot6.view.emb y) 0).val + 1)) (ssSlot6.view.emb y)
  rw [h0, fwd_fwd, fwd_eight]

/-- The body from its twenty-fourth part through its thirty-third, over what the twenty-third returns; it returns the
    words the later parts read and what the thirty-third part returns. -/
def bodyMid2 (c : Dev nD) (v2 : BitVec 32) (v137 : FVec F S512x512 .bf16) (v841 : FVec F S512x512 .f32)
    (v844 v847 v850 v853 v856 v859 v862 v865 : FVec F S512x64 .bf16) :
    Prog (TpuEff nD τ sig (Elt F) Λ₀ .tc) (Σ' (v874 : BitVec 32) (v891 : BitVec 32) (v908 : BitVec 32) (v925 : BitVec 32) (v1170 : BitVec 32) (v1187 : BitVec 32) (v1204 : BitVec 32) (v1220 : FVec F S128x512 .bf16) (v1222 : FVec F S1024x512 .bf16) (v1224 : FVec F S1024x512 .bf16) (v1232 : FVec F S128x1 .f32) (v1234 : FVec F S128x64 .f32) (v1235 : FVec F S128x64 .bf16) (v1236 : FVec F S1024x64 .bf16), FVec F S128x1024 .f32) := do
  let ⟨v871, v874, v891⟩ : Σ' (v871 : FVec F S2x512x512 .bf16) (v874 : BitVec 32), BitVec 32 ← k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v137 v841 v844 v847 v850 v853 v856 v859 v862 v865
  let v908 : BitVec 32 ← k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v871 v891
  let ⟨v925, v941, v943, v945, v950⟩ : Σ' (v925 : BitVec 32) (v941 : FVec F S384x512 .bf16) (v943 : FVec F S1024x512 .bf16) (v945 : FVec F S1024x512 .bf16), FVec F S384x1024 .bf16 ← k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v871
  let ⟨v953, v955, v963, v965, v973, v975, v983, v985, v993, v995, v996⟩ : Σ' (v953 : FVec F S384x1 .f32) (v955 : FVec F S384x64 .f32) (v963 : FVec F S384x1 .f32) (v965 : FVec F S384x64 .f32) (v973 : FVec F S384x1 .f32) (v975 : FVec F S384x64 .f32) (v983 : FVec F S384x1 .f32) (v985 : FVec F S384x64 .f32) (v993 : FVec F S384x1 .f32) (v995 : FVec F S384x64 .f32), FVec F S384x64 .bf16 ← k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v941 v943 v945 v950
  let ⟨v1003, v1005, v1013, v1015, v1023, v1025, v1027, v1029, v1031, v1036, v1037⟩ : Σ' (v1003 : FVec F S384x1 .f32) (v1005 : FVec F S384x64 .f32) (v1013 : FVec F S384x1 .f32) (v1015 : FVec F S384x64 .f32) (v1023 : FVec F S384x1 .f32) (v1025 : FVec F S384x64 .f32) (v1027 : FVec F S384x512 .bf16) (v1029 : FVec F S1024x512 .bf16) (v1031 : FVec F S1024x512 .bf16) (v1036 : FVec F S384x1024 .bf16), FVec F S384x1024 .f32 ← k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v941 v943 v945 v996
  let ⟨v1039, v1041, v1049, v1051, v1059, v1061, v1069, v1071, v1079, v1081, v1082, v1083⟩ : Σ' (v1039 : FVec F S384x1 .f32) (v1041 : FVec F S384x64 .f32) (v1049 : FVec F S384x1 .f32) (v1051 : FVec F S384x64 .f32) (v1059 : FVec F S384x1 .f32) (v1061 : FVec F S384x64 .f32) (v1069 : FVec F S384x1 .f32) (v1071 : FVec F S384x64 .f32) (v1079 : FVec F S384x1 .f32) (v1081 : FVec F S384x64 .f32) (v1082 : FVec F S384x64 .bf16), FVec F S1024x64 .bf16 ← k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1027 v1029 v1031 v1036 v1037
  let ⟨v1089, v1091, v1099, v1101, v1109, v1111, v1114, v1117, v1120, v1123, v1126, v1129, v1132, v1134⟩ : Σ' (v1089 : FVec F S384x1 .f32) (v1091 : FVec F S384x64 .f32) (v1099 : FVec F S384x1 .f32) (v1101 : FVec F S384x64 .f32) (v1109 : FVec F S384x1 .f32) (v1111 : FVec F S384x64 .f32) (v1114 : FVec F S384x64 .bf16) (v1117 : FVec F S384x64 .bf16) (v1120 : FVec F S384x64 .bf16) (v1123 : FVec F S384x64 .bf16) (v1126 : FVec F S384x64 .bf16) (v1129 : FVec F S384x64 .bf16) (v1132 : FVec F S384x64 .bf16), FVec F S384x64 .f32 ← k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v953 v955 v963 v965 v973 v975 v983 v985 v993 v995 v1003 v1005 v1013 v1015 v1023 v1025 v1027 v1029 v1031 v1082 v1083
  let ⟨v1167, v1170⟩ : Σ' (v1167 : FVec F S2x384x512 .bf16), BitVec 32 ← k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v2 v137 v1039 v1041 v1049 v1051 v1059 v1061 v1069 v1071 v1079 v1081 v1089 v1091 v1099 v1101 v1109 v1111 v1114 v1117 v1120 v1123 v1126 v1129 v1132 v1134
  let ⟨v1187, v1204, v1205⟩ : Σ' (v1187 : BitVec 32) (v1204 : BitVec 32), FVec F S2x128x512 .bf16 ← k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v2 v1167
  let r33 : Σ' (v1220 : FVec F S128x512 .bf16) (v1222 : FVec F S1024x512 .bf16) (v1224 : FVec F S1024x512 .bf16) (v1232 : FVec F S128x1 .f32) (v1234 : FVec F S128x64 .f32) (v1235 : FVec F S128x64 .bf16) (v1236 : FVec F S1024x64 .bf16), FVec F S128x1024 .f32 ← k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 c v1204 v1205
  pure ⟨v874, v891, v908, v925, v1170, v1187, v1204, r33⟩

set_option maxHeartbeats 8000000 in
/-- The stretch run: the seven copies of the partial rows leave with what the send buffer is named to hold, the receivers'
    tallies come off what the device owes, and the third pass starts from its first loaded rows. -/
theorem mid2_run (c : Dev nD) (W : Waits sig Unit) (v2 : BitVec 32) (fs : Buf (Elt F) ((c : Thread nD τ).loc cc0_scratch4)) :
    iprop(((cellInv ER (sched XG (SSdef m) (RSdef m)) (K (c, 16)) (rsSCell c 0) ∗ cellInv ER (sched XG (SSdef m) (RSdef m)) (K (fwd c 7, 23)) (rsRCell (fwd c 7) 0)) ∗ (reached ER (rsSCell c 0) 0 ∗ reached ER (rsRCell (fwd c 7) 0) 0) ∗ (dutyTok ER (rsSCell c 0) 0 0 ∗ dutyTok ER (rsRCell (fwd c 7) 0) 0 0) ∗ (∃ f, rsSlot0.view.loc ((fwd c 7 : Dev nD) : Thread nD τ) ↦[rsSlot0.view.set]{fullShare} f))
        ∗ ((cellInv ER (sched XG (SSdef m) (RSdef m)) (K (c, 17)) (rsSCell c 1) ∗ cellInv ER (sched XG (SSdef m) (RSdef m)) (K (fwd c 6, 24)) (rsRCell (fwd c 6) 1)) ∗ (reached ER (rsSCell c 1) 0 ∗ reached ER (rsRCell (fwd c 6) 1) 0) ∗ (dutyTok ER (rsSCell c 1) 0 0 ∗ dutyTok ER (rsRCell (fwd c 6) 1) 0 0) ∗ (∃ f, rsSlot1.view.loc ((fwd c 6 : Dev nD) : Thread nD τ) ↦[rsSlot1.view.set]{fullShare} f))
        ∗ ((cellInv ER (sched XG (SSdef m) (RSdef m)) (K (c, 18)) (rsSCell c 2) ∗ cellInv ER (sched XG (SSdef m) (RSdef m)) (K (fwd c 5, 25)) (rsRCell (fwd c 5) 2)) ∗ (reached ER (rsSCell c 2) 0 ∗ reached ER (rsRCell (fwd c 5) 2) 0) ∗ (dutyTok ER (rsSCell c 2) 0 0 ∗ dutyTok ER (rsRCell (fwd c 5) 2) 0 0) ∗ (∃ f, rsSlot2.view.loc ((fwd c 5 : Dev nD) : Thread nD τ) ↦[rsSlot2.view.set]{fullShare} f))
        ∗ ((cellInv ER (sched XG (SSdef m) (RSdef m)) (K (c, 19)) (rsSCell c 3) ∗ cellInv ER (sched XG (SSdef m) (RSdef m)) (K (fwd c 4, 26)) (rsRCell (fwd c 4) 3)) ∗ (reached ER (rsSCell c 3) 0 ∗ reached ER (rsRCell (fwd c 4) 3) 0) ∗ (dutyTok ER (rsSCell c 3) 0 0 ∗ dutyTok ER (rsRCell (fwd c 4) 3) 0 0) ∗ (∃ f, rsSlot3.view.loc ((fwd c 4 : Dev nD) : Thread nD τ) ↦[rsSlot3.view.set]{fullShare} f))
        ∗ ((cellInv ER (sched XG (SSdef m) (RSdef m)) (K (c, 20)) (rsSCell c 4) ∗ cellInv ER (sched XG (SSdef m) (RSdef m)) (K (fwd c 3, 27)) (rsRCell (fwd c 3) 4)) ∗ (reached ER (rsSCell c 4) 0 ∗ reached ER (rsRCell (fwd c 3) 4) 0) ∗ (dutyTok ER (rsSCell c 4) 0 0 ∗ dutyTok ER (rsRCell (fwd c 3) 4) 0 0) ∗ (∃ f, rsSlot4.view.loc ((fwd c 3 : Dev nD) : Thread nD τ) ↦[rsSlot4.view.set]{fullShare} f))
        ∗ ((cellInv ER (sched XG (SSdef m) (RSdef m)) (K (c, 21)) (rsSCell c 5) ∗ cellInv ER (sched XG (SSdef m) (RSdef m)) (K (fwd c 2, 28)) (rsRCell (fwd c 2) 5)) ∗ (reached ER (rsSCell c 5) 0 ∗ reached ER (rsRCell (fwd c 2) 5) 0) ∗ (dutyTok ER (rsSCell c 5) 0 0 ∗ dutyTok ER (rsRCell (fwd c 2) 5) 0 0) ∗ (∃ f, rsSlot5.view.loc ((fwd c 2 : Dev nD) : Thread nD τ) ↦[rsSlot5.view.set]{fullShare} f))
        ∗ ((cellInv ER (sched XG (SSdef m) (RSdef m)) (K (c, 22)) (rsSCell c 6) ∗ cellInv ER (sched XG (SSdef m) (RSdef m)) (K (fwd c 1, 29)) (rsRCell (fwd c 1) 6)) ∗ (reached ER (rsSCell c 6) 0 ∗ reached ER (rsRCell (fwd c 1) 6) 0) ∗ (dutyTok ER (rsSCell c 6) 0 0 ∗ dutyTok ER (rsRCell (fwd c 1) 6) 0 0) ∗ (∃ f, rsSlot6.view.loc ((fwd c 1 : Dev nD) : Thread nD τ) ↦[rsSlot6.view.set]{fullShare} f))
        ∗ ((ssSlot0.view.loc (c : Thread nD τ) ↦[ssSlot0.view.set]{fullShare} fs) ∗ (ssSlot1.view.loc (c : Thread nD τ) ↦[ssSlot1.view.set]{fullShare} fs) ∗ (ssSlot2.view.loc (c : Thread nD τ) ↦[ssSlot2.view.set]{fullShare} fs) ∗ (ssSlot3.view.loc (c : Thread nD τ) ↦[ssSlot3.view.set]{fullShare} fs) ∗ (ssSlot4.view.loc (c : Thread nD τ) ↦[ssSlot4.view.set]{fullShare} fs) ∗ (ssSlot5.view.loc (c : Thread nD τ) ↦[ssSlot5.view.set]{fullShare} fs) ∗ (ssSlot6.view.loc (c : Thread nD τ) ↦[ssSlot6.view.set]{fullShare} fs))
        ∗ ((Memref.whole cc0_scratch1).view.loc (c : Thread nD τ) ↦{fullShare} Qbuf m c) ∗ ((Memref.whole cc0_scratch2).view.loc (c : Thread nD τ) ↦{fullShare} Kbuf m c) ∗ ((Memref.whole cc0_scratch3).view.loc (c : Thread nD τ) ↦{fullShare} Vbuf m c)
        ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1 + tallyAt (rsRCell (fwd c 1) 6) () Nrs + tallyAt (rsRCell (fwd c 2) 5) () Nrs + tallyAt (rsRCell (fwd c 3) 4) () Nrs + tallyAt (rsRCell (fwd c 4) 3) () Nrs + tallyAt (rsRCell (fwd c 5) 2) () Nrs + tallyAt (rsRCell (fwd c 6) 1) () Nrs + tallyAt (rsRCell (fwd c 7) 0) () Nrs) W)
      ⊢ wp frame (wpE (defs₀ (F := F)) 𝒱₀ (c : Thread nD τ) none) Set.univ
          (bodyMid2 (F := F) c v2 (WOv m c) (Cert.ValPass1.x841 (WOv m c) (ld_v323 m c) (ld_v325 m c) (ld_v327 m c) (ld_v612 m c) (ld_v614 m c) (ld_v616 m c)) (Cert.ValPass1.x844 (ld_v409 m c) (ld_v411 m c) (ld_v413 m c) (ld_v714 m c) (ld_v716 m c) (ld_v718 m c)) (Cert.ValPass1.x847 (ld_v409 m c) (ld_v411 m c) (ld_v413 m c) (ld_v714 m c) (ld_v716 m c) (ld_v718 m c)) (Cert.ValPass1.x850 (ld_v409 m c) (ld_v411 m c) (ld_v413 m c) (ld_v714 m c) (ld_v716 m c) (ld_v718 m c)) (Cert.ValPass1.x853 (ld_v409 m c) (ld_v411 m c) (ld_v413 m c) (ld_v714 m c) (ld_v716 m c) (ld_v718 m c)) (Cert.ValPass1.x856 (ld_v409 m c) (ld_v411 m c) (ld_v413 m c) (ld_v714 m c) (ld_v716 m c) (ld_v718 m c)) (Cert.ValPass1.x859 (ld_v409 m c) (ld_v411 m c) (ld_v413 m c) (ld_v714 m c) (ld_v716 m c) (ld_v718 m c)) (Cert.ValPass1.x862 (ld_v409 m c) (ld_v411 m c) (ld_v413 m c) (ld_v714 m c) (ld_v716 m c) (ld_v718 m c)) (Cert.ValPass1.x865 (ld_v409 m c) (ld_v411 m c) (ld_v413 m c) (ld_v714 m c) (ld_v716 m c) (ld_v718 m c)))
          (fun r => iprop(⌜r = ⟨Scalar.remsi (Scalar.addi (Scalar.subi v2 1#32) 8#32) 8#32, Scalar.remsi (Scalar.addi (Scalar.subi v2 2#32) 8#32) 8#32, Scalar.remsi (Scalar.addi (Scalar.subi v2 3#32) 8#32) 8#32, Scalar.remsi (Scalar.addi (Scalar.subi v2 4#32) 8#32) 8#32, Scalar.remsi (Scalar.addi (Scalar.subi v2 5#32) 8#32) 8#32, Scalar.remsi (Scalar.addi (Scalar.subi v2 6#32) 8#32) 8#32, Scalar.remsi (Scalar.addi (Scalar.subi v2 7#32) 8#32) 8#32,
                k0_pay233 (ld_v1219 m c), k0_pay234 (ld_v1221 m c), k0_pay235 (ld_v1223 m c), k0_pay237 (ld_v1219 m c) (ld_v1221 m c),
                k0_pay238 (ld_v1219 m c) (ld_v1221 m c) (ld_v1223 m c), k0_pay239 (ld_v1219 m c), k0_pay240 (ld_v1221 m c), constant S128x1024 .f32 0x00000000#32⟩⌝
            ∗ (cred (tallyAt (rsSCell c 0) () Nrs) ∗ cred (tallyAt (rsSCell c 1) () Nrs) ∗ cred (tallyAt (rsSCell c 2) () Nrs) ∗ cred (tallyAt (rsSCell c 3) () Nrs) ∗ cred (tallyAt (rsSCell c 4) () Nrs) ∗ cred (tallyAt (rsSCell c 5) () Nrs) ∗ cred (tallyAt (rsSCell c 6) () Nrs))
            ∗ ((Memref.whole cc0_scratch1).view.loc (c : Thread nD τ) ↦{fullShare} Qbuf m c) ∗ ((Memref.whole cc0_scratch2).view.loc (c : Thread nD τ) ↦{fullShare} Kbuf m c) ∗ ((Memref.whole cc0_scratch3).view.loc (c : Thread nD τ) ↦{fullShare} Vbuf m c)
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)) := by
  unfold bodyMid2
  iintro ⟨⟨⟨#A0, #B0⟩, ⟨#RA0, #RB0⟩, ⟨TA0, TB0⟩, ⟨%fd0, D0⟩⟩, ⟨⟨#A1, #B1⟩, ⟨#RA1, #RB1⟩, ⟨TA1, TB1⟩, ⟨%fd1, D1⟩⟩, ⟨⟨#A2, #B2⟩, ⟨#RA2, #RB2⟩, ⟨TA2, TB2⟩, ⟨%fd2, D2⟩⟩, ⟨⟨#A3, #B3⟩, ⟨#RA3, #RB3⟩, ⟨TA3, TB3⟩, ⟨%fd3, D3⟩⟩, ⟨⟨#A4, #B4⟩, ⟨#RA4, #RB4⟩, ⟨TA4, TB4⟩, ⟨%fd4, D4⟩⟩, ⟨⟨#A5, #B5⟩, ⟨#RA5, #RB5⟩, ⟨TA5, TB5⟩, ⟨%fd5, D5⟩⟩, ⟨⟨#A6, #B6⟩, ⟨#RA6, #RB6⟩, ⟨TA6, TB6⟩, ⟨%fd6, D6⟩⟩, ⟨S0, S1, S2, S3, S4, S5, S6⟩, HQ, HK, HV, HO⟩
  -- part 24: slot 0 stored and sent, slot 1 stored
  iapply (wp_seq c (part24_run XG (SSdef m) (RSdef m) K c W v2 _ _ _ _ _ _ _ _ _ _ fs fs fd0 (hss0 m c fs) (hRS0 m c)))
  isplitl [TA0 TB0 S0 S1 D0 HO]
  · isplitr
    · isplitr; · iexact A0
      iexact B0
    isplitr
    · isplitr; · iexact RA0
      iexact RB0
    isplitl [TA0 TB0]
    · isplitl [TA0]; · iexact TA0
      iexact TB0
    isplitl [S0]; · iexact S0
    isplitl [S1]; · iexact S1
    isplitl [D0]; · iexact D0
    iexact HO
  iintro %r24 ⟨%h24, C0, S1, HO⟩; subst h24
  -- part 25: slot 1 sent, slot 2 stored
  iapply (wp_seq c (part25_run XG (SSdef m) (RSdef m) K c W v2 _ _ (View.write (Elt F) ((Memref.whole cc0_scratch4 : Memref sig .tc .vmem S7x2x128x512 .bf16).access (Rect.unit (s := S7x2x128x512) ![1, 0, 0, 0] S1x2x128x512.size inb_S7x2x128x512_S1x2x128x512_1_0_0_0)) fs (Cert.ValPass1.slot1 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ) fs fd1 (hss1 m c fs) (hRS1 m c)))
  isplitl [TA1 TB1 S1 S2 D1 HO]
  · isplitr
    · isplitr; · iexact A1
      iexact B1
    isplitr
    · isplitr; · iexact RA1
      iexact RB1
    isplitl [TA1 TB1]
    · isplitl [TA1]; · iexact TA1
      iexact TB1
    isplitl [S1]; · iexact S1
    isplitl [S2]; · iexact S2
    isplitl [D1]; · iexact D1
    iexact HO
  iintro %r25 ⟨%h25, C1, S2, HO⟩; subst h25
  -- part 26: slot 2 sent, slot 3 stored and sent, the second pass's first rows loaded
  iapply (wp_seq c (part26_run XG (SSdef m) (RSdef m) K c W v2 _ (View.write (Elt F) ((Memref.whole cc0_scratch4 : Memref sig .tc .vmem S7x2x128x512 .bf16).access (Rect.unit (s := S7x2x128x512) ![2, 0, 0, 0] S1x2x128x512.size inb_S7x2x128x512_S1x2x128x512_2_0_0_0)) fs (Cert.ValPass1.slot2 (WOv m c) (ld_v323 m c) (ld_v325 m c) (ld_v327 m c) (ld_v409 m c) (ld_v411 m c) (ld_v413 m c) (ld_v612 m c) (ld_v614 m c) (ld_v616 m c) (ld_v714 m c) (ld_v716 m c) (ld_v718 m c)) Finset.univ) fs fd2 fd3 (Qbuf m c) (Kbuf m c) (Vbuf m c) (hss2 m c fs) (hss3 m c fs) (hRS2 m c) (hRS3 m c)))
  isplitl [TA2 TB2 TA3 TB3 S2 S3 D2 D3 HQ HK HV HO]
  · isplitr
    · isplitr; · iexact A2
      isplitr; · iexact B2
      isplitr; · iexact A3
      iexact B3
    isplitr
    · isplitr; · iexact RA2
      isplitr; · iexact RB2
      isplitr; · iexact RA3
      iexact RB3
    isplitl [TA2 TB2 TA3 TB3]
    · isplitl [TA2]; · iexact TA2
      isplitl [TB2]; · iexact TB2
      isplitl [TA3]; · iexact TA3
      iexact TB3
    isplitl [S2]; · iexact S2
    isplitl [S3]; · iexact S3
    isplitl [D2]; · iexact D2
    isplitl [D3]; · iexact D3
    isplitl [HQ]; · iexact HQ
    isplitl [HK]; · iexact HK
    isplitl [HV]; · iexact HV
    iexact HO
  iintro %r26 ⟨%h26, C2, C3, HQ, HK, HV, HO⟩; subst h26
  -- part 27: computes only
  iapply (wp_seq c (part27_run c _ _ _ _))
  isplitr; · iempintro
  iintro %r27 %h27; subst h27
  -- part 28: the second batch's rows loaded
  iapply (wp_seq c (part28_run c _ _ _ _ (Qbuf m c) (Kbuf m c) (Vbuf m c)))
  isplitl [HQ HK HV]
  · isplitl [HQ]; · iexact HQ
    isplitl [HK]; · iexact HK
    iexact HV
  iintro %r28 ⟨%h28, HQ, HK, HV⟩; subst h28
  -- parts 29, 30: compute only
  iapply (wp_seq c (part29_run c _ _ _ _ _))
  isplitr; · iempintro
  iintro %r29 %h29; subst h29
  iapply (wp_seq c (part30_run c _ _ _ _ _ _ _ _ _ _ _ _ _ _ _ _ _ _ _ _ _))
  isplitr; · iempintro
  iintro %r30 %h30; subst h30
  -- part 31: slot 4 stored
  iapply (wp_seq c (part31_run c W v2 _ _ _ _ _ _ _ _ _ _ _ _ _ _ _ _ _ _ _ _ _ _ _ _ _ fs))
  isplitl [S4]; · iexact S4
  iintro %r31 ⟨%h31, S4⟩; subst h31
  -- part 32: slot 4 sent, slot 5 stored and sent
  iapply (wp_seq c (part32_run XG (SSdef m) (RSdef m) K c W v2 _ (View.write (Elt F) ((Memref.whole cc0_scratch4 : Memref sig .tc .vmem S7x2x128x512 .bf16).access (Rect.unit (s := S7x2x128x512) ![4, 0, 0, 0] S1x2x128x512.size inb_S7x2x128x512_S1x2x128x512_4_0_0_0)) fs (Cert.ValPass2.Slot4 (WOv m c) (ld_v940 m c) (ld_v942 m c) (ld_v944 m c) (ld_v1026 m c) (ld_v1028 m c) (ld_v1030 m c)) Finset.univ) fs fd4 fd5 (hss4 m c fs) (hss5 m c fs) (hRS4 m c) (hRS5 m c)))
  isplitl [TA4 TB4 TA5 TB5 S4 S5 D4 D5 HO]
  · isplitr
    · isplitr; · iexact A4
      isplitr; · iexact B4
      isplitr; · iexact A5
      iexact B5
    isplitr
    · isplitr; · iexact RA4
      isplitr; · iexact RB4
      isplitr; · iexact RA5
      iexact RB5
    isplitl [TA4 TB4 TA5 TB5]
    · isplitl [TA4]; · iexact TA4
      isplitl [TB4]; · iexact TB4
      isplitl [TA5]; · iexact TA5
      iexact TB5
    isplitl [S4]; · iexact S4
    isplitl [S5]; · iexact S5
    isplitl [D4]; · iexact D4
    isplitl [D5]; · iexact D5
    iexact HO
  iintro %r32 ⟨%h32, C4, C5, HO⟩; subst h32
  -- part 33: slot 6 stored and sent, the third pass's first rows loaded
  iapply (wp_seq c (part33_run XG (SSdef m) (RSdef m) K c W _ _ fs fd6 (Qbuf m c) (Kbuf m c) (Vbuf m c) (hss6 m c fs) (hRS6 m c)))
  isplitl [TA6 TB6 S6 D6 HO HQ HK HV]
  · isplitr
    · isplitr; · iexact A6
      iexact B6
    isplitr
    · isplitr; · iexact RA6
      iexact RB6
    isplitl [TA6 TB6]
    · isplitl [TA6]; · iexact TA6
      iexact TB6
    isplitl [S6]; · iexact S6
    isplitl [D6]; · iexact D6
    isplitl [HO]; · iexact HO
    isplitl [HQ]; · iexact HQ
    isplitl [HK]; · iexact HK
    iexact HV
  iintro %r33 ⟨%h33, C6, HO, HQ, HK, HV⟩; subst h33
  sl_step
  isplitr; · ipureintro; rfl
  isplitl [C0 C1 C2 C3 C4 C5 C6]
  · isplitl [C0]; · iexact C0
    isplitl [C1]; · iexact C1
    isplitl [C2]; · iexact C2
    isplitl [C3]; · iexact C3
    isplitl [C4]; · iexact C4
    isplitl [C5]; · iexact C5
    iexact C6
  isplitl [HQ]; · iexact HQ
  isplitl [HK]; · iexact HK
  isplitl [HV]; · iexact HV
  iexact HO

end Cert.KernelIdealProof
end
-- ==== Proof.BodyP34.lean ====
/-
  Part 34 of the body computes only: for the third pass's first batch, heads 1 to 4 (row sums and weighted values), head
  5's exponentials and row sums, and head 5's value columns.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part34_run (c : Dev nD) (v1220 : FVec F S128x512 .bf16) (v1222 v1224 : FVec F S1024x512 .bf16) (v1235 : FVec F S128x64 .bf16) (v1236 : FVec F S1024x64 .bf16)
    (cst_658 : FVec F S128x1024 .f32) :
    (iprop(emp) : sProp 𝕄)
      ⊢ wp frame (wpE (defs₀ (F := F)) 𝒱₀ (c : Thread nD τ) none) Set.univ (k0_part34 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1220 v1222 v1224 v1235 v1236 cst_658)
          (fun r => iprop(⌜r = ⟨k0_pay242 v1235 v1236 cst_658, k0_pay243 v1224 v1235 v1236 cst_658, k0_pay245 v1220 v1222, k0_pay246 v1220 v1222 v1224,
            k0_pay248 v1220 v1222, k0_pay249 v1220 v1222 v1224, k0_pay251 v1220 v1222, k0_pay252 v1220 v1222 v1224, k0_pay253 v1220 v1222,
            k0_pay254 v1220 v1222, k0_pay255 v1224⟩⌝)) := by
  iintro _
  sl_exec
  sl_step
  ipureintro; rfl

end Cert.KernelIdealProof

end
-- ==== Proof.BodyP35.lean ====
/-
  Part 35 of the body: the third pass's first batch's heads 5 to 7 (weighted values and row sums), then the loads of the
  second batch's query rows 0 … 127 and of all its key and value rows, that batch's first head (row sums and weighted
  values) and its second head's scores. The three scratch buffers are read whole and left as they are.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 1000000 in
theorem part35_run (c : Dev nD) (v1220 : FVec F S128x512 .bf16) (v1222 v1224 : FVec F S1024x512 .bf16) (v1279 : FVec F S128x1024 .bf16)
    (v1283 : FVec F S1024x64 .bf16)
    (fq : Buf (Elt F) ((c : Thread nD τ).loc cc0_scratch1)) (fk : Buf (Elt F) ((c : Thread nD τ).loc cc0_scratch2))
    (fv : Buf (Elt F) ((c : Thread nD τ).loc cc0_scratch3)) :
    (iprop(((Memref.whole cc0_scratch1).view.loc (c : Thread nD τ) ↦{fullShare} fq) ∗ ((Memref.whole cc0_scratch2).view.loc (c : Thread nD τ) ↦{fullShare} fk)
        ∗ ((Memref.whole cc0_scratch3).view.loc (c : Thread nD τ) ↦{fullShare} fv)) : sProp 𝕄)
      ⊢ wp frame (wpE (defs₀ (F := F)) 𝒱₀ (c : Thread nD τ) none) Set.univ (k0_part35 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1220 v1222 v1224 v1279 v1283)
          (fun r => iprop(⌜r = ⟨k0_pay256 v1279 v1283, k0_pay258 v1220 v1222, k0_pay259 v1220 v1222 v1224, k0_pay261 v1220 v1222,
              k0_pay262 v1220 v1222 v1224,
              k0_pay263 (View.readAt (Elt F) (Memref.whole cc0_scratch1).view (Rect.unit (s := S2x1024x512) ![1, 0, 0] S1x128x512.size inb_S2x1024x512_S1x128x512_1_0_0).toLoadRect fq),
              k0_pay264 (View.readAt (Elt F) (Memref.whole cc0_scratch2).view (Rect.unit (s := S2x1024x512) ![1, 0, 0] S1x1024x512.size inb_S2x1024x512_S1x1024x512_1_0_0).toLoadRect fk),
              k0_pay265 (View.readAt (Elt F) (Memref.whole cc0_scratch3).view (Rect.unit (s := S2x1024x512) ![1, 0, 0] S1x1024x512.size inb_S2x1024x512_S1x1024x512_1_0_0).toLoadRect fv),
              k0_pay267 (View.readAt (Elt F) (Memref.whole cc0_scratch1).view (Rect.unit (s := S2x1024x512) ![1, 0, 0] S1x128x512.size inb_S2x1024x512_S1x128x512_1_0_0).toLoadRect fq)
                (View.readAt (Elt F) (Memref.whole cc0_scratch2).view (Rect.unit (s := S2x1024x512) ![1, 0, 0] S1x1024x512.size inb_S2x1024x512_S1x1024x512_1_0_0).toLoadRect fk),
              k0_pay268 (View.readAt (Elt F) (Memref.whole cc0_scratch1).view (Rect.unit (s := S2x1024x512) ![1, 0, 0] S1x128x512.size inb_S2x1024x512_S1x128x512_1_0_0).toLoadRect fq)
                (View.readAt (Elt F) (Memref.whole cc0_scratch2).view (Rect.unit (s := S2x1024x512) ![1, 0, 0] S1x1024x512.size inb_S2x1024x512_S1x1024x512_1_0_0).toLoadRect fk)
                (View.readAt (Elt F) (Memref.whole cc0_scratch3).view (Rect.unit (s := S2x1024x512) ![1, 0, 0] S1x1024x512.size inb_S2x1024x512_S1x1024x512_1_0_0).toLoadRect fv),
              k0_pay269 (View.readAt (Elt F) (Memref.whole cc0_scratch1).view (Rect.unit (s := S2x1024x512) ![1, 0, 0] S1x128x512.size inb_S2x1024x512_S1x128x512_1_0_0).toLoadRect fq)
                (View.readAt (Elt F) (Memref.whole cc0_scratch2).view (Rect.unit (s := S2x1024x512) ![1, 0, 0] S1x1024x512.size inb_S2x1024x512_S1x1024x512_1_0_0).toLoadRect fk)⟩⌝
            ∗ ((Memref.whole cc0_scratch1).view.loc (c : Thread nD τ) ↦{fullShare} fq) ∗ ((Memref.whole cc0_scratch2).view.loc (c : Thread nD τ) ↦{fullShare} fk)
            ∗ ((Memref.whole cc0_scratch3).view.loc (c : Thread nD τ) ↦{fullShare} fv))) := by
  iintro ⟨HQ, HK, HV⟩
  sl_exec
  sl_step
  isplitr; · ipureintro; rfl
  isplitl [HQ]; · iexact HQ
  isplitl [HK]; · iexact HK
  iexact HV

end Cert.KernelIdealProof

end
-- ==== Proof.BodyP36.lean ====
/-
  Part 36 of the body computes only: for the third pass's second batch, heads 1 to 4 (row sums and weighted values), head
  5's exponentials and row sums, head 5's value columns, and a zero accumulator.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part36_run (c : Dev nD) (v1306 : FVec F S128x512 .bf16) (v1308 v1310 : FVec F S1024x512 .bf16) (v1323 : FVec F S128x1024 .f32) :
    (iprop(emp) : sProp 𝕄)
      ⊢ wp frame (wpE (defs₀ (F := F)) 𝒱₀ (c : Thread nD τ) none) Set.univ (k0_part36 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1306 v1308 v1310 v1323)
          (fun r => iprop(⌜r = ⟨k0_pay271 v1323, k0_pay272 v1310 v1323, k0_pay274 v1306 v1308, k0_pay275 v1306 v1308 v1310, k0_pay277 v1306 v1308,
            k0_pay278 v1306 v1308 v1310, k0_pay280 v1306 v1308, k0_pay281 v1306 v1308 v1310, k0_pay282 v1306 v1308, k0_pay283 v1306 v1308,
            k0_pay284 v1310, constant S128x64 .f32 0x00000000#32⟩⌝)) := by
  iintro _
  sl_exec
  sl_step
  ipureintro; rfl

end Cert.KernelIdealProof

end
-- ==== Proof.BodyP37.lean ====
/-
  Part 37 of the body computes only: the third pass's second batch's heads 5 to 7, the first batch's attention rows
  (each head divided by its row sums, the heads side by side) times the output projection's block, and the second batch's
  first two heads divided by their row sums.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem part37_run (c : Dev nD) (v137 : FVec F S512x512 .bf16) (v1232 : FVec F S128x1 .f32) (v1234 : FVec F S128x64 .f32) (v1242 : FVec F S128x1 .f32)
    (v1244 : FVec F S128x64 .f32) (v1252 : FVec F S128x1 .f32) (v1254 : FVec F S128x64 .f32) (v1262 : FVec F S128x1 .f32)
    (v1264 : FVec F S128x64 .f32) (v1272 : FVec F S128x1 .f32) (v1274 : FVec F S128x64 .f32) (v1282 : FVec F S128x1 .f32)
    (v1284 : FVec F S128x64 .f32) (v1292 : FVec F S128x1 .f32) (v1294 : FVec F S128x64 .f32) (v1302 : FVec F S128x1 .f32)
    (v1304 : FVec F S128x64 .f32) (v1306 : FVec F S128x512 .bf16) (v1308 v1310 : FVec F S1024x512 .bf16) (v1318 : FVec F S128x1 .f32)
    (v1320 : FVec F S128x64 .f32) (v1328 : FVec F S128x1 .f32) (v1330 : FVec F S128x64 .f32) (v1365 : FVec F S128x1024 .bf16)
    (v1369 : FVec F S1024x64 .bf16) (cst_705 : FVec F S128x64 .f32) :
    (iprop(emp) : sProp 𝕄)
      ⊢ wp frame (wpE (defs₀ (F := F)) 𝒱₀ (c : Thread nD τ) none) Set.univ (k0_part37 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v137 v1232 v1234 v1242 v1244 v1252 v1254 v1262 v1264 v1272 v1274 v1282 v1284 v1292 v1294 v1302 v1304 v1306 v1308 v1310 v1318 v1320 v1328 v1330 v1365 v1369 cst_705)
          (fun r => iprop(⌜r = ⟨k0_pay285 v1365 v1369 cst_705, k0_pay287 v1306 v1308, k0_pay288 v1306 v1308 v1310, k0_pay290 v1306 v1308, k0_pay291 v1306 v1308 v1310,
            k0_pay292 v137 v1232 v1234 v1242 v1244 v1252 v1254 v1262 v1264 v1272 v1274 v1282 v1284 v1292 v1294 v1302 v1304,
            k0_pay293 v1318 v1320, k0_pay294 v1328 v1330⟩⌝)) := by
  iintro _
  sl_exec
  sl_step
  ipureintro; rfl

end Cert.KernelIdealProof

end
-- ==== Proof.BodyP38.lean ====
/-
  Part 38 of the body: the last heads of the third pass's second batch are divided by their row sums and multiplied by the
  output projection's block, the two batches are stacked, and the device waits for the first partial result sent to it
  (receive wait 0, which others pay): the wait hands over slot 0 of the receive buffer at the schedule's contents, the
  slot is loaded and added. The part returns the accumulator and a constant word.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

theorem rest_rsR0' (c : Dev nD) : bigSep ((sched (F := F) XG SS RS).duties (rsRCell c 0) 0) (fun d => (sched (F := F) XG SS RS).payload (rsRCell c 0) 0 d) =
    (rsSlot0.view.loc (c : Thread nD τ) ↦[rsSlot0.view.set]{fullShare} RS c) := by
  rw [duties_rsR, bigSep_singleton, payload_rsR_0]

attribute [local sl_rounds] duties_rsR amount_rsR expect_rsR

set_option maxHeartbeats 4000000 in
theorem part38_run (c : Dev nD) (W : Waits sig Unit) (v137 : FVec F S512x512 .bf16) (v874 : BitVec 32) (v1338 : FVec F S128x1 .f32) (v1340 : FVec F S128x64 .f32) (v1348 : FVec F S128x1 .f32)
    (v1350 : FVec F S128x64 .f32) (v1358 : FVec F S128x1 .f32) (v1360 : FVec F S128x64 .f32) (v1368 : FVec F S128x1 .f32)
    (v1370 : FVec F S128x64 .f32) (v1378 : FVec F S128x1 .f32) (v1380 : FVec F S128x64 .f32) (v1388 : FVec F S128x1 .f32)
    (v1390 : FVec F S128x64 .f32) (v1416 : FVec F S128x512 .f32) (v1419 v1422 : FVec F S128x64 .bf16) :
    iprop(cellInv ER (sched XG SS RS) (K (c, 23)) (rsRCell c 0) ∗ atPos ER (rsRCell c 0) 0 ∅ 0 ∗ cred (tallyAt (rsRCell c 0) () Nrs)
        ∗ levAts L lv ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part38 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v137 v874 v1338 v1340 v1348 v1350 v1358 v1360 v1368 v1370 v1378 v1380 v1388 v1390 v1416 v1419 v1422)
          (fun r => iprop(⌜r = ⟨k0_pay295 v137 v1338 v1340 v1348 v1350 v1358 v1360 v1368 v1370 v1378 v1380 v1388 v1390 v1416 v1419 v1422
                (View.readAt (Elt F) (Memref.whole cc0_scratch5).view (Rect.unit (s := S7x2x128x512) ![0, 0, 0, 0] S1x2x128x512.size inb_S7x2x128x512_S1x2x128x512_0_0_0_0).toLoadRect (RS c)), 1#32⟩⌝
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsR0, ()) W)
            ∗ atPos ER (rsRCell c 0) 1 ∅ 0 ∗ reached ER (rsRCell c 0) 1 ∗ (rsSlot0.view.loc (c : Thread nD τ) ↦[rsSlot0.view.set]{fullShare} RS c))) := by
  have hmw := mayWait_rsR (F := F) c 0
  iintro ⟨#HI, HP, HC, #HL, HO⟩
  sl_exec
  rw [rest_rsR0' XG SS RS c]
  show _ ⊢ _
  iintro ⟨⟨#HI, #HL⟩, HO, HP, HR, HS⟩
  sl_exec
  sl_step
  isplitr; · ipureintro; rfl
  isplitl [HO]; · iexact HO
  isplitl [HP]; · iexact HP
  isplitl [HR]; · iexact HR
  iexact HS

end Cert.KernelIdealProof

end
-- ==== Proof.BodyP39.lean ====
/-
  Part 39 of the body: the device waits for the second and third partial results sent to it (receive waits 1 and 2, which
  others pay); each wait hands over its slot of the receive buffer at the schedule's contents, the slot is loaded and
  added to the accumulator. The part returns the accumulator and two words.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

theorem rest_rsR1' (c : Dev nD) : bigSep ((sched (F := F) XG SS RS).duties (rsRCell c 1) 0) (fun d => (sched (F := F) XG SS RS).payload (rsRCell c 1) 0 d) =
    (rsSlot1.view.loc (c : Thread nD τ) ↦[rsSlot1.view.set]{fullShare} RS c) := by
  rw [duties_rsR, bigSep_singleton, payload_rsR_1]

theorem rest_rsR2' (c : Dev nD) : bigSep ((sched (F := F) XG SS RS).duties (rsRCell c 2) 0) (fun d => (sched (F := F) XG SS RS).payload (rsRCell c 2) 0 d) =
    (rsSlot2.view.loc (c : Thread nD τ) ↦[rsSlot2.view.set]{fullShare} RS c) := by
  rw [duties_rsR, bigSep_singleton, payload_rsR_2]

attribute [local sl_rounds] duties_rsR amount_rsR expect_rsR

set_option maxHeartbeats 4000000 in
theorem part39_run (c : Dev nD) (W : Waits sig Unit) (v891 v908 v925 : BitVec 32) (v1459 : FVec F S2x128x512 .f32) (c1_i32_734 : BitVec 32) :
    iprop((cellInv ER (sched XG SS RS) (K (c, 24)) (rsRCell c 1) ∗ atPos ER (rsRCell c 1) 0 ∅ 0 ∗ cred (tallyAt (rsRCell c 1) () Nrs))
        ∗ (cellInv ER (sched XG SS RS) (K (c, 25)) (rsRCell c 2) ∗ atPos ER (rsRCell c 2) 0 ∅ 0 ∗ cred (tallyAt (rsRCell c 2) () Nrs))
        ∗ levAts L lv ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part39 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v891 v908 v925 v1459 c1_i32_734)
          (fun r => iprop(⌜r = ⟨k0_pay296 v1459 (View.readAt (Elt F) (Memref.whole cc0_scratch5).view (Rect.unit (s := S7x2x128x512) ![1, 0, 0, 0] S1x2x128x512.size inb_S7x2x128x512_S1x2x128x512_1_0_0_0).toLoadRect (RS c))
                (View.readAt (Elt F) (Memref.whole cc0_scratch5).view (Rect.unit (s := S7x2x128x512) ![2, 0, 0, 0] S1x2x128x512.size inb_S7x2x128x512_S1x2x128x512_2_0_0_0).toLoadRect (RS c)), Scalar.muli v925 1#32, 0#32⟩⌝
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsR2, ()) (insert (SemLoc.dma rsR1, ()) W))
            ∗ (atPos ER (rsRCell c 1) 1 ∅ 0 ∗ reached ER (rsRCell c 1) 1 ∗ (rsSlot1.view.loc (c : Thread nD τ) ↦[rsSlot1.view.set]{fullShare} RS c))
            ∗ (atPos ER (rsRCell c 2) 1 ∅ 0 ∗ reached ER (rsRCell c 2) 1 ∗ (rsSlot2.view.loc (c : Thread nD τ) ↦[rsSlot2.view.set]{fullShare} RS c)))) := by
  have hmw1 := mayWait_rsR (F := F) c 1
  have hmw2 := mayWait_rsR (F := F) c 2
  iintro ⟨⟨#HI1, HP1, HC1⟩, ⟨#HI2, HP2, HC2⟩, #HL, HO⟩
  sl_exec
  rw [rest_rsR1' XG SS RS c]
  show _ ⊢ _
  iintro ⟨⟨⟨⟨⟨#HI1, #HI2⟩, HP2⟩, HC2⟩, #HL⟩, HO, HP1, HR1, HS1⟩
  sl_exec
  rw [rest_rsR2' XG SS RS c]
  show _ ⊢ _
  iintro ⟨⟨⟨⟨⟨⟨#HI1, #HI2⟩, #HL⟩, HP1⟩, HR1⟩, HS1⟩, HO, HP2, HR2, HS2⟩
  sl_exec
  sl_step
  isplitr; · ipureintro; rfl
  isplitl [HO]; · iexact HO
  isplitl [HP1 HR1 HS1]
  · isplitl [HP1]; · iexact HP1
    isplitl [HR1]; · iexact HR1
    iexact HS1
  isplitl [HP2]; · iexact HP2
  isplitl [HR2]; · iexact HR2
  iexact HS2

end Cert.KernelIdealProof

end
-- ==== Proof.BodyP40.lean ====
/-
  Part 40 of the body: the device waits for the fourth and fifth partial results sent to it (receive waits 3 and 4, which
  others pay); each wait hands over its slot of the receive buffer at the schedule's contents, the slot is loaded and
  added to the accumulator, which the part returns.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

theorem rest_rsR3' (c : Dev nD) : bigSep ((sched (F := F) XG SS RS).duties (rsRCell c 3) 0) (fun d => (sched (F := F) XG SS RS).payload (rsRCell c 3) 0 d) =
    (rsSlot3.view.loc (c : Thread nD τ) ↦[rsSlot3.view.set]{fullShare} RS c) := by
  rw [duties_rsR, bigSep_singleton, payload_rsR_3]

theorem rest_rsR4' (c : Dev nD) : bigSep ((sched (F := F) XG SS RS).duties (rsRCell c 4) 0) (fun d => (sched (F := F) XG SS RS).payload (rsRCell c 4) 0 d) =
    (rsSlot4.view.loc (c : Thread nD τ) ↦[rsSlot4.view.set]{fullShare} RS c) := by
  rw [duties_rsR, bigSep_singleton, payload_rsR_4]

attribute [local sl_rounds] duties_rsR amount_rsR expect_rsR

set_option maxHeartbeats 4000000 in
theorem part40_run (c : Dev nD) (W : Waits sig Unit) (v1170 v1187 : BitVec 32) (v1483 : FVec F S2x128x512 .f32) (v1484 : BitVec 32) (c0_i32_767 : BitVec 32) :
    iprop((cellInv ER (sched XG SS RS) (K (c, 26)) (rsRCell c 3) ∗ atPos ER (rsRCell c 3) 0 ∅ 0 ∗ cred (tallyAt (rsRCell c 3) () Nrs))
        ∗ (cellInv ER (sched XG SS RS) (K (c, 27)) (rsRCell c 4) ∗ atPos ER (rsRCell c 4) 0 ∅ 0 ∗ cred (tallyAt (rsRCell c 4) () Nrs))
        ∗ levAts L lv ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W)
      ⊢ wp frame (wpE (defs₀ (F := F)) 𝒱₀ (c : Thread nD τ) none) Set.univ (k0_part40 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1170 v1187 v1483 v1484 c0_i32_767)
          (fun r => iprop(⌜r = k0_pay297 v1483 (View.readAt (Elt F) (Memref.whole cc0_scratch5).view (Rect.unit (s := S7x2x128x512) ![3, 0, 0, 0] S1x2x128x512.size inb_S7x2x128x512_S1x2x128x512_3_0_0_0).toLoadRect (RS c))
                (View.readAt (Elt F) (Memref.whole cc0_scratch5).view (Rect.unit (s := S7x2x128x512) ![4, 0, 0, 0] S1x2x128x512.size inb_S7x2x128x512_S1x2x128x512_4_0_0_0).toLoadRect (RS c))⌝
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsR4, ()) (insert (SemLoc.dma rsR3, ()) W))
            ∗ (atPos ER (rsRCell c 3) 1 ∅ 0 ∗ reached ER (rsRCell c 3) 1 ∗ (rsSlot3.view.loc (c : Thread nD τ) ↦[rsSlot3.view.set]{fullShare} RS c))
            ∗ (atPos ER (rsRCell c 4) 1 ∅ 0 ∗ reached ER (rsRCell c 4) 1 ∗ (rsSlot4.view.loc (c : Thread nD τ) ↦[rsSlot4.view.set]{fullShare} RS c)))) := by
  have hmw1 := mayWait_rsR (F := F) c 3
  have hmw2 := mayWait_rsR (F := F) c 4
  iintro ⟨⟨#HI1, HP1, HC1⟩, ⟨#HI2, HP2, HC2⟩, #HL, HO⟩
  sl_exec
  rw [rest_rsR3' XG SS RS c]
  show _ ⊢ _
  iintro ⟨⟨⟨⟨⟨#HI1, #HI2⟩, HP2⟩, HC2⟩, #HL⟩, HO, HP1, HR1, HS1⟩
  sl_exec
  rw [rest_rsR4' XG SS RS c]
  show _ ⊢ _
  iintro ⟨⟨⟨⟨⟨⟨#HI1, #HI2⟩, #HL⟩, HP1⟩, HR1⟩, HS1⟩, HO, HP2, HR2, HS2⟩
  sl_exec
  sl_step
  isplitr; · ipureintro; rfl
  isplitl [HO]; · iexact HO
  isplitl [HP1 HR1 HS1]
  · isplitl [HP1]; · iexact HP1
    isplitl [HR1]; · iexact HR1
    iexact HS1
  isplitl [HP2]; · iexact HP2
  isplitl [HR2]; · iexact HR2
  iexact HS2

end Cert.KernelIdealProof

end
-- ==== Proof.BodyP41.lean ====
/-
  Part 41 of the body: the device waits for the last two partial results sent to it (receive waits 5 and 6, which others
  pay); each wait hands over its slot of the receive buffer at the schedule's contents, the slot is loaded and added to
  the accumulator, and the sum is stored over the whole result buffer.
-/
import proofs.«900761_g7700000000000762_dist_attn_self_mha_htp_ss_b2_sq128_skv128_d512_hq8_dh64_v7x_i8_bf16_1_alg».proof.Proof.Data
import proofs.«900761_g7700000000000762_dist_attn_self_mha_htp_ss_b2_sq128_skv128_d512_hq8_dh64_v7x_i8_bf16_1_alg».proof.Proof.Tables
import proofs.«900761_g7700000000000762_dist_attn_self_mha_htp_ss_b2_sq128_skv128_d512_hq8_dh64_v7x_i8_bf16_1_alg».proof.Proof.TablesLevels
import proofs.«900761_g7700000000000762_dist_attn_self_mha_htp_ss_b2_sq128_skv128_d512_hq8_dh64_v7x_i8_bf16_1_alg».proof.Proof.Slots
import proofs.«900761_g7700000000000762_dist_attn_self_mha_htp_ss_b2_sq128_skv128_d512_hq8_dh64_v7x_i8_bf16_1_alg».proof.Proof.SlotsLand
set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (XG : (cc0_scratch0 : Ref sig .tc).ty.Contents (Elt F))
variable (SS : Dev nD → (cc0_scratch4 : Ref sig .tc).ty.Contents (Elt F)) (RS : Dev nD → (cc0_scratch5 : Ref sig .tc).ty.Contents (Elt F))
variable (K : Dev nD × Fin 30 → ℕ)

attribute [local irreducible] fwd

theorem rest_rsR5' (c : Dev nD) : bigSep ((sched (F := F) XG SS RS).duties (rsRCell c 5) 0) (fun d => (sched (F := F) XG SS RS).payload (rsRCell c 5) 0 d) =
    (rsSlot5.view.loc (c : Thread nD τ) ↦[rsSlot5.view.set]{fullShare} RS c) := by
  rw [duties_rsR, bigSep_singleton, payload_rsR_5]

theorem rest_rsR6' (c : Dev nD) : bigSep ((sched (F := F) XG SS RS).duties (rsRCell c 6) 0) (fun d => (sched (F := F) XG SS RS).payload (rsRCell c 6) 0 d) =
    (rsSlot6.view.loc (c : Thread nD τ) ↦[rsSlot6.view.set]{fullShare} RS c) := by
  rw [duties_rsR, bigSep_singleton, payload_rsR_6]

attribute [local sl_rounds] duties_rsR amount_rsR expect_rsR

set_option maxHeartbeats 4000000 in
theorem part41_run (c : Dev nD) (W : Waits sig Unit) (v1204 : BitVec 32) (v1507 : FVec F S2x128x512 .f32) (fo : Buf (Elt F) ((c : Thread nD τ).loc cc0_stg5_0)) :
    iprop((cellInv ER (sched XG SS RS) (K (c, 28)) (rsRCell c 5) ∗ atPos ER (rsRCell c 5) 0 ∅ 0 ∗ cred (tallyAt (rsRCell c 5) () Nrs))
        ∗ (cellInv ER (sched XG SS RS) (K (c, 29)) (rsRCell c 6) ∗ atPos ER (rsRCell c 6) 0 ∅ 0 ∗ cred (tallyAt (rsRCell c 6) () Nrs))
        ∗ levAts L lv ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W
        ∗ ((Memref.whole cc0_stg5_0).view.loc (c : Thread nD τ) ↦{fullShare} fo))
      ⊢ wp frame (wpE (defs₀ (F := F)) 𝒱₀ (c : Thread nD τ) none) Set.univ (k0_part41 (F := F) (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_stg4_0) (Memref.isWhole_whole _) (Memref.whole cc0_stg5_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            cc0_scratch6 cc0_scratch7 cc0_scratch8 cc0_scratch9 cc0_scoped0 v1204 v1507)
          (fun r => iprop(⌜r = PUnit.unit⌝
            ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsR6, ()) (insert (SemLoc.dma rsR5, ()) W))
            ∗ (atPos ER (rsRCell c 5) 1 ∅ 0 ∗ reached ER (rsRCell c 5) 1 ∗ (rsSlot5.view.loc (c : Thread nD τ) ↦[rsSlot5.view.set]{fullShare} RS c))
            ∗ (atPos ER (rsRCell c 6) 1 ∅ 0 ∗ reached ER (rsRCell c 6) 1 ∗ (rsSlot6.view.loc (c : Thread nD τ) ↦[rsSlot6.view.set]{fullShare} RS c))
            ∗ ((Memref.whole cc0_stg5_0).view.loc (c : Thread nD τ) ↦{fullShare}
                (Memref.whole cc0_stg5_0).view.writes (Elt F) fo
                  [⟨Rect.unit (s := S2x128x512) ![0, 0, 0] S2x128x512.size inb_S2x128x512_S2x128x512_0_0_0,
                    k0_pay298 v1507 (View.readAt (Elt F) (Memref.whole cc0_scratch5).view (Rect.unit (s := S7x2x128x512) ![5, 0, 0, 0] S1x2x128x512.size inb_S7x2x128x512_S1x2x128x512_5_0_0_0).toLoadRect (RS c))
                      (View.readAt (Elt F) (Memref.whole cc0_scratch5).view (Rect.unit (s := S7x2x128x512) ![6, 0, 0, 0] S1x2x128x512.size inb_S7x2x128x512_S1x2x128x512_6_0_0_0).toLoadRect (RS c))⟩]))) := by
  have hmw1 := mayWait_rsR (F := F) c 5
  have hmw2 := mayWait_rsR (F := F) c 6
  iintro ⟨⟨#HI1, HP1, HC1⟩, ⟨#HI2, HP2, HC2⟩, #HL, HO, HB⟩
  sl_exec
  rw [rest_rsR5' XG SS RS c]
  show _ ⊢ _
  iintro ⟨⟨⟨⟨⟨⟨#HI1, #HI2⟩, HP2⟩, HC2⟩, #HL⟩, HB⟩, HO, HP1, HR1, HS1⟩
  sl_exec
  rw [rest_rsR6' XG SS RS c]
  show _ ⊢ _
  iintro ⟨⟨⟨⟨⟨⟨⟨#HI1, #HI2⟩, #HL⟩, HB⟩, HP1⟩, HR1⟩, HS1⟩, HO, HP2, HR2, HS2⟩
  sl_exec
  sl_step
  isplitr; · ipureintro; rfl
  isplitl [HO]; · iexact HO
  isplitl [HP1 HR1 HS1]
  · isplitl [HP1]; · iexact HP1
    isplitl [HR1]; · iexact HR1
    iexact HS1
  isplitl [HP2 HR2 HS2]
  · isplitl [HP2]; · iexact HP2
    isplitl [HR2]; · iexact HR2
    iexact HS2
  iexact HB

end Cert.KernelIdealProof

end
-- ==== Proof.BodyMid3.lean ====
/-
  The last stretch of the computation as one run: parts 34 to 41 of the body, from the third pass's first batch already
  loaded to the stored result. The seven receive waits hand over the seven slots of the receive buffer at the
  schedule's contents; the result buffer ends at the third pass's output for the device's own chunk plus the seven
  received partial results.
-/
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.BodyP34
import proofs.«900761_g7700000000000762_dist_attn_self_mha_htp_ss_b2_sq128_skv128_d512_hq8_dh64_v7x_i8_bf16_1_alg».proof.Proof.BodyP35
import proofs.«900761_g7700000000000762_dist_attn_self_mha_htp_ss_b2_sq128_skv128_d512_hq8_dh64_v7x_i8_bf16_1_alg».proof.Proof.BodyP36
import proofs.«900761_g7700000000000762_dist_attn_self_mha_htp_ss_b2_sq128_skv128_d512_hq8_dh64_v7x_i8_bf16_1_alg».proof.Proof.BodyP37
import proofs.«900761_g7700000000000762_dist_attn_self_mha_htp_ss_b2_sq128_skv128_d512_hq8_dh64_v7x_i8_bf16_1_alg».proof.Proof.BodyP38
import proofs.«900761_g7700000000000762_dist_attn_self_mha_htp_ss_b2_sq128_skv128_d512_hq8_dh64_v7x_i8_bf16_1_alg».proof.Proof.BodyP39
import proofs.«900761_g7700000000000762_dist_attn_self_mha_htp_ss_b2_sq128_skv128_d512_hq8_dh64_v7x_i8_bf16_1_alg».proof.Proof.BodyP40
import proofs.«900761_g7700000000000762_dist_attn_self_mha_htp_ss_b2_sq128_skv128_d512_hq8_dh64_v7x_i8_bf16_1_alg».proof.Proof.BodyP41

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (XG : (cc0_scratch0 : Ref sig .tc).ty.Contents (Elt F))
variable (SS : Dev nD → (cc0_scratch4 : Ref sig .tc).ty.Contents (Elt F))
variable (K : Dev nD × Fin 30 → ℕ)

/-- The body from its thirty-fourth part through its forty-first, over what the thirty-third returns. -/
def bodyMid3 (v137 : FVec F S512x512 .bf16) (v874 v891 v908 v925 v1170 v1187 v1204 : BitVec 32)
    (v1220 : FVec F S128x512 .bf16) (v1222 v1224 : FVec F S1024x512 .bf16) (v1232 : FVec F S128x1 .f32) (v1234 : FVec F S128x64 .f32)
    (v1235 : FVec F S128x64 .bf16) (v1236 : FVec F S1024x64 .bf16) (cst_658 : FVec F S128x1024 .f32) :
    Prog (TpuEff nD τ sig (Elt F) Λ₀ .tc) PUnit := do
  let ⟨v1242, v1244, v1252, v1254, v1262, v1264, v1272, v1274, v1279, v1282, v1283⟩ : Σ' (v1242 : FVec F S128x1 .f32) (v1244 : FVec F S128x64 .f32) (v1252 : FVec F S128x1 .f32) (v1254 : FVec F S128x64 .f32) (v1262 : FVec F S128x1 .f32) (v1264 : FVec F S128x64 .f32) (v1272 : FVec F S128x1 .f32) (v1274 : FVec F S128x64 .f32) (v1279 : FVec F S128x1024 .bf16) (v1282 : FVec F S128x1 .f32), FVec F S1024x64 .bf16 ← k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1220 v1222 v1224 v1235 v1236 cst_658
  let ⟨v1284, v1292, v1294, v1302, v1304, v1306, v1308, v1310, v1318, v1320, v1323⟩ : Σ' (v1284 : FVec F S128x64 .f32) (v1292 : FVec F S128x1 .f32) (v1294 : FVec F S128x64 .f32) (v1302 : FVec F S128x1 .f32) (v1304 : FVec F S128x64 .f32) (v1306 : FVec F S128x512 .bf16) (v1308 : FVec F S1024x512 .bf16) (v1310 : FVec F S1024x512 .bf16) (v1318 : FVec F S128x1 .f32) (v1320 : FVec F S128x64 .f32), FVec F S128x1024 .f32 ← k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1220 v1222 v1224 v1279 v1283
  let ⟨v1328, v1330, v1338, v1340, v1348, v1350, v1358, v1360, v1365, v1368, v1369, cst_705⟩ : Σ' (v1328 : FVec F S128x1 .f32) (v1330 : FVec F S128x64 .f32) (v1338 : FVec F S128x1 .f32) (v1340 : FVec F S128x64 .f32) (v1348 : FVec F S128x1 .f32) (v1350 : FVec F S128x64 .f32) (v1358 : FVec F S128x1 .f32) (v1360 : FVec F S128x64 .f32) (v1365 : FVec F S128x1024 .bf16) (v1368 : FVec F S128x1 .f32) (v1369 : FVec F S1024x64 .bf16), FVec F S128x64 .f32 ← k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1306 v1308 v1310 v1323
  let ⟨v1370, v1378, v1380, v1388, v1390, v1416, v1419, v1422⟩ : Σ' (v1370 : FVec F S128x64 .f32) (v1378 : FVec F S128x1 .f32) (v1380 : FVec F S128x64 .f32) (v1388 : FVec F S128x1 .f32) (v1390 : FVec F S128x64 .f32) (v1416 : FVec F S128x512 .f32) (v1419 : FVec F S128x64 .bf16), FVec F S128x64 .bf16 ← k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v137 v1232 v1234 v1242 v1244 v1252 v1254 v1262 v1264 v1272 v1274 v1282 v1284 v1292 v1294 v1302 v1304 v1306 v1308 v1310 v1318 v1320 v1328 v1330 v1365 v1369 cst_705
  let ⟨v1459, c1_i32_734⟩ : Σ' (v1459 : FVec F S2x128x512 .f32), BitVec 32 ← k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v137 v874 v1338 v1340 v1348 v1350 v1358 v1360 v1368 v1370 v1378 v1380 v1388 v1390 v1416 v1419 v1422
  let ⟨v1483, v1484, c0_i32_767⟩ : Σ' (v1483 : FVec F S2x128x512 .f32) (v1484 : BitVec 32), BitVec 32 ← k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v891 v908 v925 v1459 c1_i32_734
  let v1507 : FVec F S2x128x512 .f32 ← k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1170 v1187 v1483 v1484 c0_i32_767
  k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scoped0 v1204 v1507

/-- One store over the whole of a whole buffer leaves its payload. -/
theorem writes_whole_unit_zero {Val : EltTy → Type} (b : Ref sig .tc) {off : Fin b.ty.shape.rank → Nat} (h : off = fun _ => 0)
    (inb : ∀ a, off a + b.ty.shape.size a ≤ b.ty.shape.size a) (fo : b.ty.Contents Val) (w : b.ty.shape.Idx → Val b.ty.elt) :
    (View.whole b).writes Val fo [⟨Rect.unit off b.ty.shape.size inb, w⟩] = w := by
  subst h
  funext y
  have e := View.read_writes_cons_emb (View.whole b) fo (Rect.whole b.ty.shape) w [] y
  rw [Rect.emb_whole_apply] at e
  exact e

/-- The result buffer after the whole store of a value that is the named output holds the named output. -/
theorem stg_out (c : Dev nD) (fo : Buf (Elt F) ((c : Thread nD τ).loc cc0_stg5_0)) (X : FVec F S2x128x512 .f32) (h : X = OUTdef m c) :
    (((Memref.whole cc0_stg5_0).view.loc (c : Thread nD τ) ↦{fullShare}
        (Memref.whole cc0_stg5_0).view.writes (Elt F) fo
          [⟨Rect.unit (s := S2x128x512) ![0, 0, 0] S2x128x512.size inb_S2x128x512_S2x128x512_0_0_0, X⟩]) : sProp 𝕄)
      ⊢ ((Memref.whole cc0_stg5_0).view.loc (c : Thread nD τ) ↦{fullShare} OUTdef m c) := by
  subst h
  refine BIBase.Entails.of_eq (congrArg (fun g => ((Memref.whole cc0_stg5_0).view.loc (c : Thread nD τ) ↦{fullShare} g : sProp 𝕄)) ?_)
  exact writes_whole_unit_zero (Val := Elt F) cc0_stg5_0 (funext fun a => by fin_cases a <;> rfl) _ fo _

set_option maxHeartbeats 4000000 in
/-- The last stretch, run. -/
theorem mid3_run (c : Dev nD) (W : Waits sig Unit) (v874 v891 v908 v925 v1170 v1187 v1204 : BitVec 32)
    (fo : Buf (Elt F) ((c : Thread nD τ).loc cc0_stg5_0)) :
    iprop((cellInv ER (sched XG SS (RSdef m)) (K (c, 23)) (rsRCell c 0) ∗ atPos ER (rsRCell c 0) 0 ∅ 0 ∗ cred (tallyAt (rsRCell c 0) () Nrs))
        ∗ (cellInv ER (sched XG SS (RSdef m)) (K (c, 24)) (rsRCell c 1) ∗ atPos ER (rsRCell c 1) 0 ∅ 0 ∗ cred (tallyAt (rsRCell c 1) () Nrs))
        ∗ (cellInv ER (sched XG SS (RSdef m)) (K (c, 25)) (rsRCell c 2) ∗ atPos ER (rsRCell c 2) 0 ∅ 0 ∗ cred (tallyAt (rsRCell c 2) () Nrs))
        ∗ (cellInv ER (sched XG SS (RSdef m)) (K (c, 26)) (rsRCell c 3) ∗ atPos ER (rsRCell c 3) 0 ∅ 0 ∗ cred (tallyAt (rsRCell c 3) () Nrs))
        ∗ (cellInv ER (sched XG SS (RSdef m)) (K (c, 27)) (rsRCell c 4) ∗ atPos ER (rsRCell c 4) 0 ∅ 0 ∗ cred (tallyAt (rsRCell c 4) () Nrs))
        ∗ (cellInv ER (sched XG SS (RSdef m)) (K (c, 28)) (rsRCell c 5) ∗ atPos ER (rsRCell c 5) 0 ∅ 0 ∗ cred (tallyAt (rsRCell c 5) () Nrs))
        ∗ (cellInv ER (sched XG SS (RSdef m)) (K (c, 29)) (rsRCell c 6) ∗ atPos ER (rsRCell c 6) 0 ∅ 0 ∗ cred (tallyAt (rsRCell c 6) () Nrs))
        ∗ levAts L lv ∗ owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) W
        ∗ ((Memref.whole cc0_scratch1).view.loc (c : Thread nD τ) ↦{fullShare} Qbuf m c) ∗ ((Memref.whole cc0_scratch2).view.loc (c : Thread nD τ) ↦{fullShare} Kbuf m c)
        ∗ ((Memref.whole cc0_scratch3).view.loc (c : Thread nD τ) ↦{fullShare} Vbuf m c)
        ∗ ((Memref.whole cc0_stg5_0).view.loc (c : Thread nD τ) ↦{fullShare} fo))
      ⊢ wp frame (wpE (defs₀ (F := F)) 𝒱₀ (c : Thread nD τ) none) Set.univ
          (bodyMid3 (F := F) (WOv m c) v874 v891 v908 v925 v1170 v1187 v1204 (k0_pay233 (ld_v1219 m c)) (k0_pay234 (ld_v1221 m c))
            (k0_pay235 (ld_v1223 m c)) (k0_pay237 (ld_v1219 m c) (ld_v1221 m c)) (k0_pay238 (ld_v1219 m c) (ld_v1221 m c) (ld_v1223 m c))
            (k0_pay239 (ld_v1219 m c)) (k0_pay240 (ld_v1221 m c)) (constant S128x1024 .f32 0x00000000#32))
          (fun _ => iprop(owes (c : Thread nD τ) (tallyAt (exitCell (fwd c 7)) () 1 + tallyAt (exitCell (fwd c 6)) () 1 + tallyAt (exitCell (fwd c 5)) () 1 + tallyAt (exitCell (fwd c 4)) () 1 + tallyAt (exitCell (fwd c 3)) () 1 + tallyAt (exitCell (fwd c 2)) () 1 + tallyAt (exitCell (fwd c 1)) () 1) (insert (SemLoc.dma rsR6, ()) (insert (SemLoc.dma rsR5, ()) (insert (SemLoc.dma rsR4, ()) (insert (SemLoc.dma rsR3, ()) (insert (SemLoc.dma rsR2, ()) (insert (SemLoc.dma rsR1, ()) (insert (SemLoc.dma rsR0, ()) W)))))))
            ∗ (atPos ER (rsRCell c 0) 1 ∅ 0 ∗ reached ER (rsRCell c 0) 1 ∗ (rsSlot0.view.loc (c : Thread nD τ) ↦[rsSlot0.view.set]{fullShare} RSdef m c))
            ∗ (atPos ER (rsRCell c 1) 1 ∅ 0 ∗ reached ER (rsRCell c 1) 1 ∗ (rsSlot1.view.loc (c : Thread nD τ) ↦[rsSlot1.view.set]{fullShare} RSdef m c))
            ∗ (atPos ER (rsRCell c 2) 1 ∅ 0 ∗ reached ER (rsRCell c 2) 1 ∗ (rsSlot2.view.loc (c : Thread nD τ) ↦[rsSlot2.view.set]{fullShare} RSdef m c))
            ∗ (atPos ER (rsRCell c 3) 1 ∅ 0 ∗ reached ER (rsRCell c 3) 1 ∗ (rsSlot3.view.loc (c : Thread nD τ) ↦[rsSlot3.view.set]{fullShare} RSdef m c))
            ∗ (atPos ER (rsRCell c 4) 1 ∅ 0 ∗ reached ER (rsRCell c 4) 1 ∗ (rsSlot4.view.loc (c : Thread nD τ) ↦[rsSlot4.view.set]{fullShare} RSdef m c))
            ∗ (atPos ER (rsRCell c 5) 1 ∅ 0 ∗ reached ER (rsRCell c 5) 1 ∗ (rsSlot5.view.loc (c : Thread nD τ) ↦[rsSlot5.view.set]{fullShare} RSdef m c))
            ∗ (atPos ER (rsRCell c 6) 1 ∅ 0 ∗ reached ER (rsRCell c 6) 1 ∗ (rsSlot6.view.loc (c : Thread nD τ) ↦[rsSlot6.view.set]{fullShare} RSdef m c))
            ∗ ((Memref.whole cc0_scratch1).view.loc (c : Thread nD τ) ↦{fullShare} Qbuf m c) ∗ ((Memref.whole cc0_scratch2).view.loc (c : Thread nD τ) ↦{fullShare} Kbuf m c)
        ∗ ((Memref.whole cc0_scratch3).view.loc (c : Thread nD τ) ↦{fullShare} Vbuf m c)
            ∗ ((Memref.whole cc0_stg5_0).view.loc (c : Thread nD τ) ↦{fullShare} OUTdef m c))) := by
  unfold bodyMid3
  iintro ⟨⟨#HI0, HP0, HC0⟩, ⟨#HI1, HP1, HC1⟩, ⟨#HI2, HP2, HC2⟩, ⟨#HI3, HP3, HC3⟩, ⟨#HI4, HP4, HC4⟩, ⟨#HI5, HP5, HC5⟩, ⟨#HI6, HP6, HC6⟩, #HL, HO, HQ, HK, HV, HB⟩
  -- part 34: computes only
  iapply (wp_seq c (part34_run c _ _ _ _ _ _))
  isplitr; · iempintro
  iintro %r34 %h34; subst h34
  -- part 35: the second batch's rows are loaded
  iapply (wp_seq c (part35_run c _ _ _ _ _ (Qbuf m c) (Kbuf m c) (Vbuf m c)))
  isplitl [HQ HK HV]
  · isplitl [HQ]; · iexact HQ
    isplitl [HK]; · iexact HK
    iexact HV
  iintro %r35 ⟨%h35, HQ, HK, HV⟩; subst h35
  -- part 36: computes only
  iapply (wp_seq c (part36_run c _ _ _ _))
  isplitr; · iempintro
  iintro %r36 %h36; subst h36
  -- part 37: computes only
  iapply (wp_seq c (part37_run c _ _ _ _ _ _ _ _ _ _ _ _ _ _ _ _ _ _ _ _ _ _ _ _ _ _ _))
  isplitr; · iempintro
  iintro %r37 %h37; subst h37
  -- part 38: receive wait 0, its slot loaded and added
  iapply (wp_seq c (part38_run XG SS (RSdef m) K c W _ _ _ _ _ _ _ _ _ _ _ _ _ _ _ _ _))
  isplitl [HP0 HC0 HO]
  · isplitr; · iexact HI0
    isplitl [HP0]; · iexact HP0
    isplitl [HC0]; · iexact HC0
    isplitr; · iexact HL
    iexact HO
  iintro %r38 ⟨%h38, HO, HP0, HR0, HS0⟩; subst h38
  -- part 39: receive waits 1 and 2, their slots loaded and added
  iapply (wp_seq c (part39_run XG SS (RSdef m) K c (insert (SemLoc.dma rsR0, ()) W) _ _ _ _ _))
  isplitl [HP1 HC1 HP2 HC2 HO]
  · isplitl [HP1 HC1]
    · isplitr; · iexact HI1
      isplitl [HP1]; · iexact HP1
      iexact HC1
    isplitl [HP2 HC2]
    · isplitr; · iexact HI2
      isplitl [HP2]; · iexact HP2
      iexact HC2
    isplitr; · iexact HL
    iexact HO
  iintro %r39 ⟨%h39, HO, ⟨HP1, HR1, HS1⟩, ⟨HP2, HR2, HS2⟩⟩; subst h39
  -- part 40: receive waits 3 and 4, their slots loaded and added
  iapply (wp_seq c (part40_run XG SS (RSdef m) K c (insert (SemLoc.dma rsR2, ()) (insert (SemLoc.dma rsR1, ()) (insert (SemLoc.dma rsR0, ()) W))) _ _ _ _ _))
  isplitl [HP3 HC3 HP4 HC4 HO]
  · isplitl [HP3 HC3]
    · isplitr; · iexact HI3
      isplitl [HP3]; · iexact HP3
      iexact HC3
    isplitl [HP4 HC4]
    · isplitr; · iexact HI4
      isplitl [HP4]; · iexact HP4
      iexact HC4
    isplitr; · iexact HL
    iexact HO
  iintro %r40 ⟨%h40, HO, ⟨HP3, HR3, HS3⟩, ⟨HP4, HR4, HS4⟩⟩; subst h40
  -- part 41: receive waits 5 and 6, their slots loaded and added, the sum stored
  iapply (wp_wand_r frame (wpE (defs₀ (F := F)) 𝒱₀ (c : Thread nD τ) none) Set.univ)
  isplitl [HP5 HC5 HP6 HC6 HO HB]
  · iapply (part41_run XG SS (RSdef m) K c (insert (SemLoc.dma rsR4, ()) (insert (SemLoc.dma rsR3, ()) (insert (SemLoc.dma rsR2, ()) (insert (SemLoc.dma rsR1, ()) (insert (SemLoc.dma rsR0, ()) W))))) _ _ fo)
    isplitl [HP5 HC5]
    · isplitr; · iexact HI5
      isplitl [HP5]; · iexact HP5
      iexact HC5
    isplitl [HP6 HC6]
    · isplitr; · iexact HI6
      isplitl [HP6]; · iexact HP6
      iexact HC6
    isplitr; · iexact HL
    isplitl [HO]; · iexact HO
    iexact HB
  iintro %r41 ⟨-, HO, ⟨HP5, HR5, HS5⟩, ⟨HP6, HR6, HS6⟩, HB⟩
  isplitl [HO]; · iexact HO
  isplitl [HP0 HR0 HS0]
  · isplitl [HP0]; · iexact HP0
    isplitl [HR0]; · iexact HR0
    iexact HS0
  isplitl [HP1 HR1 HS1]
  · isplitl [HP1]; · iexact HP1
    isplitl [HR1]; · iexact HR1
    iexact HS1
  isplitl [HP2 HR2 HS2]
  · isplitl [HP2]; · iexact HP2
    isplitl [HR2]; · iexact HR2
    iexact HS2
  isplitl [HP3 HR3 HS3]
  · isplitl [HP3]; · iexact HP3
    isplitl [HR3]; · iexact HR3
    iexact HS3
  isplitl [HP4 HR4 HS4]
  · isplitl [HP4]; · iexact HP4
    isplitl [HR4]; · iexact HR4
    iexact HS4
  isplitl [HP5 HR5 HS5]
  · isplitl [HP5]; · iexact HP5
    isplitl [HR5]; · iexact HR5
    iexact HS5
  isplitl [HP6 HR6 HS6]
  · isplitl [HP6]; · iexact HP6
    isplitl [HR6]; · iexact HR6
    iexact HS6
  isplitl [HQ]; · iexact HQ
  isplitl [HK]; · iexact HK
  isplitl [HV]; · iexact HV
  iapply (stg_out m c fo _ rfl)
  iexact HB

/-- info: 'Cert.KernelIdealProof.mid3_run' depends on axioms: [propext, Classical.choice, Quot.sound] -/
#guard_msgs in #print axioms mid3_run

end Cert.KernelIdealProof

end
-- ==== Proof.BodyMain.lean ====
/-
  The body of one device, composed of its parts and stretches.

  The device's ghost state is opened once: the invariants and reached-marks stay folded and are read where a part needs
  them; the positions, tokens, credit and buffers are named one by one. Each part, or stretch of parts, is then run in
  turn on what it needs, the rest framed; at the end the slotted buffers are whole again and the own cells closed.
-/
import proofs.«900761_g7700000000000762_dist_attn_self_mha_htp_ss_b2_sq128_skv128_d512_hq8_dh64_v7x_i8_bf16_1_alg».proof.Proof.BodyOblig
import proofs.«900761_g7700000000000762_dist_attn_self_mha_htp_ss_b2_sq128_skv128_d512_hq8_dh64_v7x_i8_bf16_1_alg».proof.Proof.BodyLib
import proofs.«900761_g7700000000000762_dist_attn_self_mha_htp_ss_b2_sq128_skv128_d512_hq8_dh64_v7x_i8_bf16_1_alg».proof.Proof.BodySuffix
import proofs.«900761_g7700000000000762_dist_attn_self_mha_htp_ss_b2_sq128_skv128_d512_hq8_dh64_v7x_i8_bf16_1_alg».proof.Proof.BodyFinish
import proofs.«900761_g7700000000000762_dist_attn_self_mha_htp_ss_b2_sq128_skv128_d512_hq8_dh64_v7x_i8_bf16_1_alg».proof.Proof.Contents
import proofs.«900761_g7700000000000762_dist_attn_self_mha_htp_ss_b2_sq128_skv128_d512_hq8_dh64_v7x_i8_bf16_1_alg».proof.Proof.BodyFacts
import proofs.«900761_g7700000000000762_dist_attn_self_mha_htp_ss_b2_sq128_skv128_d512_hq8_dh64_v7x_i8_bf16_1_alg».proof.Proof.BodyP01
import proofs.«900761_g7700000000000762_dist_attn_self_mha_htp_ss_b2_sq128_skv128_d512_hq8_dh64_v7x_i8_bf16_1_alg».proof.Proof.BodyP02
import proofs.«900761_g7700000000000762_dist_attn_self_mha_htp_ss_b2_sq128_skv128_d512_hq8_dh64_v7x_i8_bf16_1_alg».proof.Proof.BodyP03
import proofs.«900761_g7700000000000762_dist_attn_self_mha_htp_ss_b2_sq128_skv128_d512_hq8_dh64_v7x_i8_bf16_1_alg».proof.Proof.BodyP04
import proofs.«900761_g7700000000000762_dist_attn_self_mha_htp_ss_b2_sq128_skv128_d512_hq8_dh64_v7x_i8_bf16_1_alg».proof.Proof.BodyP05
import proofs.«900761_g7700000000000762_dist_attn_self_mha_htp_ss_b2_sq128_skv128_d512_hq8_dh64_v7x_i8_bf16_1_alg».proof.Proof.BodyMid1
import proofs.«900761_g7700000000000762_dist_attn_self_mha_htp_ss_b2_sq128_skv128_d512_hq8_dh64_v7x_i8_bf16_1_alg».proof.Proof.BodyMid2
import proofs.«900761_g7700000000000762_dist_attn_self_mha_htp_ss_b2_sq128_skv128_d512_hq8_dh64_v7x_i8_bf16_1_alg».proof.Proof.BodyMid3

set_option maxRecDepth 16384

noncomputable section

namespace Cert.KernelIdealProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 30 → ℕ)

/-! ## What the fifth part read, by name -/

theorem bm_stg1_readAt (c : Dev nD) :
    View.readAt (Elt F) (Memref.whole cc0_stg1_0 : Memref sig .tc .vmem S512x512 .f32).view
      (Rect.unit (s := S512x512) ![0, 0] S512x512.size inb_S512x512_S512x512_0_0).toLoadRect (iblk m c (1 : Fin 6) t₀) = wqv m c :=
  Memref.readAt_unit_zero (Elt F) cc0_stg1_0 (by funext a; fin_cases a <;> rfl) _ _
theorem bm_stg2_readAt (c : Dev nD) :
    View.readAt (Elt F) (Memref.whole cc0_stg2_0 : Memref sig .tc .vmem S512x512 .f32).view
      (Rect.unit (s := S512x512) ![0, 0] S512x512.size inb_S512x512_S512x512_0_0).toLoadRect (iblk m c (2 : Fin 6) t₀) = wov m c :=
  Memref.readAt_unit_zero (Elt F) cc0_stg2_0 (by funext a; fin_cases a <;> rfl) _ _
theorem bm_stg3_readAt (c : Dev nD) :
    View.readAt (Elt F) (Memref.whole cc0_stg3_0 : Memref sig .tc .vmem S512x512 .f32).view
      (Rect.unit (s := S512x512) ![0, 0] S512x512.size inb_S512x512_S512x512_0_0).toLoadRect (iblk m c (3 : Fin 6) t₀) = wkv m c :=
  Memref.readAt_unit_zero (Elt F) cc0_stg3_0 (by funext a; fin_cases a <;> rfl) _ _
theorem bm_stg4_readAt (c : Dev nD) :
    View.readAt (Elt F) (Memref.whole cc0_stg4_0 : Memref sig .tc .vmem S512x512 .f32).view
      (Rect.unit (s := S512x512) ![0, 0] S512x512.size inb_S512x512_S512x512_0_0).toLoadRect (iblk m c (4 : Fin 6) t₀) = wvv m c :=
  Memref.readAt_unit_zero (Elt F) cc0_stg4_0 (by funext a; fin_cases a <;> rfl) _ _

/-- The device's own slot of the gather buffer, loaded, is its block of x, cast. -/
theorem bm_own_slot_load (c : Dev nD) :
    View.readAt (Elt F) (Memref.whole cc0_scratch0 : Memref sig .tc .vmem S8x2x128x512 .bf16).view
      (Rect.unit (s := S8x2x128x512) (k0_off1 c) S1x2x128x512.size (k0_off1_inb c)).toLoadRect (XGdef m) = slotv m c := by
  have ho := k0_off1_eq c
  exact ldSlot_eq m (k0_off1 c) (k0_off1_inb c) c (by rw [ho]; rfl) (by rw [ho]; rfl) (by rw [ho]; rfl) (by rw [ho]; rfl)

/-- What the fifth part returns, in the names of the contents. -/
theorem r5_norm (c : Dev nD) (v2 : BitVec 32) :
    (⟨Scalar.remsi (Scalar.addi v2 7#32) 8#32,
                k0_pay2 (View.readAt (Elt F) (Memref.whole cc0_stg2_0 : Memref sig .tc .vmem S512x512 .f32).view (Rect.unit (s := S512x512) ![0, 0] S512x512.size inb_S512x512_S512x512_0_0).toLoadRect (iblk m c (2 : Fin 6) t₀)),
                k0_pay3 (View.readAt (Elt F) (Memref.whole cc0_stg1_0 : Memref sig .tc .vmem S512x512 .f32).view (Rect.unit (s := S512x512) ![0, 0] S512x512.size inb_S512x512_S512x512_0_0).toLoadRect (iblk m c (1 : Fin 6) t₀)) (View.readAt (Elt F) (Memref.whole cc0_stg3_0 : Memref sig .tc .vmem S512x512 .f32).view (Rect.unit (s := S512x512) ![0, 0] S512x512.size inb_S512x512_S512x512_0_0).toLoadRect (iblk m c (3 : Fin 6) t₀)) (View.readAt (Elt F) (Memref.whole cc0_stg4_0 : Memref sig .tc .vmem S512x512 .f32).view (Rect.unit (s := S512x512) ![0, 0] S512x512.size inb_S512x512_S512x512_0_0).toLoadRect (iblk m c (4 : Fin 6) t₀)),
                k0_pay4 (View.readAt (Elt F) (Memref.whole cc0_scratch0 : Memref sig .tc .vmem S8x2x128x512 .bf16).view (Rect.unit (s := S8x2x128x512) (k0_off1 c) S1x2x128x512.size (k0_off1_inb c)).toLoadRect (XGdef m))⟩ : Σ' (v113 : BitVec 32) (v137 : FVec F S512x512 .bf16) (v138 : FVec F S512x1536 .bf16), FVec F S2x128x512 .bf16)
      = ⟨Scalar.remsi (Scalar.addi v2 7#32) 8#32, WOv m c, Wv m c, k0_pay4 (slotv m c)⟩ := by
  rw [bm_own_slot_load m c, bm_stg2_readAt m c, bm_stg1_readAt m c, bm_stg3_readAt m c, bm_stg4_readAt m c]
  rfl

/-- The body as its first five parts and its named stretches. -/
def bodyTop : Prog (TpuEff nD τ sig (Elt F) Λ₀ .tc) PUnit := do
  let r1 ← k0_part1 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0
  let v41 ← k0_part2 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 r1.1 r1.2.1 r1.2.2.1 r1.2.2.2.1 r1.2.2.2.2
  let r3 ← k0_part3 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 r1.1 r1.2.1
  let r4 ← k0_part4 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 r1.1 r1.2.1
  let r5 ← k0_part5 (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 r1.1 r1.2.1
  let rm1 ← bodyMid1 (F := F) r1.1 r1.2.1 v41 r3.1 r3.2.1 r3.2.2 r4.1 r4.2 r5.1 r5.2.1 r5.2.2.1 r5.2.2.2
  let rm2 ← bodyMid2 (F := F) r1.1 r1.2.1 r5.2.1 rm1.1 rm1.2.1 rm1.2.2.1 rm1.2.2.2.1 rm1.2.2.2.2.1 rm1.2.2.2.2.2.1 rm1.2.2.2.2.2.2.1 rm1.2.2.2.2.2.2.2.1 rm1.2.2.2.2.2.2.2.2
  bodyMid3 (F := F) r5.2.1 rm2.1 rm2.2.1 rm2.2.2.1 rm2.2.2.2.1 rm2.2.2.2.2.1 rm2.2.2.2.2.2.1 rm2.2.2.2.2.2.2.1 rm2.2.2.2.2.2.2.2.1 rm2.2.2.2.2.2.2.2.2.1 rm2.2.2.2.2.2.2.2.2.2.1 rm2.2.2.2.2.2.2.2.2.2.2.1 rm2.2.2.2.2.2.2.2.2.2.2.2.1 rm2.2.2.2.2.2.2.2.2.2.2.2.2.1 rm2.2.2.2.2.2.2.2.2.2.2.2.2.2.1 rm2.2.2.2.2.2.2.2.2.2.2.2.2.2.2
  bodySuffix (F := F) r1.1 r1.2.1

set_option maxRecDepth 65536 in
set_option maxHeartbeats 4000000 in
/-- The body is its first five parts and its stretches, regrouped. -/
theorem cc0_body_eq_top : cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0 = bodyTop (F := F) := by
  unfold cc0_body bodyTop bodyMid1 bodyMid2 bodyMid3 bodySuffix bodyTail
  simp only [bind_assoc, pure_bind]

/-! ## The body -/

set_option maxHeartbeats 8000000 in
theorem sound_body (c : Dev nD) (Kt : PUnit → sProp 𝕄) :
    iprop(bodyPre m ρ (XGdef m) (SSdef m) (RSdef m) (OUTdef m) K c ∗ (bodyPost m ρ (XGdef m) (SSdef m) (RSdef m) (OUTdef m) c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_stg4_0) (Memref.isWhole_whole _) (Memref.whole cc0_stg5_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      cc0_scratch6 cc0_scratch7 cc0_scratch8 cc0_scratch9 cc0_scoped0) Kt := by
  rw [cc0_body_eq_top]
  unfold bodyTop bodyPre ghost positions payToks creds scratch
  iintro ⟨⟨⟨⟨#HI, #HR, ⟨Pbar, Pexit, PagS0, PagS1, PagS2, PagS3, PagS4, PagS5, PagS6, PagR0, PagR1, PagR2, PagR3, PagR4, PagR5, PagR6, PrsS0, PrsS1, PrsS2, PrsS3, PrsS4, PrsS5, PrsS6, PrsR0, PrsR1, PrsR2, PrsR3, PrsR4, PrsR5, PrsR6⟩, ⟨Tb1, Tb2, Tb3, Tb4, Tb5, Tb6, Tb7, Ta1, Ta2, Ta3, Ta4, Ta5, Ta6, Ta7, Tr7, Tr6, Tr5, Tr4, Tr3, Tr2, Tr1, Te1, Te2, Te3, Te4, Te5, Te6, Te7, TagS0, TagS1, TagS2, TagS3, TagS4, TagS5, TagS6, TrsS0, TrsS1, TrsS2, TrsS3, TrsS4, TrsS5, TrsS6⟩⟩, ⟨Cbar, CagR0, CagR1, CagR2, CagR3, CagR4, CagR5, CagR6, CrsR0, CrsR1, CrsR2, CrsR3, CrsR4, CrsR5, CrsR6, Cexit⟩, #HL, ⟨⟨%f0, S0⟩, ⟨%f1, S1⟩, ⟨%f2, S2⟩, ⟨%f3, S3⟩, ⟨%f4, S4⟩, ⟨%f5, S5⟩⟩⟩, Ho, B0, B1, B2, B3, B4, ⟨%g5, B5⟩⟩, HK⟩
  icases Ho with ⟨%W, %hW, HO⟩
  -- the gather buffer and the receive buffer of the partial rows by slots
  ihave S0' := (Entails.of_eq (xg_cut_ring' (F := F) c fullShare f0)) $$ S0
  icases S0' with ⟨X0, X1, X2, X3, X4, X5, X6, X7⟩
  ihave S5' := (Entails.of_eq (rs_cut (F := F) c fullShare f5)) $$ S5
  icases S5' with ⟨Y0, Y1, Y2, Y3, Y4, Y5, Y6⟩
  -- part 1: the device id, the first five entry signals
  iapply (wp_seq c (part1_run (XGdef m) (SSdef m) (RSdef m) K c W f0 f5))
  isplitl [Tb1 Tb2 Tb3 Tb4 Tb5 Tb6 Tb7 X1 X2 X3 X4 X5 X6 X7 Y0 Y1 Y2 Y3 Y4 Y5 Y6 HO]
  ·
    isplitr
    ·
      isplitr; · iapply (invs_nth (XGdef m) (SSdef m) (RSdef m) K c 30 (by decide)); iexact HI
      isplitr; · iapply (invs_nth (XGdef m) (SSdef m) (RSdef m) K c 31 (by decide)); iexact HI
      isplitr; · iapply (invs_nth (XGdef m) (SSdef m) (RSdef m) K c 32 (by decide)); iexact HI
      isplitr; · iapply (invs_nth (XGdef m) (SSdef m) (RSdef m) K c 33 (by decide)); iexact HI
      isplitr; · iapply (invs_nth (XGdef m) (SSdef m) (RSdef m) K c 34 (by decide)); iexact HI
      isplitr; · iapply (invs_nth (XGdef m) (SSdef m) (RSdef m) K c 35 (by decide)); iexact HI
      iapply (invs_nth (XGdef m) (SSdef m) (RSdef m) K c 36 (by decide)); iexact HI
    isplitr
    ·
      isplitr; · iapply (reacheds_nth (F := F) c 30 (by decide)); iexact HR
      isplitr; · iapply (reacheds_nth (F := F) c 31 (by decide)); iexact HR
      isplitr; · iapply (reacheds_nth (F := F) c 32 (by decide)); iexact HR
      isplitr; · iapply (reacheds_nth (F := F) c 33 (by decide)); iexact HR
      isplitr; · iapply (reacheds_nth (F := F) c 34 (by decide)); iexact HR
      isplitr; · iapply (reacheds_nth (F := F) c 35 (by decide)); iexact HR
      iapply (reacheds_nth (F := F) c 36 (by decide)); iexact HR
    isplitr
    ·
      isplitr; · iapply (reacheds_nth (F := F) c 9 (by decide)); iexact HR
      isplitr; · iapply (reacheds_nth (F := F) c 10 (by decide)); iexact HR
      isplitr; · iapply (reacheds_nth (F := F) c 11 (by decide)); iexact HR
      isplitr; · iapply (reacheds_nth (F := F) c 12 (by decide)); iexact HR
      isplitr; · iapply (reacheds_nth (F := F) c 13 (by decide)); iexact HR
      isplitr; · iapply (reacheds_nth (F := F) c 14 (by decide)); iexact HR
      iapply (reacheds_nth (F := F) c 15 (by decide)); iexact HR
    isplitr
    ·
      isplitr; · iapply (reacheds_nth (F := F) c 23 (by decide)); iexact HR
      isplitr; · iapply (reacheds_nth (F := F) c 24 (by decide)); iexact HR
      isplitr; · iapply (reacheds_nth (F := F) c 25 (by decide)); iexact HR
      isplitr; · iapply (reacheds_nth (F := F) c 26 (by decide)); iexact HR
      isplitr; · iapply (reacheds_nth (F := F) c 27 (by decide)); iexact HR
      isplitr; · iapply (reacheds_nth (F := F) c 28 (by decide)); iexact HR
      iapply (reacheds_nth (F := F) c 29 (by decide)); iexact HR
    isplitl [Tb1 Tb2 Tb3 Tb4 Tb5 Tb6 Tb7]
    ·
      isplitl [Tb1]; · iexact Tb1
      isplitl [Tb2]; · iexact Tb2
      isplitl [Tb3]; · iexact Tb3
      isplitl [Tb4]; · iexact Tb4
      isplitl [Tb5]; · iexact Tb5
      isplitl [Tb6]; · iexact Tb6
      iexact Tb7
    isplitl [X1 X2 X3 X4 X5 X6 X7]
    ·
      isplitl [X1]; · iexact X1
      isplitl [X2]; · iexact X2
      isplitl [X3]; · iexact X3
      isplitl [X4]; · iexact X4
      isplitl [X5]; · iexact X5
      isplitl [X6]; · iexact X6
      iexact X7
    isplitl [Y0 Y1 Y2 Y3 Y4 Y5 Y6]
    ·
      isplitl [Y0]; · iexact Y0
      isplitl [Y1]; · iexact Y1
      isplitl [Y2]; · iexact Y2
      isplitl [Y3]; · iexact Y3
      isplitl [Y4]; · iexact Y4
      isplitl [Y5]; · iexact Y5
      iexact Y6
    iexact HO
  iintro %r1 ⟨%hr1, Tb6, Tb7, X6, X7, Y5, Y6, HO⟩
  obtain ⟨d0, v2, v3, v24, c8_i32_20⟩ := r1
  obtain ⟨hd0, hv3⟩ := hr1
  dsimp only at hd0 hv3
  subst d0 v3
  dsimp only
  icases B0 with ⟨%x0, %hx0, B0⟩
  subst hx0
  -- part 2: the last two entry signals, the entry wait, the own block into its slot, the first copy
  iapply (wp_seq c (part2_run (XGdef m) (SSdef m) (RSdef m) K c W v2 v24 c8_i32_20 f0 f5 (iblk m c (0 : Fin 6) t₀) (hown_contents m c f0)))
  isplitl [Tb6 Tb7 TagS0 Ta1 X6 X7 Y5 Y6 X0 Pbar Cbar B0 HO]
  ·
    isplitr
    ·
      isplitr; · iapply (invs_nth (XGdef m) (SSdef m) (RSdef m) K c 35 (by decide)); iexact HI
      isplitr; · iapply (invs_nth (XGdef m) (SSdef m) (RSdef m) K c 36 (by decide)); iexact HI
      isplitr; · iapply (invs_nth (XGdef m) (SSdef m) (RSdef m) K c 0 (by decide)); iexact HI
      isplitr; · iapply (invs_nth (XGdef m) (SSdef m) (RSdef m) K c 2 (by decide)); iexact HI
      iapply (invs_nth (XGdef m) (SSdef m) (RSdef m) K c 37 (by decide)); iexact HI
    isplitr
    ·
      isplitr; · iapply (reacheds_nth (F := F) c 35 (by decide)); iexact HR
      isplitr; · iapply (reacheds_nth (F := F) c 36 (by decide)); iexact HR
      isplitr; · iapply (reacheds_nth (F := F) c 10 (by decide)); iexact HR
      isplitr; · iapply (reacheds_nth (F := F) c 9 (by decide)); iexact HR
      isplitr; · iapply (reacheds_nth (F := F) c 28 (by decide)); iexact HR
      isplitr; · iapply (reacheds_nth (F := F) c 29 (by decide)); iexact HR
      isplitr; · iapply (reacheds_nth (F := F) c 2 (by decide)); iexact HR
      iapply (reacheds_nth (F := F) c 37 (by decide)); iexact HR
    isplitl [Tb6 Tb7]
    ·
      isplitl [Tb6]; · iexact Tb6
      iexact Tb7
    isplitl [TagS0]; · iexact TagS0
    isplitl [Ta1]; · iexact Ta1
    isplitl [X6 X7]
    ·
      isplitl [X6]; · iexact X6
      iexact X7
    isplitl [Y5 Y6]
    ·
      isplitl [Y5]; · iexact Y5
      iexact Y6
    isplitl [X0]; · iexact X0
    isplitl [Pbar]; · iexact Pbar
    isplitl [Cbar]; · iexact Cbar
    isplitr; · iexact HL
    isplitl [B0]; · iexact B0
    iexact HO
  iintro %v41 ⟨-, -, ⟨⟨⟨%dx7, Dx7⟩, -, ⟨%dr7, Dr7⟩, -⟩, ⟨⟨%dx6, Dx6⟩, -, ⟨%dr6, Dr6⟩, -⟩, ⟨⟨%dx5, Dx5⟩, -, ⟨%dr5, Dr5⟩, -⟩, ⟨⟨%dx4, Dx4⟩, -, ⟨%dr4, Dr4⟩, -⟩, ⟨⟨%dx3, Dx3⟩, -, ⟨%dr3, Dr3⟩, -⟩, ⟨⟨%dx2, Dx2⟩, -, ⟨%dr2, Dr2⟩, -⟩⟩, ⟨⟨%dr1, Dr1⟩, -⟩, ⟨Lx1, Lx2, Lx3, Lx4, Lx5, Lx6⟩, Lk, CagS0, B0, HO⟩
  dsimp only
  -- part 3: the second and third copies of the gather
  iapply (wp_seq c (part3_run (XGdef m) (SSdef m) (RSdef m) K c (insert (SemLoc.reg barS, ()) (W)) v2 dx2 dx3))
  isplitl [TagS1 Ta2 TagS2 Ta3 Lx1 Lx2 Dx2 Dx3 HO]
  ·
    isplitr
    ·
      isplitr; · iapply (invs_nth (XGdef m) (SSdef m) (RSdef m) K c 3 (by decide)); iexact HI
      isplitr; · iapply (invs_nth (XGdef m) (SSdef m) (RSdef m) K c 38 (by decide)); iexact HI
      isplitr; · iapply (invs_nth (XGdef m) (SSdef m) (RSdef m) K c 4 (by decide)); iexact HI
      iapply (invs_nth (XGdef m) (SSdef m) (RSdef m) K c 39 (by decide)); iexact HI
    isplitr
    ·
      isplitr; · iapply (reacheds_nth (F := F) c 3 (by decide)); iexact HR
      isplitr; · iapply (reacheds_nth (F := F) c 38 (by decide)); iexact HR
      isplitr; · iapply (reacheds_nth (F := F) c 4 (by decide)); iexact HR
      iapply (reacheds_nth (F := F) c 39 (by decide)); iexact HR
    isplitl [TagS1 Ta2 TagS2 Ta3]
    ·
      isplitl [TagS1]; · iexact TagS1
      isplitl [Ta2]; · iexact Ta2
      isplitl [TagS2]; · iexact TagS2
      iexact Ta3
    isplitl [Lx1 Lx2]
    ·
      isplitl [Lx1]; · iexact Lx1
      iexact Lx2
    isplitl [Dx2 Dx3]
    ·
      isplitl [Dx2]; · iexact Dx2
      iexact Dx3
    iexact HO
  iintro %r3 ⟨%hr3, CagS1, CagS2, HO⟩
  subst hr3
  dsimp only
  -- part 4: the fourth and fifth
  iapply (wp_seq c (part4_run (XGdef m) (SSdef m) (RSdef m) K c (insert (SemLoc.reg barS, ()) (W)) v2 dx4 dx5))
  isplitl [TagS3 Ta4 TagS4 Ta5 Lx3 Lx4 Dx4 Dx5 HO]
  ·
    isplitr
    ·
      isplitr; · iapply (invs_nth (XGdef m) (SSdef m) (RSdef m) K c 5 (by decide)); iexact HI
      isplitr; · iapply (invs_nth (XGdef m) (SSdef m) (RSdef m) K c 40 (by decide)); iexact HI
      isplitr; · iapply (invs_nth (XGdef m) (SSdef m) (RSdef m) K c 6 (by decide)); iexact HI
      iapply (invs_nth (XGdef m) (SSdef m) (RSdef m) K c 41 (by decide)); iexact HI
    isplitr
    ·
      isplitr; · iapply (reacheds_nth (F := F) c 5 (by decide)); iexact HR
      isplitr; · iapply (reacheds_nth (F := F) c 40 (by decide)); iexact HR
      isplitr; · iapply (reacheds_nth (F := F) c 6 (by decide)); iexact HR
      iapply (reacheds_nth (F := F) c 41 (by decide)); iexact HR
    isplitl [TagS3 Ta4 TagS4 Ta5]
    ·
      isplitl [TagS3]; · iexact TagS3
      isplitl [Ta4]; · iexact Ta4
      isplitl [TagS4]; · iexact TagS4
      iexact Ta5
    isplitl [Lx3 Lx4]
    ·
      isplitl [Lx3]; · iexact Lx3
      iexact Lx4
    isplitl [Dx4 Dx5]
    ·
      isplitl [Dx4]; · iexact Dx4
      iexact Dx5
    iexact HO
  iintro %r4 ⟨%hr4, CagS3, CagS4, HO⟩
  subst hr4
  dsimp only
  icases B1 with ⟨%w1, %hw1, B1⟩
  icases B2 with ⟨%w2, %hw2, B2⟩
  icases B3 with ⟨%w3, %hw3, B3⟩
  icases B4 with ⟨%w4, %hw4, B4⟩
  subst hw1 hw2 hw3 hw4
  -- part 5: the sixth and seventh, the weights read
  iapply (wp_seq c (part5_run (XGdef m) (SSdef m) (RSdef m) K c (insert (SemLoc.reg barS, ()) (W)) v2 dx6 dx7 (iblk m c (1 : Fin 6) t₀) (iblk m c (2 : Fin 6) t₀) (iblk m c (3 : Fin 6) t₀) (iblk m c (4 : Fin 6) t₀) (XGdef m)))
  isplitl [TagS5 Ta6 TagS6 Ta7 Lx5 Lx6 Dx6 Dx7 B1 B2 B3 B4 Lk HO]
  ·
    isplitr
    ·
      isplitr; · iapply (invs_nth (XGdef m) (SSdef m) (RSdef m) K c 7 (by decide)); iexact HI
      isplitr; · iapply (invs_nth (XGdef m) (SSdef m) (RSdef m) K c 42 (by decide)); iexact HI
      isplitr; · iapply (invs_nth (XGdef m) (SSdef m) (RSdef m) K c 8 (by decide)); iexact HI
      iapply (invs_nth (XGdef m) (SSdef m) (RSdef m) K c 43 (by decide)); iexact HI
    isplitr
    ·
      isplitr; · iapply (reacheds_nth (F := F) c 7 (by decide)); iexact HR
      isplitr; · iapply (reacheds_nth (F := F) c 42 (by decide)); iexact HR
      isplitr; · iapply (reacheds_nth (F := F) c 8 (by decide)); iexact HR
      iapply (reacheds_nth (F := F) c 43 (by decide)); iexact HR
    isplitl [TagS5 Ta6 TagS6 Ta7]
    ·
      isplitl [TagS5]; · iexact TagS5
      isplitl [Ta6]; · iexact Ta6
      isplitl [TagS6]; · iexact TagS6
      iexact Ta7
    isplitl [Lx5 Lx6]
    ·
      isplitl [Lx5]; · iexact Lx5
      iexact Lx6
    isplitl [Dx6 Dx7]
    ·
      isplitl [Dx6]; · iexact Dx6
      iexact Dx7
    isplitl [B1 B2 B3 B4]
    ·
      isplitl [B1]; · iexact B1
      isplitl [B2]; · iexact B2
      isplitl [B3]; · iexact B3
      iexact B4
    isplitl [Lk]; · iexact Lk
    iexact HO
  iintro %r5 ⟨%hr5, CagS5, CagS6, ⟨B1, B2, B3, B4⟩, Lk, HO⟩
  rw [r5_norm m c v2] at hr5
  subst hr5
  dsimp only
  -- parts 6 to 23: the projections of the eight chunks between the receive waits of the gather, the first pass
  iapply (wp_seq c (mid1_run m (SSdef m) (RSdef m) K c (insert (SemLoc.reg barS, ()) W) v2 v41 (Scalar.remsi (Scalar.addi v2 2#32) 8#32) (Scalar.remsi (Scalar.addi v2 3#32) 8#32) (Scalar.remsi (Scalar.addi v2 4#32) 8#32) (Scalar.remsi (Scalar.addi v2 5#32) 8#32) (Scalar.remsi (Scalar.addi v2 6#32) 8#32) (Scalar.remsi (Scalar.addi v2 7#32) 8#32) f1 f2 f3))
  isplitl [PagR0 PagR1 PagR2 PagR3 PagR4 PagR5 PagR6 CagR0 CagR1 CagR2 CagR3 CagR4 CagR5 CagR6 HO S1 S2 S3]
  ·
    isplitr
    ·
      isplitr; · iapply (invs_nth (XGdef m) (SSdef m) (RSdef m) K c 9 (by decide)); iexact HI
      isplitr; · iapply (invs_nth (XGdef m) (SSdef m) (RSdef m) K c 10 (by decide)); iexact HI
      isplitr; · iapply (invs_nth (XGdef m) (SSdef m) (RSdef m) K c 11 (by decide)); iexact HI
      isplitr; · iapply (invs_nth (XGdef m) (SSdef m) (RSdef m) K c 12 (by decide)); iexact HI
      isplitr; · iapply (invs_nth (XGdef m) (SSdef m) (RSdef m) K c 13 (by decide)); iexact HI
      isplitr; · iapply (invs_nth (XGdef m) (SSdef m) (RSdef m) K c 14 (by decide)); iexact HI
      iapply (invs_nth (XGdef m) (SSdef m) (RSdef m) K c 15 (by decide)); iexact HI
    isplitl [PagR0 PagR1 PagR2 PagR3 PagR4 PagR5 PagR6]
    ·
      isplitl [PagR0]; · iexact PagR0
      isplitl [PagR1]; · iexact PagR1
      isplitl [PagR2]; · iexact PagR2
      isplitl [PagR3]; · iexact PagR3
      isplitl [PagR4]; · iexact PagR4
      isplitl [PagR5]; · iexact PagR5
      iexact PagR6
    isplitl [CagR0 CagR1 CagR2 CagR3 CagR4 CagR5 CagR6]
    ·
      isplitl [CagR0]; · iexact CagR0
      isplitl [CagR1]; · iexact CagR1
      isplitl [CagR2]; · iexact CagR2
      isplitl [CagR3]; · iexact CagR3
      isplitl [CagR4]; · iexact CagR4
      isplitl [CagR5]; · iexact CagR5
      iexact CagR6
    isplitr; · iexact HL
    isplitl [HO]; · iexact HO
    isplitl [S1]; · iexact S1
    isplitl [S2]; · iexact S2
    iexact S3
  iintro %rm1 ⟨%hrm1, ⟨QagR0, QagR1, QagR2, QagR3, QagR4, QagR5, QagR6⟩, -, ⟨X7, X6, X5, X4, X3, X2, X1⟩, HO, Sq, Sk, Sv⟩
  subst hrm1
  dsimp only
  ihave S4' := (Entails.of_eq (ss_cut (F := F) c fullShare f4)) $$ S4
  icases S4' with ⟨Z0, Z1, Z2, Z3, Z4, Z5, Z6⟩
  -- parts 24 to 33: the seven copies of partial rows, the second pass
  iapply (wp_seq c (mid2_run (XGdef m) K m c (insert (SemLoc.dma agR6, ()) (insert (SemLoc.dma agR5, ()) (insert (SemLoc.dma agR4, ()) (insert (SemLoc.dma agR3, ()) (insert (SemLoc.dma agR2, ()) (insert (SemLoc.dma agR1, ()) (insert (SemLoc.dma agR0, ()) (insert (SemLoc.reg barS, ()) W)))))))) v2 f4))
  isplitl [TrsS0 Tr7 Dr7 TrsS1 Tr6 Dr6 TrsS2 Tr5 Dr5 TrsS3 Tr4 Dr4 TrsS4 Tr3 Dr3 TrsS5 Tr2 Dr2 TrsS6 Tr1 Dr1 Z0 Z1 Z2 Z3 Z4 Z5 Z6 Sq Sk Sv HO]
  ·
    isplitl [TrsS0 Tr7 Dr7]
    · isplitr
      · isplitr; · iapply (invs_nth (XGdef m) (SSdef m) (RSdef m) K c 16 (by decide)); iexact HI
        iapply (invs_nth (XGdef m) (SSdef m) (RSdef m) K c 44 (by decide)); iexact HI
      isplitr
      · isplitr; · iapply (reacheds_nth (F := F) c 16 (by decide)); iexact HR
        iapply (reacheds_nth (F := F) c 44 (by decide)); iexact HR
      isplitl [TrsS0 Tr7]
      · isplitl [TrsS0]; · iexact TrsS0
        iexact Tr7
      iexists dr7; iexact Dr7
    isplitl [TrsS1 Tr6 Dr6]
    · isplitr
      · isplitr; · iapply (invs_nth (XGdef m) (SSdef m) (RSdef m) K c 17 (by decide)); iexact HI
        iapply (invs_nth (XGdef m) (SSdef m) (RSdef m) K c 45 (by decide)); iexact HI
      isplitr
      · isplitr; · iapply (reacheds_nth (F := F) c 17 (by decide)); iexact HR
        iapply (reacheds_nth (F := F) c 45 (by decide)); iexact HR
      isplitl [TrsS1 Tr6]
      · isplitl [TrsS1]; · iexact TrsS1
        iexact Tr6
      iexists dr6; iexact Dr6
    isplitl [TrsS2 Tr5 Dr5]
    · isplitr
      · isplitr; · iapply (invs_nth (XGdef m) (SSdef m) (RSdef m) K c 18 (by decide)); iexact HI
        iapply (invs_nth (XGdef m) (SSdef m) (RSdef m) K c 46 (by decide)); iexact HI
      isplitr
      · isplitr; · iapply (reacheds_nth (F := F) c 18 (by decide)); iexact HR
        iapply (reacheds_nth (F := F) c 46 (by decide)); iexact HR
      isplitl [TrsS2 Tr5]
      · isplitl [TrsS2]; · iexact TrsS2
        iexact Tr5
      iexists dr5; iexact Dr5
    isplitl [TrsS3 Tr4 Dr4]
    · isplitr
      · isplitr; · iapply (invs_nth (XGdef m) (SSdef m) (RSdef m) K c 19 (by decide)); iexact HI
        iapply (invs_nth (XGdef m) (SSdef m) (RSdef m) K c 47 (by decide)); iexact HI
      isplitr
      · isplitr; · iapply (reacheds_nth (F := F) c 19 (by decide)); iexact HR
        iapply (reacheds_nth (F := F) c 47 (by decide)); iexact HR
      isplitl [TrsS3 Tr4]
      · isplitl [TrsS3]; · iexact TrsS3
        iexact Tr4
      iexists dr4; iexact Dr4
    isplitl [TrsS4 Tr3 Dr3]
    · isplitr
      · isplitr; · iapply (invs_nth (XGdef m) (SSdef m) (RSdef m) K c 20 (by decide)); iexact HI
        iapply (invs_nth (XGdef m) (SSdef m) (RSdef m) K c 48 (by decide)); iexact HI
      isplitr
      · isplitr; · iapply (reacheds_nth (F := F) c 20 (by decide)); iexact HR
        iapply (reacheds_nth (F := F) c 48 (by decide)); iexact HR
      isplitl [TrsS4 Tr3]
      · isplitl [TrsS4]; · iexact TrsS4
        iexact Tr3
      iexists dr3; iexact Dr3
    isplitl [TrsS5 Tr2 Dr2]
    · isplitr
      · isplitr; · iapply (invs_nth (XGdef m) (SSdef m) (RSdef m) K c 21 (by decide)); iexact HI
        iapply (invs_nth (XGdef m) (SSdef m) (RSdef m) K c 49 (by decide)); iexact HI
      isplitr
      · isplitr; · iapply (reacheds_nth (F := F) c 21 (by decide)); iexact HR
        iapply (reacheds_nth (F := F) c 49 (by decide)); iexact HR
      isplitl [TrsS5 Tr2]
      · isplitl [TrsS5]; · iexact TrsS5
        iexact Tr2
      iexists dr2; iexact Dr2
    isplitl [TrsS6 Tr1 Dr1]
    · isplitr
      · isplitr; · iapply (invs_nth (XGdef m) (SSdef m) (RSdef m) K c 22 (by decide)); iexact HI
        iapply (invs_nth (XGdef m) (SSdef m) (RSdef m) K c 50 (by decide)); iexact HI
      isplitr
      · isplitr; · iapply (reacheds_nth (F := F) c 22 (by decide)); iexact HR
        iapply (reacheds_nth (F := F) c 50 (by decide)); iexact HR
      isplitl [TrsS6 Tr1]
      · isplitl [TrsS6]; · iexact TrsS6
        iexact Tr1
      iexists dr1; iexact Dr1
    isplitl [Z0 Z1 Z2 Z3 Z4 Z5 Z6]
    ·
      isplitl [Z0]; · iexact Z0
      isplitl [Z1]; · iexact Z1
      isplitl [Z2]; · iexact Z2
      isplitl [Z3]; · iexact Z3
      isplitl [Z4]; · iexact Z4
      isplitl [Z5]; · iexact Z5
      iexact Z6
    isplitl [Sq]; · iexact Sq
    isplitl [Sk]; · iexact Sk
    isplitl [Sv]; · iexact Sv
    iexact HO
  iintro %rm2 ⟨%hrm2, ⟨CrsS0, CrsS1, CrsS2, CrsS3, CrsS4, CrsS5, CrsS6⟩, Sq, Sk, Sv, HO⟩
  subst hrm2
  dsimp only
  -- parts 34 to 41: the third pass, the receive waits of the partial rows, the sum stored
  iapply (wp_seq c (mid3_run m (XGdef m) (SSdef m) K c (insert (SemLoc.dma agR6, ()) (insert (SemLoc.dma agR5, ()) (insert (SemLoc.dma agR4, ()) (insert (SemLoc.dma agR3, ()) (insert (SemLoc.dma agR2, ()) (insert (SemLoc.dma agR1, ()) (insert (SemLoc.dma agR0, ()) (insert (SemLoc.reg barS, ()) W)))))))) (Scalar.remsi (Scalar.addi (Scalar.subi v2 1#32) 8#32) 8#32) (Scalar.remsi (Scalar.addi (Scalar.subi v2 2#32) 8#32) 8#32) (Scalar.remsi (Scalar.addi (Scalar.subi v2 3#32) 8#32) 8#32) (Scalar.remsi (Scalar.addi (Scalar.subi v2 4#32) 8#32) 8#32) (Scalar.remsi (Scalar.addi (Scalar.subi v2 5#32) 8#32) 8#32) (Scalar.remsi (Scalar.addi (Scalar.subi v2 6#32) 8#32) 8#32) (Scalar.remsi (Scalar.addi (Scalar.subi v2 7#32) 8#32) 8#32) g5))
  isplitl [PrsR0 PrsR1 PrsR2 PrsR3 PrsR4 PrsR5 PrsR6 CrsR0 CrsR1 CrsR2 CrsR3 CrsR4 CrsR5 CrsR6 HO Sq Sk Sv B5]
  ·
    isplitl [PrsR0 CrsR0]
    · isplitr; · iapply (invs_nth (XGdef m) (SSdef m) (RSdef m) K c 23 (by decide)); iexact HI
      isplitl [PrsR0]; · iexact PrsR0
      iexact CrsR0
    isplitl [PrsR1 CrsR1]
    · isplitr; · iapply (invs_nth (XGdef m) (SSdef m) (RSdef m) K c 24 (by decide)); iexact HI
      isplitl [PrsR1]; · iexact PrsR1
      iexact CrsR1
    isplitl [PrsR2 CrsR2]
    · isplitr; · iapply (invs_nth (XGdef m) (SSdef m) (RSdef m) K c 25 (by decide)); iexact HI
      isplitl [PrsR2]; · iexact PrsR2
      iexact CrsR2
    isplitl [PrsR3 CrsR3]
    · isplitr; · iapply (invs_nth (XGdef m) (SSdef m) (RSdef m) K c 26 (by decide)); iexact HI
      isplitl [PrsR3]; · iexact PrsR3
      iexact CrsR3
    isplitl [PrsR4 CrsR4]
    · isplitr; · iapply (invs_nth (XGdef m) (SSdef m) (RSdef m) K c 27 (by decide)); iexact HI
      isplitl [PrsR4]; · iexact PrsR4
      iexact CrsR4
    isplitl [PrsR5 CrsR5]
    · isplitr; · iapply (invs_nth (XGdef m) (SSdef m) (RSdef m) K c 28 (by decide)); iexact HI
      isplitl [PrsR5]; · iexact PrsR5
      iexact CrsR5
    isplitl [PrsR6 CrsR6]
    · isplitr; · iapply (invs_nth (XGdef m) (SSdef m) (RSdef m) K c 29 (by decide)); iexact HI
      isplitl [PrsR6]; · iexact PrsR6
      iexact CrsR6
    isplitr; · iexact HL
    isplitl [HO]; · iexact HO
    isplitl [Sq]; · iexact Sq
    isplitl [Sk]; · iexact Sk
    isplitl [Sv]; · iexact Sv
    iexact B5
  iintro %u3 ⟨HO, ⟨QrsR0, -, Yr0⟩, ⟨QrsR1, -, Yr1⟩, ⟨QrsR2, -, Yr2⟩, ⟨QrsR3, -, Yr3⟩, ⟨QrsR4, -, Yr4⟩, ⟨QrsR5, -, Yr5⟩, ⟨QrsR6, -, Yr6⟩, Sq, Sk, Sv, B5⟩
  dsimp only
  -- the end of the body: the send waits, the exit barrier, the closing of the own cells
  iapply (wp_conseq c (suffix_run (XGdef m) (SSdef m) (RSdef m) K c (insert (SemLoc.dma rsR6, ()) (insert (SemLoc.dma rsR5, ()) (insert (SemLoc.dma rsR4, ()) (insert (SemLoc.dma rsR3, ()) (insert (SemLoc.dma rsR2, ()) (insert (SemLoc.dma rsR1, ()) (insert (SemLoc.dma rsR0, ()) (insert (SemLoc.dma agR6, ()) (insert (SemLoc.dma agR5, ()) (insert (SemLoc.dma agR4, ()) (insert (SemLoc.dma agR3, ()) (insert (SemLoc.dma agR2, ()) (insert (SemLoc.dma agR1, ()) (insert (SemLoc.dma agR0, ()) (insert (SemLoc.reg barS, ()) W))))))))))))))) v2))
  isplitl [PagS0 PagS1 PagS2 PagS3 PagS4 PagS5 PagS6 CagS0 CagS1 CagS2 CagS3 CagS4 CagS5 CagS6 PrsS0 PrsS1 PrsS2 PrsS3 PrsS4 PrsS5 PrsS6 CrsS0 CrsS1 CrsS2 CrsS3 CrsS4 CrsS5 CrsS6 Te1 Te2 Te3 Te4 Te5 Te6 Te7 Pexit Cexit QagR0 QagR1 QagR2 QagR3 QagR4 QagR5 QagR6 QrsR0 QrsR1 QrsR2 QrsR3 QrsR4 QrsR5 QrsR6 HO]
  ·
    isplitr; · iexact HI
    isplitr; · iexact HR
    isplitr; · iexact HL
    isplitr [HO]
    · unfold suffixPre
      isplitl [PagS0 PagS1 PagS2 PagS3 PagS4 PagS5 PagS6]
      ·
        isplitl [PagS0]; · iexact PagS0
        isplitl [PagS1]; · iexact PagS1
        isplitl [PagS2]; · iexact PagS2
        isplitl [PagS3]; · iexact PagS3
        isplitl [PagS4]; · iexact PagS4
        isplitl [PagS5]; · iexact PagS5
        iexact PagS6
      isplitl [CagS0 CagS1 CagS2 CagS3 CagS4 CagS5 CagS6]
      ·
        isplitl [CagS0]; · iexact CagS0
        isplitl [CagS1]; · iexact CagS1
        isplitl [CagS2]; · iexact CagS2
        isplitl [CagS3]; · iexact CagS3
        isplitl [CagS4]; · iexact CagS4
        isplitl [CagS5]; · iexact CagS5
        iexact CagS6
      isplitl [PrsS0 PrsS1 PrsS2 PrsS3 PrsS4 PrsS5 PrsS6]
      ·
        isplitl [PrsS0]; · iexact PrsS0
        isplitl [PrsS1]; · iexact PrsS1
        isplitl [PrsS2]; · iexact PrsS2
        isplitl [PrsS3]; · iexact PrsS3
        isplitl [PrsS4]; · iexact PrsS4
        isplitl [PrsS5]; · iexact PrsS5
        iexact PrsS6
      isplitl [CrsS0 CrsS1 CrsS2 CrsS3 CrsS4 CrsS5 CrsS6]
      ·
        isplitl [CrsS0]; · iexact CrsS0
        isplitl [CrsS1]; · iexact CrsS1
        isplitl [CrsS2]; · iexact CrsS2
        isplitl [CrsS3]; · iexact CrsS3
        isplitl [CrsS4]; · iexact CrsS4
        isplitl [CrsS5]; · iexact CrsS5
        iexact CrsS6
      isplitl [Te1 Te2 Te3 Te4 Te5 Te6 Te7]
      ·
        isplitl [Te1]; · iexact Te1
        isplitl [Te2]; · iexact Te2
        isplitl [Te3]; · iexact Te3
        isplitl [Te4]; · iexact Te4
        isplitl [Te5]; · iexact Te5
        isplitl [Te6]; · iexact Te6
        iexact Te7
      isplitl [Pexit]; · iexact Pexit
      isplitl [Cexit]; · iexact Cexit
      isplitl [QagR0 QagR1 QagR2 QagR3 QagR4 QagR5 QagR6]
      ·
        isplitl [QagR0]; · iexact QagR0
        isplitl [QagR1]; · iexact QagR1
        isplitl [QagR2]; · iexact QagR2
        isplitl [QagR3]; · iexact QagR3
        isplitl [QagR4]; · iexact QagR4
        isplitl [QagR5]; · iexact QagR5
        iexact QagR6
      isplitl [QrsR0]; · iexact QrsR0
      isplitl [QrsR1]; · iexact QrsR1
      isplitl [QrsR2]; · iexact QrsR2
      isplitl [QrsR3]; · iexact QrsR3
      isplitl [QrsR4]; · iexact QrsR4
      isplitl [QrsR5]; · iexact QrsR5
      iexact QrsR6
    iexact HO
  iintro %u Hsuf
  iapply HK
  iapply (body_finish m ρ (XGdef m) (SSdef m) (RSdef m) (OUTdef m) c (Qbuf m c) (Kbuf m c) (Vbuf m c))
  isplitl [Hsuf]; · iexact Hsuf
  unfold finishPre
  isplitl [Lk]; · iexact Lk
  isplitl [X1 X2 X3 X4 X5 X6 X7]
  ·
    isplitl [X1]; · iexact X1
    isplitl [X2]; · iexact X2
    isplitl [X3]; · iexact X3
    isplitl [X4]; · iexact X4
    isplitl [X5]; · iexact X5
    isplitl [X6]; · iexact X6
    iexact X7
  isplitl [Sq]; · iexact Sq
  isplitl [Sk]; · iexact Sk
  isplitl [Sv]; · iexact Sv
  isplitl [Yr0 Yr1 Yr2 Yr3 Yr4 Yr5 Yr6]
  ·
    isplitl [Yr0]; · iexact Yr0
    isplitl [Yr1]; · iexact Yr1
    isplitl [Yr2]; · iexact Yr2
    isplitl [Yr3]; · iexact Yr3
    isplitl [Yr4]; · iexact Yr4
    isplitl [Yr5]; · iexact Yr5
    iexact Yr6
  isplitl [B0]
  · iexists _; isplitr; · (ipureintro; rfl)
    iexact B0
  isplitl [B1]
  · iexists _; isplitr; · (ipureintro; rfl)
    iexact B1
  isplitl [B2]
  · iexists _; isplitr; · (ipureintro; rfl)
    iexact B2
  isplitl [B3]
  · iexists _; isplitr; · (ipureintro; rfl)
    iexact B3
  isplitl [B4]
  · iexists _; isplitr; · (ipureintro; rfl)
    iexact B4
  iexists _; isplitr; · (ipureintro; rfl)
  iexact B5

/-- info: 'Cert.KernelIdealProof.sound_body' depends on axioms: [propext, Classical.choice, Quot.sound] -/
#guard_msgs in #print axioms sound_body

end Cert.KernelIdealProof

end
-- ==== Proof.lean ====
/-
  Eight devices compute one self-attention layer with its output projection. Claimed: the printed programs run and leave
  their arguments unchanged; the one rewrite between the word-level and the idealized kernel (narrowing to bf16 and widening
  back) is the identity over the extended reals; and there device c's result is its block of rows of the reference's.

  The reference: Q = x·Wq, K = x·Wk, V = x·Wv in 64 heads of width 64; the score of query i and key j in head h is
  κ · Σ_e Q[i,h,e]·K[j,h,e], κ = 1/8; a row's weights are exp (score − the row's maximum) over their sum; the attention row
  is the weighted sum of the V[j]; the result is that row times Wo.

  The kernel: device d holds rows 128 d … 128 d + 127 of x (its chunk) and heads 8 d … 8 d + 7, that is columns
  512 d … 512 d + 511 of Wq, Wk, Wv and those rows of Wo. After an entry barrier every device copies its block of x into its
  slot of every other device's gather buffer. Device d projects each block, as it arrives, to q, k, v for its heads, κ folded
  into Wq, the sequence in rotated order (block r holds the chunk of device d − r). Its weights are exp (score), no maximum
  subtracted, the sums over the keys taken in two halves where the first half is complete early; the normalised rows times
  its rows of Wo are its partial results for all 1024 rows. The partial rows for the chunk of device d − j go to that
  device's receive slot j − 1; each device adds its own partial rows for its chunk and the seven it receives, waits until its
  copies have been read out, and meets the others at an exit barrier.

  The protocol is one round on every semaphore. A barrier cell has seven unit duties, one per peer; the entry signal hands
  the owner the signaller's two slots it will write. A receive cell's one duty hands its owner the slot with what landed, a
  send cell's hands back what was lent of the source. A device waits only on a cell below everything it still owes (entry
  barrier, gather receives, partial-row receives, exit barrier, in rising order), so no wait closes a cycle; the launch deals
  each device the credit for what its peers owe its cells.

  What joins the two: heads are independent, so the reference's heads 8 d … 8 d + 7 are device d's; for real scores, which
  the precondition (every input entry a real) gives, exp (s − M) / Σ exp (s' − M) = exp s / Σ exp s'; a sum over the keys is
  the sum over its halves; and the product with Wo over 4096 columns is the sum over the devices of the products over their
  512 rows, addition of reals being commutative and associative: device c's eight summands are its own partial rows and the
  seven it receives.
-/
import proofs.«900761_g7700000000000762_dist_attn_self_mha_htp_ss_b2_sq128_skv128_d512_hq8_dh64_v7x_i8_bf16_1_alg».proof.Defs
import proofs.«900761_g7700000000000762_dist_attn_self_mha_htp_ss_b2_sq128_skv128_d512_hq8_dh64_v7x_i8_bf16_1_alg».proof.Proof.Claims
import proofs.«900761_g7700000000000762_dist_attn_self_mha_htp_ss_b2_sq128_skv128_d512_hq8_dh64_v7x_i8_bf16_1_alg».proof.Proof.FrameBits
import proofs.«900761_g7700000000000762_dist_attn_self_mha_htp_ss_b2_sq128_skv128_d512_hq8_dh64_v7x_i8_bf16_1_alg».proof.Proof.BodyMain
import proofs.«900761_g7700000000000762_dist_attn_self_mha_htp_ss_b2_sq128_skv128_d512_hq8_dh64_v7x_i8_bf16_1_alg».proof.Proof.Bits.BodyMain

theorem Cert.Proof.claim : Cert.Claim :=
  Cert.KernelIdealProof.claim_of
    (fun m ρ K c Kt => Cert.KernelIdealProof.sound_body m ρ K c Kt)
    (Cert.KernelProof.frame_k (fun m ρ K c Kt => Cert.KernelProof.sound_body m ρ K c Kt))
